-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.sign_bit.Statement Cert.KernelIdeal.S5000x64 .f32
  ∧ IdealRules.sign_bit.Statement Cert.KernelIdeal.S5000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v356)) (v1 : (c : Dev Cert.KernelIdeal.nD) → Buf (Elt Ideal) ((c.tc : Thread Cert.KernelIdeal.nD Cert.KernelIdeal.τ).loc Cert.KernelIdeal.main_v354)) (v2 : (c : Dev Cert.KernelIdeal.nD) → Buf (Elt Ideal) ((c.tc : Thread Cert.KernelIdeal.nD Cert.KernelIdeal.τ).loc Cert.KernelIdeal.main_v323)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v356) = v0 c
          ∧ r.2.mem ((c.tc : Thread Cert.KernelIdeal.nD Cert.KernelIdeal.τ).loc Cert.KernelIdeal.main_v354) = v1 c
          ∧ r.2.mem ((c.tc : Thread Cert.KernelIdeal.nD Cert.KernelIdeal.τ).loc Cert.KernelIdeal.main_v323) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v504) = v0 c
          ∧ r.2.mem ((c.tc : Thread Cert.ReferenceIdeal.nD Cert.ReferenceIdeal.τ).loc Cert.ReferenceIdeal.main_v502) = v1 c
          ∧ r.2.mem ((c.tc : Thread Cert.ReferenceIdeal.nD Cert.ReferenceIdeal.τ).loc Cert.ReferenceIdeal.main_v471) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64 : Shape := ⟨1, ![64]⟩
abbrev S64x100000 : Shape := ⟨2, ![64, 100000]⟩
abbrev S64x50000 : Shape := ⟨2, ![64, 50000]⟩
abbrev S2x64x64 : Shape := ⟨3, ![2, 64, 64]⟩
abbrev S1000000 : Shape := ⟨1, ![1000000]⟩
abbrev S2x2x1000000 : Shape := ⟨3, ![2, 2, 1000000]⟩
abbrev S2x2048 : Shape := ⟨2, ![2, 2048]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64 : S_.BroadcastsInDim S64 (![] : Fin 0 → Fin S64.rank)
  reducesTo_S64_S_d0 : S64.ReducesTo [0] S_
  bcast_S_S64x100000 : S_.BroadcastsInDim S64x100000 (![] : Fin 0 → Fin S64x100000.rank)
  reducesTo_S64x100000_S_d0_1 : S64x100000.ReducesTo [0, 1] S_
  bcast_S_S64x50000 : S_.BroadcastsInDim S64x50000 (![] : Fin 0 → Fin S64x50000.rank)
  reducesTo_S64x50000_S_d0_1 : S64x50000.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S1000000 : S_.BroadcastsInDim S1000000 (![] : Fin 0 → Fin S1000000.rank)
  reducesTo_S1000000_S_d0 : S1000000.ReducesTo [0] S_
  bcast_S_S2x2x1000000 : S_.BroadcastsInDim S2x2x1000000 (![] : Fin 0 → Fin S2x2x1000000.rank)
  reducesTo_S2x2x1000000_S_d0_1_2 : S2x2x1000000.ReducesTo [0, 1, 2] S_
  bcast_S_S2x2048 : S_.BroadcastsInDim S2x2048 (![] : Fin 0 → Fin S2x2048.rank)
  reducesTo_S2x2048_S_d0_1 : S2x2048.ReducesTo [0, 1] S_

variable [Facts]

def fn_part4 {F : FTy → Type} [FloatOps F] (main_arg14 : FVec F S50000x64 .f32) (main_arg15 : FVec F S2x2048 .f32) (main_arg16 : FVec F S2x2048 .f32) (main_v63 : IVec S_ 1) (main_v67 : IVec S_ 1) : IVec S_ 1 :=
  let main_v68 : IVec S_ 1 := andi main_v63 main_v67
  let main_v69 : FVec F S50000x64 .f32 := Host.absf main_arg14
  let main_cst_26 : FVec F S_ .f32 := constant S_ .f32 0x7F800000#32
  let main_v70 : FVec F S50000x64 .f32 := broadcastInDim S50000x64 ![] bcast_S_S50000x64 main_cst_26
  let main_v71 : IVec S50000x64 1 := cmpf .olt main_v69 main_v70
  let main_c_27 : IVec S_ 1 := constantI S_ 1 1#1
  let main_v72 : IVec S_ 1 := (fun x v => Host.reduce IntOp.andi x v reducesTo_S50000x64_S_d0_1 h_S_) main_v71 main_c_27
  let main_v73 : IVec S_ 1 := andi main_v68 main_v72
  let main_v74 : FVec F S2x2048 .f32 := Host.absf main_arg15
  let main_cst_28 : FVec F S_ .f32 := constant S_ .f32 0x7F800000#32
  let main_v75 : FVec F S2x2048 .f32 := broadcastInDim S2x2048 ![] bcast_S_S2x2048 main_cst_28
  let main_v76 : IVec S2x2048 1 := cmpf .olt main_v74 main_v75
  let main_c_29 : IVec S_ 1 := constantI S_ 1 1#1
  let main_v77 : IVec S_ 1 := (fun x v => Host.reduce IntOp.andi x v reducesTo_S2x2048_S_d0_1 h_S_) main_v76 main_c_29
  let main_v78 : IVec S_ 1 := andi main_v73 main_v77
  let main_v79 : FVec F S2x2048 .f32 := Host.absf main_arg16
  let main_cst_30 : FVec F S_ .f32 := constant S_ .f32 0x7F800000#32
  let main_v80 : FVec F S2x2048 .f32 := broadcastInDim S2x2048 ![] bcast_S_S2x2048 main_cst_30
  let main_v81 : IVec S2x2048 1 := cmpf .olt main_v79 main_v80
  let main_c_31 : IVec S_ 1 := constantI S_ 1 1#1
  let main_v82 : IVec S_ 1 := (fun x v => Host.reduce IntOp.andi x v reducesTo_S2x2048_S_d0_1 h_S_) main_v81 main_c_31
  let main_v83 : IVec S_ 1 := andi main_v78 main_v82
  main_v83

def fn_part3 {F : FTy → Type} [FloatOps F] (main_arg11 : FVec F S100000x64 .f32) (main_arg12 : FVec F S50000x64 .f32) (main_arg13 : FVec F S100000x64 .f32) (main_arg14 : FVec F S50000x64 .f32) (main_arg15 : FVec F S2x2048 .f32) (main_arg16 : FVec F S2x2048 .f32) (main_v48 : IVec S_ 1) (main_v49 : FVec F S2x2x1000000 .f32) (main_v50 : FVec F S2x2x1000000 .f32) : IVec S_ 1 :=
  let main_v51 : IVec S2x2x1000000 1 := cmpf .olt main_v49 main_v50
  let main_c_19 : IVec S_ 1 := constantI S_ 1 1#1
  let main_v52 : IVec S_ 1 := (fun x v => Host.reduce IntOp.andi x v reducesTo_S2x2x1000000_S_d0_1_2 h_S_) main_v51 main_c_19
  let main_v53 : IVec S_ 1 := andi main_v48 main_v52
  let main_v54 : FVec F S100000x64 .f32 := Host.absf main_arg11
  let main_cst_20 : FVec F S_ .f32 := constant S_ .f32 0x7F800000#32
  let main_v55 : FVec F S100000x64 .f32 := broadcastInDim S100000x64 ![] bcast_S_S100000x64 main_cst_20
  let main_v56 : IVec S100000x64 1 := cmpf .olt main_v54 main_v55
  let main_c_21 : IVec S_ 1 := constantI S_ 1 1#1
  let main_v57 : IVec S_ 1 := (fun x v => Host.reduce IntOp.andi x v reducesTo_S100000x64_S_d0_1 h_S_) main_v56 main_c_21
  let main_v58 : IVec S_ 1 := andi main_v53 main_v57
  let main_v59 : FVec F S50000x64 .f32 := Host.absf main_arg12
  let main_cst_22 : FVec F S_ .f32 := constant S_ .f32 0x7F800000#32
  let main_v60 : FVec F S50000x64 .f32 := broadcastInDim S50000x64 ![] bcast_S_S50000x64 main_cst_22
  let main_v61 : IVec S50000x64 1 := cmpf .olt main_v59 main_v60
  let main_c_23 : IVec S_ 1 := constantI S_ 1 1#1
  let main_v62 : IVec S_ 1 := (fun x v => Host.reduce IntOp.andi x v reducesTo_S50000x64_S_d0_1 h_S_) main_v61 main_c_23
  let main_v63 : IVec S_ 1 := andi main_v58 main_v62
  let main_v64 : FVec F S100000x64 .f32 := Host.absf main_arg13
  let main_cst_24 : FVec F S_ .f32 := constant S_ .f32 0x7F800000#32
  let main_v65 : FVec F S100000x64 .f32 := broadcastInDim S100000x64 ![] bcast_S_S100000x64 main_cst_24
  let main_v66 : IVec S100000x64 1 := cmpf .olt main_v64 main_v65
  let main_c_25 : IVec S_ 1 := constantI S_ 1 1#1
  let main_v67 : IVec S_ 1 := (fun x v => Host.reduce IntOp.andi x v reducesTo_S100000x64_S_d0_1 h_S_) main_v66 main_c_25
  fn_part4 (F := F) main_arg14 main_arg15 main_arg16 main_v63 main_v67

def fn_part2 {F : FTy → Type} [FloatOps F] (main_arg7 : FVec F S2x64x64 .f32) (main_arg8 : FVec F S2x64x64 .f32) (main_arg9 : FVec F S1000000 .f32) (main_arg10 : FVec F S2x2x1000000 .f32) (main_arg11 : FVec F S100000x64 .f32) (main_arg12 : FVec F S50000x64 .f32) (main_arg13 : FVec F S100000x64 .f32) (main_arg14 : FVec F S50000x64 .f32) (main_arg15 : FVec F S2x2048 .f32) (main_arg16 : FVec F S2x2048 .f32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64x64 .f32 := Host.absf main_arg8
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S1000000 .f32 := Host.absf main_arg9
  let main_cst_16 : FVec F S_ .f32 := constant S_ .f32 0x7F800000#32
  let main_v45 : FVec F S1000000 .f32 := broadcastInDim S1000000 ![] bcast_S_S1000000 main_cst_16
  let main_v46 : IVec S1000000 1 := cmpf .olt main_v44 main_v45
  let main_c_17 : IVec S_ 1 := constantI S_ 1 1#1
  let main_v47 : IVec S_ 1 := (fun x v => Host.reduce IntOp.andi x v reducesTo_S1000000_S_d0 h_S_) main_v46 main_c_17
  let main_v48 : IVec S_ 1 := andi main_v43 main_v47
  let main_v49 : FVec F S2x2x1000000 .f32 := Host.absf main_arg10
  let main_cst_18 : FVec F S_ .f32 := constant S_ .f32 0x7F800000#32
  let main_v50 : FVec F S2x2x1000000 .f32 := broadcastInDim S2x2x1000000 ![] bcast_S_S2x2x1000000 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64x100000 .f32) (main_arg6 : FVec F S64x50000 .f32) (main_arg7 : FVec F S2x64x64 .f32) (main_arg8 : FVec F S2x64x64 .f32) (main_arg9 : FVec F S1000000 .f32) (main_arg10 : FVec F S2x2x1000000 .f32) (main_arg11 : FVec F S100000x64 .f32) (main_arg12 : FVec F S50000x64 .f32) (main_arg13 : FVec F S100000x64 .f32) (main_arg14 : FVec F S50000x64 .f32) (main_arg15 : FVec F S2x2048 .f32) (main_arg16 : FVec F S2x2048 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x100000 .f32 := Host.absf main_arg5
  let main_cst_8 : FVec F S_ .f32 := constant S_ .f32 0x7F800000#32
  let main_v25 : FVec F S64x100000 .f32 := broadcastInDim S64x100000 ![] bcast_S_S64x100000 main_cst_8
  let main_v26 : IVec S64x100000 1 := cmpf .olt main_v24 main_v25
  let main_c_9 : IVec S_ 1 := constantI S_ 1 1#1
  let main_v27 : IVec S_ 1 := (fun x v => Host.reduce IntOp.andi x v reducesTo_S64x100000_S_d0_1 h_S_) main_v26 main_c_9
  let main_v28 : IVec S_ 1 := andi main_v23 main_v27
  let main_v29 : FVec F S64x50000 .f32 := Host.absf main_arg6
  let main_cst_10 : FVec F S_ .f32 := constant S_ .f32 0x7F800000#32
  let main_v30 : FVec F S64x50000 .f32 := broadcastInDim S64x50000 ![] bcast_S_S64x50000 main_cst_10
  let main_v31 : IVec S64x50000 1 := cmpf .olt main_v29 main_v30
  let main_c_11 : IVec S_ 1 := constantI S_ 1 1#1
  let main_v32 : IVec S_ 1 := (fun x v => Host.reduce IntOp.andi x v reducesTo_S64x50000_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x64 .f32) (main_arg1 : FVec F S50000x64 .f32) (main_arg2 : FVec F S100000x64 .f32) (main_arg3 : FVec F S50000x64 .f32) (main_arg4 : FVec F S64 .f32) (main_arg5 : FVec F S64x100000 .f32) (main_arg6 : FVec F S64x50000 .f32) (main_arg7 : FVec F S2x64x64 .f32) (main_arg8 : FVec F S2x64x64 .f32) (main_arg9 : FVec F S1000000 .f32) (main_arg10 : FVec F S2x2x1000000 .f32) (main_arg11 : FVec F S100000x64 .f32) (main_arg12 : FVec F S50000x64 .f32) (main_arg13 : FVec F S100000x64 .f32) (main_arg14 : FVec F S50000x64 .f32) (main_arg15 : FVec F S2x2048 .f32) (main_arg16 : FVec F S2x2048 .f32) (main_arg17 : IVec S1000000 32) (main_arg18 : IVec S1000000 32) (main_arg19 : IVec S2048 32) (main_arg20 : IVec S2048 32) (main_arg21 : IVec S2048 32) (main_arg22 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S50000x64 : Shape := ⟨2, ![50000, 64]⟩
abbrev S64 : Shape := ⟨1, ![64]⟩
abbrev S64x100000 : Shape := ⟨2, ![64, 100000]⟩
abbrev S64x50000 : Shape := ⟨2, ![64, 50000]⟩
abbrev S2x64x64 : Shape := ⟨3, ![2, 64, 64]⟩
abbrev S1000000 : Shape := ⟨1, ![1000000]⟩
abbrev S2x2x1000000 : Shape := ⟨3, ![2, 2, 1000000]⟩
abbrev S2x2048 : Shape := ⟨2, ![2, 2048]⟩
abbrev S2048 : Shape := ⟨1, ![2048]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x1x1000000 : Shape := ⟨3, ![1, 1, 1000000]⟩
abbrev S_ : Shape := ⟨0, ![]⟩
abbrev S1000000x1 : Shape := ⟨2, ![1000000, 1]⟩
abbrev S1000000x64 : Shape := ⟨2, ![1000000, 64]⟩
abbrev S64x64 : Shape := ⟨2, ![64, 64]⟩
abbrev S1x64x64 : Shape := ⟨3, ![1, 64, 64]⟩
abbrev S1x2048 : Shape := ⟨2, ![1, 2048]⟩
abbrev S2048x1 : Shape := ⟨2, ![2048, 1]⟩
abbrev S2048x64 : Shape := ⟨2, ![2048, 64]⟩
abbrev S64x2048 : Shape := ⟨2, ![64, 2048]⟩
abbrev S2048x2048 : Shape := ⟨2, ![2048, 2048]⟩

abbrev nBuf : Space → Nat
  | .hbm => 483
  | .vmem => 78
  | .smem => 0
  | _ => 0

abbrev hbmTy0_0 (i : Nat) : BufTy := match i % 128 with
  | 0 => ⟨S100000x64, .f32⟩
  | 1 => ⟨S50000x64, .f32⟩
  | 2 => ⟨S100000x64, .f32⟩
  | 3 => ⟨S50000x64, .f32⟩
  | 4 => ⟨S64, .f32⟩
  | 5 => ⟨S64x100000, .f32⟩
  | 6 => ⟨S64x50000, .f32⟩
  | 7 => ⟨S2x64x64, .f32⟩
  | 8 => ⟨S2x64x64, .f32⟩
  | 9 => ⟨S1000000, .f32⟩
  | 10 => ⟨S2x2x1000000, .f32⟩
  | 11 => ⟨S100000x64, .f32⟩
  | 12 => ⟨S50000x64, .f32⟩
  | 13 => ⟨S100000x64, .f32⟩
  | 14 => ⟨S50000x64, .f32⟩
  | 15 => ⟨S2x2048, .f32⟩
  | 16 => ⟨S2x2048, .f32⟩
  | 17 => ⟨S1000000, .i32⟩
  | 18 => ⟨S1000000, .i32⟩
  | 19 => ⟨S2048, .i32⟩
  | 20 => ⟨S2048, .i32⟩
  | 21 => ⟨S2048, .i32⟩
  | 22 => ⟨S2048, .i32⟩
  | 23 => ⟨S1x64, .f32⟩
  | 24 => ⟨S100000x64, .f32⟩
  | 25 => ⟨S100000x64, .f32⟩
  | 26 => ⟨S1x64, .f32⟩
  | 27 => ⟨S50000x64, .f32⟩
  | 28 => ⟨S50000x64, .f32⟩
  | 29 => ⟨S1x1x1000000, .f32⟩
  | 30 => ⟨S1000000, .f32⟩
  | 31 => ⟨S_, .f32⟩
  | 32 => ⟨S1000000, .f32⟩
  | 33 => ⟨S1000000, .i1⟩
  | 34 => ⟨S1000000, .f32⟩
  | 35 => ⟨S1000000, .f32⟩
  | 36 => ⟨S_, .f32⟩
  | 37 => ⟨S1000000, .f32⟩
  | 38 => ⟨S1000000, .f32⟩
  | 39 => ⟨S1000000x1, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S1000000x64, .f32⟩
  | 50 => ⟨S1000000x64, .f32⟩
  | 51 => ⟨S_, .f32⟩
  | 52 => ⟨S100000x64, .f32⟩
  | 53 => ⟨S1000000x1, .i32⟩
  | 54 => ⟨S100000x64, .f32⟩
  | 55 => ⟨S_, .f32⟩
  | 56 => ⟨S100000x64, .f32⟩
  | 57 => ⟨S100000x64, .i1⟩
  | 58 => ⟨S_, .f32⟩
  | 59 => ⟨S100000x64, .f32⟩
  | 60 => ⟨S100000x64, .f32⟩
  | 61 => ⟨S100000x64, .f32⟩
  | 62 => ⟨S1x1x1000000, .f32⟩
  | 63 => ⟨S1000000, .f32⟩
  | 64 => ⟨S_, .f32⟩
  | 65 => ⟨S1000000, .f32⟩
  | 66 => ⟨S1000000, .i1⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000x1, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x64, .f32⟩
  | 83 => ⟨S1000000x64, .f32⟩
  | 84 => ⟨S_, .f32⟩
  | 85 => ⟨S50000x64, .f32⟩
  | 86 => ⟨S1000000x1, .i32⟩
  | 87 => ⟨S50000x64, .f32⟩
  | 88 => ⟨S_, .f32⟩
  | 89 => ⟨S50000x64, .f32⟩
  | 90 => ⟨S50000x64, .i1⟩
  | 91 => ⟨S_, .f32⟩
  | 92 => ⟨S50000x64, .f32⟩
  | 93 => ⟨S50000x64, .f32⟩
  | 94 => ⟨S50000x64, .f32⟩
  | 95 => ⟨S64x64, .f32⟩
  | 96 => ⟨S64x64, .f32⟩
  | 97 => ⟨S100000x64, .f32⟩
  | 98 => ⟨S100000x64, .f32⟩
  | 99 => ⟨S50000x64, .f32⟩
  | 100 => ⟨S50000x64, .f32⟩
  | 101 => ⟨S100000x64, .f32⟩
  | 102 => ⟨S50000x64, .f32⟩
  | 103 => ⟨S1x1x1000000, .f32⟩
  | 104 => ⟨S1000000, .f32⟩
  | 105 => ⟨S_, .f32⟩
  | 106 => ⟨S1000000, .f32⟩
  | 107 => ⟨S1000000, .i1⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000x1, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x64, .f32⟩
  | 123 => ⟨S1000000x64, .f32⟩
  | 124 => ⟨S1000000x64, .f32⟩
  | 125 => ⟨S_, .f32⟩
  | 126 => ⟨S100000x64, .f32⟩
  | 127 => ⟨S1000000x1, .i32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .i1⟩
  | 4 => ⟨S_, .f32⟩
  | 5 => ⟨S100000x64, .f32⟩
  | 6 => ⟨S100000x64, .f32⟩
  | 7 => ⟨S100000x64, .f32⟩
  | 8 => ⟨S1x1x1000000, .f32⟩
  | 9 => ⟨S1000000, .f32⟩
  | 10 => ⟨S_, .f32⟩
  | 11 => ⟨S1000000, .f32⟩
  | 12 => ⟨S1000000, .i1⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000x1, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S1000000x64, .f32⟩
  | 29 => ⟨S1000000x64, .f32⟩
  | 30 => ⟨S_, .f32⟩
  | 31 => ⟨S50000x64, .f32⟩
  | 32 => ⟨S1000000x1, .i32⟩
  | 33 => ⟨S50000x64, .f32⟩
  | 34 => ⟨S_, .f32⟩
  | 35 => ⟨S50000x64, .f32⟩
  | 36 => ⟨S50000x64, .i1⟩
  | 37 => ⟨S_, .f32⟩
  | 38 => ⟨S50000x64, .f32⟩
  | 39 => ⟨S50000x64, .f32⟩
  | 40 => ⟨S50000x64, .f32⟩
  | 41 => ⟨S64x64, .f32⟩
  | 42 => ⟨S64x64, .f32⟩
  | 43 => ⟨S100000x64, .f32⟩
  | 44 => ⟨S100000x64, .f32⟩
  | 45 => ⟨S50000x64, .f32⟩
  | 46 => ⟨S50000x64, .f32⟩
  | 47 => ⟨S100000x64, .f32⟩
  | 48 => ⟨S50000x64, .f32⟩
  | 49 => ⟨S_, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S50000x64, .f32⟩
  | 56 => ⟨S50000x64, .f32⟩
  | 57 => ⟨S50000x64, .f32⟩
  | 58 => ⟨S50000x64, .f32⟩
  | 59 => ⟨S1x64x64, .f32⟩
  | 60 => ⟨S64x64, .f32⟩
  | 61 => ⟨S1x2048, .f32⟩
  | 62 => ⟨S2048, .f32⟩
  | 63 => ⟨S_, .f32⟩
  | 64 => ⟨S2048, .f32⟩
  | 65 => ⟨S2048, .i1⟩
  | 66 => ⟨S2048, .f32⟩
  | 67 => ⟨S2048x1, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S2048x64, .f32⟩
  | 77 => ⟨S2048x64, .f32⟩
  | 78 => ⟨S_, .f32⟩
  | 79 => ⟨S2048, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x64, .f32⟩
  | 86 => ⟨S2048x64, .f32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S2048x64, .f32⟩
  | 96 => ⟨S2048x64, .f32⟩
  | 97 => ⟨S_, .f32⟩
  | 98 => ⟨S2048, .f32⟩
  | 99 => ⟨S2048x1, .f32⟩
  | 100 => ⟨S2048x1, .f32⟩
  | 101 => ⟨S_, .f32⟩
  | 102 => ⟨S2048x1, .f32⟩
  | 103 => ⟨S2048x1, .f32⟩
  | 104 => ⟨S2048x64, .f32⟩
  | 105 => ⟨S2048x64, .f32⟩
  | 106 => ⟨S2048x1, .f32⟩
  | 107 => ⟨S2048x1, .f32⟩
  | 108 => ⟨S_, .f32⟩
  | 109 => ⟨S2048x1, .f32⟩
  | 110 => ⟨S2048x1, .f32⟩
  | 111 => ⟨S2048x1, .f32⟩
  | 112 => ⟨S_, .f32⟩
  | 113 => ⟨S2048x1, .f32⟩
  | 114 => ⟨S2048x1, .f32⟩
  | 115 => ⟨S2048x1, .f32⟩
  | 116 => ⟨S2048x1, .f32⟩
  | 117 => ⟨S2048x1, .f32⟩
  | 118 => ⟨S_, .f32⟩
  | 119 => ⟨S_, .f32⟩
  | 120 => ⟨S_, .f32⟩
  | 121 => ⟨S_, .f32⟩
  | 122 => ⟨S1x64x64, .f32⟩
  | 123 => ⟨S64x64, .f32⟩
  | 124 => ⟨S1x2048, .f32⟩
  | 125 => ⟨S2048, .f32⟩
  | 126 => ⟨S_, .f32⟩
  | 127 => ⟨S2048, .f32⟩
  | _ => ⟨S100000x64, .f32⟩

abbrev hbmTy0_2 (i : Nat) : BufTy := match i % 128 with
  | 0 => ⟨S2048, .i1⟩
  | 1 => ⟨S2048, .f32⟩
  | 2 => ⟨S2048x1, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x64, .f32⟩
  | 12 => ⟨S2048x64, .f32⟩
  | 13 => ⟨S_, .f32⟩
  | 14 => ⟨S2048, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x64, .f32⟩
  | 21 => ⟨S2048x64, .f32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S2048x64, .f32⟩
  | 31 => ⟨S2048x64, .f32⟩
  | 32 => ⟨S_, .f32⟩
  | 33 => ⟨S2048, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x64, .f32⟩
  | 40 => ⟨S2048x64, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S2048x1, .f32⟩
  | 53 => ⟨S_, .f32⟩
  | 54 => ⟨S_, .f32⟩
  | 55 => ⟨S_, .f32⟩
  | 56 => ⟨S1x64x64, .f32⟩
  | 57 => ⟨S64x64, .f32⟩
  | 58 => ⟨S1x2048, .f32⟩
  | 59 => ⟨S2048, .f32⟩
  | 60 => ⟨S_, .f32⟩
  | 61 => ⟨S2048, .f32⟩
  | 62 => ⟨S2048, .i1⟩
  | 63 => ⟨S2048, .f32⟩
  | 64 => ⟨S2048x1, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S2048x64, .f32⟩
  | 74 => ⟨S2048x64, .f32⟩
  | 75 => ⟨S_, .f32⟩
  | 76 => ⟨S2048, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x64, .f32⟩
  | 83 => ⟨S2048x64, .f32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S2048x64, .f32⟩
  | 93 => ⟨S2048x64, .f32⟩
  | 94 => ⟨S_, .f32⟩
  | 95 => ⟨S2048, .f32⟩
  | 96 => ⟨S2048x1, .f32⟩
  | 97 => ⟨S2048x1, .f32⟩
  | 98 => ⟨S_, .f32⟩
  | 99 => ⟨S2048x1, .f32⟩
  | 100 => ⟨S2048x1, .f32⟩
  | 101 => ⟨S2048x64, .f32⟩
  | 102 => ⟨S2048x64, .f32⟩
  | 103 => ⟨S2048x1, .f32⟩
  | 104 => ⟨S2048x1, .f32⟩
  | 105 => ⟨S_, .f32⟩
  | 106 => ⟨S2048x1, .f32⟩
  | 107 => ⟨S2048x1, .f32⟩
  | 108 => ⟨S2048x1, .f32⟩
  | 109 => ⟨S_, .f32⟩
  | 110 => ⟨S2048x1, .f32⟩
  | 111 => ⟨S2048x1, .f32⟩
  | 112 => ⟨S2048x1, .f32⟩
  | 113 => ⟨S2048x1, .f32⟩
  | 114 => ⟨S2048x1, .f32⟩
  | 115 => ⟨S_, .f32⟩
  | 116 => ⟨S_, .f32⟩
  | 117 => ⟨S_, .f32⟩
  | 118 => ⟨S1x64x64, .f32⟩
  | 119 => ⟨S64x64, .f32⟩
  | 120 => ⟨S1x2048, .f32⟩
  | 121 => ⟨S2048, .f32⟩
  | 122 => ⟨S_, .f32⟩
  | 123 => ⟨S2048, .f32⟩
  | 124 => ⟨S2048, .i1⟩
  | 125 => ⟨S2048, .f32⟩
  | 126 => ⟨S2048x1, .f32⟩
  | 127 => ⟨S_, .i32⟩
  | _ => ⟨S100000x64, .f32⟩

abbrev hbmTy0_3 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S2048x64, .f32⟩
  | 8 => ⟨S2048x64, .f32⟩
  | 9 => ⟨S_, .f32⟩
  | 10 => ⟨S2048, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x64, .f32⟩
  | 17 => ⟨S2048x64, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048x64, .f32⟩
  | 27 => ⟨S2048x64, .f32⟩
  | 28 => ⟨S_, .f32⟩
  | 29 => ⟨S2048, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x64, .f32⟩
  | 36 => ⟨S2048x64, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1, .f32⟩
  | 48 => ⟨S2048x1, .f32⟩
  | 49 => ⟨S_, .f32⟩
  | 50 => ⟨S_, .f32⟩
  | 51 => ⟨S_, .f32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S2048x64, .f32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S2048x64, .f32⟩
  | 70 => ⟨S2048x64, .f32⟩
  | 71 => ⟨S_, .f32⟩
  | 72 => ⟨S2048, .f32⟩
  | 73 => ⟨S_, .i32⟩
  | 74 => ⟨S2048, .i32⟩
  | 75 => ⟨S2048, .i1⟩
  | 76 => ⟨S_, .i32⟩
  | 77 => ⟨S2048, .i32⟩
  | 78 => ⟨S2048, .i32⟩
  | 79 => ⟨S2048, .i32⟩
  | 80 => ⟨S2048x1, .i32⟩
  | 81 => ⟨S2048x64, .f32⟩
  | 82 => ⟨S2048x64, .f32⟩
  | 83 => ⟨S_, .f32⟩
  | 84 => ⟨S2048, .f32⟩
  | 85 => ⟨S_, .f32⟩
  | 86 => ⟨S2048, .f32⟩
  | 87 => ⟨S2048, .f32⟩
  | 88 => ⟨S2048, .f32⟩
  | 89 => ⟨S_, .f32⟩
  | 90 => ⟨S2048, .f32⟩
  | 91 => ⟨S2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S64x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S2048x64, .f32⟩
  | .local _ .vmem, ⟨59, _⟩ => ⟨S2048x64, .f32⟩
  | .local _ .vmem, ⟨60, _⟩ => ⟨S64x64, .f32⟩
  | .local _ .vmem, ⟨61, _⟩ => ⟨S2048x1, .f32⟩
  | .local _ .vmem, ⟨62, _⟩ => ⟨S2048x1, .f32⟩
  | .local _ .vmem, ⟨63, _⟩ => ⟨S2048x64, .f32⟩
  | .local _ .vmem, ⟨64, _⟩ => ⟨S2048x64, .f32⟩
  | .local _ .vmem, ⟨65, _⟩ => ⟨S64x64, .f32⟩
  | .local _ .vmem, ⟨66, _⟩ => ⟨S2048x1, .f32⟩
  | .local _ .vmem, ⟨67, _⟩ => ⟨S2048x1, .f32⟩
  | .local _ .vmem, ⟨68, _⟩ => ⟨S2048x64, .f32⟩
  | .local _ .vmem, ⟨69, _⟩ => ⟨S2048x64, .f32⟩
  | .local _ .vmem, ⟨70, _⟩ => ⟨S64x64, .f32⟩
  | .local _ .vmem, ⟨71, _⟩ => ⟨S2048x1, .f32⟩
  | .local _ .vmem, ⟨72, _⟩ => ⟨S2048x1, .f32⟩
  | .local _ .vmem, ⟨73, _⟩ => ⟨S2048x64, .f32⟩
  | .local _ .vmem, ⟨74, _⟩ => ⟨S2048x64, .f32⟩
  | .local _ .vmem, ⟨75, _⟩ => ⟨S64x64, .f32⟩
  | .local _ .vmem, ⟨76, _⟩ => ⟨S2048x1, .f32⟩
  | .local _ .vmem, ⟨77, _⟩ => ⟨S2048x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1_0 : Ref sig .tc := ⟨.hbm, 24, rfl⟩
abbrev main_v1_1 : Ref sig .tc := ⟨.hbm, 25, rfl⟩
abbrev main_v2 : Ref sig .tc := ⟨.hbm, 26, rfl⟩
abbrev main_v3_0 : Ref sig .tc := ⟨.hbm, 27, rfl⟩
abbrev main_v3_1 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_7 : Ref sig .tc := ⟨.hbm, 73, rfl⟩
abbrev main_v39 : Ref sig .tc := ⟨.hbm, 74, rfl⟩
abbrev main_v40 : Ref sig .tc := ⟨.hbm, 75, rfl⟩
abbrev main_c_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_10 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58_0 : Ref sig .tc := ⟨.hbm, 97, rfl⟩
abbrev main_v58_1 : Ref sig .tc := ⟨.hbm, 98, rfl⟩
abbrev main_v59_0 : Ref sig .tc := ⟨.hbm, 99, rfl⟩
abbrev main_v59_1 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_14 : Ref sig .tc := ⟨.hbm, 114, rfl⟩
abbrev main_v71 : Ref sig .tc := ⟨.hbm, 115, rfl⟩
abbrev main_v72 : Ref sig .tc := ⟨.hbm, 116, rfl⟩
abbrev main_c_15 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_16 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_cst_18 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_19 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_20 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_21 : Ref sig .tc := ⟨.hbm, 147, rfl⟩
abbrev main_v97 : Ref sig .tc := ⟨.hbm, 148, rfl⟩
abbrev main_v98 : Ref sig .tc := ⟨.hbm, 149, rfl⟩
abbrev main_c_22 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_23 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_24 : Ref sig .tc := ⟨.hbm, 162, rfl⟩
abbrev main_v109 : Ref sig .tc := ⟨.hbm, 163, rfl⟩
abbrev main_v110 : Ref sig .tc := ⟨.hbm, 164, rfl⟩
abbrev main_cst_25 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116_0 : Ref sig .tc := ⟨.hbm, 171, rfl⟩
abbrev main_v116_1 : Ref sig .tc := ⟨.hbm, 172, rfl⟩
abbrev main_v117_0 : Ref sig .tc := ⟨.hbm, 173, rfl⟩
abbrev main_v117_1 : Ref sig .tc := ⟨.hbm, 174, rfl⟩
abbrev main_v118 : Ref sig .tc := ⟨.hbm, 175, rfl⟩
abbrev main_v119 : Ref sig .tc := ⟨.hbm, 176, rfl⟩
abbrev main_cst_26 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_27 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_28 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_c_29 : Ref sig .tc := ⟨.hbm, 196, rfl⟩
abbrev main_v136 : Ref sig .tc := ⟨.hbm, 197, rfl⟩
abbrev main_v137 : Ref sig .tc := ⟨.hbm, 198, rfl⟩
abbrev main_c_30 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_31 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_32 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_c_33 : Ref sig .tc := ⟨.hbm, 215, rfl⟩
abbrev main_v151 : Ref sig .tc := ⟨.hbm, 216, rfl⟩
abbrev main_v152 : Ref sig .tc := ⟨.hbm, 217, rfl⟩
abbrev main_c_34 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_35 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_36 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166_0 : Ref sig .tc := ⟨.hbm, 234, rfl⟩
abbrev main_v166_1 : Ref sig .tc := ⟨.hbm, 235, rfl⟩
abbrev main_cst_37 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_38 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_cst_39 : Ref sig .tc := ⟨.hbm, 246, rfl⟩
abbrev main_v175 : Ref sig .tc := ⟨.hbm, 247, rfl⟩
abbrev main_cst_40 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_cst_41 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_c_42 : Ref sig .tc := ⟨.hbm, 259, rfl⟩
abbrev main_v185 : Ref sig .tc := ⟨.hbm, 260, rfl⟩
abbrev main_v186 : Ref sig .tc := ⟨.hbm, 261, rfl⟩
abbrev main_c_43 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_cst_44 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_45 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_c_46 : Ref sig .tc := ⟨.hbm, 278, rfl⟩
abbrev main_v200 : Ref sig .tc := ⟨.hbm, 279, rfl⟩
abbrev main_v201 : Ref sig .tc := ⟨.hbm, 280, rfl⟩
abbrev main_c_47 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_cst_48 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_cst_49 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215_0 : Ref sig .tc := ⟨.hbm, 297, rfl⟩
abbrev main_v215_1 : Ref sig .tc := ⟨.hbm, 298, rfl⟩
abbrev main_cst_50 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_cst_51 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_cst_52 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_53 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_c_54 : Ref sig .tc := ⟨.hbm, 321, rfl⟩
abbrev main_v234 : Ref sig .tc := ⟨.hbm, 322, rfl⟩
abbrev main_v235 : Ref sig .tc := ⟨.hbm, 323, rfl⟩
abbrev main_c_55 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_cst_56 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_cst_57 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_c_58 : Ref sig .tc := ⟨.hbm, 340, rfl⟩
abbrev main_v249 : Ref sig .tc := ⟨.hbm, 341, rfl⟩
abbrev main_v250 : Ref sig .tc := ⟨.hbm, 342, rfl⟩
abbrev main_c_59 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_cst_60 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_cst_61 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264_0 : Ref sig .tc := ⟨.hbm, 359, rfl⟩
abbrev main_v264_1 : Ref sig .tc := ⟨.hbm, 360, rfl⟩
abbrev main_cst_62 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_cst_63 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_cst_64 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_cst_65 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_c_66 : Ref sig .tc := ⟨.hbm, 383, rfl⟩
abbrev main_v283 : Ref sig .tc := ⟨.hbm, 384, rfl⟩
abbrev main_v284 : Ref sig .tc := ⟨.hbm, 385, rfl⟩
abbrev main_c_67 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_cst_68 : Ref sig .tc := ⟨.hbm, 393, rfl⟩
abbrev main_v291 : Ref sig .tc := ⟨.hbm, 394, rfl⟩
abbrev main_v292 : Ref sig .tc := ⟨.hbm, 395, rfl⟩
abbrev main_v293 : Ref sig .tc := ⟨.hbm, 396, rfl⟩
abbrev main_cst_69 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_c_70 : Ref sig .tc := ⟨.hbm, 402, rfl⟩
abbrev main_v298 : Ref sig .tc := ⟨.hbm, 403, rfl⟩
abbrev main_v299 : Ref sig .tc := ⟨.hbm, 404, rfl⟩
abbrev main_c_71 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_cst_72 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_cst_73 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_v313_0 : Ref sig .tc := ⟨.hbm, 421, rfl⟩
abbrev main_v313_1 : Ref sig .tc := ⟨.hbm, 422, rfl⟩
abbrev main_cst_74 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_cst_75 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_cst_76 : Ref sig .tc := ⟨.hbm, 433, rfl⟩
abbrev main_v322 : Ref sig .tc := ⟨.hbm, 434, rfl⟩
abbrev main_v323 : Ref sig .tc := ⟨.hbm, 435, rfl⟩
abbrev main_c_77 : Ref sig .tc := ⟨.hbm, 436, rfl⟩
abbrev main_v324 : Ref sig .tc := ⟨.hbm, 437, rfl⟩
abbrev main_v325 : Ref sig .tc := ⟨.hbm, 438, rfl⟩
abbrev main_c_78 : Ref sig .tc := ⟨.hbm, 439, rfl⟩
abbrev main_v326 : Ref sig .tc := ⟨.hbm, 440, rfl⟩
abbrev main_v327 : Ref sig .tc := ⟨.hbm, 441, rfl⟩
abbrev main_v328 : Ref sig .tc := ⟨.hbm, 442, rfl⟩
abbrev main_v329 : Ref sig .tc := ⟨.hbm, 443, rfl⟩
abbrev main_v330 : Ref sig .tc := ⟨.hbm, 444, rfl⟩
abbrev main_c_79 : Ref sig .tc := ⟨.hbm, 445, rfl⟩
abbrev main_v331 : Ref sig .tc := ⟨.hbm, 446, rfl⟩
abbrev main_v332 : Ref sig .tc := ⟨.hbm, 447, rfl⟩
abbrev main_c_80 : Ref sig .tc := ⟨.hbm, 448, rfl⟩
abbrev main_v333 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_v337 : Ref sig .tc := ⟨.hbm, 453, rfl⟩
abbrev main_v338 : Ref sig .tc := ⟨.hbm, 454, rfl⟩
abbrev main_cst_81 : Ref sig .tc := ⟨.hbm, 455, rfl⟩
abbrev main_v339 : Ref sig .tc := ⟨.hbm, 456, rfl⟩
abbrev main_c_82 : Ref sig .tc := ⟨.hbm, 457, rfl⟩
abbrev main_v340 : Ref sig .tc := ⟨.hbm, 458, rfl⟩
abbrev main_v341 : Ref sig .tc := ⟨.hbm, 459, rfl⟩
abbrev main_c_83 : Ref sig .tc := ⟨.hbm, 460, rfl⟩
abbrev main_v342 : Ref sig .tc := ⟨.hbm, 461, rfl⟩
abbrev main_v343 : Ref sig .tc := ⟨.hbm, 462, rfl⟩
abbrev main_v344 : Ref sig .tc := ⟨.hbm, 463, rfl⟩
abbrev main_v345 : Ref sig .tc := ⟨.hbm, 464, rfl⟩
abbrev main_v346 : Ref sig .tc := ⟨.hbm, 465, rfl⟩
abbrev main_v347 : Ref sig .tc := ⟨.hbm, 466, rfl⟩
abbrev main_cst_84 : Ref sig .tc := ⟨.hbm, 467, rfl⟩
abbrev main_v348 : Ref sig .tc := ⟨.hbm, 468, rfl⟩
abbrev main_cst_85 : Ref sig .tc := ⟨.hbm, 469, rfl⟩
abbrev main_v349 : Ref sig .tc := ⟨.hbm, 470, rfl⟩
abbrev main_v350 : Ref sig .tc := ⟨.hbm, 471, rfl⟩
abbrev main_v351 : Ref sig .tc := ⟨.hbm, 472, rfl⟩
abbrev main_call4_cst : Ref sig .tc := ⟨.hbm, 473, rfl⟩
abbrev main_call4_v0 : Ref sig .tc := ⟨.hbm, 474, rfl⟩
abbrev main_v352 : Ref sig .tc := ⟨.hbm, 475, rfl⟩
abbrev main_cst_86 : Ref sig .tc := ⟨.hbm, 476, rfl⟩
abbrev main_v353 : Ref sig .tc := ⟨.hbm, 477, rfl⟩
abbrev main_cst_87 : Ref sig .tc := ⟨.hbm, 478, rfl⟩
abbrev main_v354 : Ref sig .tc := ⟨.hbm, 479, rfl⟩
abbrev main_cst_88 : Ref sig .tc := ⟨.hbm, 480, rfl⟩
abbrev main_v355 : Ref sig .tc := ⟨.hbm, 481, rfl⟩
abbrev main_v356 : Ref sig .tc := ⟨.hbm, 482, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg4_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc7_stg0_0 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc8_stg0_0 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc9_stg0_0 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem3_1 : DmaSem sig := 46
abbrev cc4_sem4_0 : DmaSem sig := 47
abbrev cc4_sem4_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem3_1 : DmaSem sig := 55
abbrev cc5_sem4_0 : DmaSem sig := 56
abbrev cc5_sem4_1 : DmaSem sig := 57
abbrev cc6_sem0_0 : DmaSem sig := 58
abbrev cc6_sem1_0 : DmaSem sig := 59
abbrev cc6_sem2_0 : DmaSem sig := 60
abbrev cc6_sem3_0 : DmaSem sig := 61
abbrev cc6_sem4_0 : DmaSem sig := 62
abbrev cc7_sem0_0 : DmaSem sig := 63
abbrev cc7_sem1_0 : DmaSem sig := 64
abbrev cc7_sem2_0 : DmaSem sig := 65
abbrev cc7_sem3_0 : DmaSem sig := 66
abbrev cc7_sem4_0 : DmaSem sig := 67
abbrev cc8_sem0_0 : DmaSem sig := 68
abbrev cc8_sem1_0 : DmaSem sig := 69
abbrev cc8_sem2_0 : DmaSem sig := 70
abbrev cc8_sem3_0 : DmaSem sig := 71
abbrev cc8_sem4_0 : DmaSem sig := 72
abbrev cc9_sem0_0 : DmaSem sig := 73
abbrev cc9_sem1_0 : DmaSem sig := 74
abbrev cc9_sem2_0 : DmaSem sig := 75
abbrev cc9_sem3_0 : DmaSem sig := 76
abbrev cc9_sem4_0 : DmaSem sig := 77

abbrev nD : Nat := 1
abbrev τ : Topo := Topo.v7x

variable {F : FTy → Type} [BitOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S2048x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S2048x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2048x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S2048x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2048x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S2048x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S2048x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S2048x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S2048x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S2048x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S2048x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2048x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S2048x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S5000x64_S5000 : S5000x64.Reduces [1] S5000
  shapeCasts_S5000_S5000x1 : S5000.ShapeCasts S5000x1
  broadcasts_S5000x1_S5000x64 : S5000x1.Broadcasts S5000x64
  broadcasts_S1x64_S5000x64 : S1x64.Broadcasts S5000x64
  slices_S2x2x1000000_S1x1x1000000_0_0_0 : S2x2x1000000.Slices ![0, 0, 0] S1x1x1000000
  shapeCasts_S1x1x1000000_S1000000 : S1x1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S2x2x1000000_S1x1x1000000_0_1_0 : S2x2x1000000.Slices ![0, 1, 0] S1x1x1000000
  bcast_S_S50000x64 : S_.BroadcastsInDim S50000x64 (![] : Fin 0 → Fin S50000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  shapeCasts_S5000x64_S5000x64 : S5000x64.ShapeCasts S5000x64
  slices_S2x2x1000000_S1x1x1000000_1_0_0 : S2x2x1000000.Slices ![1, 0, 0] S1x1x1000000
  slices_S2x2x1000000_S1x1x1000000_1_1_0 : S2x2x1000000.Slices ![1, 1, 0] S1x1x1000000
  slices_S2x64x64_S1x64x64_0_0_0 : S2x64x64.Slices ![0, 0, 0] S1x64x64
  shapeCasts_S1x64x64_S64x64 : S1x64x64.ShapeCasts S64x64
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  shapeCasts_S2048_S2048x1 : S2048.ShapeCasts S2048x1
  bcast_S2048_S2048x1_0 : S2048.BroadcastsInDim S2048x1 (![0] : Fin 1 → Fin S2048x1.rank)
  reducesTo_S2048x64_S2048_d1 : S2048x64.ReducesTo [1] S2048
  h_S_ : 0 < S_.numel
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  transposes_S2048x64_p1_0_S64x2048 : S2048x64.Transposes [1, 0] S64x2048
  reduces_S2048x2048_S2048 : S2048x2048.Reduces [1] S2048
  inb_S2048x1_S2048x1_0_0 : ∀ a, (![0, 0] : Fin 2 → Nat) a + S2048x1.size a ≤ S2048x1.size a
  h_S2048x1 : 0 < S2048x1.numel
  reducesTo_S2048x1_S_d0_1 : S2048x1.ReducesTo [0, 1] S_
  slices_S2x64x64_S1x64x64_1_0_0 : S2x64x64.Slices ![1, 0, 0] S1x64x64
  slices_S2x2048_S1x2048_1_0 : S2x2048.Slices ![1, 0] S1x2048
  reducesTo_S2048_S_d0 : S2048.ReducesTo [0] S_
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S64x50000_S50000x64_S64x64_1_0_0_1_n_n_wf : DotDims.WF S64x50000 S50000x64 S64x64 [1] [0] [0] [1] [] []
  dot_S64x100000_S100000x64_S64x64_1_0_0_1_n_n_wf : DotDims.WF S64x100000 S100000x64 S64x64 [1] [0] [0] [1] [] []
  dot_S5000x64_S64x64_S5000x64_1_0_0_1_n_n_wf : DotDims.WF S5000x64 S64x64 S5000x64 [1] [0] [0] [1] [] []
  gather_S100000x64_S2048x1_S2048x64_1_0_n_n_0_1_164_wf : GatherDims.WF S100000x64 S2048x1 S2048x64 [1] [0] [] [0] [] 1 ![1, 64]
  dot_S2048x64_S64x64_S2048x64_1_0_0_1_n_n_wf : DotDims.WF S2048x64 S64x64 S2048x64 [1] [0] [0] [1] [] []
  dot_S2048x64_S64x2048_S2048x2048_1_0_0_1_n_n_wf : DotDims.WF S2048x64 S64x2048 S2048x2048 [1] [0] [0] [1] [] []
  gather_S50000x64_S2048x1_S2048x64_1_0_n_n_0_1_164_wf : GatherDims.WF S50000x64 S2048x1 S2048x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S2048x64.size a
  hwx6_0 : ∀ i : grid6.Coords, EltTy.bits .f32 = 32 ∨ (Rect.block (s := S2048x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S2048x64.size a
  hwx6_1 : ∀ i : grid6.Coords, EltTy.bits .f32 = 32 ∨ (Rect.block (s := S2048x64) S2048x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2048x1.size a ≤ S2048x1.size a
  hwx6_3 : ∀ i : grid6.Coords, EltTy.bits .f32 = 32 ∨ (Rect.block (s := S2048x1) S2048x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S2048x1.size a ≤ S2048x1.size a
  hwx6_4 : ∀ i : grid6.Coords, EltTy.bits .f32 = 32 ∨ (Rect.block (s := S2048x1) S2048x1.size (cc6_transform_4 i) (hinb6_4 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2048x64.size a ≤ S2048x64.size a
  hwx7_0 : ∀ i : grid7.Coords, EltTy.bits .f32 = 32 ∨ (Rect.block (s := S2048x64) S2048x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x64.size a ≤ S2048x64.size a
  hwx7_1 : ∀ i : grid7.Coords, EltTy.bits .f32 = 32 ∨ (Rect.block (s := S2048x64) S2048x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x1.size a ≤ S2048x1.size a
  hwx7_3 : ∀ i : grid7.Coords, EltTy.bits .f32 = 32 ∨ (Rect.block (s := S2048x1) S2048x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2048x1.size a ≤ S2048x1.size a
  hwx7_4 : ∀ i : grid7.Coords, EltTy.bits .f32 = 32 ∨ (Rect.block (s := S2048x1) S2048x1.size (cc7_transform_4 i) (hinb7_4 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S2048x64.size a ≤ S2048x64.size a
  hwx8_0 : ∀ i : grid8.Coords, EltTy.bits .f32 = 32 ∨ (Rect.block (s := S2048x64) S2048x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2048x64.size a ≤ S2048x64.size a
  hwx8_1 : ∀ i : grid8.Coords, EltTy.bits .f32 = 32 ∨ (Rect.block (s := S2048x64) S2048x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S2048x1.size a ≤ S2048x1.size a
  hwx8_3 : ∀ i : grid8.Coords, EltTy.bits .f32 = 32 ∨ (Rect.block (s := S2048x1) S2048x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S2048x1.size a ≤ S2048x1.size a
  hwx8_4 : ∀ i : grid8.Coords, EltTy.bits .f32 = 32 ∨ (Rect.block (s := S2048x1) S2048x1.size (cc8_transform_4 i) (hinb8_4 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S2048x64.size a ≤ S2048x64.size a
  hwx9_0 : ∀ i : grid9.Coords, EltTy.bits .f32 = 32 ∨ (Rect.block (s := S2048x64) S2048x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x64.size a ≤ S2048x64.size a
  hwx9_1 : ∀ i : grid9.Coords, EltTy.bits .f32 = 32 ∨ (Rect.block (s := S2048x64) S2048x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2048x1.size a ≤ S2048x1.size a
  hwx9_3 : ∀ i : grid9.Coords, EltTy.bits .f32 = 32 ∨ (Rect.block (s := S2048x1) S2048x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S2048x1.size a ≤ S2048x1.size a
  hwx9_4 : ∀ i : grid9.Coords, EltTy.bits .f32 = 32 ∨ (Rect.block (s := S2048x1) S2048x1.size (cc9_transform_4 i) (hinb9_4 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S64x50000_S50000x64_S64x64_1_0_0_1_n_n : DotDims S64x50000 S50000x64 S64x64 where
  lhsContracting := [1]
  rhsContracting := [0]
  lhsNonContracting := [0]
  rhsNonContracting := [1]
  lhsBatch := []
  rhsBatch := []
  wf := dot_S64x50000_S50000x64_S64x64_1_0_0_1_n_n_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v59_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v1_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1_1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v114) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v116_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v116_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v3_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3_1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v117_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v150) S2048x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v165) S2048x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v166_0) S2048x1.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v166_1) S2048x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v199) S2048x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v214) S2048x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v178) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v215_0) S2048x1.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v215_1) S2048x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v248) S2048x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v263) S2048x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v227) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v264_0) S2048x1.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v264_1) S2048x1.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v297) S2048x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v312) S2048x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v276) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v313_0) S2048x1.size cc9_transform_3 reads9_3 true true 1 stage9_3 sem9_3
    hrank9 hreads9_3 hinb9_3 nbuf9_3 (Memref.isWhole_whole _) hwx9_3 hstage9_3

abbrev win9_4 : Pipeline.Window sig grid9 :=
  Pipeline.Window.ofSpec (Memref.whole main_v313_1) S2048x1.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64 : Shape := ⟨1, ![64]⟩
abbrev S64x100000 : Shape := ⟨2, ![64, 100000]⟩
abbrev S64x50000 : Shape := ⟨2, ![64, 50000]⟩
abbrev S2x64x64 : Shape := ⟨3, ![2, 64, 64]⟩
abbrev S1000000 : Shape := ⟨1, ![1000000]⟩
abbrev S2x2x1000000 : Shape := ⟨3, ![2, 2, 1000000]⟩
abbrev S2x2048 : Shape := ⟨2, ![2, 2048]⟩
abbrev S2048 : Shape := ⟨1, ![2048]⟩
abbrev S_ : Shape := ⟨0, ![]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S1x64 : Shape := ⟨2, ![1, 64]⟩
abbrev S1x1x1000000 : Shape := ⟨3, ![1, 1, 1000000]⟩
abbrev S1000000x1 : Shape := ⟨2, ![1000000, 1]⟩
abbrev S1000000x64 : Shape := ⟨2, ![1000000, 64]⟩
abbrev S64x64 : Shape := ⟨2, ![64, 64]⟩
abbrev S1x64x64 : Shape := ⟨3, ![1, 64, 64]⟩
abbrev S1x2048 : Shape := ⟨2, ![1, 2048]⟩
abbrev S2048x1 : Shape := ⟨2, ![2048, 1]⟩
abbrev S2048x64 : Shape := ⟨2, ![2048, 64]⟩
abbrev S64x2048 : Shape := ⟨2, ![64, 2048]⟩
abbrev S2048x2048 : Shape := ⟨2, ![2048, 2048]⟩

abbrev nBuf : Space → Nat
  | .hbm => 665
  | .vmem => 0
  | .smem => 0
  | _ => 0

abbrev hbmTy0_0 (i : Nat) : BufTy := match i % 128 with
  | 0 => ⟨S100000x64, .f32⟩
  | 1 => ⟨S50000x64, .f32⟩
  | 2 => ⟨S100000x64, .f32⟩
  | 3 => ⟨S50000x64, .f32⟩
  | 4 => ⟨S64, .f32⟩
  | 5 => ⟨S64x100000, .f32⟩
  | 6 => ⟨S64x50000, .f32⟩
  | 7 => ⟨S2x64x64, .f32⟩
  | 8 => ⟨S2x64x64, .f32⟩
  | 9 => ⟨S1000000, .f32⟩
  | 10 => ⟨S2x2x1000000, .f32⟩
  | 11 => ⟨S100000x64, .f32⟩
  | 12 => ⟨S50000x64, .f32⟩
  | 13 => ⟨S100000x64, .f32⟩
  | 14 => ⟨S50000x64, .f32⟩
  | 15 => ⟨S2x2048, .f32⟩
  | 16 => ⟨S2x2048, .f32⟩
  | 17 => ⟨S1000000, .i32⟩
  | 18 => ⟨S1000000, .i32⟩
  | 19 => ⟨S2048, .i32⟩
  | 20 => ⟨S2048, .i32⟩
  | 21 => ⟨S2048, .i32⟩
  | 22 => ⟨S2048, .i32⟩
  | 23 => ⟨S100000x64, .f32⟩
  | 24 => ⟨S100000x64, .f32⟩
  | 25 => ⟨S_, .f32⟩
  | 26 => ⟨S100000, .f32⟩
  | 27 => ⟨S100000x1, .f32⟩
  | 28 => ⟨S100000x1, .f32⟩
  | 29 => ⟨S_, .f32⟩
  | 30 => ⟨S100000x1, .f32⟩
  | 31 => ⟨S100000x1, .f32⟩
  | 32 => ⟨S100000x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S50000x64, .f32⟩
  | 40 => ⟨S50000x64, .f32⟩
  | 41 => ⟨S_, .f32⟩
  | 42 => ⟨S50000, .f32⟩
  | 43 => ⟨S50000x1, .f32⟩
  | 44 => ⟨S50000x1, .f32⟩
  | 45 => ⟨S_, .f32⟩
  | 46 => ⟨S50000x1, .f32⟩
  | 47 => ⟨S50000x1, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S100000x64, .f32⟩
  | 56 => ⟨S100000x64, .f32⟩
  | 57 => ⟨S_, .f32⟩
  | 58 => ⟨S100000, .f32⟩
  | 59 => ⟨S100000x1, .f32⟩
  | 60 => ⟨S100000x1, .f32⟩
  | 61 => ⟨S_, .f32⟩
  | 62 => ⟨S100000x1, .f32⟩
  | 63 => ⟨S100000x1, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S50000x64, .f32⟩
  | 72 => ⟨S50000x64, .f32⟩
  | 73 => ⟨S_, .f32⟩
  | 74 => ⟨S50000, .f32⟩
  | 75 => ⟨S50000x1, .f32⟩
  | 76 => ⟨S50000x1, .f32⟩
  | 77 => ⟨S_, .f32⟩
  | 78 => ⟨S50000x1, .f32⟩
  | 79 => ⟨S50000x1, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S1x64, .f32⟩
  | 88 => ⟨S100000x64, .f32⟩
  | 89 => ⟨S100000x64, .f32⟩
  | 90 => ⟨S1x64, .f32⟩
  | 91 => ⟨S50000x64, .f32⟩
  | 92 => ⟨S50000x64, .f32⟩
  | 93 => ⟨S1x64, .f32⟩
  | 94 => ⟨S100000x64, .f32⟩
  | 95 => ⟨S100000x64, .f32⟩
  | 96 => ⟨S1x64, .f32⟩
  | 97 => ⟨S50000x64, .f32⟩
  | 98 => ⟨S50000x64, .f32⟩
  | 99 => ⟨S1x1x1000000, .f32⟩
  | 100 => ⟨S1000000, .f32⟩
  | 101 => ⟨S_, .f32⟩
  | 102 => ⟨S1000000, .f32⟩
  | 103 => ⟨S1000000, .i1⟩
  | 104 => ⟨S1000000, .f32⟩
  | 105 => ⟨S1000000, .f32⟩
  | 106 => ⟨S_, .f32⟩
  | 107 => ⟨S1000000, .f32⟩
  | 108 => ⟨S1000000, .f32⟩
  | 109 => ⟨S1000000x1, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S1000000x64, .f32⟩
  | 120 => ⟨S1000000x64, .f32⟩
  | 121 => ⟨S_, .f32⟩
  | 122 => ⟨S100000x64, .f32⟩
  | 123 => ⟨S1000000x1, .i32⟩
  | 124 => ⟨S100000x64, .f32⟩
  | 125 => ⟨S_, .f32⟩
  | 126 => ⟨S100000x64, .f32⟩
  | 127 => ⟨S100000x64, .i1⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S1x1x1000000, .f32⟩
  | 5 => ⟨S1000000, .f32⟩
  | 6 => ⟨S_, .f32⟩
  | 7 => ⟨S1000000, .f32⟩
  | 8 => ⟨S1000000, .i1⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000x1, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x64, .f32⟩
  | 25 => ⟨S1000000x64, .f32⟩
  | 26 => ⟨S_, .f32⟩
  | 27 => ⟨S50000x64, .f32⟩
  | 28 => ⟨S1000000x1, .i32⟩
  | 29 => ⟨S50000x64, .f32⟩
  | 30 => ⟨S_, .f32⟩
  | 31 => ⟨S50000x64, .f32⟩
  | 32 => ⟨S50000x64, .i1⟩
  | 33 => ⟨S_, .f32⟩
  | 34 => ⟨S50000x64, .f32⟩
  | 35 => ⟨S50000x64, .f32⟩
  | 36 => ⟨S50000x64, .f32⟩
  | 37 => ⟨S64x64, .f32⟩
  | 38 => ⟨S64x64, .f32⟩
  | 39 => ⟨S100000x64, .f32⟩
  | 40 => ⟨S_, .f32⟩
  | 41 => ⟨S100000x64, .f32⟩
  | 42 => ⟨S100000x64, .i1⟩
  | 43 => ⟨S_, .f32⟩
  | 44 => ⟨S100000x64, .f32⟩
  | 45 => ⟨S100000x64, .f32⟩
  | 46 => ⟨S100000x64, .f32⟩
  | 47 => ⟨S50000x64, .f32⟩
  | 48 => ⟨S_, .f32⟩
  | 49 => ⟨S50000x64, .f32⟩
  | 50 => ⟨S50000x64, .i1⟩
  | 51 => ⟨S_, .f32⟩
  | 52 => ⟨S50000x64, .f32⟩
  | 53 => ⟨S50000x64, .f32⟩
  | 54 => ⟨S50000x64, .f32⟩
  | 55 => ⟨S100000x64, .f32⟩
  | 56 => ⟨S_, .f32⟩
  | 57 => ⟨S100000x64, .f32⟩
  | 58 => ⟨S100000x64, .i1⟩
  | 59 => ⟨S_, .f32⟩
  | 60 => ⟨S100000x64, .f32⟩
  | 61 => ⟨S100000x64, .f32⟩
  | 62 => ⟨S100000x64, .f32⟩
  | 63 => ⟨S50000x64, .f32⟩
  | 64 => ⟨S_, .f32⟩
  | 65 => ⟨S50000x64, .f32⟩
  | 66 => ⟨S50000x64, .i1⟩
  | 67 => ⟨S_, .f32⟩
  | 68 => ⟨S50000x64, .f32⟩
  | 69 => ⟨S50000x64, .f32⟩
  | 70 => ⟨S50000x64, .f32⟩
  | 71 => ⟨S100000x64, .f32⟩
  | 72 => ⟨S50000x64, .f32⟩
  | 73 => ⟨S1x1x1000000, .f32⟩
  | 74 => ⟨S1000000, .f32⟩
  | 75 => ⟨S_, .f32⟩
  | 76 => ⟨S1000000, .f32⟩
  | 77 => ⟨S1000000, .i1⟩
  | 78 => ⟨S1000000, .f32⟩
  | 79 => ⟨S1000000, .f32⟩
  | 80 => ⟨S_, .f32⟩
  | 81 => ⟨S1000000, .f32⟩
  | 82 => ⟨S1000000, .f32⟩
  | 83 => ⟨S1000000x1, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S1000000x64, .f32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S_, .f32⟩
  | 100 => ⟨S100000x64, .f32⟩
  | 101 => ⟨S100000x64, .i1⟩
  | 102 => ⟨S_, .f32⟩
  | 103 => ⟨S100000x64, .f32⟩
  | 104 => ⟨S100000x64, .f32⟩
  | 105 => ⟨S100000x64, .f32⟩
  | 106 => ⟨S1x1x1000000, .f32⟩
  | 107 => ⟨S1000000, .f32⟩
  | 108 => ⟨S_, .f32⟩
  | 109 => ⟨S1000000, .f32⟩
  | 110 => ⟨S1000000, .i1⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000x1, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x64, .f32⟩
  | 126 => ⟨S1000000x64, .f32⟩
  | 127 => ⟨S1000000x64, .f32⟩
  | _ => ⟨S100000x64, .f32⟩

abbrev hbmTy0_2 (i : Nat) : BufTy := match i % 128 with
  | 0 => ⟨S_, .f32⟩
  | 1 => ⟨S50000x64, .f32⟩
  | 2 => ⟨S1000000x1, .i32⟩
  | 3 => ⟨S50000x64, .f32⟩
  | 4 => ⟨S_, .f32⟩
  | 5 => ⟨S50000x64, .f32⟩
  | 6 => ⟨S50000x64, .i1⟩
  | 7 => ⟨S_, .f32⟩
  | 8 => ⟨S50000x64, .f32⟩
  | 9 => ⟨S50000x64, .f32⟩
  | 10 => ⟨S50000x64, .f32⟩
  | 11 => ⟨S64x64, .f32⟩
  | 12 => ⟨S64x64, .f32⟩
  | 13 => ⟨S100000x64, .f32⟩
  | 14 => ⟨S_, .f32⟩
  | 15 => ⟨S100000x64, .f32⟩
  | 16 => ⟨S100000x64, .i1⟩
  | 17 => ⟨S_, .f32⟩
  | 18 => ⟨S100000x64, .f32⟩
  | 19 => ⟨S100000x64, .f32⟩
  | 20 => ⟨S100000x64, .f32⟩
  | 21 => ⟨S50000x64, .f32⟩
  | 22 => ⟨S_, .f32⟩
  | 23 => ⟨S50000x64, .f32⟩
  | 24 => ⟨S50000x64, .i1⟩
  | 25 => ⟨S_, .f32⟩
  | 26 => ⟨S50000x64, .f32⟩
  | 27 => ⟨S50000x64, .f32⟩
  | 28 => ⟨S50000x64, .f32⟩
  | 29 => ⟨S100000x64, .f32⟩
  | 30 => ⟨S_, .f32⟩
  | 31 => ⟨S100000x64, .f32⟩
  | 32 => ⟨S100000x64, .i1⟩
  | 33 => ⟨S_, .f32⟩
  | 34 => ⟨S100000x64, .f32⟩
  | 35 => ⟨S100000x64, .f32⟩
  | 36 => ⟨S100000x64, .f32⟩
  | 37 => ⟨S50000x64, .f32⟩
  | 38 => ⟨S_, .f32⟩
  | 39 => ⟨S50000x64, .f32⟩
  | 40 => ⟨S50000x64, .i1⟩
  | 41 => ⟨S_, .f32⟩
  | 42 => ⟨S50000x64, .f32⟩
  | 43 => ⟨S50000x64, .f32⟩
  | 44 => ⟨S50000x64, .f32⟩
  | 45 => ⟨S100000x64, .f32⟩
  | 46 => ⟨S50000x64, .f32⟩
  | 47 => ⟨S_, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S50000x64, .f32⟩
  | 54 => ⟨S50000x64, .f32⟩
  | 55 => ⟨S50000x64, .f32⟩
  | 56 => ⟨S50000x64, .f32⟩
  | 57 => ⟨S1x64x64, .f32⟩
  | 58 => ⟨S64x64, .f32⟩
  | 59 => ⟨S1x2048, .f32⟩
  | 60 => ⟨S2048, .f32⟩
  | 61 => ⟨S_, .f32⟩
  | 62 => ⟨S2048, .f32⟩
  | 63 => ⟨S2048, .i1⟩
  | 64 => ⟨S2048, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S2048x64, .f32⟩
  | 74 => ⟨S2048x64, .f32⟩
  | 75 => ⟨S_, .f32⟩
  | 76 => ⟨S2048, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x64, .f32⟩
  | 83 => ⟨S2048x64, .f32⟩
  | 84 => ⟨S2048x64, .f32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S2048x64, .f32⟩
  | 94 => ⟨S2048x64, .f32⟩
  | 95 => ⟨S_, .f32⟩
  | 96 => ⟨S2048, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S2048x64, .f32⟩
  | 103 => ⟨S2048x64, .f32⟩
  | 104 => ⟨S2048x64, .f32⟩
  | 105 => ⟨S2048x64, .f32⟩
  | 106 => ⟨S_, .f32⟩
  | 107 => ⟨S2048, .f32⟩
  | 108 => ⟨S_, .f32⟩
  | 109 => ⟨S2048, .f32⟩
  | 110 => ⟨S2048, .f32⟩
  | 111 => ⟨S2048, .f32⟩
  | 112 => ⟨S64x2048, .f32⟩
  | 113 => ⟨S2048x2048, .f32⟩
  | 114 => ⟨S_, .f32⟩
  | 115 => ⟨S2048x2048, .f32⟩
  | 116 => ⟨S2048x2048, .f32⟩
  | 117 => ⟨S2048x2048, .f32⟩
  | 118 => ⟨S_, .f32⟩
  | 119 => ⟨S2048, .f32⟩
  | 120 => ⟨S_, .f32⟩
  | 121 => ⟨S2048, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S100000x64, .f32⟩

abbrev hbmTy0_3 (i : Nat) : BufTy := match i % 128 with
  | 0 => ⟨S2048, .f32⟩
  | 1 => ⟨S2048, .f32⟩
  | 2 => ⟨S_, .f32⟩
  | 3 => ⟨S_, .f32⟩
  | 4 => ⟨S_, .f32⟩
  | 5 => ⟨S_, .f32⟩
  | 6 => ⟨S1x64x64, .f32⟩
  | 7 => ⟨S64x64, .f32⟩
  | 8 => ⟨S1x2048, .f32⟩
  | 9 => ⟨S2048, .f32⟩
  | 10 => ⟨S_, .f32⟩
  | 11 => ⟨S2048, .f32⟩
  | 12 => ⟨S2048, .i1⟩
  | 13 => ⟨S2048, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S2048x64, .f32⟩
  | 23 => ⟨S2048x64, .f32⟩
  | 24 => ⟨S_, .f32⟩
  | 25 => ⟨S2048, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x64, .f32⟩
  | 32 => ⟨S2048x64, .f32⟩
  | 33 => ⟨S2048x64, .f32⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S2048x64, .f32⟩
  | 43 => ⟨S2048x64, .f32⟩
  | 44 => ⟨S_, .f32⟩
  | 45 => ⟨S2048, .f32⟩
  | 46 => ⟨S2048x1, .f32⟩
  | 47 => ⟨S2048x1, .f32⟩
  | 48 => ⟨S_, .f32⟩
  | 49 => ⟨S2048x1, .f32⟩
  | 50 => ⟨S2048x1, .f32⟩
  | 51 => ⟨S2048x64, .f32⟩
  | 52 => ⟨S2048x64, .f32⟩
  | 53 => ⟨S2048x64, .f32⟩
  | 54 => ⟨S2048x64, .f32⟩
  | 55 => ⟨S_, .f32⟩
  | 56 => ⟨S2048, .f32⟩
  | 57 => ⟨S_, .f32⟩
  | 58 => ⟨S2048, .f32⟩
  | 59 => ⟨S2048, .f32⟩
  | 60 => ⟨S2048, .f32⟩
  | 61 => ⟨S64x2048, .f32⟩
  | 62 => ⟨S2048x2048, .f32⟩
  | 63 => ⟨S_, .f32⟩
  | 64 => ⟨S2048x2048, .f32⟩
  | 65 => ⟨S2048x2048, .f32⟩
  | 66 => ⟨S2048x2048, .f32⟩
  | 67 => ⟨S_, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S2048, .f32⟩
  | 77 => ⟨S2048, .f32⟩
  | 78 => ⟨S2048, .f32⟩
  | 79 => ⟨S_, .f32⟩
  | 80 => ⟨S_, .f32⟩
  | 81 => ⟨S_, .f32⟩
  | 82 => ⟨S1x64x64, .f32⟩
  | 83 => ⟨S64x64, .f32⟩
  | 84 => ⟨S1x2048, .f32⟩
  | 85 => ⟨S2048, .f32⟩
  | 86 => ⟨S_, .f32⟩
  | 87 => ⟨S2048, .f32⟩
  | 88 => ⟨S2048, .i1⟩
  | 89 => ⟨S2048, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S2048x64, .f32⟩
  | 99 => ⟨S2048x64, .f32⟩
  | 100 => ⟨S_, .f32⟩
  | 101 => ⟨S2048, .f32⟩
  | 102 => ⟨S2048x1, .f32⟩
  | 103 => ⟨S2048x1, .f32⟩
  | 104 => ⟨S_, .f32⟩
  | 105 => ⟨S2048x1, .f32⟩
  | 106 => ⟨S2048x1, .f32⟩
  | 107 => ⟨S2048x64, .f32⟩
  | 108 => ⟨S2048x64, .f32⟩
  | 109 => ⟨S2048x64, .f32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048x64, .f32⟩
  | 119 => ⟨S2048x64, .f32⟩
  | 120 => ⟨S_, .f32⟩
  | 121 => ⟨S2048, .f32⟩
  | 122 => ⟨S2048x1, .f32⟩
  | 123 => ⟨S2048x1, .f32⟩
  | 124 => ⟨S_, .f32⟩
  | 125 => ⟨S2048x1, .f32⟩
  | 126 => ⟨S2048x1, .f32⟩
  | 127 => ⟨S2048x64, .f32⟩
  | _ => ⟨S100000x64, .f32⟩

abbrev hbmTy0_4 (i : Nat) : BufTy := match i % 128 with
  | 0 => ⟨S2048x64, .f32⟩
  | 1 => ⟨S2048x64, .f32⟩
  | 2 => ⟨S2048x64, .f32⟩
  | 3 => ⟨S_, .f32⟩
  | 4 => ⟨S2048, .f32⟩
  | 5 => ⟨S_, .f32⟩
  | 6 => ⟨S2048, .f32⟩
  | 7 => ⟨S2048, .f32⟩
  | 8 => ⟨S2048, .f32⟩
  | 9 => ⟨S64x2048, .f32⟩
  | 10 => ⟨S2048x2048, .f32⟩
  | 11 => ⟨S_, .f32⟩
  | 12 => ⟨S2048x2048, .f32⟩
  | 13 => ⟨S2048x2048, .f32⟩
  | 14 => ⟨S2048x2048, .f32⟩
  | 15 => ⟨S_, .f32⟩
  | 16 => ⟨S2048, .f32⟩
  | 17 => ⟨S_, .f32⟩
  | 18 => ⟨S2048, .f32⟩
  | 19 => ⟨S2048, .f32⟩
  | 20 => ⟨S2048, .f32⟩
  | 21 => ⟨S_, .f32⟩
  | 22 => ⟨S2048, .f32⟩
  | 23 => ⟨S2048, .f32⟩
  | 24 => ⟨S2048, .f32⟩
  | 25 => ⟨S2048, .f32⟩
  | 26 => ⟨S2048, .f32⟩
  | 27 => ⟨S_, .f32⟩
  | 28 => ⟨S_, .f32⟩
  | 29 => ⟨S_, .f32⟩
  | 30 => ⟨S1x64x64, .f32⟩
  | 31 => ⟨S64x64, .f32⟩
  | 32 => ⟨S1x2048, .f32⟩
  | 33 => ⟨S2048, .f32⟩
  | 34 => ⟨S_, .f32⟩
  | 35 => ⟨S2048, .f32⟩
  | 36 => ⟨S2048, .i1⟩
  | 37 => ⟨S2048, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S2048x64, .f32⟩
  | 47 => ⟨S2048x64, .f32⟩
  | 48 => ⟨S_, .f32⟩
  | 49 => ⟨S2048, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x64, .f32⟩
  | 56 => ⟨S2048x64, .f32⟩
  | 57 => ⟨S2048x64, .f32⟩
  | 58 => ⟨S_, .i32⟩
  | 59 => ⟨S2048, .i32⟩
  | 60 => ⟨S2048, .i1⟩
  | 61 => ⟨S_, .i32⟩
  | 62 => ⟨S2048, .i32⟩
  | 63 => ⟨S2048, .i32⟩
  | 64 => ⟨S2048, .i32⟩
  | 65 => ⟨S2048x1, .i32⟩
  | 66 => ⟨S2048x64, .f32⟩
  | 67 => ⟨S2048x64, .f32⟩
  | 68 => ⟨S_, .f32⟩
  | 69 => ⟨S2048, .f32⟩
  | 70 => ⟨S2048x1, .f32⟩
  | 71 => ⟨S2048x1, .f32⟩
  | 72 => ⟨S_, .f32⟩
  | 73 => ⟨S2048x1, .f32⟩
  | 74 => ⟨S2048x1, .f32⟩
  | 75 => ⟨S2048x64, .f32⟩
  | 76 => ⟨S2048x64, .f32⟩
  | 77 => ⟨S2048x64, .f32⟩
  | 78 => ⟨S2048x64, .f32⟩
  | 79 => ⟨S_, .f32⟩
  | 80 => ⟨S2048, .f32⟩
  | 81 => ⟨S_, .f32⟩
  | 82 => ⟨S2048, .f32⟩
  | 83 => ⟨S2048, .f32⟩
  | 84 => ⟨S2048, .f32⟩
  | 85 => ⟨S64x2048, .f32⟩
  | 86 => ⟨S2048x2048, .f32⟩
  | 87 => ⟨S_, .f32⟩
  | 88 => ⟨S2048x2048, .f32⟩
  | 89 => ⟨S2048x2048, .f32⟩
  | 90 => ⟨S2048x2048, .f32⟩
  | 91 => ⟨S_, .f32⟩
  | 92 => ⟨S2048, .f32⟩
  | 93 => ⟨S_, .f32⟩
  | 94 => ⟨S2048, .f32⟩
  | 95 => ⟨S2048, .f32⟩
  | 96 => ⟨S2048, .f32⟩
  | 97 => ⟨S_, .f32⟩
  | 98 => ⟨S2048, .f32⟩
  | 99 => ⟨S2048, .f32⟩
  | 100 => ⟨S2048, .f32⟩
  | 101 => ⟨S2048, .f32⟩
  | 102 => ⟨S2048, .f32⟩
  | 103 => ⟨S_, .f32⟩
  | 104 => ⟨S_, .f32⟩
  | 105 => ⟨S_, .f32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S2048x64, .f32⟩
  | 115 => ⟨S_, .i32⟩
  | 116 => ⟨S2048, .i32⟩
  | 117 => ⟨S2048, .i1⟩
  | 118 => ⟨S_, .i32⟩
  | 119 => ⟨S2048, .i32⟩
  | 120 => ⟨S2048, .i32⟩
  | 121 => ⟨S2048, .i32⟩
  | 122 => ⟨S2048x1, .i32⟩
  | 123 => ⟨S2048x64, .f32⟩
  | 124 => ⟨S2048x64, .f32⟩
  | 125 => ⟨S_, .f32⟩
  | 126 => ⟨S2048, .f32⟩
  | 127 => ⟨S_, .i32⟩
  | _ => ⟨S100000x64, .f32⟩

abbrev hbmTy0_5 (i : Nat) : BufTy := match i % 128 with
  | 0 => ⟨S2048, .i32⟩
  | 1 => ⟨S2048, .i1⟩
  | 2 => ⟨S_, .i32⟩
  | 3 => ⟨S2048, .i32⟩
  | 4 => ⟨S2048, .i32⟩
  | 5 => ⟨S2048, .i32⟩
  | 6 => ⟨S2048x1, .i32⟩
  | 7 => ⟨S2048x64, .f32⟩
  | 8 => ⟨S2048x64, .f32⟩
  | 9 => ⟨S_, .f32⟩
  | 10 => ⟨S2048, .f32⟩
  | 11 => ⟨S_, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_18 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_19 : Ref sig .tc := ⟨.hbm, 143, rfl⟩
abbrev main_v99 : Ref sig .tc := ⟨.hbm, 144, rfl⟩
abbrev main_v100 : Ref sig .tc := ⟨.hbm, 145, rfl⟩
abbrev main_c_20 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_22 : Ref sig .tc := ⟨.hbm, 158, rfl⟩
abbrev main_v111 : Ref sig .tc := ⟨.hbm, 159, rfl⟩
abbrev main_v112 : Ref sig .tc := ⟨.hbm, 160, rfl⟩
abbrev main_cst_23 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_24 : Ref sig .tc := ⟨.hbm, 168, rfl⟩
abbrev main_v119 : Ref sig .tc := ⟨.hbm, 169, rfl⟩
abbrev main_v120 : Ref sig .tc := ⟨.hbm, 170, rfl⟩
abbrev main_cst_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_26 : Ref sig .tc := ⟨.hbm, 176, rfl⟩
abbrev main_v125 : Ref sig .tc := ⟨.hbm, 177, rfl⟩
abbrev main_v126 : Ref sig .tc := ⟨.hbm, 178, rfl⟩
abbrev main_cst_27 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_28 : Ref sig .tc := ⟨.hbm, 184, rfl⟩
abbrev main_v131 : Ref sig .tc := ⟨.hbm, 185, rfl⟩
abbrev main_v132 : Ref sig .tc := ⟨.hbm, 186, rfl⟩
abbrev main_cst_29 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_30 : Ref sig .tc := ⟨.hbm, 192, rfl⟩
abbrev main_v137 : Ref sig .tc := ⟨.hbm, 193, rfl⟩
abbrev main_v138 : Ref sig .tc := ⟨.hbm, 194, rfl⟩
abbrev main_cst_31 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_32 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_33 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_34 : Ref sig .tc := ⟨.hbm, 212, rfl⟩
abbrev main_v153 : Ref sig .tc := ⟨.hbm, 213, rfl⟩
abbrev main_v154 : Ref sig .tc := ⟨.hbm, 214, rfl⟩
abbrev main_c_35 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_36 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_37 : Ref sig .tc := ⟨.hbm, 227, rfl⟩
abbrev main_v165 : Ref sig .tc := ⟨.hbm, 228, rfl⟩
abbrev main_v166 : Ref sig .tc := ⟨.hbm, 229, rfl⟩
abbrev main_cst_38 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_39 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_cst_40 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_c_41 : Ref sig .tc := ⟨.hbm, 245, rfl⟩
abbrev main_v179 : Ref sig .tc := ⟨.hbm, 246, rfl⟩
abbrev main_v180 : Ref sig .tc := ⟨.hbm, 247, rfl⟩
abbrev main_c_42 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_43 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_44 : Ref sig .tc := ⟨.hbm, 260, rfl⟩
abbrev main_v191 : Ref sig .tc := ⟨.hbm, 261, rfl⟩
abbrev main_v192 : Ref sig .tc := ⟨.hbm, 262, rfl⟩
abbrev main_cst_45 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_46 : Ref sig .tc := ⟨.hbm, 270, rfl⟩
abbrev main_v199 : Ref sig .tc := ⟨.hbm, 271, rfl⟩
abbrev main_v200 : Ref sig .tc := ⟨.hbm, 272, rfl⟩
abbrev main_cst_47 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_48 : Ref sig .tc := ⟨.hbm, 278, rfl⟩
abbrev main_v205 : Ref sig .tc := ⟨.hbm, 279, rfl⟩
abbrev main_v206 : Ref sig .tc := ⟨.hbm, 280, rfl⟩
abbrev main_cst_49 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_50 : Ref sig .tc := ⟨.hbm, 286, rfl⟩
abbrev main_v211 : Ref sig .tc := ⟨.hbm, 287, rfl⟩
abbrev main_v212 : Ref sig .tc := ⟨.hbm, 288, rfl⟩
abbrev main_cst_51 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_cst_52 : Ref sig .tc := ⟨.hbm, 294, rfl⟩
abbrev main_v217 : Ref sig .tc := ⟨.hbm, 295, rfl⟩
abbrev main_v218 : Ref sig .tc := ⟨.hbm, 296, rfl⟩
abbrev main_cst_53 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_cst_54 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_cst_55 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_56 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_c_57 : Ref sig .tc := ⟨.hbm, 321, rfl⟩
abbrev main_v239 : Ref sig .tc := ⟨.hbm, 322, rfl⟩
abbrev main_v240 : Ref sig .tc := ⟨.hbm, 323, rfl⟩
abbrev main_c_58 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_cst_59 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_60 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_c_61 : Ref sig .tc := ⟨.hbm, 341, rfl⟩
abbrev main_v255 : Ref sig .tc := ⟨.hbm, 342, rfl⟩
abbrev main_v256 : Ref sig .tc := ⟨.hbm, 343, rfl⟩
abbrev main_c_62 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_cst_63 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_cst_64 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_65 : Ref sig .tc := ⟨.hbm, 362, rfl⟩
abbrev main_v272 : Ref sig .tc := ⟨.hbm, 363, rfl⟩
abbrev main_cst_66 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_cst_67 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_cst_68 : Ref sig .tc := ⟨.hbm, 374, rfl⟩
abbrev main_v281 : Ref sig .tc := ⟨.hbm, 375, rfl⟩
abbrev main_cst_69 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_cst_70 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_cst_71 : Ref sig .tc := ⟨.hbm, 386, rfl⟩
abbrev main_v290 : Ref sig .tc := ⟨.hbm, 387, rfl⟩
abbrev main_cst_72 : Ref sig .tc := ⟨.hbm, 388, rfl⟩
abbrev main_v291 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_73 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_c_74 : Ref sig .tc := ⟨.hbm, 398, rfl⟩
abbrev main_v299 : Ref sig .tc := ⟨.hbm, 399, rfl⟩
abbrev main_v300 : Ref sig .tc := ⟨.hbm, 400, rfl⟩
abbrev main_c_75 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_cst_76 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_cst_77 : Ref sig .tc := ⟨.hbm, 412, rfl⟩
abbrev main_v310 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_c_78 : Ref sig .tc := ⟨.hbm, 418, rfl⟩
abbrev main_v315 : Ref sig .tc := ⟨.hbm, 419, rfl⟩
abbrev main_v316 : Ref sig .tc := ⟨.hbm, 420, rfl⟩
abbrev main_c_79 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_cst_80 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_cst_81 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_cst_82 : Ref sig .tc := ⟨.hbm, 439, rfl⟩
abbrev main_v332 : Ref sig .tc := ⟨.hbm, 440, rfl⟩
abbrev main_cst_83 : Ref sig .tc := ⟨.hbm, 441, rfl⟩
abbrev main_v333 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_cst_84 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩
abbrev main_cst_85 : Ref sig .tc := ⟨.hbm, 451, rfl⟩
abbrev main_v341 : Ref sig .tc := ⟨.hbm, 452, rfl⟩
abbrev main_cst_86 : Ref sig .tc := ⟨.hbm, 453, rfl⟩
abbrev main_v342 : Ref sig .tc := ⟨.hbm, 454, rfl⟩
abbrev main_v343 : Ref sig .tc := ⟨.hbm, 455, rfl⟩
abbrev main_v344 : Ref sig .tc := ⟨.hbm, 456, rfl⟩
abbrev main_cst_87 : Ref sig .tc := ⟨.hbm, 457, rfl⟩
abbrev main_v345 : Ref sig .tc := ⟨.hbm, 458, rfl⟩
abbrev main_v346 : Ref sig .tc := ⟨.hbm, 459, rfl⟩
abbrev main_v347 : Ref sig .tc := ⟨.hbm, 460, rfl⟩
abbrev main_v348 : Ref sig .tc := ⟨.hbm, 461, rfl⟩
abbrev main_v349 : Ref sig .tc := ⟨.hbm, 462, rfl⟩
abbrev main_cst_88 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_cst_89 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_c_90 : Ref sig .tc := ⟨.hbm, 474, rfl⟩
abbrev main_v359 : Ref sig .tc := ⟨.hbm, 475, rfl⟩
abbrev main_v360 : Ref sig .tc := ⟨.hbm, 476, rfl⟩
abbrev main_c_91 : Ref sig .tc := ⟨.hbm, 477, rfl⟩
abbrev main_v361 : Ref sig .tc := ⟨.hbm, 478, rfl⟩
abbrev main_v362 : Ref sig .tc := ⟨.hbm, 479, rfl⟩
abbrev main_v363 : Ref sig .tc := ⟨.hbm, 480, rfl⟩
abbrev main_v364 : Ref sig .tc := ⟨.hbm, 481, rfl⟩
abbrev main_v365 : Ref sig .tc := ⟨.hbm, 482, rfl⟩
abbrev main_v366 : Ref sig .tc := ⟨.hbm, 483, rfl⟩
abbrev main_cst_92 : Ref sig .tc := ⟨.hbm, 484, rfl⟩
abbrev main_v367 : Ref sig .tc := ⟨.hbm, 485, rfl⟩
abbrev main_v368 : Ref sig .tc := ⟨.hbm, 486, rfl⟩
abbrev main_v369 : Ref sig .tc := ⟨.hbm, 487, rfl⟩
abbrev main_cst_93 : Ref sig .tc := ⟨.hbm, 488, rfl⟩
abbrev main_v370 : Ref sig .tc := ⟨.hbm, 489, rfl⟩
abbrev main_v371 : Ref sig .tc := ⟨.hbm, 490, rfl⟩
abbrev main_v372 : Ref sig .tc := ⟨.hbm, 491, rfl⟩
abbrev main_v373 : Ref sig .tc := ⟨.hbm, 492, rfl⟩
abbrev main_v374 : Ref sig .tc := ⟨.hbm, 493, rfl⟩
abbrev main_c_94 : Ref sig .tc := ⟨.hbm, 494, rfl⟩
abbrev main_v375 : Ref sig .tc := ⟨.hbm, 495, rfl⟩
abbrev main_v376 : Ref sig .tc := ⟨.hbm, 496, rfl⟩
abbrev main_c_95 : Ref sig .tc := ⟨.hbm, 497, rfl⟩
abbrev main_v377 : Ref sig .tc := ⟨.hbm, 498, rfl⟩
abbrev main_v378 : Ref sig .tc := ⟨.hbm, 499, rfl⟩
abbrev main_v379 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_cst_96 : Ref sig .tc := ⟨.hbm, 504, rfl⟩
abbrev main_v383 : Ref sig .tc := ⟨.hbm, 505, rfl⟩
abbrev main_v384 : Ref sig .tc := ⟨.hbm, 506, rfl⟩
abbrev main_v385 : Ref sig .tc := ⟨.hbm, 507, rfl⟩
abbrev main_cst_97 : Ref sig .tc := ⟨.hbm, 508, rfl⟩
abbrev main_v386 : Ref sig .tc := ⟨.hbm, 509, rfl⟩
abbrev main_v387 : Ref sig .tc := ⟨.hbm, 510, rfl⟩
abbrev main_v388 : Ref sig .tc := ⟨.hbm, 511, rfl⟩
abbrev main_v389 : Ref sig .tc := ⟨.hbm, 512, rfl⟩
abbrev main_v390 : Ref sig .tc := ⟨.hbm, 513, rfl⟩
abbrev main_v391 : Ref sig .tc := ⟨.hbm, 514, rfl⟩
abbrev main_cst_98 : Ref sig .tc := ⟨.hbm, 515, rfl⟩
abbrev main_v392 : Ref sig .tc := ⟨.hbm, 516, rfl⟩
abbrev main_cst_99 : Ref sig .tc := ⟨.hbm, 517, rfl⟩
abbrev main_v393 : Ref sig .tc := ⟨.hbm, 518, rfl⟩
abbrev main_v394 : Ref sig .tc := ⟨.hbm, 519, rfl⟩
abbrev main_v395 : Ref sig .tc := ⟨.hbm, 520, rfl⟩
abbrev main_v396 : Ref sig .tc := ⟨.hbm, 521, rfl⟩
abbrev main_v397 : Ref sig .tc := ⟨.hbm, 522, rfl⟩
abbrev main_cst_100 : Ref sig .tc := ⟨.hbm, 523, rfl⟩
abbrev main_v398 : Ref sig .tc := ⟨.hbm, 524, rfl⟩
abbrev main_v399 : Ref sig .tc := ⟨.hbm, 525, rfl⟩
abbrev main_v400 : Ref sig .tc := ⟨.hbm, 526, rfl⟩
abbrev main_cst_101 : Ref sig .tc := ⟨.hbm, 527, rfl⟩
abbrev main_v401 : Ref sig .tc := ⟨.hbm, 528, rfl⟩
abbrev main_cst_102 : Ref sig .tc := ⟨.hbm, 529, rfl⟩
abbrev main_v402 : Ref sig .tc := ⟨.hbm, 530, rfl⟩
abbrev main_v403 : Ref sig .tc := ⟨.hbm, 531, rfl⟩
abbrev main_v404 : Ref sig .tc := ⟨.hbm, 532, rfl⟩
abbrev main_cst_103 : Ref sig .tc := ⟨.hbm, 533, rfl⟩
abbrev main_v405 : Ref sig .tc := ⟨.hbm, 534, rfl⟩
abbrev main_v406 : Ref sig .tc := ⟨.hbm, 535, rfl⟩
abbrev main_v407 : Ref sig .tc := ⟨.hbm, 536, rfl⟩
abbrev main_v408 : Ref sig .tc := ⟨.hbm, 537, rfl⟩
abbrev main_v409 : Ref sig .tc := ⟨.hbm, 538, rfl⟩
abbrev main_cst_104 : Ref sig .tc := ⟨.hbm, 539, rfl⟩
abbrev main_v410 : Ref sig .tc := ⟨.hbm, 540, rfl⟩
abbrev main_v411 : Ref sig .tc := ⟨.hbm, 541, rfl⟩
abbrev main_v412 : Ref sig .tc := ⟨.hbm, 542, rfl⟩
abbrev main_v413 : Ref sig .tc := ⟨.hbm, 543, rfl⟩
abbrev main_v414 : Ref sig .tc := ⟨.hbm, 544, rfl⟩
abbrev main_v415 : Ref sig .tc := ⟨.hbm, 545, rfl⟩
abbrev main_cst_105 : Ref sig .tc := ⟨.hbm, 546, rfl⟩
abbrev main_v416 : Ref sig .tc := ⟨.hbm, 547, rfl⟩
abbrev main_v417 : Ref sig .tc := ⟨.hbm, 548, rfl⟩
abbrev main_v418 : Ref sig .tc := ⟨.hbm, 549, rfl⟩
abbrev main_c_106 : Ref sig .tc := ⟨.hbm, 550, rfl⟩
abbrev main_v419 : Ref sig .tc := ⟨.hbm, 551, rfl⟩
abbrev main_v420 : Ref sig .tc := ⟨.hbm, 552, rfl⟩
abbrev main_c_107 : Ref sig .tc := ⟨.hbm, 553, rfl⟩
abbrev main_v421 : Ref sig .tc := ⟨.hbm, 554, rfl⟩
abbrev main_v422 : Ref sig .tc := ⟨.hbm, 555, rfl⟩
abbrev main_v423 : Ref sig .tc := ⟨.hbm, 556, rfl⟩
abbrev main_v424 : Ref sig .tc := ⟨.hbm, 557, rfl⟩
abbrev main_v425 : Ref sig .tc := ⟨.hbm, 558, rfl⟩
abbrev main_v426 : Ref sig .tc := ⟨.hbm, 559, rfl⟩
abbrev main_cst_108 : Ref sig .tc := ⟨.hbm, 560, rfl⟩
abbrev main_v427 : Ref sig .tc := ⟨.hbm, 561, rfl⟩
abbrev main_v428 : Ref sig .tc := ⟨.hbm, 562, rfl⟩
abbrev main_v429 : Ref sig .tc := ⟨.hbm, 563, rfl⟩
abbrev main_cst_109 : Ref sig .tc := ⟨.hbm, 564, rfl⟩
abbrev main_v430 : Ref sig .tc := ⟨.hbm, 565, rfl⟩
abbrev main_v431 : Ref sig .tc := ⟨.hbm, 566, rfl⟩
abbrev main_v432 : Ref sig .tc := ⟨.hbm, 567, rfl⟩
abbrev main_v433 : Ref sig .tc := ⟨.hbm, 568, rfl⟩
abbrev main_v434 : Ref sig .tc := ⟨.hbm, 569, rfl⟩
abbrev main_c_110 : Ref sig .tc := ⟨.hbm, 570, rfl⟩
abbrev main_v435 : Ref sig .tc := ⟨.hbm, 571, rfl⟩
abbrev main_v436 : Ref sig .tc := ⟨.hbm, 572, rfl⟩
abbrev main_c_111 : Ref sig .tc := ⟨.hbm, 573, rfl⟩
abbrev main_v437 : Ref sig .tc := ⟨.hbm, 574, rfl⟩
abbrev main_v438 : Ref sig .tc := ⟨.hbm, 575, rfl⟩
abbrev main_v439 : Ref sig .tc := ⟨.hbm, 576, rfl⟩
abbrev main_v440 : Ref sig .tc := ⟨.hbm, 577, rfl⟩
abbrev main_v441 : Ref sig .tc := ⟨.hbm, 578, rfl⟩
abbrev main_v442 : Ref sig .tc := ⟨.hbm, 579, rfl⟩
abbrev main_cst_112 : Ref sig .tc := ⟨.hbm, 580, rfl⟩
abbrev main_v443 : Ref sig .tc := ⟨.hbm, 581, rfl⟩
abbrev main_v444 : Ref sig .tc := ⟨.hbm, 582, rfl⟩
abbrev main_v445 : Ref sig .tc := ⟨.hbm, 583, rfl⟩
abbrev main_cst_113 : Ref sig .tc := ⟨.hbm, 584, rfl⟩
abbrev main_v446 : Ref sig .tc := ⟨.hbm, 585, rfl⟩
abbrev main_v447 : Ref sig .tc := ⟨.hbm, 586, rfl⟩
abbrev main_v448 : Ref sig .tc := ⟨.hbm, 587, rfl⟩
abbrev main_v449 : Ref sig .tc := ⟨.hbm, 588, rfl⟩
abbrev main_v450 : Ref sig .tc := ⟨.hbm, 589, rfl⟩
abbrev main_v451 : Ref sig .tc := ⟨.hbm, 590, rfl⟩
abbrev main_cst_114 : Ref sig .tc := ⟨.hbm, 591, rfl⟩
abbrev main_v452 : Ref sig .tc := ⟨.hbm, 592, rfl⟩
abbrev main_cst_115 : Ref sig .tc := ⟨.hbm, 593, rfl⟩
abbrev main_v453 : Ref sig .tc := ⟨.hbm, 594, rfl⟩
abbrev main_v454 : Ref sig .tc := ⟨.hbm, 595, rfl⟩
abbrev main_v455 : Ref sig .tc := ⟨.hbm, 596, rfl⟩
abbrev main_v456 : Ref sig .tc := ⟨.hbm, 597, rfl⟩
abbrev main_v457 : Ref sig .tc := ⟨.hbm, 598, rfl⟩
abbrev main_cst_116 : Ref sig .tc := ⟨.hbm, 599, rfl⟩
abbrev main_v458 : Ref sig .tc := ⟨.hbm, 600, rfl⟩
abbrev main_v459 : Ref sig .tc := ⟨.hbm, 601, rfl⟩
abbrev main_v460 : Ref sig .tc := ⟨.hbm, 602, rfl⟩
abbrev main_cst_117 : Ref sig .tc := ⟨.hbm, 603, rfl⟩
abbrev main_v461 : Ref sig .tc := ⟨.hbm, 604, rfl⟩
abbrev main_cst_118 : Ref sig .tc := ⟨.hbm, 605, rfl⟩
abbrev main_v462 : Ref sig .tc := ⟨.hbm, 606, rfl⟩
abbrev main_v463 : Ref sig .tc := ⟨.hbm, 607, rfl⟩
abbrev main_v464 : Ref sig .tc := ⟨.hbm, 608, rfl⟩
abbrev main_cst_119 : Ref sig .tc := ⟨.hbm, 609, rfl⟩
abbrev main_v465 : Ref sig .tc := ⟨.hbm, 610, rfl⟩
abbrev main_v466 : Ref sig .tc := ⟨.hbm, 611, rfl⟩
abbrev main_v467 : Ref sig .tc := ⟨.hbm, 612, rfl⟩
abbrev main_v468 : Ref sig .tc := ⟨.hbm, 613, rfl⟩
abbrev main_v469 : Ref sig .tc := ⟨.hbm, 614, rfl⟩
abbrev main_cst_120 : Ref sig .tc := ⟨.hbm, 615, rfl⟩
abbrev main_v470 : Ref sig .tc := ⟨.hbm, 616, rfl⟩
abbrev main_v471 : Ref sig .tc := ⟨.hbm, 617, rfl⟩
abbrev main_c_121 : Ref sig .tc := ⟨.hbm, 618, rfl⟩
abbrev main_v472 : Ref sig .tc := ⟨.hbm, 619, rfl⟩
abbrev main_v473 : Ref sig .tc := ⟨.hbm, 620, rfl⟩
abbrev main_c_122 : Ref sig .tc := ⟨.hbm, 621, rfl⟩
abbrev main_v474 : Ref sig .tc := ⟨.hbm, 622, rfl⟩
abbrev main_v475 : Ref sig .tc := ⟨.hbm, 623, rfl⟩
abbrev main_v476 : Ref sig .tc := ⟨.hbm, 624, rfl⟩
abbrev main_v477 : Ref sig .tc := ⟨.hbm, 625, rfl⟩
abbrev main_v478 : Ref sig .tc := ⟨.hbm, 626, rfl⟩
abbrev main_c_123 : Ref sig .tc := ⟨.hbm, 627, rfl⟩
abbrev main_v479 : Ref sig .tc := ⟨.hbm, 628, rfl⟩
abbrev main_v480 : Ref sig .tc := ⟨.hbm, 629, rfl⟩
abbrev main_c_124 : Ref sig .tc := ⟨.hbm, 630, rfl⟩
abbrev main_v481 : Ref sig .tc := ⟨.hbm, 631, rfl⟩
abbrev main_v482 : Ref sig .tc := ⟨.hbm, 632, rfl⟩
abbrev main_v483 : Ref sig .tc := ⟨.hbm, 633, rfl⟩
abbrev main_v484 : Ref sig .tc := ⟨.hbm, 634, rfl⟩
abbrev main_v485 : Ref sig .tc := ⟨.hbm, 635, rfl⟩
abbrev main_v486 : Ref sig .tc := ⟨.hbm, 636, rfl⟩
abbrev main_cst_125 : Ref sig .tc := ⟨.hbm, 637, rfl⟩
abbrev main_v487 : Ref sig .tc := ⟨.hbm, 638, rfl⟩
abbrev main_c_126 : Ref sig .tc := ⟨.hbm, 639, rfl⟩
abbrev main_v488 : Ref sig .tc := ⟨.hbm, 640, rfl⟩
abbrev main_v489 : Ref sig .tc := ⟨.hbm, 641, rfl⟩
abbrev main_c_127 : Ref sig .tc := ⟨.hbm, 642, rfl⟩
abbrev main_v490 : Ref sig .tc := ⟨.hbm, 643, rfl⟩
abbrev main_v491 : Ref sig .tc := ⟨.hbm, 644, rfl⟩
abbrev main_v492 : Ref sig .tc := ⟨.hbm, 645, rfl⟩
abbrev main_v493 : Ref sig .tc := ⟨.hbm, 646, rfl⟩
abbrev main_v494 : Ref sig .tc := ⟨.hbm, 647, rfl⟩
abbrev main_v495 : Ref sig .tc := ⟨.hbm, 648, rfl⟩
abbrev main_cst_128 : Ref sig .tc := ⟨.hbm, 649, rfl⟩
abbrev main_v496 : Ref sig .tc := ⟨.hbm, 650, rfl⟩
abbrev main_cst_129 : Ref sig .tc := ⟨.hbm, 651, rfl⟩
abbrev main_v497 : Ref sig .tc := ⟨.hbm, 652, rfl⟩
abbrev main_v498 : Ref sig .tc := ⟨.hbm, 653, rfl⟩
abbrev main_v499 : Ref sig .tc := ⟨.hbm, 654, rfl⟩
abbrev main_call12_cst : Ref sig .tc := ⟨.hbm, 655, rfl⟩
abbrev main_call12_v0 : Ref sig .tc := ⟨.hbm, 656, rfl⟩
abbrev main_v500 : Ref sig .tc := ⟨.hbm, 657, rfl⟩
abbrev main_cst_130 : Ref sig .tc := ⟨.hbm, 658, rfl⟩
abbrev main_v501 : Ref sig .tc := ⟨.hbm, 659, rfl⟩
abbrev main_cst_131 : Ref sig .tc := ⟨.hbm, 660, rfl⟩
abbrev main_v502 : Ref sig .tc := ⟨.hbm, 661, rfl⟩
abbrev main_cst_132 : Ref sig .tc := ⟨.hbm, 662, rfl⟩
abbrev main_v503 : Ref sig .tc := ⟨.hbm, 663, rfl⟩
abbrev main_v504 : Ref sig .tc := ⟨.hbm, 664, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  slices_S2x2x1000000_S1x1x1000000_0_0_0 : S2x2x1000000.Slices ![0, 0, 0] S1x1x1000000
  shapeCasts_S1x1x1000000_S1000000 : S1x1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x2x1000000_S1x1x1000000_0_1_0 : S2x2x1000000.Slices ![0, 1, 0] S1x1x1000000
  slices_S2x2x1000000_S1x1x1000000_1_0_0 : S2x2x1000000.Slices ![1, 0, 0] S1x1x1000000
  slices_S2x2x1000000_S1x1x1000000_1_1_0 : S2x2x1000000.Slices ![1, 1, 0] S1x1x1000000
  slices_S2x64x64_S1x64x64_0_0_0 : S2x64x64.Slices ![0, 0, 0] S1x64x64
  shapeCasts_S1x64x64_S64x64 : S1x64x64.ShapeCasts S64x64
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  reducesTo_S2048x64_S2048_d1 : S2048x64.ReducesTo [1] S2048
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  reducesTo_S2048x2048_S2048_d1 : S2048x2048.ReducesTo [1] S2048
  reducesTo_S2048_S_d0 : S2048.ReducesTo [0] S_
  slices_S2x64x64_S1x64x64_1_0_0 : S2x64x64.Slices ![1, 0, 0] S1x64x64
  slices_S2x2048_S1x2048_1_0 : S2x2048.Slices ![1, 0] S1x2048
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S64x50000_S50000x64_S64x64_1_0_0_1_n_n_wf : DotDims.WF S64x50000 S50000x64 S64x64 [1] [0] [0] [1] [] []
  dot_S64x100000_S100000x64_S64x64_1_0_0_1_n_n_wf : DotDims.WF S64x100000 S100000x64 S64x64 [1] [0] [0] [1] [] []
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S100000x64_S2048x1_S2048x64_1_0_n_n_0_1_164_wf : GatherDims.WF S100000x64 S2048x1 S2048x64 [1] [0] [] [0] [] 1 ![1, 64]
  dot_S2048x64_S64x64_S2048x64_1_0_0_1_n_n_wf : DotDims.WF S2048x64 S64x64 S2048x64 [1] [0] [0] [1] [] []
  dot_S2048x64_S64x2048_S2048x2048_1_0_0_1_n_n_wf : DotDims.WF S2048x64 S64x2048 S2048x2048 [1] [0] [0] [1] [] []
  gather_S50000x64_S2048x1_S2048x64_1_0_n_n_0_1_164_wf : GatherDims.WF S50000x64 S2048x1 S2048x64 [1] [0] [] [0] [] 1 ![1, 64]

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S64x50000_S50000x64_S64x64_1_0_0_1_n_n : DotDims S64x50000 S50000x64 S64x64 where
  lhsContracting := [1]
  rhsContracting := [0]
  lhsNonContracting := [0]
  rhsNonContracting := [1]
  lhsBatch := []
  rhsBatch := []
  wf := dot_S64x50000_S50000x64_S64x64_1_0_0_1_n_n_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf

class Facts : Prop extends Facts₀ where

variable [Facts]
-- ==== Proof.RefChunks.lean ====
/-
  The reference program's @main as nine consecutive lists of host operations, and its run over them: every weakly
  fair execution terminates, nothing faulting, and every buffer ends at the fold of the operations' results over the
  launch contents. The cuts fall where the kernel's program has left a pallas region: after the four scaled factors,
  after each layer's four projections, after each contrastive block's negative scores, before the ranking loss's rectifier, and at the return.
-/
import proofs.«103739_j26439818674747_2_alg».proof.Proof.Gen.ReferenceIdeal
import Idealize.ShloMosaic.Lib.StableHlo.Run
import Idealize.ShloMosaic.Lib.Pipeline.Frame

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 0 to 75 of @main, in order. -/
abbrev cA : List (HloOp τ sig (Elt F)) :=
  [ unary main_arg2 main_v0 (Host.sign : (⟨S100000x64, .f32⟩ : BufTy).Contents (Elt F) → (⟨S100000x64, .f32⟩ : BufTy).Contents (Elt F)),
    binary main_arg11 main_arg11 main_v1 (mulf : (⟨S100000x64, .f32⟩ : BufTy).Contents (Elt F) → (⟨S100000x64, .f32⟩ : BufTy).Contents (Elt F) → (⟨S100000x64, .f32⟩ : BufTy).Contents (Elt F)),
    nullary main_cst (constant S_ .f32 0x00000000#32),
    binary main_v1 main_cst main_v2 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v2 main_v3 (broadcastInDim S100000x1 ![0] bcast_S100000_S100000x1_0 : (⟨S100000, .f32⟩ : BufTy).Contents (Elt F) → (⟨S100000x1, .f32⟩ : BufTy).Contents (Elt F)),
    unary main_v3 main_v4 (Host.sqrt : (⟨S100000x1, .f32⟩ : BufTy).Contents (Elt F) → (⟨S100000x1, .f32⟩ : BufTy).Contents (Elt F)),
    nullary main_cst_0 (constant S_ .f32 0x2B8CBCCC#32),
    unary main_cst_0 main_v5 (broadcastInDim S100000x1 ![] bcast_S_S100000x1 : (⟨S_, .f32⟩ : BufTy).Contents (Elt F) → (⟨S100000x1, .f32⟩ : BufTy).Contents (Elt F)),
    binary main_v4 main_v5 main_v6 (maximumf : (⟨S100000x1, .f32⟩ : BufTy).Contents (Elt F) → (⟨S100000x1, .f32⟩ : BufTy).Contents (Elt F) → (⟨S100000x1, .f32⟩ : BufTy).Contents (Elt F)),
    unary main_v6 main_v7 (broadcastInDim S100000x64 ![0, 1] bcast_S100000x1_S100000x64_0_1 : (⟨S100000x1, .f32⟩ : BufTy).Contents (Elt F) → (⟨S100000x64, .f32⟩ : BufTy).Contents (Elt F)),
    binary main_arg11 main_v7 main_v8 (Host.divf : (⟨S100000x64, .f32⟩ : BufTy).Contents (Elt F) → (⟨S100000x64, .f32⟩ : BufTy).Contents (Elt F) → (⟨S100000x64, .f32⟩ : BufTy).Contents (Elt F)),
    binary main_v0 main_v8 main_v9 (mulf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3D4CCCCD#32),
    unary main_cst_1 main_v10 (broadcastInDim S100000x64 ![] bcast_S_S100000x64 : (⟨S_, .f32⟩ : BufTy).Contents (Elt F) → (⟨S100000x64, .f32⟩ : BufTy).Contents (Elt F)),
    binary main_v9 main_v10 main_v11 (mulf : (⟨S100000x64, .f32⟩ : BufTy).Contents (Elt F) → (⟨S100000x64, .f32⟩ : BufTy).Contents (Elt F) → (⟨S100000x64, .f32⟩ : BufTy).Contents (Elt F)),
    binary main_arg2 main_v11 main_v12 (addf : (⟨S100000x64, .f32⟩ : BufTy).Contents (Elt F) → (⟨S100000x64, .f32⟩ : BufTy).Contents (Elt F) → (⟨S100000x64, .f32⟩ : BufTy).Contents (Elt F)),
    unary main_arg3 main_v13 (Host.sign : (⟨S50000x64, .f32⟩ : BufTy).Contents (Elt F) → (⟨S50000x64, .f32⟩ : BufTy).Contents (Elt F)),
    binary main_arg12 main_arg12 main_v14 (mulf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x00000000#32),
    binary main_v14 main_cst_2 main_v15 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)),
    unary main_v16 main_v17 (Host.sqrt : (⟨S50000x1, .f32⟩ : BufTy).Contents (Elt F) → (⟨S50000x1, .f32⟩ : BufTy).Contents (Elt F)),
    nullary main_cst_3 (constant S_ .f32 0x2B8CBCCC#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x64 ![0, 1] bcast_S50000x1_S50000x64_0_1 : (⟨S50000x1, .f32⟩ : BufTy).Contents (Elt F) → (⟨S50000x64, .f32⟩ : BufTy).Contents (Elt F)),
    binary main_arg12 main_v20 main_v21 (Host.divf : (⟨S50000x64, .f32⟩ : BufTy).Contents (Elt F) → (⟨S50000x64, .f32⟩ : BufTy).Contents (Elt F) → (⟨S50000x64, .f32⟩ : BufTy).Contents (Elt F)),
    binary main_v13 main_v21 main_v22 (mulf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3D4CCCCD#32),
    unary main_cst_4 main_v23 (broadcastInDim S50000x64 ![] bcast_S_S50000x64 : (⟨S_, .f32⟩ : BufTy).Contents (Elt F) → (⟨S50000x64, .f32⟩ : BufTy).Contents (Elt F)),
    binary main_v22 main_v23 main_v24 (mulf : (⟨S50000x64, .f32⟩ : BufTy).Contents (Elt F) → (⟨S50000x64, .f32⟩ : BufTy).Contents (Elt F) → (⟨S50000x64, .f32⟩ : BufTy).Contents (Elt F)),
    binary main_arg3 main_v24 main_v25 (addf : (⟨S50000x64, .f32⟩ : BufTy).Contents (Elt F) → (⟨S50000x64, .f32⟩ : BufTy).Contents (Elt F) → (⟨S50000x64, .f32⟩ : BufTy).Contents (Elt F)),
    unary main_arg2 main_v26 (Host.sign : (⟨S100000x64, .f32⟩ : BufTy).Contents (Elt F) → (⟨S100000x64, .f32⟩ : BufTy).Contents (Elt F)),
    binary main_arg13 main_arg13 main_v27 (mulf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v27 main_cst_5 main_v28 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (Host.sqrt : (⟨S100000x1, .f32⟩ : BufTy).Contents (Elt F) → (⟨S100000x1, .f32⟩ : BufTy).Contents (Elt F)),
    nullary main_cst_6 (constant S_ .f32 0x2B8CBCCC#32),
    unary main_cst_6 main_v31 (broadcastInDim S100000x1 ![] bcast_S_S100000x1 : (⟨S_, .f32⟩ : BufTy).Contents (Elt F) → (⟨S100000x1, .f32⟩ : BufTy).Contents (Elt F)),
    binary main_v30 main_v31 main_v32 (maximumf : (⟨S100000x1, .f32⟩ : BufTy).Contents (Elt F) → (⟨S100000x1, .f32⟩ : BufTy).Contents (Elt F) → (⟨S100000x1, .f32⟩ : BufTy).Contents (Elt F)),
    unary main_v32 main_v33 (broadcastInDim S100000x64 ![0, 1] bcast_S100000x1_S100000x64_0_1 : (⟨S100000x1, .f32⟩ : BufTy).Contents (Elt F) → (⟨S100000x64, .f32⟩ : BufTy).Contents (Elt F)),
    binary main_arg13 main_v33 main_v34 (Host.divf : (⟨S100000x64, .f32⟩ : BufTy).Contents (Elt F) → (⟨S100000x64, .f32⟩ : BufTy).Contents (Elt F) → (⟨S100000x64, .f32⟩ : BufTy).Contents (Elt F)),
    binary main_v26 main_v34 main_v35 (mulf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3D4CCCCD#32),
    unary main_cst_7 main_v36 (broadcastInDim S100000x64 ![] bcast_S_S100000x64 : (⟨S_, .f32⟩ : BufTy).Contents (Elt F) → (⟨S100000x64, .f32⟩ : BufTy).Contents (Elt F)),
    binary main_v35 main_v36 main_v37 (mulf : (⟨S100000x64, .f32⟩ : BufTy).Contents (Elt F) → (⟨S100000x64, .f32⟩ : BufTy).Contents (Elt F) → (⟨S100000x64, .f32⟩ : BufTy).Contents (Elt F)),
    binary main_arg2 main_v37 main_v38 (addf : (⟨S100000x64, .f32⟩ : BufTy).Contents (Elt F) → (⟨S100000x64, .f32⟩ : BufTy).Contents (Elt F) → (⟨S100000x64, .f32⟩ : BufTy).Contents (Elt F)),
    unary main_arg3 main_v39 (Host.sign : (⟨S50000x64, .f32⟩ : BufTy).Contents (Elt F) → (⟨S50000x64, .f32⟩ : BufTy).Contents (Elt F)),
    binary main_arg14 main_arg14 main_v40 (mulf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v40 main_cst_8 main_v41 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (Host.sqrt : (⟨S50000x1, .f32⟩ : BufTy).Contents (Elt F) → (⟨S50000x1, .f32⟩ : BufTy).Contents (Elt F)),
    nullary main_cst_9 (constant S_ .f32 0x2B8CBCCC#32),
    unary main_cst_9 main_v44 (broadcastInDim S50000x1 ![] bcast_S_S50000x1 : (⟨S_, .f32⟩ : BufTy).Contents (Elt F) → (⟨S50000x1, .f32⟩ : BufTy).Contents (Elt F)),
    binary main_v43 main_v44 main_v45 (maximumf : (⟨S50000x1, .f32⟩ : BufTy).Contents (Elt F) → (⟨S50000x1, .f32⟩ : BufTy).Contents (Elt F) → (⟨S50000x1, .f32⟩ : BufTy).Contents (Elt F)),
    unary main_v45 main_v46 (broadcastInDim S50000x64 ![0, 1] bcast_S50000x1_S50000x64_0_1 : (⟨S50000x1, .f32⟩ : BufTy).Contents (Elt F) → (⟨S50000x64, .f32⟩ : BufTy).Contents (Elt F)),
    binary main_arg14 main_v46 main_v47 (Host.divf : (⟨S50000x64, .f32⟩ : BufTy).Contents (Elt F) → (⟨S50000x64, .f32⟩ : BufTy).Contents (Elt F) → (⟨S50000x64, .f32⟩ : BufTy).Contents (Elt F)),
    binary main_v39 main_v47 main_v48 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x3D4CCCCD#32),
    unary main_cst_10 main_v49 (broadcastInDim S50000x64 ![] bcast_S_S50000x64 : (⟨S_, .f32⟩ : BufTy).Contents (Elt F) → (⟨S50000x64, .f32⟩ : BufTy).Contents (Elt F)),
    binary main_v48 main_v49 main_v50 (mulf : (⟨S50000x64, .f32⟩ : BufTy).Contents (Elt F) → (⟨S50000x64, .f32⟩ : BufTy).Contents (Elt F) → (⟨S50000x64, .f32⟩ : BufTy).Contents (Elt F)),
    binary main_arg3 main_v50 main_v51 (addf : (⟨S50000x64, .f32⟩ : BufTy).Contents (Elt F) → (⟨S50000x64, .f32⟩ : BufTy).Contents (Elt F) → (⟨S50000x64, .f32⟩ : BufTy).Contents (Elt F)),
    unary main_arg4 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v12 main_v53 main_v54 (mulf : (⟨S100000x64, .f32⟩ : BufTy).Contents (Elt F) → (⟨S100000x64, .f32⟩ : BufTy).Contents (Elt F) → (⟨S100000x64, .f32⟩ : BufTy).Contents (Elt F)),
    unary main_arg4 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v25 main_v56 main_v57 (mulf : (⟨S50000x64, .f32⟩ : BufTy).Contents (Elt F) → (⟨S50000x64, .f32⟩ : BufTy).Contents (Elt F) → (⟨S50000x64, .f32⟩ : BufTy).Contents (Elt F)),
    unary main_arg4 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v38 main_v59 main_v60 (mulf : (⟨S100000x64, .f32⟩ : BufTy).Contents (Elt F) → (⟨S100000x64, .f32⟩ : BufTy).Contents (Elt F) → (⟨S100000x64, .f32⟩ : BufTy).Contents (Elt F)),
    unary main_arg4 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v51 main_v62 main_v63 (mulf : (⟨S50000x64, .f32⟩ : BufTy).Contents (Elt F) → (⟨S50000x64, .f32⟩ : BufTy).Contents (Elt F) → (⟨S50000x64, .f32⟩ : BufTy).Contents (Elt F)) ]
set_option maxRecDepth 8192 in
set_option maxHeartbeats 4000000 in
theorem cA_sub : (cA : List (HloOp τ sig (Elt F))).Forall fun op => op.bufs ⊆ tcRefs τ sig :=
  ⟨unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
set_option maxHeartbeats 4000000 in
theorem cA_fresh : (cA : List (HloOp τ sig (Elt F))).Forall fun op => op.fresh = ∅ := by
  simp only [List.Forall]; repeat' constructor

set_option maxRecDepth 8192 in
set_option maxHeartbeats 4000000 in
/-- Operations 76 to 175 of @main, in order. -/
abbrev cB : List (HloOp τ sig (Elt F)) :=
  [ unary main_arg10 main_v64 ((extractStridedSlice S1x1x1000000 ![0, 0, 0] · slices_S2x2x1000000_S1x1x1000000_0_0_0) : (⟨S2x2x1000000, .f32⟩ : BufTy).Contents (Elt F) → (⟨S1x1x1000000, .f32⟩ : BufTy).Contents (Elt F)),
    reshape main_v64 main_v65 rfl shapeCasts_S1x1x1000000_S1000000,
    nullary main_cst_11 (constant S_ .f32 0x3DCCCCCD#32),
    unary main_cst_11 main_v66 (broadcastInDim S1000000 ![] bcast_S_S1000000 : (⟨S_, .f32⟩ : BufTy).Contents (Elt F) → (⟨S1000000, .f32⟩ : BufTy).Contents (Elt F)),
    binary main_v65 main_v66 main_v67 (cmpf .oge : (⟨S1000000, .f32⟩ : BufTy).Contents (Elt F) → (⟨S1000000, .f32⟩ : BufTy).Contents (Elt F) → (⟨S1000000, .i1⟩ : BufTy).Contents (Elt F)),
    unary main_v67 main_v68 (uitofp .f32 : (⟨S1000000, .i1⟩ : BufTy).Contents (Elt F) → (⟨S1000000, .f32⟩ : BufTy).Contents (Elt F)),
    binary main_arg9 main_v68 main_v69 (mulf : (⟨S1000000, .f32⟩ : BufTy).Contents (Elt F) → (⟨S1000000, .f32⟩ : BufTy).Contents (Elt F) → (⟨S1000000, .f32⟩ : BufTy).Contents (Elt F)),
    nullary main_cst_12 (constant S_ .f32 0x3F666666#32),
    unary main_cst_12 main_v70 (broadcastInDim S1000000 ![] bcast_S_S1000000 : (⟨S_, .f32⟩ : BufTy).Contents (Elt F) → (⟨S1000000, .f32⟩ : BufTy).Contents (Elt F)),
    binary main_v69 main_v70 main_v71 (Host.divf : (⟨S1000000, .f32⟩ : BufTy).Contents (Elt F) → (⟨S1000000, .f32⟩ : BufTy).Contents (Elt F) → (⟨S1000000, .f32⟩ : BufTy).Contents (Elt F)),
    unary main_v71 main_v72 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v73 (broadcastInDim S1000000 ![] bcast_S_S1000000 : (⟨S_, .i32⟩ : BufTy).Contents (Elt F) → (⟨S1000000, .i32⟩ : BufTy).Contents (Elt F)),
    binary main_arg18 main_v73 main_v74 (cmpi .slt : (⟨S1000000, .i32⟩ : BufTy).Contents (Elt F) → (⟨S1000000, .i32⟩ : BufTy).Contents (Elt F) → (⟨S1000000, .i1⟩ : BufTy).Contents (Elt F)),
    nullary main_c_13 (constantI S_ 32 50000#32),
    unary main_c_13 main_v75 (broadcastInDim S1000000 ![] bcast_S_S1000000 : (⟨S_, .i32⟩ : BufTy).Contents (Elt F) → (⟨S1000000, .i32⟩ : BufTy).Contents (Elt F)),
    binary main_arg18 main_v75 main_v76 (addi : (⟨S1000000, .i32⟩ : BufTy).Contents (Elt F) → (⟨S1000000, .i32⟩ : BufTy).Contents (Elt F) → (⟨S1000000, .i32⟩ : BufTy).Contents (Elt F)),
    ternary main_v74 main_v76 main_arg18 main_v77 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v77 main_v78 (broadcastInDim S1000000x1 ![0] bcast_S1000000_S1000000x1_0 : (⟨S1000000, .i32⟩ : BufTy).Contents (Elt F) → (⟨S1000000x1, .i32⟩ : BufTy).Contents (Elt F)),
    binary main_arg1 main_v78 main_v79 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    unary main_v72 main_v80 (broadcastInDim S1000000x64 ![0, 1] bcast_S1000000x1_S1000000x64_0_1 : (⟨S1000000x1, .f32⟩ : BufTy).Contents (Elt F) → (⟨S1000000x64, .f32⟩ : BufTy).Contents (Elt F)),
    binary main_v80 main_v79 main_v81 (mulf : (⟨S1000000x64, .f32⟩ : BufTy).Contents (Elt F) → (⟨S1000000x64, .f32⟩ : BufTy).Contents (Elt F) → (⟨S1000000x64, .f32⟩ : BufTy).Contents (Elt F)),
    nullary main_cst_14 (constant S_ .f32 0x00000000#32),
    unary main_cst_14 main_v82 (broadcastInDim S100000x64 ![] bcast_S_S100000x64 : (⟨S_, .f32⟩ : BufTy).Contents (Elt F) → (⟨S100000x64, .f32⟩ : BufTy).Contents (Elt F)),
    unary main_arg17 main_v83 (broadcastInDim S1000000x1 ![0] bcast_S1000000_S1000000x1_0 : (⟨S1000000, .i32⟩ : BufTy).Contents (Elt F) → (⟨S1000000x1, .i32⟩ : BufTy).Contents (Elt F)),
    ternary main_v82 main_v83 main_v81 main_v84 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_15 (constant S_ .f32 0x00000000#32),
    unary main_cst_15 main_v85 (broadcastInDim S100000x64 ![] bcast_S_S100000x64 : (⟨S_, .f32⟩ : BufTy).Contents (Elt F) → (⟨S100000x64, .f32⟩ : BufTy).Contents (Elt F)),
    binary main_v84 main_v85 main_v86 (cmpf .oge : (⟨S100000x64, .f32⟩ : BufTy).Contents (Elt F) → (⟨S100000x64, .f32⟩ : BufTy).Contents (Elt F) → (⟨S100000x64, .i1⟩ : BufTy).Contents (Elt F)),
    nullary main_cst_16 (constant S_ .f32 0x3F000000#32),
    unary main_cst_16 main_v87 (broadcastInDim S100000x64 ![] bcast_S_S100000x64 : (⟨S_, .f32⟩ : BufTy).Contents (Elt F) → (⟨S100000x64, .f32⟩ : BufTy).Contents (Elt F)),
    binary main_v87 main_v84 main_v88 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v86) (TRef.of (T := ⟨S100000x64, .f32⟩) main_v84) (TRef.of (T := ⟨S100000x64, .f32⟩) main_v88) (TRef.of (T := ⟨S100000x64, .f32⟩) main_v89) select,
    unary main_arg10 main_v90 ((extractStridedSlice S1x1x1000000 ![0, 1, 0] · slices_S2x2x1000000_S1x1x1000000_0_1_0) : (⟨S2x2x1000000, .f32⟩ : BufTy).Contents (Elt F) → (⟨S1x1x1000000, .f32⟩ : BufTy).Contents (Elt F)),
    reshape main_v90 main_v91 rfl shapeCasts_S1x1x1000000_S1000000,
    nullary main_cst_17 (constant S_ .f32 0x3DCCCCCD#32),
    unary main_cst_17 main_v92 (broadcastInDim S1000000 ![] bcast_S_S1000000 : (⟨S_, .f32⟩ : BufTy).Contents (Elt F) → (⟨S1000000, .f32⟩ : BufTy).Contents (Elt F)),
    binary main_v91 main_v92 main_v93 (cmpf .oge : (⟨S1000000, .f32⟩ : BufTy).Contents (Elt F) → (⟨S1000000, .f32⟩ : BufTy).Contents (Elt F) → (⟨S1000000, .i1⟩ : BufTy).Contents (Elt F)),
    unary main_v93 main_v94 (uitofp .f32 : (⟨S1000000, .i1⟩ : BufTy).Contents (Elt F) → (⟨S1000000, .f32⟩ : BufTy).Contents (Elt F)),
    binary main_arg9 main_v94 main_v95 (mulf : (⟨S1000000, .f32⟩ : BufTy).Contents (Elt F) → (⟨S1000000, .f32⟩ : BufTy).Contents (Elt F) → (⟨S1000000, .f32⟩ : BufTy).Contents (Elt F)),
    nullary main_cst_18 (constant S_ .f32 0x3F666666#32),
    unary main_cst_18 main_v96 (broadcastInDim S1000000 ![] bcast_S_S1000000 : (⟨S_, .f32⟩ : BufTy).Contents (Elt F) → (⟨S1000000, .f32⟩ : BufTy).Contents (Elt F)),
    binary main_v95 main_v96 main_v97 (Host.divf : (⟨S1000000, .f32⟩ : BufTy).Contents (Elt F) → (⟨S1000000, .f32⟩ : BufTy).Contents (Elt F) → (⟨S1000000, .f32⟩ : BufTy).Contents (Elt F)),
    unary main_v97 main_v98 (broadcastInDim S1000000x1 ![0] bcast_S1000000_S1000000x1_0 : (⟨S1000000, .f32⟩ : BufTy).Contents (Elt F) → (⟨S1000000x1, .f32⟩ : BufTy).Contents (Elt F)),
    nullary main_c_19 (constantI S_ 32 0#32),
    unary main_c_19 main_v99 (broadcastInDim S1000000 ![] bcast_S_S1000000 : (⟨S_, .i32⟩ : BufTy).Contents (Elt F) → (⟨S1000000, .i32⟩ : BufTy).Contents (Elt F)),
    binary main_arg17 main_v99 main_v100 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v101 (broadcastInDim S1000000 ![] bcast_S_S1000000 : (⟨S_, .i32⟩ : BufTy).Contents (Elt F) → (⟨S1000000, .i32⟩ : BufTy).Contents (Elt F)),
    binary main_arg17 main_v101 main_v102 (addi : (⟨S1000000, .i32⟩ : BufTy).Contents (Elt F) → (⟨S1000000, .i32⟩ : BufTy).Contents (Elt F) → (⟨S1000000, .i32⟩ : BufTy).Contents (Elt F)),
    ternary main_v100 main_v102 main_arg17 main_v103 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v103 main_v104 (broadcastInDim S1000000x1 ![0] bcast_S1000000_S1000000x1_0 : (⟨S1000000, .i32⟩ : BufTy).Contents (Elt F) → (⟨S1000000x1, .i32⟩ : BufTy).Contents (Elt F)),
    binary main_arg0 main_v104 main_v105 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v98 main_v106 (broadcastInDim S1000000x64 ![0, 1] bcast_S1000000x1_S1000000x64_0_1 : (⟨S1000000x1, .f32⟩ : BufTy).Contents (Elt F) → (⟨S1000000x64, .f32⟩ : BufTy).Contents (Elt F)),
    binary main_v106 main_v105 main_v107 (mulf : (⟨S1000000x64, .f32⟩ : BufTy).Contents (Elt F) → (⟨S1000000x64, .f32⟩ : BufTy).Contents (Elt F) → (⟨S1000000x64, .f32⟩ : BufTy).Contents (Elt F)),
    nullary main_cst_21 (constant S_ .f32 0x00000000#32),
    unary main_cst_21 main_v108 (broadcastInDim S50000x64 ![] bcast_S_S50000x64 : (⟨S_, .f32⟩ : BufTy).Contents (Elt F) → (⟨S50000x64, .f32⟩ : BufTy).Contents (Elt F)),
    unary main_arg18 main_v109 (broadcastInDim S1000000x1 ![0] bcast_S1000000_S1000000x1_0 : (⟨S1000000, .i32⟩ : BufTy).Contents (Elt F) → (⟨S1000000x1, .i32⟩ : BufTy).Contents (Elt F)),
    ternary main_v108 main_v109 main_v107 main_v110 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    nullary main_cst_22 (constant S_ .f32 0x00000000#32),
    unary main_cst_22 main_v111 (broadcastInDim S50000x64 ![] bcast_S_S50000x64 : (⟨S_, .f32⟩ : BufTy).Contents (Elt F) → (⟨S50000x64, .f32⟩ : BufTy).Contents (Elt F)),
    binary main_v110 main_v111 main_v112 (cmpf .oge : (⟨S50000x64, .f32⟩ : BufTy).Contents (Elt F) → (⟨S50000x64, .f32⟩ : BufTy).Contents (Elt F) → (⟨S50000x64, .i1⟩ : BufTy).Contents (Elt F)),
    nullary main_cst_23 (constant S_ .f32 0x3F000000#32),
    unary main_cst_23 main_v113 (broadcastInDim S50000x64 ![] bcast_S_S50000x64 : (⟨S_, .f32⟩ : BufTy).Contents (Elt F) → (⟨S50000x64, .f32⟩ : BufTy).Contents (Elt F)),
    binary main_v113 main_v110 main_v114 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v112) (TRef.of (T := ⟨S50000x64, .f32⟩) main_v110) (TRef.of (T := ⟨S50000x64, .f32⟩) main_v114) (TRef.of (T := ⟨S50000x64, .f32⟩) main_v115) select,
    binary main_arg6 main_arg1 main_v116 ((fun l r => Host.dotGeneral dot_S64x50000_S50000x64_S64x64_1_0_0_1_n_n none l r) : (⟨S64x50000, .f32⟩ : BufTy).Contents (Elt F) → (⟨S50000x64, .f32⟩ : BufTy).Contents (Elt F) → (⟨S64x64, .f32⟩ : BufTy).Contents (Elt F)),
    binary main_arg5 main_arg0 main_v117 ((fun l r => Host.dotGeneral dot_S64x100000_S100000x64_S64x64_1_0_0_1_n_n none l r) : (⟨S64x100000, .f32⟩ : BufTy).Contents (Elt F) → (⟨S100000x64, .f32⟩ : BufTy).Contents (Elt F) → (⟨S64x64, .f32⟩ : BufTy).Contents (Elt F)),
    binary main_v54 main_v116 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_24 (constant S_ .f32 0x00000000#32),
    unary main_cst_24 main_v119 (broadcastInDim S100000x64 ![] bcast_S_S100000x64 : (⟨S_, .f32⟩ : BufTy).Contents (Elt F) → (⟨S100000x64, .f32⟩ : BufTy).Contents (Elt F)),
    binary main_v118 main_v119 main_v120 (cmpf .oge : (⟨S100000x64, .f32⟩ : BufTy).Contents (Elt F) → (⟨S100000x64, .f32⟩ : BufTy).Contents (Elt F) → (⟨S100000x64, .i1⟩ : BufTy).Contents (Elt F)),
    nullary main_cst_25 (constant S_ .f32 0x3F000000#32),
    unary main_cst_25 main_v121 (broadcastInDim S100000x64 ![] bcast_S_S100000x64 : (⟨S_, .f32⟩ : BufTy).Contents (Elt F) → (⟨S100000x64, .f32⟩ : BufTy).Contents (Elt F)),
    binary main_v121 main_v118 main_v122 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v120) (TRef.of (T := ⟨S100000x64, .f32⟩) main_v118) (TRef.of (T := ⟨S100000x64, .f32⟩) main_v122) (TRef.of (T := ⟨S100000x64, .f32⟩) main_v123) select,
    binary main_v57 main_v117 main_v124 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_26 (constant S_ .f32 0x00000000#32),
    unary main_cst_26 main_v125 (broadcastInDim S50000x64 ![] bcast_S_S50000x64 : (⟨S_, .f32⟩ : BufTy).Contents (Elt F) → (⟨S50000x64, .f32⟩ : BufTy).Contents (Elt F)),
    binary main_v124 main_v125 main_v126 (cmpf .oge : (⟨S50000x64, .f32⟩ : BufTy).Contents (Elt F) → (⟨S50000x64, .f32⟩ : BufTy).Contents (Elt F) → (⟨S50000x64, .i1⟩ : BufTy).Contents (Elt F)),
    nullary main_cst_27 (constant S_ .f32 0x3F000000#32),
    unary main_cst_27 main_v127 (broadcastInDim S50000x64 ![] bcast_S_S50000x64 : (⟨S_, .f32⟩ : BufTy).Contents (Elt F) → (⟨S50000x64, .f32⟩ : BufTy).Contents (Elt F)),
    binary main_v127 main_v124 main_v128 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v126) (TRef.of (T := ⟨S50000x64, .f32⟩) main_v124) (TRef.of (T := ⟨S50000x64, .f32⟩) main_v128) (TRef.of (T := ⟨S50000x64, .f32⟩) main_v129) select,
    binary main_v60 main_v116 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_28 (constant S_ .f32 0x00000000#32),
    unary main_cst_28 main_v131 (broadcastInDim S100000x64 ![] bcast_S_S100000x64 : (⟨S_, .f32⟩ : BufTy).Contents (Elt F) → (⟨S100000x64, .f32⟩ : BufTy).Contents (Elt F)),
    binary main_v130 main_v131 main_v132 (cmpf .oge : (⟨S100000x64, .f32⟩ : BufTy).Contents (Elt F) → (⟨S100000x64, .f32⟩ : BufTy).Contents (Elt F) → (⟨S100000x64, .i1⟩ : BufTy).Contents (Elt F)),
    nullary main_cst_29 (constant S_ .f32 0x3F000000#32),
    unary main_cst_29 main_v133 (broadcastInDim S100000x64 ![] bcast_S_S100000x64 : (⟨S_, .f32⟩ : BufTy).Contents (Elt F) → (⟨S100000x64, .f32⟩ : BufTy).Contents (Elt F)),
    binary main_v133 main_v130 main_v134 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v132) (TRef.of (T := ⟨S100000x64, .f32⟩) main_v130) (TRef.of (T := ⟨S100000x64, .f32⟩) main_v134) (TRef.of (T := ⟨S100000x64, .f32⟩) main_v135) select,
    binary main_v63 main_v117 main_v136 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_30 (constant S_ .f32 0x00000000#32),
    unary main_cst_30 main_v137 (broadcastInDim S50000x64 ![] bcast_S_S50000x64 : (⟨S_, .f32⟩ : BufTy).Contents (Elt F) → (⟨S50000x64, .f32⟩ : BufTy).Contents (Elt F)),
    binary main_v136 main_v137 main_v138 (cmpf .oge : (⟨S50000x64, .f32⟩ : BufTy).Contents (Elt F) → (⟨S50000x64, .f32⟩ : BufTy).Contents (Elt F) → (⟨S50000x64, .i1⟩ : BufTy).Contents (Elt F)),
    nullary main_cst_31 (constant S_ .f32 0x3F000000#32),
    unary main_cst_31 main_v139 (broadcastInDim S50000x64 ![] bcast_S_S50000x64 : (⟨S_, .f32⟩ : BufTy).Contents (Elt F) → (⟨S50000x64, .f32⟩ : BufTy).Contents (Elt F)),
    binary main_v139 main_v136 main_v140 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v138) (TRef.of (T := ⟨S50000x64, .f32⟩) main_v136) (TRef.of (T := ⟨S50000x64, .f32⟩) main_v140) (TRef.of (T := ⟨S50000x64, .f32⟩) main_v141) select ]
set_option maxRecDepth 8192 in
set_option maxHeartbeats 4000000 in
theorem cB_sub : (cB : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., reshape_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., binary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub ..⟩
set_option maxRecDepth 8192 in
set_option maxHeartbeats 4000000 in
theorem cB_fresh : (cB : List (HloOp τ sig (Elt F))).Forall fun op => op.fresh = ∅ := by
  simp only [List.Forall]; repeat' constructor

set_option maxRecDepth 8192 in
set_option maxHeartbeats 4000000 in
/-- Operations 176 to 277 of @main, in order. -/
abbrev cC : List (HloOp τ sig (Elt F)) :=
  [ binary main_v89 main_arg0 main_v142 (addf : (⟨S100000x64, .f32⟩ : BufTy).Contents (Elt F) → (⟨S100000x64, .f32⟩ : BufTy).Contents (Elt F) → (⟨S100000x64, .f32⟩ : BufTy).Contents (Elt F)),
    binary main_v115 main_arg1 main_v143 (addf : (⟨S50000x64, .f32⟩ : BufTy).Contents (Elt F) → (⟨S50000x64, .f32⟩ : BufTy).Contents (Elt F) → (⟨S50000x64, .f32⟩ : BufTy).Contents (Elt F)),
    unary main_arg10 main_v144 ((extractStridedSlice S1x1x1000000 ![1, 0, 0] · slices_S2x2x1000000_S1x1x1000000_1_0_0) : (⟨S2x2x1000000, .f32⟩ : BufTy).Contents (Elt F) → (⟨S1x1x1000000, .f32⟩ : BufTy).Contents (Elt F)),
    reshape main_v144 main_v145 rfl shapeCasts_S1x1x1000000_S1000000,
    nullary main_cst_32 (constant S_ .f32 0x3DCCCCCD#32),
    unary main_cst_32 main_v146 (broadcastInDim S1000000 ![] bcast_S_S1000000 : (⟨S_, .f32⟩ : BufTy).Contents (Elt F) → (⟨S1000000, .f32⟩ : BufTy).Contents (Elt F)),
    binary main_v145 main_v146 main_v147 (cmpf .oge : (⟨S1000000, .f32⟩ : BufTy).Contents (Elt F) → (⟨S1000000, .f32⟩ : BufTy).Contents (Elt F) → (⟨S1000000, .i1⟩ : BufTy).Contents (Elt F)),
    unary main_v147 main_v148 (uitofp .f32 : (⟨S1000000, .i1⟩ : BufTy).Contents (Elt F) → (⟨S1000000, .f32⟩ : BufTy).Contents (Elt F)),
    binary main_arg9 main_v148 main_v149 (mulf : (⟨S1000000, .f32⟩ : BufTy).Contents (Elt F) → (⟨S1000000, .f32⟩ : BufTy).Contents (Elt F) → (⟨S1000000, .f32⟩ : BufTy).Contents (Elt F)),
    nullary main_cst_33 (constant S_ .f32 0x3F666666#32),
    unary main_cst_33 main_v150 (broadcastInDim S1000000 ![] bcast_S_S1000000 : (⟨S_, .f32⟩ : BufTy).Contents (Elt F) → (⟨S1000000, .f32⟩ : BufTy).Contents (Elt F)),
    binary main_v149 main_v150 main_v151 (Host.divf : (⟨S1000000, .f32⟩ : BufTy).Contents (Elt F) → (⟨S1000000, .f32⟩ : BufTy).Contents (Elt F) → (⟨S1000000, .f32⟩ : BufTy).Contents (Elt F)),
    unary main_v151 main_v152 (broadcastInDim S1000000x1 ![0] bcast_S1000000_S1000000x1_0 : (⟨S1000000, .f32⟩ : BufTy).Contents (Elt F) → (⟨S1000000x1, .f32⟩ : BufTy).Contents (Elt F)),
    nullary main_c_34 (constantI S_ 32 0#32),
    unary main_c_34 main_v153 (broadcastInDim S1000000 ![] bcast_S_S1000000 : (⟨S_, .i32⟩ : BufTy).Contents (Elt F) → (⟨S1000000, .i32⟩ : BufTy).Contents (Elt F)),
    binary main_arg18 main_v153 main_v154 (cmpi .slt : (⟨S1000000, .i32⟩ : BufTy).Contents (Elt F) → (⟨S1000000, .i32⟩ : BufTy).Contents (Elt F) → (⟨S1000000, .i1⟩ : BufTy).Contents (Elt F)),
    nullary main_c_35 (constantI S_ 32 50000#32),
    unary main_c_35 main_v155 (broadcastInDim S1000000 ![] bcast_S_S1000000 : (⟨S_, .i32⟩ : BufTy).Contents (Elt F) → (⟨S1000000, .i32⟩ : BufTy).Contents (Elt F)),
    binary main_arg18 main_v155 main_v156 (addi : (⟨S1000000, .i32⟩ : BufTy).Contents (Elt F) → (⟨S1000000, .i32⟩ : BufTy).Contents (Elt F) → (⟨S1000000, .i32⟩ : BufTy).Contents (Elt F)),
    ternary main_v154 main_v156 main_arg18 main_v157 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v157 main_v158 (broadcastInDim S1000000x1 ![0] bcast_S1000000_S1000000x1_0 : (⟨S1000000, .i32⟩ : BufTy).Contents (Elt F) → (⟨S1000000x1, .i32⟩ : BufTy).Contents (Elt F)),
    binary main_v143 main_v158 main_v159 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    unary main_v152 main_v160 (broadcastInDim S1000000x64 ![0, 1] bcast_S1000000x1_S1000000x64_0_1 : (⟨S1000000x1, .f32⟩ : BufTy).Contents (Elt F) → (⟨S1000000x64, .f32⟩ : BufTy).Contents (Elt F)),
    binary main_v160 main_v159 main_v161 (mulf : (⟨S1000000x64, .f32⟩ : BufTy).Contents (Elt F) → (⟨S1000000x64, .f32⟩ : BufTy).Contents (Elt F) → (⟨S1000000x64, .f32⟩ : BufTy).Contents (Elt F)),
    nullary main_cst_36 (constant S_ .f32 0x00000000#32),
    unary main_cst_36 main_v162 (broadcastInDim S100000x64 ![] bcast_S_S100000x64 : (⟨S_, .f32⟩ : BufTy).Contents (Elt F) → (⟨S100000x64, .f32⟩ : BufTy).Contents (Elt F)),
    unary main_arg17 main_v163 (broadcastInDim S1000000x1 ![0] bcast_S1000000_S1000000x1_0 : (⟨S1000000, .i32⟩ : BufTy).Contents (Elt F) → (⟨S1000000x1, .i32⟩ : BufTy).Contents (Elt F)),
    ternary main_v162 main_v163 main_v161 main_v164 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_37 (constant S_ .f32 0x00000000#32),
    unary main_cst_37 main_v165 (broadcastInDim S100000x64 ![] bcast_S_S100000x64 : (⟨S_, .f32⟩ : BufTy).Contents (Elt F) → (⟨S100000x64, .f32⟩ : BufTy).Contents (Elt F)),
    binary main_v164 main_v165 main_v166 (cmpf .oge : (⟨S100000x64, .f32⟩ : BufTy).Contents (Elt F) → (⟨S100000x64, .f32⟩ : BufTy).Contents (Elt F) → (⟨S100000x64, .i1⟩ : BufTy).Contents (Elt F)),
    nullary main_cst_38 (constant S_ .f32 0x3F000000#32),
    unary main_cst_38 main_v167 (broadcastInDim S100000x64 ![] bcast_S_S100000x64 : (⟨S_, .f32⟩ : BufTy).Contents (Elt F) → (⟨S100000x64, .f32⟩ : BufTy).Contents (Elt F)),
    binary main_v167 main_v164 main_v168 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v166) (TRef.of (T := ⟨S100000x64, .f32⟩) main_v164) (TRef.of (T := ⟨S100000x64, .f32⟩) main_v168) (TRef.of (T := ⟨S100000x64, .f32⟩) main_v169) select,
    unary main_arg10 main_v170 ((extractStridedSlice S1x1x1000000 ![1, 1, 0] · slices_S2x2x1000000_S1x1x1000000_1_1_0) : (⟨S2x2x1000000, .f32⟩ : BufTy).Contents (Elt F) → (⟨S1x1x1000000, .f32⟩ : BufTy).Contents (Elt F)),
    reshape main_v170 main_v171 rfl shapeCasts_S1x1x1000000_S1000000,
    nullary main_cst_39 (constant S_ .f32 0x3DCCCCCD#32),
    unary main_cst_39 main_v172 (broadcastInDim S1000000 ![] bcast_S_S1000000 : (⟨S_, .f32⟩ : BufTy).Contents (Elt F) → (⟨S1000000, .f32⟩ : BufTy).Contents (Elt F)),
    binary main_v171 main_v172 main_v173 (cmpf .oge : (⟨S1000000, .f32⟩ : BufTy).Contents (Elt F) → (⟨S1000000, .f32⟩ : BufTy).Contents (Elt F) → (⟨S1000000, .i1⟩ : BufTy).Contents (Elt F)),
    unary main_v173 main_v174 (uitofp .f32 : (⟨S1000000, .i1⟩ : BufTy).Contents (Elt F) → (⟨S1000000, .f32⟩ : BufTy).Contents (Elt F)),
    binary main_arg9 main_v174 main_v175 (mulf : (⟨S1000000, .f32⟩ : BufTy).Contents (Elt F) → (⟨S1000000, .f32⟩ : BufTy).Contents (Elt F) → (⟨S1000000, .f32⟩ : BufTy).Contents (Elt F)),
    nullary main_cst_40 (constant S_ .f32 0x3F666666#32),
    unary main_cst_40 main_v176 (broadcastInDim S1000000 ![] bcast_S_S1000000 : (⟨S_, .f32⟩ : BufTy).Contents (Elt F) → (⟨S1000000, .f32⟩ : BufTy).Contents (Elt F)),
    binary main_v175 main_v176 main_v177 (Host.divf : (⟨S1000000, .f32⟩ : BufTy).Contents (Elt F) → (⟨S1000000, .f32⟩ : BufTy).Contents (Elt F) → (⟨S1000000, .f32⟩ : BufTy).Contents (Elt F)),
    unary main_v177 main_v178 (broadcastInDim S1000000x1 ![0] bcast_S1000000_S1000000x1_0 : (⟨S1000000, .f32⟩ : BufTy).Contents (Elt F) → (⟨S1000000x1, .f32⟩ : BufTy).Contents (Elt F)),
    nullary main_c_41 (constantI S_ 32 0#32),
    unary main_c_41 main_v179 (broadcastInDim S1000000 ![] bcast_S_S1000000 : (⟨S_, .i32⟩ : BufTy).Contents (Elt F) → (⟨S1000000, .i32⟩ : BufTy).Contents (Elt F)),
    binary main_arg17 main_v179 main_v180 (cmpi .slt : (⟨S1000000, .i32⟩ : BufTy).Contents (Elt F) → (⟨S1000000, .i32⟩ : BufTy).Contents (Elt F) → (⟨S1000000, .i1⟩ : BufTy).Contents (Elt F)),
    nullary main_c_42 (constantI S_ 32 100000#32),
    unary main_c_42 main_v181 (broadcastInDim S1000000 ![] bcast_S_S1000000 : (⟨S_, .i32⟩ : BufTy).Contents (Elt F) → (⟨S1000000, .i32⟩ : BufTy).Contents (Elt F)),
    binary main_arg17 main_v181 main_v182 (addi : (⟨S1000000, .i32⟩ : BufTy).Contents (Elt F) → (⟨S1000000, .i32⟩ : BufTy).Contents (Elt F) → (⟨S1000000, .i32⟩ : BufTy).Contents (Elt F)),
    ternary main_v180 main_v182 main_arg17 main_v183 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v183 main_v184 (broadcastInDim S1000000x1 ![0] bcast_S1000000_S1000000x1_0 : (⟨S1000000, .i32⟩ : BufTy).Contents (Elt F) → (⟨S1000000x1, .i32⟩ : BufTy).Contents (Elt F)),
    binary main_v142 main_v184 main_v185 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v178 main_v186 (broadcastInDim S1000000x64 ![0, 1] bcast_S1000000x1_S1000000x64_0_1 : (⟨S1000000x1, .f32⟩ : BufTy).Contents (Elt F) → (⟨S1000000x64, .f32⟩ : BufTy).Contents (Elt F)),
    binary main_v186 main_v185 main_v187 (mulf : (⟨S1000000x64, .f32⟩ : BufTy).Contents (Elt F) → (⟨S1000000x64, .f32⟩ : BufTy).Contents (Elt F) → (⟨S1000000x64, .f32⟩ : BufTy).Contents (Elt F)),
    nullary main_cst_43 (constant S_ .f32 0x00000000#32),
    unary main_cst_43 main_v188 (broadcastInDim S50000x64 ![] bcast_S_S50000x64 : (⟨S_, .f32⟩ : BufTy).Contents (Elt F) → (⟨S50000x64, .f32⟩ : BufTy).Contents (Elt F)),
    unary main_arg18 main_v189 (broadcastInDim S1000000x1 ![0] bcast_S1000000_S1000000x1_0 : (⟨S1000000, .i32⟩ : BufTy).Contents (Elt F) → (⟨S1000000x1, .i32⟩ : BufTy).Contents (Elt F)),
    ternary main_v188 main_v189 main_v187 main_v190 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    nullary main_cst_44 (constant S_ .f32 0x00000000#32),
    unary main_cst_44 main_v191 (broadcastInDim S50000x64 ![] bcast_S_S50000x64 : (⟨S_, .f32⟩ : BufTy).Contents (Elt F) → (⟨S50000x64, .f32⟩ : BufTy).Contents (Elt F)),
    binary main_v190 main_v191 main_v192 (cmpf .oge : (⟨S50000x64, .f32⟩ : BufTy).Contents (Elt F) → (⟨S50000x64, .f32⟩ : BufTy).Contents (Elt F) → (⟨S50000x64, .i1⟩ : BufTy).Contents (Elt F)),
    nullary main_cst_45 (constant S_ .f32 0x3F000000#32),
    unary main_cst_45 main_v193 (broadcastInDim S50000x64 ![] bcast_S_S50000x64 : (⟨S_, .f32⟩ : BufTy).Contents (Elt F) → (⟨S50000x64, .f32⟩ : BufTy).Contents (Elt F)),
    binary main_v193 main_v190 main_v194 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v192) (TRef.of (T := ⟨S50000x64, .f32⟩) main_v190) (TRef.of (T := ⟨S50000x64, .f32⟩) main_v194) (TRef.of (T := ⟨S50000x64, .f32⟩) main_v195) select,
    binary main_arg6 main_v143 main_v196 ((fun l r => Host.dotGeneral dot_S64x50000_S50000x64_S64x64_1_0_0_1_n_n none l r) : (⟨S64x50000, .f32⟩ : BufTy).Contents (Elt F) → (⟨S50000x64, .f32⟩ : BufTy).Contents (Elt F) → (⟨S64x64, .f32⟩ : BufTy).Contents (Elt F)),
    binary main_arg5 main_v142 main_v197 ((fun l r => Host.dotGeneral dot_S64x100000_S100000x64_S64x64_1_0_0_1_n_n none l r) : (⟨S64x100000, .f32⟩ : BufTy).Contents (Elt F) → (⟨S100000x64, .f32⟩ : BufTy).Contents (Elt F) → (⟨S64x64, .f32⟩ : BufTy).Contents (Elt F)),
    binary main_v54 main_v196 main_v198 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_46 (constant S_ .f32 0x00000000#32),
    unary main_cst_46 main_v199 (broadcastInDim S100000x64 ![] bcast_S_S100000x64 : (⟨S_, .f32⟩ : BufTy).Contents (Elt F) → (⟨S100000x64, .f32⟩ : BufTy).Contents (Elt F)),
    binary main_v198 main_v199 main_v200 (cmpf .oge : (⟨S100000x64, .f32⟩ : BufTy).Contents (Elt F) → (⟨S100000x64, .f32⟩ : BufTy).Contents (Elt F) → (⟨S100000x64, .i1⟩ : BufTy).Contents (Elt F)),
    nullary main_cst_47 (constant S_ .f32 0x3F000000#32),
    unary main_cst_47 main_v201 (broadcastInDim S100000x64 ![] bcast_S_S100000x64 : (⟨S_, .f32⟩ : BufTy).Contents (Elt F) → (⟨S100000x64, .f32⟩ : BufTy).Contents (Elt F)),
    binary main_v201 main_v198 main_v202 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v200) (TRef.of (T := ⟨S100000x64, .f32⟩) main_v198) (TRef.of (T := ⟨S100000x64, .f32⟩) main_v202) (TRef.of (T := ⟨S100000x64, .f32⟩) main_v203) select,
    binary main_v57 main_v197 main_v204 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_48 (constant S_ .f32 0x00000000#32),
    unary main_cst_48 main_v205 (broadcastInDim S50000x64 ![] bcast_S_S50000x64 : (⟨S_, .f32⟩ : BufTy).Contents (Elt F) → (⟨S50000x64, .f32⟩ : BufTy).Contents (Elt F)),
    binary main_v204 main_v205 main_v206 (cmpf .oge : (⟨S50000x64, .f32⟩ : BufTy).Contents (Elt F) → (⟨S50000x64, .f32⟩ : BufTy).Contents (Elt F) → (⟨S50000x64, .i1⟩ : BufTy).Contents (Elt F)),
    nullary main_cst_49 (constant S_ .f32 0x3F000000#32),
    unary main_cst_49 main_v207 (broadcastInDim S50000x64 ![] bcast_S_S50000x64 : (⟨S_, .f32⟩ : BufTy).Contents (Elt F) → (⟨S50000x64, .f32⟩ : BufTy).Contents (Elt F)),
    binary main_v207 main_v204 main_v208 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v206) (TRef.of (T := ⟨S50000x64, .f32⟩) main_v204) (TRef.of (T := ⟨S50000x64, .f32⟩) main_v208) (TRef.of (T := ⟨S50000x64, .f32⟩) main_v209) select,
    binary main_v60 main_v196 main_v210 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_50 (constant S_ .f32 0x00000000#32),
    unary main_cst_50 main_v211 (broadcastInDim S100000x64 ![] bcast_S_S100000x64 : (⟨S_, .f32⟩ : BufTy).Contents (Elt F) → (⟨S100000x64, .f32⟩ : BufTy).Contents (Elt F)),
    binary main_v210 main_v211 main_v212 (cmpf .oge : (⟨S100000x64, .f32⟩ : BufTy).Contents (Elt F) → (⟨S100000x64, .f32⟩ : BufTy).Contents (Elt F) → (⟨S100000x64, .i1⟩ : BufTy).Contents (Elt F)),
    nullary main_cst_51 (constant S_ .f32 0x3F000000#32),
    unary main_cst_51 main_v213 (broadcastInDim S100000x64 ![] bcast_S_S100000x64 : (⟨S_, .f32⟩ : BufTy).Contents (Elt F) → (⟨S100000x64, .f32⟩ : BufTy).Contents (Elt F)),
    binary main_v213 main_v210 main_v214 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v212) (TRef.of (T := ⟨S100000x64, .f32⟩) main_v210) (TRef.of (T := ⟨S100000x64, .f32⟩) main_v214) (TRef.of (T := ⟨S100000x64, .f32⟩) main_v215) select,
    binary main_v63 main_v197 main_v216 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_52 (constant S_ .f32 0x00000000#32),
    unary main_cst_52 main_v217 (broadcastInDim S50000x64 ![] bcast_S_S50000x64 : (⟨S_, .f32⟩ : BufTy).Contents (Elt F) → (⟨S50000x64, .f32⟩ : BufTy).Contents (Elt F)),
    binary main_v216 main_v217 main_v218 (cmpf .oge : (⟨S50000x64, .f32⟩ : BufTy).Contents (Elt F) → (⟨S50000x64, .f32⟩ : BufTy).Contents (Elt F) → (⟨S50000x64, .i1⟩ : BufTy).Contents (Elt F)),
    nullary main_cst_53 (constant S_ .f32 0x3F000000#32),
    unary main_cst_53 main_v219 (broadcastInDim S50000x64 ![] bcast_S_S50000x64 : (⟨S_, .f32⟩ : BufTy).Contents (Elt F) → (⟨S50000x64, .f32⟩ : BufTy).Contents (Elt F)),
    binary main_v219 main_v216 main_v220 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v218) (TRef.of (T := ⟨S50000x64, .f32⟩) main_v216) (TRef.of (T := ⟨S50000x64, .f32⟩) main_v220) (TRef.of (T := ⟨S50000x64, .f32⟩) main_v221) select ]
set_option maxRecDepth 8192 in
set_option maxHeartbeats 4000000 in
theorem cC_sub : (cC : List (HloOp τ sig (Elt F))).Forall fun op => op.bufs ⊆ tcRefs τ sig :=
  ⟨binary_bufs_sub .., binary_bufs_sub .., unary_bufs_sub .., reshape_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., reshape_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., binary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub ..⟩
set_option maxRecDepth 8192 in
set_option maxHeartbeats 4000000 in
theorem cC_fresh : (cC : List (HloOp τ sig (Elt F))).Forall fun op => op.fresh = ∅ := by
  simp only [List.Forall]; repeat' constructor

set_option maxRecDepth 8192 in
set_option maxHeartbeats 4000000 in
/-- Operations 278 to 352 of @main, in order. -/
abbrev cD : List (HloOp τ sig (Elt F)) :=
  [ binary main_v169 main_v142 main_v222 (addf : (⟨S100000x64, .f32⟩ : BufTy).Contents (Elt F) → (⟨S100000x64, .f32⟩ : BufTy).Contents (Elt F) → (⟨S100000x64, .f32⟩ : BufTy).Contents (Elt F)),
    binary main_v195 main_v143 main_v223 (addf : (⟨S50000x64, .f32⟩ : BufTy).Contents (Elt F) → (⟨S50000x64, .f32⟩ : BufTy).Contents (Elt F) → (⟨S50000x64, .f32⟩ : BufTy).Contents (Elt F)),
    nullary main_cst_54 (constant S_ .f32 0x00000000#32),
    unary main_cst_54 main_v224 (broadcastInDim S100000x64 ![] bcast_S_S100000x64 : (⟨S_, .f32⟩ : BufTy).Contents (Elt F) → (⟨S100000x64, .f32⟩ : BufTy).Contents (Elt F)),
    binary main_v224 main_arg0 main_v225 (addf : (⟨S100000x64, .f32⟩ : BufTy).Contents (Elt F) → (⟨S100000x64, .f32⟩ : BufTy).Contents (Elt F) → (⟨S100000x64, .f32⟩ : BufTy).Contents (Elt F)),
    binary main_v225 main_v142 main_v226 (addf : (⟨S100000x64, .f32⟩ : BufTy).Contents (Elt F) → (⟨S100000x64, .f32⟩ : BufTy).Contents (Elt F) → (⟨S100000x64, .f32⟩ : BufTy).Contents (Elt F)),
    binary main_v226 main_v222 main_v227 (addf : (⟨S100000x64, .f32⟩ : BufTy).Contents (Elt F) → (⟨S100000x64, .f32⟩ : BufTy).Contents (Elt F) → (⟨S100000x64, .f32⟩ : BufTy).Contents (Elt F)),
    nullary main_cst_55 (constant S_ .f32 0x00000000#32),
    unary main_cst_55 main_v228 (broadcastInDim S50000x64 ![] bcast_S_S50000x64 : (⟨S_, .f32⟩ : BufTy).Contents (Elt F) → (⟨S50000x64, .f32⟩ : BufTy).Contents (Elt F)),
    binary main_v228 main_arg1 main_v229 (addf : (⟨S50000x64, .f32⟩ : BufTy).Contents (Elt F) → (⟨S50000x64, .f32⟩ : BufTy).Contents (Elt F) → (⟨S50000x64, .f32⟩ : BufTy).Contents (Elt F)),
    binary main_v229 main_v143 main_v230 (addf : (⟨S50000x64, .f32⟩ : BufTy).Contents (Elt F) → (⟨S50000x64, .f32⟩ : BufTy).Contents (Elt F) → (⟨S50000x64, .f32⟩ : BufTy).Contents (Elt F)),
    binary main_v230 main_v223 main_v231 (addf : (⟨S50000x64, .f32⟩ : BufTy).Contents (Elt F) → (⟨S50000x64, .f32⟩ : BufTy).Contents (Elt F) → (⟨S50000x64, .f32⟩ : BufTy).Contents (Elt F)),
    unary main_arg7 main_v232 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v232 main_v233 rfl shapeCasts_S1x64x64_S64x64,
    unary main_arg15 main_v234 ((extractStridedSlice S1x2048 ![0, 0] · slices_S2x2048_S1x2048_0_0) : (⟨S2x2048, .f32⟩ : BufTy).Contents (Elt F) → (⟨S1x2048, .f32⟩ : BufTy).Contents (Elt F)),
    reshape main_v234 main_v235 rfl shapeCasts_S1x2048_S2048,
    nullary main_cst_56 (constant S_ .f32 0x3F000000#32),
    unary main_cst_56 main_v236 (broadcastInDim S2048 ![] bcast_S_S2048 : (⟨S_, .f32⟩ : BufTy).Contents (Elt F) → (⟨S2048, .f32⟩ : BufTy).Contents (Elt F)),
    binary main_v235 main_v236 main_v237 (cmpf .ogt : (⟨S2048, .f32⟩ : BufTy).Contents (Elt F) → (⟨S2048, .f32⟩ : BufTy).Contents (Elt F) → (⟨S2048, .i1⟩ : BufTy).Contents (Elt F)),
    unary main_v237 main_v238 (uitofp .f32 : (⟨S2048, .i1⟩ : BufTy).Contents (Elt F) → (⟨S2048, .f32⟩ : BufTy).Contents (Elt F)),
    nullary main_c_57 (constantI S_ 32 0#32),
    unary main_c_57 main_v239 (broadcastInDim S2048 ![] bcast_S_S2048 : (⟨S_, .i32⟩ : BufTy).Contents (Elt F) → (⟨S2048, .i32⟩ : BufTy).Contents (Elt F)),
    binary main_arg19 main_v239 main_v240 (cmpi .slt : (⟨S2048, .i32⟩ : BufTy).Contents (Elt F) → (⟨S2048, .i32⟩ : BufTy).Contents (Elt F) → (⟨S2048, .i1⟩ : BufTy).Contents (Elt F)),
    nullary main_c_58 (constantI S_ 32 100000#32),
    unary main_c_58 main_v241 (broadcastInDim S2048 ![] bcast_S_S2048 : (⟨S_, .i32⟩ : BufTy).Contents (Elt F) → (⟨S2048, .i32⟩ : BufTy).Contents (Elt F)),
    binary main_arg19 main_v241 main_v242 (addi : (⟨S2048, .i32⟩ : BufTy).Contents (Elt F) → (⟨S2048, .i32⟩ : BufTy).Contents (Elt F) → (⟨S2048, .i32⟩ : BufTy).Contents (Elt F)),
    ternary main_v240 main_v242 main_arg19 main_v243 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v243 main_v244 (broadcastInDim S2048x1 ![0] bcast_S2048_S2048x1_0 : (⟨S2048, .i32⟩ : BufTy).Contents (Elt F) → (⟨S2048x1, .i32⟩ : BufTy).Contents (Elt F)),
    binary main_v123 main_v244 main_v245 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    binary main_v245 main_v245 main_v246 (mulf : (⟨S2048x64, .f32⟩ : BufTy).Contents (Elt F) → (⟨S2048x64, .f32⟩ : BufTy).Contents (Elt F) → (⟨S2048x64, .f32⟩ : BufTy).Contents (Elt F)),
    nullary main_cst_59 (constant S_ .f32 0x00000000#32),
    binary main_v246 main_cst_59 main_v247 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v247 main_v248 (broadcastInDim S2048x1 ![0] bcast_S2048_S2048x1_0 : (⟨S2048, .f32⟩ : BufTy).Contents (Elt F) → (⟨S2048x1, .f32⟩ : BufTy).Contents (Elt F)),
    unary main_v248 main_v249 (Host.sqrt : (⟨S2048x1, .f32⟩ : BufTy).Contents (Elt F) → (⟨S2048x1, .f32⟩ : BufTy).Contents (Elt F)),
    nullary main_cst_60 (constant S_ .f32 0x2B8CBCCC#32),
    unary main_cst_60 main_v250 (broadcastInDim S2048x1 ![] bcast_S_S2048x1 : (⟨S_, .f32⟩ : BufTy).Contents (Elt F) → (⟨S2048x1, .f32⟩ : BufTy).Contents (Elt F)),
    binary main_v249 main_v250 main_v251 (maximumf : (⟨S2048x1, .f32⟩ : BufTy).Contents (Elt F) → (⟨S2048x1, .f32⟩ : BufTy).Contents (Elt F) → (⟨S2048x1, .f32⟩ : BufTy).Contents (Elt F)),
    unary main_v251 main_v252 (broadcastInDim S2048x64 ![0, 1] bcast_S2048x1_S2048x64_0_1 : (⟨S2048x1, .f32⟩ : BufTy).Contents (Elt F) → (⟨S2048x64, .f32⟩ : BufTy).Contents (Elt F)),
    binary main_v245 main_v252 main_v253 (Host.divf : (⟨S2048x64, .f32⟩ : BufTy).Contents (Elt F) → (⟨S2048x64, .f32⟩ : BufTy).Contents (Elt F) → (⟨S2048x64, .f32⟩ : BufTy).Contents (Elt F)),
    binary main_v253 main_v233 main_v254 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    nullary main_c_61 (constantI S_ 32 0#32),
    unary main_c_61 main_v255 (broadcastInDim S2048 ![] bcast_S_S2048 : (⟨S_, .i32⟩ : BufTy).Contents (Elt F) → (⟨S2048, .i32⟩ : BufTy).Contents (Elt F)),
    binary main_arg19 main_v255 main_v256 (cmpi .slt : (⟨S2048, .i32⟩ : BufTy).Contents (Elt F) → (⟨S2048, .i32⟩ : BufTy).Contents (Elt F) → (⟨S2048, .i1⟩ : BufTy).Contents (Elt F)),
    nullary main_c_62 (constantI S_ 32 100000#32),
    unary main_c_62 main_v257 (broadcastInDim S2048 ![] bcast_S_S2048 : (⟨S_, .i32⟩ : BufTy).Contents (Elt F) → (⟨S2048, .i32⟩ : BufTy).Contents (Elt F)),
    binary main_arg19 main_v257 main_v258 (addi : (⟨S2048, .i32⟩ : BufTy).Contents (Elt F) → (⟨S2048, .i32⟩ : BufTy).Contents (Elt F) → (⟨S2048, .i32⟩ : BufTy).Contents (Elt F)),
    ternary main_v256 main_v258 main_arg19 main_v259 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v259 main_v260 (broadcastInDim S2048x1 ![0] bcast_S2048_S2048x1_0 : (⟨S2048, .i32⟩ : BufTy).Contents (Elt F) → (⟨S2048x1, .i32⟩ : BufTy).Contents (Elt F)),
    binary main_v135 main_v260 main_v261 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    binary main_v261 main_v261 main_v262 (mulf : (⟨S2048x64, .f32⟩ : BufTy).Contents (Elt F) → (⟨S2048x64, .f32⟩ : BufTy).Contents (Elt F) → (⟨S2048x64, .f32⟩ : BufTy).Contents (Elt F)),
    nullary main_cst_63 (constant S_ .f32 0x00000000#32),
    binary main_v262 main_cst_63 main_v263 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v263 main_v264 (broadcastInDim S2048x1 ![0] bcast_S2048_S2048x1_0 : (⟨S2048, .f32⟩ : BufTy).Contents (Elt F) → (⟨S2048x1, .f32⟩ : BufTy).Contents (Elt F)),
    unary main_v264 main_v265 (Host.sqrt : (⟨S2048x1, .f32⟩ : BufTy).Contents (Elt F) → (⟨S2048x1, .f32⟩ : BufTy).Contents (Elt F)),
    nullary main_cst_64 (constant S_ .f32 0x2B8CBCCC#32),
    unary main_cst_64 main_v266 (broadcastInDim S2048x1 ![] bcast_S_S2048x1 : (⟨S_, .f32⟩ : BufTy).Contents (Elt F) → (⟨S2048x1, .f32⟩ : BufTy).Contents (Elt F)),
    binary main_v265 main_v266 main_v267 (maximumf : (⟨S2048x1, .f32⟩ : BufTy).Contents (Elt F) → (⟨S2048x1, .f32⟩ : BufTy).Contents (Elt F) → (⟨S2048x1, .f32⟩ : BufTy).Contents (Elt F)),
    unary main_v267 main_v268 (broadcastInDim S2048x64 ![0, 1] bcast_S2048x1_S2048x64_0_1 : (⟨S2048x1, .f32⟩ : BufTy).Contents (Elt F) → (⟨S2048x64, .f32⟩ : BufTy).Contents (Elt F)),
    binary main_v261 main_v268 main_v269 (Host.divf : (⟨S2048x64, .f32⟩ : BufTy).Contents (Elt F) → (⟨S2048x64, .f32⟩ : BufTy).Contents (Elt F) → (⟨S2048x64, .f32⟩ : BufTy).Contents (Elt F)),
    binary main_v269 main_v233 main_v270 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v254 main_v270 main_v271 (mulf : (⟨S2048x64, .f32⟩ : BufTy).Contents (Elt F) → (⟨S2048x64, .f32⟩ : BufTy).Contents (Elt F) → (⟨S2048x64, .f32⟩ : BufTy).Contents (Elt F)),
    nullary main_cst_65 (constant S_ .f32 0x00000000#32),
    binary main_v271 main_cst_65 main_v272 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_66 (constant S_ .f32 0x3E4CCCCD#32),
    unary main_cst_66 main_v273 (broadcastInDim S2048 ![] bcast_S_S2048 : (⟨S_, .f32⟩ : BufTy).Contents (Elt F) → (⟨S2048, .f32⟩ : BufTy).Contents (Elt F)),
    binary main_v272 main_v273 main_v274 (Host.divf : (⟨S2048, .f32⟩ : BufTy).Contents (Elt F) → (⟨S2048, .f32⟩ : BufTy).Contents (Elt F) → (⟨S2048, .f32⟩ : BufTy).Contents (Elt F)),
    unary main_v274 main_v275 (Host.exp : (⟨S2048, .f32⟩ : BufTy).Contents (Elt F) → (⟨S2048, .f32⟩ : BufTy).Contents (Elt F)),
    unary main_v270 main_v276 ((transpose S64x2048 [1, 0] · transposes_S2048x64_S64x2048_1_0) : (⟨S2048x64, .f32⟩ : BufTy).Contents (Elt F) → (⟨S64x2048, .f32⟩ : BufTy).Contents (Elt F)),
    binary main_v254 main_v276 main_v277 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_67 (constant S_ .f32 0x3E4CCCCD#32),
    unary main_cst_67 main_v278 (broadcastInDim S2048x2048 ![] bcast_S_S2048x2048 : (⟨S_, .f32⟩ : BufTy).Contents (Elt F) → (⟨S2048x2048, .f32⟩ : BufTy).Contents (Elt F)),
    binary main_v277 main_v278 main_v279 (Host.divf : (⟨S2048x2048, .f32⟩ : BufTy).Contents (Elt F) → (⟨S2048x2048, .f32⟩ : BufTy).Contents (Elt F) → (⟨S2048x2048, .f32⟩ : BufTy).Contents (Elt F)),
    unary main_v279 main_v280 (Host.exp : (⟨S2048x2048, .f32⟩ : BufTy).Contents (Elt F) → (⟨S2048x2048, .f32⟩ : BufTy).Contents (Elt F)),
    nullary main_cst_68 (constant S_ .f32 0x00000000#32),
    binary main_v280 main_cst_68 main_v281 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]
set_option maxRecDepth 8192 in
set_option maxHeartbeats 4000000 in
theorem cD_sub : (cD : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub ..⟩
set_option maxRecDepth 8192 in
set_option maxHeartbeats 4000000 in
theorem cD_fresh : (cD : List (HloOp τ sig (Elt F))).Forall fun op => op.fresh = ∅ := by
  simp only [List.Forall]; repeat' constructor

set_option maxRecDepth 8192 in
set_option maxHeartbeats 4000000 in
/-- Operations 353 to 429 of @main, in order. -/
abbrev cE : List (HloOp τ sig (Elt F)) :=
  [ nullary main_cst_69 (constant S_ .f32 0x322BCC77#32),
    unary main_cst_69 main_v282 (broadcastInDim S2048 ![] bcast_S_S2048 : (⟨S_, .f32⟩ : BufTy).Contents (Elt F) → (⟨S2048, .f32⟩ : BufTy).Contents (Elt F)),
    binary main_v281 main_v282 main_v283 (addf : (⟨S2048, .f32⟩ : BufTy).Contents (Elt F) → (⟨S2048, .f32⟩ : BufTy).Contents (Elt F) → (⟨S2048, .f32⟩ : BufTy).Contents (Elt F)),
    binary main_v275 main_v283 main_v284 (Host.divf : (⟨S2048, .f32⟩ : BufTy).Contents (Elt F) → (⟨S2048, .f32⟩ : BufTy).Contents (Elt F) → (⟨S2048, .f32⟩ : BufTy).Contents (Elt F)),
    nullary main_cst_70 (constant S_ .f32 0x322BCC77#32),
    unary main_cst_70 main_v285 (broadcastInDim S2048 ![] bcast_S_S2048 : (⟨S_, .f32⟩ : BufTy).Contents (Elt F) → (⟨S2048, .f32⟩ : BufTy).Contents (Elt F)),
    binary main_v284 main_v285 main_v286 (addf : (⟨S2048, .f32⟩ : BufTy).Contents (Elt F) → (⟨S2048, .f32⟩ : BufTy).Contents (Elt F) → (⟨S2048, .f32⟩ : BufTy).Contents (Elt F)),
    unary main_v286 main_v287 (Host.log : (⟨S2048, .f32⟩ : BufTy).Contents (Elt F) → (⟨S2048, .f32⟩ : BufTy).Contents (Elt F)),
    unary main_v287 main_v288 (Host.negf : (⟨S2048, .f32⟩ : BufTy).Contents (Elt F) → (⟨S2048, .f32⟩ : BufTy).Contents (Elt F)),
    binary main_v288 main_v238 main_v289 (mulf : (⟨S2048, .f32⟩ : BufTy).Contents (Elt F) → (⟨S2048, .f32⟩ : BufTy).Contents (Elt F) → (⟨S2048, .f32⟩ : BufTy).Contents (Elt F)),
    nullary main_cst_71 (constant S_ .f32 0x00000000#32),
    binary main_v289 main_cst_71 main_v290 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_72 (constant S_ .f32 0x00000000#32),
    binary main_cst_72 main_v290 main_v291 (addf : (⟨S_, .f32⟩ : BufTy).Contents (Elt F) → (⟨S_, .f32⟩ : BufTy).Contents (Elt F) → (⟨S_, .f32⟩ : BufTy).Contents (Elt F)),
    unary main_arg8 main_v292 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v292 main_v293 rfl shapeCasts_S1x64x64_S64x64,
    unary main_arg16 main_v294 ((extractStridedSlice S1x2048 ![0, 0] · slices_S2x2048_S1x2048_0_0) : (⟨S2x2048, .f32⟩ : BufTy).Contents (Elt F) → (⟨S1x2048, .f32⟩ : BufTy).Contents (Elt F)),
    reshape main_v294 main_v295 rfl shapeCasts_S1x2048_S2048,
    nullary main_cst_73 (constant S_ .f32 0x3F000000#32),
    unary main_cst_73 main_v296 (broadcastInDim S2048 ![] bcast_S_S2048 : (⟨S_, .f32⟩ : BufTy).Contents (Elt F) → (⟨S2048, .f32⟩ : BufTy).Contents (Elt F)),
    binary main_v295 main_v296 main_v297 (cmpf .ogt : (⟨S2048, .f32⟩ : BufTy).Contents (Elt F) → (⟨S2048, .f32⟩ : BufTy).Contents (Elt F) → (⟨S2048, .i1⟩ : BufTy).Contents (Elt F)),
    unary main_v297 main_v298 (uitofp .f32 : (⟨S2048, .i1⟩ : BufTy).Contents (Elt F) → (⟨S2048, .f32⟩ : BufTy).Contents (Elt F)),
    nullary main_c_74 (constantI S_ 32 0#32),
    unary main_c_74 main_v299 (broadcastInDim S2048 ![] bcast_S_S2048 : (⟨S_, .i32⟩ : BufTy).Contents (Elt F) → (⟨S2048, .i32⟩ : BufTy).Contents (Elt F)),
    binary main_arg20 main_v299 main_v300 (cmpi .slt : (⟨S2048, .i32⟩ : BufTy).Contents (Elt F) → (⟨S2048, .i32⟩ : BufTy).Contents (Elt F) → (⟨S2048, .i1⟩ : BufTy).Contents (Elt F)),
    nullary main_c_75 (constantI S_ 32 50000#32),
    unary main_c_75 main_v301 (broadcastInDim S2048 ![] bcast_S_S2048 : (⟨S_, .i32⟩ : BufTy).Contents (Elt F) → (⟨S2048, .i32⟩ : BufTy).Contents (Elt F)),
    binary main_arg20 main_v301 main_v302 (addi : (⟨S2048, .i32⟩ : BufTy).Contents (Elt F) → (⟨S2048, .i32⟩ : BufTy).Contents (Elt F) → (⟨S2048, .i32⟩ : BufTy).Contents (Elt F)),
    ternary main_v300 main_v302 main_arg20 main_v303 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v303 main_v304 (broadcastInDim S2048x1 ![0] bcast_S2048_S2048x1_0 : (⟨S2048, .i32⟩ : BufTy).Contents (Elt F) → (⟨S2048x1, .i32⟩ : BufTy).Contents (Elt F)),
    binary main_v129 main_v304 main_v305 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v305 main_v305 main_v306 (mulf : (⟨S2048x64, .f32⟩ : BufTy).Contents (Elt F) → (⟨S2048x64, .f32⟩ : BufTy).Contents (Elt F) → (⟨S2048x64, .f32⟩ : BufTy).Contents (Elt F)),
    nullary main_cst_76 (constant S_ .f32 0x00000000#32),
    binary main_v306 main_cst_76 main_v307 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v307 main_v308 (broadcastInDim S2048x1 ![0] bcast_S2048_S2048x1_0 : (⟨S2048, .f32⟩ : BufTy).Contents (Elt F) → (⟨S2048x1, .f32⟩ : BufTy).Contents (Elt F)),
    unary main_v308 main_v309 (Host.sqrt : (⟨S2048x1, .f32⟩ : BufTy).Contents (Elt F) → (⟨S2048x1, .f32⟩ : BufTy).Contents (Elt F)),
    nullary main_cst_77 (constant S_ .f32 0x2B8CBCCC#32),
    unary main_cst_77 main_v310 (broadcastInDim S2048x1 ![] bcast_S_S2048x1 : (⟨S_, .f32⟩ : BufTy).Contents (Elt F) → (⟨S2048x1, .f32⟩ : BufTy).Contents (Elt F)),
    binary main_v309 main_v310 main_v311 (maximumf : (⟨S2048x1, .f32⟩ : BufTy).Contents (Elt F) → (⟨S2048x1, .f32⟩ : BufTy).Contents (Elt F) → (⟨S2048x1, .f32⟩ : BufTy).Contents (Elt F)),
    unary main_v311 main_v312 (broadcastInDim S2048x64 ![0, 1] bcast_S2048x1_S2048x64_0_1 : (⟨S2048x1, .f32⟩ : BufTy).Contents (Elt F) → (⟨S2048x64, .f32⟩ : BufTy).Contents (Elt F)),
    binary main_v305 main_v312 main_v313 (Host.divf : (⟨S2048x64, .f32⟩ : BufTy).Contents (Elt F) → (⟨S2048x64, .f32⟩ : BufTy).Contents (Elt F) → (⟨S2048x64, .f32⟩ : BufTy).Contents (Elt F)),
    binary main_v313 main_v293 main_v314 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    nullary main_c_78 (constantI S_ 32 0#32),
    unary main_c_78 main_v315 (broadcastInDim S2048 ![] bcast_S_S2048 : (⟨S_, .i32⟩ : BufTy).Contents (Elt F) → (⟨S2048, .i32⟩ : BufTy).Contents (Elt F)),
    binary main_arg20 main_v315 main_v316 (cmpi .slt : (⟨S2048, .i32⟩ : BufTy).Contents (Elt F) → (⟨S2048, .i32⟩ : BufTy).Contents (Elt F) → (⟨S2048, .i1⟩ : BufTy).Contents (Elt F)),
    nullary main_c_79 (constantI S_ 32 50000#32),
    unary main_c_79 main_v317 (broadcastInDim S2048 ![] bcast_S_S2048 : (⟨S_, .i32⟩ : BufTy).Contents (Elt F) → (⟨S2048, .i32⟩ : BufTy).Contents (Elt F)),
    binary main_arg20 main_v317 main_v318 (addi : (⟨S2048, .i32⟩ : BufTy).Contents (Elt F) → (⟨S2048, .i32⟩ : BufTy).Contents (Elt F) → (⟨S2048, .i32⟩ : BufTy).Contents (Elt F)),
    ternary main_v316 main_v318 main_arg20 main_v319 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v319 main_v320 (broadcastInDim S2048x1 ![0] bcast_S2048_S2048x1_0 : (⟨S2048, .i32⟩ : BufTy).Contents (Elt F) → (⟨S2048x1, .i32⟩ : BufTy).Contents (Elt F)),
    binary main_v141 main_v320 main_v321 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v321 main_v321 main_v322 (mulf : (⟨S2048x64, .f32⟩ : BufTy).Contents (Elt F) → (⟨S2048x64, .f32⟩ : BufTy).Contents (Elt F) → (⟨S2048x64, .f32⟩ : BufTy).Contents (Elt F)),
    nullary main_cst_80 (constant S_ .f32 0x00000000#32),
    binary main_v322 main_cst_80 main_v323 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v323 main_v324 (broadcastInDim S2048x1 ![0] bcast_S2048_S2048x1_0 : (⟨S2048, .f32⟩ : BufTy).Contents (Elt F) → (⟨S2048x1, .f32⟩ : BufTy).Contents (Elt F)),
    unary main_v324 main_v325 (Host.sqrt : (⟨S2048x1, .f32⟩ : BufTy).Contents (Elt F) → (⟨S2048x1, .f32⟩ : BufTy).Contents (Elt F)),
    nullary main_cst_81 (constant S_ .f32 0x2B8CBCCC#32),
    unary main_cst_81 main_v326 (broadcastInDim S2048x1 ![] bcast_S_S2048x1 : (⟨S_, .f32⟩ : BufTy).Contents (Elt F) → (⟨S2048x1, .f32⟩ : BufTy).Contents (Elt F)),
    binary main_v325 main_v326 main_v327 (maximumf : (⟨S2048x1, .f32⟩ : BufTy).Contents (Elt F) → (⟨S2048x1, .f32⟩ : BufTy).Contents (Elt F) → (⟨S2048x1, .f32⟩ : BufTy).Contents (Elt F)),
    unary main_v327 main_v328 (broadcastInDim S2048x64 ![0, 1] bcast_S2048x1_S2048x64_0_1 : (⟨S2048x1, .f32⟩ : BufTy).Contents (Elt F) → (⟨S2048x64, .f32⟩ : BufTy).Contents (Elt F)),
    binary main_v321 main_v328 main_v329 (Host.divf : (⟨S2048x64, .f32⟩ : BufTy).Contents (Elt F) → (⟨S2048x64, .f32⟩ : BufTy).Contents (Elt F) → (⟨S2048x64, .f32⟩ : BufTy).Contents (Elt F)),
    binary main_v329 main_v293 main_v330 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v314 main_v330 main_v331 (mulf : (⟨S2048x64, .f32⟩ : BufTy).Contents (Elt F) → (⟨S2048x64, .f32⟩ : BufTy).Contents (Elt F) → (⟨S2048x64, .f32⟩ : BufTy).Contents (Elt F)),
    nullary main_cst_82 (constant S_ .f32 0x00000000#32),
    binary main_v331 main_cst_82 main_v332 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_83 (constant S_ .f32 0x3E4CCCCD#32),
    unary main_cst_83 main_v333 (broadcastInDim S2048 ![] bcast_S_S2048 : (⟨S_, .f32⟩ : BufTy).Contents (Elt F) → (⟨S2048, .f32⟩ : BufTy).Contents (Elt F)),
    binary main_v332 main_v333 main_v334 (Host.divf : (⟨S2048, .f32⟩ : BufTy).Contents (Elt F) → (⟨S2048, .f32⟩ : BufTy).Contents (Elt F) → (⟨S2048, .f32⟩ : BufTy).Contents (Elt F)),
    unary main_v334 main_v335 (Host.exp : (⟨S2048, .f32⟩ : BufTy).Contents (Elt F) → (⟨S2048, .f32⟩ : BufTy).Contents (Elt F)),
    unary main_v330 main_v336 ((transpose S64x2048 [1, 0] · transposes_S2048x64_S64x2048_1_0) : (⟨S2048x64, .f32⟩ : BufTy).Contents (Elt F) → (⟨S64x2048, .f32⟩ : BufTy).Contents (Elt F)),
    binary main_v314 main_v336 main_v337 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_84 (constant S_ .f32 0x3E4CCCCD#32),
    unary main_cst_84 main_v338 (broadcastInDim S2048x2048 ![] bcast_S_S2048x2048 : (⟨S_, .f32⟩ : BufTy).Contents (Elt F) → (⟨S2048x2048, .f32⟩ : BufTy).Contents (Elt F)),
    binary main_v337 main_v338 main_v339 (Host.divf : (⟨S2048x2048, .f32⟩ : BufTy).Contents (Elt F) → (⟨S2048x2048, .f32⟩ : BufTy).Contents (Elt F) → (⟨S2048x2048, .f32⟩ : BufTy).Contents (Elt F)),
    unary main_v339 main_v340 (Host.exp : (⟨S2048x2048, .f32⟩ : BufTy).Contents (Elt F) → (⟨S2048x2048, .f32⟩ : BufTy).Contents (Elt F)),
    nullary main_cst_85 (constant S_ .f32 0x00000000#32),
    binary main_v340 main_cst_85 main_v341 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]
set_option maxRecDepth 8192 in
set_option maxHeartbeats 4000000 in
theorem cE_sub : (cE : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., nullary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub ..⟩
set_option maxRecDepth 8192 in
set_option maxHeartbeats 4000000 in
theorem cE_fresh : (cE : List (HloOp τ sig (Elt F))).Forall fun op => op.fresh = ∅ := by
  simp only [List.Forall]; repeat' constructor

set_option maxRecDepth 8192 in
set_option maxHeartbeats 4000000 in
/-- Operations 430 to 505 of @main, in order. -/
abbrev cF : List (HloOp τ sig (Elt F)) :=
  [ nullary main_cst_86 (constant S_ .f32 0x322BCC77#32),
    unary main_cst_86 main_v342 (broadcastInDim S2048 ![] bcast_S_S2048 : (⟨S_, .f32⟩ : BufTy).Contents (Elt F) → (⟨S2048, .f32⟩ : BufTy).Contents (Elt F)),
    binary main_v341 main_v342 main_v343 (addf : (⟨S2048, .f32⟩ : BufTy).Contents (Elt F) → (⟨S2048, .f32⟩ : BufTy).Contents (Elt F) → (⟨S2048, .f32⟩ : BufTy).Contents (Elt F)),
    binary main_v335 main_v343 main_v344 (Host.divf : (⟨S2048, .f32⟩ : BufTy).Contents (Elt F) → (⟨S2048, .f32⟩ : BufTy).Contents (Elt F) → (⟨S2048, .f32⟩ : BufTy).Contents (Elt F)),
    nullary main_cst_87 (constant S_ .f32 0x322BCC77#32),
    unary main_cst_87 main_v345 (broadcastInDim S2048 ![] bcast_S_S2048 : (⟨S_, .f32⟩ : BufTy).Contents (Elt F) → (⟨S2048, .f32⟩ : BufTy).Contents (Elt F)),
    binary main_v344 main_v345 main_v346 (addf : (⟨S2048, .f32⟩ : BufTy).Contents (Elt F) → (⟨S2048, .f32⟩ : BufTy).Contents (Elt F) → (⟨S2048, .f32⟩ : BufTy).Contents (Elt F)),
    unary main_v346 main_v347 (Host.log : (⟨S2048, .f32⟩ : BufTy).Contents (Elt F) → (⟨S2048, .f32⟩ : BufTy).Contents (Elt F)),
    unary main_v347 main_v348 (Host.negf : (⟨S2048, .f32⟩ : BufTy).Contents (Elt F) → (⟨S2048, .f32⟩ : BufTy).Contents (Elt F)),
    binary main_v348 main_v298 main_v349 (mulf : (⟨S2048, .f32⟩ : BufTy).Contents (Elt F) → (⟨S2048, .f32⟩ : BufTy).Contents (Elt F) → (⟨S2048, .f32⟩ : BufTy).Contents (Elt F)),
    nullary main_cst_88 (constant S_ .f32 0x00000000#32),
    binary main_v349 main_cst_88 main_v350 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    binary main_v291 main_v350 main_v351 (addf : (⟨S_, .f32⟩ : BufTy).Contents (Elt F) → (⟨S_, .f32⟩ : BufTy).Contents (Elt F) → (⟨S_, .f32⟩ : BufTy).Contents (Elt F)),
    unary main_arg7 main_v352 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v352 main_v353 rfl shapeCasts_S1x64x64_S64x64,
    unary main_arg15 main_v354 ((extractStridedSlice S1x2048 ![1, 0] · slices_S2x2048_S1x2048_1_0) : (⟨S2x2048, .f32⟩ : BufTy).Contents (Elt F) → (⟨S1x2048, .f32⟩ : BufTy).Contents (Elt F)),
    reshape main_v354 main_v355 rfl shapeCasts_S1x2048_S2048,
    nullary main_cst_89 (constant S_ .f32 0x3F000000#32),
    unary main_cst_89 main_v356 (broadcastInDim S2048 ![] bcast_S_S2048 : (⟨S_, .f32⟩ : BufTy).Contents (Elt F) → (⟨S2048, .f32⟩ : BufTy).Contents (Elt F)),
    binary main_v355 main_v356 main_v357 (cmpf .ogt : (⟨S2048, .f32⟩ : BufTy).Contents (Elt F) → (⟨S2048, .f32⟩ : BufTy).Contents (Elt F) → (⟨S2048, .i1⟩ : BufTy).Contents (Elt F)),
    unary main_v357 main_v358 (uitofp .f32 : (⟨S2048, .i1⟩ : BufTy).Contents (Elt F) → (⟨S2048, .f32⟩ : BufTy).Contents (Elt F)),
    nullary main_c_90 (constantI S_ 32 0#32),
    unary main_c_90 main_v359 (broadcastInDim S2048 ![] bcast_S_S2048 : (⟨S_, .i32⟩ : BufTy).Contents (Elt F) → (⟨S2048, .i32⟩ : BufTy).Contents (Elt F)),
    binary main_arg19 main_v359 main_v360 (cmpi .slt : (⟨S2048, .i32⟩ : BufTy).Contents (Elt F) → (⟨S2048, .i32⟩ : BufTy).Contents (Elt F) → (⟨S2048, .i1⟩ : BufTy).Contents (Elt F)),
    nullary main_c_91 (constantI S_ 32 100000#32),
    unary main_c_91 main_v361 (broadcastInDim S2048 ![] bcast_S_S2048 : (⟨S_, .i32⟩ : BufTy).Contents (Elt F) → (⟨S2048, .i32⟩ : BufTy).Contents (Elt F)),
    binary main_arg19 main_v361 main_v362 (addi : (⟨S2048, .i32⟩ : BufTy).Contents (Elt F) → (⟨S2048, .i32⟩ : BufTy).Contents (Elt F) → (⟨S2048, .i32⟩ : BufTy).Contents (Elt F)),
    ternary main_v360 main_v362 main_arg19 main_v363 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v363 main_v364 (broadcastInDim S2048x1 ![0] bcast_S2048_S2048x1_0 : (⟨S2048, .i32⟩ : BufTy).Contents (Elt F) → (⟨S2048x1, .i32⟩ : BufTy).Contents (Elt F)),
    binary main_v203 main_v364 main_v365 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    binary main_v365 main_v365 main_v366 (mulf : (⟨S2048x64, .f32⟩ : BufTy).Contents (Elt F) → (⟨S2048x64, .f32⟩ : BufTy).Contents (Elt F) → (⟨S2048x64, .f32⟩ : BufTy).Contents (Elt F)),
    nullary main_cst_92 (constant S_ .f32 0x00000000#32),
    binary main_v366 main_cst_92 main_v367 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v367 main_v368 (broadcastInDim S2048x1 ![0] bcast_S2048_S2048x1_0 : (⟨S2048, .f32⟩ : BufTy).Contents (Elt F) → (⟨S2048x1, .f32⟩ : BufTy).Contents (Elt F)),
    unary main_v368 main_v369 (Host.sqrt : (⟨S2048x1, .f32⟩ : BufTy).Contents (Elt F) → (⟨S2048x1, .f32⟩ : BufTy).Contents (Elt F)),
    nullary main_cst_93 (constant S_ .f32 0x2B8CBCCC#32),
    unary main_cst_93 main_v370 (broadcastInDim S2048x1 ![] bcast_S_S2048x1 : (⟨S_, .f32⟩ : BufTy).Contents (Elt F) → (⟨S2048x1, .f32⟩ : BufTy).Contents (Elt F)),
    binary main_v369 main_v370 main_v371 (maximumf : (⟨S2048x1, .f32⟩ : BufTy).Contents (Elt F) → (⟨S2048x1, .f32⟩ : BufTy).Contents (Elt F) → (⟨S2048x1, .f32⟩ : BufTy).Contents (Elt F)),
    unary main_v371 main_v372 (broadcastInDim S2048x64 ![0, 1] bcast_S2048x1_S2048x64_0_1 : (⟨S2048x1, .f32⟩ : BufTy).Contents (Elt F) → (⟨S2048x64, .f32⟩ : BufTy).Contents (Elt F)),
    binary main_v365 main_v372 main_v373 (Host.divf : (⟨S2048x64, .f32⟩ : BufTy).Contents (Elt F) → (⟨S2048x64, .f32⟩ : BufTy).Contents (Elt F) → (⟨S2048x64, .f32⟩ : BufTy).Contents (Elt F)),
    binary main_v373 main_v353 main_v374 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    nullary main_c_94 (constantI S_ 32 0#32),
    unary main_c_94 main_v375 (broadcastInDim S2048 ![] bcast_S_S2048 : (⟨S_, .i32⟩ : BufTy).Contents (Elt F) → (⟨S2048, .i32⟩ : BufTy).Contents (Elt F)),
    binary main_arg19 main_v375 main_v376 (cmpi .slt : (⟨S2048, .i32⟩ : BufTy).Contents (Elt F) → (⟨S2048, .i32⟩ : BufTy).Contents (Elt F) → (⟨S2048, .i1⟩ : BufTy).Contents (Elt F)),
    nullary main_c_95 (constantI S_ 32 100000#32),
    unary main_c_95 main_v377 (broadcastInDim S2048 ![] bcast_S_S2048 : (⟨S_, .i32⟩ : BufTy).Contents (Elt F) → (⟨S2048, .i32⟩ : BufTy).Contents (Elt F)),
    binary main_arg19 main_v377 main_v378 (addi : (⟨S2048, .i32⟩ : BufTy).Contents (Elt F) → (⟨S2048, .i32⟩ : BufTy).Contents (Elt F) → (⟨S2048, .i32⟩ : BufTy).Contents (Elt F)),
    ternary main_v376 main_v378 main_arg19 main_v379 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v379 main_v380 (broadcastInDim S2048x1 ![0] bcast_S2048_S2048x1_0 : (⟨S2048, .i32⟩ : BufTy).Contents (Elt F) → (⟨S2048x1, .i32⟩ : BufTy).Contents (Elt F)),
    binary main_v215 main_v380 main_v381 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    binary main_v381 main_v381 main_v382 (mulf : (⟨S2048x64, .f32⟩ : BufTy).Contents (Elt F) → (⟨S2048x64, .f32⟩ : BufTy).Contents (Elt F) → (⟨S2048x64, .f32⟩ : BufTy).Contents (Elt F)),
    nullary main_cst_96 (constant S_ .f32 0x00000000#32),
    binary main_v382 main_cst_96 main_v383 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v383 main_v384 (broadcastInDim S2048x1 ![0] bcast_S2048_S2048x1_0 : (⟨S2048, .f32⟩ : BufTy).Contents (Elt F) → (⟨S2048x1, .f32⟩ : BufTy).Contents (Elt F)),
    unary main_v384 main_v385 (Host.sqrt : (⟨S2048x1, .f32⟩ : BufTy).Contents (Elt F) → (⟨S2048x1, .f32⟩ : BufTy).Contents (Elt F)),
    nullary main_cst_97 (constant S_ .f32 0x2B8CBCCC#32),
    unary main_cst_97 main_v386 (broadcastInDim S2048x1 ![] bcast_S_S2048x1 : (⟨S_, .f32⟩ : BufTy).Contents (Elt F) → (⟨S2048x1, .f32⟩ : BufTy).Contents (Elt F)),
    binary main_v385 main_v386 main_v387 (maximumf : (⟨S2048x1, .f32⟩ : BufTy).Contents (Elt F) → (⟨S2048x1, .f32⟩ : BufTy).Contents (Elt F) → (⟨S2048x1, .f32⟩ : BufTy).Contents (Elt F)),
    unary main_v387 main_v388 (broadcastInDim S2048x64 ![0, 1] bcast_S2048x1_S2048x64_0_1 : (⟨S2048x1, .f32⟩ : BufTy).Contents (Elt F) → (⟨S2048x64, .f32⟩ : BufTy).Contents (Elt F)),
    binary main_v381 main_v388 main_v389 (Host.divf : (⟨S2048x64, .f32⟩ : BufTy).Contents (Elt F) → (⟨S2048x64, .f32⟩ : BufTy).Contents (Elt F) → (⟨S2048x64, .f32⟩ : BufTy).Contents (Elt F)),
    binary main_v389 main_v353 main_v390 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v374 main_v390 main_v391 (mulf : (⟨S2048x64, .f32⟩ : BufTy).Contents (Elt F) → (⟨S2048x64, .f32⟩ : BufTy).Contents (Elt F) → (⟨S2048x64, .f32⟩ : BufTy).Contents (Elt F)),
    nullary main_cst_98 (constant S_ .f32 0x00000000#32),
    binary main_v391 main_cst_98 main_v392 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_99 (constant S_ .f32 0x3E4CCCCD#32),
    unary main_cst_99 main_v393 (broadcastInDim S2048 ![] bcast_S_S2048 : (⟨S_, .f32⟩ : BufTy).Contents (Elt F) → (⟨S2048, .f32⟩ : BufTy).Contents (Elt F)),
    binary main_v392 main_v393 main_v394 (Host.divf : (⟨S2048, .f32⟩ : BufTy).Contents (Elt F) → (⟨S2048, .f32⟩ : BufTy).Contents (Elt F) → (⟨S2048, .f32⟩ : BufTy).Contents (Elt F)),
    unary main_v394 main_v395 (Host.exp : (⟨S2048, .f32⟩ : BufTy).Contents (Elt F) → (⟨S2048, .f32⟩ : BufTy).Contents (Elt F)),
    unary main_v390 main_v396 ((transpose S64x2048 [1, 0] · transposes_S2048x64_S64x2048_1_0) : (⟨S2048x64, .f32⟩ : BufTy).Contents (Elt F) → (⟨S64x2048, .f32⟩ : BufTy).Contents (Elt F)),
    binary main_v374 main_v396 main_v397 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_100 (constant S_ .f32 0x3E4CCCCD#32),
    unary main_cst_100 main_v398 (broadcastInDim S2048x2048 ![] bcast_S_S2048x2048 : (⟨S_, .f32⟩ : BufTy).Contents (Elt F) → (⟨S2048x2048, .f32⟩ : BufTy).Contents (Elt F)),
    binary main_v397 main_v398 main_v399 (Host.divf : (⟨S2048x2048, .f32⟩ : BufTy).Contents (Elt F) → (⟨S2048x2048, .f32⟩ : BufTy).Contents (Elt F) → (⟨S2048x2048, .f32⟩ : BufTy).Contents (Elt F)),
    unary main_v399 main_v400 (Host.exp : (⟨S2048x2048, .f32⟩ : BufTy).Contents (Elt F) → (⟨S2048x2048, .f32⟩ : BufTy).Contents (Elt F)),
    nullary main_cst_101 (constant S_ .f32 0x00000000#32),
    binary main_v400 main_cst_101 main_v401 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]
set_option maxRecDepth 8192 in
set_option maxHeartbeats 4000000 in
theorem cF_sub : (cF : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub ..⟩
set_option maxRecDepth 8192 in
set_option maxHeartbeats 4000000 in
theorem cF_fresh : (cF : List (HloOp τ sig (Elt F))).Forall fun op => op.fresh = ∅ := by
  simp only [List.Forall]; repeat' constructor

set_option maxRecDepth 8192 in
set_option maxHeartbeats 4000000 in
/-- Operations 506 to 581 of @main, in order. -/
abbrev cG : List (HloOp τ sig (Elt F)) :=
  [ nullary main_cst_102 (constant S_ .f32 0x322BCC77#32),
    unary main_cst_102 main_v402 (broadcastInDim S2048 ![] bcast_S_S2048 : (⟨S_, .f32⟩ : BufTy).Contents (Elt F) → (⟨S2048, .f32⟩ : BufTy).Contents (Elt F)),
    binary main_v401 main_v402 main_v403 (addf : (⟨S2048, .f32⟩ : BufTy).Contents (Elt F) → (⟨S2048, .f32⟩ : BufTy).Contents (Elt F) → (⟨S2048, .f32⟩ : BufTy).Contents (Elt F)),
    binary main_v395 main_v403 main_v404 (Host.divf : (⟨S2048, .f32⟩ : BufTy).Contents (Elt F) → (⟨S2048, .f32⟩ : BufTy).Contents (Elt F) → (⟨S2048, .f32⟩ : BufTy).Contents (Elt F)),
    nullary main_cst_103 (constant S_ .f32 0x322BCC77#32),
    unary main_cst_103 main_v405 (broadcastInDim S2048 ![] bcast_S_S2048 : (⟨S_, .f32⟩ : BufTy).Contents (Elt F) → (⟨S2048, .f32⟩ : BufTy).Contents (Elt F)),
    binary main_v404 main_v405 main_v406 (addf : (⟨S2048, .f32⟩ : BufTy).Contents (Elt F) → (⟨S2048, .f32⟩ : BufTy).Contents (Elt F) → (⟨S2048, .f32⟩ : BufTy).Contents (Elt F)),
    unary main_v406 main_v407 (Host.log : (⟨S2048, .f32⟩ : BufTy).Contents (Elt F) → (⟨S2048, .f32⟩ : BufTy).Contents (Elt F)),
    unary main_v407 main_v408 (Host.negf : (⟨S2048, .f32⟩ : BufTy).Contents (Elt F) → (⟨S2048, .f32⟩ : BufTy).Contents (Elt F)),
    binary main_v408 main_v358 main_v409 (mulf : (⟨S2048, .f32⟩ : BufTy).Contents (Elt F) → (⟨S2048, .f32⟩ : BufTy).Contents (Elt F) → (⟨S2048, .f32⟩ : BufTy).Contents (Elt F)),
    nullary main_cst_104 (constant S_ .f32 0x00000000#32),
    binary main_v409 main_cst_104 main_v410 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    binary main_v351 main_v410 main_v411 (addf : (⟨S_, .f32⟩ : BufTy).Contents (Elt F) → (⟨S_, .f32⟩ : BufTy).Contents (Elt F) → (⟨S_, .f32⟩ : BufTy).Contents (Elt F)),
    unary main_arg8 main_v412 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v412 main_v413 rfl shapeCasts_S1x64x64_S64x64,
    unary main_arg16 main_v414 ((extractStridedSlice S1x2048 ![1, 0] · slices_S2x2048_S1x2048_1_0) : (⟨S2x2048, .f32⟩ : BufTy).Contents (Elt F) → (⟨S1x2048, .f32⟩ : BufTy).Contents (Elt F)),
    reshape main_v414 main_v415 rfl shapeCasts_S1x2048_S2048,
    nullary main_cst_105 (constant S_ .f32 0x3F000000#32),
    unary main_cst_105 main_v416 (broadcastInDim S2048 ![] bcast_S_S2048 : (⟨S_, .f32⟩ : BufTy).Contents (Elt F) → (⟨S2048, .f32⟩ : BufTy).Contents (Elt F)),
    binary main_v415 main_v416 main_v417 (cmpf .ogt : (⟨S2048, .f32⟩ : BufTy).Contents (Elt F) → (⟨S2048, .f32⟩ : BufTy).Contents (Elt F) → (⟨S2048, .i1⟩ : BufTy).Contents (Elt F)),
    unary main_v417 main_v418 (uitofp .f32 : (⟨S2048, .i1⟩ : BufTy).Contents (Elt F) → (⟨S2048, .f32⟩ : BufTy).Contents (Elt F)),
    nullary main_c_106 (constantI S_ 32 0#32),
    unary main_c_106 main_v419 (broadcastInDim S2048 ![] bcast_S_S2048 : (⟨S_, .i32⟩ : BufTy).Contents (Elt F) → (⟨S2048, .i32⟩ : BufTy).Contents (Elt F)),
    binary main_arg20 main_v419 main_v420 (cmpi .slt : (⟨S2048, .i32⟩ : BufTy).Contents (Elt F) → (⟨S2048, .i32⟩ : BufTy).Contents (Elt F) → (⟨S2048, .i1⟩ : BufTy).Contents (Elt F)),
    nullary main_c_107 (constantI S_ 32 50000#32),
    unary main_c_107 main_v421 (broadcastInDim S2048 ![] bcast_S_S2048 : (⟨S_, .i32⟩ : BufTy).Contents (Elt F) → (⟨S2048, .i32⟩ : BufTy).Contents (Elt F)),
    binary main_arg20 main_v421 main_v422 (addi : (⟨S2048, .i32⟩ : BufTy).Contents (Elt F) → (⟨S2048, .i32⟩ : BufTy).Contents (Elt F) → (⟨S2048, .i32⟩ : BufTy).Contents (Elt F)),
    ternary main_v420 main_v422 main_arg20 main_v423 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v423 main_v424 (broadcastInDim S2048x1 ![0] bcast_S2048_S2048x1_0 : (⟨S2048, .i32⟩ : BufTy).Contents (Elt F) → (⟨S2048x1, .i32⟩ : BufTy).Contents (Elt F)),
    binary main_v209 main_v424 main_v425 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v425 main_v425 main_v426 (mulf : (⟨S2048x64, .f32⟩ : BufTy).Contents (Elt F) → (⟨S2048x64, .f32⟩ : BufTy).Contents (Elt F) → (⟨S2048x64, .f32⟩ : BufTy).Contents (Elt F)),
    nullary main_cst_108 (constant S_ .f32 0x00000000#32),
    binary main_v426 main_cst_108 main_v427 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v427 main_v428 (broadcastInDim S2048x1 ![0] bcast_S2048_S2048x1_0 : (⟨S2048, .f32⟩ : BufTy).Contents (Elt F) → (⟨S2048x1, .f32⟩ : BufTy).Contents (Elt F)),
    unary main_v428 main_v429 (Host.sqrt : (⟨S2048x1, .f32⟩ : BufTy).Contents (Elt F) → (⟨S2048x1, .f32⟩ : BufTy).Contents (Elt F)),
    nullary main_cst_109 (constant S_ .f32 0x2B8CBCCC#32),
    unary main_cst_109 main_v430 (broadcastInDim S2048x1 ![] bcast_S_S2048x1 : (⟨S_, .f32⟩ : BufTy).Contents (Elt F) → (⟨S2048x1, .f32⟩ : BufTy).Contents (Elt F)),
    binary main_v429 main_v430 main_v431 (maximumf : (⟨S2048x1, .f32⟩ : BufTy).Contents (Elt F) → (⟨S2048x1, .f32⟩ : BufTy).Contents (Elt F) → (⟨S2048x1, .f32⟩ : BufTy).Contents (Elt F)),
    unary main_v431 main_v432 (broadcastInDim S2048x64 ![0, 1] bcast_S2048x1_S2048x64_0_1 : (⟨S2048x1, .f32⟩ : BufTy).Contents (Elt F) → (⟨S2048x64, .f32⟩ : BufTy).Contents (Elt F)),
    binary main_v425 main_v432 main_v433 (Host.divf : (⟨S2048x64, .f32⟩ : BufTy).Contents (Elt F) → (⟨S2048x64, .f32⟩ : BufTy).Contents (Elt F) → (⟨S2048x64, .f32⟩ : BufTy).Contents (Elt F)),
    binary main_v433 main_v413 main_v434 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    nullary main_c_110 (constantI S_ 32 0#32),
    unary main_c_110 main_v435 (broadcastInDim S2048 ![] bcast_S_S2048 : (⟨S_, .i32⟩ : BufTy).Contents (Elt F) → (⟨S2048, .i32⟩ : BufTy).Contents (Elt F)),
    binary main_arg20 main_v435 main_v436 (cmpi .slt : (⟨S2048, .i32⟩ : BufTy).Contents (Elt F) → (⟨S2048, .i32⟩ : BufTy).Contents (Elt F) → (⟨S2048, .i1⟩ : BufTy).Contents (Elt F)),
    nullary main_c_111 (constantI S_ 32 50000#32),
    unary main_c_111 main_v437 (broadcastInDim S2048 ![] bcast_S_S2048 : (⟨S_, .i32⟩ : BufTy).Contents (Elt F) → (⟨S2048, .i32⟩ : BufTy).Contents (Elt F)),
    binary main_arg20 main_v437 main_v438 (addi : (⟨S2048, .i32⟩ : BufTy).Contents (Elt F) → (⟨S2048, .i32⟩ : BufTy).Contents (Elt F) → (⟨S2048, .i32⟩ : BufTy).Contents (Elt F)),
    ternary main_v436 main_v438 main_arg20 main_v439 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v439 main_v440 (broadcastInDim S2048x1 ![0] bcast_S2048_S2048x1_0 : (⟨S2048, .i32⟩ : BufTy).Contents (Elt F) → (⟨S2048x1, .i32⟩ : BufTy).Contents (Elt F)),
    binary main_v221 main_v440 main_v441 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v441 main_v441 main_v442 (mulf : (⟨S2048x64, .f32⟩ : BufTy).Contents (Elt F) → (⟨S2048x64, .f32⟩ : BufTy).Contents (Elt F) → (⟨S2048x64, .f32⟩ : BufTy).Contents (Elt F)),
    nullary main_cst_112 (constant S_ .f32 0x00000000#32),
    binary main_v442 main_cst_112 main_v443 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v443 main_v444 (broadcastInDim S2048x1 ![0] bcast_S2048_S2048x1_0 : (⟨S2048, .f32⟩ : BufTy).Contents (Elt F) → (⟨S2048x1, .f32⟩ : BufTy).Contents (Elt F)),
    unary main_v444 main_v445 (Host.sqrt : (⟨S2048x1, .f32⟩ : BufTy).Contents (Elt F) → (⟨S2048x1, .f32⟩ : BufTy).Contents (Elt F)),
    nullary main_cst_113 (constant S_ .f32 0x2B8CBCCC#32),
    unary main_cst_113 main_v446 (broadcastInDim S2048x1 ![] bcast_S_S2048x1 : (⟨S_, .f32⟩ : BufTy).Contents (Elt F) → (⟨S2048x1, .f32⟩ : BufTy).Contents (Elt F)),
    binary main_v445 main_v446 main_v447 (maximumf : (⟨S2048x1, .f32⟩ : BufTy).Contents (Elt F) → (⟨S2048x1, .f32⟩ : BufTy).Contents (Elt F) → (⟨S2048x1, .f32⟩ : BufTy).Contents (Elt F)),
    unary main_v447 main_v448 (broadcastInDim S2048x64 ![0, 1] bcast_S2048x1_S2048x64_0_1 : (⟨S2048x1, .f32⟩ : BufTy).Contents (Elt F) → (⟨S2048x64, .f32⟩ : BufTy).Contents (Elt F)),
    binary main_v441 main_v448 main_v449 (Host.divf : (⟨S2048x64, .f32⟩ : BufTy).Contents (Elt F) → (⟨S2048x64, .f32⟩ : BufTy).Contents (Elt F) → (⟨S2048x64, .f32⟩ : BufTy).Contents (Elt F)),
    binary main_v449 main_v413 main_v450 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v434 main_v450 main_v451 (mulf : (⟨S2048x64, .f32⟩ : BufTy).Contents (Elt F) → (⟨S2048x64, .f32⟩ : BufTy).Contents (Elt F) → (⟨S2048x64, .f32⟩ : BufTy).Contents (Elt F)),
    nullary main_cst_114 (constant S_ .f32 0x00000000#32),
    binary main_v451 main_cst_114 main_v452 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_115 (constant S_ .f32 0x3E4CCCCD#32),
    unary main_cst_115 main_v453 (broadcastInDim S2048 ![] bcast_S_S2048 : (⟨S_, .f32⟩ : BufTy).Contents (Elt F) → (⟨S2048, .f32⟩ : BufTy).Contents (Elt F)),
    binary main_v452 main_v453 main_v454 (Host.divf : (⟨S2048, .f32⟩ : BufTy).Contents (Elt F) → (⟨S2048, .f32⟩ : BufTy).Contents (Elt F) → (⟨S2048, .f32⟩ : BufTy).Contents (Elt F)),
    unary main_v454 main_v455 (Host.exp : (⟨S2048, .f32⟩ : BufTy).Contents (Elt F) → (⟨S2048, .f32⟩ : BufTy).Contents (Elt F)),
    unary main_v450 main_v456 ((transpose S64x2048 [1, 0] · transposes_S2048x64_S64x2048_1_0) : (⟨S2048x64, .f32⟩ : BufTy).Contents (Elt F) → (⟨S64x2048, .f32⟩ : BufTy).Contents (Elt F)),
    binary main_v434 main_v456 main_v457 ((fun l r => Host.dotGeneral dot_S2048x64_S64x2048_S2048x2048_1_0_0_1_n_n none l r) : (⟨S2048x64, .f32⟩ : BufTy).Contents (Elt F) → (⟨S64x2048, .f32⟩ : BufTy).Contents (Elt F) → (⟨S2048x2048, .f32⟩ : BufTy).Contents (Elt F)),
    nullary main_cst_116 (constant S_ .f32 0x3E4CCCCD#32),
    unary main_cst_116 main_v458 (broadcastInDim S2048x2048 ![] bcast_S_S2048x2048 : (⟨S_, .f32⟩ : BufTy).Contents (Elt F) → (⟨S2048x2048, .f32⟩ : BufTy).Contents (Elt F)),
    binary main_v457 main_v458 main_v459 (Host.divf : (⟨S2048x2048, .f32⟩ : BufTy).Contents (Elt F) → (⟨S2048x2048, .f32⟩ : BufTy).Contents (Elt F) → (⟨S2048x2048, .f32⟩ : BufTy).Contents (Elt F)),
    unary main_v459 main_v460 (Host.exp : (⟨S2048x2048, .f32⟩ : BufTy).Contents (Elt F) → (⟨S2048x2048, .f32⟩ : BufTy).Contents (Elt F)),
    nullary main_cst_117 (constant S_ .f32 0x00000000#32),
    binary main_v460 main_cst_117 main_v461 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]
set_option maxRecDepth 8192 in
set_option maxHeartbeats 4000000 in
theorem cG_sub : (cG : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub ..⟩
set_option maxRecDepth 8192 in
set_option maxHeartbeats 4000000 in
theorem cG_fresh : (cG : List (HloOp τ sig (Elt F))).Forall fun op => op.fresh = ∅ := by
  simp only [List.Forall]; repeat' constructor

set_option maxRecDepth 8192 in
set_option maxHeartbeats 4000000 in
/-- Operations 582 to 631 of @main, in order. -/
abbrev cH : List (HloOp τ sig (Elt F)) :=
  [ nullary main_cst_118 (constant S_ .f32 0x322BCC77#32),
    unary main_cst_118 main_v462 (broadcastInDim S2048 ![] bcast_S_S2048 : (⟨S_, .f32⟩ : BufTy).Contents (Elt F) → (⟨S2048, .f32⟩ : BufTy).Contents (Elt F)),
    binary main_v461 main_v462 main_v463 (addf : (⟨S2048, .f32⟩ : BufTy).Contents (Elt F) → (⟨S2048, .f32⟩ : BufTy).Contents (Elt F) → (⟨S2048, .f32⟩ : BufTy).Contents (Elt F)),
    binary main_v455 main_v463 main_v464 (Host.divf : (⟨S2048, .f32⟩ : BufTy).Contents (Elt F) → (⟨S2048, .f32⟩ : BufTy).Contents (Elt F) → (⟨S2048, .f32⟩ : BufTy).Contents (Elt F)),
    nullary main_cst_119 (constant S_ .f32 0x322BCC77#32),
    unary main_cst_119 main_v465 (broadcastInDim S2048 ![] bcast_S_S2048 : (⟨S_, .f32⟩ : BufTy).Contents (Elt F) → (⟨S2048, .f32⟩ : BufTy).Contents (Elt F)),
    binary main_v464 main_v465 main_v466 (addf : (⟨S2048, .f32⟩ : BufTy).Contents (Elt F) → (⟨S2048, .f32⟩ : BufTy).Contents (Elt F) → (⟨S2048, .f32⟩ : BufTy).Contents (Elt F)),
    unary main_v466 main_v467 (Host.log : (⟨S2048, .f32⟩ : BufTy).Contents (Elt F) → (⟨S2048, .f32⟩ : BufTy).Contents (Elt F)),
    unary main_v467 main_v468 (Host.negf : (⟨S2048, .f32⟩ : BufTy).Contents (Elt F) → (⟨S2048, .f32⟩ : BufTy).Contents (Elt F)),
    binary main_v468 main_v418 main_v469 (mulf : (⟨S2048, .f32⟩ : BufTy).Contents (Elt F) → (⟨S2048, .f32⟩ : BufTy).Contents (Elt F) → (⟨S2048, .f32⟩ : BufTy).Contents (Elt F)),
    nullary main_cst_120 (constant S_ .f32 0x00000000#32),
    binary main_v469 main_cst_120 main_v470 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    binary main_v411 main_v470 main_v471 (addf : (⟨S_, .f32⟩ : BufTy).Contents (Elt F) → (⟨S_, .f32⟩ : BufTy).Contents (Elt F) → (⟨S_, .f32⟩ : BufTy).Contents (Elt F)),
    nullary main_c_121 (constantI S_ 32 0#32),
    unary main_c_121 main_v472 (broadcastInDim S2048 ![] bcast_S_S2048 : (⟨S_, .i32⟩ : BufTy).Contents (Elt F) → (⟨S2048, .i32⟩ : BufTy).Contents (Elt F)),
    binary main_arg19 main_v472 main_v473 (cmpi .slt : (⟨S2048, .i32⟩ : BufTy).Contents (Elt F) → (⟨S2048, .i32⟩ : BufTy).Contents (Elt F) → (⟨S2048, .i1⟩ : BufTy).Contents (Elt F)),
    nullary main_c_122 (constantI S_ 32 100000#32),
    unary main_c_122 main_v474 (broadcastInDim S2048 ![] bcast_S_S2048 : (⟨S_, .i32⟩ : BufTy).Contents (Elt F) → (⟨S2048, .i32⟩ : BufTy).Contents (Elt F)),
    binary main_arg19 main_v474 main_v475 (addi : (⟨S2048, .i32⟩ : BufTy).Contents (Elt F) → (⟨S2048, .i32⟩ : BufTy).Contents (Elt F) → (⟨S2048, .i32⟩ : BufTy).Contents (Elt F)),
    ternary main_v473 main_v475 main_arg19 main_v476 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v476 main_v477 (broadcastInDim S2048x1 ![0] bcast_S2048_S2048x1_0 : (⟨S2048, .i32⟩ : BufTy).Contents (Elt F) → (⟨S2048x1, .i32⟩ : BufTy).Contents (Elt F)),
    binary main_v227 main_v477 main_v478 ((fun x i => Host.gather gather_S100000x64_S2048x1_S2048x64_1_0_n_n_0_1_164 x i) : (⟨S100000x64, .f32⟩ : BufTy).Contents (Elt F) → (⟨S2048x1, .i32⟩ : BufTy).Contents (Elt F) → (⟨S2048x64, .f32⟩ : BufTy).Contents (Elt F)),
    nullary main_c_123 (constantI S_ 32 0#32),
    unary main_c_123 main_v479 (broadcastInDim S2048 ![] bcast_S_S2048 : (⟨S_, .i32⟩ : BufTy).Contents (Elt F) → (⟨S2048, .i32⟩ : BufTy).Contents (Elt F)),
    binary main_arg21 main_v479 main_v480 (cmpi .slt : (⟨S2048, .i32⟩ : BufTy).Contents (Elt F) → (⟨S2048, .i32⟩ : BufTy).Contents (Elt F) → (⟨S2048, .i1⟩ : BufTy).Contents (Elt F)),
    nullary main_c_124 (constantI S_ 32 50000#32),
    unary main_c_124 main_v481 (broadcastInDim S2048 ![] bcast_S_S2048 : (⟨S_, .i32⟩ : BufTy).Contents (Elt F) → (⟨S2048, .i32⟩ : BufTy).Contents (Elt F)),
    binary main_arg21 main_v481 main_v482 (addi : (⟨S2048, .i32⟩ : BufTy).Contents (Elt F) → (⟨S2048, .i32⟩ : BufTy).Contents (Elt F) → (⟨S2048, .i32⟩ : BufTy).Contents (Elt F)),
    ternary main_v480 main_v482 main_arg21 main_v483 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v483 main_v484 (broadcastInDim S2048x1 ![0] bcast_S2048_S2048x1_0 : (⟨S2048, .i32⟩ : BufTy).Contents (Elt F) → (⟨S2048x1, .i32⟩ : BufTy).Contents (Elt F)),
    binary main_v231 main_v484 main_v485 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v478 main_v485 main_v486 (mulf : (⟨S2048x64, .f32⟩ : BufTy).Contents (Elt F) → (⟨S2048x64, .f32⟩ : BufTy).Contents (Elt F) → (⟨S2048x64, .f32⟩ : BufTy).Contents (Elt F)),
    nullary main_cst_125 (constant S_ .f32 0x00000000#32),
    binary main_v486 main_cst_125 main_v487 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_c_126 (constantI S_ 32 0#32),
    unary main_c_126 main_v488 (broadcastInDim S2048 ![] bcast_S_S2048 : (⟨S_, .i32⟩ : BufTy).Contents (Elt F) → (⟨S2048, .i32⟩ : BufTy).Contents (Elt F)),
    binary main_arg22 main_v488 main_v489 (cmpi .slt : (⟨S2048, .i32⟩ : BufTy).Contents (Elt F) → (⟨S2048, .i32⟩ : BufTy).Contents (Elt F) → (⟨S2048, .i1⟩ : BufTy).Contents (Elt F)),
    nullary main_c_127 (constantI S_ 32 50000#32),
    unary main_c_127 main_v490 (broadcastInDim S2048 ![] bcast_S_S2048 : (⟨S_, .i32⟩ : BufTy).Contents (Elt F) → (⟨S2048, .i32⟩ : BufTy).Contents (Elt F)),
    binary main_arg22 main_v490 main_v491 (addi : (⟨S2048, .i32⟩ : BufTy).Contents (Elt F) → (⟨S2048, .i32⟩ : BufTy).Contents (Elt F) → (⟨S2048, .i32⟩ : BufTy).Contents (Elt F)),
    ternary main_v489 main_v491 main_arg22 main_v492 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v492 main_v493 (broadcastInDim S2048x1 ![0] bcast_S2048_S2048x1_0 : (⟨S2048, .i32⟩ : BufTy).Contents (Elt F) → (⟨S2048x1, .i32⟩ : BufTy).Contents (Elt F)),
    binary main_v231 main_v493 main_v494 ((fun x i => Host.gather gather_S50000x64_S2048x1_S2048x64_1_0_n_n_0_1_164 x i) : (⟨S50000x64, .f32⟩ : BufTy).Contents (Elt F) → (⟨S2048x1, .i32⟩ : BufTy).Contents (Elt F) → (⟨S2048x64, .f32⟩ : BufTy).Contents (Elt F)),
    binary main_v478 main_v494 main_v495 (mulf : (⟨S2048x64, .f32⟩ : BufTy).Contents (Elt F) → (⟨S2048x64, .f32⟩ : BufTy).Contents (Elt F) → (⟨S2048x64, .f32⟩ : BufTy).Contents (Elt F)),
    nullary main_cst_128 (constant S_ .f32 0x00000000#32),
    binary main_v495 main_cst_128 main_v496 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    nullary main_cst_129 (constant S_ .f32 0x3F800000#32),
    unary main_cst_129 main_v497 (broadcastInDim S2048 ![] bcast_S_S2048 : (⟨S_, .f32⟩ : BufTy).Contents (Elt F) → (⟨S2048, .f32⟩ : BufTy).Contents (Elt F)),
    binary main_v497 main_v487 main_v498 (subf : (⟨S2048, .f32⟩ : BufTy).Contents (Elt F) → (⟨S2048, .f32⟩ : BufTy).Contents (Elt F) → (⟨S2048, .f32⟩ : BufTy).Contents (Elt F)),
    binary main_v498 main_v496 main_v499 (addf : (⟨S2048, .f32⟩ : BufTy).Contents (Elt F) → (⟨S2048, .f32⟩ : BufTy).Contents (Elt F) → (⟨S2048, .f32⟩ : BufTy).Contents (Elt F)) ]
set_option maxRecDepth 8192 in
set_option maxHeartbeats 4000000 in
theorem cH_sub : (cH : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., binary_bufs_sub ..⟩
set_option maxRecDepth 8192 in
set_option maxHeartbeats 4000000 in
theorem cH_fresh : (cH : List (HloOp τ sig (Elt F))).Forall fun op => op.fresh = ∅ := by
  simp only [List.Forall]; repeat' constructor

set_option maxRecDepth 8192 in
set_option maxHeartbeats 4000000 in
/-- Operations 632 to 641 of @main, in order. -/
abbrev cI : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S2048, .f32⟩) main_call12_v0) (broadcastInDim S2048 ![] bcast_S_S2048),
    TRef.binary (TRef.of (T := ⟨S2048, .f32⟩) main_v499) (TRef.of (T := ⟨S2048, .f32⟩) main_call12_v0) (TRef.of (T := ⟨S2048, .f32⟩) main_v500) maximumf,
    nullary main_cst_130 (constant S_ .f32 0x00000000#32),
    binary main_v500 main_cst_130 main_v501 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_131 (constant S_ .f32 0x45000000#32),
    binary main_v501 main_cst_131 main_v502 (Host.divf : (⟨S_, .f32⟩ : BufTy).Contents (Elt F) → (⟨S_, .f32⟩ : BufTy).Contents (Elt F) → (⟨S_, .f32⟩ : BufTy).Contents (Elt F)),
    nullary main_cst_132 (constant S_ .f32 0x3E4CCCCD#32),
    binary main_cst_132 main_v471 main_v503 (mulf : (⟨S_, .f32⟩ : BufTy).Contents (Elt F) → (⟨S_, .f32⟩ : BufTy).Contents (Elt F) → (⟨S_, .f32⟩ : BufTy).Contents (Elt F)),
    binary main_v502 main_v503 main_v504 (addf : (⟨S_, .f32⟩ : BufTy).Contents (Elt F) → (⟨S_, .f32⟩ : BufTy).Contents (Elt F) → (⟨S_, .f32⟩ : BufTy).Contents (Elt F)) ]
set_option maxRecDepth 8192 in
set_option maxHeartbeats 4000000 in
theorem cI_sub : (cI : List (HloOp τ sig (Elt F))).Forall fun op => op.bufs ⊆ tcRefs τ sig :=
  ⟨nullary_bufs_sub .., unary_bufs_sub .., binary_bufs_sub .., nullary_bufs_sub .., binary_bufs_sub .., nullary_bufs_sub .., binary_bufs_sub .., nullary_bufs_sub .., binary_bufs_sub .., binary_bufs_sub ..⟩
set_option maxRecDepth 8192 in
set_option maxHeartbeats 4000000 in
theorem cI_fresh : (cI : List (HloOp τ sig (Elt F))).Forall fun op => op.fresh = ∅ := by
  simp only [List.Forall]; repeat' constructor

/-- @main's 642 operations: the nine lists, in order. -/
abbrev allops : List (HloOp τ sig (Elt F)) := cA ++ (cB ++ (cC ++ (cD ++ (cE ++ (cF ++ (cG ++ (cH ++ (cI))))))))

set_option maxRecDepth 16384 in
set_option maxHeartbeats 16000000 in
theorem main_eq (c : Dev nD) : main (F := F) c = seq allops := rfl
theorem scopedRefs_eq : (Finset.univ.filter fun b : Ref sig .tc => b.isScoped) = ∅ := by decide
theorem scopedSems_eq : (Finset.univ.filter fun sm : SemLoc sig => sm.isScoped .tc) = ∅ := by decide

theorem allops_sub : ∀ op ∈ (allops : List (HloOp τ sig (Elt F))), op.bufs ⊆ tcRefs τ sig := by
  intro op h
  simp only [allops, List.mem_append] at h
  rcases h with h | h | h | h | h | h | h | h | h
  · exact List.forall_iff_forall_mem.mp cA_sub op h
  · exact List.forall_iff_forall_mem.mp cB_sub op h
  · exact List.forall_iff_forall_mem.mp cC_sub op h
  · exact List.forall_iff_forall_mem.mp cD_sub op h
  · exact List.forall_iff_forall_mem.mp cE_sub op h
  · exact List.forall_iff_forall_mem.mp cF_sub op h
  · exact List.forall_iff_forall_mem.mp cG_sub op h
  · exact List.forall_iff_forall_mem.mp cH_sub op h
  · exact List.forall_iff_forall_mem.mp cI_sub op h
theorem allops_fresh : ∀ op ∈ (allops : List (HloOp τ sig (Elt F))), op.fresh = ∅ := by
  intro op h
  simp only [allops, List.mem_append] at h
  rcases h with h | h | h | h | h | h | h | h | h
  · exact List.forall_iff_forall_mem.mp cA_fresh op h
  · exact List.forall_iff_forall_mem.mp cB_fresh op h
  · exact List.forall_iff_forall_mem.mp cC_fresh op h
  · exact List.forall_iff_forall_mem.mp cD_fresh op h
  · exact List.forall_iff_forall_mem.mp cE_fresh op h
  · exact List.forall_iff_forall_mem.mp cF_fresh op h
  · exact List.forall_iff_forall_mem.mp cG_fresh op h
  · exact List.forall_iff_forall_mem.mp cH_fresh op h
  · exact List.forall_iff_forall_mem.mp cI_fresh op h

/-- On every device, from any memory with zero counters: every weakly fair execution of @main terminates, and every
    buffer ends at the fold of the nine lists' results, in order, over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allops (launchContents m c) (Proc.devRef .tc b) :=
  run_seq scopedRefs_eq scopedSems_eq defs main (fun _ => allops) main_eq (fun _ => List.forall_iff_forall_mem.mpr allops_sub) m ρ
    (fun _ => allops_fresh)

end Cert.ReferenceIdeal.Chunks

end
-- ==== Proof.RefArgs.lean ====
/-
  No operation of the reference program writes an argument's buffer: each of the nine lists of operations leaves each of the
  23 arguments as it found it, so the whole program does, and the run ends with the arguments as launched.
-/
import proofs.«103739_j26439818674747_2_alg».proof.Proof.RefChunks

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

theorem cA_arg0 (V : Valuation τ sig (Elt F)) : after cA V (Proc.devRef .tc main_arg0) = V (Proc.devRef .tc main_arg0) := by
  simp only [cA]; after_results_simp
theorem cB_arg0 (V : Valuation τ sig (Elt F)) : after cB V (Proc.devRef .tc main_arg0) = V (Proc.devRef .tc main_arg0) := by
  simp only [cB]; after_results_simp
theorem cC_arg0 (V : Valuation τ sig (Elt F)) : after cC V (Proc.devRef .tc main_arg0) = V (Proc.devRef .tc main_arg0) := by
  simp only [cC]; after_results_simp
theorem cD_arg0 (V : Valuation τ sig (Elt F)) : after cD V (Proc.devRef .tc main_arg0) = V (Proc.devRef .tc main_arg0) := by
  simp only [cD]; after_results_simp
theorem cE_arg0 (V : Valuation τ sig (Elt F)) : after cE V (Proc.devRef .tc main_arg0) = V (Proc.devRef .tc main_arg0) := by
  simp only [cE]; after_results_simp
theorem cF_arg0 (V : Valuation τ sig (Elt F)) : after cF V (Proc.devRef .tc main_arg0) = V (Proc.devRef .tc main_arg0) := by
  simp only [cF]; after_results_simp
theorem cG_arg0 (V : Valuation τ sig (Elt F)) : after cG V (Proc.devRef .tc main_arg0) = V (Proc.devRef .tc main_arg0) := by
  simp only [cG]; after_results_simp
theorem cH_arg0 (V : Valuation τ sig (Elt F)) : after cH V (Proc.devRef .tc main_arg0) = V (Proc.devRef .tc main_arg0) := by
  simp only [cH]; after_results_simp
theorem cI_arg0 (V : Valuation τ sig (Elt F)) : after cI V (Proc.devRef .tc main_arg0) = V (Proc.devRef .tc main_arg0) := by
  simp only [cI]; after_results_simp
/-- Argument 0 ends as launched. -/
theorem allops_arg0 (V : Valuation τ sig (Elt F)) : after allops V (Proc.devRef .tc main_arg0) = V (Proc.devRef .tc main_arg0) := by
  simp only [allops, StableHlo.after_append]
  rw [cI_arg0, cH_arg0, cG_arg0, cF_arg0, cE_arg0, cD_arg0, cC_arg0, cB_arg0, cA_arg0]

theorem cA_arg1 (V : Valuation τ sig (Elt F)) : after cA V (Proc.devRef .tc main_arg1) = V (Proc.devRef .tc main_arg1) := by
  simp only [cA]; after_results_simp
theorem cB_arg1 (V : Valuation τ sig (Elt F)) : after cB V (Proc.devRef .tc main_arg1) = V (Proc.devRef .tc main_arg1) := by
  simp only [cB]; after_results_simp
theorem cC_arg1 (V : Valuation τ sig (Elt F)) : after cC V (Proc.devRef .tc main_arg1) = V (Proc.devRef .tc main_arg1) := by
  simp only [cC]; after_results_simp
theorem cD_arg1 (V : Valuation τ sig (Elt F)) : after cD V (Proc.devRef .tc main_arg1) = V (Proc.devRef .tc main_arg1) := by
  simp only [cD]; after_results_simp
theorem cE_arg1 (V : Valuation τ sig (Elt F)) : after cE V (Proc.devRef .tc main_arg1) = V (Proc.devRef .tc main_arg1) := by
  simp only [cE]; after_results_simp
theorem cF_arg1 (V : Valuation τ sig (Elt F)) : after cF V (Proc.devRef .tc main_arg1) = V (Proc.devRef .tc main_arg1) := by
  simp only [cF]; after_results_simp
theorem cG_arg1 (V : Valuation τ sig (Elt F)) : after cG V (Proc.devRef .tc main_arg1) = V (Proc.devRef .tc main_arg1) := by
  simp only [cG]; after_results_simp
theorem cH_arg1 (V : Valuation τ sig (Elt F)) : after cH V (Proc.devRef .tc main_arg1) = V (Proc.devRef .tc main_arg1) := by
  simp only [cH]; after_results_simp
theorem cI_arg1 (V : Valuation τ sig (Elt F)) : after cI V (Proc.devRef .tc main_arg1) = V (Proc.devRef .tc main_arg1) := by
  simp only [cI]; after_results_simp
/-- Argument 1 ends as launched. -/
theorem allops_arg1 (V : Valuation τ sig (Elt F)) : after allops V (Proc.devRef .tc main_arg1) = V (Proc.devRef .tc main_arg1) := by
  simp only [allops, StableHlo.after_append]
  rw [cI_arg1, cH_arg1, cG_arg1, cF_arg1, cE_arg1, cD_arg1, cC_arg1, cB_arg1, cA_arg1]

theorem cA_arg2 (V : Valuation τ sig (Elt F)) : after cA V (Proc.devRef .tc main_arg2) = V (Proc.devRef .tc main_arg2) := by
  simp only [cA]; after_results_simp
theorem cB_arg2 (V : Valuation τ sig (Elt F)) : after cB V (Proc.devRef .tc main_arg2) = V (Proc.devRef .tc main_arg2) := by
  simp only [cB]; after_results_simp
theorem cC_arg2 (V : Valuation τ sig (Elt F)) : after cC V (Proc.devRef .tc main_arg2) = V (Proc.devRef .tc main_arg2) := by
  simp only [cC]; after_results_simp
theorem cD_arg2 (V : Valuation τ sig (Elt F)) : after cD V (Proc.devRef .tc main_arg2) = V (Proc.devRef .tc main_arg2) := by
  simp only [cD]; after_results_simp
theorem cE_arg2 (V : Valuation τ sig (Elt F)) : after cE V (Proc.devRef .tc main_arg2) = V (Proc.devRef .tc main_arg2) := by
  simp only [cE]; after_results_simp
theorem cF_arg2 (V : Valuation τ sig (Elt F)) : after cF V (Proc.devRef .tc main_arg2) = V (Proc.devRef .tc main_arg2) := by
  simp only [cF]; after_results_simp
theorem cG_arg2 (V : Valuation τ sig (Elt F)) : after cG V (Proc.devRef .tc main_arg2) = V (Proc.devRef .tc main_arg2) := by
  simp only [cG]; after_results_simp
theorem cH_arg2 (V : Valuation τ sig (Elt F)) : after cH V (Proc.devRef .tc main_arg2) = V (Proc.devRef .tc main_arg2) := by
  simp only [cH]; after_results_simp
theorem cI_arg2 (V : Valuation τ sig (Elt F)) : after cI V (Proc.devRef .tc main_arg2) = V (Proc.devRef .tc main_arg2) := by
  simp only [cI]; after_results_simp
/-- Argument 2 ends as launched. -/
theorem allops_arg2 (V : Valuation τ sig (Elt F)) : after allops V (Proc.devRef .tc main_arg2) = V (Proc.devRef .tc main_arg2) := by
  simp only [allops, StableHlo.after_append]
  rw [cI_arg2, cH_arg2, cG_arg2, cF_arg2, cE_arg2, cD_arg2, cC_arg2, cB_arg2, cA_arg2]

theorem cA_arg3 (V : Valuation τ sig (Elt F)) : after cA V (Proc.devRef .tc main_arg3) = V (Proc.devRef .tc main_arg3) := by
  simp only [cA]; after_results_simp
theorem cB_arg3 (V : Valuation τ sig (Elt F)) : after cB V (Proc.devRef .tc main_arg3) = V (Proc.devRef .tc main_arg3) := by
  simp only [cB]; after_results_simp
theorem cC_arg3 (V : Valuation τ sig (Elt F)) : after cC V (Proc.devRef .tc main_arg3) = V (Proc.devRef .tc main_arg3) := by
  simp only [cC]; after_results_simp
theorem cD_arg3 (V : Valuation τ sig (Elt F)) : after cD V (Proc.devRef .tc main_arg3) = V (Proc.devRef .tc main_arg3) := by
  simp only [cD]; after_results_simp
theorem cE_arg3 (V : Valuation τ sig (Elt F)) : after cE V (Proc.devRef .tc main_arg3) = V (Proc.devRef .tc main_arg3) := by
  simp only [cE]; after_results_simp
theorem cF_arg3 (V : Valuation τ sig (Elt F)) : after cF V (Proc.devRef .tc main_arg3) = V (Proc.devRef .tc main_arg3) := by
  simp only [cF]; after_results_simp
theorem cG_arg3 (V : Valuation τ sig (Elt F)) : after cG V (Proc.devRef .tc main_arg3) = V (Proc.devRef .tc main_arg3) := by
  simp only [cG]; after_results_simp
theorem cH_arg3 (V : Valuation τ sig (Elt F)) : after cH V (Proc.devRef .tc main_arg3) = V (Proc.devRef .tc main_arg3) := by
  simp only [cH]; after_results_simp
theorem cI_arg3 (V : Valuation τ sig (Elt F)) : after cI V (Proc.devRef .tc main_arg3) = V (Proc.devRef .tc main_arg3) := by
  simp only [cI]; after_results_simp
/-- Argument 3 ends as launched. -/
theorem allops_arg3 (V : Valuation τ sig (Elt F)) : after allops V (Proc.devRef .tc main_arg3) = V (Proc.devRef .tc main_arg3) := by
  simp only [allops, StableHlo.after_append]
  rw [cI_arg3, cH_arg3, cG_arg3, cF_arg3, cE_arg3, cD_arg3, cC_arg3, cB_arg3, cA_arg3]

theorem cA_arg4 (V : Valuation τ sig (Elt F)) : after cA V (Proc.devRef .tc main_arg4) = V (Proc.devRef .tc main_arg4) := by
  simp only [cA]; after_results_simp
theorem cB_arg4 (V : Valuation τ sig (Elt F)) : after cB V (Proc.devRef .tc main_arg4) = V (Proc.devRef .tc main_arg4) := by
  simp only [cB]; after_results_simp
theorem cC_arg4 (V : Valuation τ sig (Elt F)) : after cC V (Proc.devRef .tc main_arg4) = V (Proc.devRef .tc main_arg4) := by
  simp only [cC]; after_results_simp
theorem cD_arg4 (V : Valuation τ sig (Elt F)) : after cD V (Proc.devRef .tc main_arg4) = V (Proc.devRef .tc main_arg4) := by
  simp only [cD]; after_results_simp
theorem cE_arg4 (V : Valuation τ sig (Elt F)) : after cE V (Proc.devRef .tc main_arg4) = V (Proc.devRef .tc main_arg4) := by
  simp only [cE]; after_results_simp
theorem cF_arg4 (V : Valuation τ sig (Elt F)) : after cF V (Proc.devRef .tc main_arg4) = V (Proc.devRef .tc main_arg4) := by
  simp only [cF]; after_results_simp
theorem cG_arg4 (V : Valuation τ sig (Elt F)) : after cG V (Proc.devRef .tc main_arg4) = V (Proc.devRef .tc main_arg4) := by
  simp only [cG]; after_results_simp
theorem cH_arg4 (V : Valuation τ sig (Elt F)) : after cH V (Proc.devRef .tc main_arg4) = V (Proc.devRef .tc main_arg4) := by
  simp only [cH]; after_results_simp
theorem cI_arg4 (V : Valuation τ sig (Elt F)) : after cI V (Proc.devRef .tc main_arg4) = V (Proc.devRef .tc main_arg4) := by
  simp only [cI]; after_results_simp
/-- Argument 4 ends as launched. -/
theorem allops_arg4 (V : Valuation τ sig (Elt F)) : after allops V (Proc.devRef .tc main_arg4) = V (Proc.devRef .tc main_arg4) := by
  simp only [allops, StableHlo.after_append]
  rw [cI_arg4, cH_arg4, cG_arg4, cF_arg4, cE_arg4, cD_arg4, cC_arg4, cB_arg4, cA_arg4]

theorem cA_arg5 (V : Valuation τ sig (Elt F)) : after cA V (Proc.devRef .tc main_arg5) = V (Proc.devRef .tc main_arg5) := by
  simp only [cA]; after_results_simp
theorem cB_arg5 (V : Valuation τ sig (Elt F)) : after cB V (Proc.devRef .tc main_arg5) = V (Proc.devRef .tc main_arg5) := by
  simp only [cB]; after_results_simp
theorem cC_arg5 (V : Valuation τ sig (Elt F)) : after cC V (Proc.devRef .tc main_arg5) = V (Proc.devRef .tc main_arg5) := by
  simp only [cC]; after_results_simp
theorem cD_arg5 (V : Valuation τ sig (Elt F)) : after cD V (Proc.devRef .tc main_arg5) = V (Proc.devRef .tc main_arg5) := by
  simp only [cD]; after_results_simp
theorem cE_arg5 (V : Valuation τ sig (Elt F)) : after cE V (Proc.devRef .tc main_arg5) = V (Proc.devRef .tc main_arg5) := by
  simp only [cE]; after_results_simp
theorem cF_arg5 (V : Valuation τ sig (Elt F)) : after cF V (Proc.devRef .tc main_arg5) = V (Proc.devRef .tc main_arg5) := by
  simp only [cF]; after_results_simp
theorem cG_arg5 (V : Valuation τ sig (Elt F)) : after cG V (Proc.devRef .tc main_arg5) = V (Proc.devRef .tc main_arg5) := by
  simp only [cG]; after_results_simp
theorem cH_arg5 (V : Valuation τ sig (Elt F)) : after cH V (Proc.devRef .tc main_arg5) = V (Proc.devRef .tc main_arg5) := by
  simp only [cH]; after_results_simp
theorem cI_arg5 (V : Valuation τ sig (Elt F)) : after cI V (Proc.devRef .tc main_arg5) = V (Proc.devRef .tc main_arg5) := by
  simp only [cI]; after_results_simp
/-- Argument 5 ends as launched. -/
theorem allops_arg5 (V : Valuation τ sig (Elt F)) : after allops V (Proc.devRef .tc main_arg5) = V (Proc.devRef .tc main_arg5) := by
  simp only [allops, StableHlo.after_append]
  rw [cI_arg5, cH_arg5, cG_arg5, cF_arg5, cE_arg5, cD_arg5, cC_arg5, cB_arg5, cA_arg5]

theorem cA_arg6 (V : Valuation τ sig (Elt F)) : after cA V (Proc.devRef .tc main_arg6) = V (Proc.devRef .tc main_arg6) := by
  simp only [cA]; after_results_simp
theorem cB_arg6 (V : Valuation τ sig (Elt F)) : after cB V (Proc.devRef .tc main_arg6) = V (Proc.devRef .tc main_arg6) := by
  simp only [cB]; after_results_simp
theorem cC_arg6 (V : Valuation τ sig (Elt F)) : after cC V (Proc.devRef .tc main_arg6) = V (Proc.devRef .tc main_arg6) := by
  simp only [cC]; after_results_simp
theorem cD_arg6 (V : Valuation τ sig (Elt F)) : after cD V (Proc.devRef .tc main_arg6) = V (Proc.devRef .tc main_arg6) := by
  simp only [cD]; after_results_simp
theorem cE_arg6 (V : Valuation τ sig (Elt F)) : after cE V (Proc.devRef .tc main_arg6) = V (Proc.devRef .tc main_arg6) := by
  simp only [cE]; after_results_simp
theorem cF_arg6 (V : Valuation τ sig (Elt F)) : after cF V (Proc.devRef .tc main_arg6) = V (Proc.devRef .tc main_arg6) := by
  simp only [cF]; after_results_simp
theorem cG_arg6 (V : Valuation τ sig (Elt F)) : after cG V (Proc.devRef .tc main_arg6) = V (Proc.devRef .tc main_arg6) := by
  simp only [cG]; after_results_simp
theorem cH_arg6 (V : Valuation τ sig (Elt F)) : after cH V (Proc.devRef .tc main_arg6) = V (Proc.devRef .tc main_arg6) := by
  simp only [cH]; after_results_simp
theorem cI_arg6 (V : Valuation τ sig (Elt F)) : after cI V (Proc.devRef .tc main_arg6) = V (Proc.devRef .tc main_arg6) := by
  simp only [cI]; after_results_simp
/-- Argument 6 ends as launched. -/
theorem allops_arg6 (V : Valuation τ sig (Elt F)) : after allops V (Proc.devRef .tc main_arg6) = V (Proc.devRef .tc main_arg6) := by
  simp only [allops, StableHlo.after_append]
  rw [cI_arg6, cH_arg6, cG_arg6, cF_arg6, cE_arg6, cD_arg6, cC_arg6, cB_arg6, cA_arg6]

theorem cA_arg7 (V : Valuation τ sig (Elt F)) : after cA V (Proc.devRef .tc main_arg7) = V (Proc.devRef .tc main_arg7) := by
  simp only [cA]; after_results_simp
theorem cB_arg7 (V : Valuation τ sig (Elt F)) : after cB V (Proc.devRef .tc main_arg7) = V (Proc.devRef .tc main_arg7) := by
  simp only [cB]; after_results_simp
theorem cC_arg7 (V : Valuation τ sig (Elt F)) : after cC V (Proc.devRef .tc main_arg7) = V (Proc.devRef .tc main_arg7) := by
  simp only [cC]; after_results_simp
theorem cD_arg7 (V : Valuation τ sig (Elt F)) : after cD V (Proc.devRef .tc main_arg7) = V (Proc.devRef .tc main_arg7) := by
  simp only [cD]; after_results_simp
theorem cE_arg7 (V : Valuation τ sig (Elt F)) : after cE V (Proc.devRef .tc main_arg7) = V (Proc.devRef .tc main_arg7) := by
  simp only [cE]; after_results_simp
theorem cF_arg7 (V : Valuation τ sig (Elt F)) : after cF V (Proc.devRef .tc main_arg7) = V (Proc.devRef .tc main_arg7) := by
  simp only [cF]; after_results_simp
theorem cG_arg7 (V : Valuation τ sig (Elt F)) : after cG V (Proc.devRef .tc main_arg7) = V (Proc.devRef .tc main_arg7) := by
  simp only [cG]; after_results_simp
theorem cH_arg7 (V : Valuation τ sig (Elt F)) : after cH V (Proc.devRef .tc main_arg7) = V (Proc.devRef .tc main_arg7) := by
  simp only [cH]; after_results_simp
theorem cI_arg7 (V : Valuation τ sig (Elt F)) : after cI V (Proc.devRef .tc main_arg7) = V (Proc.devRef .tc main_arg7) := by
  simp only [cI]; after_results_simp
/-- Argument 7 ends as launched. -/
theorem allops_arg7 (V : Valuation τ sig (Elt F)) : after allops V (Proc.devRef .tc main_arg7) = V (Proc.devRef .tc main_arg7) := by
  simp only [allops, StableHlo.after_append]
  rw [cI_arg7, cH_arg7, cG_arg7, cF_arg7, cE_arg7, cD_arg7, cC_arg7, cB_arg7, cA_arg7]

theorem cA_arg8 (V : Valuation τ sig (Elt F)) : after cA V (Proc.devRef .tc main_arg8) = V (Proc.devRef .tc main_arg8) := by
  simp only [cA]; after_results_simp
theorem cB_arg8 (V : Valuation τ sig (Elt F)) : after cB V (Proc.devRef .tc main_arg8) = V (Proc.devRef .tc main_arg8) := by
  simp only [cB]; after_results_simp
theorem cC_arg8 (V : Valuation τ sig (Elt F)) : after cC V (Proc.devRef .tc main_arg8) = V (Proc.devRef .tc main_arg8) := by
  simp only [cC]; after_results_simp
theorem cD_arg8 (V : Valuation τ sig (Elt F)) : after cD V (Proc.devRef .tc main_arg8) = V (Proc.devRef .tc main_arg8) := by
  simp only [cD]; after_results_simp
theorem cE_arg8 (V : Valuation τ sig (Elt F)) : after cE V (Proc.devRef .tc main_arg8) = V (Proc.devRef .tc main_arg8) := by
  simp only [cE]; after_results_simp
theorem cF_arg8 (V : Valuation τ sig (Elt F)) : after cF V (Proc.devRef .tc main_arg8) = V (Proc.devRef .tc main_arg8) := by
  simp only [cF]; after_results_simp
theorem cG_arg8 (V : Valuation τ sig (Elt F)) : after cG V (Proc.devRef .tc main_arg8) = V (Proc.devRef .tc main_arg8) := by
  simp only [cG]; after_results_simp
theorem cH_arg8 (V : Valuation τ sig (Elt F)) : after cH V (Proc.devRef .tc main_arg8) = V (Proc.devRef .tc main_arg8) := by
  simp only [cH]; after_results_simp
theorem cI_arg8 (V : Valuation τ sig (Elt F)) : after cI V (Proc.devRef .tc main_arg8) = V (Proc.devRef .tc main_arg8) := by
  simp only [cI]; after_results_simp
/-- Argument 8 ends as launched. -/
theorem allops_arg8 (V : Valuation τ sig (Elt F)) : after allops V (Proc.devRef .tc main_arg8) = V (Proc.devRef .tc main_arg8) := by
  simp only [allops, StableHlo.after_append]
  rw [cI_arg8, cH_arg8, cG_arg8, cF_arg8, cE_arg8, cD_arg8, cC_arg8, cB_arg8, cA_arg8]

theorem cA_arg9 (V : Valuation τ sig (Elt F)) : after cA V (Proc.devRef .tc main_arg9) = V (Proc.devRef .tc main_arg9) := by
  simp only [cA]; after_results_simp
theorem cB_arg9 (V : Valuation τ sig (Elt F)) : after cB V (Proc.devRef .tc main_arg9) = V (Proc.devRef .tc main_arg9) := by
  simp only [cB]; after_results_simp
theorem cC_arg9 (V : Valuation τ sig (Elt F)) : after cC V (Proc.devRef .tc main_arg9) = V (Proc.devRef .tc main_arg9) := by
  simp only [cC]; after_results_simp
theorem cD_arg9 (V : Valuation τ sig (Elt F)) : after cD V (Proc.devRef .tc main_arg9) = V (Proc.devRef .tc main_arg9) := by
  simp only [cD]; after_results_simp
theorem cE_arg9 (V : Valuation τ sig (Elt F)) : after cE V (Proc.devRef .tc main_arg9) = V (Proc.devRef .tc main_arg9) := by
  simp only [cE]; after_results_simp
theorem cF_arg9 (V : Valuation τ sig (Elt F)) : after cF V (Proc.devRef .tc main_arg9) = V (Proc.devRef .tc main_arg9) := by
  simp only [cF]; after_results_simp
theorem cG_arg9 (V : Valuation τ sig (Elt F)) : after cG V (Proc.devRef .tc main_arg9) = V (Proc.devRef .tc main_arg9) := by
  simp only [cG]; after_results_simp
theorem cH_arg9 (V : Valuation τ sig (Elt F)) : after cH V (Proc.devRef .tc main_arg9) = V (Proc.devRef .tc main_arg9) := by
  simp only [cH]; after_results_simp
theorem cI_arg9 (V : Valuation τ sig (Elt F)) : after cI V (Proc.devRef .tc main_arg9) = V (Proc.devRef .tc main_arg9) := by
  simp only [cI]; after_results_simp
/-- Argument 9 ends as launched. -/
theorem allops_arg9 (V : Valuation τ sig (Elt F)) : after allops V (Proc.devRef .tc main_arg9) = V (Proc.devRef .tc main_arg9) := by
  simp only [allops, StableHlo.after_append]
  rw [cI_arg9, cH_arg9, cG_arg9, cF_arg9, cE_arg9, cD_arg9, cC_arg9, cB_arg9, cA_arg9]

theorem cA_arg10 (V : Valuation τ sig (Elt F)) : after cA V (Proc.devRef .tc main_arg10) = V (Proc.devRef .tc main_arg10) := by
  simp only [cA]; after_results_simp
theorem cB_arg10 (V : Valuation τ sig (Elt F)) : after cB V (Proc.devRef .tc main_arg10) = V (Proc.devRef .tc main_arg10) := by
  simp only [cB]; after_results_simp
theorem cC_arg10 (V : Valuation τ sig (Elt F)) : after cC V (Proc.devRef .tc main_arg10) = V (Proc.devRef .tc main_arg10) := by
  simp only [cC]; after_results_simp
theorem cD_arg10 (V : Valuation τ sig (Elt F)) : after cD V (Proc.devRef .tc main_arg10) = V (Proc.devRef .tc main_arg10) := by
  simp only [cD]; after_results_simp
theorem cE_arg10 (V : Valuation τ sig (Elt F)) : after cE V (Proc.devRef .tc main_arg10) = V (Proc.devRef .tc main_arg10) := by
  simp only [cE]; after_results_simp
theorem cF_arg10 (V : Valuation τ sig (Elt F)) : after cF V (Proc.devRef .tc main_arg10) = V (Proc.devRef .tc main_arg10) := by
  simp only [cF]; after_results_simp
theorem cG_arg10 (V : Valuation τ sig (Elt F)) : after cG V (Proc.devRef .tc main_arg10) = V (Proc.devRef .tc main_arg10) := by
  simp only [cG]; after_results_simp
theorem cH_arg10 (V : Valuation τ sig (Elt F)) : after cH V (Proc.devRef .tc main_arg10) = V (Proc.devRef .tc main_arg10) := by
  simp only [cH]; after_results_simp
theorem cI_arg10 (V : Valuation τ sig (Elt F)) : after cI V (Proc.devRef .tc main_arg10) = V (Proc.devRef .tc main_arg10) := by
  simp only [cI]; after_results_simp
/-- Argument 10 ends as launched. -/
theorem allops_arg10 (V : Valuation τ sig (Elt F)) : after allops V (Proc.devRef .tc main_arg10) = V (Proc.devRef .tc main_arg10) := by
  simp only [allops, StableHlo.after_append]
  rw [cI_arg10, cH_arg10, cG_arg10, cF_arg10, cE_arg10, cD_arg10, cC_arg10, cB_arg10, cA_arg10]

theorem cA_arg11 (V : Valuation τ sig (Elt F)) : after cA V (Proc.devRef .tc main_arg11) = V (Proc.devRef .tc main_arg11) := by
  simp only [cA]; after_results_simp
theorem cB_arg11 (V : Valuation τ sig (Elt F)) : after cB V (Proc.devRef .tc main_arg11) = V (Proc.devRef .tc main_arg11) := by
  simp only [cB]; after_results_simp
theorem cC_arg11 (V : Valuation τ sig (Elt F)) : after cC V (Proc.devRef .tc main_arg11) = V (Proc.devRef .tc main_arg11) := by
  simp only [cC]; after_results_simp
theorem cD_arg11 (V : Valuation τ sig (Elt F)) : after cD V (Proc.devRef .tc main_arg11) = V (Proc.devRef .tc main_arg11) := by
  simp only [cD]; after_results_simp
theorem cE_arg11 (V : Valuation τ sig (Elt F)) : after cE V (Proc.devRef .tc main_arg11) = V (Proc.devRef .tc main_arg11) := by
  simp only [cE]; after_results_simp
theorem cF_arg11 (V : Valuation τ sig (Elt F)) : after cF V (Proc.devRef .tc main_arg11) = V (Proc.devRef .tc main_arg11) := by
  simp only [cF]; after_results_simp
theorem cG_arg11 (V : Valuation τ sig (Elt F)) : after cG V (Proc.devRef .tc main_arg11) = V (Proc.devRef .tc main_arg11) := by
  simp only [cG]; after_results_simp
theorem cH_arg11 (V : Valuation τ sig (Elt F)) : after cH V (Proc.devRef .tc main_arg11) = V (Proc.devRef .tc main_arg11) := by
  simp only [cH]; after_results_simp
theorem cI_arg11 (V : Valuation τ sig (Elt F)) : after cI V (Proc.devRef .tc main_arg11) = V (Proc.devRef .tc main_arg11) := by
  simp only [cI]; after_results_simp
/-- Argument 11 ends as launched. -/
theorem allops_arg11 (V : Valuation τ sig (Elt F)) : after allops V (Proc.devRef .tc main_arg11) = V (Proc.devRef .tc main_arg11) := by
  simp only [allops, StableHlo.after_append]
  rw [cI_arg11, cH_arg11, cG_arg11, cF_arg11, cE_arg11, cD_arg11, cC_arg11, cB_arg11, cA_arg11]

theorem cA_arg12 (V : Valuation τ sig (Elt F)) : after cA V (Proc.devRef .tc main_arg12) = V (Proc.devRef .tc main_arg12) := by
  simp only [cA]; after_results_simp
theorem cB_arg12 (V : Valuation τ sig (Elt F)) : after cB V (Proc.devRef .tc main_arg12) = V (Proc.devRef .tc main_arg12) := by
  simp only [cB]; after_results_simp
theorem cC_arg12 (V : Valuation τ sig (Elt F)) : after cC V (Proc.devRef .tc main_arg12) = V (Proc.devRef .tc main_arg12) := by
  simp only [cC]; after_results_simp
theorem cD_arg12 (V : Valuation τ sig (Elt F)) : after cD V (Proc.devRef .tc main_arg12) = V (Proc.devRef .tc main_arg12) := by
  simp only [cD]; after_results_simp
theorem cE_arg12 (V : Valuation τ sig (Elt F)) : after cE V (Proc.devRef .tc main_arg12) = V (Proc.devRef .tc main_arg12) := by
  simp only [cE]; after_results_simp
theorem cF_arg12 (V : Valuation τ sig (Elt F)) : after cF V (Proc.devRef .tc main_arg12) = V (Proc.devRef .tc main_arg12) := by
  simp only [cF]; after_results_simp
theorem cG_arg12 (V : Valuation τ sig (Elt F)) : after cG V (Proc.devRef .tc main_arg12) = V (Proc.devRef .tc main_arg12) := by
  simp only [cG]; after_results_simp
theorem cH_arg12 (V : Valuation τ sig (Elt F)) : after cH V (Proc.devRef .tc main_arg12) = V (Proc.devRef .tc main_arg12) := by
  simp only [cH]; after_results_simp
theorem cI_arg12 (V : Valuation τ sig (Elt F)) : after cI V (Proc.devRef .tc main_arg12) = V (Proc.devRef .tc main_arg12) := by
  simp only [cI]; after_results_simp
/-- Argument 12 ends as launched. -/
theorem allops_arg12 (V : Valuation τ sig (Elt F)) : after allops V (Proc.devRef .tc main_arg12) = V (Proc.devRef .tc main_arg12) := by
  simp only [allops, StableHlo.after_append]
  rw [cI_arg12, cH_arg12, cG_arg12, cF_arg12, cE_arg12, cD_arg12, cC_arg12, cB_arg12, cA_arg12]

theorem cA_arg13 (V : Valuation τ sig (Elt F)) : after cA V (Proc.devRef .tc main_arg13) = V (Proc.devRef .tc main_arg13) := by
  simp only [cA]; after_results_simp
theorem cB_arg13 (V : Valuation τ sig (Elt F)) : after cB V (Proc.devRef .tc main_arg13) = V (Proc.devRef .tc main_arg13) := by
  simp only [cB]; after_results_simp
theorem cC_arg13 (V : Valuation τ sig (Elt F)) : after cC V (Proc.devRef .tc main_arg13) = V (Proc.devRef .tc main_arg13) := by
  simp only [cC]; after_results_simp
theorem cD_arg13 (V : Valuation τ sig (Elt F)) : after cD V (Proc.devRef .tc main_arg13) = V (Proc.devRef .tc main_arg13) := by
  simp only [cD]; after_results_simp
theorem cE_arg13 (V : Valuation τ sig (Elt F)) : after cE V (Proc.devRef .tc main_arg13) = V (Proc.devRef .tc main_arg13) := by
  simp only [cE]; after_results_simp
theorem cF_arg13 (V : Valuation τ sig (Elt F)) : after cF V (Proc.devRef .tc main_arg13) = V (Proc.devRef .tc main_arg13) := by
  simp only [cF]; after_results_simp
theorem cG_arg13 (V : Valuation τ sig (Elt F)) : after cG V (Proc.devRef .tc main_arg13) = V (Proc.devRef .tc main_arg13) := by
  simp only [cG]; after_results_simp
theorem cH_arg13 (V : Valuation τ sig (Elt F)) : after cH V (Proc.devRef .tc main_arg13) = V (Proc.devRef .tc main_arg13) := by
  simp only [cH]; after_results_simp
theorem cI_arg13 (V : Valuation τ sig (Elt F)) : after cI V (Proc.devRef .tc main_arg13) = V (Proc.devRef .tc main_arg13) := by
  simp only [cI]; after_results_simp
/-- Argument 13 ends as launched. -/
theorem allops_arg13 (V : Valuation τ sig (Elt F)) : after allops V (Proc.devRef .tc main_arg13) = V (Proc.devRef .tc main_arg13) := by
  simp only [allops, StableHlo.after_append]
  rw [cI_arg13, cH_arg13, cG_arg13, cF_arg13, cE_arg13, cD_arg13, cC_arg13, cB_arg13, cA_arg13]

theorem cA_arg14 (V : Valuation τ sig (Elt F)) : after cA V (Proc.devRef .tc main_arg14) = V (Proc.devRef .tc main_arg14) := by
  simp only [cA]; after_results_simp
theorem cB_arg14 (V : Valuation τ sig (Elt F)) : after cB V (Proc.devRef .tc main_arg14) = V (Proc.devRef .tc main_arg14) := by
  simp only [cB]; after_results_simp
theorem cC_arg14 (V : Valuation τ sig (Elt F)) : after cC V (Proc.devRef .tc main_arg14) = V (Proc.devRef .tc main_arg14) := by
  simp only [cC]; after_results_simp
theorem cD_arg14 (V : Valuation τ sig (Elt F)) : after cD V (Proc.devRef .tc main_arg14) = V (Proc.devRef .tc main_arg14) := by
  simp only [cD]; after_results_simp
theorem cE_arg14 (V : Valuation τ sig (Elt F)) : after cE V (Proc.devRef .tc main_arg14) = V (Proc.devRef .tc main_arg14) := by
  simp only [cE]; after_results_simp
theorem cF_arg14 (V : Valuation τ sig (Elt F)) : after cF V (Proc.devRef .tc main_arg14) = V (Proc.devRef .tc main_arg14) := by
  simp only [cF]; after_results_simp
theorem cG_arg14 (V : Valuation τ sig (Elt F)) : after cG V (Proc.devRef .tc main_arg14) = V (Proc.devRef .tc main_arg14) := by
  simp only [cG]; after_results_simp
theorem cH_arg14 (V : Valuation τ sig (Elt F)) : after cH V (Proc.devRef .tc main_arg14) = V (Proc.devRef .tc main_arg14) := by
  simp only [cH]; after_results_simp
theorem cI_arg14 (V : Valuation τ sig (Elt F)) : after cI V (Proc.devRef .tc main_arg14) = V (Proc.devRef .tc main_arg14) := by
  simp only [cI]; after_results_simp
/-- Argument 14 ends as launched. -/
theorem allops_arg14 (V : Valuation τ sig (Elt F)) : after allops V (Proc.devRef .tc main_arg14) = V (Proc.devRef .tc main_arg14) := by
  simp only [allops, StableHlo.after_append]
  rw [cI_arg14, cH_arg14, cG_arg14, cF_arg14, cE_arg14, cD_arg14, cC_arg14, cB_arg14, cA_arg14]

theorem cA_arg15 (V : Valuation τ sig (Elt F)) : after cA V (Proc.devRef .tc main_arg15) = V (Proc.devRef .tc main_arg15) := by
  simp only [cA]; after_results_simp
theorem cB_arg15 (V : Valuation τ sig (Elt F)) : after cB V (Proc.devRef .tc main_arg15) = V (Proc.devRef .tc main_arg15) := by
  simp only [cB]; after_results_simp
theorem cC_arg15 (V : Valuation τ sig (Elt F)) : after cC V (Proc.devRef .tc main_arg15) = V (Proc.devRef .tc main_arg15) := by
  simp only [cC]; after_results_simp
theorem cD_arg15 (V : Valuation τ sig (Elt F)) : after cD V (Proc.devRef .tc main_arg15) = V (Proc.devRef .tc main_arg15) := by
  simp only [cD]; after_results_simp
theorem cE_arg15 (V : Valuation τ sig (Elt F)) : after cE V (Proc.devRef .tc main_arg15) = V (Proc.devRef .tc main_arg15) := by
  simp only [cE]; after_results_simp
theorem cF_arg15 (V : Valuation τ sig (Elt F)) : after cF V (Proc.devRef .tc main_arg15) = V (Proc.devRef .tc main_arg15) := by
  simp only [cF]; after_results_simp
theorem cG_arg15 (V : Valuation τ sig (Elt F)) : after cG V (Proc.devRef .tc main_arg15) = V (Proc.devRef .tc main_arg15) := by
  simp only [cG]; after_results_simp
theorem cH_arg15 (V : Valuation τ sig (Elt F)) : after cH V (Proc.devRef .tc main_arg15) = V (Proc.devRef .tc main_arg15) := by
  simp only [cH]; after_results_simp
theorem cI_arg15 (V : Valuation τ sig (Elt F)) : after cI V (Proc.devRef .tc main_arg15) = V (Proc.devRef .tc main_arg15) := by
  simp only [cI]; after_results_simp
/-- Argument 15 ends as launched. -/
theorem allops_arg15 (V : Valuation τ sig (Elt F)) : after allops V (Proc.devRef .tc main_arg15) = V (Proc.devRef .tc main_arg15) := by
  simp only [allops, StableHlo.after_append]
  rw [cI_arg15, cH_arg15, cG_arg15, cF_arg15, cE_arg15, cD_arg15, cC_arg15, cB_arg15, cA_arg15]

theorem cA_arg16 (V : Valuation τ sig (Elt F)) : after cA V (Proc.devRef .tc main_arg16) = V (Proc.devRef .tc main_arg16) := by
  simp only [cA]; after_results_simp
theorem cB_arg16 (V : Valuation τ sig (Elt F)) : after cB V (Proc.devRef .tc main_arg16) = V (Proc.devRef .tc main_arg16) := by
  simp only [cB]; after_results_simp
theorem cC_arg16 (V : Valuation τ sig (Elt F)) : after cC V (Proc.devRef .tc main_arg16) = V (Proc.devRef .tc main_arg16) := by
  simp only [cC]; after_results_simp
theorem cD_arg16 (V : Valuation τ sig (Elt F)) : after cD V (Proc.devRef .tc main_arg16) = V (Proc.devRef .tc main_arg16) := by
  simp only [cD]; after_results_simp
theorem cE_arg16 (V : Valuation τ sig (Elt F)) : after cE V (Proc.devRef .tc main_arg16) = V (Proc.devRef .tc main_arg16) := by
  simp only [cE]; after_results_simp
theorem cF_arg16 (V : Valuation τ sig (Elt F)) : after cF V (Proc.devRef .tc main_arg16) = V (Proc.devRef .tc main_arg16) := by
  simp only [cF]; after_results_simp
theorem cG_arg16 (V : Valuation τ sig (Elt F)) : after cG V (Proc.devRef .tc main_arg16) = V (Proc.devRef .tc main_arg16) := by
  simp only [cG]; after_results_simp
theorem cH_arg16 (V : Valuation τ sig (Elt F)) : after cH V (Proc.devRef .tc main_arg16) = V (Proc.devRef .tc main_arg16) := by
  simp only [cH]; after_results_simp
theorem cI_arg16 (V : Valuation τ sig (Elt F)) : after cI V (Proc.devRef .tc main_arg16) = V (Proc.devRef .tc main_arg16) := by
  simp only [cI]; after_results_simp
/-- Argument 16 ends as launched. -/
theorem allops_arg16 (V : Valuation τ sig (Elt F)) : after allops V (Proc.devRef .tc main_arg16) = V (Proc.devRef .tc main_arg16) := by
  simp only [allops, StableHlo.after_append]
  rw [cI_arg16, cH_arg16, cG_arg16, cF_arg16, cE_arg16, cD_arg16, cC_arg16, cB_arg16, cA_arg16]

theorem cA_arg17 (V : Valuation τ sig (Elt F)) : after cA V (Proc.devRef .tc main_arg17) = V (Proc.devRef .tc main_arg17) := by
  simp only [cA]; after_results_simp
theorem cB_arg17 (V : Valuation τ sig (Elt F)) : after cB V (Proc.devRef .tc main_arg17) = V (Proc.devRef .tc main_arg17) := by
  simp only [cB]; after_results_simp
theorem cC_arg17 (V : Valuation τ sig (Elt F)) : after cC V (Proc.devRef .tc main_arg17) = V (Proc.devRef .tc main_arg17) := by
  simp only [cC]; after_results_simp
theorem cD_arg17 (V : Valuation τ sig (Elt F)) : after cD V (Proc.devRef .tc main_arg17) = V (Proc.devRef .tc main_arg17) := by
  simp only [cD]; after_results_simp
theorem cE_arg17 (V : Valuation τ sig (Elt F)) : after cE V (Proc.devRef .tc main_arg17) = V (Proc.devRef .tc main_arg17) := by
  simp only [cE]; after_results_simp
theorem cF_arg17 (V : Valuation τ sig (Elt F)) : after cF V (Proc.devRef .tc main_arg17) = V (Proc.devRef .tc main_arg17) := by
  simp only [cF]; after_results_simp
theorem cG_arg17 (V : Valuation τ sig (Elt F)) : after cG V (Proc.devRef .tc main_arg17) = V (Proc.devRef .tc main_arg17) := by
  simp only [cG]; after_results_simp
theorem cH_arg17 (V : Valuation τ sig (Elt F)) : after cH V (Proc.devRef .tc main_arg17) = V (Proc.devRef .tc main_arg17) := by
  simp only [cH]; after_results_simp
theorem cI_arg17 (V : Valuation τ sig (Elt F)) : after cI V (Proc.devRef .tc main_arg17) = V (Proc.devRef .tc main_arg17) := by
  simp only [cI]; after_results_simp
/-- Argument 17 ends as launched. -/
theorem allops_arg17 (V : Valuation τ sig (Elt F)) : after allops V (Proc.devRef .tc main_arg17) = V (Proc.devRef .tc main_arg17) := by
  simp only [allops, StableHlo.after_append]
  rw [cI_arg17, cH_arg17, cG_arg17, cF_arg17, cE_arg17, cD_arg17, cC_arg17, cB_arg17, cA_arg17]

theorem cA_arg18 (V : Valuation τ sig (Elt F)) : after cA V (Proc.devRef .tc main_arg18) = V (Proc.devRef .tc main_arg18) := by
  simp only [cA]; after_results_simp
theorem cB_arg18 (V : Valuation τ sig (Elt F)) : after cB V (Proc.devRef .tc main_arg18) = V (Proc.devRef .tc main_arg18) := by
  simp only [cB]; after_results_simp
theorem cC_arg18 (V : Valuation τ sig (Elt F)) : after cC V (Proc.devRef .tc main_arg18) = V (Proc.devRef .tc main_arg18) := by
  simp only [cC]; after_results_simp
theorem cD_arg18 (V : Valuation τ sig (Elt F)) : after cD V (Proc.devRef .tc main_arg18) = V (Proc.devRef .tc main_arg18) := by
  simp only [cD]; after_results_simp
theorem cE_arg18 (V : Valuation τ sig (Elt F)) : after cE V (Proc.devRef .tc main_arg18) = V (Proc.devRef .tc main_arg18) := by
  simp only [cE]; after_results_simp
theorem cF_arg18 (V : Valuation τ sig (Elt F)) : after cF V (Proc.devRef .tc main_arg18) = V (Proc.devRef .tc main_arg18) := by
  simp only [cF]; after_results_simp
theorem cG_arg18 (V : Valuation τ sig (Elt F)) : after cG V (Proc.devRef .tc main_arg18) = V (Proc.devRef .tc main_arg18) := by
  simp only [cG]; after_results_simp
theorem cH_arg18 (V : Valuation τ sig (Elt F)) : after cH V (Proc.devRef .tc main_arg18) = V (Proc.devRef .tc main_arg18) := by
  simp only [cH]; after_results_simp
theorem cI_arg18 (V : Valuation τ sig (Elt F)) : after cI V (Proc.devRef .tc main_arg18) = V (Proc.devRef .tc main_arg18) := by
  simp only [cI]; after_results_simp
/-- Argument 18 ends as launched. -/
theorem allops_arg18 (V : Valuation τ sig (Elt F)) : after allops V (Proc.devRef .tc main_arg18) = V (Proc.devRef .tc main_arg18) := by
  simp only [allops, StableHlo.after_append]
  rw [cI_arg18, cH_arg18, cG_arg18, cF_arg18, cE_arg18, cD_arg18, cC_arg18, cB_arg18, cA_arg18]

theorem cA_arg19 (V : Valuation τ sig (Elt F)) : after cA V (Proc.devRef .tc main_arg19) = V (Proc.devRef .tc main_arg19) := by
  simp only [cA]; after_results_simp
theorem cB_arg19 (V : Valuation τ sig (Elt F)) : after cB V (Proc.devRef .tc main_arg19) = V (Proc.devRef .tc main_arg19) := by
  simp only [cB]; after_results_simp
theorem cC_arg19 (V : Valuation τ sig (Elt F)) : after cC V (Proc.devRef .tc main_arg19) = V (Proc.devRef .tc main_arg19) := by
  simp only [cC]; after_results_simp
theorem cD_arg19 (V : Valuation τ sig (Elt F)) : after cD V (Proc.devRef .tc main_arg19) = V (Proc.devRef .tc main_arg19) := by
  simp only [cD]; after_results_simp
theorem cE_arg19 (V : Valuation τ sig (Elt F)) : after cE V (Proc.devRef .tc main_arg19) = V (Proc.devRef .tc main_arg19) := by
  simp only [cE]; after_results_simp
theorem cF_arg19 (V : Valuation τ sig (Elt F)) : after cF V (Proc.devRef .tc main_arg19) = V (Proc.devRef .tc main_arg19) := by
  simp only [cF]; after_results_simp
theorem cG_arg19 (V : Valuation τ sig (Elt F)) : after cG V (Proc.devRef .tc main_arg19) = V (Proc.devRef .tc main_arg19) := by
  simp only [cG]; after_results_simp
theorem cH_arg19 (V : Valuation τ sig (Elt F)) : after cH V (Proc.devRef .tc main_arg19) = V (Proc.devRef .tc main_arg19) := by
  simp only [cH]; after_results_simp
theorem cI_arg19 (V : Valuation τ sig (Elt F)) : after cI V (Proc.devRef .tc main_arg19) = V (Proc.devRef .tc main_arg19) := by
  simp only [cI]; after_results_simp
/-- Argument 19 ends as launched. -/
theorem allops_arg19 (V : Valuation τ sig (Elt F)) : after allops V (Proc.devRef .tc main_arg19) = V (Proc.devRef .tc main_arg19) := by
  simp only [allops, StableHlo.after_append]
  rw [cI_arg19, cH_arg19, cG_arg19, cF_arg19, cE_arg19, cD_arg19, cC_arg19, cB_arg19, cA_arg19]

theorem cA_arg20 (V : Valuation τ sig (Elt F)) : after cA V (Proc.devRef .tc main_arg20) = V (Proc.devRef .tc main_arg20) := by
  simp only [cA]; after_results_simp
theorem cB_arg20 (V : Valuation τ sig (Elt F)) : after cB V (Proc.devRef .tc main_arg20) = V (Proc.devRef .tc main_arg20) := by
  simp only [cB]; after_results_simp
theorem cC_arg20 (V : Valuation τ sig (Elt F)) : after cC V (Proc.devRef .tc main_arg20) = V (Proc.devRef .tc main_arg20) := by
  simp only [cC]; after_results_simp
theorem cD_arg20 (V : Valuation τ sig (Elt F)) : after cD V (Proc.devRef .tc main_arg20) = V (Proc.devRef .tc main_arg20) := by
  simp only [cD]; after_results_simp
theorem cE_arg20 (V : Valuation τ sig (Elt F)) : after cE V (Proc.devRef .tc main_arg20) = V (Proc.devRef .tc main_arg20) := by
  simp only [cE]; after_results_simp
theorem cF_arg20 (V : Valuation τ sig (Elt F)) : after cF V (Proc.devRef .tc main_arg20) = V (Proc.devRef .tc main_arg20) := by
  simp only [cF]; after_results_simp
theorem cG_arg20 (V : Valuation τ sig (Elt F)) : after cG V (Proc.devRef .tc main_arg20) = V (Proc.devRef .tc main_arg20) := by
  simp only [cG]; after_results_simp
theorem cH_arg20 (V : Valuation τ sig (Elt F)) : after cH V (Proc.devRef .tc main_arg20) = V (Proc.devRef .tc main_arg20) := by
  simp only [cH]; after_results_simp
theorem cI_arg20 (V : Valuation τ sig (Elt F)) : after cI V (Proc.devRef .tc main_arg20) = V (Proc.devRef .tc main_arg20) := by
  simp only [cI]; after_results_simp
/-- Argument 20 ends as launched. -/
theorem allops_arg20 (V : Valuation τ sig (Elt F)) : after allops V (Proc.devRef .tc main_arg20) = V (Proc.devRef .tc main_arg20) := by
  simp only [allops, StableHlo.after_append]
  rw [cI_arg20, cH_arg20, cG_arg20, cF_arg20, cE_arg20, cD_arg20, cC_arg20, cB_arg20, cA_arg20]

theorem cA_arg21 (V : Valuation τ sig (Elt F)) : after cA V (Proc.devRef .tc main_arg21) = V (Proc.devRef .tc main_arg21) := by
  simp only [cA]; after_results_simp
theorem cB_arg21 (V : Valuation τ sig (Elt F)) : after cB V (Proc.devRef .tc main_arg21) = V (Proc.devRef .tc main_arg21) := by
  simp only [cB]; after_results_simp
theorem cC_arg21 (V : Valuation τ sig (Elt F)) : after cC V (Proc.devRef .tc main_arg21) = V (Proc.devRef .tc main_arg21) := by
  simp only [cC]; after_results_simp
theorem cD_arg21 (V : Valuation τ sig (Elt F)) : after cD V (Proc.devRef .tc main_arg21) = V (Proc.devRef .tc main_arg21) := by
  simp only [cD]; after_results_simp
theorem cE_arg21 (V : Valuation τ sig (Elt F)) : after cE V (Proc.devRef .tc main_arg21) = V (Proc.devRef .tc main_arg21) := by
  simp only [cE]; after_results_simp
theorem cF_arg21 (V : Valuation τ sig (Elt F)) : after cF V (Proc.devRef .tc main_arg21) = V (Proc.devRef .tc main_arg21) := by
  simp only [cF]; after_results_simp
theorem cG_arg21 (V : Valuation τ sig (Elt F)) : after cG V (Proc.devRef .tc main_arg21) = V (Proc.devRef .tc main_arg21) := by
  simp only [cG]; after_results_simp
theorem cH_arg21 (V : Valuation τ sig (Elt F)) : after cH V (Proc.devRef .tc main_arg21) = V (Proc.devRef .tc main_arg21) := by
  simp only [cH]; after_results_simp
theorem cI_arg21 (V : Valuation τ sig (Elt F)) : after cI V (Proc.devRef .tc main_arg21) = V (Proc.devRef .tc main_arg21) := by
  simp only [cI]; after_results_simp
/-- Argument 21 ends as launched. -/
theorem allops_arg21 (V : Valuation τ sig (Elt F)) : after allops V (Proc.devRef .tc main_arg21) = V (Proc.devRef .tc main_arg21) := by
  simp only [allops, StableHlo.after_append]
  rw [cI_arg21, cH_arg21, cG_arg21, cF_arg21, cE_arg21, cD_arg21, cC_arg21, cB_arg21, cA_arg21]

theorem cA_arg22 (V : Valuation τ sig (Elt F)) : after cA V (Proc.devRef .tc main_arg22) = V (Proc.devRef .tc main_arg22) := by
  simp only [cA]; after_results_simp
theorem cB_arg22 (V : Valuation τ sig (Elt F)) : after cB V (Proc.devRef .tc main_arg22) = V (Proc.devRef .tc main_arg22) := by
  simp only [cB]; after_results_simp
theorem cC_arg22 (V : Valuation τ sig (Elt F)) : after cC V (Proc.devRef .tc main_arg22) = V (Proc.devRef .tc main_arg22) := by
  simp only [cC]; after_results_simp
theorem cD_arg22 (V : Valuation τ sig (Elt F)) : after cD V (Proc.devRef .tc main_arg22) = V (Proc.devRef .tc main_arg22) := by
  simp only [cD]; after_results_simp
theorem cE_arg22 (V : Valuation τ sig (Elt F)) : after cE V (Proc.devRef .tc main_arg22) = V (Proc.devRef .tc main_arg22) := by
  simp only [cE]; after_results_simp
theorem cF_arg22 (V : Valuation τ sig (Elt F)) : after cF V (Proc.devRef .tc main_arg22) = V (Proc.devRef .tc main_arg22) := by
  simp only [cF]; after_results_simp
theorem cG_arg22 (V : Valuation τ sig (Elt F)) : after cG V (Proc.devRef .tc main_arg22) = V (Proc.devRef .tc main_arg22) := by
  simp only [cG]; after_results_simp
theorem cH_arg22 (V : Valuation τ sig (Elt F)) : after cH V (Proc.devRef .tc main_arg22) = V (Proc.devRef .tc main_arg22) := by
  simp only [cH]; after_results_simp
theorem cI_arg22 (V : Valuation τ sig (Elt F)) : after cI V (Proc.devRef .tc main_arg22) = V (Proc.devRef .tc main_arg22) := by
  simp only [cI]; after_results_simp
/-- Argument 22 ends as launched. -/
theorem allops_arg22 (V : Valuation τ sig (Elt F)) : after allops V (Proc.devRef .tc main_arg22) = V (Proc.devRef .tc main_arg22) := by
  simp only [allops, StableHlo.after_append]
  rw [cI_arg22, cH_arg22, cG_arg22, cF_arg22, cE_arg22, cD_arg22, cC_arg22, cB_arg22, cA_arg22]

end Cert.ReferenceIdeal.Chunks

end
-- ==== Proof.RefBounds.lean ====
/-
  The reference program's buffer contents at the nine cuts of its operation list: after the four scaled factors
  (RA), after each layer's four projections (RB, RC), after each contrastive block's negative scores (RD … RG), before the
  ranking loss's rectifier (RH), and at the return (RI). Each is the fold of one list of operations over the contents at the cut before; the last is the
  fold of the whole program over the launch contents, which is what its run ends at.
-/
import proofs.«103739_j26439818674747_2_alg».proof.Proof.RefChunks

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m' : (ℓ : Loc Cert.ReferenceIdeal.nD Cert.ReferenceIdeal.τ Cert.ReferenceIdeal.sig) → Buf (Elt F) ℓ)

/-- The reference's contents after the four perturbed and scaled factors. -/
def RA (c : Dev Cert.ReferenceIdeal.nD) : Valuation Cert.ReferenceIdeal.τ Cert.ReferenceIdeal.sig (Elt F) :=
  after cA (launchContents m' c)
/-- … after the first layer's four projections. -/
def RB (c : Dev Cert.ReferenceIdeal.nD) : Valuation Cert.ReferenceIdeal.τ Cert.ReferenceIdeal.sig (Elt F) := after cB (RA m' c)
/-- … after the second layer's four projections. -/
def RC (c : Dev Cert.ReferenceIdeal.nD) : Valuation Cert.ReferenceIdeal.τ Cert.ReferenceIdeal.sig (Elt F) := after cC (RB m' c)
/-- … after the first contrastive block's scores. -/
def RD (c : Dev Cert.ReferenceIdeal.nD) : Valuation Cert.ReferenceIdeal.τ Cert.ReferenceIdeal.sig (Elt F) := after cD (RC m' c)
/-- … after the second block's scores. -/
def RE (c : Dev Cert.ReferenceIdeal.nD) : Valuation Cert.ReferenceIdeal.τ Cert.ReferenceIdeal.sig (Elt F) := after cE (RD m' c)
/-- … after the third block's scores. -/
def RF (c : Dev Cert.ReferenceIdeal.nD) : Valuation Cert.ReferenceIdeal.τ Cert.ReferenceIdeal.sig (Elt F) := after cF (RE m' c)
/-- … after the fourth block's scores. -/
def RG (c : Dev Cert.ReferenceIdeal.nD) : Valuation Cert.ReferenceIdeal.τ Cert.ReferenceIdeal.sig (Elt F) := after cG (RF m' c)
/-- … after the fourth block's loss and the ranking scores, before the rectifier. -/
def RH (c : Dev Cert.ReferenceIdeal.nD) : Valuation Cert.ReferenceIdeal.τ Cert.ReferenceIdeal.sig (Elt F) := after cH (RG m' c)
/-- … at the return. -/
def RI (c : Dev Cert.ReferenceIdeal.nD) : Valuation Cert.ReferenceIdeal.τ Cert.ReferenceIdeal.sig (Elt F) := after cI (RH m' c)

theorem RA_def (c : Dev Cert.ReferenceIdeal.nD) : RA m' c = after cA (launchContents m' c) := rfl
theorem RB_def (c : Dev Cert.ReferenceIdeal.nD) : RB m' c = after cB (RA m' c) := rfl
theorem RC_def (c : Dev Cert.ReferenceIdeal.nD) : RC m' c = after cC (RB m' c) := rfl
theorem RD_def (c : Dev Cert.ReferenceIdeal.nD) : RD m' c = after cD (RC m' c) := rfl
theorem RE_def (c : Dev Cert.ReferenceIdeal.nD) : RE m' c = after cE (RD m' c) := rfl
theorem RF_def (c : Dev Cert.ReferenceIdeal.nD) : RF m' c = after cF (RE m' c) := rfl
theorem RG_def (c : Dev Cert.ReferenceIdeal.nD) : RG m' c = after cG (RF m' c) := rfl
theorem RH_def (c : Dev Cert.ReferenceIdeal.nD) : RH m' c = after cH (RG m' c) := rfl
theorem RI_def (c : Dev Cert.ReferenceIdeal.nD) : RI m' c = after cI (RH m' c) := rfl

/-- The contents at the return are the whole program's fold over the launch contents. -/
theorem RI_eq (c : Dev Cert.ReferenceIdeal.nD) : RI m' c = after allops (launchContents m' c) := by
  simp only [RI, RH, RG, RF, RE, RD, RC, RB, RA, allops, StableHlo.after_append]

end Cert.Sim

end
-- ==== Proof.SimBase.lean ====
/-
  The kernel's contents before the ranking loss's rectifier, under a name the simplifier does not open.
-/
import proofs.«103739_j26439818674747_2_alg».proof.Proof.FrameKI
import proofs.«103739_j26439818674747_2_alg».proof.Proof.RefBounds

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

/-- The fold after the last region and the first host stretch after it. -/
def KW27 : Valuation Cert.KernelIdeal.τ Cert.KernelIdeal.sig (Elt F) := Cert.KernelIdeal.GenP.W27 m ρ c
theorem KW27_eq : KW27 m ρ c = after Cert.KernelIdeal.Gen.hostOps10 (Cert.KernelIdeal.GenP.W26 m ρ c) := rfl
theorem W29_eq : Cert.KernelIdeal.GenP.W29 m ρ c = after Cert.KernelIdeal.Gen.hostOps10_2 (after Cert.KernelIdeal.Gen.hostOps10_1 (KW27 m ρ c)) := rfl

end Cert.Sim

end
-- ==== Proof.SimArgsK0.lean ====
/-
  No host operation and no region of the kernel's program writes an argument's buffer: at every boundary of the program
  each argument still holds its launch contents (arguments 0 to 7). A region reads an argument through an input window,
  whose array it leaves as it found it; a host stretch's operations each write their own result buffer only.
-/
import proofs.«103739_j26439818674747_2_alg».proof.Proof.SimBase

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem W2_arg0 : Cert.KernelIdeal.GenP.W2 m ρ c (Proc.devRef .tc Cert.KernelIdeal.main_arg0) = Cert.KernelIdeal.GenP.W0 m ρ c (Proc.devRef .tc Cert.KernelIdeal.main_arg0) := by
  rw [Cert.KernelIdeal.GenP.W2_of_ne m ρ c Cert.KernelIdeal.main_arg0 (by decide)]
  refine (StableHlo.after_of_forall_not_mem (b := Proc.devRef .tc Cert.KernelIdeal.main_arg0) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg0 : Cert.KernelIdeal.GenP.W4 m ρ c (Proc.devRef .tc Cert.KernelIdeal.main_arg0) = Cert.KernelIdeal.GenP.W0 m ρ c (Proc.devRef .tc Cert.KernelIdeal.main_arg0) := by
  rw [Cert.KernelIdeal.GenP.W4_of_ne m ρ c Cert.KernelIdeal.main_arg0 (by decide)]
  refine (StableHlo.after_of_forall_not_mem (b := Proc.devRef .tc Cert.KernelIdeal.main_arg0) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg0 m ρ c
theorem W10_arg0 : Cert.KernelIdeal.GenP.W10 m ρ c (Proc.devRef .tc Cert.KernelIdeal.main_arg0) = Cert.KernelIdeal.GenP.W0 m ρ c (Proc.devRef .tc Cert.KernelIdeal.main_arg0) := by
  rw [Cert.KernelIdeal.GenP.W10_of_ne m ρ c Cert.KernelIdeal.main_arg0 (by decide)]
  refine (StableHlo.after_of_forall_not_mem (b := Proc.devRef .tc Cert.KernelIdeal.main_arg0) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg0 m ρ c
theorem W11_arg0 : Cert.KernelIdeal.GenP.W11 m ρ c (Proc.devRef .tc Cert.KernelIdeal.main_arg0) = Cert.KernelIdeal.GenP.W0 m ρ c (Proc.devRef .tc Cert.KernelIdeal.main_arg0) := by
  rw [Cert.KernelIdeal.GenP.W11_of_ne m ρ c Cert.KernelIdeal.main_arg0 (by decide)]
  exact W10_arg0 m ρ c
theorem W17_arg0 : Cert.KernelIdeal.GenP.W17 m ρ c (Proc.devRef .tc Cert.KernelIdeal.main_arg0) = Cert.KernelIdeal.GenP.W0 m ρ c (Proc.devRef .tc Cert.KernelIdeal.main_arg0) := by
  rw [Cert.KernelIdeal.GenP.W17_of_ne m ρ c Cert.KernelIdeal.main_arg0 (by decide)]
  refine (StableHlo.after_of_forall_not_mem (b := Proc.devRef .tc Cert.KernelIdeal.main_arg0) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg0 m ρ c
theorem W18_arg0 : Cert.KernelIdeal.GenP.W18 m ρ c (Proc.devRef .tc Cert.KernelIdeal.main_arg0) = Cert.KernelIdeal.GenP.W0 m ρ c (Proc.devRef .tc Cert.KernelIdeal.main_arg0) := by
  rw [Cert.KernelIdeal.GenP.W18_of_ne m ρ c Cert.KernelIdeal.main_arg0 (by decide)]
  exact W17_arg0 m ρ c
theorem W20_arg0 : Cert.KernelIdeal.GenP.W20 m ρ c (Proc.devRef .tc Cert.KernelIdeal.main_arg0) = Cert.KernelIdeal.GenP.W0 m ρ c (Proc.devRef .tc Cert.KernelIdeal.main_arg0) := by
  rw [Cert.KernelIdeal.GenP.W20_of_ne m ρ c Cert.KernelIdeal.main_arg0 (by decide)]
  refine (StableHlo.after_of_forall_not_mem (b := Proc.devRef .tc Cert.KernelIdeal.main_arg0) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg0 m ρ c
theorem W22_arg0 : Cert.KernelIdeal.GenP.W22 m ρ c (Proc.devRef .tc Cert.KernelIdeal.main_arg0) = Cert.KernelIdeal.GenP.W0 m ρ c (Proc.devRef .tc Cert.KernelIdeal.main_arg0) := by
  rw [Cert.KernelIdeal.GenP.W22_of_ne m ρ c Cert.KernelIdeal.main_arg0 (by decide)]
  refine (StableHlo.after_of_forall_not_mem (b := Proc.devRef .tc Cert.KernelIdeal.main_arg0) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg0 m ρ c
theorem W24_arg0 : Cert.KernelIdeal.GenP.W24 m ρ c (Proc.devRef .tc Cert.KernelIdeal.main_arg0) = Cert.KernelIdeal.GenP.W0 m ρ c (Proc.devRef .tc Cert.KernelIdeal.main_arg0) := by
  rw [Cert.KernelIdeal.GenP.W24_of_ne m ρ c Cert.KernelIdeal.main_arg0 (by decide)]
  refine (StableHlo.after_of_forall_not_mem (b := Proc.devRef .tc Cert.KernelIdeal.main_arg0) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg0 m ρ c
theorem W26_arg0 : Cert.KernelIdeal.GenP.W26 m ρ c (Proc.devRef .tc Cert.KernelIdeal.main_arg0) = Cert.KernelIdeal.GenP.W0 m ρ c (Proc.devRef .tc Cert.KernelIdeal.main_arg0) := by
  rw [Cert.KernelIdeal.GenP.W26_of_ne m ρ c Cert.KernelIdeal.main_arg0 (by decide)]
  refine (StableHlo.after_of_forall_not_mem (b := Proc.devRef .tc Cert.KernelIdeal.main_arg0) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg0 m ρ c
theorem KW27_arg0 : Cert.Sim.KW27 m ρ c (Proc.devRef .tc Cert.KernelIdeal.main_arg0) = Cert.KernelIdeal.GenP.W0 m ρ c (Proc.devRef .tc Cert.KernelIdeal.main_arg0) := by
  rw [KW27_eq m ρ c]
  refine (StableHlo.after_of_forall_not_mem (b := Proc.devRef .tc Cert.KernelIdeal.main_arg0) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg0 m ρ c
theorem W29_arg0 : Cert.KernelIdeal.GenP.W29 m ρ c (Proc.devRef .tc Cert.KernelIdeal.main_arg0) = Cert.KernelIdeal.GenP.W0 m ρ c (Proc.devRef .tc Cert.KernelIdeal.main_arg0) := by
  rw [W29_eq m ρ c]
  refine (StableHlo.after_of_forall_not_mem (b := Proc.devRef .tc Cert.KernelIdeal.main_arg0) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg0) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg0 m ρ c
/-- The launch contents at this argument, as the launch memory: read off the generated frame's fact at the return. -/
theorem W0m_arg0 : Cert.KernelIdeal.GenP.W0 m ρ c (Proc.devRef .tc Cert.KernelIdeal.main_arg0) = m ((c.tc : Thread Cert.KernelIdeal.nD Cert.KernelIdeal.τ).loc Cert.KernelIdeal.main_arg0) := (W29_arg0 m ρ c).symm.trans (Cert.KernelIdeal.GenP.W29_main_arg0 m ρ c)

theorem W2_arg1 : Cert.KernelIdeal.GenP.W2 m ρ c (Proc.devRef .tc Cert.KernelIdeal.main_arg1) = Cert.KernelIdeal.GenP.W0 m ρ c (Proc.devRef .tc Cert.KernelIdeal.main_arg1) := by
  rw [Cert.KernelIdeal.GenP.W2_of_ne m ρ c Cert.KernelIdeal.main_arg1 (by decide)]
  refine (StableHlo.after_of_forall_not_mem (b := Proc.devRef .tc Cert.KernelIdeal.main_arg1) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg1 : Cert.KernelIdeal.GenP.W4 m ρ c (Proc.devRef .tc Cert.KernelIdeal.main_arg1) = Cert.KernelIdeal.GenP.W0 m ρ c (Proc.devRef .tc Cert.KernelIdeal.main_arg1) := by
  rw [Cert.KernelIdeal.GenP.W4_of_ne m ρ c Cert.KernelIdeal.main_arg1 (by decide)]
  refine (StableHlo.after_of_forall_not_mem (b := Proc.devRef .tc Cert.KernelIdeal.main_arg1) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg1 m ρ c
theorem W10_arg1 : Cert.KernelIdeal.GenP.W10 m ρ c (Proc.devRef .tc Cert.KernelIdeal.main_arg1) = Cert.KernelIdeal.GenP.W0 m ρ c (Proc.devRef .tc Cert.KernelIdeal.main_arg1) := by
  rw [Cert.KernelIdeal.GenP.W10_of_ne m ρ c Cert.KernelIdeal.main_arg1 (by decide)]
  refine (StableHlo.after_of_forall_not_mem (b := Proc.devRef .tc Cert.KernelIdeal.main_arg1) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg1 m ρ c
theorem W11_arg1 : Cert.KernelIdeal.GenP.W11 m ρ c (Proc.devRef .tc Cert.KernelIdeal.main_arg1) = Cert.KernelIdeal.GenP.W0 m ρ c (Proc.devRef .tc Cert.KernelIdeal.main_arg1) := by
  rw [Cert.KernelIdeal.GenP.W11_of_ne m ρ c Cert.KernelIdeal.main_arg1 (by decide)]
  exact W10_arg1 m ρ c
theorem W17_arg1 : Cert.KernelIdeal.GenP.W17 m ρ c (Proc.devRef .tc Cert.KernelIdeal.main_arg1) = Cert.KernelIdeal.GenP.W0 m ρ c (Proc.devRef .tc Cert.KernelIdeal.main_arg1) := by
  rw [Cert.KernelIdeal.GenP.W17_of_ne m ρ c Cert.KernelIdeal.main_arg1 (by decide)]
  refine (StableHlo.after_of_forall_not_mem (b := Proc.devRef .tc Cert.KernelIdeal.main_arg1) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg1 m ρ c
theorem W18_arg1 : Cert.KernelIdeal.GenP.W18 m ρ c (Proc.devRef .tc Cert.KernelIdeal.main_arg1) = Cert.KernelIdeal.GenP.W0 m ρ c (Proc.devRef .tc Cert.KernelIdeal.main_arg1) := by
  rw [Cert.KernelIdeal.GenP.W18_of_ne m ρ c Cert.KernelIdeal.main_arg1 (by decide)]
  exact W17_arg1 m ρ c
theorem W20_arg1 : Cert.KernelIdeal.GenP.W20 m ρ c (Proc.devRef .tc Cert.KernelIdeal.main_arg1) = Cert.KernelIdeal.GenP.W0 m ρ c (Proc.devRef .tc Cert.KernelIdeal.main_arg1) := by
  rw [Cert.KernelIdeal.GenP.W20_of_ne m ρ c Cert.KernelIdeal.main_arg1 (by decide)]
  refine (StableHlo.after_of_forall_not_mem (b := Proc.devRef .tc Cert.KernelIdeal.main_arg1) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg1 m ρ c
theorem W22_arg1 : Cert.KernelIdeal.GenP.W22 m ρ c (Proc.devRef .tc Cert.KernelIdeal.main_arg1) = Cert.KernelIdeal.GenP.W0 m ρ c (Proc.devRef .tc Cert.KernelIdeal.main_arg1) := by
  rw [Cert.KernelIdeal.GenP.W22_of_ne m ρ c Cert.KernelIdeal.main_arg1 (by decide)]
  refine (StableHlo.after_of_forall_not_mem (b := Proc.devRef .tc Cert.KernelIdeal.main_arg1) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg1 m ρ c
theorem W24_arg1 : Cert.KernelIdeal.GenP.W24 m ρ c (Proc.devRef .tc Cert.KernelIdeal.main_arg1) = Cert.KernelIdeal.GenP.W0 m ρ c (Proc.devRef .tc Cert.KernelIdeal.main_arg1) := by
  rw [Cert.KernelIdeal.GenP.W24_of_ne m ρ c Cert.KernelIdeal.main_arg1 (by decide)]
  refine (StableHlo.after_of_forall_not_mem (b := Proc.devRef .tc Cert.KernelIdeal.main_arg1) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg1 m ρ c
theorem W26_arg1 : Cert.KernelIdeal.GenP.W26 m ρ c (Proc.devRef .tc Cert.KernelIdeal.main_arg1) = Cert.KernelIdeal.GenP.W0 m ρ c (Proc.devRef .tc Cert.KernelIdeal.main_arg1) := by
  rw [Cert.KernelIdeal.GenP.W26_of_ne m ρ c Cert.KernelIdeal.main_arg1 (by decide)]
  refine (StableHlo.after_of_forall_not_mem (b := Proc.devRef .tc Cert.KernelIdeal.main_arg1) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg1 m ρ c
theorem KW27_arg1 : Cert.Sim.KW27 m ρ c (Proc.devRef .tc Cert.KernelIdeal.main_arg1) = Cert.KernelIdeal.GenP.W0 m ρ c (Proc.devRef .tc Cert.KernelIdeal.main_arg1) := by
  rw [KW27_eq m ρ c]
  refine (StableHlo.after_of_forall_not_mem (b := Proc.devRef .tc Cert.KernelIdeal.main_arg1) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg1 m ρ c
theorem W29_arg1 : Cert.KernelIdeal.GenP.W29 m ρ c (Proc.devRef .tc Cert.KernelIdeal.main_arg1) = Cert.KernelIdeal.GenP.W0 m ρ c (Proc.devRef .tc Cert.KernelIdeal.main_arg1) := by
  rw [W29_eq m ρ c]
  refine (StableHlo.after_of_forall_not_mem (b := Proc.devRef .tc Cert.KernelIdeal.main_arg1) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg1) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg1 m ρ c
/-- The launch contents at this argument, as the launch memory: read off the generated frame's fact at the return. -/
theorem W0m_arg1 : Cert.KernelIdeal.GenP.W0 m ρ c (Proc.devRef .tc Cert.KernelIdeal.main_arg1) = m ((c.tc : Thread Cert.KernelIdeal.nD Cert.KernelIdeal.τ).loc Cert.KernelIdeal.main_arg1) := (W29_arg1 m ρ c).symm.trans (Cert.KernelIdeal.GenP.W29_main_arg1 m ρ c)

theorem W2_arg2 : Cert.KernelIdeal.GenP.W2 m ρ c (Proc.devRef .tc Cert.KernelIdeal.main_arg2) = Cert.KernelIdeal.GenP.W0 m ρ c (Proc.devRef .tc Cert.KernelIdeal.main_arg2) := by
  refine (Cert.KernelIdeal.GenP.W2_arr m ρ c 0).trans ?_
  refine ((Cert.KernelIdeal.GenP.dat0 (Cert.KernelIdeal.GenP.V1 m ρ) c).arrAt_in 0 rfl _).trans ?_
  refine (Cert.KernelIdeal.GenP.A_eq0 (Cert.KernelIdeal.GenP.V1 m ρ) c 0).trans ?_
  show Cert.KernelIdeal.GenP.W1 m ρ c (Proc.devRef .tc Cert.KernelIdeal.main_arg2) = _
  refine (StableHlo.after_of_forall_not_mem (b := Proc.devRef .tc Cert.KernelIdeal.main_arg2) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg2 : Cert.KernelIdeal.GenP.W4 m ρ c (Proc.devRef .tc Cert.KernelIdeal.main_arg2) = Cert.KernelIdeal.GenP.W0 m ρ c (Proc.devRef .tc Cert.KernelIdeal.main_arg2) := by
  rw [Cert.KernelIdeal.GenP.W4_of_ne m ρ c Cert.KernelIdeal.main_arg2 (by decide)]
  refine (StableHlo.after_of_forall_not_mem (b := Proc.devRef .tc Cert.KernelIdeal.main_arg2) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg2 m ρ c
theorem W10_arg2 : Cert.KernelIdeal.GenP.W10 m ρ c (Proc.devRef .tc Cert.KernelIdeal.main_arg2) = Cert.KernelIdeal.GenP.W0 m ρ c (Proc.devRef .tc Cert.KernelIdeal.main_arg2) := by
  rw [Cert.KernelIdeal.GenP.W10_of_ne m ρ c Cert.KernelIdeal.main_arg2 (by decide)]
  refine (StableHlo.after_of_forall_not_mem (b := Proc.devRef .tc Cert.KernelIdeal.main_arg2) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg2 m ρ c
theorem W11_arg2 : Cert.KernelIdeal.GenP.W11 m ρ c (Proc.devRef .tc Cert.KernelIdeal.main_arg2) = Cert.KernelIdeal.GenP.W0 m ρ c (Proc.devRef .tc Cert.KernelIdeal.main_arg2) := by
  rw [Cert.KernelIdeal.GenP.W11_of_ne m ρ c Cert.KernelIdeal.main_arg2 (by decide)]
  exact W10_arg2 m ρ c
theorem W17_arg2 : Cert.KernelIdeal.GenP.W17 m ρ c (Proc.devRef .tc Cert.KernelIdeal.main_arg2) = Cert.KernelIdeal.GenP.W0 m ρ c (Proc.devRef .tc Cert.KernelIdeal.main_arg2) := by
  rw [Cert.KernelIdeal.GenP.W17_of_ne m ρ c Cert.KernelIdeal.main_arg2 (by decide)]
  refine (StableHlo.after_of_forall_not_mem (b := Proc.devRef .tc Cert.KernelIdeal.main_arg2) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg2 m ρ c
theorem W18_arg2 : Cert.KernelIdeal.GenP.W18 m ρ c (Proc.devRef .tc Cert.KernelIdeal.main_arg2) = Cert.KernelIdeal.GenP.W0 m ρ c (Proc.devRef .tc Cert.KernelIdeal.main_arg2) := by
  rw [Cert.KernelIdeal.GenP.W18_of_ne m ρ c Cert.KernelIdeal.main_arg2 (by decide)]
  exact W17_arg2 m ρ c
theorem W20_arg2 : Cert.KernelIdeal.GenP.W20 m ρ c (Proc.devRef .tc Cert.KernelIdeal.main_arg2) = Cert.KernelIdeal.GenP.W0 m ρ c (Proc.devRef .tc Cert.KernelIdeal.main_arg2) := by
  rw [Cert.KernelIdeal.GenP.W20_of_ne m ρ c Cert.KernelIdeal.main_arg2 (by decide)]
  refine (StableHlo.after_of_forall_not_mem (b := Proc.devRef .tc Cert.KernelIdeal.main_arg2) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg2 m ρ c
theorem W22_arg2 : Cert.KernelIdeal.GenP.W22 m ρ c (Proc.devRef .tc Cert.KernelIdeal.main_arg2) = Cert.KernelIdeal.GenP.W0 m ρ c (Proc.devRef .tc Cert.KernelIdeal.main_arg2) := by
  rw [Cert.KernelIdeal.GenP.W22_of_ne m ρ c Cert.KernelIdeal.main_arg2 (by decide)]
  refine (StableHlo.after_of_forall_not_mem (b := Proc.devRef .tc Cert.KernelIdeal.main_arg2) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg2 m ρ c
theorem W24_arg2 : Cert.KernelIdeal.GenP.W24 m ρ c (Proc.devRef .tc Cert.KernelIdeal.main_arg2) = Cert.KernelIdeal.GenP.W0 m ρ c (Proc.devRef .tc Cert.KernelIdeal.main_arg2) := by
  rw [Cert.KernelIdeal.GenP.W24_of_ne m ρ c Cert.KernelIdeal.main_arg2 (by decide)]
  refine (StableHlo.after_of_forall_not_mem (b := Proc.devRef .tc Cert.KernelIdeal.main_arg2) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg2 m ρ c
theorem W26_arg2 : Cert.KernelIdeal.GenP.W26 m ρ c (Proc.devRef .tc Cert.KernelIdeal.main_arg2) = Cert.KernelIdeal.GenP.W0 m ρ c (Proc.devRef .tc Cert.KernelIdeal.main_arg2) := by
  rw [Cert.KernelIdeal.GenP.W26_of_ne m ρ c Cert.KernelIdeal.main_arg2 (by decide)]
  refine (StableHlo.after_of_forall_not_mem (b := Proc.devRef .tc Cert.KernelIdeal.main_arg2) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg2 m ρ c
theorem KW27_arg2 : Cert.Sim.KW27 m ρ c (Proc.devRef .tc Cert.KernelIdeal.main_arg2) = Cert.KernelIdeal.GenP.W0 m ρ c (Proc.devRef .tc Cert.KernelIdeal.main_arg2) := by
  rw [KW27_eq m ρ c]
  refine (StableHlo.after_of_forall_not_mem (b := Proc.devRef .tc Cert.KernelIdeal.main_arg2) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg2 m ρ c
theorem W29_arg2 : Cert.KernelIdeal.GenP.W29 m ρ c (Proc.devRef .tc Cert.KernelIdeal.main_arg2) = Cert.KernelIdeal.GenP.W0 m ρ c (Proc.devRef .tc Cert.KernelIdeal.main_arg2) := by
  rw [W29_eq m ρ c]
  refine (StableHlo.after_of_forall_not_mem (b := Proc.devRef .tc Cert.KernelIdeal.main_arg2) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg2) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg2 m ρ c
/-- The launch contents at this argument, as the launch memory: read off the generated frame's fact at the return. -/
theorem W0m_arg2 : Cert.KernelIdeal.GenP.W0 m ρ c (Proc.devRef .tc Cert.KernelIdeal.main_arg2) = m ((c.tc : Thread Cert.KernelIdeal.nD Cert.KernelIdeal.τ).loc Cert.KernelIdeal.main_arg2) := (W29_arg2 m ρ c).symm.trans (Cert.KernelIdeal.GenP.W29_main_arg2 m ρ c)

theorem W2_arg3 : Cert.KernelIdeal.GenP.W2 m ρ c (Proc.devRef .tc Cert.KernelIdeal.main_arg3) = Cert.KernelIdeal.GenP.W0 m ρ c (Proc.devRef .tc Cert.KernelIdeal.main_arg3) := by
  rw [Cert.KernelIdeal.GenP.W2_of_ne m ρ c Cert.KernelIdeal.main_arg3 (by decide)]
  refine (StableHlo.after_of_forall_not_mem (b := Proc.devRef .tc Cert.KernelIdeal.main_arg3) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg3 : Cert.KernelIdeal.GenP.W4 m ρ c (Proc.devRef .tc Cert.KernelIdeal.main_arg3) = Cert.KernelIdeal.GenP.W0 m ρ c (Proc.devRef .tc Cert.KernelIdeal.main_arg3) := by
  refine (Cert.KernelIdeal.GenP.W4_arr m ρ c 0).trans ?_
  refine ((Cert.KernelIdeal.GenP.dat1 (Cert.KernelIdeal.GenP.V3 m ρ) c).arrAt_in 0 rfl _).trans ?_
  refine (Cert.KernelIdeal.GenP.A_eq1 (Cert.KernelIdeal.GenP.V3 m ρ) c 0).trans ?_
  show Cert.KernelIdeal.GenP.W3 m ρ c (Proc.devRef .tc Cert.KernelIdeal.main_arg3) = _
  refine (StableHlo.after_of_forall_not_mem (b := Proc.devRef .tc Cert.KernelIdeal.main_arg3) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg3 m ρ c
theorem W10_arg3 : Cert.KernelIdeal.GenP.W10 m ρ c (Proc.devRef .tc Cert.KernelIdeal.main_arg3) = Cert.KernelIdeal.GenP.W0 m ρ c (Proc.devRef .tc Cert.KernelIdeal.main_arg3) := by
  rw [Cert.KernelIdeal.GenP.W10_of_ne m ρ c Cert.KernelIdeal.main_arg3 (by decide)]
  refine (StableHlo.after_of_forall_not_mem (b := Proc.devRef .tc Cert.KernelIdeal.main_arg3) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg3 m ρ c
theorem W11_arg3 : Cert.KernelIdeal.GenP.W11 m ρ c (Proc.devRef .tc Cert.KernelIdeal.main_arg3) = Cert.KernelIdeal.GenP.W0 m ρ c (Proc.devRef .tc Cert.KernelIdeal.main_arg3) := by
  rw [Cert.KernelIdeal.GenP.W11_of_ne m ρ c Cert.KernelIdeal.main_arg3 (by decide)]
  exact W10_arg3 m ρ c
theorem W17_arg3 : Cert.KernelIdeal.GenP.W17 m ρ c (Proc.devRef .tc Cert.KernelIdeal.main_arg3) = Cert.KernelIdeal.GenP.W0 m ρ c (Proc.devRef .tc Cert.KernelIdeal.main_arg3) := by
  rw [Cert.KernelIdeal.GenP.W17_of_ne m ρ c Cert.KernelIdeal.main_arg3 (by decide)]
  refine (StableHlo.after_of_forall_not_mem (b := Proc.devRef .tc Cert.KernelIdeal.main_arg3) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg3 m ρ c
theorem W18_arg3 : Cert.KernelIdeal.GenP.W18 m ρ c (Proc.devRef .tc Cert.KernelIdeal.main_arg3) = Cert.KernelIdeal.GenP.W0 m ρ c (Proc.devRef .tc Cert.KernelIdeal.main_arg3) := by
  rw [Cert.KernelIdeal.GenP.W18_of_ne m ρ c Cert.KernelIdeal.main_arg3 (by decide)]
  exact W17_arg3 m ρ c
theorem W20_arg3 : Cert.KernelIdeal.GenP.W20 m ρ c (Proc.devRef .tc Cert.KernelIdeal.main_arg3) = Cert.KernelIdeal.GenP.W0 m ρ c (Proc.devRef .tc Cert.KernelIdeal.main_arg3) := by
  rw [Cert.KernelIdeal.GenP.W20_of_ne m ρ c Cert.KernelIdeal.main_arg3 (by decide)]
  refine (StableHlo.after_of_forall_not_mem (b := Proc.devRef .tc Cert.KernelIdeal.main_arg3) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg3 m ρ c
theorem W22_arg3 : Cert.KernelIdeal.GenP.W22 m ρ c (Proc.devRef .tc Cert.KernelIdeal.main_arg3) = Cert.KernelIdeal.GenP.W0 m ρ c (Proc.devRef .tc Cert.KernelIdeal.main_arg3) := by
  rw [Cert.KernelIdeal.GenP.W22_of_ne m ρ c Cert.KernelIdeal.main_arg3 (by decide)]
  refine (StableHlo.after_of_forall_not_mem (b := Proc.devRef .tc Cert.KernelIdeal.main_arg3) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg3 m ρ c
theorem W24_arg3 : Cert.KernelIdeal.GenP.W24 m ρ c (Proc.devRef .tc Cert.KernelIdeal.main_arg3) = Cert.KernelIdeal.GenP.W0 m ρ c (Proc.devRef .tc Cert.KernelIdeal.main_arg3) := by
  rw [Cert.KernelIdeal.GenP.W24_of_ne m ρ c Cert.KernelIdeal.main_arg3 (by decide)]
  refine (StableHlo.after_of_forall_not_mem (b := Proc.devRef .tc Cert.KernelIdeal.main_arg3) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg3 m ρ c
theorem W26_arg3 : Cert.KernelIdeal.GenP.W26 m ρ c (Proc.devRef .tc Cert.KernelIdeal.main_arg3) = Cert.KernelIdeal.GenP.W0 m ρ c (Proc.devRef .tc Cert.KernelIdeal.main_arg3) := by
  rw [Cert.KernelIdeal.GenP.W26_of_ne m ρ c Cert.KernelIdeal.main_arg3 (by decide)]
  refine (StableHlo.after_of_forall_not_mem (b := Proc.devRef .tc Cert.KernelIdeal.main_arg3) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg3 m ρ c
theorem KW27_arg3 : Cert.Sim.KW27 m ρ c (Proc.devRef .tc Cert.KernelIdeal.main_arg3) = Cert.KernelIdeal.GenP.W0 m ρ c (Proc.devRef .tc Cert.KernelIdeal.main_arg3) := by
  rw [KW27_eq m ρ c]
  refine (StableHlo.after_of_forall_not_mem (b := Proc.devRef .tc Cert.KernelIdeal.main_arg3) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg3 m ρ c
theorem W29_arg3 : Cert.KernelIdeal.GenP.W29 m ρ c (Proc.devRef .tc Cert.KernelIdeal.main_arg3) = Cert.KernelIdeal.GenP.W0 m ρ c (Proc.devRef .tc Cert.KernelIdeal.main_arg3) := by
  rw [W29_eq m ρ c]
  refine (StableHlo.after_of_forall_not_mem (b := Proc.devRef .tc Cert.KernelIdeal.main_arg3) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg3) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg3 m ρ c
/-- The launch contents at this argument, as the launch memory: read off the generated frame's fact at the return. -/
theorem W0m_arg3 : Cert.KernelIdeal.GenP.W0 m ρ c (Proc.devRef .tc Cert.KernelIdeal.main_arg3) = m ((c.tc : Thread Cert.KernelIdeal.nD Cert.KernelIdeal.τ).loc Cert.KernelIdeal.main_arg3) := (W29_arg3 m ρ c).symm.trans (Cert.KernelIdeal.GenP.W29_main_arg3 m ρ c)

theorem W2_arg4 : Cert.KernelIdeal.GenP.W2 m ρ c (Proc.devRef .tc Cert.KernelIdeal.main_arg4) = Cert.KernelIdeal.GenP.W0 m ρ c (Proc.devRef .tc Cert.KernelIdeal.main_arg4) := by
  rw [Cert.KernelIdeal.GenP.W2_of_ne m ρ c Cert.KernelIdeal.main_arg4 (by decide)]
  refine (StableHlo.after_of_forall_not_mem (b := Proc.devRef .tc Cert.KernelIdeal.main_arg4) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg4 : Cert.KernelIdeal.GenP.W4 m ρ c (Proc.devRef .tc Cert.KernelIdeal.main_arg4) = Cert.KernelIdeal.GenP.W0 m ρ c (Proc.devRef .tc Cert.KernelIdeal.main_arg4) := by
  rw [Cert.KernelIdeal.GenP.W4_of_ne m ρ c Cert.KernelIdeal.main_arg4 (by decide)]
  refine (StableHlo.after_of_forall_not_mem (b := Proc.devRef .tc Cert.KernelIdeal.main_arg4) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg4 m ρ c
theorem W10_arg4 : Cert.KernelIdeal.GenP.W10 m ρ c (Proc.devRef .tc Cert.KernelIdeal.main_arg4) = Cert.KernelIdeal.GenP.W0 m ρ c (Proc.devRef .tc Cert.KernelIdeal.main_arg4) := by
  rw [Cert.KernelIdeal.GenP.W10_of_ne m ρ c Cert.KernelIdeal.main_arg4 (by decide)]
  refine (StableHlo.after_of_forall_not_mem (b := Proc.devRef .tc Cert.KernelIdeal.main_arg4) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg4 m ρ c
theorem W11_arg4 : Cert.KernelIdeal.GenP.W11 m ρ c (Proc.devRef .tc Cert.KernelIdeal.main_arg4) = Cert.KernelIdeal.GenP.W0 m ρ c (Proc.devRef .tc Cert.KernelIdeal.main_arg4) := by
  rw [Cert.KernelIdeal.GenP.W11_of_ne m ρ c Cert.KernelIdeal.main_arg4 (by decide)]
  exact W10_arg4 m ρ c
theorem W17_arg4 : Cert.KernelIdeal.GenP.W17 m ρ c (Proc.devRef .tc Cert.KernelIdeal.main_arg4) = Cert.KernelIdeal.GenP.W0 m ρ c (Proc.devRef .tc Cert.KernelIdeal.main_arg4) := by
  rw [Cert.KernelIdeal.GenP.W17_of_ne m ρ c Cert.KernelIdeal.main_arg4 (by decide)]
  refine (StableHlo.after_of_forall_not_mem (b := Proc.devRef .tc Cert.KernelIdeal.main_arg4) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg4 m ρ c
theorem W18_arg4 : Cert.KernelIdeal.GenP.W18 m ρ c (Proc.devRef .tc Cert.KernelIdeal.main_arg4) = Cert.KernelIdeal.GenP.W0 m ρ c (Proc.devRef .tc Cert.KernelIdeal.main_arg4) := by
  rw [Cert.KernelIdeal.GenP.W18_of_ne m ρ c Cert.KernelIdeal.main_arg4 (by decide)]
  exact W17_arg4 m ρ c
theorem W20_arg4 : Cert.KernelIdeal.GenP.W20 m ρ c (Proc.devRef .tc Cert.KernelIdeal.main_arg4) = Cert.KernelIdeal.GenP.W0 m ρ c (Proc.devRef .tc Cert.KernelIdeal.main_arg4) := by
  rw [Cert.KernelIdeal.GenP.W20_of_ne m ρ c Cert.KernelIdeal.main_arg4 (by decide)]
  refine (StableHlo.after_of_forall_not_mem (b := Proc.devRef .tc Cert.KernelIdeal.main_arg4) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg4 m ρ c
theorem W22_arg4 : Cert.KernelIdeal.GenP.W22 m ρ c (Proc.devRef .tc Cert.KernelIdeal.main_arg4) = Cert.KernelIdeal.GenP.W0 m ρ c (Proc.devRef .tc Cert.KernelIdeal.main_arg4) := by
  rw [Cert.KernelIdeal.GenP.W22_of_ne m ρ c Cert.KernelIdeal.main_arg4 (by decide)]
  refine (StableHlo.after_of_forall_not_mem (b := Proc.devRef .tc Cert.KernelIdeal.main_arg4) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg4 m ρ c
theorem W24_arg4 : Cert.KernelIdeal.GenP.W24 m ρ c (Proc.devRef .tc Cert.KernelIdeal.main_arg4) = Cert.KernelIdeal.GenP.W0 m ρ c (Proc.devRef .tc Cert.KernelIdeal.main_arg4) := by
  rw [Cert.KernelIdeal.GenP.W24_of_ne m ρ c Cert.KernelIdeal.main_arg4 (by decide)]
  refine (StableHlo.after_of_forall_not_mem (b := Proc.devRef .tc Cert.KernelIdeal.main_arg4) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg4 m ρ c
theorem W26_arg4 : Cert.KernelIdeal.GenP.W26 m ρ c (Proc.devRef .tc Cert.KernelIdeal.main_arg4) = Cert.KernelIdeal.GenP.W0 m ρ c (Proc.devRef .tc Cert.KernelIdeal.main_arg4) := by
  rw [Cert.KernelIdeal.GenP.W26_of_ne m ρ c Cert.KernelIdeal.main_arg4 (by decide)]
  refine (StableHlo.after_of_forall_not_mem (b := Proc.devRef .tc Cert.KernelIdeal.main_arg4) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg4 m ρ c
theorem KW27_arg4 : Cert.Sim.KW27 m ρ c (Proc.devRef .tc Cert.KernelIdeal.main_arg4) = Cert.KernelIdeal.GenP.W0 m ρ c (Proc.devRef .tc Cert.KernelIdeal.main_arg4) := by
  rw [KW27_eq m ρ c]
  refine (StableHlo.after_of_forall_not_mem (b := Proc.devRef .tc Cert.KernelIdeal.main_arg4) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg4 m ρ c
theorem W29_arg4 : Cert.KernelIdeal.GenP.W29 m ρ c (Proc.devRef .tc Cert.KernelIdeal.main_arg4) = Cert.KernelIdeal.GenP.W0 m ρ c (Proc.devRef .tc Cert.KernelIdeal.main_arg4) := by
  rw [W29_eq m ρ c]
  refine (StableHlo.after_of_forall_not_mem (b := Proc.devRef .tc Cert.KernelIdeal.main_arg4) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg4) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg4 m ρ c
/-- The launch contents at this argument, as the launch memory: read off the generated frame's fact at the return. -/
theorem W0m_arg4 : Cert.KernelIdeal.GenP.W0 m ρ c (Proc.devRef .tc Cert.KernelIdeal.main_arg4) = m ((c.tc : Thread Cert.KernelIdeal.nD Cert.KernelIdeal.τ).loc Cert.KernelIdeal.main_arg4) := (W29_arg4 m ρ c).symm.trans (Cert.KernelIdeal.GenP.W29_main_arg4 m ρ c)

theorem W2_arg5 : Cert.KernelIdeal.GenP.W2 m ρ c (Proc.devRef .tc Cert.KernelIdeal.main_arg5) = Cert.KernelIdeal.GenP.W0 m ρ c (Proc.devRef .tc Cert.KernelIdeal.main_arg5) := by
  rw [Cert.KernelIdeal.GenP.W2_of_ne m ρ c Cert.KernelIdeal.main_arg5 (by decide)]
  refine (StableHlo.after_of_forall_not_mem (b := Proc.devRef .tc Cert.KernelIdeal.main_arg5) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg5 : Cert.KernelIdeal.GenP.W4 m ρ c (Proc.devRef .tc Cert.KernelIdeal.main_arg5) = Cert.KernelIdeal.GenP.W0 m ρ c (Proc.devRef .tc Cert.KernelIdeal.main_arg5) := by
  rw [Cert.KernelIdeal.GenP.W4_of_ne m ρ c Cert.KernelIdeal.main_arg5 (by decide)]
  refine (StableHlo.after_of_forall_not_mem (b := Proc.devRef .tc Cert.KernelIdeal.main_arg5) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg5 m ρ c
theorem W10_arg5 : Cert.KernelIdeal.GenP.W10 m ρ c (Proc.devRef .tc Cert.KernelIdeal.main_arg5) = Cert.KernelIdeal.GenP.W0 m ρ c (Proc.devRef .tc Cert.KernelIdeal.main_arg5) := by
  rw [Cert.KernelIdeal.GenP.W10_of_ne m ρ c Cert.KernelIdeal.main_arg5 (by decide)]
  refine (StableHlo.after_of_forall_not_mem (b := Proc.devRef .tc Cert.KernelIdeal.main_arg5) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg5 m ρ c
theorem W11_arg5 : Cert.KernelIdeal.GenP.W11 m ρ c (Proc.devRef .tc Cert.KernelIdeal.main_arg5) = Cert.KernelIdeal.GenP.W0 m ρ c (Proc.devRef .tc Cert.KernelIdeal.main_arg5) := by
  rw [Cert.KernelIdeal.GenP.W11_of_ne m ρ c Cert.KernelIdeal.main_arg5 (by decide)]
  exact W10_arg5 m ρ c
theorem W17_arg5 : Cert.KernelIdeal.GenP.W17 m ρ c (Proc.devRef .tc Cert.KernelIdeal.main_arg5) = Cert.KernelIdeal.GenP.W0 m ρ c (Proc.devRef .tc Cert.KernelIdeal.main_arg5) := by
  rw [Cert.KernelIdeal.GenP.W17_of_ne m ρ c Cert.KernelIdeal.main_arg5 (by decide)]
  refine (StableHlo.after_of_forall_not_mem (b := Proc.devRef .tc Cert.KernelIdeal.main_arg5) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg5 m ρ c
theorem W18_arg5 : Cert.KernelIdeal.GenP.W18 m ρ c (Proc.devRef .tc Cert.KernelIdeal.main_arg5) = Cert.KernelIdeal.GenP.W0 m ρ c (Proc.devRef .tc Cert.KernelIdeal.main_arg5) := by
  rw [Cert.KernelIdeal.GenP.W18_of_ne m ρ c Cert.KernelIdeal.main_arg5 (by decide)]
  exact W17_arg5 m ρ c
theorem W20_arg5 : Cert.KernelIdeal.GenP.W20 m ρ c (Proc.devRef .tc Cert.KernelIdeal.main_arg5) = Cert.KernelIdeal.GenP.W0 m ρ c (Proc.devRef .tc Cert.KernelIdeal.main_arg5) := by
  rw [Cert.KernelIdeal.GenP.W20_of_ne m ρ c Cert.KernelIdeal.main_arg5 (by decide)]
  refine (StableHlo.after_of_forall_not_mem (b := Proc.devRef .tc Cert.KernelIdeal.main_arg5) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg5 m ρ c
theorem W22_arg5 : Cert.KernelIdeal.GenP.W22 m ρ c (Proc.devRef .tc Cert.KernelIdeal.main_arg5) = Cert.KernelIdeal.GenP.W0 m ρ c (Proc.devRef .tc Cert.KernelIdeal.main_arg5) := by
  rw [Cert.KernelIdeal.GenP.W22_of_ne m ρ c Cert.KernelIdeal.main_arg5 (by decide)]
  refine (StableHlo.after_of_forall_not_mem (b := Proc.devRef .tc Cert.KernelIdeal.main_arg5) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg5 m ρ c
theorem W24_arg5 : Cert.KernelIdeal.GenP.W24 m ρ c (Proc.devRef .tc Cert.KernelIdeal.main_arg5) = Cert.KernelIdeal.GenP.W0 m ρ c (Proc.devRef .tc Cert.KernelIdeal.main_arg5) := by
  rw [Cert.KernelIdeal.GenP.W24_of_ne m ρ c Cert.KernelIdeal.main_arg5 (by decide)]
  refine (StableHlo.after_of_forall_not_mem (b := Proc.devRef .tc Cert.KernelIdeal.main_arg5) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg5 m ρ c
theorem W26_arg5 : Cert.KernelIdeal.GenP.W26 m ρ c (Proc.devRef .tc Cert.KernelIdeal.main_arg5) = Cert.KernelIdeal.GenP.W0 m ρ c (Proc.devRef .tc Cert.KernelIdeal.main_arg5) := by
  rw [Cert.KernelIdeal.GenP.W26_of_ne m ρ c Cert.KernelIdeal.main_arg5 (by decide)]
  refine (StableHlo.after_of_forall_not_mem (b := Proc.devRef .tc Cert.KernelIdeal.main_arg5) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg5 m ρ c
theorem KW27_arg5 : Cert.Sim.KW27 m ρ c (Proc.devRef .tc Cert.KernelIdeal.main_arg5) = Cert.KernelIdeal.GenP.W0 m ρ c (Proc.devRef .tc Cert.KernelIdeal.main_arg5) := by
  rw [KW27_eq m ρ c]
  refine (StableHlo.after_of_forall_not_mem (b := Proc.devRef .tc Cert.KernelIdeal.main_arg5) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg5 m ρ c
theorem W29_arg5 : Cert.KernelIdeal.GenP.W29 m ρ c (Proc.devRef .tc Cert.KernelIdeal.main_arg5) = Cert.KernelIdeal.GenP.W0 m ρ c (Proc.devRef .tc Cert.KernelIdeal.main_arg5) := by
  rw [W29_eq m ρ c]
  refine (StableHlo.after_of_forall_not_mem (b := Proc.devRef .tc Cert.KernelIdeal.main_arg5) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg5) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg5 m ρ c
/-- The launch contents at this argument, as the launch memory: read off the generated frame's fact at the return. -/
theorem W0m_arg5 : Cert.KernelIdeal.GenP.W0 m ρ c (Proc.devRef .tc Cert.KernelIdeal.main_arg5) = m ((c.tc : Thread Cert.KernelIdeal.nD Cert.KernelIdeal.τ).loc Cert.KernelIdeal.main_arg5) := (W29_arg5 m ρ c).symm.trans (Cert.KernelIdeal.GenP.W29_main_arg5 m ρ c)

theorem W2_arg6 : Cert.KernelIdeal.GenP.W2 m ρ c (Proc.devRef .tc Cert.KernelIdeal.main_arg6) = Cert.KernelIdeal.GenP.W0 m ρ c (Proc.devRef .tc Cert.KernelIdeal.main_arg6) := by
  rw [Cert.KernelIdeal.GenP.W2_of_ne m ρ c Cert.KernelIdeal.main_arg6 (by decide)]
  refine (StableHlo.after_of_forall_not_mem (b := Proc.devRef .tc Cert.KernelIdeal.main_arg6) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg6 : Cert.KernelIdeal.GenP.W4 m ρ c (Proc.devRef .tc Cert.KernelIdeal.main_arg6) = Cert.KernelIdeal.GenP.W0 m ρ c (Proc.devRef .tc Cert.KernelIdeal.main_arg6) := by
  rw [Cert.KernelIdeal.GenP.W4_of_ne m ρ c Cert.KernelIdeal.main_arg6 (by decide)]
  refine (StableHlo.after_of_forall_not_mem (b := Proc.devRef .tc Cert.KernelIdeal.main_arg6) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg6 m ρ c
theorem W10_arg6 : Cert.KernelIdeal.GenP.W10 m ρ c (Proc.devRef .tc Cert.KernelIdeal.main_arg6) = Cert.KernelIdeal.GenP.W0 m ρ c (Proc.devRef .tc Cert.KernelIdeal.main_arg6) := by
  rw [Cert.KernelIdeal.GenP.W10_of_ne m ρ c Cert.KernelIdeal.main_arg6 (by decide)]
  refine (StableHlo.after_of_forall_not_mem (b := Proc.devRef .tc Cert.KernelIdeal.main_arg6) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg6 m ρ c
theorem W11_arg6 : Cert.KernelIdeal.GenP.W11 m ρ c (Proc.devRef .tc Cert.KernelIdeal.main_arg6) = Cert.KernelIdeal.GenP.W0 m ρ c (Proc.devRef .tc Cert.KernelIdeal.main_arg6) := by
  rw [Cert.KernelIdeal.GenP.W11_of_ne m ρ c Cert.KernelIdeal.main_arg6 (by decide)]
  exact W10_arg6 m ρ c
theorem W17_arg6 : Cert.KernelIdeal.GenP.W17 m ρ c (Proc.devRef .tc Cert.KernelIdeal.main_arg6) = Cert.KernelIdeal.GenP.W0 m ρ c (Proc.devRef .tc Cert.KernelIdeal.main_arg6) := by
  rw [Cert.KernelIdeal.GenP.W17_of_ne m ρ c Cert.KernelIdeal.main_arg6 (by decide)]
  refine (StableHlo.after_of_forall_not_mem (b := Proc.devRef .tc Cert.KernelIdeal.main_arg6) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg6 m ρ c
theorem W18_arg6 : Cert.KernelIdeal.GenP.W18 m ρ c (Proc.devRef .tc Cert.KernelIdeal.main_arg6) = Cert.KernelIdeal.GenP.W0 m ρ c (Proc.devRef .tc Cert.KernelIdeal.main_arg6) := by
  rw [Cert.KernelIdeal.GenP.W18_of_ne m ρ c Cert.KernelIdeal.main_arg6 (by decide)]
  exact W17_arg6 m ρ c
theorem W20_arg6 : Cert.KernelIdeal.GenP.W20 m ρ c (Proc.devRef .tc Cert.KernelIdeal.main_arg6) = Cert.KernelIdeal.GenP.W0 m ρ c (Proc.devRef .tc Cert.KernelIdeal.main_arg6) := by
  rw [Cert.KernelIdeal.GenP.W20_of_ne m ρ c Cert.KernelIdeal.main_arg6 (by decide)]
  refine (StableHlo.after_of_forall_not_mem (b := Proc.devRef .tc Cert.KernelIdeal.main_arg6) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg6 m ρ c
theorem W22_arg6 : Cert.KernelIdeal.GenP.W22 m ρ c (Proc.devRef .tc Cert.KernelIdeal.main_arg6) = Cert.KernelIdeal.GenP.W0 m ρ c (Proc.devRef .tc Cert.KernelIdeal.main_arg6) := by
  rw [Cert.KernelIdeal.GenP.W22_of_ne m ρ c Cert.KernelIdeal.main_arg6 (by decide)]
  refine (StableHlo.after_of_forall_not_mem (b := Proc.devRef .tc Cert.KernelIdeal.main_arg6) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg6 m ρ c
theorem W24_arg6 : Cert.KernelIdeal.GenP.W24 m ρ c (Proc.devRef .tc Cert.KernelIdeal.main_arg6) = Cert.KernelIdeal.GenP.W0 m ρ c (Proc.devRef .tc Cert.KernelIdeal.main_arg6) := by
  rw [Cert.KernelIdeal.GenP.W24_of_ne m ρ c Cert.KernelIdeal.main_arg6 (by decide)]
  refine (StableHlo.after_of_forall_not_mem (b := Proc.devRef .tc Cert.KernelIdeal.main_arg6) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg6 m ρ c
theorem W26_arg6 : Cert.KernelIdeal.GenP.W26 m ρ c (Proc.devRef .tc Cert.KernelIdeal.main_arg6) = Cert.KernelIdeal.GenP.W0 m ρ c (Proc.devRef .tc Cert.KernelIdeal.main_arg6) := by
  rw [Cert.KernelIdeal.GenP.W26_of_ne m ρ c Cert.KernelIdeal.main_arg6 (by decide)]
  refine (StableHlo.after_of_forall_not_mem (b := Proc.devRef .tc Cert.KernelIdeal.main_arg6) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg6 m ρ c
theorem KW27_arg6 : Cert.Sim.KW27 m ρ c (Proc.devRef .tc Cert.KernelIdeal.main_arg6) = Cert.KernelIdeal.GenP.W0 m ρ c (Proc.devRef .tc Cert.KernelIdeal.main_arg6) := by
  rw [KW27_eq m ρ c]
  refine (StableHlo.after_of_forall_not_mem (b := Proc.devRef .tc Cert.KernelIdeal.main_arg6) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg6 m ρ c
theorem W29_arg6 : Cert.KernelIdeal.GenP.W29 m ρ c (Proc.devRef .tc Cert.KernelIdeal.main_arg6) = Cert.KernelIdeal.GenP.W0 m ρ c (Proc.devRef .tc Cert.KernelIdeal.main_arg6) := by
  rw [W29_eq m ρ c]
  refine (StableHlo.after_of_forall_not_mem (b := Proc.devRef .tc Cert.KernelIdeal.main_arg6) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg6) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg6 m ρ c
/-- The launch contents at this argument, as the launch memory: read off the generated frame's fact at the return. -/
theorem W0m_arg6 : Cert.KernelIdeal.GenP.W0 m ρ c (Proc.devRef .tc Cert.KernelIdeal.main_arg6) = m ((c.tc : Thread Cert.KernelIdeal.nD Cert.KernelIdeal.τ).loc Cert.KernelIdeal.main_arg6) := (W29_arg6 m ρ c).symm.trans (Cert.KernelIdeal.GenP.W29_main_arg6 m ρ c)

theorem W2_arg7 : Cert.KernelIdeal.GenP.W2 m ρ c (Proc.devRef .tc Cert.KernelIdeal.main_arg7) = Cert.KernelIdeal.GenP.W0 m ρ c (Proc.devRef .tc Cert.KernelIdeal.main_arg7) := by
  rw [Cert.KernelIdeal.GenP.W2_of_ne m ρ c Cert.KernelIdeal.main_arg7 (by decide)]
  refine (StableHlo.after_of_forall_not_mem (b := Proc.devRef .tc Cert.KernelIdeal.main_arg7) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg7 : Cert.KernelIdeal.GenP.W4 m ρ c (Proc.devRef .tc Cert.KernelIdeal.main_arg7) = Cert.KernelIdeal.GenP.W0 m ρ c (Proc.devRef .tc Cert.KernelIdeal.main_arg7) := by
  rw [Cert.KernelIdeal.GenP.W4_of_ne m ρ c Cert.KernelIdeal.main_arg7 (by decide)]
  refine (StableHlo.after_of_forall_not_mem (b := Proc.devRef .tc Cert.KernelIdeal.main_arg7) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg7 m ρ c
theorem W10_arg7 : Cert.KernelIdeal.GenP.W10 m ρ c (Proc.devRef .tc Cert.KernelIdeal.main_arg7) = Cert.KernelIdeal.GenP.W0 m ρ c (Proc.devRef .tc Cert.KernelIdeal.main_arg7) := by
  rw [Cert.KernelIdeal.GenP.W10_of_ne m ρ c Cert.KernelIdeal.main_arg7 (by decide)]
  refine (StableHlo.after_of_forall_not_mem (b := Proc.devRef .tc Cert.KernelIdeal.main_arg7) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg7 m ρ c
theorem W11_arg7 : Cert.KernelIdeal.GenP.W11 m ρ c (Proc.devRef .tc Cert.KernelIdeal.main_arg7) = Cert.KernelIdeal.GenP.W0 m ρ c (Proc.devRef .tc Cert.KernelIdeal.main_arg7) := by
  rw [Cert.KernelIdeal.GenP.W11_of_ne m ρ c Cert.KernelIdeal.main_arg7 (by decide)]
  exact W10_arg7 m ρ c
theorem W17_arg7 : Cert.KernelIdeal.GenP.W17 m ρ c (Proc.devRef .tc Cert.KernelIdeal.main_arg7) = Cert.KernelIdeal.GenP.W0 m ρ c (Proc.devRef .tc Cert.KernelIdeal.main_arg7) := by
  rw [Cert.KernelIdeal.GenP.W17_of_ne m ρ c Cert.KernelIdeal.main_arg7 (by decide)]
  refine (StableHlo.after_of_forall_not_mem (b := Proc.devRef .tc Cert.KernelIdeal.main_arg7) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg7 m ρ c
theorem W18_arg7 : Cert.KernelIdeal.GenP.W18 m ρ c (Proc.devRef .tc Cert.KernelIdeal.main_arg7) = Cert.KernelIdeal.GenP.W0 m ρ c (Proc.devRef .tc Cert.KernelIdeal.main_arg7) := by
  rw [Cert.KernelIdeal.GenP.W18_of_ne m ρ c Cert.KernelIdeal.main_arg7 (by decide)]
  exact W17_arg7 m ρ c
theorem W20_arg7 : Cert.KernelIdeal.GenP.W20 m ρ c (Proc.devRef .tc Cert.KernelIdeal.main_arg7) = Cert.KernelIdeal.GenP.W0 m ρ c (Proc.devRef .tc Cert.KernelIdeal.main_arg7) := by
  rw [Cert.KernelIdeal.GenP.W20_of_ne m ρ c Cert.KernelIdeal.main_arg7 (by decide)]
  refine (StableHlo.after_of_forall_not_mem (b := Proc.devRef .tc Cert.KernelIdeal.main_arg7) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg7 m ρ c
theorem W22_arg7 : Cert.KernelIdeal.GenP.W22 m ρ c (Proc.devRef .tc Cert.KernelIdeal.main_arg7) = Cert.KernelIdeal.GenP.W0 m ρ c (Proc.devRef .tc Cert.KernelIdeal.main_arg7) := by
  rw [Cert.KernelIdeal.GenP.W22_of_ne m ρ c Cert.KernelIdeal.main_arg7 (by decide)]
  refine (StableHlo.after_of_forall_not_mem (b := Proc.devRef .tc Cert.KernelIdeal.main_arg7) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg7 m ρ c
theorem W24_arg7 : Cert.KernelIdeal.GenP.W24 m ρ c (Proc.devRef .tc Cert.KernelIdeal.main_arg7) = Cert.KernelIdeal.GenP.W0 m ρ c (Proc.devRef .tc Cert.KernelIdeal.main_arg7) := by
  rw [Cert.KernelIdeal.GenP.W24_of_ne m ρ c Cert.KernelIdeal.main_arg7 (by decide)]
  refine (StableHlo.after_of_forall_not_mem (b := Proc.devRef .tc Cert.KernelIdeal.main_arg7) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg7 m ρ c
theorem W26_arg7 : Cert.KernelIdeal.GenP.W26 m ρ c (Proc.devRef .tc Cert.KernelIdeal.main_arg7) = Cert.KernelIdeal.GenP.W0 m ρ c (Proc.devRef .tc Cert.KernelIdeal.main_arg7) := by
  rw [Cert.KernelIdeal.GenP.W26_of_ne m ρ c Cert.KernelIdeal.main_arg7 (by decide)]
  refine (StableHlo.after_of_forall_not_mem (b := Proc.devRef .tc Cert.KernelIdeal.main_arg7) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg7 m ρ c
theorem KW27_arg7 : Cert.Sim.KW27 m ρ c (Proc.devRef .tc Cert.KernelIdeal.main_arg7) = Cert.KernelIdeal.GenP.W0 m ρ c (Proc.devRef .tc Cert.KernelIdeal.main_arg7) := by
  rw [KW27_eq m ρ c]
  refine (StableHlo.after_of_forall_not_mem (b := Proc.devRef .tc Cert.KernelIdeal.main_arg7) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg7 m ρ c
theorem W29_arg7 : Cert.KernelIdeal.GenP.W29 m ρ c (Proc.devRef .tc Cert.KernelIdeal.main_arg7) = Cert.KernelIdeal.GenP.W0 m ρ c (Proc.devRef .tc Cert.KernelIdeal.main_arg7) := by
  rw [W29_eq m ρ c]
  refine (StableHlo.after_of_forall_not_mem (b := Proc.devRef .tc Cert.KernelIdeal.main_arg7) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg7) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg7 m ρ c
/-- The launch contents at this argument, as the launch memory: read off the generated frame's fact at the return. -/
theorem W0m_arg7 : Cert.KernelIdeal.GenP.W0 m ρ c (Proc.devRef .tc Cert.KernelIdeal.main_arg7) = m ((c.tc : Thread Cert.KernelIdeal.nD Cert.KernelIdeal.τ).loc Cert.KernelIdeal.main_arg7) := (W29_arg7 m ρ c).symm.trans (Cert.KernelIdeal.GenP.W29_main_arg7 m ρ c)

end Cert.Sim

end
-- ==== Proof.SimArgsK1.lean ====
/-
  No host operation and no region of the kernel's program writes an argument's buffer: at every boundary of the program
  each argument still holds its launch contents (arguments 8 to 15). A region reads an argument through an input window,
  whose array it leaves as it found it; a host stretch's operations each write their own result buffer only.
-/
import proofs.«103739_j26439818674747_2_alg».proof.Proof.SimBase

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem W2_arg8 : Cert.KernelIdeal.GenP.W2 m ρ c (Proc.devRef .tc Cert.KernelIdeal.main_arg8) = Cert.KernelIdeal.GenP.W0 m ρ c (Proc.devRef .tc Cert.KernelIdeal.main_arg8) := by
  rw [Cert.KernelIdeal.GenP.W2_of_ne m ρ c Cert.KernelIdeal.main_arg8 (by decide)]
  refine (StableHlo.after_of_forall_not_mem (b := Proc.devRef .tc Cert.KernelIdeal.main_arg8) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg8 : Cert.KernelIdeal.GenP.W4 m ρ c (Proc.devRef .tc Cert.KernelIdeal.main_arg8) = Cert.KernelIdeal.GenP.W0 m ρ c (Proc.devRef .tc Cert.KernelIdeal.main_arg8) := by
  rw [Cert.KernelIdeal.GenP.W4_of_ne m ρ c Cert.KernelIdeal.main_arg8 (by decide)]
  refine (StableHlo.after_of_forall_not_mem (b := Proc.devRef .tc Cert.KernelIdeal.main_arg8) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg8 m ρ c
theorem W10_arg8 : Cert.KernelIdeal.GenP.W10 m ρ c (Proc.devRef .tc Cert.KernelIdeal.main_arg8) = Cert.KernelIdeal.GenP.W0 m ρ c (Proc.devRef .tc Cert.KernelIdeal.main_arg8) := by
  rw [Cert.KernelIdeal.GenP.W10_of_ne m ρ c Cert.KernelIdeal.main_arg8 (by decide)]
  refine (StableHlo.after_of_forall_not_mem (b := Proc.devRef .tc Cert.KernelIdeal.main_arg8) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg8 m ρ c
theorem W11_arg8 : Cert.KernelIdeal.GenP.W11 m ρ c (Proc.devRef .tc Cert.KernelIdeal.main_arg8) = Cert.KernelIdeal.GenP.W0 m ρ c (Proc.devRef .tc Cert.KernelIdeal.main_arg8) := by
  rw [Cert.KernelIdeal.GenP.W11_of_ne m ρ c Cert.KernelIdeal.main_arg8 (by decide)]
  exact W10_arg8 m ρ c
theorem W17_arg8 : Cert.KernelIdeal.GenP.W17 m ρ c (Proc.devRef .tc Cert.KernelIdeal.main_arg8) = Cert.KernelIdeal.GenP.W0 m ρ c (Proc.devRef .tc Cert.KernelIdeal.main_arg8) := by
  rw [Cert.KernelIdeal.GenP.W17_of_ne m ρ c Cert.KernelIdeal.main_arg8 (by decide)]
  refine (StableHlo.after_of_forall_not_mem (b := Proc.devRef .tc Cert.KernelIdeal.main_arg8) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg8 m ρ c
theorem W18_arg8 : Cert.KernelIdeal.GenP.W18 m ρ c (Proc.devRef .tc Cert.KernelIdeal.main_arg8) = Cert.KernelIdeal.GenP.W0 m ρ c (Proc.devRef .tc Cert.KernelIdeal.main_arg8) := by
  rw [Cert.KernelIdeal.GenP.W18_of_ne m ρ c Cert.KernelIdeal.main_arg8 (by decide)]
  exact W17_arg8 m ρ c
theorem W20_arg8 : Cert.KernelIdeal.GenP.W20 m ρ c (Proc.devRef .tc Cert.KernelIdeal.main_arg8) = Cert.KernelIdeal.GenP.W0 m ρ c (Proc.devRef .tc Cert.KernelIdeal.main_arg8) := by
  rw [Cert.KernelIdeal.GenP.W20_of_ne m ρ c Cert.KernelIdeal.main_arg8 (by decide)]
  refine (StableHlo.after_of_forall_not_mem (b := Proc.devRef .tc Cert.KernelIdeal.main_arg8) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg8 m ρ c
theorem W22_arg8 : Cert.KernelIdeal.GenP.W22 m ρ c (Proc.devRef .tc Cert.KernelIdeal.main_arg8) = Cert.KernelIdeal.GenP.W0 m ρ c (Proc.devRef .tc Cert.KernelIdeal.main_arg8) := by
  rw [Cert.KernelIdeal.GenP.W22_of_ne m ρ c Cert.KernelIdeal.main_arg8 (by decide)]
  refine (StableHlo.after_of_forall_not_mem (b := Proc.devRef .tc Cert.KernelIdeal.main_arg8) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg8 m ρ c
theorem W24_arg8 : Cert.KernelIdeal.GenP.W24 m ρ c (Proc.devRef .tc Cert.KernelIdeal.main_arg8) = Cert.KernelIdeal.GenP.W0 m ρ c (Proc.devRef .tc Cert.KernelIdeal.main_arg8) := by
  rw [Cert.KernelIdeal.GenP.W24_of_ne m ρ c Cert.KernelIdeal.main_arg8 (by decide)]
  refine (StableHlo.after_of_forall_not_mem (b := Proc.devRef .tc Cert.KernelIdeal.main_arg8) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg8 m ρ c
theorem W26_arg8 : Cert.KernelIdeal.GenP.W26 m ρ c (Proc.devRef .tc Cert.KernelIdeal.main_arg8) = Cert.KernelIdeal.GenP.W0 m ρ c (Proc.devRef .tc Cert.KernelIdeal.main_arg8) := by
  rw [Cert.KernelIdeal.GenP.W26_of_ne m ρ c Cert.KernelIdeal.main_arg8 (by decide)]
  refine (StableHlo.after_of_forall_not_mem (b := Proc.devRef .tc Cert.KernelIdeal.main_arg8) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg8 m ρ c
theorem KW27_arg8 : Cert.Sim.KW27 m ρ c (Proc.devRef .tc Cert.KernelIdeal.main_arg8) = Cert.KernelIdeal.GenP.W0 m ρ c (Proc.devRef .tc Cert.KernelIdeal.main_arg8) := by
  rw [KW27_eq m ρ c]
  refine (StableHlo.after_of_forall_not_mem (b := Proc.devRef .tc Cert.KernelIdeal.main_arg8) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg8 m ρ c
theorem W29_arg8 : Cert.KernelIdeal.GenP.W29 m ρ c (Proc.devRef .tc Cert.KernelIdeal.main_arg8) = Cert.KernelIdeal.GenP.W0 m ρ c (Proc.devRef .tc Cert.KernelIdeal.main_arg8) := by
  rw [W29_eq m ρ c]
  refine (StableHlo.after_of_forall_not_mem (b := Proc.devRef .tc Cert.KernelIdeal.main_arg8) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg8) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg8 m ρ c
/-- The launch contents at this argument, as the launch memory: read off the generated frame's fact at the return. -/
theorem W0m_arg8 : Cert.KernelIdeal.GenP.W0 m ρ c (Proc.devRef .tc Cert.KernelIdeal.main_arg8) = m ((c.tc : Thread Cert.KernelIdeal.nD Cert.KernelIdeal.τ).loc Cert.KernelIdeal.main_arg8) := (W29_arg8 m ρ c).symm.trans (Cert.KernelIdeal.GenP.W29_main_arg8 m ρ c)

theorem W2_arg9 : Cert.KernelIdeal.GenP.W2 m ρ c (Proc.devRef .tc Cert.KernelIdeal.main_arg9) = Cert.KernelIdeal.GenP.W0 m ρ c (Proc.devRef .tc Cert.KernelIdeal.main_arg9) := by
  rw [Cert.KernelIdeal.GenP.W2_of_ne m ρ c Cert.KernelIdeal.main_arg9 (by decide)]
  refine (StableHlo.after_of_forall_not_mem (b := Proc.devRef .tc Cert.KernelIdeal.main_arg9) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg9 : Cert.KernelIdeal.GenP.W4 m ρ c (Proc.devRef .tc Cert.KernelIdeal.main_arg9) = Cert.KernelIdeal.GenP.W0 m ρ c (Proc.devRef .tc Cert.KernelIdeal.main_arg9) := by
  rw [Cert.KernelIdeal.GenP.W4_of_ne m ρ c Cert.KernelIdeal.main_arg9 (by decide)]
  refine (StableHlo.after_of_forall_not_mem (b := Proc.devRef .tc Cert.KernelIdeal.main_arg9) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg9 m ρ c
theorem W10_arg9 : Cert.KernelIdeal.GenP.W10 m ρ c (Proc.devRef .tc Cert.KernelIdeal.main_arg9) = Cert.KernelIdeal.GenP.W0 m ρ c (Proc.devRef .tc Cert.KernelIdeal.main_arg9) := by
  rw [Cert.KernelIdeal.GenP.W10_of_ne m ρ c Cert.KernelIdeal.main_arg9 (by decide)]
  refine (StableHlo.after_of_forall_not_mem (b := Proc.devRef .tc Cert.KernelIdeal.main_arg9) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg9 m ρ c
theorem W11_arg9 : Cert.KernelIdeal.GenP.W11 m ρ c (Proc.devRef .tc Cert.KernelIdeal.main_arg9) = Cert.KernelIdeal.GenP.W0 m ρ c (Proc.devRef .tc Cert.KernelIdeal.main_arg9) := by
  rw [Cert.KernelIdeal.GenP.W11_of_ne m ρ c Cert.KernelIdeal.main_arg9 (by decide)]
  exact W10_arg9 m ρ c
theorem W17_arg9 : Cert.KernelIdeal.GenP.W17 m ρ c (Proc.devRef .tc Cert.KernelIdeal.main_arg9) = Cert.KernelIdeal.GenP.W0 m ρ c (Proc.devRef .tc Cert.KernelIdeal.main_arg9) := by
  rw [Cert.KernelIdeal.GenP.W17_of_ne m ρ c Cert.KernelIdeal.main_arg9 (by decide)]
  refine (StableHlo.after_of_forall_not_mem (b := Proc.devRef .tc Cert.KernelIdeal.main_arg9) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg9 m ρ c
theorem W18_arg9 : Cert.KernelIdeal.GenP.W18 m ρ c (Proc.devRef .tc Cert.KernelIdeal.main_arg9) = Cert.KernelIdeal.GenP.W0 m ρ c (Proc.devRef .tc Cert.KernelIdeal.main_arg9) := by
  rw [Cert.KernelIdeal.GenP.W18_of_ne m ρ c Cert.KernelIdeal.main_arg9 (by decide)]
  exact W17_arg9 m ρ c
theorem W20_arg9 : Cert.KernelIdeal.GenP.W20 m ρ c (Proc.devRef .tc Cert.KernelIdeal.main_arg9) = Cert.KernelIdeal.GenP.W0 m ρ c (Proc.devRef .tc Cert.KernelIdeal.main_arg9) := by
  rw [Cert.KernelIdeal.GenP.W20_of_ne m ρ c Cert.KernelIdeal.main_arg9 (by decide)]
  refine (StableHlo.after_of_forall_not_mem (b := Proc.devRef .tc Cert.KernelIdeal.main_arg9) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg9 m ρ c
theorem W22_arg9 : Cert.KernelIdeal.GenP.W22 m ρ c (Proc.devRef .tc Cert.KernelIdeal.main_arg9) = Cert.KernelIdeal.GenP.W0 m ρ c (Proc.devRef .tc Cert.KernelIdeal.main_arg9) := by
  rw [Cert.KernelIdeal.GenP.W22_of_ne m ρ c Cert.KernelIdeal.main_arg9 (by decide)]
  refine (StableHlo.after_of_forall_not_mem (b := Proc.devRef .tc Cert.KernelIdeal.main_arg9) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg9 m ρ c
theorem W24_arg9 : Cert.KernelIdeal.GenP.W24 m ρ c (Proc.devRef .tc Cert.KernelIdeal.main_arg9) = Cert.KernelIdeal.GenP.W0 m ρ c (Proc.devRef .tc Cert.KernelIdeal.main_arg9) := by
  rw [Cert.KernelIdeal.GenP.W24_of_ne m ρ c Cert.KernelIdeal.main_arg9 (by decide)]
  refine (StableHlo.after_of_forall_not_mem (b := Proc.devRef .tc Cert.KernelIdeal.main_arg9) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg9 m ρ c
theorem W26_arg9 : Cert.KernelIdeal.GenP.W26 m ρ c (Proc.devRef .tc Cert.KernelIdeal.main_arg9) = Cert.KernelIdeal.GenP.W0 m ρ c (Proc.devRef .tc Cert.KernelIdeal.main_arg9) := by
  rw [Cert.KernelIdeal.GenP.W26_of_ne m ρ c Cert.KernelIdeal.main_arg9 (by decide)]
  refine (StableHlo.after_of_forall_not_mem (b := Proc.devRef .tc Cert.KernelIdeal.main_arg9) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg9 m ρ c
theorem KW27_arg9 : Cert.Sim.KW27 m ρ c (Proc.devRef .tc Cert.KernelIdeal.main_arg9) = Cert.KernelIdeal.GenP.W0 m ρ c (Proc.devRef .tc Cert.KernelIdeal.main_arg9) := by
  rw [KW27_eq m ρ c]
  refine (StableHlo.after_of_forall_not_mem (b := Proc.devRef .tc Cert.KernelIdeal.main_arg9) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg9 m ρ c
theorem W29_arg9 : Cert.KernelIdeal.GenP.W29 m ρ c (Proc.devRef .tc Cert.KernelIdeal.main_arg9) = Cert.KernelIdeal.GenP.W0 m ρ c (Proc.devRef .tc Cert.KernelIdeal.main_arg9) := by
  rw [W29_eq m ρ c]
  refine (StableHlo.after_of_forall_not_mem (b := Proc.devRef .tc Cert.KernelIdeal.main_arg9) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg9) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg9 m ρ c
/-- The launch contents at this argument, as the launch memory: read off the generated frame's fact at the return. -/
theorem W0m_arg9 : Cert.KernelIdeal.GenP.W0 m ρ c (Proc.devRef .tc Cert.KernelIdeal.main_arg9) = m ((c.tc : Thread Cert.KernelIdeal.nD Cert.KernelIdeal.τ).loc Cert.KernelIdeal.main_arg9) := (W29_arg9 m ρ c).symm.trans (Cert.KernelIdeal.GenP.W29_main_arg9 m ρ c)

theorem W2_arg10 : Cert.KernelIdeal.GenP.W2 m ρ c (Proc.devRef .tc Cert.KernelIdeal.main_arg10) = Cert.KernelIdeal.GenP.W0 m ρ c (Proc.devRef .tc Cert.KernelIdeal.main_arg10) := by
  rw [Cert.KernelIdeal.GenP.W2_of_ne m ρ c Cert.KernelIdeal.main_arg10 (by decide)]
  refine (StableHlo.after_of_forall_not_mem (b := Proc.devRef .tc Cert.KernelIdeal.main_arg10) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg10 : Cert.KernelIdeal.GenP.W4 m ρ c (Proc.devRef .tc Cert.KernelIdeal.main_arg10) = Cert.KernelIdeal.GenP.W0 m ρ c (Proc.devRef .tc Cert.KernelIdeal.main_arg10) := by
  rw [Cert.KernelIdeal.GenP.W4_of_ne m ρ c Cert.KernelIdeal.main_arg10 (by decide)]
  refine (StableHlo.after_of_forall_not_mem (b := Proc.devRef .tc Cert.KernelIdeal.main_arg10) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg10 m ρ c
theorem W10_arg10 : Cert.KernelIdeal.GenP.W10 m ρ c (Proc.devRef .tc Cert.KernelIdeal.main_arg10) = Cert.KernelIdeal.GenP.W0 m ρ c (Proc.devRef .tc Cert.KernelIdeal.main_arg10) := by
  rw [Cert.KernelIdeal.GenP.W10_of_ne m ρ c Cert.KernelIdeal.main_arg10 (by decide)]
  refine (StableHlo.after_of_forall_not_mem (b := Proc.devRef .tc Cert.KernelIdeal.main_arg10) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg10 m ρ c
theorem W11_arg10 : Cert.KernelIdeal.GenP.W11 m ρ c (Proc.devRef .tc Cert.KernelIdeal.main_arg10) = Cert.KernelIdeal.GenP.W0 m ρ c (Proc.devRef .tc Cert.KernelIdeal.main_arg10) := by
  rw [Cert.KernelIdeal.GenP.W11_of_ne m ρ c Cert.KernelIdeal.main_arg10 (by decide)]
  exact W10_arg10 m ρ c
theorem W17_arg10 : Cert.KernelIdeal.GenP.W17 m ρ c (Proc.devRef .tc Cert.KernelIdeal.main_arg10) = Cert.KernelIdeal.GenP.W0 m ρ c (Proc.devRef .tc Cert.KernelIdeal.main_arg10) := by
  rw [Cert.KernelIdeal.GenP.W17_of_ne m ρ c Cert.KernelIdeal.main_arg10 (by decide)]
  refine (StableHlo.after_of_forall_not_mem (b := Proc.devRef .tc Cert.KernelIdeal.main_arg10) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg10 m ρ c
theorem W18_arg10 : Cert.KernelIdeal.GenP.W18 m ρ c (Proc.devRef .tc Cert.KernelIdeal.main_arg10) = Cert.KernelIdeal.GenP.W0 m ρ c (Proc.devRef .tc Cert.KernelIdeal.main_arg10) := by
  rw [Cert.KernelIdeal.GenP.W18_of_ne m ρ c Cert.KernelIdeal.main_arg10 (by decide)]
  exact W17_arg10 m ρ c
theorem W20_arg10 : Cert.KernelIdeal.GenP.W20 m ρ c (Proc.devRef .tc Cert.KernelIdeal.main_arg10) = Cert.KernelIdeal.GenP.W0 m ρ c (Proc.devRef .tc Cert.KernelIdeal.main_arg10) := by
  rw [Cert.KernelIdeal.GenP.W20_of_ne m ρ c Cert.KernelIdeal.main_arg10 (by decide)]
  refine (StableHlo.after_of_forall_not_mem (b := Proc.devRef .tc Cert.KernelIdeal.main_arg10) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg10 m ρ c
theorem W22_arg10 : Cert.KernelIdeal.GenP.W22 m ρ c (Proc.devRef .tc Cert.KernelIdeal.main_arg10) = Cert.KernelIdeal.GenP.W0 m ρ c (Proc.devRef .tc Cert.KernelIdeal.main_arg10) := by
  rw [Cert.KernelIdeal.GenP.W22_of_ne m ρ c Cert.KernelIdeal.main_arg10 (by decide)]
  refine (StableHlo.after_of_forall_not_mem (b := Proc.devRef .tc Cert.KernelIdeal.main_arg10) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg10 m ρ c
theorem W24_arg10 : Cert.KernelIdeal.GenP.W24 m ρ c (Proc.devRef .tc Cert.KernelIdeal.main_arg10) = Cert.KernelIdeal.GenP.W0 m ρ c (Proc.devRef .tc Cert.KernelIdeal.main_arg10) := by
  rw [Cert.KernelIdeal.GenP.W24_of_ne m ρ c Cert.KernelIdeal.main_arg10 (by decide)]
  refine (StableHlo.after_of_forall_not_mem (b := Proc.devRef .tc Cert.KernelIdeal.main_arg10) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg10 m ρ c
theorem W26_arg10 : Cert.KernelIdeal.GenP.W26 m ρ c (Proc.devRef .tc Cert.KernelIdeal.main_arg10) = Cert.KernelIdeal.GenP.W0 m ρ c (Proc.devRef .tc Cert.KernelIdeal.main_arg10) := by
  rw [Cert.KernelIdeal.GenP.W26_of_ne m ρ c Cert.KernelIdeal.main_arg10 (by decide)]
  refine (StableHlo.after_of_forall_not_mem (b := Proc.devRef .tc Cert.KernelIdeal.main_arg10) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg10 m ρ c
theorem KW27_arg10 : Cert.Sim.KW27 m ρ c (Proc.devRef .tc Cert.KernelIdeal.main_arg10) = Cert.KernelIdeal.GenP.W0 m ρ c (Proc.devRef .tc Cert.KernelIdeal.main_arg10) := by
  rw [KW27_eq m ρ c]
  refine (StableHlo.after_of_forall_not_mem (b := Proc.devRef .tc Cert.KernelIdeal.main_arg10) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg10 m ρ c
theorem W29_arg10 : Cert.KernelIdeal.GenP.W29 m ρ c (Proc.devRef .tc Cert.KernelIdeal.main_arg10) = Cert.KernelIdeal.GenP.W0 m ρ c (Proc.devRef .tc Cert.KernelIdeal.main_arg10) := by
  rw [W29_eq m ρ c]
  refine (StableHlo.after_of_forall_not_mem (b := Proc.devRef .tc Cert.KernelIdeal.main_arg10) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg10) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg10 m ρ c
/-- The launch contents at this argument, as the launch memory: read off the generated frame's fact at the return. -/
theorem W0m_arg10 : Cert.KernelIdeal.GenP.W0 m ρ c (Proc.devRef .tc Cert.KernelIdeal.main_arg10) = m ((c.tc : Thread Cert.KernelIdeal.nD Cert.KernelIdeal.τ).loc Cert.KernelIdeal.main_arg10) := (W29_arg10 m ρ c).symm.trans (Cert.KernelIdeal.GenP.W29_main_arg10 m ρ c)

theorem W2_arg11 : Cert.KernelIdeal.GenP.W2 m ρ c (Proc.devRef .tc Cert.KernelIdeal.main_arg11) = Cert.KernelIdeal.GenP.W0 m ρ c (Proc.devRef .tc Cert.KernelIdeal.main_arg11) := by
  refine (Cert.KernelIdeal.GenP.W2_arr m ρ c 1).trans ?_
  refine ((Cert.KernelIdeal.GenP.dat0 (Cert.KernelIdeal.GenP.V1 m ρ) c).arrAt_in 1 rfl _).trans ?_
  refine (Cert.KernelIdeal.GenP.A_eq0 (Cert.KernelIdeal.GenP.V1 m ρ) c 1).trans ?_
  show Cert.KernelIdeal.GenP.W1 m ρ c (Proc.devRef .tc Cert.KernelIdeal.main_arg11) = _
  refine (StableHlo.after_of_forall_not_mem (b := Proc.devRef .tc Cert.KernelIdeal.main_arg11) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg11 : Cert.KernelIdeal.GenP.W4 m ρ c (Proc.devRef .tc Cert.KernelIdeal.main_arg11) = Cert.KernelIdeal.GenP.W0 m ρ c (Proc.devRef .tc Cert.KernelIdeal.main_arg11) := by
  rw [Cert.KernelIdeal.GenP.W4_of_ne m ρ c Cert.KernelIdeal.main_arg11 (by decide)]
  refine (StableHlo.after_of_forall_not_mem (b := Proc.devRef .tc Cert.KernelIdeal.main_arg11) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg11 m ρ c
theorem W10_arg11 : Cert.KernelIdeal.GenP.W10 m ρ c (Proc.devRef .tc Cert.KernelIdeal.main_arg11) = Cert.KernelIdeal.GenP.W0 m ρ c (Proc.devRef .tc Cert.KernelIdeal.main_arg11) := by
  rw [Cert.KernelIdeal.GenP.W10_of_ne m ρ c Cert.KernelIdeal.main_arg11 (by decide)]
  refine (StableHlo.after_of_forall_not_mem (b := Proc.devRef .tc Cert.KernelIdeal.main_arg11) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg11 m ρ c
theorem W11_arg11 : Cert.KernelIdeal.GenP.W11 m ρ c (Proc.devRef .tc Cert.KernelIdeal.main_arg11) = Cert.KernelIdeal.GenP.W0 m ρ c (Proc.devRef .tc Cert.KernelIdeal.main_arg11) := by
  rw [Cert.KernelIdeal.GenP.W11_of_ne m ρ c Cert.KernelIdeal.main_arg11 (by decide)]
  exact W10_arg11 m ρ c
theorem W17_arg11 : Cert.KernelIdeal.GenP.W17 m ρ c (Proc.devRef .tc Cert.KernelIdeal.main_arg11) = Cert.KernelIdeal.GenP.W0 m ρ c (Proc.devRef .tc Cert.KernelIdeal.main_arg11) := by
  rw [Cert.KernelIdeal.GenP.W17_of_ne m ρ c Cert.KernelIdeal.main_arg11 (by decide)]
  refine (StableHlo.after_of_forall_not_mem (b := Proc.devRef .tc Cert.KernelIdeal.main_arg11) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg11 m ρ c
theorem W18_arg11 : Cert.KernelIdeal.GenP.W18 m ρ c (Proc.devRef .tc Cert.KernelIdeal.main_arg11) = Cert.KernelIdeal.GenP.W0 m ρ c (Proc.devRef .tc Cert.KernelIdeal.main_arg11) := by
  rw [Cert.KernelIdeal.GenP.W18_of_ne m ρ c Cert.KernelIdeal.main_arg11 (by decide)]
  exact W17_arg11 m ρ c
theorem W20_arg11 : Cert.KernelIdeal.GenP.W20 m ρ c (Proc.devRef .tc Cert.KernelIdeal.main_arg11) = Cert.KernelIdeal.GenP.W0 m ρ c (Proc.devRef .tc Cert.KernelIdeal.main_arg11) := by
  rw [Cert.KernelIdeal.GenP.W20_of_ne m ρ c Cert.KernelIdeal.main_arg11 (by decide)]
  refine (StableHlo.after_of_forall_not_mem (b := Proc.devRef .tc Cert.KernelIdeal.main_arg11) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg11 m ρ c
theorem W22_arg11 : Cert.KernelIdeal.GenP.W22 m ρ c (Proc.devRef .tc Cert.KernelIdeal.main_arg11) = Cert.KernelIdeal.GenP.W0 m ρ c (Proc.devRef .tc Cert.KernelIdeal.main_arg11) := by
  rw [Cert.KernelIdeal.GenP.W22_of_ne m ρ c Cert.KernelIdeal.main_arg11 (by decide)]
  refine (StableHlo.after_of_forall_not_mem (b := Proc.devRef .tc Cert.KernelIdeal.main_arg11) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg11 m ρ c
theorem W24_arg11 : Cert.KernelIdeal.GenP.W24 m ρ c (Proc.devRef .tc Cert.KernelIdeal.main_arg11) = Cert.KernelIdeal.GenP.W0 m ρ c (Proc.devRef .tc Cert.KernelIdeal.main_arg11) := by
  rw [Cert.KernelIdeal.GenP.W24_of_ne m ρ c Cert.KernelIdeal.main_arg11 (by decide)]
  refine (StableHlo.after_of_forall_not_mem (b := Proc.devRef .tc Cert.KernelIdeal.main_arg11) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg11 m ρ c
theorem W26_arg11 : Cert.KernelIdeal.GenP.W26 m ρ c (Proc.devRef .tc Cert.KernelIdeal.main_arg11) = Cert.KernelIdeal.GenP.W0 m ρ c (Proc.devRef .tc Cert.KernelIdeal.main_arg11) := by
  rw [Cert.KernelIdeal.GenP.W26_of_ne m ρ c Cert.KernelIdeal.main_arg11 (by decide)]
  refine (StableHlo.after_of_forall_not_mem (b := Proc.devRef .tc Cert.KernelIdeal.main_arg11) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg11 m ρ c
theorem KW27_arg11 : Cert.Sim.KW27 m ρ c (Proc.devRef .tc Cert.KernelIdeal.main_arg11) = Cert.KernelIdeal.GenP.W0 m ρ c (Proc.devRef .tc Cert.KernelIdeal.main_arg11) := by
  rw [KW27_eq m ρ c]
  refine (StableHlo.after_of_forall_not_mem (b := Proc.devRef .tc Cert.KernelIdeal.main_arg11) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg11 m ρ c
theorem W29_arg11 : Cert.KernelIdeal.GenP.W29 m ρ c (Proc.devRef .tc Cert.KernelIdeal.main_arg11) = Cert.KernelIdeal.GenP.W0 m ρ c (Proc.devRef .tc Cert.KernelIdeal.main_arg11) := by
  rw [W29_eq m ρ c]
  refine (StableHlo.after_of_forall_not_mem (b := Proc.devRef .tc Cert.KernelIdeal.main_arg11) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg11) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg11 m ρ c
/-- The launch contents at this argument, as the launch memory: read off the generated frame's fact at the return. -/
theorem W0m_arg11 : Cert.KernelIdeal.GenP.W0 m ρ c (Proc.devRef .tc Cert.KernelIdeal.main_arg11) = m ((c.tc : Thread Cert.KernelIdeal.nD Cert.KernelIdeal.τ).loc Cert.KernelIdeal.main_arg11) := (W29_arg11 m ρ c).symm.trans (Cert.KernelIdeal.GenP.W29_main_arg11 m ρ c)

theorem W2_arg12 : Cert.KernelIdeal.GenP.W2 m ρ c (Proc.devRef .tc Cert.KernelIdeal.main_arg12) = Cert.KernelIdeal.GenP.W0 m ρ c (Proc.devRef .tc Cert.KernelIdeal.main_arg12) := by
  rw [Cert.KernelIdeal.GenP.W2_of_ne m ρ c Cert.KernelIdeal.main_arg12 (by decide)]
  refine (StableHlo.after_of_forall_not_mem (b := Proc.devRef .tc Cert.KernelIdeal.main_arg12) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg12 : Cert.KernelIdeal.GenP.W4 m ρ c (Proc.devRef .tc Cert.KernelIdeal.main_arg12) = Cert.KernelIdeal.GenP.W0 m ρ c (Proc.devRef .tc Cert.KernelIdeal.main_arg12) := by
  refine (Cert.KernelIdeal.GenP.W4_arr m ρ c 1).trans ?_
  refine ((Cert.KernelIdeal.GenP.dat1 (Cert.KernelIdeal.GenP.V3 m ρ) c).arrAt_in 1 rfl _).trans ?_
  refine (Cert.KernelIdeal.GenP.A_eq1 (Cert.KernelIdeal.GenP.V3 m ρ) c 1).trans ?_
  show Cert.KernelIdeal.GenP.W3 m ρ c (Proc.devRef .tc Cert.KernelIdeal.main_arg12) = _
  refine (StableHlo.after_of_forall_not_mem (b := Proc.devRef .tc Cert.KernelIdeal.main_arg12) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg12 m ρ c
theorem W10_arg12 : Cert.KernelIdeal.GenP.W10 m ρ c (Proc.devRef .tc Cert.KernelIdeal.main_arg12) = Cert.KernelIdeal.GenP.W0 m ρ c (Proc.devRef .tc Cert.KernelIdeal.main_arg12) := by
  rw [Cert.KernelIdeal.GenP.W10_of_ne m ρ c Cert.KernelIdeal.main_arg12 (by decide)]
  refine (StableHlo.after_of_forall_not_mem (b := Proc.devRef .tc Cert.KernelIdeal.main_arg12) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg12 m ρ c
theorem W11_arg12 : Cert.KernelIdeal.GenP.W11 m ρ c (Proc.devRef .tc Cert.KernelIdeal.main_arg12) = Cert.KernelIdeal.GenP.W0 m ρ c (Proc.devRef .tc Cert.KernelIdeal.main_arg12) := by
  rw [Cert.KernelIdeal.GenP.W11_of_ne m ρ c Cert.KernelIdeal.main_arg12 (by decide)]
  exact W10_arg12 m ρ c
theorem W17_arg12 : Cert.KernelIdeal.GenP.W17 m ρ c (Proc.devRef .tc Cert.KernelIdeal.main_arg12) = Cert.KernelIdeal.GenP.W0 m ρ c (Proc.devRef .tc Cert.KernelIdeal.main_arg12) := by
  rw [Cert.KernelIdeal.GenP.W17_of_ne m ρ c Cert.KernelIdeal.main_arg12 (by decide)]
  refine (StableHlo.after_of_forall_not_mem (b := Proc.devRef .tc Cert.KernelIdeal.main_arg12) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg12 m ρ c
theorem W18_arg12 : Cert.KernelIdeal.GenP.W18 m ρ c (Proc.devRef .tc Cert.KernelIdeal.main_arg12) = Cert.KernelIdeal.GenP.W0 m ρ c (Proc.devRef .tc Cert.KernelIdeal.main_arg12) := by
  rw [Cert.KernelIdeal.GenP.W18_of_ne m ρ c Cert.KernelIdeal.main_arg12 (by decide)]
  exact W17_arg12 m ρ c
theorem W20_arg12 : Cert.KernelIdeal.GenP.W20 m ρ c (Proc.devRef .tc Cert.KernelIdeal.main_arg12) = Cert.KernelIdeal.GenP.W0 m ρ c (Proc.devRef .tc Cert.KernelIdeal.main_arg12) := by
  rw [Cert.KernelIdeal.GenP.W20_of_ne m ρ c Cert.KernelIdeal.main_arg12 (by decide)]
  refine (StableHlo.after_of_forall_not_mem (b := Proc.devRef .tc Cert.KernelIdeal.main_arg12) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg12 m ρ c
theorem W22_arg12 : Cert.KernelIdeal.GenP.W22 m ρ c (Proc.devRef .tc Cert.KernelIdeal.main_arg12) = Cert.KernelIdeal.GenP.W0 m ρ c (Proc.devRef .tc Cert.KernelIdeal.main_arg12) := by
  rw [Cert.KernelIdeal.GenP.W22_of_ne m ρ c Cert.KernelIdeal.main_arg12 (by decide)]
  refine (StableHlo.after_of_forall_not_mem (b := Proc.devRef .tc Cert.KernelIdeal.main_arg12) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg12 m ρ c
theorem W24_arg12 : Cert.KernelIdeal.GenP.W24 m ρ c (Proc.devRef .tc Cert.KernelIdeal.main_arg12) = Cert.KernelIdeal.GenP.W0 m ρ c (Proc.devRef .tc Cert.KernelIdeal.main_arg12) := by
  rw [Cert.KernelIdeal.GenP.W24_of_ne m ρ c Cert.KernelIdeal.main_arg12 (by decide)]
  refine (StableHlo.after_of_forall_not_mem (b := Proc.devRef .tc Cert.KernelIdeal.main_arg12) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg12 m ρ c
theorem W26_arg12 : Cert.KernelIdeal.GenP.W26 m ρ c (Proc.devRef .tc Cert.KernelIdeal.main_arg12) = Cert.KernelIdeal.GenP.W0 m ρ c (Proc.devRef .tc Cert.KernelIdeal.main_arg12) := by
  rw [Cert.KernelIdeal.GenP.W26_of_ne m ρ c Cert.KernelIdeal.main_arg12 (by decide)]
  refine (StableHlo.after_of_forall_not_mem (b := Proc.devRef .tc Cert.KernelIdeal.main_arg12) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg12 m ρ c
theorem KW27_arg12 : Cert.Sim.KW27 m ρ c (Proc.devRef .tc Cert.KernelIdeal.main_arg12) = Cert.KernelIdeal.GenP.W0 m ρ c (Proc.devRef .tc Cert.KernelIdeal.main_arg12) := by
  rw [KW27_eq m ρ c]
  refine (StableHlo.after_of_forall_not_mem (b := Proc.devRef .tc Cert.KernelIdeal.main_arg12) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg12 m ρ c
theorem W29_arg12 : Cert.KernelIdeal.GenP.W29 m ρ c (Proc.devRef .tc Cert.KernelIdeal.main_arg12) = Cert.KernelIdeal.GenP.W0 m ρ c (Proc.devRef .tc Cert.KernelIdeal.main_arg12) := by
  rw [W29_eq m ρ c]
  refine (StableHlo.after_of_forall_not_mem (b := Proc.devRef .tc Cert.KernelIdeal.main_arg12) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg12) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg12 m ρ c
/-- The launch contents at this argument, as the launch memory: read off the generated frame's fact at the return. -/
theorem W0m_arg12 : Cert.KernelIdeal.GenP.W0 m ρ c (Proc.devRef .tc Cert.KernelIdeal.main_arg12) = m ((c.tc : Thread Cert.KernelIdeal.nD Cert.KernelIdeal.τ).loc Cert.KernelIdeal.main_arg12) := (W29_arg12 m ρ c).symm.trans (Cert.KernelIdeal.GenP.W29_main_arg12 m ρ c)

theorem W2_arg13 : Cert.KernelIdeal.GenP.W2 m ρ c (Proc.devRef .tc Cert.KernelIdeal.main_arg13) = Cert.KernelIdeal.GenP.W0 m ρ c (Proc.devRef .tc Cert.KernelIdeal.main_arg13) := by
  refine (Cert.KernelIdeal.GenP.W2_arr m ρ c 2).trans ?_
  refine ((Cert.KernelIdeal.GenP.dat0 (Cert.KernelIdeal.GenP.V1 m ρ) c).arrAt_in 2 rfl _).trans ?_
  refine (Cert.KernelIdeal.GenP.A_eq0 (Cert.KernelIdeal.GenP.V1 m ρ) c 2).trans ?_
  show Cert.KernelIdeal.GenP.W1 m ρ c (Proc.devRef .tc Cert.KernelIdeal.main_arg13) = _
  refine (StableHlo.after_of_forall_not_mem (b := Proc.devRef .tc Cert.KernelIdeal.main_arg13) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg13 : Cert.KernelIdeal.GenP.W4 m ρ c (Proc.devRef .tc Cert.KernelIdeal.main_arg13) = Cert.KernelIdeal.GenP.W0 m ρ c (Proc.devRef .tc Cert.KernelIdeal.main_arg13) := by
  rw [Cert.KernelIdeal.GenP.W4_of_ne m ρ c Cert.KernelIdeal.main_arg13 (by decide)]
  refine (StableHlo.after_of_forall_not_mem (b := Proc.devRef .tc Cert.KernelIdeal.main_arg13) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg13 m ρ c
theorem W10_arg13 : Cert.KernelIdeal.GenP.W10 m ρ c (Proc.devRef .tc Cert.KernelIdeal.main_arg13) = Cert.KernelIdeal.GenP.W0 m ρ c (Proc.devRef .tc Cert.KernelIdeal.main_arg13) := by
  rw [Cert.KernelIdeal.GenP.W10_of_ne m ρ c Cert.KernelIdeal.main_arg13 (by decide)]
  refine (StableHlo.after_of_forall_not_mem (b := Proc.devRef .tc Cert.KernelIdeal.main_arg13) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg13 m ρ c
theorem W11_arg13 : Cert.KernelIdeal.GenP.W11 m ρ c (Proc.devRef .tc Cert.KernelIdeal.main_arg13) = Cert.KernelIdeal.GenP.W0 m ρ c (Proc.devRef .tc Cert.KernelIdeal.main_arg13) := by
  rw [Cert.KernelIdeal.GenP.W11_of_ne m ρ c Cert.KernelIdeal.main_arg13 (by decide)]
  exact W10_arg13 m ρ c
theorem W17_arg13 : Cert.KernelIdeal.GenP.W17 m ρ c (Proc.devRef .tc Cert.KernelIdeal.main_arg13) = Cert.KernelIdeal.GenP.W0 m ρ c (Proc.devRef .tc Cert.KernelIdeal.main_arg13) := by
  rw [Cert.KernelIdeal.GenP.W17_of_ne m ρ c Cert.KernelIdeal.main_arg13 (by decide)]
  refine (StableHlo.after_of_forall_not_mem (b := Proc.devRef .tc Cert.KernelIdeal.main_arg13) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg13 m ρ c
theorem W18_arg13 : Cert.KernelIdeal.GenP.W18 m ρ c (Proc.devRef .tc Cert.KernelIdeal.main_arg13) = Cert.KernelIdeal.GenP.W0 m ρ c (Proc.devRef .tc Cert.KernelIdeal.main_arg13) := by
  rw [Cert.KernelIdeal.GenP.W18_of_ne m ρ c Cert.KernelIdeal.main_arg13 (by decide)]
  exact W17_arg13 m ρ c
theorem W20_arg13 : Cert.KernelIdeal.GenP.W20 m ρ c (Proc.devRef .tc Cert.KernelIdeal.main_arg13) = Cert.KernelIdeal.GenP.W0 m ρ c (Proc.devRef .tc Cert.KernelIdeal.main_arg13) := by
  rw [Cert.KernelIdeal.GenP.W20_of_ne m ρ c Cert.KernelIdeal.main_arg13 (by decide)]
  refine (StableHlo.after_of_forall_not_mem (b := Proc.devRef .tc Cert.KernelIdeal.main_arg13) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg13 m ρ c
theorem W22_arg13 : Cert.KernelIdeal.GenP.W22 m ρ c (Proc.devRef .tc Cert.KernelIdeal.main_arg13) = Cert.KernelIdeal.GenP.W0 m ρ c (Proc.devRef .tc Cert.KernelIdeal.main_arg13) := by
  rw [Cert.KernelIdeal.GenP.W22_of_ne m ρ c Cert.KernelIdeal.main_arg13 (by decide)]
  refine (StableHlo.after_of_forall_not_mem (b := Proc.devRef .tc Cert.KernelIdeal.main_arg13) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg13 m ρ c
theorem W24_arg13 : Cert.KernelIdeal.GenP.W24 m ρ c (Proc.devRef .tc Cert.KernelIdeal.main_arg13) = Cert.KernelIdeal.GenP.W0 m ρ c (Proc.devRef .tc Cert.KernelIdeal.main_arg13) := by
  rw [Cert.KernelIdeal.GenP.W24_of_ne m ρ c Cert.KernelIdeal.main_arg13 (by decide)]
  refine (StableHlo.after_of_forall_not_mem (b := Proc.devRef .tc Cert.KernelIdeal.main_arg13) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg13 m ρ c
theorem W26_arg13 : Cert.KernelIdeal.GenP.W26 m ρ c (Proc.devRef .tc Cert.KernelIdeal.main_arg13) = Cert.KernelIdeal.GenP.W0 m ρ c (Proc.devRef .tc Cert.KernelIdeal.main_arg13) := by
  rw [Cert.KernelIdeal.GenP.W26_of_ne m ρ c Cert.KernelIdeal.main_arg13 (by decide)]
  refine (StableHlo.after_of_forall_not_mem (b := Proc.devRef .tc Cert.KernelIdeal.main_arg13) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg13 m ρ c
theorem KW27_arg13 : Cert.Sim.KW27 m ρ c (Proc.devRef .tc Cert.KernelIdeal.main_arg13) = Cert.KernelIdeal.GenP.W0 m ρ c (Proc.devRef .tc Cert.KernelIdeal.main_arg13) := by
  rw [KW27_eq m ρ c]
  refine (StableHlo.after_of_forall_not_mem (b := Proc.devRef .tc Cert.KernelIdeal.main_arg13) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg13 m ρ c
theorem W29_arg13 : Cert.KernelIdeal.GenP.W29 m ρ c (Proc.devRef .tc Cert.KernelIdeal.main_arg13) = Cert.KernelIdeal.GenP.W0 m ρ c (Proc.devRef .tc Cert.KernelIdeal.main_arg13) := by
  rw [W29_eq m ρ c]
  refine (StableHlo.after_of_forall_not_mem (b := Proc.devRef .tc Cert.KernelIdeal.main_arg13) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg13) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg13 m ρ c
/-- The launch contents at this argument, as the launch memory: read off the generated frame's fact at the return. -/
theorem W0m_arg13 : Cert.KernelIdeal.GenP.W0 m ρ c (Proc.devRef .tc Cert.KernelIdeal.main_arg13) = m ((c.tc : Thread Cert.KernelIdeal.nD Cert.KernelIdeal.τ).loc Cert.KernelIdeal.main_arg13) := (W29_arg13 m ρ c).symm.trans (Cert.KernelIdeal.GenP.W29_main_arg13 m ρ c)

theorem W2_arg14 : Cert.KernelIdeal.GenP.W2 m ρ c (Proc.devRef .tc Cert.KernelIdeal.main_arg14) = Cert.KernelIdeal.GenP.W0 m ρ c (Proc.devRef .tc Cert.KernelIdeal.main_arg14) := by
  rw [Cert.KernelIdeal.GenP.W2_of_ne m ρ c Cert.KernelIdeal.main_arg14 (by decide)]
  refine (StableHlo.after_of_forall_not_mem (b := Proc.devRef .tc Cert.KernelIdeal.main_arg14) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg14 : Cert.KernelIdeal.GenP.W4 m ρ c (Proc.devRef .tc Cert.KernelIdeal.main_arg14) = Cert.KernelIdeal.GenP.W0 m ρ c (Proc.devRef .tc Cert.KernelIdeal.main_arg14) := by
  refine (Cert.KernelIdeal.GenP.W4_arr m ρ c 2).trans ?_
  refine ((Cert.KernelIdeal.GenP.dat1 (Cert.KernelIdeal.GenP.V3 m ρ) c).arrAt_in 2 rfl _).trans ?_
  refine (Cert.KernelIdeal.GenP.A_eq1 (Cert.KernelIdeal.GenP.V3 m ρ) c 2).trans ?_
  show Cert.KernelIdeal.GenP.W3 m ρ c (Proc.devRef .tc Cert.KernelIdeal.main_arg14) = _
  refine (StableHlo.after_of_forall_not_mem (b := Proc.devRef .tc Cert.KernelIdeal.main_arg14) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg14 m ρ c
theorem W10_arg14 : Cert.KernelIdeal.GenP.W10 m ρ c (Proc.devRef .tc Cert.KernelIdeal.main_arg14) = Cert.KernelIdeal.GenP.W0 m ρ c (Proc.devRef .tc Cert.KernelIdeal.main_arg14) := by
  rw [Cert.KernelIdeal.GenP.W10_of_ne m ρ c Cert.KernelIdeal.main_arg14 (by decide)]
  refine (StableHlo.after_of_forall_not_mem (b := Proc.devRef .tc Cert.KernelIdeal.main_arg14) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg14 m ρ c
theorem W11_arg14 : Cert.KernelIdeal.GenP.W11 m ρ c (Proc.devRef .tc Cert.KernelIdeal.main_arg14) = Cert.KernelIdeal.GenP.W0 m ρ c (Proc.devRef .tc Cert.KernelIdeal.main_arg14) := by
  rw [Cert.KernelIdeal.GenP.W11_of_ne m ρ c Cert.KernelIdeal.main_arg14 (by decide)]
  exact W10_arg14 m ρ c
theorem W17_arg14 : Cert.KernelIdeal.GenP.W17 m ρ c (Proc.devRef .tc Cert.KernelIdeal.main_arg14) = Cert.KernelIdeal.GenP.W0 m ρ c (Proc.devRef .tc Cert.KernelIdeal.main_arg14) := by
  rw [Cert.KernelIdeal.GenP.W17_of_ne m ρ c Cert.KernelIdeal.main_arg14 (by decide)]
  refine (StableHlo.after_of_forall_not_mem (b := Proc.devRef .tc Cert.KernelIdeal.main_arg14) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg14 m ρ c
theorem W18_arg14 : Cert.KernelIdeal.GenP.W18 m ρ c (Proc.devRef .tc Cert.KernelIdeal.main_arg14) = Cert.KernelIdeal.GenP.W0 m ρ c (Proc.devRef .tc Cert.KernelIdeal.main_arg14) := by
  rw [Cert.KernelIdeal.GenP.W18_of_ne m ρ c Cert.KernelIdeal.main_arg14 (by decide)]
  exact W17_arg14 m ρ c
theorem W20_arg14 : Cert.KernelIdeal.GenP.W20 m ρ c (Proc.devRef .tc Cert.KernelIdeal.main_arg14) = Cert.KernelIdeal.GenP.W0 m ρ c (Proc.devRef .tc Cert.KernelIdeal.main_arg14) := by
  rw [Cert.KernelIdeal.GenP.W20_of_ne m ρ c Cert.KernelIdeal.main_arg14 (by decide)]
  refine (StableHlo.after_of_forall_not_mem (b := Proc.devRef .tc Cert.KernelIdeal.main_arg14) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg14 m ρ c
theorem W22_arg14 : Cert.KernelIdeal.GenP.W22 m ρ c (Proc.devRef .tc Cert.KernelIdeal.main_arg14) = Cert.KernelIdeal.GenP.W0 m ρ c (Proc.devRef .tc Cert.KernelIdeal.main_arg14) := by
  rw [Cert.KernelIdeal.GenP.W22_of_ne m ρ c Cert.KernelIdeal.main_arg14 (by decide)]
  refine (StableHlo.after_of_forall_not_mem (b := Proc.devRef .tc Cert.KernelIdeal.main_arg14) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg14 m ρ c
theorem W24_arg14 : Cert.KernelIdeal.GenP.W24 m ρ c (Proc.devRef .tc Cert.KernelIdeal.main_arg14) = Cert.KernelIdeal.GenP.W0 m ρ c (Proc.devRef .tc Cert.KernelIdeal.main_arg14) := by
  rw [Cert.KernelIdeal.GenP.W24_of_ne m ρ c Cert.KernelIdeal.main_arg14 (by decide)]
  refine (StableHlo.after_of_forall_not_mem (b := Proc.devRef .tc Cert.KernelIdeal.main_arg14) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg14 m ρ c
theorem W26_arg14 : Cert.KernelIdeal.GenP.W26 m ρ c (Proc.devRef .tc Cert.KernelIdeal.main_arg14) = Cert.KernelIdeal.GenP.W0 m ρ c (Proc.devRef .tc Cert.KernelIdeal.main_arg14) := by
  rw [Cert.KernelIdeal.GenP.W26_of_ne m ρ c Cert.KernelIdeal.main_arg14 (by decide)]
  refine (StableHlo.after_of_forall_not_mem (b := Proc.devRef .tc Cert.KernelIdeal.main_arg14) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg14 m ρ c
theorem KW27_arg14 : Cert.Sim.KW27 m ρ c (Proc.devRef .tc Cert.KernelIdeal.main_arg14) = Cert.KernelIdeal.GenP.W0 m ρ c (Proc.devRef .tc Cert.KernelIdeal.main_arg14) := by
  rw [KW27_eq m ρ c]
  refine (StableHlo.after_of_forall_not_mem (b := Proc.devRef .tc Cert.KernelIdeal.main_arg14) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg14 m ρ c
theorem W29_arg14 : Cert.KernelIdeal.GenP.W29 m ρ c (Proc.devRef .tc Cert.KernelIdeal.main_arg14) = Cert.KernelIdeal.GenP.W0 m ρ c (Proc.devRef .tc Cert.KernelIdeal.main_arg14) := by
  rw [W29_eq m ρ c]
  refine (StableHlo.after_of_forall_not_mem (b := Proc.devRef .tc Cert.KernelIdeal.main_arg14) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg14) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg14 m ρ c
/-- The launch contents at this argument, as the launch memory: read off the generated frame's fact at the return. -/
theorem W0m_arg14 : Cert.KernelIdeal.GenP.W0 m ρ c (Proc.devRef .tc Cert.KernelIdeal.main_arg14) = m ((c.tc : Thread Cert.KernelIdeal.nD Cert.KernelIdeal.τ).loc Cert.KernelIdeal.main_arg14) := (W29_arg14 m ρ c).symm.trans (Cert.KernelIdeal.GenP.W29_main_arg14 m ρ c)

theorem W2_arg15 : Cert.KernelIdeal.GenP.W2 m ρ c (Proc.devRef .tc Cert.KernelIdeal.main_arg15) = Cert.KernelIdeal.GenP.W0 m ρ c (Proc.devRef .tc Cert.KernelIdeal.main_arg15) := by
  rw [Cert.KernelIdeal.GenP.W2_of_ne m ρ c Cert.KernelIdeal.main_arg15 (by decide)]
  refine (StableHlo.after_of_forall_not_mem (b := Proc.devRef .tc Cert.KernelIdeal.main_arg15) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg15 : Cert.KernelIdeal.GenP.W4 m ρ c (Proc.devRef .tc Cert.KernelIdeal.main_arg15) = Cert.KernelIdeal.GenP.W0 m ρ c (Proc.devRef .tc Cert.KernelIdeal.main_arg15) := by
  rw [Cert.KernelIdeal.GenP.W4_of_ne m ρ c Cert.KernelIdeal.main_arg15 (by decide)]
  refine (StableHlo.after_of_forall_not_mem (b := Proc.devRef .tc Cert.KernelIdeal.main_arg15) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg15 m ρ c
theorem W10_arg15 : Cert.KernelIdeal.GenP.W10 m ρ c (Proc.devRef .tc Cert.KernelIdeal.main_arg15) = Cert.KernelIdeal.GenP.W0 m ρ c (Proc.devRef .tc Cert.KernelIdeal.main_arg15) := by
  rw [Cert.KernelIdeal.GenP.W10_of_ne m ρ c Cert.KernelIdeal.main_arg15 (by decide)]
  refine (StableHlo.after_of_forall_not_mem (b := Proc.devRef .tc Cert.KernelIdeal.main_arg15) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg15 m ρ c
theorem W11_arg15 : Cert.KernelIdeal.GenP.W11 m ρ c (Proc.devRef .tc Cert.KernelIdeal.main_arg15) = Cert.KernelIdeal.GenP.W0 m ρ c (Proc.devRef .tc Cert.KernelIdeal.main_arg15) := by
  rw [Cert.KernelIdeal.GenP.W11_of_ne m ρ c Cert.KernelIdeal.main_arg15 (by decide)]
  exact W10_arg15 m ρ c
theorem W17_arg15 : Cert.KernelIdeal.GenP.W17 m ρ c (Proc.devRef .tc Cert.KernelIdeal.main_arg15) = Cert.KernelIdeal.GenP.W0 m ρ c (Proc.devRef .tc Cert.KernelIdeal.main_arg15) := by
  rw [Cert.KernelIdeal.GenP.W17_of_ne m ρ c Cert.KernelIdeal.main_arg15 (by decide)]
  refine (StableHlo.after_of_forall_not_mem (b := Proc.devRef .tc Cert.KernelIdeal.main_arg15) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg15 m ρ c
theorem W18_arg15 : Cert.KernelIdeal.GenP.W18 m ρ c (Proc.devRef .tc Cert.KernelIdeal.main_arg15) = Cert.KernelIdeal.GenP.W0 m ρ c (Proc.devRef .tc Cert.KernelIdeal.main_arg15) := by
  rw [Cert.KernelIdeal.GenP.W18_of_ne m ρ c Cert.KernelIdeal.main_arg15 (by decide)]
  exact W17_arg15 m ρ c
theorem W20_arg15 : Cert.KernelIdeal.GenP.W20 m ρ c (Proc.devRef .tc Cert.KernelIdeal.main_arg15) = Cert.KernelIdeal.GenP.W0 m ρ c (Proc.devRef .tc Cert.KernelIdeal.main_arg15) := by
  rw [Cert.KernelIdeal.GenP.W20_of_ne m ρ c Cert.KernelIdeal.main_arg15 (by decide)]
  refine (StableHlo.after_of_forall_not_mem (b := Proc.devRef .tc Cert.KernelIdeal.main_arg15) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg15 m ρ c
theorem W22_arg15 : Cert.KernelIdeal.GenP.W22 m ρ c (Proc.devRef .tc Cert.KernelIdeal.main_arg15) = Cert.KernelIdeal.GenP.W0 m ρ c (Proc.devRef .tc Cert.KernelIdeal.main_arg15) := by
  rw [Cert.KernelIdeal.GenP.W22_of_ne m ρ c Cert.KernelIdeal.main_arg15 (by decide)]
  refine (StableHlo.after_of_forall_not_mem (b := Proc.devRef .tc Cert.KernelIdeal.main_arg15) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg15 m ρ c
theorem W24_arg15 : Cert.KernelIdeal.GenP.W24 m ρ c (Proc.devRef .tc Cert.KernelIdeal.main_arg15) = Cert.KernelIdeal.GenP.W0 m ρ c (Proc.devRef .tc Cert.KernelIdeal.main_arg15) := by
  rw [Cert.KernelIdeal.GenP.W24_of_ne m ρ c Cert.KernelIdeal.main_arg15 (by decide)]
  refine (StableHlo.after_of_forall_not_mem (b := Proc.devRef .tc Cert.KernelIdeal.main_arg15) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg15 m ρ c
theorem W26_arg15 : Cert.KernelIdeal.GenP.W26 m ρ c (Proc.devRef .tc Cert.KernelIdeal.main_arg15) = Cert.KernelIdeal.GenP.W0 m ρ c (Proc.devRef .tc Cert.KernelIdeal.main_arg15) := by
  rw [Cert.KernelIdeal.GenP.W26_of_ne m ρ c Cert.KernelIdeal.main_arg15 (by decide)]
  refine (StableHlo.after_of_forall_not_mem (b := Proc.devRef .tc Cert.KernelIdeal.main_arg15) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg15 m ρ c
theorem KW27_arg15 : Cert.Sim.KW27 m ρ c (Proc.devRef .tc Cert.KernelIdeal.main_arg15) = Cert.KernelIdeal.GenP.W0 m ρ c (Proc.devRef .tc Cert.KernelIdeal.main_arg15) := by
  rw [KW27_eq m ρ c]
  refine (StableHlo.after_of_forall_not_mem (b := Proc.devRef .tc Cert.KernelIdeal.main_arg15) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg15 m ρ c
theorem W29_arg15 : Cert.KernelIdeal.GenP.W29 m ρ c (Proc.devRef .tc Cert.KernelIdeal.main_arg15) = Cert.KernelIdeal.GenP.W0 m ρ c (Proc.devRef .tc Cert.KernelIdeal.main_arg15) := by
  rw [W29_eq m ρ c]
  refine (StableHlo.after_of_forall_not_mem (b := Proc.devRef .tc Cert.KernelIdeal.main_arg15) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg15) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg15 m ρ c
/-- The launch contents at this argument, as the launch memory: read off the generated frame's fact at the return. -/
theorem W0m_arg15 : Cert.KernelIdeal.GenP.W0 m ρ c (Proc.devRef .tc Cert.KernelIdeal.main_arg15) = m ((c.tc : Thread Cert.KernelIdeal.nD Cert.KernelIdeal.τ).loc Cert.KernelIdeal.main_arg15) := (W29_arg15 m ρ c).symm.trans (Cert.KernelIdeal.GenP.W29_main_arg15 m ρ c)

end Cert.Sim

end
-- ==== Proof.SimArgsK2.lean ====
/-
  No host operation and no region of the kernel's program writes an argument's buffer: at every boundary of the program
  each argument still holds its launch contents (arguments 16 to 22). A region reads an argument through an input window,
  whose array it leaves as it found it; a host stretch's operations each write their own result buffer only.
-/
import proofs.«103739_j26439818674747_2_alg».proof.Proof.SimBase

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem W2_arg16 : Cert.KernelIdeal.GenP.W2 m ρ c (Proc.devRef .tc Cert.KernelIdeal.main_arg16) = Cert.KernelIdeal.GenP.W0 m ρ c (Proc.devRef .tc Cert.KernelIdeal.main_arg16) := by
  rw [Cert.KernelIdeal.GenP.W2_of_ne m ρ c Cert.KernelIdeal.main_arg16 (by decide)]
  refine (StableHlo.after_of_forall_not_mem (b := Proc.devRef .tc Cert.KernelIdeal.main_arg16) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg16 : Cert.KernelIdeal.GenP.W4 m ρ c (Proc.devRef .tc Cert.KernelIdeal.main_arg16) = Cert.KernelIdeal.GenP.W0 m ρ c (Proc.devRef .tc Cert.KernelIdeal.main_arg16) := by
  rw [Cert.KernelIdeal.GenP.W4_of_ne m ρ c Cert.KernelIdeal.main_arg16 (by decide)]
  refine (StableHlo.after_of_forall_not_mem (b := Proc.devRef .tc Cert.KernelIdeal.main_arg16) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg16 m ρ c
theorem W10_arg16 : Cert.KernelIdeal.GenP.W10 m ρ c (Proc.devRef .tc Cert.KernelIdeal.main_arg16) = Cert.KernelIdeal.GenP.W0 m ρ c (Proc.devRef .tc Cert.KernelIdeal.main_arg16) := by
  rw [Cert.KernelIdeal.GenP.W10_of_ne m ρ c Cert.KernelIdeal.main_arg16 (by decide)]
  refine (StableHlo.after_of_forall_not_mem (b := Proc.devRef .tc Cert.KernelIdeal.main_arg16) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg16 m ρ c
theorem W11_arg16 : Cert.KernelIdeal.GenP.W11 m ρ c (Proc.devRef .tc Cert.KernelIdeal.main_arg16) = Cert.KernelIdeal.GenP.W0 m ρ c (Proc.devRef .tc Cert.KernelIdeal.main_arg16) := by
  rw [Cert.KernelIdeal.GenP.W11_of_ne m ρ c Cert.KernelIdeal.main_arg16 (by decide)]
  exact W10_arg16 m ρ c
theorem W17_arg16 : Cert.KernelIdeal.GenP.W17 m ρ c (Proc.devRef .tc Cert.KernelIdeal.main_arg16) = Cert.KernelIdeal.GenP.W0 m ρ c (Proc.devRef .tc Cert.KernelIdeal.main_arg16) := by
  rw [Cert.KernelIdeal.GenP.W17_of_ne m ρ c Cert.KernelIdeal.main_arg16 (by decide)]
  refine (StableHlo.after_of_forall_not_mem (b := Proc.devRef .tc Cert.KernelIdeal.main_arg16) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg16 m ρ c
theorem W18_arg16 : Cert.KernelIdeal.GenP.W18 m ρ c (Proc.devRef .tc Cert.KernelIdeal.main_arg16) = Cert.KernelIdeal.GenP.W0 m ρ c (Proc.devRef .tc Cert.KernelIdeal.main_arg16) := by
  rw [Cert.KernelIdeal.GenP.W18_of_ne m ρ c Cert.KernelIdeal.main_arg16 (by decide)]
  exact W17_arg16 m ρ c
theorem W20_arg16 : Cert.KernelIdeal.GenP.W20 m ρ c (Proc.devRef .tc Cert.KernelIdeal.main_arg16) = Cert.KernelIdeal.GenP.W0 m ρ c (Proc.devRef .tc Cert.KernelIdeal.main_arg16) := by
  rw [Cert.KernelIdeal.GenP.W20_of_ne m ρ c Cert.KernelIdeal.main_arg16 (by decide)]
  refine (StableHlo.after_of_forall_not_mem (b := Proc.devRef .tc Cert.KernelIdeal.main_arg16) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg16 m ρ c
theorem W22_arg16 : Cert.KernelIdeal.GenP.W22 m ρ c (Proc.devRef .tc Cert.KernelIdeal.main_arg16) = Cert.KernelIdeal.GenP.W0 m ρ c (Proc.devRef .tc Cert.KernelIdeal.main_arg16) := by
  rw [Cert.KernelIdeal.GenP.W22_of_ne m ρ c Cert.KernelIdeal.main_arg16 (by decide)]
  refine (StableHlo.after_of_forall_not_mem (b := Proc.devRef .tc Cert.KernelIdeal.main_arg16) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg16 m ρ c
theorem W24_arg16 : Cert.KernelIdeal.GenP.W24 m ρ c (Proc.devRef .tc Cert.KernelIdeal.main_arg16) = Cert.KernelIdeal.GenP.W0 m ρ c (Proc.devRef .tc Cert.KernelIdeal.main_arg16) := by
  rw [Cert.KernelIdeal.GenP.W24_of_ne m ρ c Cert.KernelIdeal.main_arg16 (by decide)]
  refine (StableHlo.after_of_forall_not_mem (b := Proc.devRef .tc Cert.KernelIdeal.main_arg16) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg16 m ρ c
theorem W26_arg16 : Cert.KernelIdeal.GenP.W26 m ρ c (Proc.devRef .tc Cert.KernelIdeal.main_arg16) = Cert.KernelIdeal.GenP.W0 m ρ c (Proc.devRef .tc Cert.KernelIdeal.main_arg16) := by
  rw [Cert.KernelIdeal.GenP.W26_of_ne m ρ c Cert.KernelIdeal.main_arg16 (by decide)]
  refine (StableHlo.after_of_forall_not_mem (b := Proc.devRef .tc Cert.KernelIdeal.main_arg16) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg16 m ρ c
theorem KW27_arg16 : Cert.Sim.KW27 m ρ c (Proc.devRef .tc Cert.KernelIdeal.main_arg16) = Cert.KernelIdeal.GenP.W0 m ρ c (Proc.devRef .tc Cert.KernelIdeal.main_arg16) := by
  rw [KW27_eq m ρ c]
  refine (StableHlo.after_of_forall_not_mem (b := Proc.devRef .tc Cert.KernelIdeal.main_arg16) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg16 m ρ c
theorem W29_arg16 : Cert.KernelIdeal.GenP.W29 m ρ c (Proc.devRef .tc Cert.KernelIdeal.main_arg16) = Cert.KernelIdeal.GenP.W0 m ρ c (Proc.devRef .tc Cert.KernelIdeal.main_arg16) := by
  rw [W29_eq m ρ c]
  refine (StableHlo.after_of_forall_not_mem (b := Proc.devRef .tc Cert.KernelIdeal.main_arg16) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg16) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg16 m ρ c
/-- The launch contents at this argument, as the launch memory: read off the generated frame's fact at the return. -/
theorem W0m_arg16 : Cert.KernelIdeal.GenP.W0 m ρ c (Proc.devRef .tc Cert.KernelIdeal.main_arg16) = m ((c.tc : Thread Cert.KernelIdeal.nD Cert.KernelIdeal.τ).loc Cert.KernelIdeal.main_arg16) := (W29_arg16 m ρ c).symm.trans (Cert.KernelIdeal.GenP.W29_main_arg16 m ρ c)

theorem W2_arg17 : Cert.KernelIdeal.GenP.W2 m ρ c (Proc.devRef .tc Cert.KernelIdeal.main_arg17) = Cert.KernelIdeal.GenP.W0 m ρ c (Proc.devRef .tc Cert.KernelIdeal.main_arg17) := by
  rw [Cert.KernelIdeal.GenP.W2_of_ne m ρ c Cert.KernelIdeal.main_arg17 (by decide)]
  refine (StableHlo.after_of_forall_not_mem (b := Proc.devRef .tc Cert.KernelIdeal.main_arg17) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg17 : Cert.KernelIdeal.GenP.W4 m ρ c (Proc.devRef .tc Cert.KernelIdeal.main_arg17) = Cert.KernelIdeal.GenP.W0 m ρ c (Proc.devRef .tc Cert.KernelIdeal.main_arg17) := by
  rw [Cert.KernelIdeal.GenP.W4_of_ne m ρ c Cert.KernelIdeal.main_arg17 (by decide)]
  refine (StableHlo.after_of_forall_not_mem (b := Proc.devRef .tc Cert.KernelIdeal.main_arg17) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg17 m ρ c
theorem W10_arg17 : Cert.KernelIdeal.GenP.W10 m ρ c (Proc.devRef .tc Cert.KernelIdeal.main_arg17) = Cert.KernelIdeal.GenP.W0 m ρ c (Proc.devRef .tc Cert.KernelIdeal.main_arg17) := by
  rw [Cert.KernelIdeal.GenP.W10_of_ne m ρ c Cert.KernelIdeal.main_arg17 (by decide)]
  refine (StableHlo.after_of_forall_not_mem (b := Proc.devRef .tc Cert.KernelIdeal.main_arg17) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg17 m ρ c
theorem W11_arg17 : Cert.KernelIdeal.GenP.W11 m ρ c (Proc.devRef .tc Cert.KernelIdeal.main_arg17) = Cert.KernelIdeal.GenP.W0 m ρ c (Proc.devRef .tc Cert.KernelIdeal.main_arg17) := by
  rw [Cert.KernelIdeal.GenP.W11_of_ne m ρ c Cert.KernelIdeal.main_arg17 (by decide)]
  exact W10_arg17 m ρ c
theorem W17_arg17 : Cert.KernelIdeal.GenP.W17 m ρ c (Proc.devRef .tc Cert.KernelIdeal.main_arg17) = Cert.KernelIdeal.GenP.W0 m ρ c (Proc.devRef .tc Cert.KernelIdeal.main_arg17) := by
  rw [Cert.KernelIdeal.GenP.W17_of_ne m ρ c Cert.KernelIdeal.main_arg17 (by decide)]
  refine (StableHlo.after_of_forall_not_mem (b := Proc.devRef .tc Cert.KernelIdeal.main_arg17) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg17 m ρ c
theorem W18_arg17 : Cert.KernelIdeal.GenP.W18 m ρ c (Proc.devRef .tc Cert.KernelIdeal.main_arg17) = Cert.KernelIdeal.GenP.W0 m ρ c (Proc.devRef .tc Cert.KernelIdeal.main_arg17) := by
  rw [Cert.KernelIdeal.GenP.W18_of_ne m ρ c Cert.KernelIdeal.main_arg17 (by decide)]
  exact W17_arg17 m ρ c
theorem W20_arg17 : Cert.KernelIdeal.GenP.W20 m ρ c (Proc.devRef .tc Cert.KernelIdeal.main_arg17) = Cert.KernelIdeal.GenP.W0 m ρ c (Proc.devRef .tc Cert.KernelIdeal.main_arg17) := by
  rw [Cert.KernelIdeal.GenP.W20_of_ne m ρ c Cert.KernelIdeal.main_arg17 (by decide)]
  refine (StableHlo.after_of_forall_not_mem (b := Proc.devRef .tc Cert.KernelIdeal.main_arg17) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg17 m ρ c
theorem W22_arg17 : Cert.KernelIdeal.GenP.W22 m ρ c (Proc.devRef .tc Cert.KernelIdeal.main_arg17) = Cert.KernelIdeal.GenP.W0 m ρ c (Proc.devRef .tc Cert.KernelIdeal.main_arg17) := by
  rw [Cert.KernelIdeal.GenP.W22_of_ne m ρ c Cert.KernelIdeal.main_arg17 (by decide)]
  refine (StableHlo.after_of_forall_not_mem (b := Proc.devRef .tc Cert.KernelIdeal.main_arg17) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg17 m ρ c
theorem W24_arg17 : Cert.KernelIdeal.GenP.W24 m ρ c (Proc.devRef .tc Cert.KernelIdeal.main_arg17) = Cert.KernelIdeal.GenP.W0 m ρ c (Proc.devRef .tc Cert.KernelIdeal.main_arg17) := by
  rw [Cert.KernelIdeal.GenP.W24_of_ne m ρ c Cert.KernelIdeal.main_arg17 (by decide)]
  refine (StableHlo.after_of_forall_not_mem (b := Proc.devRef .tc Cert.KernelIdeal.main_arg17) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg17 m ρ c
theorem W26_arg17 : Cert.KernelIdeal.GenP.W26 m ρ c (Proc.devRef .tc Cert.KernelIdeal.main_arg17) = Cert.KernelIdeal.GenP.W0 m ρ c (Proc.devRef .tc Cert.KernelIdeal.main_arg17) := by
  rw [Cert.KernelIdeal.GenP.W26_of_ne m ρ c Cert.KernelIdeal.main_arg17 (by decide)]
  refine (StableHlo.after_of_forall_not_mem (b := Proc.devRef .tc Cert.KernelIdeal.main_arg17) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg17 m ρ c
theorem KW27_arg17 : Cert.Sim.KW27 m ρ c (Proc.devRef .tc Cert.KernelIdeal.main_arg17) = Cert.KernelIdeal.GenP.W0 m ρ c (Proc.devRef .tc Cert.KernelIdeal.main_arg17) := by
  rw [KW27_eq m ρ c]
  refine (StableHlo.after_of_forall_not_mem (b := Proc.devRef .tc Cert.KernelIdeal.main_arg17) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg17 m ρ c
theorem W29_arg17 : Cert.KernelIdeal.GenP.W29 m ρ c (Proc.devRef .tc Cert.KernelIdeal.main_arg17) = Cert.KernelIdeal.GenP.W0 m ρ c (Proc.devRef .tc Cert.KernelIdeal.main_arg17) := by
  rw [W29_eq m ρ c]
  refine (StableHlo.after_of_forall_not_mem (b := Proc.devRef .tc Cert.KernelIdeal.main_arg17) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg17) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg17 m ρ c
/-- The launch contents at this argument, as the launch memory: read off the generated frame's fact at the return. -/
theorem W0m_arg17 : Cert.KernelIdeal.GenP.W0 m ρ c (Proc.devRef .tc Cert.KernelIdeal.main_arg17) = m ((c.tc : Thread Cert.KernelIdeal.nD Cert.KernelIdeal.τ).loc Cert.KernelIdeal.main_arg17) := (W29_arg17 m ρ c).symm.trans (Cert.KernelIdeal.GenP.W29_main_arg17 m ρ c)

theorem W2_arg18 : Cert.KernelIdeal.GenP.W2 m ρ c (Proc.devRef .tc Cert.KernelIdeal.main_arg18) = Cert.KernelIdeal.GenP.W0 m ρ c (Proc.devRef .tc Cert.KernelIdeal.main_arg18) := by
  rw [Cert.KernelIdeal.GenP.W2_of_ne m ρ c Cert.KernelIdeal.main_arg18 (by decide)]
  refine (StableHlo.after_of_forall_not_mem (b := Proc.devRef .tc Cert.KernelIdeal.main_arg18) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg18 : Cert.KernelIdeal.GenP.W4 m ρ c (Proc.devRef .tc Cert.KernelIdeal.main_arg18) = Cert.KernelIdeal.GenP.W0 m ρ c (Proc.devRef .tc Cert.KernelIdeal.main_arg18) := by
  rw [Cert.KernelIdeal.GenP.W4_of_ne m ρ c Cert.KernelIdeal.main_arg18 (by decide)]
  refine (StableHlo.after_of_forall_not_mem (b := Proc.devRef .tc Cert.KernelIdeal.main_arg18) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg18 m ρ c
theorem W10_arg18 : Cert.KernelIdeal.GenP.W10 m ρ c (Proc.devRef .tc Cert.KernelIdeal.main_arg18) = Cert.KernelIdeal.GenP.W0 m ρ c (Proc.devRef .tc Cert.KernelIdeal.main_arg18) := by
  rw [Cert.KernelIdeal.GenP.W10_of_ne m ρ c Cert.KernelIdeal.main_arg18 (by decide)]
  refine (StableHlo.after_of_forall_not_mem (b := Proc.devRef .tc Cert.KernelIdeal.main_arg18) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg18 m ρ c
theorem W11_arg18 : Cert.KernelIdeal.GenP.W11 m ρ c (Proc.devRef .tc Cert.KernelIdeal.main_arg18) = Cert.KernelIdeal.GenP.W0 m ρ c (Proc.devRef .tc Cert.KernelIdeal.main_arg18) := by
  rw [Cert.KernelIdeal.GenP.W11_of_ne m ρ c Cert.KernelIdeal.main_arg18 (by decide)]
  exact W10_arg18 m ρ c
theorem W17_arg18 : Cert.KernelIdeal.GenP.W17 m ρ c (Proc.devRef .tc Cert.KernelIdeal.main_arg18) = Cert.KernelIdeal.GenP.W0 m ρ c (Proc.devRef .tc Cert.KernelIdeal.main_arg18) := by
  rw [Cert.KernelIdeal.GenP.W17_of_ne m ρ c Cert.KernelIdeal.main_arg18 (by decide)]
  refine (StableHlo.after_of_forall_not_mem (b := Proc.devRef .tc Cert.KernelIdeal.main_arg18) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg18 m ρ c
theorem W18_arg18 : Cert.KernelIdeal.GenP.W18 m ρ c (Proc.devRef .tc Cert.KernelIdeal.main_arg18) = Cert.KernelIdeal.GenP.W0 m ρ c (Proc.devRef .tc Cert.KernelIdeal.main_arg18) := by
  rw [Cert.KernelIdeal.GenP.W18_of_ne m ρ c Cert.KernelIdeal.main_arg18 (by decide)]
  exact W17_arg18 m ρ c
theorem W20_arg18 : Cert.KernelIdeal.GenP.W20 m ρ c (Proc.devRef .tc Cert.KernelIdeal.main_arg18) = Cert.KernelIdeal.GenP.W0 m ρ c (Proc.devRef .tc Cert.KernelIdeal.main_arg18) := by
  rw [Cert.KernelIdeal.GenP.W20_of_ne m ρ c Cert.KernelIdeal.main_arg18 (by decide)]
  refine (StableHlo.after_of_forall_not_mem (b := Proc.devRef .tc Cert.KernelIdeal.main_arg18) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg18 m ρ c
theorem W22_arg18 : Cert.KernelIdeal.GenP.W22 m ρ c (Proc.devRef .tc Cert.KernelIdeal.main_arg18) = Cert.KernelIdeal.GenP.W0 m ρ c (Proc.devRef .tc Cert.KernelIdeal.main_arg18) := by
  rw [Cert.KernelIdeal.GenP.W22_of_ne m ρ c Cert.KernelIdeal.main_arg18 (by decide)]
  refine (StableHlo.after_of_forall_not_mem (b := Proc.devRef .tc Cert.KernelIdeal.main_arg18) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg18 m ρ c
theorem W24_arg18 : Cert.KernelIdeal.GenP.W24 m ρ c (Proc.devRef .tc Cert.KernelIdeal.main_arg18) = Cert.KernelIdeal.GenP.W0 m ρ c (Proc.devRef .tc Cert.KernelIdeal.main_arg18) := by
  rw [Cert.KernelIdeal.GenP.W24_of_ne m ρ c Cert.KernelIdeal.main_arg18 (by decide)]
  refine (StableHlo.after_of_forall_not_mem (b := Proc.devRef .tc Cert.KernelIdeal.main_arg18) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg18 m ρ c
theorem W26_arg18 : Cert.KernelIdeal.GenP.W26 m ρ c (Proc.devRef .tc Cert.KernelIdeal.main_arg18) = Cert.KernelIdeal.GenP.W0 m ρ c (Proc.devRef .tc Cert.KernelIdeal.main_arg18) := by
  rw [Cert.KernelIdeal.GenP.W26_of_ne m ρ c Cert.KernelIdeal.main_arg18 (by decide)]
  refine (StableHlo.after_of_forall_not_mem (b := Proc.devRef .tc Cert.KernelIdeal.main_arg18) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg18 m ρ c
theorem KW27_arg18 : Cert.Sim.KW27 m ρ c (Proc.devRef .tc Cert.KernelIdeal.main_arg18) = Cert.KernelIdeal.GenP.W0 m ρ c (Proc.devRef .tc Cert.KernelIdeal.main_arg18) := by
  rw [KW27_eq m ρ c]
  refine (StableHlo.after_of_forall_not_mem (b := Proc.devRef .tc Cert.KernelIdeal.main_arg18) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg18 m ρ c
theorem W29_arg18 : Cert.KernelIdeal.GenP.W29 m ρ c (Proc.devRef .tc Cert.KernelIdeal.main_arg18) = Cert.KernelIdeal.GenP.W0 m ρ c (Proc.devRef .tc Cert.KernelIdeal.main_arg18) := by
  rw [W29_eq m ρ c]
  refine (StableHlo.after_of_forall_not_mem (b := Proc.devRef .tc Cert.KernelIdeal.main_arg18) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg18) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg18 m ρ c
/-- The launch contents at this argument, as the launch memory: read off the generated frame's fact at the return. -/
theorem W0m_arg18 : Cert.KernelIdeal.GenP.W0 m ρ c (Proc.devRef .tc Cert.KernelIdeal.main_arg18) = m ((c.tc : Thread Cert.KernelIdeal.nD Cert.KernelIdeal.τ).loc Cert.KernelIdeal.main_arg18) := (W29_arg18 m ρ c).symm.trans (Cert.KernelIdeal.GenP.W29_main_arg18 m ρ c)

theorem W2_arg19 : Cert.KernelIdeal.GenP.W2 m ρ c (Proc.devRef .tc Cert.KernelIdeal.main_arg19) = Cert.KernelIdeal.GenP.W0 m ρ c (Proc.devRef .tc Cert.KernelIdeal.main_arg19) := by
  rw [Cert.KernelIdeal.GenP.W2_of_ne m ρ c Cert.KernelIdeal.main_arg19 (by decide)]
  refine (StableHlo.after_of_forall_not_mem (b := Proc.devRef .tc Cert.KernelIdeal.main_arg19) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg19 : Cert.KernelIdeal.GenP.W4 m ρ c (Proc.devRef .tc Cert.KernelIdeal.main_arg19) = Cert.KernelIdeal.GenP.W0 m ρ c (Proc.devRef .tc Cert.KernelIdeal.main_arg19) := by
  rw [Cert.KernelIdeal.GenP.W4_of_ne m ρ c Cert.KernelIdeal.main_arg19 (by decide)]
  refine (StableHlo.after_of_forall_not_mem (b := Proc.devRef .tc Cert.KernelIdeal.main_arg19) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg19 m ρ c
theorem W10_arg19 : Cert.KernelIdeal.GenP.W10 m ρ c (Proc.devRef .tc Cert.KernelIdeal.main_arg19) = Cert.KernelIdeal.GenP.W0 m ρ c (Proc.devRef .tc Cert.KernelIdeal.main_arg19) := by
  rw [Cert.KernelIdeal.GenP.W10_of_ne m ρ c Cert.KernelIdeal.main_arg19 (by decide)]
  refine (StableHlo.after_of_forall_not_mem (b := Proc.devRef .tc Cert.KernelIdeal.main_arg19) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg19 m ρ c
theorem W11_arg19 : Cert.KernelIdeal.GenP.W11 m ρ c (Proc.devRef .tc Cert.KernelIdeal.main_arg19) = Cert.KernelIdeal.GenP.W0 m ρ c (Proc.devRef .tc Cert.KernelIdeal.main_arg19) := by
  rw [Cert.KernelIdeal.GenP.W11_of_ne m ρ c Cert.KernelIdeal.main_arg19 (by decide)]
  exact W10_arg19 m ρ c
theorem W17_arg19 : Cert.KernelIdeal.GenP.W17 m ρ c (Proc.devRef .tc Cert.KernelIdeal.main_arg19) = Cert.KernelIdeal.GenP.W0 m ρ c (Proc.devRef .tc Cert.KernelIdeal.main_arg19) := by
  rw [Cert.KernelIdeal.GenP.W17_of_ne m ρ c Cert.KernelIdeal.main_arg19 (by decide)]
  refine (StableHlo.after_of_forall_not_mem (b := Proc.devRef .tc Cert.KernelIdeal.main_arg19) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg19 m ρ c
theorem W18_arg19 : Cert.KernelIdeal.GenP.W18 m ρ c (Proc.devRef .tc Cert.KernelIdeal.main_arg19) = Cert.KernelIdeal.GenP.W0 m ρ c (Proc.devRef .tc Cert.KernelIdeal.main_arg19) := by
  rw [Cert.KernelIdeal.GenP.W18_of_ne m ρ c Cert.KernelIdeal.main_arg19 (by decide)]
  exact W17_arg19 m ρ c
theorem W20_arg19 : Cert.KernelIdeal.GenP.W20 m ρ c (Proc.devRef .tc Cert.KernelIdeal.main_arg19) = Cert.KernelIdeal.GenP.W0 m ρ c (Proc.devRef .tc Cert.KernelIdeal.main_arg19) := by
  rw [Cert.KernelIdeal.GenP.W20_of_ne m ρ c Cert.KernelIdeal.main_arg19 (by decide)]
  refine (StableHlo.after_of_forall_not_mem (b := Proc.devRef .tc Cert.KernelIdeal.main_arg19) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg19 m ρ c
theorem W22_arg19 : Cert.KernelIdeal.GenP.W22 m ρ c (Proc.devRef .tc Cert.KernelIdeal.main_arg19) = Cert.KernelIdeal.GenP.W0 m ρ c (Proc.devRef .tc Cert.KernelIdeal.main_arg19) := by
  rw [Cert.KernelIdeal.GenP.W22_of_ne m ρ c Cert.KernelIdeal.main_arg19 (by decide)]
  refine (StableHlo.after_of_forall_not_mem (b := Proc.devRef .tc Cert.KernelIdeal.main_arg19) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg19 m ρ c
theorem W24_arg19 : Cert.KernelIdeal.GenP.W24 m ρ c (Proc.devRef .tc Cert.KernelIdeal.main_arg19) = Cert.KernelIdeal.GenP.W0 m ρ c (Proc.devRef .tc Cert.KernelIdeal.main_arg19) := by
  rw [Cert.KernelIdeal.GenP.W24_of_ne m ρ c Cert.KernelIdeal.main_arg19 (by decide)]
  refine (StableHlo.after_of_forall_not_mem (b := Proc.devRef .tc Cert.KernelIdeal.main_arg19) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg19 m ρ c
theorem W26_arg19 : Cert.KernelIdeal.GenP.W26 m ρ c (Proc.devRef .tc Cert.KernelIdeal.main_arg19) = Cert.KernelIdeal.GenP.W0 m ρ c (Proc.devRef .tc Cert.KernelIdeal.main_arg19) := by
  rw [Cert.KernelIdeal.GenP.W26_of_ne m ρ c Cert.KernelIdeal.main_arg19 (by decide)]
  refine (StableHlo.after_of_forall_not_mem (b := Proc.devRef .tc Cert.KernelIdeal.main_arg19) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg19 m ρ c
theorem KW27_arg19 : Cert.Sim.KW27 m ρ c (Proc.devRef .tc Cert.KernelIdeal.main_arg19) = Cert.KernelIdeal.GenP.W0 m ρ c (Proc.devRef .tc Cert.KernelIdeal.main_arg19) := by
  rw [KW27_eq m ρ c]
  refine (StableHlo.after_of_forall_not_mem (b := Proc.devRef .tc Cert.KernelIdeal.main_arg19) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg19 m ρ c
theorem W29_arg19 : Cert.KernelIdeal.GenP.W29 m ρ c (Proc.devRef .tc Cert.KernelIdeal.main_arg19) = Cert.KernelIdeal.GenP.W0 m ρ c (Proc.devRef .tc Cert.KernelIdeal.main_arg19) := by
  rw [W29_eq m ρ c]
  refine (StableHlo.after_of_forall_not_mem (b := Proc.devRef .tc Cert.KernelIdeal.main_arg19) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg19) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg19 m ρ c
/-- The launch contents at this argument, as the launch memory: read off the generated frame's fact at the return. -/
theorem W0m_arg19 : Cert.KernelIdeal.GenP.W0 m ρ c (Proc.devRef .tc Cert.KernelIdeal.main_arg19) = m ((c.tc : Thread Cert.KernelIdeal.nD Cert.KernelIdeal.τ).loc Cert.KernelIdeal.main_arg19) := (W29_arg19 m ρ c).symm.trans (Cert.KernelIdeal.GenP.W29_main_arg19 m ρ c)

theorem W2_arg20 : Cert.KernelIdeal.GenP.W2 m ρ c (Proc.devRef .tc Cert.KernelIdeal.main_arg20) = Cert.KernelIdeal.GenP.W0 m ρ c (Proc.devRef .tc Cert.KernelIdeal.main_arg20) := by
  rw [Cert.KernelIdeal.GenP.W2_of_ne m ρ c Cert.KernelIdeal.main_arg20 (by decide)]
  refine (StableHlo.after_of_forall_not_mem (b := Proc.devRef .tc Cert.KernelIdeal.main_arg20) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg20 : Cert.KernelIdeal.GenP.W4 m ρ c (Proc.devRef .tc Cert.KernelIdeal.main_arg20) = Cert.KernelIdeal.GenP.W0 m ρ c (Proc.devRef .tc Cert.KernelIdeal.main_arg20) := by
  rw [Cert.KernelIdeal.GenP.W4_of_ne m ρ c Cert.KernelIdeal.main_arg20 (by decide)]
  refine (StableHlo.after_of_forall_not_mem (b := Proc.devRef .tc Cert.KernelIdeal.main_arg20) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg20 m ρ c
theorem W10_arg20 : Cert.KernelIdeal.GenP.W10 m ρ c (Proc.devRef .tc Cert.KernelIdeal.main_arg20) = Cert.KernelIdeal.GenP.W0 m ρ c (Proc.devRef .tc Cert.KernelIdeal.main_arg20) := by
  rw [Cert.KernelIdeal.GenP.W10_of_ne m ρ c Cert.KernelIdeal.main_arg20 (by decide)]
  refine (StableHlo.after_of_forall_not_mem (b := Proc.devRef .tc Cert.KernelIdeal.main_arg20) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg20 m ρ c
theorem W11_arg20 : Cert.KernelIdeal.GenP.W11 m ρ c (Proc.devRef .tc Cert.KernelIdeal.main_arg20) = Cert.KernelIdeal.GenP.W0 m ρ c (Proc.devRef .tc Cert.KernelIdeal.main_arg20) := by
  rw [Cert.KernelIdeal.GenP.W11_of_ne m ρ c Cert.KernelIdeal.main_arg20 (by decide)]
  exact W10_arg20 m ρ c
theorem W17_arg20 : Cert.KernelIdeal.GenP.W17 m ρ c (Proc.devRef .tc Cert.KernelIdeal.main_arg20) = Cert.KernelIdeal.GenP.W0 m ρ c (Proc.devRef .tc Cert.KernelIdeal.main_arg20) := by
  rw [Cert.KernelIdeal.GenP.W17_of_ne m ρ c Cert.KernelIdeal.main_arg20 (by decide)]
  refine (StableHlo.after_of_forall_not_mem (b := Proc.devRef .tc Cert.KernelIdeal.main_arg20) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg20 m ρ c
theorem W18_arg20 : Cert.KernelIdeal.GenP.W18 m ρ c (Proc.devRef .tc Cert.KernelIdeal.main_arg20) = Cert.KernelIdeal.GenP.W0 m ρ c (Proc.devRef .tc Cert.KernelIdeal.main_arg20) := by
  rw [Cert.KernelIdeal.GenP.W18_of_ne m ρ c Cert.KernelIdeal.main_arg20 (by decide)]
  exact W17_arg20 m ρ c
theorem W20_arg20 : Cert.KernelIdeal.GenP.W20 m ρ c (Proc.devRef .tc Cert.KernelIdeal.main_arg20) = Cert.KernelIdeal.GenP.W0 m ρ c (Proc.devRef .tc Cert.KernelIdeal.main_arg20) := by
  rw [Cert.KernelIdeal.GenP.W20_of_ne m ρ c Cert.KernelIdeal.main_arg20 (by decide)]
  refine (StableHlo.after_of_forall_not_mem (b := Proc.devRef .tc Cert.KernelIdeal.main_arg20) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg20 m ρ c
theorem W22_arg20 : Cert.KernelIdeal.GenP.W22 m ρ c (Proc.devRef .tc Cert.KernelIdeal.main_arg20) = Cert.KernelIdeal.GenP.W0 m ρ c (Proc.devRef .tc Cert.KernelIdeal.main_arg20) := by
  rw [Cert.KernelIdeal.GenP.W22_of_ne m ρ c Cert.KernelIdeal.main_arg20 (by decide)]
  refine (StableHlo.after_of_forall_not_mem (b := Proc.devRef .tc Cert.KernelIdeal.main_arg20) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg20 m ρ c
theorem W24_arg20 : Cert.KernelIdeal.GenP.W24 m ρ c (Proc.devRef .tc Cert.KernelIdeal.main_arg20) = Cert.KernelIdeal.GenP.W0 m ρ c (Proc.devRef .tc Cert.KernelIdeal.main_arg20) := by
  rw [Cert.KernelIdeal.GenP.W24_of_ne m ρ c Cert.KernelIdeal.main_arg20 (by decide)]
  refine (StableHlo.after_of_forall_not_mem (b := Proc.devRef .tc Cert.KernelIdeal.main_arg20) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg20 m ρ c
theorem W26_arg20 : Cert.KernelIdeal.GenP.W26 m ρ c (Proc.devRef .tc Cert.KernelIdeal.main_arg20) = Cert.KernelIdeal.GenP.W0 m ρ c (Proc.devRef .tc Cert.KernelIdeal.main_arg20) := by
  rw [Cert.KernelIdeal.GenP.W26_of_ne m ρ c Cert.KernelIdeal.main_arg20 (by decide)]
  refine (StableHlo.after_of_forall_not_mem (b := Proc.devRef .tc Cert.KernelIdeal.main_arg20) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg20 m ρ c
theorem KW27_arg20 : Cert.Sim.KW27 m ρ c (Proc.devRef .tc Cert.KernelIdeal.main_arg20) = Cert.KernelIdeal.GenP.W0 m ρ c (Proc.devRef .tc Cert.KernelIdeal.main_arg20) := by
  rw [KW27_eq m ρ c]
  refine (StableHlo.after_of_forall_not_mem (b := Proc.devRef .tc Cert.KernelIdeal.main_arg20) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg20 m ρ c
theorem W29_arg20 : Cert.KernelIdeal.GenP.W29 m ρ c (Proc.devRef .tc Cert.KernelIdeal.main_arg20) = Cert.KernelIdeal.GenP.W0 m ρ c (Proc.devRef .tc Cert.KernelIdeal.main_arg20) := by
  rw [W29_eq m ρ c]
  refine (StableHlo.after_of_forall_not_mem (b := Proc.devRef .tc Cert.KernelIdeal.main_arg20) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg20) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg20 m ρ c
/-- The launch contents at this argument, as the launch memory: read off the generated frame's fact at the return. -/
theorem W0m_arg20 : Cert.KernelIdeal.GenP.W0 m ρ c (Proc.devRef .tc Cert.KernelIdeal.main_arg20) = m ((c.tc : Thread Cert.KernelIdeal.nD Cert.KernelIdeal.τ).loc Cert.KernelIdeal.main_arg20) := (W29_arg20 m ρ c).symm.trans (Cert.KernelIdeal.GenP.W29_main_arg20 m ρ c)

theorem W2_arg21 : Cert.KernelIdeal.GenP.W2 m ρ c (Proc.devRef .tc Cert.KernelIdeal.main_arg21) = Cert.KernelIdeal.GenP.W0 m ρ c (Proc.devRef .tc Cert.KernelIdeal.main_arg21) := by
  rw [Cert.KernelIdeal.GenP.W2_of_ne m ρ c Cert.KernelIdeal.main_arg21 (by decide)]
  refine (StableHlo.after_of_forall_not_mem (b := Proc.devRef .tc Cert.KernelIdeal.main_arg21) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg21 : Cert.KernelIdeal.GenP.W4 m ρ c (Proc.devRef .tc Cert.KernelIdeal.main_arg21) = Cert.KernelIdeal.GenP.W0 m ρ c (Proc.devRef .tc Cert.KernelIdeal.main_arg21) := by
  rw [Cert.KernelIdeal.GenP.W4_of_ne m ρ c Cert.KernelIdeal.main_arg21 (by decide)]
  refine (StableHlo.after_of_forall_not_mem (b := Proc.devRef .tc Cert.KernelIdeal.main_arg21) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg21 m ρ c
theorem W10_arg21 : Cert.KernelIdeal.GenP.W10 m ρ c (Proc.devRef .tc Cert.KernelIdeal.main_arg21) = Cert.KernelIdeal.GenP.W0 m ρ c (Proc.devRef .tc Cert.KernelIdeal.main_arg21) := by
  rw [Cert.KernelIdeal.GenP.W10_of_ne m ρ c Cert.KernelIdeal.main_arg21 (by decide)]
  refine (StableHlo.after_of_forall_not_mem (b := Proc.devRef .tc Cert.KernelIdeal.main_arg21) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg21 m ρ c
theorem W11_arg21 : Cert.KernelIdeal.GenP.W11 m ρ c (Proc.devRef .tc Cert.KernelIdeal.main_arg21) = Cert.KernelIdeal.GenP.W0 m ρ c (Proc.devRef .tc Cert.KernelIdeal.main_arg21) := by
  rw [Cert.KernelIdeal.GenP.W11_of_ne m ρ c Cert.KernelIdeal.main_arg21 (by decide)]
  exact W10_arg21 m ρ c
theorem W17_arg21 : Cert.KernelIdeal.GenP.W17 m ρ c (Proc.devRef .tc Cert.KernelIdeal.main_arg21) = Cert.KernelIdeal.GenP.W0 m ρ c (Proc.devRef .tc Cert.KernelIdeal.main_arg21) := by
  rw [Cert.KernelIdeal.GenP.W17_of_ne m ρ c Cert.KernelIdeal.main_arg21 (by decide)]
  refine (StableHlo.after_of_forall_not_mem (b := Proc.devRef .tc Cert.KernelIdeal.main_arg21) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg21 m ρ c
theorem W18_arg21 : Cert.KernelIdeal.GenP.W18 m ρ c (Proc.devRef .tc Cert.KernelIdeal.main_arg21) = Cert.KernelIdeal.GenP.W0 m ρ c (Proc.devRef .tc Cert.KernelIdeal.main_arg21) := by
  rw [Cert.KernelIdeal.GenP.W18_of_ne m ρ c Cert.KernelIdeal.main_arg21 (by decide)]
  exact W17_arg21 m ρ c
theorem W20_arg21 : Cert.KernelIdeal.GenP.W20 m ρ c (Proc.devRef .tc Cert.KernelIdeal.main_arg21) = Cert.KernelIdeal.GenP.W0 m ρ c (Proc.devRef .tc Cert.KernelIdeal.main_arg21) := by
  rw [Cert.KernelIdeal.GenP.W20_of_ne m ρ c Cert.KernelIdeal.main_arg21 (by decide)]
  refine (StableHlo.after_of_forall_not_mem (b := Proc.devRef .tc Cert.KernelIdeal.main_arg21) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg21 m ρ c
theorem W22_arg21 : Cert.KernelIdeal.GenP.W22 m ρ c (Proc.devRef .tc Cert.KernelIdeal.main_arg21) = Cert.KernelIdeal.GenP.W0 m ρ c (Proc.devRef .tc Cert.KernelIdeal.main_arg21) := by
  rw [Cert.KernelIdeal.GenP.W22_of_ne m ρ c Cert.KernelIdeal.main_arg21 (by decide)]
  refine (StableHlo.after_of_forall_not_mem (b := Proc.devRef .tc Cert.KernelIdeal.main_arg21) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg21 m ρ c
theorem W24_arg21 : Cert.KernelIdeal.GenP.W24 m ρ c (Proc.devRef .tc Cert.KernelIdeal.main_arg21) = Cert.KernelIdeal.GenP.W0 m ρ c (Proc.devRef .tc Cert.KernelIdeal.main_arg21) := by
  rw [Cert.KernelIdeal.GenP.W24_of_ne m ρ c Cert.KernelIdeal.main_arg21 (by decide)]
  refine (StableHlo.after_of_forall_not_mem (b := Proc.devRef .tc Cert.KernelIdeal.main_arg21) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg21 m ρ c
theorem W26_arg21 : Cert.KernelIdeal.GenP.W26 m ρ c (Proc.devRef .tc Cert.KernelIdeal.main_arg21) = Cert.KernelIdeal.GenP.W0 m ρ c (Proc.devRef .tc Cert.KernelIdeal.main_arg21) := by
  rw [Cert.KernelIdeal.GenP.W26_of_ne m ρ c Cert.KernelIdeal.main_arg21 (by decide)]
  refine (StableHlo.after_of_forall_not_mem (b := Proc.devRef .tc Cert.KernelIdeal.main_arg21) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg21 m ρ c
theorem KW27_arg21 : Cert.Sim.KW27 m ρ c (Proc.devRef .tc Cert.KernelIdeal.main_arg21) = Cert.KernelIdeal.GenP.W0 m ρ c (Proc.devRef .tc Cert.KernelIdeal.main_arg21) := by
  rw [KW27_eq m ρ c]
  refine (StableHlo.after_of_forall_not_mem (b := Proc.devRef .tc Cert.KernelIdeal.main_arg21) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg21 m ρ c
theorem W29_arg21 : Cert.KernelIdeal.GenP.W29 m ρ c (Proc.devRef .tc Cert.KernelIdeal.main_arg21) = Cert.KernelIdeal.GenP.W0 m ρ c (Proc.devRef .tc Cert.KernelIdeal.main_arg21) := by
  rw [W29_eq m ρ c]
  refine (StableHlo.after_of_forall_not_mem (b := Proc.devRef .tc Cert.KernelIdeal.main_arg21) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg21) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg21 m ρ c
/-- The launch contents at this argument, as the launch memory: read off the generated frame's fact at the return. -/
theorem W0m_arg21 : Cert.KernelIdeal.GenP.W0 m ρ c (Proc.devRef .tc Cert.KernelIdeal.main_arg21) = m ((c.tc : Thread Cert.KernelIdeal.nD Cert.KernelIdeal.τ).loc Cert.KernelIdeal.main_arg21) := (W29_arg21 m ρ c).symm.trans (Cert.KernelIdeal.GenP.W29_main_arg21 m ρ c)

theorem W2_arg22 : Cert.KernelIdeal.GenP.W2 m ρ c (Proc.devRef .tc Cert.KernelIdeal.main_arg22) = Cert.KernelIdeal.GenP.W0 m ρ c (Proc.devRef .tc Cert.KernelIdeal.main_arg22) := by
  rw [Cert.KernelIdeal.GenP.W2_of_ne m ρ c Cert.KernelIdeal.main_arg22 (by decide)]
  refine (StableHlo.after_of_forall_not_mem (b := Proc.devRef .tc Cert.KernelIdeal.main_arg22) Cert.KernelIdeal.Gen.hostOps0 (Cert.KernelIdeal.GenP.W0 m ρ c) (List.forall_iff_forall_mem.mp (by
      simp only [Cert.KernelIdeal.Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  rfl
theorem W4_arg22 : Cert.KernelIdeal.GenP.W4 m ρ c (Proc.devRef .tc Cert.KernelIdeal.main_arg22) = Cert.KernelIdeal.GenP.W0 m ρ c (Proc.devRef .tc Cert.KernelIdeal.main_arg22) := by
  rw [Cert.KernelIdeal.GenP.W4_of_ne m ρ c Cert.KernelIdeal.main_arg22 (by decide)]
  refine (StableHlo.after_of_forall_not_mem (b := Proc.devRef .tc Cert.KernelIdeal.main_arg22) Cert.KernelIdeal.Gen.hostOps1 (Cert.KernelIdeal.GenP.W2 m ρ c) (List.forall_iff_forall_mem.mp (by
      simp only [Cert.KernelIdeal.Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W2_arg22 m ρ c
theorem W10_arg22 : Cert.KernelIdeal.GenP.W10 m ρ c (Proc.devRef .tc Cert.KernelIdeal.main_arg22) = Cert.KernelIdeal.GenP.W0 m ρ c (Proc.devRef .tc Cert.KernelIdeal.main_arg22) := by
  rw [Cert.KernelIdeal.GenP.W10_of_ne m ρ c Cert.KernelIdeal.main_arg22 (by decide)]
  refine (StableHlo.after_of_forall_not_mem (b := Proc.devRef .tc Cert.KernelIdeal.main_arg22) Cert.KernelIdeal.Gen.hostOps2_4 (Cert.KernelIdeal.GenP.W8 m ρ c) (List.forall_iff_forall_mem.mp (by
      simp only [Cert.KernelIdeal.Gen.hostOps2_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps2_3 (Cert.KernelIdeal.GenP.W7 m ρ c) (List.forall_iff_forall_mem.mp (by
      simp only [Cert.KernelIdeal.Gen.hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps2_2 (Cert.KernelIdeal.GenP.W6 m ρ c) (List.forall_iff_forall_mem.mp (by
      simp only [Cert.KernelIdeal.Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps2_1 (Cert.KernelIdeal.GenP.W5 m ρ c) (List.forall_iff_forall_mem.mp (by
      simp only [Cert.KernelIdeal.Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps2 (Cert.KernelIdeal.GenP.W4 m ρ c) (List.forall_iff_forall_mem.mp (by
      simp only [Cert.KernelIdeal.Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W4_arg22 m ρ c
theorem W11_arg22 : Cert.KernelIdeal.GenP.W11 m ρ c (Proc.devRef .tc Cert.KernelIdeal.main_arg22) = Cert.KernelIdeal.GenP.W0 m ρ c (Proc.devRef .tc Cert.KernelIdeal.main_arg22) := by
  rw [Cert.KernelIdeal.GenP.W11_of_ne m ρ c Cert.KernelIdeal.main_arg22 (by decide)]
  exact W10_arg22 m ρ c
theorem W17_arg22 : Cert.KernelIdeal.GenP.W17 m ρ c (Proc.devRef .tc Cert.KernelIdeal.main_arg22) = Cert.KernelIdeal.GenP.W0 m ρ c (Proc.devRef .tc Cert.KernelIdeal.main_arg22) := by
  rw [Cert.KernelIdeal.GenP.W17_of_ne m ρ c Cert.KernelIdeal.main_arg22 (by decide)]
  refine (StableHlo.after_of_forall_not_mem (b := Proc.devRef .tc Cert.KernelIdeal.main_arg22) Cert.KernelIdeal.Gen.hostOps4_4 (Cert.KernelIdeal.GenP.W15 m ρ c) (List.forall_iff_forall_mem.mp (by
      simp only [Cert.KernelIdeal.Gen.hostOps4_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps4_3 (Cert.KernelIdeal.GenP.W14 m ρ c) (List.forall_iff_forall_mem.mp (by
      simp only [Cert.KernelIdeal.Gen.hostOps4_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps4_2 (Cert.KernelIdeal.GenP.W13 m ρ c) (List.forall_iff_forall_mem.mp (by
      simp only [Cert.KernelIdeal.Gen.hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps4_1 (Cert.KernelIdeal.GenP.W12 m ρ c) (List.forall_iff_forall_mem.mp (by
      simp only [Cert.KernelIdeal.Gen.hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps4 (Cert.KernelIdeal.GenP.W11 m ρ c) (List.forall_iff_forall_mem.mp (by
      simp only [Cert.KernelIdeal.Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W11_arg22 m ρ c
theorem W18_arg22 : Cert.KernelIdeal.GenP.W18 m ρ c (Proc.devRef .tc Cert.KernelIdeal.main_arg22) = Cert.KernelIdeal.GenP.W0 m ρ c (Proc.devRef .tc Cert.KernelIdeal.main_arg22) := by
  rw [Cert.KernelIdeal.GenP.W18_of_ne m ρ c Cert.KernelIdeal.main_arg22 (by decide)]
  exact W17_arg22 m ρ c
theorem W20_arg22 : Cert.KernelIdeal.GenP.W20 m ρ c (Proc.devRef .tc Cert.KernelIdeal.main_arg22) = Cert.KernelIdeal.GenP.W0 m ρ c (Proc.devRef .tc Cert.KernelIdeal.main_arg22) := by
  rw [Cert.KernelIdeal.GenP.W20_of_ne m ρ c Cert.KernelIdeal.main_arg22 (by decide)]
  refine (StableHlo.after_of_forall_not_mem (b := Proc.devRef .tc Cert.KernelIdeal.main_arg22) Cert.KernelIdeal.Gen.hostOps6 (Cert.KernelIdeal.GenP.W18 m ρ c) (List.forall_iff_forall_mem.mp (by
      simp only [Cert.KernelIdeal.Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W18_arg22 m ρ c
theorem W22_arg22 : Cert.KernelIdeal.GenP.W22 m ρ c (Proc.devRef .tc Cert.KernelIdeal.main_arg22) = Cert.KernelIdeal.GenP.W0 m ρ c (Proc.devRef .tc Cert.KernelIdeal.main_arg22) := by
  rw [Cert.KernelIdeal.GenP.W22_of_ne m ρ c Cert.KernelIdeal.main_arg22 (by decide)]
  refine (StableHlo.after_of_forall_not_mem (b := Proc.devRef .tc Cert.KernelIdeal.main_arg22) Cert.KernelIdeal.Gen.hostOps7 (Cert.KernelIdeal.GenP.W20 m ρ c) (List.forall_iff_forall_mem.mp (by
      simp only [Cert.KernelIdeal.Gen.hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W20_arg22 m ρ c
theorem W24_arg22 : Cert.KernelIdeal.GenP.W24 m ρ c (Proc.devRef .tc Cert.KernelIdeal.main_arg22) = Cert.KernelIdeal.GenP.W0 m ρ c (Proc.devRef .tc Cert.KernelIdeal.main_arg22) := by
  rw [Cert.KernelIdeal.GenP.W24_of_ne m ρ c Cert.KernelIdeal.main_arg22 (by decide)]
  refine (StableHlo.after_of_forall_not_mem (b := Proc.devRef .tc Cert.KernelIdeal.main_arg22) Cert.KernelIdeal.Gen.hostOps8 (Cert.KernelIdeal.GenP.W22 m ρ c) (List.forall_iff_forall_mem.mp (by
      simp only [Cert.KernelIdeal.Gen.hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W22_arg22 m ρ c
theorem W26_arg22 : Cert.KernelIdeal.GenP.W26 m ρ c (Proc.devRef .tc Cert.KernelIdeal.main_arg22) = Cert.KernelIdeal.GenP.W0 m ρ c (Proc.devRef .tc Cert.KernelIdeal.main_arg22) := by
  rw [Cert.KernelIdeal.GenP.W26_of_ne m ρ c Cert.KernelIdeal.main_arg22 (by decide)]
  refine (StableHlo.after_of_forall_not_mem (b := Proc.devRef .tc Cert.KernelIdeal.main_arg22) Cert.KernelIdeal.Gen.hostOps9 (Cert.KernelIdeal.GenP.W24 m ρ c) (List.forall_iff_forall_mem.mp (by
      simp only [Cert.KernelIdeal.Gen.hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W24_arg22 m ρ c
theorem KW27_arg22 : Cert.Sim.KW27 m ρ c (Proc.devRef .tc Cert.KernelIdeal.main_arg22) = Cert.KernelIdeal.GenP.W0 m ρ c (Proc.devRef .tc Cert.KernelIdeal.main_arg22) := by
  rw [KW27_eq m ρ c]
  refine (StableHlo.after_of_forall_not_mem (b := Proc.devRef .tc Cert.KernelIdeal.main_arg22) Cert.KernelIdeal.Gen.hostOps10 (Cert.KernelIdeal.GenP.W26 m ρ c) (List.forall_iff_forall_mem.mp (by
      simp only [Cert.KernelIdeal.Gen.hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact W26_arg22 m ρ c
theorem W29_arg22 : Cert.KernelIdeal.GenP.W29 m ρ c (Proc.devRef .tc Cert.KernelIdeal.main_arg22) = Cert.KernelIdeal.GenP.W0 m ρ c (Proc.devRef .tc Cert.KernelIdeal.main_arg22) := by
  rw [W29_eq m ρ c]
  refine (StableHlo.after_of_forall_not_mem (b := Proc.devRef .tc Cert.KernelIdeal.main_arg22) Cert.KernelIdeal.Gen.hostOps10_2 (after Cert.KernelIdeal.Gen.hostOps10_1 (Cert.Sim.KW27 m ρ c)) (List.forall_iff_forall_mem.mp (by
      simp only [Cert.KernelIdeal.Gen.hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (StableHlo.after_of_forall_not_mem (b := Proc.devRef .tc Cert.KernelIdeal.main_arg22) Cert.KernelIdeal.Gen.hostOps10_1 (Cert.Sim.KW27 m ρ c) (List.forall_iff_forall_mem.mp (by
      simp only [Cert.KernelIdeal.Gen.hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  exact KW27_arg22 m ρ c
/-- The launch contents at this argument, as the launch memory: read off the generated frame's fact at the return. -/
theorem W0m_arg22 : Cert.KernelIdeal.GenP.W0 m ρ c (Proc.devRef .tc Cert.KernelIdeal.main_arg22) = m ((c.tc : Thread Cert.KernelIdeal.nD Cert.KernelIdeal.τ).loc Cert.KernelIdeal.main_arg22) := (W29_arg22 m ρ c).symm.trans (Cert.KernelIdeal.GenP.W29_main_arg22 m ρ c)

end Cert.Sim

end
-- ==== Proof.SimArgsR0.lean ====
/-
  No operation of the reference program writes an argument's buffer: at every cut of its operation list each argument
  still holds its launch contents (arguments 0 to 7).
-/
import proofs.«103739_j26439818674747_2_alg».proof.Proof.SimBase
import proofs.«103739_j26439818674747_2_alg».proof.Proof.RefBounds
import proofs.«103739_j26439818674747_2_alg».proof.Proof.RefArgs

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem RA_arg0 : Cert.Sim.RA m' c (Proc.devRef .tc Cert.ReferenceIdeal.main_arg0) = launchContents m' c (Proc.devRef .tc Cert.ReferenceIdeal.main_arg0) :=
  (congrFun (RA_def m' c) _).trans ((Cert.ReferenceIdeal.Chunks.cA_arg0 _))
theorem RB_arg0 : Cert.Sim.RB m' c (Proc.devRef .tc Cert.ReferenceIdeal.main_arg0) = launchContents m' c (Proc.devRef .tc Cert.ReferenceIdeal.main_arg0) :=
  (congrFun (RB_def m' c) _).trans ((Cert.ReferenceIdeal.Chunks.cB_arg0 _).trans (RA_arg0 m' c))
theorem RC_arg0 : Cert.Sim.RC m' c (Proc.devRef .tc Cert.ReferenceIdeal.main_arg0) = launchContents m' c (Proc.devRef .tc Cert.ReferenceIdeal.main_arg0) :=
  (congrFun (RC_def m' c) _).trans ((Cert.ReferenceIdeal.Chunks.cC_arg0 _).trans (RB_arg0 m' c))
theorem RD_arg0 : Cert.Sim.RD m' c (Proc.devRef .tc Cert.ReferenceIdeal.main_arg0) = launchContents m' c (Proc.devRef .tc Cert.ReferenceIdeal.main_arg0) :=
  (congrFun (RD_def m' c) _).trans ((Cert.ReferenceIdeal.Chunks.cD_arg0 _).trans (RC_arg0 m' c))
theorem RE_arg0 : Cert.Sim.RE m' c (Proc.devRef .tc Cert.ReferenceIdeal.main_arg0) = launchContents m' c (Proc.devRef .tc Cert.ReferenceIdeal.main_arg0) :=
  (congrFun (RE_def m' c) _).trans ((Cert.ReferenceIdeal.Chunks.cE_arg0 _).trans (RD_arg0 m' c))
theorem RF_arg0 : Cert.Sim.RF m' c (Proc.devRef .tc Cert.ReferenceIdeal.main_arg0) = launchContents m' c (Proc.devRef .tc Cert.ReferenceIdeal.main_arg0) :=
  (congrFun (RF_def m' c) _).trans ((Cert.ReferenceIdeal.Chunks.cF_arg0 _).trans (RE_arg0 m' c))
theorem RG_arg0 : Cert.Sim.RG m' c (Proc.devRef .tc Cert.ReferenceIdeal.main_arg0) = launchContents m' c (Proc.devRef .tc Cert.ReferenceIdeal.main_arg0) :=
  (congrFun (RG_def m' c) _).trans ((Cert.ReferenceIdeal.Chunks.cG_arg0 _).trans (RF_arg0 m' c))
theorem RH_arg0 : Cert.Sim.RH m' c (Proc.devRef .tc Cert.ReferenceIdeal.main_arg0) = launchContents m' c (Proc.devRef .tc Cert.ReferenceIdeal.main_arg0) :=
  (congrFun (RH_def m' c) _).trans ((Cert.ReferenceIdeal.Chunks.cH_arg0 _).trans (RG_arg0 m' c))
theorem RI_arg0 : Cert.Sim.RI m' c (Proc.devRef .tc Cert.ReferenceIdeal.main_arg0) = launchContents m' c (Proc.devRef .tc Cert.ReferenceIdeal.main_arg0) :=
  (congrFun (RI_def m' c) _).trans ((Cert.ReferenceIdeal.Chunks.cI_arg0 _).trans (RH_arg0 m' c))

theorem RA_arg1 : Cert.Sim.RA m' c (Proc.devRef .tc Cert.ReferenceIdeal.main_arg1) = launchContents m' c (Proc.devRef .tc Cert.ReferenceIdeal.main_arg1) :=
  (congrFun (RA_def m' c) _).trans ((Cert.ReferenceIdeal.Chunks.cA_arg1 _))
theorem RB_arg1 : Cert.Sim.RB m' c (Proc.devRef .tc Cert.ReferenceIdeal.main_arg1) = launchContents m' c (Proc.devRef .tc Cert.ReferenceIdeal.main_arg1) :=
  (congrFun (RB_def m' c) _).trans ((Cert.ReferenceIdeal.Chunks.cB_arg1 _).trans (RA_arg1 m' c))
theorem RC_arg1 : Cert.Sim.RC m' c (Proc.devRef .tc Cert.ReferenceIdeal.main_arg1) = launchContents m' c (Proc.devRef .tc Cert.ReferenceIdeal.main_arg1) :=
  (congrFun (RC_def m' c) _).trans ((Cert.ReferenceIdeal.Chunks.cC_arg1 _).trans (RB_arg1 m' c))
theorem RD_arg1 : Cert.Sim.RD m' c (Proc.devRef .tc Cert.ReferenceIdeal.main_arg1) = launchContents m' c (Proc.devRef .tc Cert.ReferenceIdeal.main_arg1) :=
  (congrFun (RD_def m' c) _).trans ((Cert.ReferenceIdeal.Chunks.cD_arg1 _).trans (RC_arg1 m' c))
theorem RE_arg1 : Cert.Sim.RE m' c (Proc.devRef .tc Cert.ReferenceIdeal.main_arg1) = launchContents m' c (Proc.devRef .tc Cert.ReferenceIdeal.main_arg1) :=
  (congrFun (RE_def m' c) _).trans ((Cert.ReferenceIdeal.Chunks.cE_arg1 _).trans (RD_arg1 m' c))
theorem RF_arg1 : Cert.Sim.RF m' c (Proc.devRef .tc Cert.ReferenceIdeal.main_arg1) = launchContents m' c (Proc.devRef .tc Cert.ReferenceIdeal.main_arg1) :=
  (congrFun (RF_def m' c) _).trans ((Cert.ReferenceIdeal.Chunks.cF_arg1 _).trans (RE_arg1 m' c))
theorem RG_arg1 : Cert.Sim.RG m' c (Proc.devRef .tc Cert.ReferenceIdeal.main_arg1) = launchContents m' c (Proc.devRef .tc Cert.ReferenceIdeal.main_arg1) :=
  (congrFun (RG_def m' c) _).trans ((Cert.ReferenceIdeal.Chunks.cG_arg1 _).trans (RF_arg1 m' c))
theorem RH_arg1 : Cert.Sim.RH m' c (Proc.devRef .tc Cert.ReferenceIdeal.main_arg1) = launchContents m' c (Proc.devRef .tc Cert.ReferenceIdeal.main_arg1) :=
  (congrFun (RH_def m' c) _).trans ((Cert.ReferenceIdeal.Chunks.cH_arg1 _).trans (RG_arg1 m' c))
theorem RI_arg1 : Cert.Sim.RI m' c (Proc.devRef .tc Cert.ReferenceIdeal.main_arg1) = launchContents m' c (Proc.devRef .tc Cert.ReferenceIdeal.main_arg1) :=
  (congrFun (RI_def m' c) _).trans ((Cert.ReferenceIdeal.Chunks.cI_arg1 _).trans (RH_arg1 m' c))

theorem RA_arg2 : Cert.Sim.RA m' c (Proc.devRef .tc Cert.ReferenceIdeal.main_arg2) = launchContents m' c (Proc.devRef .tc Cert.ReferenceIdeal.main_arg2) :=
  (congrFun (RA_def m' c) _).trans ((Cert.ReferenceIdeal.Chunks.cA_arg2 _))
theorem RB_arg2 : Cert.Sim.RB m' c (Proc.devRef .tc Cert.ReferenceIdeal.main_arg2) = launchContents m' c (Proc.devRef .tc Cert.ReferenceIdeal.main_arg2) :=
  (congrFun (RB_def m' c) _).trans ((Cert.ReferenceIdeal.Chunks.cB_arg2 _).trans (RA_arg2 m' c))
theorem RC_arg2 : Cert.Sim.RC m' c (Proc.devRef .tc Cert.ReferenceIdeal.main_arg2) = launchContents m' c (Proc.devRef .tc Cert.ReferenceIdeal.main_arg2) :=
  (congrFun (RC_def m' c) _).trans ((Cert.ReferenceIdeal.Chunks.cC_arg2 _).trans (RB_arg2 m' c))
theorem RD_arg2 : Cert.Sim.RD m' c (Proc.devRef .tc Cert.ReferenceIdeal.main_arg2) = launchContents m' c (Proc.devRef .tc Cert.ReferenceIdeal.main_arg2) :=
  (congrFun (RD_def m' c) _).trans ((Cert.ReferenceIdeal.Chunks.cD_arg2 _).trans (RC_arg2 m' c))
theorem RE_arg2 : Cert.Sim.RE m' c (Proc.devRef .tc Cert.ReferenceIdeal.main_arg2) = launchContents m' c (Proc.devRef .tc Cert.ReferenceIdeal.main_arg2) :=
  (congrFun (RE_def m' c) _).trans ((Cert.ReferenceIdeal.Chunks.cE_arg2 _).trans (RD_arg2 m' c))
theorem RF_arg2 : Cert.Sim.RF m' c (Proc.devRef .tc Cert.ReferenceIdeal.main_arg2) = launchContents m' c (Proc.devRef .tc Cert.ReferenceIdeal.main_arg2) :=
  (congrFun (RF_def m' c) _).trans ((Cert.ReferenceIdeal.Chunks.cF_arg2 _).trans (RE_arg2 m' c))
theorem RG_arg2 : Cert.Sim.RG m' c (Proc.devRef .tc Cert.ReferenceIdeal.main_arg2) = launchContents m' c (Proc.devRef .tc Cert.ReferenceIdeal.main_arg2) :=
  (congrFun (RG_def m' c) _).trans ((Cert.ReferenceIdeal.Chunks.cG_arg2 _).trans (RF_arg2 m' c))
theorem RH_arg2 : Cert.Sim.RH m' c (Proc.devRef .tc Cert.ReferenceIdeal.main_arg2) = launchContents m' c (Proc.devRef .tc Cert.ReferenceIdeal.main_arg2) :=
  (congrFun (RH_def m' c) _).trans ((Cert.ReferenceIdeal.Chunks.cH_arg2 _).trans (RG_arg2 m' c))
theorem RI_arg2 : Cert.Sim.RI m' c (Proc.devRef .tc Cert.ReferenceIdeal.main_arg2) = launchContents m' c (Proc.devRef .tc Cert.ReferenceIdeal.main_arg2) :=
  (congrFun (RI_def m' c) _).trans ((Cert.ReferenceIdeal.Chunks.cI_arg2 _).trans (RH_arg2 m' c))

theorem RA_arg3 : Cert.Sim.RA m' c (Proc.devRef .tc Cert.ReferenceIdeal.main_arg3) = launchContents m' c (Proc.devRef .tc Cert.ReferenceIdeal.main_arg3) :=
  (congrFun (RA_def m' c) _).trans ((Cert.ReferenceIdeal.Chunks.cA_arg3 _))
theorem RB_arg3 : Cert.Sim.RB m' c (Proc.devRef .tc Cert.ReferenceIdeal.main_arg3) = launchContents m' c (Proc.devRef .tc Cert.ReferenceIdeal.main_arg3) :=
  (congrFun (RB_def m' c) _).trans ((Cert.ReferenceIdeal.Chunks.cB_arg3 _).trans (RA_arg3 m' c))
theorem RC_arg3 : Cert.Sim.RC m' c (Proc.devRef .tc Cert.ReferenceIdeal.main_arg3) = launchContents m' c (Proc.devRef .tc Cert.ReferenceIdeal.main_arg3) :=
  (congrFun (RC_def m' c) _).trans ((Cert.ReferenceIdeal.Chunks.cC_arg3 _).trans (RB_arg3 m' c))
theorem RD_arg3 : Cert.Sim.RD m' c (Proc.devRef .tc Cert.ReferenceIdeal.main_arg3) = launchContents m' c (Proc.devRef .tc Cert.ReferenceIdeal.main_arg3) :=
  (congrFun (RD_def m' c) _).trans ((Cert.ReferenceIdeal.Chunks.cD_arg3 _).trans (RC_arg3 m' c))
theorem RE_arg3 : Cert.Sim.RE m' c (Proc.devRef .tc Cert.ReferenceIdeal.main_arg3) = launchContents m' c (Proc.devRef .tc Cert.ReferenceIdeal.main_arg3) :=
  (congrFun (RE_def m' c) _).trans ((Cert.ReferenceIdeal.Chunks.cE_arg3 _).trans (RD_arg3 m' c))
theorem RF_arg3 : Cert.Sim.RF m' c (Proc.devRef .tc Cert.ReferenceIdeal.main_arg3) = launchContents m' c (Proc.devRef .tc Cert.ReferenceIdeal.main_arg3) :=
  (congrFun (RF_def m' c) _).trans ((Cert.ReferenceIdeal.Chunks.cF_arg3 _).trans (RE_arg3 m' c))
theorem RG_arg3 : Cert.Sim.RG m' c (Proc.devRef .tc Cert.ReferenceIdeal.main_arg3) = launchContents m' c (Proc.devRef .tc Cert.ReferenceIdeal.main_arg3) :=
  (congrFun (RG_def m' c) _).trans ((Cert.ReferenceIdeal.Chunks.cG_arg3 _).trans (RF_arg3 m' c))
theorem RH_arg3 : Cert.Sim.RH m' c (Proc.devRef .tc Cert.ReferenceIdeal.main_arg3) = launchContents m' c (Proc.devRef .tc Cert.ReferenceIdeal.main_arg3) :=
  (congrFun (RH_def m' c) _).trans ((Cert.ReferenceIdeal.Chunks.cH_arg3 _).trans (RG_arg3 m' c))
theorem RI_arg3 : Cert.Sim.RI m' c (Proc.devRef .tc Cert.ReferenceIdeal.main_arg3) = launchContents m' c (Proc.devRef .tc Cert.ReferenceIdeal.main_arg3) :=
  (congrFun (RI_def m' c) _).trans ((Cert.ReferenceIdeal.Chunks.cI_arg3 _).trans (RH_arg3 m' c))

theorem RA_arg4 : Cert.Sim.RA m' c (Proc.devRef .tc Cert.ReferenceIdeal.main_arg4) = launchContents m' c (Proc.devRef .tc Cert.ReferenceIdeal.main_arg4) :=
  (congrFun (RA_def m' c) _).trans ((Cert.ReferenceIdeal.Chunks.cA_arg4 _))
theorem RB_arg4 : Cert.Sim.RB m' c (Proc.devRef .tc Cert.ReferenceIdeal.main_arg4) = launchContents m' c (Proc.devRef .tc Cert.ReferenceIdeal.main_arg4) :=
  (congrFun (RB_def m' c) _).trans ((Cert.ReferenceIdeal.Chunks.cB_arg4 _).trans (RA_arg4 m' c))
theorem RC_arg4 : Cert.Sim.RC m' c (Proc.devRef .tc Cert.ReferenceIdeal.main_arg4) = launchContents m' c (Proc.devRef .tc Cert.ReferenceIdeal.main_arg4) :=
  (congrFun (RC_def m' c) _).trans ((Cert.ReferenceIdeal.Chunks.cC_arg4 _).trans (RB_arg4 m' c))
theorem RD_arg4 : Cert.Sim.RD m' c (Proc.devRef .tc Cert.ReferenceIdeal.main_arg4) = launchContents m' c (Proc.devRef .tc Cert.ReferenceIdeal.main_arg4) :=
  (congrFun (RD_def m' c) _).trans ((Cert.ReferenceIdeal.Chunks.cD_arg4 _).trans (RC_arg4 m' c))
theorem RE_arg4 : Cert.Sim.RE m' c (Proc.devRef .tc Cert.ReferenceIdeal.main_arg4) = launchContents m' c (Proc.devRef .tc Cert.ReferenceIdeal.main_arg4) :=
  (congrFun (RE_def m' c) _).trans ((Cert.ReferenceIdeal.Chunks.cE_arg4 _).trans (RD_arg4 m' c))
theorem RF_arg4 : Cert.Sim.RF m' c (Proc.devRef .tc Cert.ReferenceIdeal.main_arg4) = launchContents m' c (Proc.devRef .tc Cert.ReferenceIdeal.main_arg4) :=
  (congrFun (RF_def m' c) _).trans ((Cert.ReferenceIdeal.Chunks.cF_arg4 _).trans (RE_arg4 m' c))
theorem RG_arg4 : Cert.Sim.RG m' c (Proc.devRef .tc Cert.ReferenceIdeal.main_arg4) = launchContents m' c (Proc.devRef .tc Cert.ReferenceIdeal.main_arg4) :=
  (congrFun (RG_def m' c) _).trans ((Cert.ReferenceIdeal.Chunks.cG_arg4 _).trans (RF_arg4 m' c))
theorem RH_arg4 : Cert.Sim.RH m' c (Proc.devRef .tc Cert.ReferenceIdeal.main_arg4) = launchContents m' c (Proc.devRef .tc Cert.ReferenceIdeal.main_arg4) :=
  (congrFun (RH_def m' c) _).trans ((Cert.ReferenceIdeal.Chunks.cH_arg4 _).trans (RG_arg4 m' c))
theorem RI_arg4 : Cert.Sim.RI m' c (Proc.devRef .tc Cert.ReferenceIdeal.main_arg4) = launchContents m' c (Proc.devRef .tc Cert.ReferenceIdeal.main_arg4) :=
  (congrFun (RI_def m' c) _).trans ((Cert.ReferenceIdeal.Chunks.cI_arg4 _).trans (RH_arg4 m' c))

theorem RA_arg5 : Cert.Sim.RA m' c (Proc.devRef .tc Cert.ReferenceIdeal.main_arg5) = launchContents m' c (Proc.devRef .tc Cert.ReferenceIdeal.main_arg5) :=
  (congrFun (RA_def m' c) _).trans ((Cert.ReferenceIdeal.Chunks.cA_arg5 _))
theorem RB_arg5 : Cert.Sim.RB m' c (Proc.devRef .tc Cert.ReferenceIdeal.main_arg5) = launchContents m' c (Proc.devRef .tc Cert.ReferenceIdeal.main_arg5) :=
  (congrFun (RB_def m' c) _).trans ((Cert.ReferenceIdeal.Chunks.cB_arg5 _).trans (RA_arg5 m' c))
theorem RC_arg5 : Cert.Sim.RC m' c (Proc.devRef .tc Cert.ReferenceIdeal.main_arg5) = launchContents m' c (Proc.devRef .tc Cert.ReferenceIdeal.main_arg5) :=
  (congrFun (RC_def m' c) _).trans ((Cert.ReferenceIdeal.Chunks.cC_arg5 _).trans (RB_arg5 m' c))
theorem RD_arg5 : Cert.Sim.RD m' c (Proc.devRef .tc Cert.ReferenceIdeal.main_arg5) = launchContents m' c (Proc.devRef .tc Cert.ReferenceIdeal.main_arg5) :=
  (congrFun (RD_def m' c) _).trans ((Cert.ReferenceIdeal.Chunks.cD_arg5 _).trans (RC_arg5 m' c))
theorem RE_arg5 : Cert.Sim.RE m' c (Proc.devRef .tc Cert.ReferenceIdeal.main_arg5) = launchContents m' c (Proc.devRef .tc Cert.ReferenceIdeal.main_arg5) :=
  (congrFun (RE_def m' c) _).trans ((Cert.ReferenceIdeal.Chunks.cE_arg5 _).trans (RD_arg5 m' c))
theorem RF_arg5 : Cert.Sim.RF m' c (Proc.devRef .tc Cert.ReferenceIdeal.main_arg5) = launchContents m' c (Proc.devRef .tc Cert.ReferenceIdeal.main_arg5) :=
  (congrFun (RF_def m' c) _).trans ((Cert.ReferenceIdeal.Chunks.cF_arg5 _).trans (RE_arg5 m' c))
theorem RG_arg5 : Cert.Sim.RG m' c (Proc.devRef .tc Cert.ReferenceIdeal.main_arg5) = launchContents m' c (Proc.devRef .tc Cert.ReferenceIdeal.main_arg5) :=
  (congrFun (RG_def m' c) _).trans ((Cert.ReferenceIdeal.Chunks.cG_arg5 _).trans (RF_arg5 m' c))
theorem RH_arg5 : Cert.Sim.RH m' c (Proc.devRef .tc Cert.ReferenceIdeal.main_arg5) = launchContents m' c (Proc.devRef .tc Cert.ReferenceIdeal.main_arg5) :=
  (congrFun (RH_def m' c) _).trans ((Cert.ReferenceIdeal.Chunks.cH_arg5 _).trans (RG_arg5 m' c))
theorem RI_arg5 : Cert.Sim.RI m' c (Proc.devRef .tc Cert.ReferenceIdeal.main_arg5) = launchContents m' c (Proc.devRef .tc Cert.ReferenceIdeal.main_arg5) :=
  (congrFun (RI_def m' c) _).trans ((Cert.ReferenceIdeal.Chunks.cI_arg5 _).trans (RH_arg5 m' c))

theorem RA_arg6 : Cert.Sim.RA m' c (Proc.devRef .tc Cert.ReferenceIdeal.main_arg6) = launchContents m' c (Proc.devRef .tc Cert.ReferenceIdeal.main_arg6) :=
  (congrFun (RA_def m' c) _).trans ((Cert.ReferenceIdeal.Chunks.cA_arg6 _))
theorem RB_arg6 : Cert.Sim.RB m' c (Proc.devRef .tc Cert.ReferenceIdeal.main_arg6) = launchContents m' c (Proc.devRef .tc Cert.ReferenceIdeal.main_arg6) :=
  (congrFun (RB_def m' c) _).trans ((Cert.ReferenceIdeal.Chunks.cB_arg6 _).trans (RA_arg6 m' c))
theorem RC_arg6 : Cert.Sim.RC m' c (Proc.devRef .tc Cert.ReferenceIdeal.main_arg6) = launchContents m' c (Proc.devRef .tc Cert.ReferenceIdeal.main_arg6) :=
  (congrFun (RC_def m' c) _).trans ((Cert.ReferenceIdeal.Chunks.cC_arg6 _).trans (RB_arg6 m' c))
theorem RD_arg6 : Cert.Sim.RD m' c (Proc.devRef .tc Cert.ReferenceIdeal.main_arg6) = launchContents m' c (Proc.devRef .tc Cert.ReferenceIdeal.main_arg6) :=
  (congrFun (RD_def m' c) _).trans ((Cert.ReferenceIdeal.Chunks.cD_arg6 _).trans (RC_arg6 m' c))
theorem RE_arg6 : Cert.Sim.RE m' c (Proc.devRef .tc Cert.ReferenceIdeal.main_arg6) = launchContents m' c (Proc.devRef .tc Cert.ReferenceIdeal.main_arg6) :=
  (congrFun (RE_def m' c) _).trans ((Cert.ReferenceIdeal.Chunks.cE_arg6 _).trans (RD_arg6 m' c))
theorem RF_arg6 : Cert.Sim.RF m' c (Proc.devRef .tc Cert.ReferenceIdeal.main_arg6) = launchContents m' c (Proc.devRef .tc Cert.ReferenceIdeal.main_arg6) :=
  (congrFun (RF_def m' c) _).trans ((Cert.ReferenceIdeal.Chunks.cF_arg6 _).trans (RE_arg6 m' c))
theorem RG_arg6 : Cert.Sim.RG m' c (Proc.devRef .tc Cert.ReferenceIdeal.main_arg6) = launchContents m' c (Proc.devRef .tc Cert.ReferenceIdeal.main_arg6) :=
  (congrFun (RG_def m' c) _).trans ((Cert.ReferenceIdeal.Chunks.cG_arg6 _).trans (RF_arg6 m' c))
theorem RH_arg6 : Cert.Sim.RH m' c (Proc.devRef .tc Cert.ReferenceIdeal.main_arg6) = launchContents m' c (Proc.devRef .tc Cert.ReferenceIdeal.main_arg6) :=
  (congrFun (RH_def m' c) _).trans ((Cert.ReferenceIdeal.Chunks.cH_arg6 _).trans (RG_arg6 m' c))
theorem RI_arg6 : Cert.Sim.RI m' c (Proc.devRef .tc Cert.ReferenceIdeal.main_arg6) = launchContents m' c (Proc.devRef .tc Cert.ReferenceIdeal.main_arg6) :=
  (congrFun (RI_def m' c) _).trans ((Cert.ReferenceIdeal.Chunks.cI_arg6 _).trans (RH_arg6 m' c))

theorem RA_arg7 : Cert.Sim.RA m' c (Proc.devRef .tc Cert.ReferenceIdeal.main_arg7) = launchContents m' c (Proc.devRef .tc Cert.ReferenceIdeal.main_arg7) :=
  (congrFun (RA_def m' c) _).trans ((Cert.ReferenceIdeal.Chunks.cA_arg7 _))
theorem RB_arg7 : Cert.Sim.RB m' c (Proc.devRef .tc Cert.ReferenceIdeal.main_arg7) = launchContents m' c (Proc.devRef .tc Cert.ReferenceIdeal.main_arg7) :=
  (congrFun (RB_def m' c) _).trans ((Cert.ReferenceIdeal.Chunks.cB_arg7 _).trans (RA_arg7 m' c))
theorem RC_arg7 : Cert.Sim.RC m' c (Proc.devRef .tc Cert.ReferenceIdeal.main_arg7) = launchContents m' c (Proc.devRef .tc Cert.ReferenceIdeal.main_arg7) :=
  (congrFun (RC_def m' c) _).trans ((Cert.ReferenceIdeal.Chunks.cC_arg7 _).trans (RB_arg7 m' c))
theorem RD_arg7 : Cert.Sim.RD m' c (Proc.devRef .tc Cert.ReferenceIdeal.main_arg7) = launchContents m' c (Proc.devRef .tc Cert.ReferenceIdeal.main_arg7) :=
  (congrFun (RD_def m' c) _).trans ((Cert.ReferenceIdeal.Chunks.cD_arg7 _).trans (RC_arg7 m' c))
theorem RE_arg7 : Cert.Sim.RE m' c (Proc.devRef .tc Cert.ReferenceIdeal.main_arg7) = launchContents m' c (Proc.devRef .tc Cert.ReferenceIdeal.main_arg7) :=
  (congrFun (RE_def m' c) _).trans ((Cert.ReferenceIdeal.Chunks.cE_arg7 _).trans (RD_arg7 m' c))
theorem RF_arg7 : Cert.Sim.RF m' c (Proc.devRef .tc Cert.ReferenceIdeal.main_arg7) = launchContents m' c (Proc.devRef .tc Cert.ReferenceIdeal.main_arg7) :=
  (congrFun (RF_def m' c) _).trans ((Cert.ReferenceIdeal.Chunks.cF_arg7 _).trans (RE_arg7 m' c))
theorem RG_arg7 : Cert.Sim.RG m' c (Proc.devRef .tc Cert.ReferenceIdeal.main_arg7) = launchContents m' c (Proc.devRef .tc Cert.ReferenceIdeal.main_arg7) :=
  (congrFun (RG_def m' c) _).trans ((Cert.ReferenceIdeal.Chunks.cG_arg7 _).trans (RF_arg7 m' c))
theorem RH_arg7 : Cert.Sim.RH m' c (Proc.devRef .tc Cert.ReferenceIdeal.main_arg7) = launchContents m' c (Proc.devRef .tc Cert.ReferenceIdeal.main_arg7) :=
  (congrFun (RH_def m' c) _).trans ((Cert.ReferenceIdeal.Chunks.cH_arg7 _).trans (RG_arg7 m' c))
theorem RI_arg7 : Cert.Sim.RI m' c (Proc.devRef .tc Cert.ReferenceIdeal.main_arg7) = launchContents m' c (Proc.devRef .tc Cert.ReferenceIdeal.main_arg7) :=
  (congrFun (RI_def m' c) _).trans ((Cert.ReferenceIdeal.Chunks.cI_arg7 _).trans (RH_arg7 m' c))

end Cert.Sim

end
-- ==== Proof.SimArgsR1.lean ====
/-
  No operation of the reference program writes an argument's buffer: at every cut of its operation list each argument
  still holds its launch contents (arguments 8 to 15).
-/
import proofs.«103739_j26439818674747_2_alg».proof.Proof.SimBase
import proofs.«103739_j26439818674747_2_alg».proof.Proof.RefBounds
import proofs.«103739_j26439818674747_2_alg».proof.Proof.RefArgs

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem RA_arg8 : Cert.Sim.RA m' c (Proc.devRef .tc Cert.ReferenceIdeal.main_arg8) = launchContents m' c (Proc.devRef .tc Cert.ReferenceIdeal.main_arg8) :=
  (congrFun (RA_def m' c) _).trans ((Cert.ReferenceIdeal.Chunks.cA_arg8 _))
theorem RB_arg8 : Cert.Sim.RB m' c (Proc.devRef .tc Cert.ReferenceIdeal.main_arg8) = launchContents m' c (Proc.devRef .tc Cert.ReferenceIdeal.main_arg8) :=
  (congrFun (RB_def m' c) _).trans ((Cert.ReferenceIdeal.Chunks.cB_arg8 _).trans (RA_arg8 m' c))
theorem RC_arg8 : Cert.Sim.RC m' c (Proc.devRef .tc Cert.ReferenceIdeal.main_arg8) = launchContents m' c (Proc.devRef .tc Cert.ReferenceIdeal.main_arg8) :=
  (congrFun (RC_def m' c) _).trans ((Cert.ReferenceIdeal.Chunks.cC_arg8 _).trans (RB_arg8 m' c))
theorem RD_arg8 : Cert.Sim.RD m' c (Proc.devRef .tc Cert.ReferenceIdeal.main_arg8) = launchContents m' c (Proc.devRef .tc Cert.ReferenceIdeal.main_arg8) :=
  (congrFun (RD_def m' c) _).trans ((Cert.ReferenceIdeal.Chunks.cD_arg8 _).trans (RC_arg8 m' c))
theorem RE_arg8 : Cert.Sim.RE m' c (Proc.devRef .tc Cert.ReferenceIdeal.main_arg8) = launchContents m' c (Proc.devRef .tc Cert.ReferenceIdeal.main_arg8) :=
  (congrFun (RE_def m' c) _).trans ((Cert.ReferenceIdeal.Chunks.cE_arg8 _).trans (RD_arg8 m' c))
theorem RF_arg8 : Cert.Sim.RF m' c (Proc.devRef .tc Cert.ReferenceIdeal.main_arg8) = launchContents m' c (Proc.devRef .tc Cert.ReferenceIdeal.main_arg8) :=
  (congrFun (RF_def m' c) _).trans ((Cert.ReferenceIdeal.Chunks.cF_arg8 _).trans (RE_arg8 m' c))
theorem RG_arg8 : Cert.Sim.RG m' c (Proc.devRef .tc Cert.ReferenceIdeal.main_arg8) = launchContents m' c (Proc.devRef .tc Cert.ReferenceIdeal.main_arg8) :=
  (congrFun (RG_def m' c) _).trans ((Cert.ReferenceIdeal.Chunks.cG_arg8 _).trans (RF_arg8 m' c))
theorem RH_arg8 : Cert.Sim.RH m' c (Proc.devRef .tc Cert.ReferenceIdeal.main_arg8) = launchContents m' c (Proc.devRef .tc Cert.ReferenceIdeal.main_arg8) :=
  (congrFun (RH_def m' c) _).trans ((Cert.ReferenceIdeal.Chunks.cH_arg8 _).trans (RG_arg8 m' c))
theorem RI_arg8 : Cert.Sim.RI m' c (Proc.devRef .tc Cert.ReferenceIdeal.main_arg8) = launchContents m' c (Proc.devRef .tc Cert.ReferenceIdeal.main_arg8) :=
  (congrFun (RI_def m' c) _).trans ((Cert.ReferenceIdeal.Chunks.cI_arg8 _).trans (RH_arg8 m' c))

theorem RA_arg9 : Cert.Sim.RA m' c (Proc.devRef .tc Cert.ReferenceIdeal.main_arg9) = launchContents m' c (Proc.devRef .tc Cert.ReferenceIdeal.main_arg9) :=
  (congrFun (RA_def m' c) _).trans ((Cert.ReferenceIdeal.Chunks.cA_arg9 _))
theorem RB_arg9 : Cert.Sim.RB m' c (Proc.devRef .tc Cert.ReferenceIdeal.main_arg9) = launchContents m' c (Proc.devRef .tc Cert.ReferenceIdeal.main_arg9) :=
  (congrFun (RB_def m' c) _).trans ((Cert.ReferenceIdeal.Chunks.cB_arg9 _).trans (RA_arg9 m' c))
theorem RC_arg9 : Cert.Sim.RC m' c (Proc.devRef .tc Cert.ReferenceIdeal.main_arg9) = launchContents m' c (Proc.devRef .tc Cert.ReferenceIdeal.main_arg9) :=
  (congrFun (RC_def m' c) _).trans ((Cert.ReferenceIdeal.Chunks.cC_arg9 _).trans (RB_arg9 m' c))
theorem RD_arg9 : Cert.Sim.RD m' c (Proc.devRef .tc Cert.ReferenceIdeal.main_arg9) = launchContents m' c (Proc.devRef .tc Cert.ReferenceIdeal.main_arg9) :=
  (congrFun (RD_def m' c) _).trans ((Cert.ReferenceIdeal.Chunks.cD_arg9 _).trans (RC_arg9 m' c))
theorem RE_arg9 : Cert.Sim.RE m' c (Proc.devRef .tc Cert.ReferenceIdeal.main_arg9) = launchContents m' c (Proc.devRef .tc Cert.ReferenceIdeal.main_arg9) :=
  (congrFun (RE_def m' c) _).trans ((Cert.ReferenceIdeal.Chunks.cE_arg9 _).trans (RD_arg9 m' c))
theorem RF_arg9 : Cert.Sim.RF m' c (Proc.devRef .tc Cert.ReferenceIdeal.main_arg9) = launchContents m' c (Proc.devRef .tc Cert.ReferenceIdeal.main_arg9) :=
  (congrFun (RF_def m' c) _).trans ((Cert.ReferenceIdeal.Chunks.cF_arg9 _).trans (RE_arg9 m' c))
theorem RG_arg9 : Cert.Sim.RG m' c (Proc.devRef .tc Cert.ReferenceIdeal.main_arg9) = launchContents m' c (Proc.devRef .tc Cert.ReferenceIdeal.main_arg9) :=
  (congrFun (RG_def m' c) _).trans ((Cert.ReferenceIdeal.Chunks.cG_arg9 _).trans (RF_arg9 m' c))
theorem RH_arg9 : Cert.Sim.RH m' c (Proc.devRef .tc Cert.ReferenceIdeal.main_arg9) = launchContents m' c (Proc.devRef .tc Cert.ReferenceIdeal.main_arg9) :=
  (congrFun (RH_def m' c) _).trans ((Cert.ReferenceIdeal.Chunks.cH_arg9 _).trans (RG_arg9 m' c))
theorem RI_arg9 : Cert.Sim.RI m' c (Proc.devRef .tc Cert.ReferenceIdeal.main_arg9) = launchContents m' c (Proc.devRef .tc Cert.ReferenceIdeal.main_arg9) :=
  (congrFun (RI_def m' c) _).trans ((Cert.ReferenceIdeal.Chunks.cI_arg9 _).trans (RH_arg9 m' c))

theorem RA_arg10 : Cert.Sim.RA m' c (Proc.devRef .tc Cert.ReferenceIdeal.main_arg10) = launchContents m' c (Proc.devRef .tc Cert.ReferenceIdeal.main_arg10) :=
  (congrFun (RA_def m' c) _).trans ((Cert.ReferenceIdeal.Chunks.cA_arg10 _))
theorem RB_arg10 : Cert.Sim.RB m' c (Proc.devRef .tc Cert.ReferenceIdeal.main_arg10) = launchContents m' c (Proc.devRef .tc Cert.ReferenceIdeal.main_arg10) :=
  (congrFun (RB_def m' c) _).trans ((Cert.ReferenceIdeal.Chunks.cB_arg10 _).trans (RA_arg10 m' c))
theorem RC_arg10 : Cert.Sim.RC m' c (Proc.devRef .tc Cert.ReferenceIdeal.main_arg10) = launchContents m' c (Proc.devRef .tc Cert.ReferenceIdeal.main_arg10) :=
  (congrFun (RC_def m' c) _).trans ((Cert.ReferenceIdeal.Chunks.cC_arg10 _).trans (RB_arg10 m' c))
theorem RD_arg10 : Cert.Sim.RD m' c (Proc.devRef .tc Cert.ReferenceIdeal.main_arg10) = launchContents m' c (Proc.devRef .tc Cert.ReferenceIdeal.main_arg10) :=
  (congrFun (RD_def m' c) _).trans ((Cert.ReferenceIdeal.Chunks.cD_arg10 _).trans (RC_arg10 m' c))
theorem RE_arg10 : Cert.Sim.RE m' c (Proc.devRef .tc Cert.ReferenceIdeal.main_arg10) = launchContents m' c (Proc.devRef .tc Cert.ReferenceIdeal.main_arg10) :=
  (congrFun (RE_def m' c) _).trans ((Cert.ReferenceIdeal.Chunks.cE_arg10 _).trans (RD_arg10 m' c))
theorem RF_arg10 : Cert.Sim.RF m' c (Proc.devRef .tc Cert.ReferenceIdeal.main_arg10) = launchContents m' c (Proc.devRef .tc Cert.ReferenceIdeal.main_arg10) :=
  (congrFun (RF_def m' c) _).trans ((Cert.ReferenceIdeal.Chunks.cF_arg10 _).trans (RE_arg10 m' c))
theorem RG_arg10 : Cert.Sim.RG m' c (Proc.devRef .tc Cert.ReferenceIdeal.main_arg10) = launchContents m' c (Proc.devRef .tc Cert.ReferenceIdeal.main_arg10) :=
  (congrFun (RG_def m' c) _).trans ((Cert.ReferenceIdeal.Chunks.cG_arg10 _).trans (RF_arg10 m' c))
theorem RH_arg10 : Cert.Sim.RH m' c (Proc.devRef .tc Cert.ReferenceIdeal.main_arg10) = launchContents m' c (Proc.devRef .tc Cert.ReferenceIdeal.main_arg10) :=
  (congrFun (RH_def m' c) _).trans ((Cert.ReferenceIdeal.Chunks.cH_arg10 _).trans (RG_arg10 m' c))
theorem RI_arg10 : Cert.Sim.RI m' c (Proc.devRef .tc Cert.ReferenceIdeal.main_arg10) = launchContents m' c (Proc.devRef .tc Cert.ReferenceIdeal.main_arg10) :=
  (congrFun (RI_def m' c) _).trans ((Cert.ReferenceIdeal.Chunks.cI_arg10 _).trans (RH_arg10 m' c))

theorem RA_arg11 : Cert.Sim.RA m' c (Proc.devRef .tc Cert.ReferenceIdeal.main_arg11) = launchContents m' c (Proc.devRef .tc Cert.ReferenceIdeal.main_arg11) :=
  (congrFun (RA_def m' c) _).trans ((Cert.ReferenceIdeal.Chunks.cA_arg11 _))
theorem RB_arg11 : Cert.Sim.RB m' c (Proc.devRef .tc Cert.ReferenceIdeal.main_arg11) = launchContents m' c (Proc.devRef .tc Cert.ReferenceIdeal.main_arg11) :=
  (congrFun (RB_def m' c) _).trans ((Cert.ReferenceIdeal.Chunks.cB_arg11 _).trans (RA_arg11 m' c))
theorem RC_arg11 : Cert.Sim.RC m' c (Proc.devRef .tc Cert.ReferenceIdeal.main_arg11) = launchContents m' c (Proc.devRef .tc Cert.ReferenceIdeal.main_arg11) :=
  (congrFun (RC_def m' c) _).trans ((Cert.ReferenceIdeal.Chunks.cC_arg11 _).trans (RB_arg11 m' c))
theorem RD_arg11 : Cert.Sim.RD m' c (Proc.devRef .tc Cert.ReferenceIdeal.main_arg11) = launchContents m' c (Proc.devRef .tc Cert.ReferenceIdeal.main_arg11) :=
  (congrFun (RD_def m' c) _).trans ((Cert.ReferenceIdeal.Chunks.cD_arg11 _).trans (RC_arg11 m' c))
theorem RE_arg11 : Cert.Sim.RE m' c (Proc.devRef .tc Cert.ReferenceIdeal.main_arg11) = launchContents m' c (Proc.devRef .tc Cert.ReferenceIdeal.main_arg11) :=
  (congrFun (RE_def m' c) _).trans ((Cert.ReferenceIdeal.Chunks.cE_arg11 _).trans (RD_arg11 m' c))
theorem RF_arg11 : Cert.Sim.RF m' c (Proc.devRef .tc Cert.ReferenceIdeal.main_arg11) = launchContents m' c (Proc.devRef .tc Cert.ReferenceIdeal.main_arg11) :=
  (congrFun (RF_def m' c) _).trans ((Cert.ReferenceIdeal.Chunks.cF_arg11 _).trans (RE_arg11 m' c))
theorem RG_arg11 : Cert.Sim.RG m' c (Proc.devRef .tc Cert.ReferenceIdeal.main_arg11) = launchContents m' c (Proc.devRef .tc Cert.ReferenceIdeal.main_arg11) :=
  (congrFun (RG_def m' c) _).trans ((Cert.ReferenceIdeal.Chunks.cG_arg11 _).trans (RF_arg11 m' c))
theorem RH_arg11 : Cert.Sim.RH m' c (Proc.devRef .tc Cert.ReferenceIdeal.main_arg11) = launchContents m' c (Proc.devRef .tc Cert.ReferenceIdeal.main_arg11) :=
  (congrFun (RH_def m' c) _).trans ((Cert.ReferenceIdeal.Chunks.cH_arg11 _).trans (RG_arg11 m' c))
theorem RI_arg11 : Cert.Sim.RI m' c (Proc.devRef .tc Cert.ReferenceIdeal.main_arg11) = launchContents m' c (Proc.devRef .tc Cert.ReferenceIdeal.main_arg11) :=
  (congrFun (RI_def m' c) _).trans ((Cert.ReferenceIdeal.Chunks.cI_arg11 _).trans (RH_arg11 m' c))

theorem RA_arg12 : Cert.Sim.RA m' c (Proc.devRef .tc Cert.ReferenceIdeal.main_arg12) = launchContents m' c (Proc.devRef .tc Cert.ReferenceIdeal.main_arg12) :=
  (congrFun (RA_def m' c) _).trans ((Cert.ReferenceIdeal.Chunks.cA_arg12 _))
theorem RB_arg12 : Cert.Sim.RB m' c (Proc.devRef .tc Cert.ReferenceIdeal.main_arg12) = launchContents m' c (Proc.devRef .tc Cert.ReferenceIdeal.main_arg12) :=
  (congrFun (RB_def m' c) _).trans ((Cert.ReferenceIdeal.Chunks.cB_arg12 _).trans (RA_arg12 m' c))
theorem RC_arg12 : Cert.Sim.RC m' c (Proc.devRef .tc Cert.ReferenceIdeal.main_arg12) = launchContents m' c (Proc.devRef .tc Cert.ReferenceIdeal.main_arg12) :=
  (congrFun (RC_def m' c) _).trans ((Cert.ReferenceIdeal.Chunks.cC_arg12 _).trans (RB_arg12 m' c))
theorem RD_arg12 : Cert.Sim.RD m' c (Proc.devRef .tc Cert.ReferenceIdeal.main_arg12) = launchContents m' c (Proc.devRef .tc Cert.ReferenceIdeal.main_arg12) :=
  (congrFun (RD_def m' c) _).trans ((Cert.ReferenceIdeal.Chunks.cD_arg12 _).trans (RC_arg12 m' c))
theorem RE_arg12 : Cert.Sim.RE m' c (Proc.devRef .tc Cert.ReferenceIdeal.main_arg12) = launchContents m' c (Proc.devRef .tc Cert.ReferenceIdeal.main_arg12) :=
  (congrFun (RE_def m' c) _).trans ((Cert.ReferenceIdeal.Chunks.cE_arg12 _).trans (RD_arg12 m' c))
theorem RF_arg12 : Cert.Sim.RF m' c (Proc.devRef .tc Cert.ReferenceIdeal.main_arg12) = launchContents m' c (Proc.devRef .tc Cert.ReferenceIdeal.main_arg12) :=
  (congrFun (RF_def m' c) _).trans ((Cert.ReferenceIdeal.Chunks.cF_arg12 _).trans (RE_arg12 m' c))
theorem RG_arg12 : Cert.Sim.RG m' c (Proc.devRef .tc Cert.ReferenceIdeal.main_arg12) = launchContents m' c (Proc.devRef .tc Cert.ReferenceIdeal.main_arg12) :=
  (congrFun (RG_def m' c) _).trans ((Cert.ReferenceIdeal.Chunks.cG_arg12 _).trans (RF_arg12 m' c))
theorem RH_arg12 : Cert.Sim.RH m' c (Proc.devRef .tc Cert.ReferenceIdeal.main_arg12) = launchContents m' c (Proc.devRef .tc Cert.ReferenceIdeal.main_arg12) :=
  (congrFun (RH_def m' c) _).trans ((Cert.ReferenceIdeal.Chunks.cH_arg12 _).trans (RG_arg12 m' c))
theorem RI_arg12 : Cert.Sim.RI m' c (Proc.devRef .tc Cert.ReferenceIdeal.main_arg12) = launchContents m' c (Proc.devRef .tc Cert.ReferenceIdeal.main_arg12) :=
  (congrFun (RI_def m' c) _).trans ((Cert.ReferenceIdeal.Chunks.cI_arg12 _).trans (RH_arg12 m' c))

theorem RA_arg13 : Cert.Sim.RA m' c (Proc.devRef .tc Cert.ReferenceIdeal.main_arg13) = launchContents m' c (Proc.devRef .tc Cert.ReferenceIdeal.main_arg13) :=
  (congrFun (RA_def m' c) _).trans ((Cert.ReferenceIdeal.Chunks.cA_arg13 _))
theorem RB_arg13 : Cert.Sim.RB m' c (Proc.devRef .tc Cert.ReferenceIdeal.main_arg13) = launchContents m' c (Proc.devRef .tc Cert.ReferenceIdeal.main_arg13) :=
  (congrFun (RB_def m' c) _).trans ((Cert.ReferenceIdeal.Chunks.cB_arg13 _).trans (RA_arg13 m' c))
theorem RC_arg13 : Cert.Sim.RC m' c (Proc.devRef .tc Cert.ReferenceIdeal.main_arg13) = launchContents m' c (Proc.devRef .tc Cert.ReferenceIdeal.main_arg13) :=
  (congrFun (RC_def m' c) _).trans ((Cert.ReferenceIdeal.Chunks.cC_arg13 _).trans (RB_arg13 m' c))
theorem RD_arg13 : Cert.Sim.RD m' c (Proc.devRef .tc Cert.ReferenceIdeal.main_arg13) = launchContents m' c (Proc.devRef .tc Cert.ReferenceIdeal.main_arg13) :=
  (congrFun (RD_def m' c) _).trans ((Cert.ReferenceIdeal.Chunks.cD_arg13 _).trans (RC_arg13 m' c))
theorem RE_arg13 : Cert.Sim.RE m' c (Proc.devRef .tc Cert.ReferenceIdeal.main_arg13) = launchContents m' c (Proc.devRef .tc Cert.ReferenceIdeal.main_arg13) :=
  (congrFun (RE_def m' c) _).trans ((Cert.ReferenceIdeal.Chunks.cE_arg13 _).trans (RD_arg13 m' c))
theorem RF_arg13 : Cert.Sim.RF m' c (Proc.devRef .tc Cert.ReferenceIdeal.main_arg13) = launchContents m' c (Proc.devRef .tc Cert.ReferenceIdeal.main_arg13) :=
  (congrFun (RF_def m' c) _).trans ((Cert.ReferenceIdeal.Chunks.cF_arg13 _).trans (RE_arg13 m' c))
theorem RG_arg13 : Cert.Sim.RG m' c (Proc.devRef .tc Cert.ReferenceIdeal.main_arg13) = launchContents m' c (Proc.devRef .tc Cert.ReferenceIdeal.main_arg13) :=
  (congrFun (RG_def m' c) _).trans ((Cert.ReferenceIdeal.Chunks.cG_arg13 _).trans (RF_arg13 m' c))
theorem RH_arg13 : Cert.Sim.RH m' c (Proc.devRef .tc Cert.ReferenceIdeal.main_arg13) = launchContents m' c (Proc.devRef .tc Cert.ReferenceIdeal.main_arg13) :=
  (congrFun (RH_def m' c) _).trans ((Cert.ReferenceIdeal.Chunks.cH_arg13 _).trans (RG_arg13 m' c))
theorem RI_arg13 : Cert.Sim.RI m' c (Proc.devRef .tc Cert.ReferenceIdeal.main_arg13) = launchContents m' c (Proc.devRef .tc Cert.ReferenceIdeal.main_arg13) :=
  (congrFun (RI_def m' c) _).trans ((Cert.ReferenceIdeal.Chunks.cI_arg13 _).trans (RH_arg13 m' c))

theorem RA_arg14 : Cert.Sim.RA m' c (Proc.devRef .tc Cert.ReferenceIdeal.main_arg14) = launchContents m' c (Proc.devRef .tc Cert.ReferenceIdeal.main_arg14) :=
  (congrFun (RA_def m' c) _).trans ((Cert.ReferenceIdeal.Chunks.cA_arg14 _))
theorem RB_arg14 : Cert.Sim.RB m' c (Proc.devRef .tc Cert.ReferenceIdeal.main_arg14) = launchContents m' c (Proc.devRef .tc Cert.ReferenceIdeal.main_arg14) :=
  (congrFun (RB_def m' c) _).trans ((Cert.ReferenceIdeal.Chunks.cB_arg14 _).trans (RA_arg14 m' c))
theorem RC_arg14 : Cert.Sim.RC m' c (Proc.devRef .tc Cert.ReferenceIdeal.main_arg14) = launchContents m' c (Proc.devRef .tc Cert.ReferenceIdeal.main_arg14) :=
  (congrFun (RC_def m' c) _).trans ((Cert.ReferenceIdeal.Chunks.cC_arg14 _).trans (RB_arg14 m' c))
theorem RD_arg14 : Cert.Sim.RD m' c (Proc.devRef .tc Cert.ReferenceIdeal.main_arg14) = launchContents m' c (Proc.devRef .tc Cert.ReferenceIdeal.main_arg14) :=
  (congrFun (RD_def m' c) _).trans ((Cert.ReferenceIdeal.Chunks.cD_arg14 _).trans (RC_arg14 m' c))
theorem RE_arg14 : Cert.Sim.RE m' c (Proc.devRef .tc Cert.ReferenceIdeal.main_arg14) = launchContents m' c (Proc.devRef .tc Cert.ReferenceIdeal.main_arg14) :=
  (congrFun (RE_def m' c) _).trans ((Cert.ReferenceIdeal.Chunks.cE_arg14 _).trans (RD_arg14 m' c))
theorem RF_arg14 : Cert.Sim.RF m' c (Proc.devRef .tc Cert.ReferenceIdeal.main_arg14) = launchContents m' c (Proc.devRef .tc Cert.ReferenceIdeal.main_arg14) :=
  (congrFun (RF_def m' c) _).trans ((Cert.ReferenceIdeal.Chunks.cF_arg14 _).trans (RE_arg14 m' c))
theorem RG_arg14 : Cert.Sim.RG m' c (Proc.devRef .tc Cert.ReferenceIdeal.main_arg14) = launchContents m' c (Proc.devRef .tc Cert.ReferenceIdeal.main_arg14) :=
  (congrFun (RG_def m' c) _).trans ((Cert.ReferenceIdeal.Chunks.cG_arg14 _).trans (RF_arg14 m' c))
theorem RH_arg14 : Cert.Sim.RH m' c (Proc.devRef .tc Cert.ReferenceIdeal.main_arg14) = launchContents m' c (Proc.devRef .tc Cert.ReferenceIdeal.main_arg14) :=
  (congrFun (RH_def m' c) _).trans ((Cert.ReferenceIdeal.Chunks.cH_arg14 _).trans (RG_arg14 m' c))
theorem RI_arg14 : Cert.Sim.RI m' c (Proc.devRef .tc Cert.ReferenceIdeal.main_arg14) = launchContents m' c (Proc.devRef .tc Cert.ReferenceIdeal.main_arg14) :=
  (congrFun (RI_def m' c) _).trans ((Cert.ReferenceIdeal.Chunks.cI_arg14 _).trans (RH_arg14 m' c))

theorem RA_arg15 : Cert.Sim.RA m' c (Proc.devRef .tc Cert.ReferenceIdeal.main_arg15) = launchContents m' c (Proc.devRef .tc Cert.ReferenceIdeal.main_arg15) :=
  (congrFun (RA_def m' c) _).trans ((Cert.ReferenceIdeal.Chunks.cA_arg15 _))
theorem RB_arg15 : Cert.Sim.RB m' c (Proc.devRef .tc Cert.ReferenceIdeal.main_arg15) = launchContents m' c (Proc.devRef .tc Cert.ReferenceIdeal.main_arg15) :=
  (congrFun (RB_def m' c) _).trans ((Cert.ReferenceIdeal.Chunks.cB_arg15 _).trans (RA_arg15 m' c))
theorem RC_arg15 : Cert.Sim.RC m' c (Proc.devRef .tc Cert.ReferenceIdeal.main_arg15) = launchContents m' c (Proc.devRef .tc Cert.ReferenceIdeal.main_arg15) :=
  (congrFun (RC_def m' c) _).trans ((Cert.ReferenceIdeal.Chunks.cC_arg15 _).trans (RB_arg15 m' c))
theorem RD_arg15 : Cert.Sim.RD m' c (Proc.devRef .tc Cert.ReferenceIdeal.main_arg15) = launchContents m' c (Proc.devRef .tc Cert.ReferenceIdeal.main_arg15) :=
  (congrFun (RD_def m' c) _).trans ((Cert.ReferenceIdeal.Chunks.cD_arg15 _).trans (RC_arg15 m' c))
theorem RE_arg15 : Cert.Sim.RE m' c (Proc.devRef .tc Cert.ReferenceIdeal.main_arg15) = launchContents m' c (Proc.devRef .tc Cert.ReferenceIdeal.main_arg15) :=
  (congrFun (RE_def m' c) _).trans ((Cert.ReferenceIdeal.Chunks.cE_arg15 _).trans (RD_arg15 m' c))
theorem RF_arg15 : Cert.Sim.RF m' c (Proc.devRef .tc Cert.ReferenceIdeal.main_arg15) = launchContents m' c (Proc.devRef .tc Cert.ReferenceIdeal.main_arg15) :=
  (congrFun (RF_def m' c) _).trans ((Cert.ReferenceIdeal.Chunks.cF_arg15 _).trans (RE_arg15 m' c))
theorem RG_arg15 : Cert.Sim.RG m' c (Proc.devRef .tc Cert.ReferenceIdeal.main_arg15) = launchContents m' c (Proc.devRef .tc Cert.ReferenceIdeal.main_arg15) :=
  (congrFun (RG_def m' c) _).trans ((Cert.ReferenceIdeal.Chunks.cG_arg15 _).trans (RF_arg15 m' c))
theorem RH_arg15 : Cert.Sim.RH m' c (Proc.devRef .tc Cert.ReferenceIdeal.main_arg15) = launchContents m' c (Proc.devRef .tc Cert.ReferenceIdeal.main_arg15) :=
  (congrFun (RH_def m' c) _).trans ((Cert.ReferenceIdeal.Chunks.cH_arg15 _).trans (RG_arg15 m' c))
theorem RI_arg15 : Cert.Sim.RI m' c (Proc.devRef .tc Cert.ReferenceIdeal.main_arg15) = launchContents m' c (Proc.devRef .tc Cert.ReferenceIdeal.main_arg15) :=
  (congrFun (RI_def m' c) _).trans ((Cert.ReferenceIdeal.Chunks.cI_arg15 _).trans (RH_arg15 m' c))

end Cert.Sim

end
-- ==== Proof.SimArgsR2.lean ====
/-
  No operation of the reference program writes an argument's buffer: at every cut of its operation list each argument
  still holds its launch contents (arguments 16 to 22).
-/
import proofs.«103739_j26439818674747_2_alg».proof.Proof.SimBase
import proofs.«103739_j26439818674747_2_alg».proof.Proof.RefBounds
import proofs.«103739_j26439818674747_2_alg».proof.Proof.RefArgs

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem RA_arg16 : Cert.Sim.RA m' c (Proc.devRef .tc Cert.ReferenceIdeal.main_arg16) = launchContents m' c (Proc.devRef .tc Cert.ReferenceIdeal.main_arg16) :=
  (congrFun (RA_def m' c) _).trans ((Cert.ReferenceIdeal.Chunks.cA_arg16 _))
theorem RB_arg16 : Cert.Sim.RB m' c (Proc.devRef .tc Cert.ReferenceIdeal.main_arg16) = launchContents m' c (Proc.devRef .tc Cert.ReferenceIdeal.main_arg16) :=
  (congrFun (RB_def m' c) _).trans ((Cert.ReferenceIdeal.Chunks.cB_arg16 _).trans (RA_arg16 m' c))
theorem RC_arg16 : Cert.Sim.RC m' c (Proc.devRef .tc Cert.ReferenceIdeal.main_arg16) = launchContents m' c (Proc.devRef .tc Cert.ReferenceIdeal.main_arg16) :=
  (congrFun (RC_def m' c) _).trans ((Cert.ReferenceIdeal.Chunks.cC_arg16 _).trans (RB_arg16 m' c))
theorem RD_arg16 : Cert.Sim.RD m' c (Proc.devRef .tc Cert.ReferenceIdeal.main_arg16) = launchContents m' c (Proc.devRef .tc Cert.ReferenceIdeal.main_arg16) :=
  (congrFun (RD_def m' c) _).trans ((Cert.ReferenceIdeal.Chunks.cD_arg16 _).trans (RC_arg16 m' c))
theorem RE_arg16 : Cert.Sim.RE m' c (Proc.devRef .tc Cert.ReferenceIdeal.main_arg16) = launchContents m' c (Proc.devRef .tc Cert.ReferenceIdeal.main_arg16) :=
  (congrFun (RE_def m' c) _).trans ((Cert.ReferenceIdeal.Chunks.cE_arg16 _).trans (RD_arg16 m' c))
theorem RF_arg16 : Cert.Sim.RF m' c (Proc.devRef .tc Cert.ReferenceIdeal.main_arg16) = launchContents m' c (Proc.devRef .tc Cert.ReferenceIdeal.main_arg16) :=
  (congrFun (RF_def m' c) _).trans ((Cert.ReferenceIdeal.Chunks.cF_arg16 _).trans (RE_arg16 m' c))
theorem RG_arg16 : Cert.Sim.RG m' c (Proc.devRef .tc Cert.ReferenceIdeal.main_arg16) = launchContents m' c (Proc.devRef .tc Cert.ReferenceIdeal.main_arg16) :=
  (congrFun (RG_def m' c) _).trans ((Cert.ReferenceIdeal.Chunks.cG_arg16 _).trans (RF_arg16 m' c))
theorem RH_arg16 : Cert.Sim.RH m' c (Proc.devRef .tc Cert.ReferenceIdeal.main_arg16) = launchContents m' c (Proc.devRef .tc Cert.ReferenceIdeal.main_arg16) :=
  (congrFun (RH_def m' c) _).trans ((Cert.ReferenceIdeal.Chunks.cH_arg16 _).trans (RG_arg16 m' c))
theorem RI_arg16 : Cert.Sim.RI m' c (Proc.devRef .tc Cert.ReferenceIdeal.main_arg16) = launchContents m' c (Proc.devRef .tc Cert.ReferenceIdeal.main_arg16) :=
  (congrFun (RI_def m' c) _).trans ((Cert.ReferenceIdeal.Chunks.cI_arg16 _).trans (RH_arg16 m' c))

theorem RA_arg17 : Cert.Sim.RA m' c (Proc.devRef .tc Cert.ReferenceIdeal.main_arg17) = launchContents m' c (Proc.devRef .tc Cert.ReferenceIdeal.main_arg17) :=
  (congrFun (RA_def m' c) _).trans ((Cert.ReferenceIdeal.Chunks.cA_arg17 _))
theorem RB_arg17 : Cert.Sim.RB m' c (Proc.devRef .tc Cert.ReferenceIdeal.main_arg17) = launchContents m' c (Proc.devRef .tc Cert.ReferenceIdeal.main_arg17) :=
  (congrFun (RB_def m' c) _).trans ((Cert.ReferenceIdeal.Chunks.cB_arg17 _).trans (RA_arg17 m' c))
theorem RC_arg17 : Cert.Sim.RC m' c (Proc.devRef .tc Cert.ReferenceIdeal.main_arg17) = launchContents m' c (Proc.devRef .tc Cert.ReferenceIdeal.main_arg17) :=
  (congrFun (RC_def m' c) _).trans ((Cert.ReferenceIdeal.Chunks.cC_arg17 _).trans (RB_arg17 m' c))
theorem RD_arg17 : Cert.Sim.RD m' c (Proc.devRef .tc Cert.ReferenceIdeal.main_arg17) = launchContents m' c (Proc.devRef .tc Cert.ReferenceIdeal.main_arg17) :=
  (congrFun (RD_def m' c) _).trans ((Cert.ReferenceIdeal.Chunks.cD_arg17 _).trans (RC_arg17 m' c))
theorem RE_arg17 : Cert.Sim.RE m' c (Proc.devRef .tc Cert.ReferenceIdeal.main_arg17) = launchContents m' c (Proc.devRef .tc Cert.ReferenceIdeal.main_arg17) :=
  (congrFun (RE_def m' c) _).trans ((Cert.ReferenceIdeal.Chunks.cE_arg17 _).trans (RD_arg17 m' c))
theorem RF_arg17 : Cert.Sim.RF m' c (Proc.devRef .tc Cert.ReferenceIdeal.main_arg17) = launchContents m' c (Proc.devRef .tc Cert.ReferenceIdeal.main_arg17) :=
  (congrFun (RF_def m' c) _).trans ((Cert.ReferenceIdeal.Chunks.cF_arg17 _).trans (RE_arg17 m' c))
theorem RG_arg17 : Cert.Sim.RG m' c (Proc.devRef .tc Cert.ReferenceIdeal.main_arg17) = launchContents m' c (Proc.devRef .tc Cert.ReferenceIdeal.main_arg17) :=
  (congrFun (RG_def m' c) _).trans ((Cert.ReferenceIdeal.Chunks.cG_arg17 _).trans (RF_arg17 m' c))
theorem RH_arg17 : Cert.Sim.RH m' c (Proc.devRef .tc Cert.ReferenceIdeal.main_arg17) = launchContents m' c (Proc.devRef .tc Cert.ReferenceIdeal.main_arg17) :=
  (congrFun (RH_def m' c) _).trans ((Cert.ReferenceIdeal.Chunks.cH_arg17 _).trans (RG_arg17 m' c))
theorem RI_arg17 : Cert.Sim.RI m' c (Proc.devRef .tc Cert.ReferenceIdeal.main_arg17) = launchContents m' c (Proc.devRef .tc Cert.ReferenceIdeal.main_arg17) :=
  (congrFun (RI_def m' c) _).trans ((Cert.ReferenceIdeal.Chunks.cI_arg17 _).trans (RH_arg17 m' c))

theorem RA_arg18 : Cert.Sim.RA m' c (Proc.devRef .tc Cert.ReferenceIdeal.main_arg18) = launchContents m' c (Proc.devRef .tc Cert.ReferenceIdeal.main_arg18) :=
  (congrFun (RA_def m' c) _).trans ((Cert.ReferenceIdeal.Chunks.cA_arg18 _))
theorem RB_arg18 : Cert.Sim.RB m' c (Proc.devRef .tc Cert.ReferenceIdeal.main_arg18) = launchContents m' c (Proc.devRef .tc Cert.ReferenceIdeal.main_arg18) :=
  (congrFun (RB_def m' c) _).trans ((Cert.ReferenceIdeal.Chunks.cB_arg18 _).trans (RA_arg18 m' c))
theorem RC_arg18 : Cert.Sim.RC m' c (Proc.devRef .tc Cert.ReferenceIdeal.main_arg18) = launchContents m' c (Proc.devRef .tc Cert.ReferenceIdeal.main_arg18) :=
  (congrFun (RC_def m' c) _).trans ((Cert.ReferenceIdeal.Chunks.cC_arg18 _).trans (RB_arg18 m' c))
theorem RD_arg18 : Cert.Sim.RD m' c (Proc.devRef .tc Cert.ReferenceIdeal.main_arg18) = launchContents m' c (Proc.devRef .tc Cert.ReferenceIdeal.main_arg18) :=
  (congrFun (RD_def m' c) _).trans ((Cert.ReferenceIdeal.Chunks.cD_arg18 _).trans (RC_arg18 m' c))
theorem RE_arg18 : Cert.Sim.RE m' c (Proc.devRef .tc Cert.ReferenceIdeal.main_arg18) = launchContents m' c (Proc.devRef .tc Cert.ReferenceIdeal.main_arg18) :=
  (congrFun (RE_def m' c) _).trans ((Cert.ReferenceIdeal.Chunks.cE_arg18 _).trans (RD_arg18 m' c))
theorem RF_arg18 : Cert.Sim.RF m' c (Proc.devRef .tc Cert.ReferenceIdeal.main_arg18) = launchContents m' c (Proc.devRef .tc Cert.ReferenceIdeal.main_arg18) :=
  (congrFun (RF_def m' c) _).trans ((Cert.ReferenceIdeal.Chunks.cF_arg18 _).trans (RE_arg18 m' c))
theorem RG_arg18 : Cert.Sim.RG m' c (Proc.devRef .tc Cert.ReferenceIdeal.main_arg18) = launchContents m' c (Proc.devRef .tc Cert.ReferenceIdeal.main_arg18) :=
  (congrFun (RG_def m' c) _).trans ((Cert.ReferenceIdeal.Chunks.cG_arg18 _).trans (RF_arg18 m' c))
theorem RH_arg18 : Cert.Sim.RH m' c (Proc.devRef .tc Cert.ReferenceIdeal.main_arg18) = launchContents m' c (Proc.devRef .tc Cert.ReferenceIdeal.main_arg18) :=
  (congrFun (RH_def m' c) _).trans ((Cert.ReferenceIdeal.Chunks.cH_arg18 _).trans (RG_arg18 m' c))
theorem RI_arg18 : Cert.Sim.RI m' c (Proc.devRef .tc Cert.ReferenceIdeal.main_arg18) = launchContents m' c (Proc.devRef .tc Cert.ReferenceIdeal.main_arg18) :=
  (congrFun (RI_def m' c) _).trans ((Cert.ReferenceIdeal.Chunks.cI_arg18 _).trans (RH_arg18 m' c))

theorem RA_arg19 : Cert.Sim.RA m' c (Proc.devRef .tc Cert.ReferenceIdeal.main_arg19) = launchContents m' c (Proc.devRef .tc Cert.ReferenceIdeal.main_arg19) :=
  (congrFun (RA_def m' c) _).trans ((Cert.ReferenceIdeal.Chunks.cA_arg19 _))
theorem RB_arg19 : Cert.Sim.RB m' c (Proc.devRef .tc Cert.ReferenceIdeal.main_arg19) = launchContents m' c (Proc.devRef .tc Cert.ReferenceIdeal.main_arg19) :=
  (congrFun (RB_def m' c) _).trans ((Cert.ReferenceIdeal.Chunks.cB_arg19 _).trans (RA_arg19 m' c))
theorem RC_arg19 : Cert.Sim.RC m' c (Proc.devRef .tc Cert.ReferenceIdeal.main_arg19) = launchContents m' c (Proc.devRef .tc Cert.ReferenceIdeal.main_arg19) :=
  (congrFun (RC_def m' c) _).trans ((Cert.ReferenceIdeal.Chunks.cC_arg19 _).trans (RB_arg19 m' c))
theorem RD_arg19 : Cert.Sim.RD m' c (Proc.devRef .tc Cert.ReferenceIdeal.main_arg19) = launchContents m' c (Proc.devRef .tc Cert.ReferenceIdeal.main_arg19) :=
  (congrFun (RD_def m' c) _).trans ((Cert.ReferenceIdeal.Chunks.cD_arg19 _).trans (RC_arg19 m' c))
theorem RE_arg19 : Cert.Sim.RE m' c (Proc.devRef .tc Cert.ReferenceIdeal.main_arg19) = launchContents m' c (Proc.devRef .tc Cert.ReferenceIdeal.main_arg19) :=
  (congrFun (RE_def m' c) _).trans ((Cert.ReferenceIdeal.Chunks.cE_arg19 _).trans (RD_arg19 m' c))
theorem RF_arg19 : Cert.Sim.RF m' c (Proc.devRef .tc Cert.ReferenceIdeal.main_arg19) = launchContents m' c (Proc.devRef .tc Cert.ReferenceIdeal.main_arg19) :=
  (congrFun (RF_def m' c) _).trans ((Cert.ReferenceIdeal.Chunks.cF_arg19 _).trans (RE_arg19 m' c))
theorem RG_arg19 : Cert.Sim.RG m' c (Proc.devRef .tc Cert.ReferenceIdeal.main_arg19) = launchContents m' c (Proc.devRef .tc Cert.ReferenceIdeal.main_arg19) :=
  (congrFun (RG_def m' c) _).trans ((Cert.ReferenceIdeal.Chunks.cG_arg19 _).trans (RF_arg19 m' c))
theorem RH_arg19 : Cert.Sim.RH m' c (Proc.devRef .tc Cert.ReferenceIdeal.main_arg19) = launchContents m' c (Proc.devRef .tc Cert.ReferenceIdeal.main_arg19) :=
  (congrFun (RH_def m' c) _).trans ((Cert.ReferenceIdeal.Chunks.cH_arg19 _).trans (RG_arg19 m' c))
theorem RI_arg19 : Cert.Sim.RI m' c (Proc.devRef .tc Cert.ReferenceIdeal.main_arg19) = launchContents m' c (Proc.devRef .tc Cert.ReferenceIdeal.main_arg19) :=
  (congrFun (RI_def m' c) _).trans ((Cert.ReferenceIdeal.Chunks.cI_arg19 _).trans (RH_arg19 m' c))

theorem RA_arg20 : Cert.Sim.RA m' c (Proc.devRef .tc Cert.ReferenceIdeal.main_arg20) = launchContents m' c (Proc.devRef .tc Cert.ReferenceIdeal.main_arg20) :=
  (congrFun (RA_def m' c) _).trans ((Cert.ReferenceIdeal.Chunks.cA_arg20 _))
theorem RB_arg20 : Cert.Sim.RB m' c (Proc.devRef .tc Cert.ReferenceIdeal.main_arg20) = launchContents m' c (Proc.devRef .tc Cert.ReferenceIdeal.main_arg20) :=
  (congrFun (RB_def m' c) _).trans ((Cert.ReferenceIdeal.Chunks.cB_arg20 _).trans (RA_arg20 m' c))
theorem RC_arg20 : Cert.Sim.RC m' c (Proc.devRef .tc Cert.ReferenceIdeal.main_arg20) = launchContents m' c (Proc.devRef .tc Cert.ReferenceIdeal.main_arg20) :=
  (congrFun (RC_def m' c) _).trans ((Cert.ReferenceIdeal.Chunks.cC_arg20 _).trans (RB_arg20 m' c))
theorem RD_arg20 : Cert.Sim.RD m' c (Proc.devRef .tc Cert.ReferenceIdeal.main_arg20) = launchContents m' c (Proc.devRef .tc Cert.ReferenceIdeal.main_arg20) :=
  (congrFun (RD_def m' c) _).trans ((Cert.ReferenceIdeal.Chunks.cD_arg20 _).trans (RC_arg20 m' c))
theorem RE_arg20 : Cert.Sim.RE m' c (Proc.devRef .tc Cert.ReferenceIdeal.main_arg20) = launchContents m' c (Proc.devRef .tc Cert.ReferenceIdeal.main_arg20) :=
  (congrFun (RE_def m' c) _).trans ((Cert.ReferenceIdeal.Chunks.cE_arg20 _).trans (RD_arg20 m' c))
theorem RF_arg20 : Cert.Sim.RF m' c (Proc.devRef .tc Cert.ReferenceIdeal.main_arg20) = launchContents m' c (Proc.devRef .tc Cert.ReferenceIdeal.main_arg20) :=
  (congrFun (RF_def m' c) _).trans ((Cert.ReferenceIdeal.Chunks.cF_arg20 _).trans (RE_arg20 m' c))
theorem RG_arg20 : Cert.Sim.RG m' c (Proc.devRef .tc Cert.ReferenceIdeal.main_arg20) = launchContents m' c (Proc.devRef .tc Cert.ReferenceIdeal.main_arg20) :=
  (congrFun (RG_def m' c) _).trans ((Cert.ReferenceIdeal.Chunks.cG_arg20 _).trans (RF_arg20 m' c))
theorem RH_arg20 : Cert.Sim.RH m' c (Proc.devRef .tc Cert.ReferenceIdeal.main_arg20) = launchContents m' c (Proc.devRef .tc Cert.ReferenceIdeal.main_arg20) :=
  (congrFun (RH_def m' c) _).trans ((Cert.ReferenceIdeal.Chunks.cH_arg20 _).trans (RG_arg20 m' c))
theorem RI_arg20 : Cert.Sim.RI m' c (Proc.devRef .tc Cert.ReferenceIdeal.main_arg20) = launchContents m' c (Proc.devRef .tc Cert.ReferenceIdeal.main_arg20) :=
  (congrFun (RI_def m' c) _).trans ((Cert.ReferenceIdeal.Chunks.cI_arg20 _).trans (RH_arg20 m' c))

theorem RA_arg21 : Cert.Sim.RA m' c (Proc.devRef .tc Cert.ReferenceIdeal.main_arg21) = launchContents m' c (Proc.devRef .tc Cert.ReferenceIdeal.main_arg21) :=
  (congrFun (RA_def m' c) _).trans ((Cert.ReferenceIdeal.Chunks.cA_arg21 _))
theorem RB_arg21 : Cert.Sim.RB m' c (Proc.devRef .tc Cert.ReferenceIdeal.main_arg21) = launchContents m' c (Proc.devRef .tc Cert.ReferenceIdeal.main_arg21) :=
  (congrFun (RB_def m' c) _).trans ((Cert.ReferenceIdeal.Chunks.cB_arg21 _).trans (RA_arg21 m' c))
theorem RC_arg21 : Cert.Sim.RC m' c (Proc.devRef .tc Cert.ReferenceIdeal.main_arg21) = launchContents m' c (Proc.devRef .tc Cert.ReferenceIdeal.main_arg21) :=
  (congrFun (RC_def m' c) _).trans ((Cert.ReferenceIdeal.Chunks.cC_arg21 _).trans (RB_arg21 m' c))
theorem RD_arg21 : Cert.Sim.RD m' c (Proc.devRef .tc Cert.ReferenceIdeal.main_arg21) = launchContents m' c (Proc.devRef .tc Cert.ReferenceIdeal.main_arg21) :=
  (congrFun (RD_def m' c) _).trans ((Cert.ReferenceIdeal.Chunks.cD_arg21 _).trans (RC_arg21 m' c))
theorem RE_arg21 : Cert.Sim.RE m' c (Proc.devRef .tc Cert.ReferenceIdeal.main_arg21) = launchContents m' c (Proc.devRef .tc Cert.ReferenceIdeal.main_arg21) :=
  (congrFun (RE_def m' c) _).trans ((Cert.ReferenceIdeal.Chunks.cE_arg21 _).trans (RD_arg21 m' c))
theorem RF_arg21 : Cert.Sim.RF m' c (Proc.devRef .tc Cert.ReferenceIdeal.main_arg21) = launchContents m' c (Proc.devRef .tc Cert.ReferenceIdeal.main_arg21) :=
  (congrFun (RF_def m' c) _).trans ((Cert.ReferenceIdeal.Chunks.cF_arg21 _).trans (RE_arg21 m' c))
theorem RG_arg21 : Cert.Sim.RG m' c (Proc.devRef .tc Cert.ReferenceIdeal.main_arg21) = launchContents m' c (Proc.devRef .tc Cert.ReferenceIdeal.main_arg21) :=
  (congrFun (RG_def m' c) _).trans ((Cert.ReferenceIdeal.Chunks.cG_arg21 _).trans (RF_arg21 m' c))
theorem RH_arg21 : Cert.Sim.RH m' c (Proc.devRef .tc Cert.ReferenceIdeal.main_arg21) = launchContents m' c (Proc.devRef .tc Cert.ReferenceIdeal.main_arg21) :=
  (congrFun (RH_def m' c) _).trans ((Cert.ReferenceIdeal.Chunks.cH_arg21 _).trans (RG_arg21 m' c))
theorem RI_arg21 : Cert.Sim.RI m' c (Proc.devRef .tc Cert.ReferenceIdeal.main_arg21) = launchContents m' c (Proc.devRef .tc Cert.ReferenceIdeal.main_arg21) :=
  (congrFun (RI_def m' c) _).trans ((Cert.ReferenceIdeal.Chunks.cI_arg21 _).trans (RH_arg21 m' c))

theorem RA_arg22 : Cert.Sim.RA m' c (Proc.devRef .tc Cert.ReferenceIdeal.main_arg22) = launchContents m' c (Proc.devRef .tc Cert.ReferenceIdeal.main_arg22) :=
  (congrFun (RA_def m' c) _).trans ((Cert.ReferenceIdeal.Chunks.cA_arg22 _))
theorem RB_arg22 : Cert.Sim.RB m' c (Proc.devRef .tc Cert.ReferenceIdeal.main_arg22) = launchContents m' c (Proc.devRef .tc Cert.ReferenceIdeal.main_arg22) :=
  (congrFun (RB_def m' c) _).trans ((Cert.ReferenceIdeal.Chunks.cB_arg22 _).trans (RA_arg22 m' c))
theorem RC_arg22 : Cert.Sim.RC m' c (Proc.devRef .tc Cert.ReferenceIdeal.main_arg22) = launchContents m' c (Proc.devRef .tc Cert.ReferenceIdeal.main_arg22) :=
  (congrFun (RC_def m' c) _).trans ((Cert.ReferenceIdeal.Chunks.cC_arg22 _).trans (RB_arg22 m' c))
theorem RD_arg22 : Cert.Sim.RD m' c (Proc.devRef .tc Cert.ReferenceIdeal.main_arg22) = launchContents m' c (Proc.devRef .tc Cert.ReferenceIdeal.main_arg22) :=
  (congrFun (RD_def m' c) _).trans ((Cert.ReferenceIdeal.Chunks.cD_arg22 _).trans (RC_arg22 m' c))
theorem RE_arg22 : Cert.Sim.RE m' c (Proc.devRef .tc Cert.ReferenceIdeal.main_arg22) = launchContents m' c (Proc.devRef .tc Cert.ReferenceIdeal.main_arg22) :=
  (congrFun (RE_def m' c) _).trans ((Cert.ReferenceIdeal.Chunks.cE_arg22 _).trans (RD_arg22 m' c))
theorem RF_arg22 : Cert.Sim.RF m' c (Proc.devRef .tc Cert.ReferenceIdeal.main_arg22) = launchContents m' c (Proc.devRef .tc Cert.ReferenceIdeal.main_arg22) :=
  (congrFun (RF_def m' c) _).trans ((Cert.ReferenceIdeal.Chunks.cF_arg22 _).trans (RE_arg22 m' c))
theorem RG_arg22 : Cert.Sim.RG m' c (Proc.devRef .tc Cert.ReferenceIdeal.main_arg22) = launchContents m' c (Proc.devRef .tc Cert.ReferenceIdeal.main_arg22) :=
  (congrFun (RG_def m' c) _).trans ((Cert.ReferenceIdeal.Chunks.cG_arg22 _).trans (RF_arg22 m' c))
theorem RH_arg22 : Cert.Sim.RH m' c (Proc.devRef .tc Cert.ReferenceIdeal.main_arg22) = launchContents m' c (Proc.devRef .tc Cert.ReferenceIdeal.main_arg22) :=
  (congrFun (RH_def m' c) _).trans ((Cert.ReferenceIdeal.Chunks.cH_arg22 _).trans (RG_arg22 m' c))
theorem RI_arg22 : Cert.Sim.RI m' c (Proc.devRef .tc Cert.ReferenceIdeal.main_arg22) = launchContents m' c (Proc.devRef .tc Cert.ReferenceIdeal.main_arg22) :=
  (congrFun (RI_def m' c) _).trans ((Cert.ReferenceIdeal.Chunks.cI_arg22 _).trans (RH_arg22 m' c))

end Cert.Sim

end
-- ==== Proof.SimInv.lean ====
/-
  What the kernel's program and the reference's program have in common at each boundary: for every buffer of the kernel's
  program that is still read later, its contents equal the contents of the reference's buffer that the same operations compute.
  The boundaries are the launch, the exit of each of the ten pallas regions, the point before the ranking loss's rectifier,
  and the return; the score columns of a contrastive block are [2048,1] in the kernel's program and [2048] in the reference's,
  so they are compared entry by entry, and a reshaped mask is carried as the reshape of the mask it was made from.
-/
import proofs.«103739_j26439818674747_2_alg».proof.Proof.SimBase
import proofs.«103739_j26439818674747_2_alg».proof.Proof.SimArgsK0
import proofs.«103739_j26439818674747_2_alg».proof.Proof.SimArgsK1
import proofs.«103739_j26439818674747_2_alg».proof.Proof.SimArgsK2
import proofs.«103739_j26439818674747_2_alg».proof.Proof.SimArgsR0
import proofs.«103739_j26439818674747_2_alg».proof.Proof.SimArgsR1
import proofs.«103739_j26439818674747_2_alg».proof.Proof.SimArgsR2
import Idealize.ShloMosaic.Lib.ValueIdx

set_option maxRecDepth 16384

noncomputable section

namespace Cert.Sim

open Idealize.ShloMosaic Idealize.ShloMosaic.TcCoe Idealize.SL.Sem Idealize.ShloMosaic.StableHlo
open Cert.ReferenceIdeal.Chunks

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

/-- The kernel's launch contents and the reference's agree on the arguments. -/
def Agree : Prop :=
  (Cert.KernelIdeal.GenP.W0 m ρ c (Proc.devRef .tc Cert.KernelIdeal.main_arg0) = launchContents m' c (Proc.devRef .tc Cert.ReferenceIdeal.main_arg0)) ∧
  (Cert.KernelIdeal.GenP.W0 m ρ c (Proc.devRef .tc Cert.KernelIdeal.main_arg1) = launchContents m' c (Proc.devRef .tc Cert.ReferenceIdeal.main_arg1)) ∧
  (Cert.KernelIdeal.GenP.W0 m ρ c (Proc.devRef .tc Cert.KernelIdeal.main_arg2) = launchContents m' c (Proc.devRef .tc Cert.ReferenceIdeal.main_arg2)) ∧
  (Cert.KernelIdeal.GenP.W0 m ρ c (Proc.devRef .tc Cert.KernelIdeal.main_arg3) = launchContents m' c (Proc.devRef .tc Cert.ReferenceIdeal.main_arg3)) ∧
  (Cert.KernelIdeal.GenP.W0 m ρ c (Proc.devRef .tc Cert.KernelIdeal.main_arg4) = launchContents m' c (Proc.devRef .tc Cert.ReferenceIdeal.main_arg4)) ∧
  (Cert.KernelIdeal.GenP.W0 m ρ c (Proc.devRef .tc Cert.KernelIdeal.main_arg5) = launchContents m' c (Proc.devRef .tc Cert.ReferenceIdeal.main_arg5)) ∧
  (Cert.KernelIdeal.GenP.W0 m ρ c (Proc.devRef .tc Cert.KernelIdeal.main_arg6) = launchContents m' c (Proc.devRef .tc Cert.ReferenceIdeal.main_arg6)) ∧
  (Cert.KernelIdeal.GenP.W0 m ρ c (Proc.devRef .tc Cert.KernelIdeal.main_arg7) = launchContents m' c (Proc.devRef .tc Cert.ReferenceIdeal.main_arg7)) ∧
  (Cert.KernelIdeal.GenP.W0 m ρ c (Proc.devRef .tc Cert.KernelIdeal.main_arg8) = launchContents m' c (Proc.devRef .tc Cert.ReferenceIdeal.main_arg8)) ∧
  (Cert.KernelIdeal.GenP.W0 m ρ c (Proc.devRef .tc Cert.KernelIdeal.main_arg9) = launchContents m' c (Proc.devRef .tc Cert.ReferenceIdeal.main_arg9)) ∧
  (Cert.KernelIdeal.GenP.W0 m ρ c (Proc.devRef .tc Cert.KernelIdeal.main_arg10) = launchContents m' c (Proc.devRef .tc Cert.ReferenceIdeal.main_arg10)) ∧
  (Cert.KernelIdeal.GenP.W0 m ρ c (Proc.devRef .tc Cert.KernelIdeal.main_arg11) = launchContents m' c (Proc.devRef .tc Cert.ReferenceIdeal.main_arg11)) ∧
  (Cert.KernelIdeal.GenP.W0 m ρ c (Proc.devRef .tc Cert.KernelIdeal.main_arg12) = launchContents m' c (Proc.devRef .tc Cert.ReferenceIdeal.main_arg12)) ∧
  (Cert.KernelIdeal.GenP.W0 m ρ c (Proc.devRef .tc Cert.KernelIdeal.main_arg13) = launchContents m' c (Proc.devRef .tc Cert.ReferenceIdeal.main_arg13)) ∧
  (Cert.KernelIdeal.GenP.W0 m ρ c (Proc.devRef .tc Cert.KernelIdeal.main_arg14) = launchContents m' c (Proc.devRef .tc Cert.ReferenceIdeal.main_arg14)) ∧
  (Cert.KernelIdeal.GenP.W0 m ρ c (Proc.devRef .tc Cert.KernelIdeal.main_arg15) = launchContents m' c (Proc.devRef .tc Cert.ReferenceIdeal.main_arg15)) ∧
  (Cert.KernelIdeal.GenP.W0 m ρ c (Proc.devRef .tc Cert.KernelIdeal.main_arg16) = launchContents m' c (Proc.devRef .tc Cert.ReferenceIdeal.main_arg16)) ∧
  (Cert.KernelIdeal.GenP.W0 m ρ c (Proc.devRef .tc Cert.KernelIdeal.main_arg17) = launchContents m' c (Proc.devRef .tc Cert.ReferenceIdeal.main_arg17)) ∧
  (Cert.KernelIdeal.GenP.W0 m ρ c (Proc.devRef .tc Cert.KernelIdeal.main_arg18) = launchContents m' c (Proc.devRef .tc Cert.ReferenceIdeal.main_arg18)) ∧
  (Cert.KernelIdeal.GenP.W0 m ρ c (Proc.devRef .tc Cert.KernelIdeal.main_arg19) = launchContents m' c (Proc.devRef .tc Cert.ReferenceIdeal.main_arg19)) ∧
  (Cert.KernelIdeal.GenP.W0 m ρ c (Proc.devRef .tc Cert.KernelIdeal.main_arg20) = launchContents m' c (Proc.devRef .tc Cert.ReferenceIdeal.main_arg20)) ∧
  (Cert.KernelIdeal.GenP.W0 m ρ c (Proc.devRef .tc Cert.KernelIdeal.main_arg21) = launchContents m' c (Proc.devRef .tc Cert.ReferenceIdeal.main_arg21)) ∧
  (Cert.KernelIdeal.GenP.W0 m ρ c (Proc.devRef .tc Cert.KernelIdeal.main_arg22) = launchContents m' c (Proc.devRef .tc Cert.ReferenceIdeal.main_arg22))

theorem ag_arg0 (hag : Agree m ρ m' c) : Cert.KernelIdeal.GenP.W0 m ρ c (Proc.devRef .tc Cert.KernelIdeal.main_arg0) = launchContents m' c (Proc.devRef .tc Cert.ReferenceIdeal.main_arg0) := hag.1
theorem ag_arg1 (hag : Agree m ρ m' c) : Cert.KernelIdeal.GenP.W0 m ρ c (Proc.devRef .tc Cert.KernelIdeal.main_arg1) = launchContents m' c (Proc.devRef .tc Cert.ReferenceIdeal.main_arg1) := hag.2.1
theorem ag_arg2 (hag : Agree m ρ m' c) : Cert.KernelIdeal.GenP.W0 m ρ c (Proc.devRef .tc Cert.KernelIdeal.main_arg2) = launchContents m' c (Proc.devRef .tc Cert.ReferenceIdeal.main_arg2) := hag.2.2.1
theorem ag_arg3 (hag : Agree m ρ m' c) : Cert.KernelIdeal.GenP.W0 m ρ c (Proc.devRef .tc Cert.KernelIdeal.main_arg3) = launchContents m' c (Proc.devRef .tc Cert.ReferenceIdeal.main_arg3) := hag.2.2.2.1
theorem ag_arg4 (hag : Agree m ρ m' c) : Cert.KernelIdeal.GenP.W0 m ρ c (Proc.devRef .tc Cert.KernelIdeal.main_arg4) = launchContents m' c (Proc.devRef .tc Cert.ReferenceIdeal.main_arg4) := hag.2.2.2.2.1
theorem ag_arg5 (hag : Agree m ρ m' c) : Cert.KernelIdeal.GenP.W0 m ρ c (Proc.devRef .tc Cert.KernelIdeal.main_arg5) = launchContents m' c (Proc.devRef .tc Cert.ReferenceIdeal.main_arg5) := hag.2.2.2.2.2.1
theorem ag_arg6 (hag : Agree m ρ m' c) : Cert.KernelIdeal.GenP.W0 m ρ c (Proc.devRef .tc Cert.KernelIdeal.main_arg6) = launchContents m' c (Proc.devRef .tc Cert.ReferenceIdeal.main_arg6) := hag.2.2.2.2.2.2.1
theorem ag_arg7 (hag : Agree m ρ m' c) : Cert.KernelIdeal.GenP.W0 m ρ c (Proc.devRef .tc Cert.KernelIdeal.main_arg7) = launchContents m' c (Proc.devRef .tc Cert.ReferenceIdeal.main_arg7) := hag.2.2.2.2.2.2.2.1
theorem ag_arg8 (hag : Agree m ρ m' c) : Cert.KernelIdeal.GenP.W0 m ρ c (Proc.devRef .tc Cert.KernelIdeal.main_arg8) = launchContents m' c (Proc.devRef .tc Cert.ReferenceIdeal.main_arg8) := hag.2.2.2.2.2.2.2.2.1
theorem ag_arg9 (hag : Agree m ρ m' c) : Cert.KernelIdeal.GenP.W0 m ρ c (Proc.devRef .tc Cert.KernelIdeal.main_arg9) = launchContents m' c (Proc.devRef .tc Cert.ReferenceIdeal.main_arg9) := hag.2.2.2.2.2.2.2.2.2.1
theorem ag_arg10 (hag : Agree m ρ m' c) : Cert.KernelIdeal.GenP.W0 m ρ c (Proc.devRef .tc Cert.KernelIdeal.main_arg10) = launchContents m' c (Proc.devRef .tc Cert.ReferenceIdeal.main_arg10) := hag.2.2.2.2.2.2.2.2.2.2.1
theorem ag_arg11 (hag : Agree m ρ m' c) : Cert.KernelIdeal.GenP.W0 m ρ c (Proc.devRef .tc Cert.KernelIdeal.main_arg11) = launchContents m' c (Proc.devRef .tc Cert.ReferenceIdeal.main_arg11) := hag.2.2.2.2.2.2.2.2.2.2.2.1
theorem ag_arg12 (hag : Agree m ρ m' c) : Cert.KernelIdeal.GenP.W0 m ρ c (Proc.devRef .tc Cert.KernelIdeal.main_arg12) = launchContents m' c (Proc.devRef .tc Cert.ReferenceIdeal.main_arg12) := hag.2.2.2.2.2.2.2.2.2.2.2.2.1
theorem ag_arg13 (hag : Agree m ρ m' c) : Cert.KernelIdeal.GenP.W0 m ρ c (Proc.devRef .tc Cert.KernelIdeal.main_arg13) = launchContents m' c (Proc.devRef .tc Cert.ReferenceIdeal.main_arg13) := hag.2.2.2.2.2.2.2.2.2.2.2.2.2.1
theorem ag_arg14 (hag : Agree m ρ m' c) : Cert.KernelIdeal.GenP.W0 m ρ c (Proc.devRef .tc Cert.KernelIdeal.main_arg14) = launchContents m' c (Proc.devRef .tc Cert.ReferenceIdeal.main_arg14) := hag.2.2.2.2.2.2.2.2.2.2.2.2.2.2.1
theorem ag_arg15 (hag : Agree m ρ m' c) : Cert.KernelIdeal.GenP.W0 m ρ c (Proc.devRef .tc Cert.KernelIdeal.main_arg15) = launchContents m' c (Proc.devRef .tc Cert.ReferenceIdeal.main_arg15) := hag.2.2.2.2.2.2.2.2.2.2.2.2.2.2.2.1
theorem ag_arg16 (hag : Agree m ρ m' c) : Cert.KernelIdeal.GenP.W0 m ρ c (Proc.devRef .tc Cert.KernelIdeal.main_arg16) = launchContents m' c (Proc.devRef .tc Cert.ReferenceIdeal.main_arg16) := hag.2.2.2.2.2.2.2.2.2.2.2.2.2.2.2.2.1
theorem ag_arg17 (hag : Agree m ρ m' c) : Cert.KernelIdeal.GenP.W0 m ρ c (Proc.devRef .tc Cert.KernelIdeal.main_arg17) = launchContents m' c (Proc.devRef .tc Cert.ReferenceIdeal.main_arg17) := hag.2.2.2.2.2.2.2.2.2.2.2.2.2.2.2.2.2.1
theorem ag_arg18 (hag : Agree m ρ m' c) : Cert.KernelIdeal.GenP.W0 m ρ c (Proc.devRef .tc Cert.KernelIdeal.main_arg18) = launchContents m' c (Proc.devRef .tc Cert.ReferenceIdeal.main_arg18) := hag.2.2.2.2.2.2.2.2.2.2.2.2.2.2.2.2.2.2.1
theorem ag_arg19 (hag : Agree m ρ m' c) : Cert.KernelIdeal.GenP.W0 m ρ c (Proc.devRef .tc Cert.KernelIdeal.main_arg19) = launchContents m' c (Proc.devRef .tc Cert.ReferenceIdeal.main_arg19) := hag.2.2.2.2.2.2.2.2.2.2.2.2.2.2.2.2.2.2.2.1
theorem ag_arg20 (hag : Agree m ρ m' c) : Cert.KernelIdeal.GenP.W0 m ρ c (Proc.devRef .tc Cert.KernelIdeal.main_arg20) = launchContents m' c (Proc.devRef .tc Cert.ReferenceIdeal.main_arg20) := hag.2.2.2.2.2.2.2.2.2.2.2.2.2.2.2.2.2.2.2.2.1
theorem ag_arg21 (hag : Agree m ρ m' c) : Cert.KernelIdeal.GenP.W0 m ρ c (Proc.devRef .tc Cert.KernelIdeal.main_arg21) = launchContents m' c (Proc.devRef .tc Cert.ReferenceIdeal.main_arg21) := hag.2.2.2.2.2.2.2.2.2.2.2.2.2.2.2.2.2.2.2.2.2.1
theorem ag_arg22 (hag : Agree m ρ m' c) : Cert.KernelIdeal.GenP.W0 m ρ c (Proc.devRef .tc Cert.KernelIdeal.main_arg22) = launchContents m' c (Proc.devRef .tc Cert.ReferenceIdeal.main_arg22) := hag.2.2.2.2.2.2.2.2.2.2.2.2.2.2.2.2.2.2.2.2.2.2

/-- At the launch. -/
abbrev InvL : Prop :=
  True

/-- At the exit of region 0. -/
abbrev Inv0 : Prop :=
  (Cert.KernelIdeal.GenP.W2 m ρ c (Proc.devRef .tc Cert.KernelIdeal.main_v1_0) = Cert.Sim.RA m' c (Proc.devRef .tc Cert.ReferenceIdeal.main_v54)) ∧
  (Cert.KernelIdeal.GenP.W2 m ρ c (Proc.devRef .tc Cert.KernelIdeal.main_v1_1) = Cert.Sim.RA m' c (Proc.devRef .tc Cert.ReferenceIdeal.main_v60))

/-- At the exit of region 1. -/
abbrev Inv1 : Prop :=
  (Cert.KernelIdeal.GenP.W4 m ρ c (Proc.devRef .tc Cert.KernelIdeal.main_v1_0) = Cert.Sim.RA m' c (Proc.devRef .tc Cert.ReferenceIdeal.main_v54)) ∧
  (Cert.KernelIdeal.GenP.W4 m ρ c (Proc.devRef .tc Cert.KernelIdeal.main_v1_1) = Cert.Sim.RA m' c (Proc.devRef .tc Cert.ReferenceIdeal.main_v60)) ∧
  (Cert.KernelIdeal.GenP.W4 m ρ c (Proc.devRef .tc Cert.KernelIdeal.main_v3_0) = Cert.Sim.RA m' c (Proc.devRef .tc Cert.ReferenceIdeal.main_v57)) ∧
  (Cert.KernelIdeal.GenP.W4 m ρ c (Proc.devRef .tc Cert.KernelIdeal.main_v3_1) = Cert.Sim.RA m' c (Proc.devRef .tc Cert.ReferenceIdeal.main_v63))

/-- At the exit of region 2. -/
abbrev Inv2 : Prop :=
  (Cert.KernelIdeal.GenP.W10 m ρ c (Proc.devRef .tc Cert.KernelIdeal.main_v1_0) = Cert.Sim.RB m' c (Proc.devRef .tc Cert.ReferenceIdeal.main_v54)) ∧
  (Cert.KernelIdeal.GenP.W10 m ρ c (Proc.devRef .tc Cert.KernelIdeal.main_v1_1) = Cert.Sim.RB m' c (Proc.devRef .tc Cert.ReferenceIdeal.main_v60)) ∧
  (Cert.KernelIdeal.GenP.W10 m ρ c (Proc.devRef .tc Cert.KernelIdeal.main_v3_0) = Cert.Sim.RB m' c (Proc.devRef .tc Cert.ReferenceIdeal.main_v57)) ∧
  (Cert.KernelIdeal.GenP.W10 m ρ c (Proc.devRef .tc Cert.KernelIdeal.main_v3_1) = Cert.Sim.RB m' c (Proc.devRef .tc Cert.ReferenceIdeal.main_v63)) ∧
  (Cert.KernelIdeal.GenP.W10 m ρ c (Proc.devRef .tc Cert.KernelIdeal.main_v29) = Cert.Sim.RB m' c (Proc.devRef .tc Cert.ReferenceIdeal.main_v89)) ∧
  (Cert.KernelIdeal.GenP.W10 m ρ c (Proc.devRef .tc Cert.KernelIdeal.main_v55) = Cert.Sim.RB m' c (Proc.devRef .tc Cert.ReferenceIdeal.main_v115)) ∧
  (Cert.KernelIdeal.GenP.W10 m ρ c (Proc.devRef .tc Cert.KernelIdeal.main_v57) = Cert.Sim.RB m' c (Proc.devRef .tc Cert.ReferenceIdeal.main_v117)) ∧
  (Cert.KernelIdeal.GenP.W10 m ρ c (Proc.devRef .tc Cert.KernelIdeal.main_v58_0) = Cert.Sim.RB m' c (Proc.devRef .tc Cert.ReferenceIdeal.main_v123)) ∧
  (Cert.KernelIdeal.GenP.W10 m ρ c (Proc.devRef .tc Cert.KernelIdeal.main_v58_1) = Cert.Sim.RB m' c (Proc.devRef .tc Cert.ReferenceIdeal.main_v135))

/-- At the exit of region 3. -/
abbrev Inv3 : Prop :=
  (Cert.KernelIdeal.GenP.W11 m ρ c (Proc.devRef .tc Cert.KernelIdeal.main_v1_0) = Cert.Sim.RB m' c (Proc.devRef .tc Cert.ReferenceIdeal.main_v54)) ∧
  (Cert.KernelIdeal.GenP.W11 m ρ c (Proc.devRef .tc Cert.KernelIdeal.main_v1_1) = Cert.Sim.RB m' c (Proc.devRef .tc Cert.ReferenceIdeal.main_v60)) ∧
  (Cert.KernelIdeal.GenP.W11 m ρ c (Proc.devRef .tc Cert.KernelIdeal.main_v3_0) = Cert.Sim.RB m' c (Proc.devRef .tc Cert.ReferenceIdeal.main_v57)) ∧
  (Cert.KernelIdeal.GenP.W11 m ρ c (Proc.devRef .tc Cert.KernelIdeal.main_v3_1) = Cert.Sim.RB m' c (Proc.devRef .tc Cert.ReferenceIdeal.main_v63)) ∧
  (Cert.KernelIdeal.GenP.W11 m ρ c (Proc.devRef .tc Cert.KernelIdeal.main_v29) = Cert.Sim.RB m' c (Proc.devRef .tc Cert.ReferenceIdeal.main_v89)) ∧
  (Cert.KernelIdeal.GenP.W11 m ρ c (Proc.devRef .tc Cert.KernelIdeal.main_v55) = Cert.Sim.RB m' c (Proc.devRef .tc Cert.ReferenceIdeal.main_v115)) ∧
  (Cert.KernelIdeal.GenP.W11 m ρ c (Proc.devRef .tc Cert.KernelIdeal.main_v58_0) = Cert.Sim.RB m' c (Proc.devRef .tc Cert.ReferenceIdeal.main_v123)) ∧
  (Cert.KernelIdeal.GenP.W11 m ρ c (Proc.devRef .tc Cert.KernelIdeal.main_v58_1) = Cert.Sim.RB m' c (Proc.devRef .tc Cert.ReferenceIdeal.main_v135)) ∧
  (Cert.KernelIdeal.GenP.W11 m ρ c (Proc.devRef .tc Cert.KernelIdeal.main_v59_0) = Cert.Sim.RB m' c (Proc.devRef .tc Cert.ReferenceIdeal.main_v129)) ∧
  (Cert.KernelIdeal.GenP.W11 m ρ c (Proc.devRef .tc Cert.KernelIdeal.main_v59_1) = Cert.Sim.RB m' c (Proc.devRef .tc Cert.ReferenceIdeal.main_v141))

/-- At the exit of region 4. -/
abbrev Inv4 : Prop :=
  (Cert.KernelIdeal.GenP.W17 m ρ c (Proc.devRef .tc Cert.KernelIdeal.main_v3_0) = Cert.Sim.RC m' c (Proc.devRef .tc Cert.ReferenceIdeal.main_v57)) ∧
  (Cert.KernelIdeal.GenP.W17 m ρ c (Proc.devRef .tc Cert.KernelIdeal.main_v3_1) = Cert.Sim.RC m' c (Proc.devRef .tc Cert.ReferenceIdeal.main_v63)) ∧
  (Cert.KernelIdeal.GenP.W17 m ρ c (Proc.devRef .tc Cert.KernelIdeal.main_v58_0) = Cert.Sim.RC m' c (Proc.devRef .tc Cert.ReferenceIdeal.main_v123)) ∧
  (Cert.KernelIdeal.GenP.W17 m ρ c (Proc.devRef .tc Cert.KernelIdeal.main_v58_1) = Cert.Sim.RC m' c (Proc.devRef .tc Cert.ReferenceIdeal.main_v135)) ∧
  (Cert.KernelIdeal.GenP.W17 m ρ c (Proc.devRef .tc Cert.KernelIdeal.main_v59_0) = Cert.Sim.RC m' c (Proc.devRef .tc Cert.ReferenceIdeal.main_v129)) ∧
  (Cert.KernelIdeal.GenP.W17 m ρ c (Proc.devRef .tc Cert.KernelIdeal.main_v59_1) = Cert.Sim.RC m' c (Proc.devRef .tc Cert.ReferenceIdeal.main_v141)) ∧
  (Cert.KernelIdeal.GenP.W17 m ρ c (Proc.devRef .tc Cert.KernelIdeal.main_v60) = Cert.Sim.RC m' c (Proc.devRef .tc Cert.ReferenceIdeal.main_v142)) ∧
  (Cert.KernelIdeal.GenP.W17 m ρ c (Proc.devRef .tc Cert.KernelIdeal.main_v61) = Cert.Sim.RC m' c (Proc.devRef .tc Cert.ReferenceIdeal.main_v143)) ∧
  (Cert.KernelIdeal.GenP.W17 m ρ c (Proc.devRef .tc Cert.KernelIdeal.main_v87) = Cert.Sim.RC m' c (Proc.devRef .tc Cert.ReferenceIdeal.main_v169)) ∧
  (Cert.KernelIdeal.GenP.W17 m ρ c (Proc.devRef .tc Cert.KernelIdeal.main_v113) = Cert.Sim.RC m' c (Proc.devRef .tc Cert.ReferenceIdeal.main_v195)) ∧
  (Cert.KernelIdeal.GenP.W17 m ρ c (Proc.devRef .tc Cert.KernelIdeal.main_v115) = Cert.Sim.RC m' c (Proc.devRef .tc Cert.ReferenceIdeal.main_v197)) ∧
  (Cert.KernelIdeal.GenP.W17 m ρ c (Proc.devRef .tc Cert.KernelIdeal.main_v116_0) = Cert.Sim.RC m' c (Proc.devRef .tc Cert.ReferenceIdeal.main_v203)) ∧
  (Cert.KernelIdeal.GenP.W17 m ρ c (Proc.devRef .tc Cert.KernelIdeal.main_v116_1) = Cert.Sim.RC m' c (Proc.devRef .tc Cert.ReferenceIdeal.main_v215))

/-- At the exit of region 5. -/
abbrev Inv5 : Prop :=
  (Cert.KernelIdeal.GenP.W18 m ρ c (Proc.devRef .tc Cert.KernelIdeal.main_v58_0) = Cert.Sim.RC m' c (Proc.devRef .tc Cert.ReferenceIdeal.main_v123)) ∧
  (Cert.KernelIdeal.GenP.W18 m ρ c (Proc.devRef .tc Cert.KernelIdeal.main_v58_1) = Cert.Sim.RC m' c (Proc.devRef .tc Cert.ReferenceIdeal.main_v135)) ∧
  (Cert.KernelIdeal.GenP.W18 m ρ c (Proc.devRef .tc Cert.KernelIdeal.main_v59_0) = Cert.Sim.RC m' c (Proc.devRef .tc Cert.ReferenceIdeal.main_v129)) ∧
  (Cert.KernelIdeal.GenP.W18 m ρ c (Proc.devRef .tc Cert.KernelIdeal.main_v59_1) = Cert.Sim.RC m' c (Proc.devRef .tc Cert.ReferenceIdeal.main_v141)) ∧
  (Cert.KernelIdeal.GenP.W18 m ρ c (Proc.devRef .tc Cert.KernelIdeal.main_v60) = Cert.Sim.RC m' c (Proc.devRef .tc Cert.ReferenceIdeal.main_v142)) ∧
  (Cert.KernelIdeal.GenP.W18 m ρ c (Proc.devRef .tc Cert.KernelIdeal.main_v61) = Cert.Sim.RC m' c (Proc.devRef .tc Cert.ReferenceIdeal.main_v143)) ∧
  (Cert.KernelIdeal.GenP.W18 m ρ c (Proc.devRef .tc Cert.KernelIdeal.main_v87) = Cert.Sim.RC m' c (Proc.devRef .tc Cert.ReferenceIdeal.main_v169)) ∧
  (Cert.KernelIdeal.GenP.W18 m ρ c (Proc.devRef .tc Cert.KernelIdeal.main_v113) = Cert.Sim.RC m' c (Proc.devRef .tc Cert.ReferenceIdeal.main_v195)) ∧
  (Cert.KernelIdeal.GenP.W18 m ρ c (Proc.devRef .tc Cert.KernelIdeal.main_v116_0) = Cert.Sim.RC m' c (Proc.devRef .tc Cert.ReferenceIdeal.main_v203)) ∧
  (Cert.KernelIdeal.GenP.W18 m ρ c (Proc.devRef .tc Cert.KernelIdeal.main_v116_1) = Cert.Sim.RC m' c (Proc.devRef .tc Cert.ReferenceIdeal.main_v215)) ∧
  (Cert.KernelIdeal.GenP.W18 m ρ c (Proc.devRef .tc Cert.KernelIdeal.main_v117_0) = Cert.Sim.RC m' c (Proc.devRef .tc Cert.ReferenceIdeal.main_v209)) ∧
  (Cert.KernelIdeal.GenP.W18 m ρ c (Proc.devRef .tc Cert.KernelIdeal.main_v117_1) = Cert.Sim.RC m' c (Proc.devRef .tc Cert.ReferenceIdeal.main_v221))

/-- At the exit of region 6. -/
abbrev Inv6 : Prop :=
  (Cert.KernelIdeal.GenP.W20 m ρ c (Proc.devRef .tc Cert.KernelIdeal.main_v59_0) = Cert.Sim.RD m' c (Proc.devRef .tc Cert.ReferenceIdeal.main_v129)) ∧
  (Cert.KernelIdeal.GenP.W20 m ρ c (Proc.devRef .tc Cert.KernelIdeal.main_v59_1) = Cert.Sim.RD m' c (Proc.devRef .tc Cert.ReferenceIdeal.main_v141)) ∧
  (Cert.KernelIdeal.GenP.W20 m ρ c (Proc.devRef .tc Cert.KernelIdeal.main_v116_0) = Cert.Sim.RD m' c (Proc.devRef .tc Cert.ReferenceIdeal.main_v203)) ∧
  (Cert.KernelIdeal.GenP.W20 m ρ c (Proc.devRef .tc Cert.KernelIdeal.main_v116_1) = Cert.Sim.RD m' c (Proc.devRef .tc Cert.ReferenceIdeal.main_v215)) ∧
  (Cert.KernelIdeal.GenP.W20 m ρ c (Proc.devRef .tc Cert.KernelIdeal.main_v117_0) = Cert.Sim.RD m' c (Proc.devRef .tc Cert.ReferenceIdeal.main_v209)) ∧
  (Cert.KernelIdeal.GenP.W20 m ρ c (Proc.devRef .tc Cert.KernelIdeal.main_v117_1) = Cert.Sim.RD m' c (Proc.devRef .tc Cert.ReferenceIdeal.main_v221)) ∧
  (Cert.KernelIdeal.GenP.W20 m ρ c (Proc.devRef .tc Cert.KernelIdeal.main_v123) = Cert.Sim.RD m' c (Proc.devRef .tc Cert.ReferenceIdeal.main_v227)) ∧
  (Cert.KernelIdeal.GenP.W20 m ρ c (Proc.devRef .tc Cert.KernelIdeal.main_v127) = Cert.Sim.RD m' c (Proc.devRef .tc Cert.ReferenceIdeal.main_v231)) ∧
  (Cert.KernelIdeal.GenP.W20 m ρ c (Proc.devRef .tc Cert.KernelIdeal.main_v134) = Cert.Sim.RD m' c (Proc.devRef .tc Cert.ReferenceIdeal.main_v238)) ∧
  (Cert.KernelIdeal.GenP.W20 m ρ c (Proc.devRef .tc Cert.KernelIdeal.main_v135) = shapeCast Cert.KernelIdeal.S2048x1 (Cert.KernelIdeal.GenP.W20 m ρ c (Proc.devRef .tc Cert.KernelIdeal.main_v134)) Cert.KernelIdeal.Facts₀.shapeCasts_S2048_S2048x1) ∧
  (∀ q : Fin 2048, Cert.KernelIdeal.GenP.W20 m ρ c (Proc.devRef .tc Cert.KernelIdeal.main_v166_0) (Idealize.ShloMosaic.ValueIdx.ix2 q (0 : Fin 1)) = Cert.Sim.RD m' c (Proc.devRef .tc Cert.ReferenceIdeal.main_v275) (Idealize.ShloMosaic.ValueIdx.ix1 q)) ∧
  (∀ q : Fin 2048, Cert.KernelIdeal.GenP.W20 m ρ c (Proc.devRef .tc Cert.KernelIdeal.main_v166_1) (Idealize.ShloMosaic.ValueIdx.ix2 q (0 : Fin 1)) = Cert.Sim.RD m' c (Proc.devRef .tc Cert.ReferenceIdeal.main_v281) (Idealize.ShloMosaic.ValueIdx.ix1 q))

/-- At the exit of region 7. -/
abbrev Inv7 : Prop :=
  (Cert.KernelIdeal.GenP.W22 m ρ c (Proc.devRef .tc Cert.KernelIdeal.main_v116_0) = Cert.Sim.RE m' c (Proc.devRef .tc Cert.ReferenceIdeal.main_v203)) ∧
  (Cert.KernelIdeal.GenP.W22 m ρ c (Proc.devRef .tc Cert.KernelIdeal.main_v116_1) = Cert.Sim.RE m' c (Proc.devRef .tc Cert.ReferenceIdeal.main_v215)) ∧
  (Cert.KernelIdeal.GenP.W22 m ρ c (Proc.devRef .tc Cert.KernelIdeal.main_v117_0) = Cert.Sim.RE m' c (Proc.devRef .tc Cert.ReferenceIdeal.main_v209)) ∧
  (Cert.KernelIdeal.GenP.W22 m ρ c (Proc.devRef .tc Cert.KernelIdeal.main_v117_1) = Cert.Sim.RE m' c (Proc.devRef .tc Cert.ReferenceIdeal.main_v221)) ∧
  (Cert.KernelIdeal.GenP.W22 m ρ c (Proc.devRef .tc Cert.KernelIdeal.main_v123) = Cert.Sim.RE m' c (Proc.devRef .tc Cert.ReferenceIdeal.main_v227)) ∧
  (Cert.KernelIdeal.GenP.W22 m ρ c (Proc.devRef .tc Cert.KernelIdeal.main_v127) = Cert.Sim.RE m' c (Proc.devRef .tc Cert.ReferenceIdeal.main_v231)) ∧
  (Cert.KernelIdeal.GenP.W22 m ρ c (Proc.devRef .tc Cert.KernelIdeal.main_v176) = Cert.Sim.RE m' c (Proc.devRef .tc Cert.ReferenceIdeal.main_v291)) ∧
  (Cert.KernelIdeal.GenP.W22 m ρ c (Proc.devRef .tc Cert.KernelIdeal.main_v183) = Cert.Sim.RE m' c (Proc.devRef .tc Cert.ReferenceIdeal.main_v298)) ∧
  (Cert.KernelIdeal.GenP.W22 m ρ c (Proc.devRef .tc Cert.KernelIdeal.main_v184) = shapeCast Cert.KernelIdeal.S2048x1 (Cert.KernelIdeal.GenP.W22 m ρ c (Proc.devRef .tc Cert.KernelIdeal.main_v183)) Cert.KernelIdeal.Facts₀.shapeCasts_S2048_S2048x1) ∧
  (∀ q : Fin 2048, Cert.KernelIdeal.GenP.W22 m ρ c (Proc.devRef .tc Cert.KernelIdeal.main_v215_0) (Idealize.ShloMosaic.ValueIdx.ix2 q (0 : Fin 1)) = Cert.Sim.RE m' c (Proc.devRef .tc Cert.ReferenceIdeal.main_v335) (Idealize.ShloMosaic.ValueIdx.ix1 q)) ∧
  (∀ q : Fin 2048, Cert.KernelIdeal.GenP.W22 m ρ c (Proc.devRef .tc Cert.KernelIdeal.main_v215_1) (Idealize.ShloMosaic.ValueIdx.ix2 q (0 : Fin 1)) = Cert.Sim.RE m' c (Proc.devRef .tc Cert.ReferenceIdeal.main_v341) (Idealize.ShloMosaic.ValueIdx.ix1 q))

/-- At the exit of region 8. -/
abbrev Inv8 : Prop :=
  (Cert.KernelIdeal.GenP.W24 m ρ c (Proc.devRef .tc Cert.KernelIdeal.main_v117_0) = Cert.Sim.RF m' c (Proc.devRef .tc Cert.ReferenceIdeal.main_v209)) ∧
  (Cert.KernelIdeal.GenP.W24 m ρ c (Proc.devRef .tc Cert.KernelIdeal.main_v117_1) = Cert.Sim.RF m' c (Proc.devRef .tc Cert.ReferenceIdeal.main_v221)) ∧
  (Cert.KernelIdeal.GenP.W24 m ρ c (Proc.devRef .tc Cert.KernelIdeal.main_v123) = Cert.Sim.RF m' c (Proc.devRef .tc Cert.ReferenceIdeal.main_v227)) ∧
  (Cert.KernelIdeal.GenP.W24 m ρ c (Proc.devRef .tc Cert.KernelIdeal.main_v127) = Cert.Sim.RF m' c (Proc.devRef .tc Cert.ReferenceIdeal.main_v231)) ∧
  (Cert.KernelIdeal.GenP.W24 m ρ c (Proc.devRef .tc Cert.KernelIdeal.main_v225) = Cert.Sim.RF m' c (Proc.devRef .tc Cert.ReferenceIdeal.main_v351)) ∧
  (Cert.KernelIdeal.GenP.W24 m ρ c (Proc.devRef .tc Cert.KernelIdeal.main_v232) = Cert.Sim.RF m' c (Proc.devRef .tc Cert.ReferenceIdeal.main_v358)) ∧
  (Cert.KernelIdeal.GenP.W24 m ρ c (Proc.devRef .tc Cert.KernelIdeal.main_v233) = shapeCast Cert.KernelIdeal.S2048x1 (Cert.KernelIdeal.GenP.W24 m ρ c (Proc.devRef .tc Cert.KernelIdeal.main_v232)) Cert.KernelIdeal.Facts₀.shapeCasts_S2048_S2048x1) ∧
  (∀ q : Fin 2048, Cert.KernelIdeal.GenP.W24 m ρ c (Proc.devRef .tc Cert.KernelIdeal.main_v264_0) (Idealize.ShloMosaic.ValueIdx.ix2 q (0 : Fin 1)) = Cert.Sim.RF m' c (Proc.devRef .tc Cert.ReferenceIdeal.main_v395) (Idealize.ShloMosaic.ValueIdx.ix1 q)) ∧
  (∀ q : Fin 2048, Cert.KernelIdeal.GenP.W24 m ρ c (Proc.devRef .tc Cert.KernelIdeal.main_v264_1) (Idealize.ShloMosaic.ValueIdx.ix2 q (0 : Fin 1)) = Cert.Sim.RF m' c (Proc.devRef .tc Cert.ReferenceIdeal.main_v401) (Idealize.ShloMosaic.ValueIdx.ix1 q))

/-- At the exit of region 9. -/
abbrev Inv9 : Prop :=
  (Cert.KernelIdeal.GenP.W26 m ρ c (Proc.devRef .tc Cert.KernelIdeal.main_v123) = Cert.Sim.RG m' c (Proc.devRef .tc Cert.ReferenceIdeal.main_v227)) ∧
  (Cert.KernelIdeal.GenP.W26 m ρ c (Proc.devRef .tc Cert.KernelIdeal.main_v127) = Cert.Sim.RG m' c (Proc.devRef .tc Cert.ReferenceIdeal.main_v231)) ∧
  (Cert.KernelIdeal.GenP.W26 m ρ c (Proc.devRef .tc Cert.KernelIdeal.main_v274) = Cert.Sim.RG m' c (Proc.devRef .tc Cert.ReferenceIdeal.main_v411)) ∧
  (Cert.KernelIdeal.GenP.W26 m ρ c (Proc.devRef .tc Cert.KernelIdeal.main_v281) = Cert.Sim.RG m' c (Proc.devRef .tc Cert.ReferenceIdeal.main_v418)) ∧
  (Cert.KernelIdeal.GenP.W26 m ρ c (Proc.devRef .tc Cert.KernelIdeal.main_v282) = shapeCast Cert.KernelIdeal.S2048x1 (Cert.KernelIdeal.GenP.W26 m ρ c (Proc.devRef .tc Cert.KernelIdeal.main_v281)) Cert.KernelIdeal.Facts₀.shapeCasts_S2048_S2048x1) ∧
  (∀ q : Fin 2048, Cert.KernelIdeal.GenP.W26 m ρ c (Proc.devRef .tc Cert.KernelIdeal.main_v313_0) (Idealize.ShloMosaic.ValueIdx.ix2 q (0 : Fin 1)) = Cert.Sim.RG m' c (Proc.devRef .tc Cert.ReferenceIdeal.main_v455) (Idealize.ShloMosaic.ValueIdx.ix1 q)) ∧
  (∀ q : Fin 2048, Cert.KernelIdeal.GenP.W26 m ρ c (Proc.devRef .tc Cert.KernelIdeal.main_v313_1) (Idealize.ShloMosaic.ValueIdx.ix2 q (0 : Fin 1)) = Cert.Sim.RG m' c (Proc.devRef .tc Cert.ReferenceIdeal.main_v461) (Idealize.ShloMosaic.ValueIdx.ix1 q))

/-- At the point before the rectifier. -/
abbrev Inv10 : Prop :=
  (Cert.Sim.KW27 m ρ c (Proc.devRef .tc Cert.KernelIdeal.main_v323) = Cert.Sim.RH m' c (Proc.devRef .tc Cert.ReferenceIdeal.main_v471)) ∧
  (Cert.Sim.KW27 m ρ c (Proc.devRef .tc Cert.KernelIdeal.main_v351) = Cert.Sim.RH m' c (Proc.devRef .tc Cert.ReferenceIdeal.main_v499))

/-- At the return. -/
abbrev Inv11 : Prop :=
  (Cert.KernelIdeal.GenP.W29 m ρ c (Proc.devRef .tc Cert.KernelIdeal.main_v323) = Cert.Sim.RI m' c (Proc.devRef .tc Cert.ReferenceIdeal.main_v471)) ∧
  (Cert.KernelIdeal.GenP.W29 m ρ c (Proc.devRef .tc Cert.KernelIdeal.main_v354) = Cert.Sim.RI m' c (Proc.devRef .tc Cert.ReferenceIdeal.main_v502)) ∧
  (Cert.KernelIdeal.GenP.W29 m ρ c (Proc.devRef .tc Cert.KernelIdeal.main_v356) = Cert.Sim.RI m' c (Proc.devRef .tc Cert.ReferenceIdeal.main_v504))

end Cert.Sim

end
-- ==== Proof.Spec.lean ====
/-
  The three kernels' results as functions of whole arrays, index by index, over the extended reals.

  * perturb-and-scale: row r, column q of the result is
      (x[r,q] + (sign x[r,q] · (ν[r,q] / max(√(Σ_k ν[r,k]²), ε))) · 0.05) · s[q],
    the augmentation's sign-aligned unit-norm noise added to the factor and scaled by the singular value.
  * leaky projection: leaky(Σ_k x[r,k] · M[k,q]), leaky(y) = y where 0 ≤ y and y/2 elsewhere.
  * contrastive scores of two views g1, g2 through W: with h = g · W,
      pos[r] = exp((Σ_q h1[r,q] · h2[r,q]) / 0.2),   neg[r] = Σ_j exp((Σ_q h1[r,q] · h2[j,q]) / 0.2).
  The literals stay the binary values both programs print; only the zero word is ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An n × k array of extended reals, indexed as the programs' arrays are. -/
abbrev Mat (n k : Nat) : Type := (⟨2, ![n, k]⟩ : Shape).Idx → EReal

/-- The norm's floor, the noise scale, the leaky slope and the temperature: the f32 words both programs print. -/
def epsNorm : EReal := Ideal.ofBits .f32 0x2B8CBCCC#32
def noiseScale : EReal := Ideal.ofBits .f32 0x3D4CCCCD#32
def slope : EReal := Ideal.ofBits .f32 0x3F000000#32
def temp : EReal := Ideal.ofBits .f32 0x3E4CCCCD#32

/-- A row's Euclidean norm, floored at ε. -/
def rowNorm {n : Nat} (ν : Mat n 64) (r : Fin n) : EReal :=
  max (Ideal.sqrt (∑ k : Fin 64, ν (ix2 r k) * ν (ix2 r k))) epsNorm

/-- Perturb and scale, at row r and column q. -/
def perturbScaleAt {n : Nat} (x ν : Mat n 64) (s : Fin 64 → EReal) (r : Fin n) (q : Fin 64) : EReal :=
  (x (ix2 r q) + (Ideal.sign (x (ix2 r q)) * Ideal.div (ν (ix2 r q)) (rowNorm ν r)) * noiseScale) * s q

/-- Perturb and scale, the whole array. -/
def perturbScale {n : Nat} (x ν : Mat n 64) (s : Fin 64 → EReal) : Mat n 64 :=
  fun i => perturbScaleAt x ν s (i 0) (i 1)

/-- The leaky rectifier with slope 1/2. -/
def leaky (y : EReal) : EReal := if 0 ≤ y then y else slope * y

/-- Row r of x against column q of M. -/
def rowDot {n : Nat} (x : Mat n 64) (M : Mat 64 64) (r : Fin n) (q : Fin 64) : EReal :=
  ∑ k : Fin 64, x (ix2 r k) * M (ix2 k q)

/-- The leaky projection, the whole array. -/
def projLeaky {n : Nat} (x : Mat n 64) (M : Mat 64 64) : Mat n 64 :=
  fun i => leaky (rowDot x M (i 0) (i 1))

/-- The positive score of row r: the two views' projected rows' inner product over the temperature, exponentiated. -/
def clPos (g1 g2 : Mat 2048 64) (W : Mat 64 64) (r : Fin 2048) : EReal :=
  Ideal.exp (Ideal.div (∑ q : Fin 64, rowDot g1 W r q * rowDot g2 W r q) temp)

/-- The negative score of row r: the same against every row j of the second view, summed. -/
def clNeg (g1 g2 : Mat 2048 64) (W : Mat 64 64) (r : Fin 2048) : EReal :=
  ∑ j : Fin 2048, Ideal.exp (Ideal.div (∑ q : Fin 64, rowDot g1 W r q * rowDot g2 W j q) temp)

end Cert.Spec

end
-- ==== Proof.Reg0.lean ====
/-
  Region 0 (perturb and scale, 100000 rows in 20 blocks of 5000): each output array after the region is the
  perturb-and-scale function of the region's entry arrays, index by index.

  The body's two payloads, read at an index (p, q) of a block, are perturb-and-scale of the loaded blocks: the pointwise
  operations read through, the sign term is the sign of the element, the lane sum of row p is the sum over its 64
  columns, the kept row axis is carried through a column [5000, 1] and broadcast back, and the singular values' row is
  broadcast over the rows. Rows are independent and every block holds whole rows, so perturb-and-scale of the blocks at
  point t is block t of perturb-and-scale of the arrays; row r lies in the block of point r / 5000, so the blocks cover
  the array.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## Two layout operations of a kept row axis, read at coordinates -/

/-- A vector of length a viewed as a column [a, 1] reads, at (i, u), the vector at i. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column at (p, 0). -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payloads, index by index -/

/-- The printed sign term is the sign of the element. -/
theorem sign_apply (x : Vec Ideal S5000x64 .f32) (i : S5000x64.Idx) : k0_pay3 (F := Ideal) x i = Ideal.sign (x i) :=
  Ideal.jnp_sign_eq_sign_f32 (x i)

/-- The lane sum of row p is the sum over the row's 64 columns. -/
theorem rowsum_apply (ν : FVec Ideal S5000x64 .f32) (p : Fin 5000) :
    multiReduction (F := Ideal) .add [1] S5000 ν 0x00000000#32 reduces_S5000x64_S5000 (.inl rfl) rfl (ix1 p) = ∑ k : Fin 64, ν (ix2 p k) := by
  refine (Ideal.multiReduction_add_single ν 0x00000000#32 reduces_S5000x64_S5000 (.inl rfl) rfl (ix1 p)).trans ?_
  refine Finset.sum_congr rfl fun k _ => congrArg ν ?_
  funext a; apply Fin.ext
  match a with
  | ⟨0, _⟩ => rfl
  | ⟨1, _⟩ => rfl

/-- The first output's payload is perturb-and-scale of the three loaded blocks. -/
theorem pay4_eq (x ν : Vec Ideal S5000x64 .f32) (s : Vec Ideal S1x64 .f32) :
    k0_pay4 (F := Ideal) x s ν = Cert.Spec.perturbScale x ν (fun q => s (ix2 (0 : Fin 1) q)) := by
  funext j
  obtain ⟨p, q, rfl⟩ : ∃ (p : Fin 5000) (q : Fin 64), j = ix2 p q := ⟨j 0, j 1, eq_ix2 j⟩
  unfold k0_pay4
  show (x (ix2 p q) + (k0_pay3 (F := Ideal) x (ix2 p q) * Ideal.div (ν (ix2 p q)) (broadcastTo S5000x64 _ broadcasts_S5000x1_S5000x64 (ix2 p q))) * Ideal.ofBits .f32 0x3D4CCCCD#32) * broadcastTo S5000x64 (k0_pay2 (F := Ideal) s) broadcasts_S1x64_S5000x64 (ix2 p q) = _
  rw [sign_apply, broadcastTo_a1_ab_apply, broadcastTo_1b_ab_apply]
  show (x (ix2 p q) + (Ideal.sign (x (ix2 p q)) * Ideal.div (ν (ix2 p q)) (max (Ideal.sqrt (shapeCast S5000x1 _ shapeCasts_S5000_S5000x1 (ix2 p (0 : Fin 1)))) (Ideal.ofBits .f32 0x2B8CBCCC#32))) * Ideal.ofBits .f32 0x3D4CCCCD#32) * shapeCast S1x64 s shapeCasts_S1x64_S1x64 (ix2 (0 : Fin 1) q) = _
  rw [shapeCast_a_a1_apply, rowsum_apply, shapeCast_self]
  rfl

/-- The second output's payload likewise, of the second noise block. -/
theorem pay5_eq (x ν : Vec Ideal S5000x64 .f32) (s : Vec Ideal S1x64 .f32) :
    k0_pay1 (F := Ideal) (k0_pay2 (F := Ideal) s) (k0_pay5 (F := Ideal) x ν) = Cert.Spec.perturbScale x ν (fun q => s (ix2 (0 : Fin 1) q)) := by
  funext j
  obtain ⟨p, q, rfl⟩ : ∃ (p : Fin 5000) (q : Fin 64), j = ix2 p q := ⟨j 0, j 1, eq_ix2 j⟩
  unfold k0_pay1 k0_pay5
  show (x (ix2 p q) + (k0_pay3 (F := Ideal) x (ix2 p q) * Ideal.div (ν (ix2 p q)) (broadcastTo S5000x64 _ broadcasts_S5000x1_S5000x64 (ix2 p q))) * Ideal.ofBits .f32 0x3D4CCCCD#32) * broadcastTo S5000x64 (k0_pay2 (F := Ideal) s) broadcasts_S1x64_S5000x64 (ix2 p q) = _
  rw [sign_apply, broadcastTo_a1_ab_apply, broadcastTo_1b_ab_apply]
  show (x (ix2 p q) + (Ideal.sign (x (ix2 p q)) * Ideal.div (ν (ix2 p q)) (max (Ideal.sqrt (shapeCast S5000x1 _ shapeCasts_S5000_S5000x1 (ix2 p (0 : Fin 1)))) (Ideal.ofBits .f32 0x2B8CBCCC#32))) * Ideal.ofBits .f32 0x3D4CCCCD#32) * shapeCast S1x64 s shapeCasts_S1x64_S1x64 (ix2 (0 : Fin 1) q) = _
  rw [shapeCast_a_a1_apply, rowsum_apply, shapeCast_self]
  rfl

/-! ## Rows are independent: a block of whole rows of the array's function is the function of the blocks -/

/-- Perturb-and-scale of 5000-row blocks x, ν that sit at row offset o in arrays X, N, read at a block index y, is
    perturb-and-scale of the arrays at the array index i of y. -/
theorem perturbScale_rows (X N : Cert.Spec.Mat 100000 64) (S : Fin 64 → EReal) (x ν : Cert.Spec.Mat 5000 64) (s : Fin 64 → EReal) (o : Nat)
    (hx : ∀ (y : (⟨2, ![5000, 64]⟩ : Shape).Idx) (i : (⟨2, ![100000, 64]⟩ : Shape).Idx), (i 0).val = o + (y 0).val → (i 1).val = (y 1).val → x y = X i)
    (hν : ∀ (y : (⟨2, ![5000, 64]⟩ : Shape).Idx) (i : (⟨2, ![100000, 64]⟩ : Shape).Idx), (i 0).val = o + (y 0).val → (i 1).val = (y 1).val → ν y = N i)
    (hs : ∀ q, s q = S q)
    (y : (⟨2, ![5000, 64]⟩ : Shape).Idx) (i : (⟨2, ![100000, 64]⟩ : Shape).Idx) (h0 : (i 0).val = o + (y 0).val) (h1 : (i 1).val = (y 1).val) :
    Cert.Spec.perturbScale x ν s y = Cert.Spec.perturbScale X N S i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext h1
  have ex : ∀ k : Fin 64, x (ix2 p k) = X (ix2 r k) := fun k => hx _ _ h0 rfl
  have eν : ∀ k : Fin 64, ν (ix2 p k) = N (ix2 r k) := fun k => hν _ _ h0 rfl
  show Cert.Spec.perturbScaleAt x ν s p q' = Cert.Spec.perturbScaleAt X N S r q'
  unfold Cert.Spec.perturbScaleAt Cert.Spec.rowNorm
  simp only [ex, eν, hs]

/-! ## From blocks to the arrays -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 points: each row window is at block (t, 0), the singular values' at (0, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The factor's block at point t, read at y, is the factor at row 5000 t + y₀, column y₁. -/
theorem block_x_apply (c : Dev nD) (t : Fin cfg0.N) (y : (⟨2, ![5000, 64]⟩ : Shape).Idx) (i : (⟨2, ![100000, 64]⟩ : Shape).Idx)
    (h0 : (i 0).val = t.val * 5000 + (y 0).val) (h1 : (i 1).val = (y 1).val) :
    (iblk0 V c 0 t : Vec Ideal S5000x64 .f32) y = (V c main_arg2 : S100000x64.Idx → EReal) i := by
  obtain ⟨e00, e01, -⟩ := index_facts t
  have h : ((cfg0.win 0).blk t).view.emb y = i := by
    funext a; apply Fin.ext
    match a with
    | ⟨0, _⟩ => show win0_0.index t (0 : Fin 2) * 5000 + 1 * (y 0).val = (i 0).val; omega
    | ⟨1, _⟩ => show win0_0.index t (1 : Fin 2) * 64 + 1 * (y 1).val = (i 1).val; omega
  show V c main_arg2 (((cfg0.win 0).blk t).view.emb y) = V c main_arg2 i
  rw [h]

/-- The first noise's block likewise. -/
theorem block_n1_apply (c : Dev nD) (t : Fin cfg0.N) (y : (⟨2, ![5000, 64]⟩ : Shape).Idx) (i : (⟨2, ![100000, 64]⟩ : Shape).Idx)
    (h0 : (i 0).val = t.val * 5000 + (y 0).val) (h1 : (i 1).val = (y 1).val) :
    (iblk0 V c 1 t : Vec Ideal S5000x64 .f32) y = (V c main_arg11 : S100000x64.Idx → EReal) i := by
  obtain ⟨-, -, e10, e11, -⟩ := index_facts t
  have h : ((cfg0.win 1).blk t).view.emb y = i := by
    funext a; apply Fin.ext
    match a with
    | ⟨0, _⟩ => show win0_1.index t (0 : Fin 2) * 5000 + 1 * (y 0).val = (i 0).val; omega
    | ⟨1, _⟩ => show win0_1.index t (1 : Fin 2) * 64 + 1 * (y 1).val = (i 1).val; omega
  show V c main_arg11 (((cfg0.win 1).blk t).view.emb y) = V c main_arg11 i
  rw [h]

/-- The second noise's block likewise. -/
theorem block_n2_apply (c : Dev nD) (t : Fin cfg0.N) (y : (⟨2, ![5000, 64]⟩ : Shape).Idx) (i : (⟨2, ![100000, 64]⟩ : Shape).Idx)
    (h0 : (i 0).val = t.val * 5000 + (y 0).val) (h1 : (i 1).val = (y 1).val) :
    (iblk0 V c 2 t : Vec Ideal S5000x64 .f32) y = (V c main_arg13 : S100000x64.Idx → EReal) i := by
  obtain ⟨-, -, -, -, e20, e21, -⟩ := index_facts t
  have h : ((cfg0.win 2).blk t).view.emb y = i := by
    funext a; apply Fin.ext
    match a with
    | ⟨0, _⟩ => show win0_2.index t (0 : Fin 2) * 5000 + 1 * (y 0).val = (i 0).val; omega
    | ⟨1, _⟩ => show win0_2.index t (1 : Fin 2) * 64 + 1 * (y 1).val = (i 1).val; omega
  show V c main_arg13 (((cfg0.win 2).blk t).view.emb y) = V c main_arg13 i
  rw [h]

/-- The singular values' window holds the whole [1, 64] array at every point. -/
theorem block_s_apply (c : Dev nD) (t : Fin cfg0.N) (q : Fin 64) :
    (iblk0 V c 3 t : Vec Ideal S1x64 .f32) (ix2 (0 : Fin 1) q) = (V c main_v0 : S1x64.Idx → EReal) (ix2 (0 : Fin 1) q) := by
  obtain ⟨-, -, -, -, -, -, e30, e31, -⟩ := index_facts t
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  show V c main_v0 (((cfg0.win 3).blk t).view.emb (ix2 (0 : Fin 1) q)) = V c main_v0 (ix2 (0 : Fin 1) q)
  rw [h]

/-- What point t leaves in the first output's buffer, cut to what is written back, is block t of perturb-and-scale of
    the entry arrays. -/
theorem out4_block (c : Dev nD) (t : Fin cfg0.N) :
    (cfg0.win 4).cut (grid0.coords t) (out0_4 (iblk0 V c 0 t) (iblk0 V c 1 t) (iblk0 V c 2 t) (iblk0 V c 3 t))
      = ((cfg0.win 4).blk t).view.read (Elt Ideal)
          (Cert.Spec.perturbScale (V c main_arg2) (V c main_arg11) (fun q => V c main_v0 (ix2 (0 : Fin 1) q))) := by
  unfold out0_4
  rw [View.canon_unit_zero zero_offsets]
  simp only [View.ld_unit_zero (S := S5000x64) zero_offsets, View.ld_unit_zero (S := S1x64) zero_offsets]
  rw [pay4_eq]
  obtain ⟨-, -, -, -, -, -, -, -, e40, e41, -⟩ := index_facts t
  funext j
  refine perturbScale_rows (V c main_arg2) (V c main_arg11) (fun q => V c main_v0 (ix2 (0 : Fin 1) q)) _ _ _ (t.val * 5000)
    (fun y i h0 h1 => block_x_apply V c t y i h0 h1) (fun y i h0 h1 => block_n1_apply V c t y i h0 h1) (fun q => block_s_apply V c t q)
    ((cfg0.win 4).xinj (grid0.coords t) j) (((cfg0.win 4).blk t).view.emb j) ?_ ?_
  · show win0_4.index t (0 : Fin 2) * 5000 + 1 * (j 0).val = t.val * 5000 + (j 0).val; omega
  · show win0_4.index t (1 : Fin 2) * 64 + 1 * (j 1).val = (j 1).val; omega

/-- The second output's likewise, of the second noise. -/
theorem out5_block (c : Dev nD) (t : Fin cfg0.N) :
    (cfg0.win 5).cut (grid0.coords t) (out0_5 (iblk0 V c 0 t) (iblk0 V c 1 t) (iblk0 V c 2 t) (iblk0 V c 3 t))
      = ((cfg0.win 5).blk t).view.read (Elt Ideal)
          (Cert.Spec.perturbScale (V c main_arg2) (V c main_arg13) (fun q => V c main_v0 (ix2 (0 : Fin 1) q))) := by
  unfold out0_5
  rw [View.canon_unit_zero zero_offsets]
  simp only [View.ld_unit_zero (S := S5000x64) zero_offsets, View.ld_unit_zero (S := S1x64) zero_offsets]
  rw [pay5_eq]
  obtain ⟨-, -, -, -, -, -, -, -, -, -, e50, e51⟩ := index_facts t
  funext j
  refine perturbScale_rows (V c main_arg2) (V c main_arg13) (fun q => V c main_v0 (ix2 (0 : Fin 1) q)) _ _ _ (t.val * 5000)
    (fun y i h0 h1 => block_x_apply V c t y i h0 h1) (fun y i h0 h1 => block_n2_apply V c t y i h0 h1) (fun q => block_s_apply V c t q)
    ((cfg0.win 5).xinj (grid0.coords t) j) (((cfg0.win 5).blk t).view.emb j) ?_ ?_
  · show win0_5.index t (0 : Fin 2) * 5000 + 1 * (j 0).val = t.val * 5000 + (j 0).val; omega
  · show win0_5.index t (1 : Fin 2) * 64 + 1 * (j 1).val = (j 1).val; omega

/-- What point t writes back to the first output array is block t of perturb-and-scale of the entry arrays. -/
theorem flushed4_eq (c : Dev nD) (t : Fin cfg0.N) :
    (dat0 (F := Ideal) V c).flushed 4 t = ((cfg0.win 4).blk t).view.read (Elt Ideal)
      (Cert.Spec.perturbScale (V c main_arg2) (V c main_arg11) (fun q => V c main_v0 (ix2 (0 : Fin 1) q))) := by
  show (cfg0.win 4).cut (grid0.coords t) ((dat0 (F := Ideal) V c).after 4 t) = _
  rw [after0_4]
  exact out4_block V c t

/-- What point t writes back to the second output array likewise. -/
theorem flushed5_eq (c : Dev nD) (t : Fin cfg0.N) :
    (dat0 (F := Ideal) V c).flushed 5 t = ((cfg0.win 5).blk t).view.read (Elt Ideal)
      (Cert.Spec.perturbScale (V c main_arg2) (V c main_arg13) (fun q => V c main_v0 (ix2 (0 : Fin 1) q))) := by
  show (cfg0.win 5).cut (grid0.coords t) ((dat0 (F := Ideal) V c).after 5 t) = _
  rw [after0_5]
  exact out5_block V c t

/-- An index of the first output array is in point t's block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v1_0).slice (win0_4.rect t)).set ↔ _
  rw [View.set_slice_whole, Rect.mem_set_unit]
  exact Iff.rfl

/-- The same of the second output array. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v1_1).slice (win0_5.rect t)).set ↔ _
  rw [View.set_slice_whole, Rect.mem_set_unit]
  exact Iff.rfl

/-- Row r of the first output array is in the block of point r / 5000. -/
theorem covered4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, e40, e41, -⟩ := index_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- Row r of the second output array likewise. -/
theorem covered5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, e50, e51⟩ := index_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first output array (noise ν₁): perturb-and-scale of the factor, the first noise and the singular values. -/
theorem arr4 (c : Dev nD) : (dat0 (F := Ideal) V c).arrAt 4 cfg0.N
    = Cert.Spec.perturbScale (V c main_arg2) (V c main_arg11) (fun q => V c main_v0 (ix2 (0 : Fin 1) q)) :=
  (dat0 (F := Ideal) V c).arrAt_eq_of_cover 4 _ (fun t _ => flushed4_eq V c t) covered4

/-- The second output array (noise ν₂). -/
theorem arr5 (c : Dev nD) : (dat0 (F := Ideal) V c).arrAt 5 cfg0.N
    = Cert.Spec.perturbScale (V c main_arg2) (V c main_arg13) (fun q => V c main_v0 (ix2 (0 : Fin 1) q)) :=
  (dat0 (F := Ideal) V c).arrAt_eq_of_cover 5 _ (fun t _ => flushed5_eq V c t) covered5

end Cert.KernelIdeal.Reg0

end
-- ==== Proof.RefPerturb.lean ====
/-
  The reference's perturb-and-scale, read index by index.

  The reference computes, four times over, the same chain of whole-array operations on a factor x, a noise array ν
  and the singular values s: the sign of x; the squares of ν summed along each row from zero, the sums placed in a
  column, the column's square root floored at ε and spread back over the row's entries; ν divided by that; the
  product with the sign, and with the noise scale spread over the array; x added; and the product with s placed
  in a row and spread down the rows. Here the chain is one function of (x, ν, s), once at 100000 rows and once at
  50000, and at row r and column q it is
      (x[r,q] + (sign x[r,q] · (ν[r,q] / max(√(Σ_k ν[r,k]²), ε))) · 0.05) · s[q],
  the specification's perturb-and-scale.
-/
import proofs.«103739_j26439818674747_2_alg».proof.ReferenceIdeal
import proofs.«103739_j26439818674747_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefPerturb

open Idealize.ShloMosaic Idealize.ShloMosaic.ValueIdx
open Cert.ReferenceIdeal Cert.ReferenceIdeal.Facts₀
open scoped BigOperators

/-! ## The chain's layout operations and its row sum, at an index -/

section Pieces
variable {α : Type} {n : Nat}

/-- A vector of n entries placed in a column [n, 1]: entry (r, 0) is entry r. -/
theorem col_apply (h : (⟨1, ![n]⟩ : Shape).BroadcastsInDim ⟨2, ![n, 1]⟩ ![0]) (v : (⟨1, ![n]⟩ : Shape).Idx → α)
    (r : Fin n) (z : Fin 1) : broadcastInDim ⟨2, ![n, 1]⟩ ![0] h v (ix2 r z) = v (ix1 r) := by
  refine broadcastInDim_apply ![0] h v (ix2 r z) (ix1 r) (fun a => ?_)
  match a with
  | ⟨0, _⟩ =>
    show r.val = if n = 1 then 0 else r.val
    split
    · have := r.isLt; omega
    · rfl

/-- A column [n, 1] spread over 64 columns: entry (r, q) is the column's entry (r, 0). -/
theorem spreadCol_apply (h : (⟨2, ![n, 1]⟩ : Shape).BroadcastsInDim ⟨2, ![n, 64]⟩ ![0, 1])
    (w : (⟨2, ![n, 1]⟩ : Shape).Idx → α) (r : Fin n) (q : Fin 64) :
    broadcastInDim ⟨2, ![n, 64]⟩ ![0, 1] h w (ix2 r q) = w (ix2 r (0 : Fin 1)) := by
  refine broadcastInDim_apply ![0, 1] h w (ix2 r q) (ix2 r (0 : Fin 1)) (fun a => ?_)
  match a with
  | ⟨0, _⟩ =>
    show r.val = if n = 1 then 0 else r.val
    split
    · have := r.isLt; omega
    · rfl
  | ⟨1, _⟩ => rfl

/-- A vector of 64 entries placed in a row [1, 64] and the row spread down n rows: entry (r, q) is entry q. -/
theorem spreadRow_apply (h₁ : (⟨1, ![64]⟩ : Shape).BroadcastsInDim ⟨2, ![1, 64]⟩ ![1])
    (h₂ : (⟨2, ![1, 64]⟩ : Shape).BroadcastsInDim ⟨2, ![n, 64]⟩ ![0, 1]) (s : (⟨1, ![64]⟩ : Shape).Idx → α)
    (r : Fin n) (q : Fin 64) :
    broadcastInDim ⟨2, ![n, 64]⟩ ![0, 1] h₂ (broadcastInDim ⟨2, ![1, 64]⟩ ![1] h₁ s) (ix2 r q) = s (ix1 q) := by
  refine (broadcastInDim_apply ![0, 1] h₂ _ (ix2 r q) (ix2 (0 : Fin 1) q) (fun a => ?_)).trans
    (broadcastInDim_apply ![1] h₁ s (ix2 (0 : Fin 1) q) (ix1 q) (fun a => ?_))
  · match a with
    | ⟨0, _⟩ => rfl
    | ⟨1, _⟩ => rfl
  · match a with
    | ⟨0, _⟩ => rfl

/-- The host's square root at an index is the extended reals' square root of the entry. -/
theorem hostSqrt_apply {s : Shape} {φ : FTy} (a : FVec Ideal s φ) (i : s.Idx) : Host.sqrt a i = Ideal.sqrt (a i) := rfl

/-- The host's sign at an index is the extended reals' sign of the entry. -/
theorem hostSign_apply {s : Shape} {φ : FTy} (a : FVec Ideal s φ) (i : s.Idx) : Host.sign a i = Ideal.sign (a i) := rfl

/-- The sum along each row from the zero word: at row r, the sum of the row's 64 entries. -/
theorem rowSum_apply (h' : (⟨2, ![n, 64]⟩ : Shape).ReducesTo [1] ⟨1, ![n]⟩) (hu : 0 < (⟨0, ![]⟩ : Shape).numel)
    (y : FVec Ideal ⟨2, ![n, 64]⟩ .f32) (r : Fin n) :
    Host.reduceAdd y (constant (F := Ideal) ⟨0, ![]⟩ .f32 0x00000000#32) h' hu (ix1 r) = ∑ k : Fin 64, y (ix2 r k) := by
  have h : (⟨2, ![n, 64]⟩ : Shape).Reduces [1] ⟨1, ![n]⟩ := ⟨h'.1, Nat.one_pos, h'.2⟩
  rw [hostReduceAdd_apply, Ideal.hostReduceAdd_single h' h, constant_apply, Ideal.ofBits_zero_f32, zero_add]
  refine Finset.sum_congr rfl fun k _ => congrArg y (funext fun a => Fin.ext ?_)
  match a with
  | ⟨0, _⟩ => rfl
  | ⟨1, _⟩ => rfl

end Pieces

variable [Cert.ReferenceIdeal.Facts]

/-! ## The chain at 100000 rows -/

/-- Perturb and scale as the reference computes it at 100000 rows: its operations composed in data-flow order. -/
def chainU (x ν : FVec Ideal S100000x64 .f32) (s : FVec Ideal S64 .f32) : FVec Ideal S100000x64 .f32 :=
  mulf
    (addf x
      (mulf
        (mulf (Host.sign x)
          (Host.divf ν
            (broadcastInDim S100000x64 ![0, 1] bcast_S100000x1_S100000x64_0_1
              (maximumf
                (Host.sqrt
                  (broadcastInDim S100000x1 ![0] bcast_S100000_S100000x1_0
                    (Host.reduceAdd (mulf ν ν) (constant (F := Ideal) S_ .f32 0x00000000#32)
                      reducesTo_S100000x64_S100000_d1 h_S_)))
                (broadcastInDim S100000x1 ![] bcast_S_S100000x1 (constant (F := Ideal) S_ .f32 0x2B8CBCCC#32))))))
        (broadcastInDim S100000x64 ![] bcast_S_S100000x64 (constant (F := Ideal) S_ .f32 0x3D4CCCCD#32))))
    (broadcastInDim S100000x64 ![0, 1] bcast_S1x64_S100000x64_0_1 (broadcastInDim S1x64 ![1] bcast_S64_S1x64_1 s))

/-- At every index the chain is the specification's perturb-and-scale of the factor, the noise and the singular values. -/
theorem chainU_eq (x ν : FVec Ideal S100000x64 .f32) (s : FVec Ideal S64 .f32) :
    chainU x ν s = Cert.Spec.perturbScale x ν (fun q => s (ix1 q)) := by
  funext i
  obtain ⟨r, q, rfl⟩ : ∃ (r : Fin 100000) (q : Fin 64), i = ix2 r q := ⟨i 0, i 1, eq_ix2 i⟩
  show _ = Cert.Spec.perturbScaleAt x ν (fun q => s (ix1 q)) r q
  unfold chainU Cert.Spec.perturbScaleAt Cert.Spec.rowNorm Cert.Spec.epsNorm Cert.Spec.noiseScale
  rw [mulf_apply, spreadRow_apply, addf_apply, mulf_apply, broadcastInDim_scalar_apply, constant_apply, mulf_apply,
    hostDivf_apply, spreadCol_apply, maximumf_apply, broadcastInDim_scalar_apply, constant_apply, hostSign_apply,
    hostSqrt_apply, col_apply, rowSum_apply]
  rfl

/-! ## The chain at 50000 rows -/

/-- Perturb and scale as the reference computes it at 50000 rows: its operations composed in data-flow order. -/
def chainV (x ν : FVec Ideal S50000x64 .f32) (s : FVec Ideal S64 .f32) : FVec Ideal S50000x64 .f32 :=
  mulf
    (addf x
      (mulf
        (mulf (Host.sign x)
          (Host.divf ν
            (broadcastInDim S50000x64 ![0, 1] bcast_S50000x1_S50000x64_0_1
              (maximumf
                (Host.sqrt
                  (broadcastInDim S50000x1 ![0] bcast_S50000_S50000x1_0
                    (Host.reduceAdd (mulf ν ν) (constant (F := Ideal) S_ .f32 0x00000000#32)
                      reducesTo_S50000x64_S50000_d1 h_S_)))
                (broadcastInDim S50000x1 ![] bcast_S_S50000x1 (constant (F := Ideal) S_ .f32 0x2B8CBCCC#32))))))
        (broadcastInDim S50000x64 ![] bcast_S_S50000x64 (constant (F := Ideal) S_ .f32 0x3D4CCCCD#32))))
    (broadcastInDim S50000x64 ![0, 1] bcast_S1x64_S50000x64_0_1 (broadcastInDim S1x64 ![1] bcast_S64_S1x64_1 s))

/-- At every index the chain is the specification's perturb-and-scale of the factor, the noise and the singular values. -/
theorem chainV_eq (x ν : FVec Ideal S50000x64 .f32) (s : FVec Ideal S64 .f32) :
    chainV x ν s = Cert.Spec.perturbScale x ν (fun q => s (ix1 q)) := by
  funext i
  obtain ⟨r, q, rfl⟩ : ∃ (r : Fin 50000) (q : Fin 64), i = ix2 r q := ⟨i 0, i 1, eq_ix2 i⟩
  show _ = Cert.Spec.perturbScaleAt x ν (fun q => s (ix1 q)) r q
  unfold chainV Cert.Spec.perturbScaleAt Cert.Spec.rowNorm Cert.Spec.epsNorm Cert.Spec.noiseScale
  rw [mulf_apply, spreadRow_apply, addf_apply, mulf_apply, broadcastInDim_scalar_apply, constant_apply, mulf_apply,
    hostDivf_apply, spreadCol_apply, maximumf_apply, broadcastInDim_scalar_apply, constant_apply, hostSign_apply,
    hostSqrt_apply, col_apply, rowSum_apply]
  rfl

end Cert.ReferenceIdeal.RefPerturb

end
-- ==== Proof.RowOfS.lean ====
/-
  The singular values as a row. The kernel program casts the vector s of 64 entries to the one-row matrix [1, 64],
  the same entries in row-major order, and the perturb region reads the row's entry (0, q): it is s[q], since
  position 0 · 64 + q of the row is position q of the vector.
-/
import proofs.«103739_j26439818674747_2_alg».proof.KernelIdeal
import proofs.«103739_j26439818674747_2_alg».proof.Proof.Gen.KernelIdeal
import Idealize.ShloMosaic.Lib.ValueIdx
import Idealize.ShloMosaic.Lib.Pipeline.Value

noncomputable section

namespace Cert.KernelIdeal.RowOfS

open Idealize.ShloMosaic Idealize.ShloMosaic.ValueIdx

/-- Entry (0, q) of the vector cast to one row is the vector's entry q, at any float instance and whatever the
    evidence that the two shapes have as many entries. -/
theorem row_apply_of {F : FTy → Type} [FloatOps F] (h : Cert.KernelIdeal.S64.ShapeCasts Cert.KernelIdeal.S1x64)
    (s : FVec F Cert.KernelIdeal.S64 .f32) (q : Fin 64) :
    shapeCast Cert.KernelIdeal.S1x64 s h (ix2 (0 : Fin 1) q) = s (ix1 q) := by
  refine shapeCast_apply s h (ix2 (0 : Fin 1) q) (ix1 q) ?_
  rw [Shape.rowMajor_val_one, Shape.rowMajor_val_two]
  show q.val = 0 * 64 + q.val
  omega

/-- The same at the evidence the program states. -/
theorem row_apply {F : FTy → Type} [FloatOps F] (s : FVec F Cert.KernelIdeal.S64 .f32) (q : Fin 64) :
    shapeCast Cert.KernelIdeal.S1x64 s Cert.KernelIdeal.Facts₀.shapeCasts_S64_S1x64 (ix2 (0 : Fin 1) q) = s (ix1 q) :=
  row_apply_of _ s q

end Cert.KernelIdeal.RowOfS

end
-- ==== Proof.SimStep0.lean ====
/-
  From the boundary before segment 0 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg0
import proofs.«103739_j26439818674747_2_alg».proof.Proof.RefPerturb
import proofs.«103739_j26439818674747_2_alg».proof.Proof.RowOfS

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e0_arg2 (hag : Agree m ρ m' c) (h : InvL) : Cert.KernelIdeal.GenP.W1 m ρ c (Proc.devRef .tc Cert.KernelIdeal.main_arg2) = Cert.Sim.RA m' c (Proc.devRef .tc Cert.ReferenceIdeal.main_arg2) := by
  have hd := h
  rw [RA_def m' c]
  simp only [Cert.KernelIdeal.GenP.W1, Cert.KernelIdeal.Gen.hostOps0, cA]
  after_results_simp
  simp only [ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag]
  first | done | rfl

theorem e0_arg11 (hag : Agree m ρ m' c) (h : InvL) : Cert.KernelIdeal.GenP.W1 m ρ c (Proc.devRef .tc Cert.KernelIdeal.main_arg11) = Cert.Sim.RA m' c (Proc.devRef .tc Cert.ReferenceIdeal.main_arg11) := by
  have hd := h
  rw [RA_def m' c]
  simp only [Cert.KernelIdeal.GenP.W1, Cert.KernelIdeal.Gen.hostOps0, cA]
  after_results_simp
  simp only [ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag]
  first | done | rfl

theorem e0_arg13 (hag : Agree m ρ m' c) (h : InvL) : Cert.KernelIdeal.GenP.W1 m ρ c (Proc.devRef .tc Cert.KernelIdeal.main_arg13) = Cert.Sim.RA m' c (Proc.devRef .tc Cert.ReferenceIdeal.main_arg13) := by
  have hd := h
  rw [RA_def m' c]
  simp only [Cert.KernelIdeal.GenP.W1, Cert.KernelIdeal.Gen.hostOps0, cA]
  after_results_simp
  simp only [ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag]
  first | done | rfl

/-- The singular values reshaped to one row, read at column q, are the reference's singular values at q. -/
theorem row0 (hag : Agree m ρ m' c) (h : InvL) (q : Fin 64) : Cert.KernelIdeal.GenP.W1 m ρ c (Proc.devRef .tc Cert.KernelIdeal.main_v0) (ix2 (0 : Fin 1) q) = Cert.Sim.RA m' c (Proc.devRef .tc Cert.ReferenceIdeal.main_arg4) (ix1 q) := by
  have hd := h
  have hk : Cert.KernelIdeal.GenP.W1 m ρ c (Proc.devRef .tc Cert.KernelIdeal.main_v0) = shapeCast Cert.KernelIdeal.S1x64 (Cert.KernelIdeal.GenP.W0 m ρ c (Proc.devRef .tc Cert.KernelIdeal.main_arg4)) Cert.KernelIdeal.Facts₀.shapeCasts_S64_S1x64 := by
    simp only [Cert.KernelIdeal.GenP.W1, Cert.KernelIdeal.Gen.hostOps0]; after_results_simp; rfl
  have ha : Cert.KernelIdeal.GenP.W0 m ρ c (Proc.devRef .tc Cert.KernelIdeal.main_arg4) = Cert.Sim.RA m' c (Proc.devRef .tc Cert.ReferenceIdeal.main_arg4) := by
    rw [RA_arg4 m' c, ag_arg4 m ρ m' c hag]
  rw [hk, Cert.KernelIdeal.RowOfS.row_apply, ha]

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 0. -/
theorem p0_v1_0 (hag : Agree (F := Ideal) m ρ m' c) (h : InvL) : Cert.KernelIdeal.GenP.W2 m ρ c (Proc.devRef .tc Cert.KernelIdeal.main_v1_0) = Cert.Sim.RA m' c (Proc.devRef .tc Cert.ReferenceIdeal.main_v54) := by
  refine (Cert.KernelIdeal.GenP.W2_arr m ρ c 4).trans ?_
  rw [Cert.KernelIdeal.Reg0.arr4 (Cert.KernelIdeal.GenP.V1 m ρ) c]
  have hr : Cert.Sim.RA m' c (Proc.devRef .tc Cert.ReferenceIdeal.main_v54) = Cert.ReferenceIdeal.RefPerturb.chainU (Cert.Sim.RA m' c (Proc.devRef .tc Cert.ReferenceIdeal.main_arg2)) (Cert.Sim.RA m' c (Proc.devRef .tc Cert.ReferenceIdeal.main_arg11)) (Cert.Sim.RA m' c (Proc.devRef .tc Cert.ReferenceIdeal.main_arg4)) := by
    rw [RA_def m' c]; simp only [cA]; after_results_simp; rfl
  rw [hr, Cert.ReferenceIdeal.RefPerturb.chainU_eq]
  have e1 := e0_arg2 m ρ m' c hag h
  have e2 := e0_arg11 m ρ m' c hag h
  have e3 : (fun q : Fin 64 => Cert.KernelIdeal.GenP.W1 m ρ c (Proc.devRef .tc Cert.KernelIdeal.main_v0) (ix2 (0 : Fin 1) q)) = fun q => Cert.Sim.RA m' c (Proc.devRef .tc Cert.ReferenceIdeal.main_arg4) (ix1 q) := funext fun q => row0 m ρ m' c hag h q
  show Cert.Spec.perturbScale (Cert.KernelIdeal.GenP.W1 m ρ c (Proc.devRef .tc Cert.KernelIdeal.main_arg2)) (Cert.KernelIdeal.GenP.W1 m ρ c (Proc.devRef .tc Cert.KernelIdeal.main_arg11)) (fun q : Fin 64 => Cert.KernelIdeal.GenP.W1 m ρ c (Proc.devRef .tc Cert.KernelIdeal.main_v0) (ix2 (0 : Fin 1) q)) = _
  rw [e1, e2, e3]

/-- Output 1 of region 0. -/
theorem p0_v1_1 (hag : Agree (F := Ideal) m ρ m' c) (h : InvL) : Cert.KernelIdeal.GenP.W2 m ρ c (Proc.devRef .tc Cert.KernelIdeal.main_v1_1) = Cert.Sim.RA m' c (Proc.devRef .tc Cert.ReferenceIdeal.main_v60) := by
  refine (Cert.KernelIdeal.GenP.W2_arr m ρ c 5).trans ?_
  rw [Cert.KernelIdeal.Reg0.arr5 (Cert.KernelIdeal.GenP.V1 m ρ) c]
  have hr : Cert.Sim.RA m' c (Proc.devRef .tc Cert.ReferenceIdeal.main_v60) = Cert.ReferenceIdeal.RefPerturb.chainU (Cert.Sim.RA m' c (Proc.devRef .tc Cert.ReferenceIdeal.main_arg2)) (Cert.Sim.RA m' c (Proc.devRef .tc Cert.ReferenceIdeal.main_arg13)) (Cert.Sim.RA m' c (Proc.devRef .tc Cert.ReferenceIdeal.main_arg4)) := by
    rw [RA_def m' c]; simp only [cA]; after_results_simp; rfl
  rw [hr, Cert.ReferenceIdeal.RefPerturb.chainU_eq]
  have e1 := e0_arg2 m ρ m' c hag h
  have e2 := e0_arg13 m ρ m' c hag h
  have e3 : (fun q : Fin 64 => Cert.KernelIdeal.GenP.W1 m ρ c (Proc.devRef .tc Cert.KernelIdeal.main_v0) (ix2 (0 : Fin 1) q)) = fun q => Cert.Sim.RA m' c (Proc.devRef .tc Cert.ReferenceIdeal.main_arg4) (ix1 q) := funext fun q => row0 m ρ m' c hag h q
  show Cert.Spec.perturbScale (Cert.KernelIdeal.GenP.W1 m ρ c (Proc.devRef .tc Cert.KernelIdeal.main_arg2)) (Cert.KernelIdeal.GenP.W1 m ρ c (Proc.devRef .tc Cert.KernelIdeal.main_arg13)) (fun q : Fin 64 => Cert.KernelIdeal.GenP.W1 m ρ c (Proc.devRef .tc Cert.KernelIdeal.main_v0) (ix2 (0 : Fin 1) q)) = _
  rw [e1, e2, e3]

/-- The boundary's agreement is kept across segment 0. -/
theorem step0 (hag : Agree (F := Ideal) m ρ m' c) (h : InvL) : Inv0 (F := Ideal) m ρ m' c :=
  ⟨p0_v1_0 m ρ m' c hag h,
   p0_v1_1 m ρ m' c hag h⟩

end AtIdeal

end Cert.Sim

end
-- ==== Proof.Reg1.lean ====
/-
  Region 1 (perturb and scale, 50000 rows in 10 blocks of 5000): each output array after the region is the
  perturb-and-scale function of the region's entry arrays, index by index.

  The body's two payloads, read at an index (p, q) of a block, are perturb-and-scale of the loaded blocks: the pointwise
  operations read through, the sign term is the sign of the element, the lane sum of row p is the sum over its 64
  columns, the kept row axis is carried through a column [5000, 1] and broadcast back, and the singular values' row is
  broadcast over the rows. Rows are independent and every block holds whole rows, so perturb-and-scale of the blocks at
  point t is block t of perturb-and-scale of the arrays; row r lies in the block of point r / 5000, so the blocks cover
  the array.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## Two layout operations of a kept row axis, read at coordinates -/

/-- A vector of length a viewed as a column [a, 1] reads, at (i, u), the vector at i. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column at (p, 0). -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payloads, index by index -/

/-- The printed sign term is the sign of the element. -/
theorem sign_apply (x : Vec Ideal S5000x64 .f32) (i : S5000x64.Idx) : k1_pay3 (F := Ideal) x i = Ideal.sign (x i) :=
  Ideal.jnp_sign_eq_sign_f32 (x i)

/-- The lane sum of row p is the sum over the row's 64 columns. -/
theorem rowsum_apply (ν : FVec Ideal S5000x64 .f32) (p : Fin 5000) :
    multiReduction (F := Ideal) .add [1] S5000 ν 0x00000000#32 reduces_S5000x64_S5000 (.inl rfl) rfl (ix1 p) = ∑ k : Fin 64, ν (ix2 p k) := by
  refine (Ideal.multiReduction_add_single ν 0x00000000#32 reduces_S5000x64_S5000 (.inl rfl) rfl (ix1 p)).trans ?_
  refine Finset.sum_congr rfl fun k _ => congrArg ν ?_
  funext a; apply Fin.ext
  match a with
  | ⟨0, _⟩ => rfl
  | ⟨1, _⟩ => rfl

/-- The first output's payload is perturb-and-scale of the three loaded blocks. -/
theorem pay4_eq (x ν : Vec Ideal S5000x64 .f32) (s : Vec Ideal S1x64 .f32) :
    k1_pay4 (F := Ideal) x s ν = Cert.Spec.perturbScale x ν (fun q => s (ix2 (0 : Fin 1) q)) := by
  funext j
  obtain ⟨p, q, rfl⟩ : ∃ (p : Fin 5000) (q : Fin 64), j = ix2 p q := ⟨j 0, j 1, eq_ix2 j⟩
  unfold k1_pay4
  show (x (ix2 p q) + (k1_pay3 (F := Ideal) x (ix2 p q) * Ideal.div (ν (ix2 p q)) (broadcastTo S5000x64 _ broadcasts_S5000x1_S5000x64 (ix2 p q))) * Ideal.ofBits .f32 0x3D4CCCCD#32) * broadcastTo S5000x64 (k1_pay2 (F := Ideal) s) broadcasts_S1x64_S5000x64 (ix2 p q) = _
  rw [sign_apply, broadcastTo_a1_ab_apply, broadcastTo_1b_ab_apply]
  show (x (ix2 p q) + (Ideal.sign (x (ix2 p q)) * Ideal.div (ν (ix2 p q)) (max (Ideal.sqrt (shapeCast S5000x1 _ shapeCasts_S5000_S5000x1 (ix2 p (0 : Fin 1)))) (Ideal.ofBits .f32 0x2B8CBCCC#32))) * Ideal.ofBits .f32 0x3D4CCCCD#32) * shapeCast S1x64 s shapeCasts_S1x64_S1x64 (ix2 (0 : Fin 1) q) = _
  rw [shapeCast_a_a1_apply, rowsum_apply, shapeCast_self]
  rfl

/-- The second output's payload likewise, of the second noise block. -/
theorem pay5_eq (x ν : Vec Ideal S5000x64 .f32) (s : Vec Ideal S1x64 .f32) :
    k1_pay1 (F := Ideal) (k1_pay2 (F := Ideal) s) (k1_pay5 (F := Ideal) x ν) = Cert.Spec.perturbScale x ν (fun q => s (ix2 (0 : Fin 1) q)) := by
  funext j
  obtain ⟨p, q, rfl⟩ : ∃ (p : Fin 5000) (q : Fin 64), j = ix2 p q := ⟨j 0, j 1, eq_ix2 j⟩
  unfold k1_pay1 k1_pay5
  show (x (ix2 p q) + (k1_pay3 (F := Ideal) x (ix2 p q) * Ideal.div (ν (ix2 p q)) (broadcastTo S5000x64 _ broadcasts_S5000x1_S5000x64 (ix2 p q))) * Ideal.ofBits .f32 0x3D4CCCCD#32) * broadcastTo S5000x64 (k1_pay2 (F := Ideal) s) broadcasts_S1x64_S5000x64 (ix2 p q) = _
  rw [sign_apply, broadcastTo_a1_ab_apply, broadcastTo_1b_ab_apply]
  show (x (ix2 p q) + (Ideal.sign (x (ix2 p q)) * Ideal.div (ν (ix2 p q)) (max (Ideal.sqrt (shapeCast S5000x1 _ shapeCasts_S5000_S5000x1 (ix2 p (0 : Fin 1)))) (Ideal.ofBits .f32 0x2B8CBCCC#32))) * Ideal.ofBits .f32 0x3D4CCCCD#32) * shapeCast S1x64 s shapeCasts_S1x64_S1x64 (ix2 (0 : Fin 1) q) = _
  rw [shapeCast_a_a1_apply, rowsum_apply, shapeCast_self]
  rfl

/-! ## Rows are independent: a block of whole rows of the array's function is the function of the blocks -/

/-- Perturb-and-scale of 5000-row blocks x, ν that sit at row offset o in arrays X, N, read at a block index y, is
    perturb-and-scale of the arrays at the array index i of y. -/
theorem perturbScale_rows (X N : Cert.Spec.Mat 50000 64) (S : Fin 64 → EReal) (x ν : Cert.Spec.Mat 5000 64) (s : Fin 64 → EReal) (o : Nat)
    (hx : ∀ (y : (⟨2, ![5000, 64]⟩ : Shape).Idx) (i : (⟨2, ![50000, 64]⟩ : Shape).Idx), (i 0).val = o + (y 0).val → (i 1).val = (y 1).val → x y = X i)
    (hν : ∀ (y : (⟨2, ![5000, 64]⟩ : Shape).Idx) (i : (⟨2, ![50000, 64]⟩ : Shape).Idx), (i 0).val = o + (y 0).val → (i 1).val = (y 1).val → ν y = N i)
    (hs : ∀ q, s q = S q)
    (y : (⟨2, ![5000, 64]⟩ : Shape).Idx) (i : (⟨2, ![50000, 64]⟩ : Shape).Idx) (h0 : (i 0).val = o + (y 0).val) (h1 : (i 1).val = (y 1).val) :
    Cert.Spec.perturbScale x ν s y = Cert.Spec.perturbScale X N S i := by
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext h1
  have ex : ∀ k : Fin 64, x (ix2 p k) = X (ix2 r k) := fun k => hx _ _ h0 rfl
  have eν : ∀ k : Fin 64, ν (ix2 p k) = N (ix2 r k) := fun k => hν _ _ h0 rfl
  show Cert.Spec.perturbScaleAt x ν s p q' = Cert.Spec.perturbScaleAt X N S r q'
  unfold Cert.Spec.perturbScaleAt Cert.Spec.rowNorm
  simp only [ex, eν, hs]

/-! ## From blocks to the arrays -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 10 points: each row window is at block (t, 0), the singular values' at (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The factor's block at point t, read at y, is the factor at row 5000 t + y₀, column y₁. -/
theorem block_x_apply (c : Dev nD) (t : Fin cfg1.N) (y : (⟨2, ![5000, 64]⟩ : Shape).Idx) (i : (⟨2, ![50000, 64]⟩ : Shape).Idx)
    (h0 : (i 0).val = t.val * 5000 + (y 0).val) (h1 : (i 1).val = (y 1).val) :
    (iblk1 V c 0 t : Vec Ideal S5000x64 .f32) y = (V c main_arg3 : S50000x64.Idx → EReal) i := by
  obtain ⟨e00, e01, -⟩ := index_facts t
  have h : ((cfg1.win 0).blk t).view.emb y = i := by
    funext a; apply Fin.ext
    match a with
    | ⟨0, _⟩ => show win1_0.index t (0 : Fin 2) * 5000 + 1 * (y 0).val = (i 0).val; omega
    | ⟨1, _⟩ => show win1_0.index t (1 : Fin 2) * 64 + 1 * (y 1).val = (i 1).val; omega
  show V c main_arg3 (((cfg1.win 0).blk t).view.emb y) = V c main_arg3 i
  rw [h]

/-- The first noise's block likewise. -/
theorem block_n1_apply (c : Dev nD) (t : Fin cfg1.N) (y : (⟨2, ![5000, 64]⟩ : Shape).Idx) (i : (⟨2, ![50000, 64]⟩ : Shape).Idx)
    (h0 : (i 0).val = t.val * 5000 + (y 0).val) (h1 : (i 1).val = (y 1).val) :
    (iblk1 V c 1 t : Vec Ideal S5000x64 .f32) y = (V c main_arg12 : S50000x64.Idx → EReal) i := by
  obtain ⟨-, -, e10, e11, -⟩ := index_facts t
  have h : ((cfg1.win 1).blk t).view.emb y = i := by
    funext a; apply Fin.ext
    match a with
    | ⟨0, _⟩ => show win1_1.index t (0 : Fin 2) * 5000 + 1 * (y 0).val = (i 0).val; omega
    | ⟨1, _⟩ => show win1_1.index t (1 : Fin 2) * 64 + 1 * (y 1).val = (i 1).val; omega
  show V c main_arg12 (((cfg1.win 1).blk t).view.emb y) = V c main_arg12 i
  rw [h]

/-- The second noise's block likewise. -/
theorem block_n2_apply (c : Dev nD) (t : Fin cfg1.N) (y : (⟨2, ![5000, 64]⟩ : Shape).Idx) (i : (⟨2, ![50000, 64]⟩ : Shape).Idx)
    (h0 : (i 0).val = t.val * 5000 + (y 0).val) (h1 : (i 1).val = (y 1).val) :
    (iblk1 V c 2 t : Vec Ideal S5000x64 .f32) y = (V c main_arg14 : S50000x64.Idx → EReal) i := by
  obtain ⟨-, -, -, -, e20, e21, -⟩ := index_facts t
  have h : ((cfg1.win 2).blk t).view.emb y = i := by
    funext a; apply Fin.ext
    match a with
    | ⟨0, _⟩ => show win1_2.index t (0 : Fin 2) * 5000 + 1 * (y 0).val = (i 0).val; omega
    | ⟨1, _⟩ => show win1_2.index t (1 : Fin 2) * 64 + 1 * (y 1).val = (i 1).val; omega
  show V c main_arg14 (((cfg1.win 2).blk t).view.emb y) = V c main_arg14 i
  rw [h]

/-- The singular values' window holds the whole [1, 64] array at every point. -/
theorem block_s_apply (c : Dev nD) (t : Fin cfg1.N) (q : Fin 64) :
    (iblk1 V c 3 t : Vec Ideal S1x64 .f32) (ix2 (0 : Fin 1) q) = (V c main_v2 : S1x64.Idx → EReal) (ix2 (0 : Fin 1) q) := by
  obtain ⟨-, -, -, -, -, -, e30, e31, -⟩ := index_facts t
  have h : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  show V c main_v2 (((cfg1.win 3).blk t).view.emb (ix2 (0 : Fin 1) q)) = V c main_v2 (ix2 (0 : Fin 1) q)
  rw [h]

/-- What point t leaves in the first output's buffer, cut to what is written back, is block t of perturb-and-scale of
    the entry arrays. -/
theorem out4_block (c : Dev nD) (t : Fin cfg1.N) :
    (cfg1.win 4).cut (grid1.coords t) (out1_4 (iblk1 V c 0 t) (iblk1 V c 1 t) (iblk1 V c 2 t) (iblk1 V c 3 t))
      = ((cfg1.win 4).blk t).view.read (Elt Ideal)
          (Cert.Spec.perturbScale (V c main_arg3) (V c main_arg12) (fun q => V c main_v2 (ix2 (0 : Fin 1) q))) := by
  unfold out1_4
  rw [View.canon_unit_zero zero_offsets]
  simp only [View.ld_unit_zero (S := S5000x64) zero_offsets, View.ld_unit_zero (S := S1x64) zero_offsets]
  rw [pay4_eq]
  obtain ⟨-, -, -, -, -, -, -, -, e40, e41, -⟩ := index_facts t
  funext j
  refine perturbScale_rows (V c main_arg3) (V c main_arg12) (fun q => V c main_v2 (ix2 (0 : Fin 1) q)) _ _ _ (t.val * 5000)
    (fun y i h0 h1 => block_x_apply V c t y i h0 h1) (fun y i h0 h1 => block_n1_apply V c t y i h0 h1) (fun q => block_s_apply V c t q)
    ((cfg1.win 4).xinj (grid1.coords t) j) (((cfg1.win 4).blk t).view.emb j) ?_ ?_
  · show win1_4.index t (0 : Fin 2) * 5000 + 1 * (j 0).val = t.val * 5000 + (j 0).val; omega
  · show win1_4.index t (1 : Fin 2) * 64 + 1 * (j 1).val = (j 1).val; omega

/-- The second output's likewise, of the second noise. -/
theorem out5_block (c : Dev nD) (t : Fin cfg1.N) :
    (cfg1.win 5).cut (grid1.coords t) (out1_5 (iblk1 V c 0 t) (iblk1 V c 1 t) (iblk1 V c 2 t) (iblk1 V c 3 t))
      = ((cfg1.win 5).blk t).view.read (Elt Ideal)
          (Cert.Spec.perturbScale (V c main_arg3) (V c main_arg14) (fun q => V c main_v2 (ix2 (0 : Fin 1) q))) := by
  unfold out1_5
  rw [View.canon_unit_zero zero_offsets]
  simp only [View.ld_unit_zero (S := S5000x64) zero_offsets, View.ld_unit_zero (S := S1x64) zero_offsets]
  rw [pay5_eq]
  obtain ⟨-, -, -, -, -, -, -, -, -, -, e50, e51⟩ := index_facts t
  funext j
  refine perturbScale_rows (V c main_arg3) (V c main_arg14) (fun q => V c main_v2 (ix2 (0 : Fin 1) q)) _ _ _ (t.val * 5000)
    (fun y i h0 h1 => block_x_apply V c t y i h0 h1) (fun y i h0 h1 => block_n2_apply V c t y i h0 h1) (fun q => block_s_apply V c t q)
    ((cfg1.win 5).xinj (grid1.coords t) j) (((cfg1.win 5).blk t).view.emb j) ?_ ?_
  · show win1_5.index t (0 : Fin 2) * 5000 + 1 * (j 0).val = t.val * 5000 + (j 0).val; omega
  · show win1_5.index t (1 : Fin 2) * 64 + 1 * (j 1).val = (j 1).val; omega

/-- What point t writes back to the first output array is block t of perturb-and-scale of the entry arrays. -/
theorem flushed4_eq (c : Dev nD) (t : Fin cfg1.N) :
    (dat1 (F := Ideal) V c).flushed 4 t = ((cfg1.win 4).blk t).view.read (Elt Ideal)
      (Cert.Spec.perturbScale (V c main_arg3) (V c main_arg12) (fun q => V c main_v2 (ix2 (0 : Fin 1) q))) := by
  show (cfg1.win 4).cut (grid1.coords t) ((dat1 (F := Ideal) V c).after 4 t) = _
  rw [after1_4]
  exact out4_block V c t

/-- What point t writes back to the second output array likewise. -/
theorem flushed5_eq (c : Dev nD) (t : Fin cfg1.N) :
    (dat1 (F := Ideal) V c).flushed 5 t = ((cfg1.win 5).blk t).view.read (Elt Ideal)
      (Cert.Spec.perturbScale (V c main_arg3) (V c main_arg14) (fun q => V c main_v2 (ix2 (0 : Fin 1) q))) := by
  show (cfg1.win 5).cut (grid1.coords t) ((dat1 (F := Ideal) V c).after 5 t) = _
  rw [after1_5]
  exact out5_block V c t

/-- An index of the first output array is in point t's block iff each coordinate is in the block's range on its axis. -/
theorem mem_blk4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v3_0).slice (win1_4.rect t)).set ↔ _
  rw [View.set_slice_whole, Rect.mem_set_unit]
  exact Iff.rfl

/-- The same of the second output array. -/
theorem mem_blk5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v3_1).slice (win1_5.rect t)).set ↔ _
  rw [View.set_slice_whole, Rect.mem_set_unit]
  exact Iff.rfl

/-- Row r of the first output array is in the block of point r / 5000. -/
theorem covered4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, e40, e41, -⟩ := index_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- Row r of the second output array likewise. -/
theorem covered5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, e50, e51⟩ := index_facts t
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The first output array (noise ν₁): perturb-and-scale of the factor, the first noise and the singular values. -/
theorem arr4 (c : Dev nD) : (dat1 (F := Ideal) V c).arrAt 4 cfg1.N
    = Cert.Spec.perturbScale (V c main_arg3) (V c main_arg12) (fun q => V c main_v2 (ix2 (0 : Fin 1) q)) :=
  (dat1 (F := Ideal) V c).arrAt_eq_of_cover 4 _ (fun t _ => flushed4_eq V c t) covered4

/-- The second output array (noise ν₂). -/
theorem arr5 (c : Dev nD) : (dat1 (F := Ideal) V c).arrAt 5 cfg1.N
    = Cert.Spec.perturbScale (V c main_arg3) (V c main_arg14) (fun q => V c main_v2 (ix2 (0 : Fin 1) q)) :=
  (dat1 (F := Ideal) V c).arrAt_eq_of_cover 5 _ (fun t _ => flushed5_eq V c t) covered5

end Cert.KernelIdeal.Reg1

end
-- ==== Proof.SimStep1.lean ====
/-
  From the boundary before segment 1 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg1
import proofs.«103739_j26439818674747_2_alg».proof.Proof.RefPerturb
import proofs.«103739_j26439818674747_2_alg».proof.Proof.RowOfS

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e1_arg3 (hag : Agree m ρ m' c) (h : Inv0 m ρ m' c) : Cert.KernelIdeal.GenP.W3 m ρ c (Proc.devRef .tc Cert.KernelIdeal.main_arg3) = Cert.Sim.RA m' c (Proc.devRef .tc Cert.ReferenceIdeal.main_arg3) := by
  have hd := h; obtain ⟨h_v1_0, h_v1_1⟩ := hd
  simp only [Cert.KernelIdeal.GenP.W3, Cert.KernelIdeal.Gen.hostOps1]
  after_results_simp
  simp only [W2_arg0 m ρ c, W2_arg1 m ρ c, W2_arg2 m ρ c, W2_arg3 m ρ c, W2_arg4 m ρ c, W2_arg5 m ρ c, W2_arg6 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c, W2_arg17 m ρ c, W2_arg18 m ρ c, W2_arg19 m ρ c, W2_arg20 m ρ c, W2_arg21 m ρ c, W2_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1]
  first | done | rfl

theorem e1_arg12 (hag : Agree m ρ m' c) (h : Inv0 m ρ m' c) : Cert.KernelIdeal.GenP.W3 m ρ c (Proc.devRef .tc Cert.KernelIdeal.main_arg12) = Cert.Sim.RA m' c (Proc.devRef .tc Cert.ReferenceIdeal.main_arg12) := by
  have hd := h; obtain ⟨h_v1_0, h_v1_1⟩ := hd
  simp only [Cert.KernelIdeal.GenP.W3, Cert.KernelIdeal.Gen.hostOps1]
  after_results_simp
  simp only [W2_arg0 m ρ c, W2_arg1 m ρ c, W2_arg2 m ρ c, W2_arg3 m ρ c, W2_arg4 m ρ c, W2_arg5 m ρ c, W2_arg6 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c, W2_arg17 m ρ c, W2_arg18 m ρ c, W2_arg19 m ρ c, W2_arg20 m ρ c, W2_arg21 m ρ c, W2_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1]
  first | done | rfl

theorem e1_arg14 (hag : Agree m ρ m' c) (h : Inv0 m ρ m' c) : Cert.KernelIdeal.GenP.W3 m ρ c (Proc.devRef .tc Cert.KernelIdeal.main_arg14) = Cert.Sim.RA m' c (Proc.devRef .tc Cert.ReferenceIdeal.main_arg14) := by
  have hd := h; obtain ⟨h_v1_0, h_v1_1⟩ := hd
  simp only [Cert.KernelIdeal.GenP.W3, Cert.KernelIdeal.Gen.hostOps1]
  after_results_simp
  simp only [W2_arg0 m ρ c, W2_arg1 m ρ c, W2_arg2 m ρ c, W2_arg3 m ρ c, W2_arg4 m ρ c, W2_arg5 m ρ c, W2_arg6 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c, W2_arg17 m ρ c, W2_arg18 m ρ c, W2_arg19 m ρ c, W2_arg20 m ρ c, W2_arg21 m ρ c, W2_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1]
  first | done | rfl

theorem e1_v1_0 (hag : Agree m ρ m' c) (h : Inv0 m ρ m' c) : Cert.KernelIdeal.GenP.W3 m ρ c (Proc.devRef .tc Cert.KernelIdeal.main_v1_0) = Cert.Sim.RA m' c (Proc.devRef .tc Cert.ReferenceIdeal.main_v54) := by
  have hd := h; obtain ⟨h_v1_0, h_v1_1⟩ := hd
  simp only [Cert.KernelIdeal.GenP.W3, Cert.KernelIdeal.Gen.hostOps1]
  after_results_simp
  simp only [W2_arg0 m ρ c, W2_arg1 m ρ c, W2_arg2 m ρ c, W2_arg3 m ρ c, W2_arg4 m ρ c, W2_arg5 m ρ c, W2_arg6 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c, W2_arg17 m ρ c, W2_arg18 m ρ c, W2_arg19 m ρ c, W2_arg20 m ρ c, W2_arg21 m ρ c, W2_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1]
  first | done | rfl

theorem e1_v1_1 (hag : Agree m ρ m' c) (h : Inv0 m ρ m' c) : Cert.KernelIdeal.GenP.W3 m ρ c (Proc.devRef .tc Cert.KernelIdeal.main_v1_1) = Cert.Sim.RA m' c (Proc.devRef .tc Cert.ReferenceIdeal.main_v60) := by
  have hd := h; obtain ⟨h_v1_0, h_v1_1⟩ := hd
  simp only [Cert.KernelIdeal.GenP.W3, Cert.KernelIdeal.Gen.hostOps1]
  after_results_simp
  simp only [W2_arg0 m ρ c, W2_arg1 m ρ c, W2_arg2 m ρ c, W2_arg3 m ρ c, W2_arg4 m ρ c, W2_arg5 m ρ c, W2_arg6 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c, W2_arg17 m ρ c, W2_arg18 m ρ c, W2_arg19 m ρ c, W2_arg20 m ρ c, W2_arg21 m ρ c, W2_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1]
  first | done | rfl

/-- The singular values reshaped to one row, read at column q, are the reference's singular values at q. -/
theorem row1 (hag : Agree m ρ m' c) (h : Inv0 m ρ m' c) (q : Fin 64) : Cert.KernelIdeal.GenP.W3 m ρ c (Proc.devRef .tc Cert.KernelIdeal.main_v2) (ix2 (0 : Fin 1) q) = Cert.Sim.RA m' c (Proc.devRef .tc Cert.ReferenceIdeal.main_arg4) (ix1 q) := by
  have hd := h; obtain ⟨h_v1_0, h_v1_1⟩ := hd
  have hk : Cert.KernelIdeal.GenP.W3 m ρ c (Proc.devRef .tc Cert.KernelIdeal.main_v2) = shapeCast Cert.KernelIdeal.S1x64 (Cert.KernelIdeal.GenP.W2 m ρ c (Proc.devRef .tc Cert.KernelIdeal.main_arg4)) Cert.KernelIdeal.Facts₀.shapeCasts_S64_S1x64 := by
    simp only [Cert.KernelIdeal.GenP.W3, Cert.KernelIdeal.Gen.hostOps1]; after_results_simp; rfl
  have ha : Cert.KernelIdeal.GenP.W2 m ρ c (Proc.devRef .tc Cert.KernelIdeal.main_arg4) = Cert.Sim.RA m' c (Proc.devRef .tc Cert.ReferenceIdeal.main_arg4) := by
    rw [W2_arg4 m ρ c, RA_arg4 m' c, ag_arg4 m ρ m' c hag]
  rw [hk, Cert.KernelIdeal.RowOfS.row_apply, ha]

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 1. -/
theorem p1_v3_0 (hag : Agree (F := Ideal) m ρ m' c) (h : Inv0 (F := Ideal) m ρ m' c) : Cert.KernelIdeal.GenP.W4 m ρ c (Proc.devRef .tc Cert.KernelIdeal.main_v3_0) = Cert.Sim.RA m' c (Proc.devRef .tc Cert.ReferenceIdeal.main_v57) := by
  refine (Cert.KernelIdeal.GenP.W4_arr m ρ c 4).trans ?_
  rw [Cert.KernelIdeal.Reg1.arr4 (Cert.KernelIdeal.GenP.V3 m ρ) c]
  have hr : Cert.Sim.RA m' c (Proc.devRef .tc Cert.ReferenceIdeal.main_v57) = Cert.ReferenceIdeal.RefPerturb.chainV (Cert.Sim.RA m' c (Proc.devRef .tc Cert.ReferenceIdeal.main_arg3)) (Cert.Sim.RA m' c (Proc.devRef .tc Cert.ReferenceIdeal.main_arg12)) (Cert.Sim.RA m' c (Proc.devRef .tc Cert.ReferenceIdeal.main_arg4)) := by
    rw [RA_def m' c]; simp only [cA]; after_results_simp; rfl
  rw [hr, Cert.ReferenceIdeal.RefPerturb.chainV_eq]
  have e1 := e1_arg3 m ρ m' c hag h
  have e2 := e1_arg12 m ρ m' c hag h
  have e3 : (fun q : Fin 64 => Cert.KernelIdeal.GenP.W3 m ρ c (Proc.devRef .tc Cert.KernelIdeal.main_v2) (ix2 (0 : Fin 1) q)) = fun q => Cert.Sim.RA m' c (Proc.devRef .tc Cert.ReferenceIdeal.main_arg4) (ix1 q) := funext fun q => row1 m ρ m' c hag h q
  show Cert.Spec.perturbScale (Cert.KernelIdeal.GenP.W3 m ρ c (Proc.devRef .tc Cert.KernelIdeal.main_arg3)) (Cert.KernelIdeal.GenP.W3 m ρ c (Proc.devRef .tc Cert.KernelIdeal.main_arg12)) (fun q : Fin 64 => Cert.KernelIdeal.GenP.W3 m ρ c (Proc.devRef .tc Cert.KernelIdeal.main_v2) (ix2 (0 : Fin 1) q)) = _
  rw [e1, e2, e3]

/-- Output 1 of region 1. -/
theorem p1_v3_1 (hag : Agree (F := Ideal) m ρ m' c) (h : Inv0 (F := Ideal) m ρ m' c) : Cert.KernelIdeal.GenP.W4 m ρ c (Proc.devRef .tc Cert.KernelIdeal.main_v3_1) = Cert.Sim.RA m' c (Proc.devRef .tc Cert.ReferenceIdeal.main_v63) := by
  refine (Cert.KernelIdeal.GenP.W4_arr m ρ c 5).trans ?_
  rw [Cert.KernelIdeal.Reg1.arr5 (Cert.KernelIdeal.GenP.V3 m ρ) c]
  have hr : Cert.Sim.RA m' c (Proc.devRef .tc Cert.ReferenceIdeal.main_v63) = Cert.ReferenceIdeal.RefPerturb.chainV (Cert.Sim.RA m' c (Proc.devRef .tc Cert.ReferenceIdeal.main_arg3)) (Cert.Sim.RA m' c (Proc.devRef .tc Cert.ReferenceIdeal.main_arg14)) (Cert.Sim.RA m' c (Proc.devRef .tc Cert.ReferenceIdeal.main_arg4)) := by
    rw [RA_def m' c]; simp only [cA]; after_results_simp; rfl
  rw [hr, Cert.ReferenceIdeal.RefPerturb.chainV_eq]
  have e1 := e1_arg3 m ρ m' c hag h
  have e2 := e1_arg14 m ρ m' c hag h
  have e3 : (fun q : Fin 64 => Cert.KernelIdeal.GenP.W3 m ρ c (Proc.devRef .tc Cert.KernelIdeal.main_v2) (ix2 (0 : Fin 1) q)) = fun q => Cert.Sim.RA m' c (Proc.devRef .tc Cert.ReferenceIdeal.main_arg4) (ix1 q) := funext fun q => row1 m ρ m' c hag h q
  show Cert.Spec.perturbScale (Cert.KernelIdeal.GenP.W3 m ρ c (Proc.devRef .tc Cert.KernelIdeal.main_arg3)) (Cert.KernelIdeal.GenP.W3 m ρ c (Proc.devRef .tc Cert.KernelIdeal.main_arg14)) (fun q : Fin 64 => Cert.KernelIdeal.GenP.W3 m ρ c (Proc.devRef .tc Cert.KernelIdeal.main_v2) (ix2 (0 : Fin 1) q)) = _
  rw [e1, e2, e3]

theorem x1_v1_0 (hag : Agree (F := Ideal) m ρ m' c) (h : Inv0 (F := Ideal) m ρ m' c) : Cert.KernelIdeal.GenP.W4 m ρ c (Proc.devRef .tc Cert.KernelIdeal.main_v1_0) = Cert.Sim.RA m' c (Proc.devRef .tc Cert.ReferenceIdeal.main_v54) := by
  rw [Cert.KernelIdeal.GenP.W4_of_ne m ρ c Cert.KernelIdeal.main_v1_0 (by decide)]
  exact e1_v1_0 m ρ m' c hag h

theorem x1_v1_1 (hag : Agree (F := Ideal) m ρ m' c) (h : Inv0 (F := Ideal) m ρ m' c) : Cert.KernelIdeal.GenP.W4 m ρ c (Proc.devRef .tc Cert.KernelIdeal.main_v1_1) = Cert.Sim.RA m' c (Proc.devRef .tc Cert.ReferenceIdeal.main_v60) := by
  rw [Cert.KernelIdeal.GenP.W4_of_ne m ρ c Cert.KernelIdeal.main_v1_1 (by decide)]
  exact e1_v1_1 m ρ m' c hag h

/-- The boundary's agreement is kept across segment 1. -/
theorem step1 (hag : Agree (F := Ideal) m ρ m' c) (h : Inv0 (F := Ideal) m ρ m' c) : Inv1 (F := Ideal) m ρ m' c :=
  ⟨x1_v1_0 m ρ m' c hag h,
   x1_v1_1 m ρ m' c hag h,
   p1_v3_0 m ρ m' c hag h,
   p1_v3_1 m ρ m' c hag h⟩

end AtIdeal

end Cert.Sim

end
-- ==== Proof.Reg2.lean ====
/-
  Region 2 (leaky projection, 100000 rows in 20 blocks of 5000): each output array after the region is the leaky
  projection of its input array through the region's 64 × 64 matrix, index by index.

  Three steps. (1) The body's payload at row p, column q of a block: the product into a zero accumulator is the sum
  over k of x[p,k] · M[k,q] (at the extended reals the format changes are the identity, and no rounding or chunk order
  is left), and the comparison against zero keeps it or halves it: the leaky rectifier. (2) Point t of the grid holds
  rows 5000·t … 5000·t + 4999 of each input array and of each output array, and the whole matrix; a row of the product
  depends on that row of the input alone, so what point t writes back is block t of the whole-array projection.
  (3) Row r lies in block r / 5000, so the 20 blocks cover the array, and the array ends holding the projection.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The body's payload at an index -/

/-- The left operand is read at the output's row … -/
theorem lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the contraction position along its columns; -/
theorem lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s

/-- the right operand at the contraction position along its rows … -/
theorem rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s

/-- … and at the output's column. -/
theorem rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator, at row p and column q: row p of the left operand against column q of the
    right, the one contracted axis re-indexed by its coordinate. -/
theorem mm_at (x : FVec Ideal S5000x64 .bf16) (M : FVec Ideal S64x64 .bf16) (p : Fin 5000) (q : Fin 64) :
    matmul dot_S5000x64_S64x64_S5000x64_1_0_0_1_n_n none x M (constant (F := Ideal) S5000x64 .f32 0x00000000#32) (ix2 p q)
      = ∑ k : Fin 64, x (ix2 p k) * M (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The rectifier as the body spells it: the comparison of y against the zero word selects y or the slope times y. -/
theorem leaky_word (y : EReal) :
    Scalar.select (Ideal.cmp .oge y (Ideal.ofBits .f32 0x00000000#32)) y (Ideal.ofBits .f32 0x3F000000#32 * y)
      = Cert.Spec.leaky y := by
  rw [Ideal.ofBits_zero_f32]
  unfold Cert.Spec.leaky
  by_cases h : (0 : EReal) ≤ y
  · have e : Ideal.cmp .oge y 0 = 1#1 := by simp [Ideal.cmp, h]
    rw [e, select_one, if_pos h]
  · have e : Ideal.cmp .oge y 0 = 0#1 := by simp [Ideal.cmp, h]
    rw [e, select_zero, if_neg h]
    rfl

/-- The first output's payload at row p, column q of a block: the rectified inner product of row p of the block with
    column q of the matrix. -/
theorem pay_first_at (M : Vec Ideal S64x64 .f32) (x : Vec Ideal S5000x64 .f32) (p : Fin 5000) (q : Fin 64) :
    k2_pay2 (F := Ideal) M x (ix2 p q) = Cert.Spec.leaky (∑ k : Fin 64, x (ix2 p k) * M (ix2 k q)) := by
  unfold k2_pay2 k2_pay1
  dsimp only
  rw [select_apply, cmpf_apply, mulf_apply, broadcast_apply, broadcast_apply, mm_at]
  simp only [truncf_apply, shapeCast_self]
  exact leaky_word _

/-- The second output's payload likewise. -/
theorem pay_second_at (M : Vec Ideal S64x64 .f32) (x : Vec Ideal S5000x64 .f32) (p : Fin 5000) (q : Fin 64) :
    k2_pay3 (F := Ideal) M x (ix2 p q) = Cert.Spec.leaky (∑ k : Fin 64, x (ix2 p k) * M (ix2 k q)) := by
  unfold k2_pay3 k2_pay1
  dsimp only
  rw [select_apply, cmpf_apply, mulf_apply, broadcast_apply, broadcast_apply, mm_at]
  simp only [truncf_apply, shapeCast_self]
  exact leaky_word _

/-- A block whose row p is row r of the array X, against a matrix that is W: the first payload at (p, q) is the
    whole-array projection at (r, q). -/
theorem pay_first_block (X : Cert.Spec.Mat 100000 64) (W : Cert.Spec.Mat 64 64) (x : Vec Ideal S5000x64 .f32)
    (M : Vec Ideal S64x64 .f32) (r : Fin 100000) (p : Fin 5000) (q : Fin 64)
    (hx : ∀ k : Fin 64, x (ix2 p k) = X (ix2 r k)) (hM : ∀ k : Fin 64, M (ix2 k q) = W (ix2 k q)) :
    k2_pay2 (F := Ideal) M x (ix2 p q) = Cert.Spec.projLeaky X W (ix2 r q) := by
  rw [pay_first_at]
  show Cert.Spec.leaky _ = Cert.Spec.leaky (∑ k : Fin 64, X (ix2 r k) * W (ix2 k q))
  exact congrArg _ (Finset.sum_congr rfl fun k _ => by rw [hx k, hM k])

/-- The same for the second payload. -/
theorem pay_second_block (X : Cert.Spec.Mat 100000 64) (W : Cert.Spec.Mat 64 64) (x : Vec Ideal S5000x64 .f32)
    (M : Vec Ideal S64x64 .f32) (r : Fin 100000) (p : Fin 5000) (q : Fin 64)
    (hx : ∀ k : Fin 64, x (ix2 p k) = X (ix2 r k)) (hM : ∀ k : Fin 64, M (ix2 k q) = W (ix2 k q)) :
    k2_pay3 (F := Ideal) M x (ix2 p q) = Cert.Spec.projLeaky X W (ix2 r q) := by
  rw [pay_second_at]
  show Cert.Spec.leaky _ = Cert.Spec.leaky (∑ k : Fin 64, X (ix2 r k) * W (ix2 k q))
  exact congrArg _ (Finset.sum_congr rfl fun k _ => by rw [hx k, hM k])

/-! ## The blocks of a point -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 20 points: the row arrays' block index is (t, 0), the matrix's is (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of the first input's block at point t is row 5000·t + p of its array. -/
theorem first_in_at (c : Dev nD) (t : Fin cfg2.N) (p : Fin 5000) (k : Fin 64) (r : Fin 100000)
    (hr : r.val = t.val * 5000 + p.val) : iblk2 V c 0 t (ix2 p k) = V c main_v1_0 (ix2 r k) := by
  obtain ⟨e0, e1, -, -, -, -, -, -, -, -⟩ := block_indices t
  show V c main_v1_0 (((cfg2.win 0).blk t).view.emb (ix2 p k)) = V c main_v1_0 (ix2 r k)
  refine congrArg _ ?_
  funext a; apply Fin.ext
  match a with
  | ⟨0, _⟩ => show win2_0.index t (0 : Fin 2) * 5000 + 1 * p.val = r.val; omega
  | ⟨1, _⟩ => show win2_0.index t (1 : Fin 2) * 64 + 1 * k.val = k.val; omega

/-- Row p of the second input's block at point t is row 5000·t + p of its array. -/
theorem second_in_at (c : Dev nD) (t : Fin cfg2.N) (p : Fin 5000) (k : Fin 64) (r : Fin 100000)
    (hr : r.val = t.val * 5000 + p.val) : iblk2 V c 1 t (ix2 p k) = V c main_v1_1 (ix2 r k) := by
  obtain ⟨-, -, e0, e1, -, -, -, -, -, -⟩ := block_indices t
  show V c main_v1_1 (((cfg2.win 1).blk t).view.emb (ix2 p k)) = V c main_v1_1 (ix2 r k)
  refine congrArg _ ?_
  funext a; apply Fin.ext
  match a with
  | ⟨0, _⟩ => show win2_1.index t (0 : Fin 2) * 5000 + 1 * p.val = r.val; omega
  | ⟨1, _⟩ => show win2_1.index t (1 : Fin 2) * 64 + 1 * k.val = k.val; omega

/-- The matrix's block at every point is the whole matrix. -/
theorem matrix_at (c : Dev nD) (t : Fin cfg2.N) (k : Fin 64) (q : Fin 64) :
    iblk2 V c 2 t (ix2 k q) = V c main_v56 (ix2 k q) := by
  obtain ⟨-, -, -, -, e0, e1, -, -, -, -⟩ := block_indices t
  show V c main_v56 (((cfg2.win 2).blk t).view.emb (ix2 k q)) = V c main_v56 (ix2 k q)
  refine congrArg _ ?_
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- Entry (p, q) of the first output's block at point t sits in its array at row 5000·t + p, column q. -/
theorem first_out_at (t : Fin cfg2.N) (p : Fin 5000) (q : Fin 64) (r : Fin 100000)
    (hr : r.val = t.val * 5000 + p.val) : ((cfg2.win 3).blk t).view.emb (ix2 p q) = ix2 r q := by
  obtain ⟨-, -, -, -, -, -, e0, e1, -, -⟩ := block_indices t
  funext a; apply Fin.ext
  match a with
  | ⟨0, _⟩ => show win2_3.index t (0 : Fin 2) * 5000 + 1 * p.val = r.val; omega
  | ⟨1, _⟩ => show win2_3.index t (1 : Fin 2) * 64 + 1 * q.val = q.val; omega

/-- The same for the second output's block. -/
theorem second_out_at (t : Fin cfg2.N) (p : Fin 5000) (q : Fin 64) (r : Fin 100000)
    (hr : r.val = t.val * 5000 + p.val) : ((cfg2.win 4).blk t).view.emb (ix2 p q) = ix2 r q := by
  obtain ⟨-, -, -, -, -, -, -, -, e0, e1⟩ := block_indices t
  funext a; apply Fin.ext
  match a with
  | ⟨0, _⟩ => show win2_4.index t (0 : Fin 2) * 5000 + 1 * p.val = r.val; omega
  | ⟨1, _⟩ => show win2_4.index t (1 : Fin 2) * 64 + 1 * q.val = q.val; omega

/-! ## What a point writes back -/

/-- Point t writes back block t of the first array's projection: its rows are rows of the input's block t, and a row
    of the projection reads that row of the input alone. -/
theorem first_flushed (c : Dev nD) (t : Fin cfg2.N) :
    (dat2 (F := Ideal) V c).flushed 3 t
      = ((cfg2.win 3).blk t).view.read (Elt Ideal) (Cert.Spec.projLeaky (V c main_v1_0) (V c main_v56)) := by
  show (cfg2.win 3).cut (grid2.coords t) ((dat2 V c).after 3 t) = _
  rw [after2_3]
  unfold out2_3
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg2.N = 20 := N_2
  have hr : t.val * 5000 + p.val < 100000 := by have := t.isLt; have := p.isLt; omega
  show k2_pay2 (F := Ideal) (iblk2 V c 2 t) (iblk2 V c 0 t) (ix2 p q)
    = Cert.Spec.projLeaky (V c main_v1_0) (V c main_v56) (((cfg2.win 3).blk t).view.emb (ix2 p q))
  rw [first_out_at t p q ⟨_, hr⟩ rfl]
  exact pay_first_block (V c main_v1_0) (V c main_v56) (iblk2 V c 0 t) (iblk2 V c 2 t) ⟨_, hr⟩ p q
    (fun k => first_in_at V c t p k ⟨_, hr⟩ rfl) (fun k => matrix_at V c t k q)

/-- Point t writes back block t of the second array's projection. -/
theorem second_flushed (c : Dev nD) (t : Fin cfg2.N) :
    (dat2 (F := Ideal) V c).flushed 4 t
      = ((cfg2.win 4).blk t).view.read (Elt Ideal) (Cert.Spec.projLeaky (V c main_v1_1) (V c main_v56)) := by
  show (cfg2.win 4).cut (grid2.coords t) ((dat2 V c).after 4 t) = _
  rw [after2_4]
  unfold out2_4
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg2.N = 20 := N_2
  have hr : t.val * 5000 + p.val < 100000 := by have := t.isLt; have := p.isLt; omega
  show k2_pay3 (F := Ideal) (iblk2 V c 2 t) (iblk2 V c 1 t) (ix2 p q)
    = Cert.Spec.projLeaky (V c main_v1_1) (V c main_v56) (((cfg2.win 4).blk t).view.emb (ix2 p q))
  rw [second_out_at t p q ⟨_, hr⟩ rfl]
  exact pay_second_block (V c main_v1_1) (V c main_v56) (iblk2 V c 1 t) (iblk2 V c 2 t) ⟨_, hr⟩ p q
    (fun k => second_in_at V c t p k ⟨_, hr⟩ rfl) (fun k => matrix_at V c t k q)

/-! ## The blocks cover the arrays -/

/-- An index of the first output array is in point t's block iff each coordinate is in the block's range. -/
theorem mem_first_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v58_0).slice (win2_3.rect t)).set ↔ _
  rw [View.set_slice_whole, Rect.mem_set_unit]
  exact Iff.rfl

/-- The same for the second output array. -/
theorem mem_second_block (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v58_1).slice (win2_4.rect t)).set ↔ _
  rw [View.set_slice_whole, Rect.mem_set_unit]
  exact Iff.rfl

/-- Row r of the first output array lies in the block of point r / 5000, which is written back. -/
theorem first_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e0, e1, -, -⟩ := block_indices t
  refine ⟨t, flush2_3 t, ?_⟩
  rw [mem_first_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The same for the second output array. -/
theorem second_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := block_indices t
  refine ⟨t, flush2_4 t, ?_⟩
  rw [mem_second_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-! ## The arrays after the region -/

/-- The first output array: the first view projected. -/
theorem arr3 (c : Dev nD) : (dat2 (F := Ideal) V c).arrAt 3 cfg2.N
    = Cert.Spec.projLeaky (V c main_v1_0) (V c main_v56) :=
  (dat2 (F := Ideal) V c).arrAt_eq_of_cover 3 (Cert.Spec.projLeaky (V c main_v1_0) (V c main_v56))
    (fun t _ => first_flushed V c t) first_cover

/-- The second output array: the second view projected. -/
theorem arr4 (c : Dev nD) : (dat2 (F := Ideal) V c).arrAt 4 cfg2.N
    = Cert.Spec.projLeaky (V c main_v1_1) (V c main_v56) :=
  (dat2 (F := Ideal) V c).arrAt_eq_of_cover 4 (Cert.Spec.projLeaky (V c main_v1_1) (V c main_v56))
    (fun t _ => second_flushed V c t) second_cover

end Cert.KernelIdeal.Reg2

end
-- ==== Proof.RefProj.lean ====
/-
  The reference's leaky projection, read index by index: the six host operations of one chain (a product of an
  N × 64 array with a 64 × 64 matrix, the comparison against zero, the scaling by one half, the selection)
  composed into one function of the two arrays, which is the specification's leaky projection.
-/
import proofs.«103739_j26439818674747_2_alg».proof.ReferenceIdeal
import proofs.«103739_j26439818674747_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefProj

open Cert.ReferenceIdeal
open Idealize.ShloMosaic Idealize.ShloMosaic.ValueIdx
open scoped BigOperators

variable [Cert.ReferenceIdeal.Facts]

/-! ## The product at an index, 100000 rows -/

/-- Left operand, axis 0 (kept): the result's row. -/
theorem lhsU_0 (j : S100000x64.Idx) (k : dot_S100000x64_S64x64_S100000x64_1_0_0_1_n_n.contr.Idx) :
    (dot_S100000x64_S64x64_S100000x64_1_0_0_1_n_n.lhsIdx j k 0).val = (j 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

/-- Left operand, axis 1 (contracted): the contraction's coordinate. -/
theorem lhsU_1 (j : S100000x64.Idx) (k : dot_S100000x64_S64x64_S100000x64_1_0_0_1_n_n.contr.Idx) :
    (dot_S100000x64_S64x64_S100000x64_1_0_0_1_n_n.lhsIdx j k 1).val = (k ⟨0, Nat.one_pos⟩).val :=
  DotDims.lhsIdx_val_of_single dot_S100000x64_S64x64_S100000x64_1_0_0_1_n_n rfl j k

/-- Right operand, axis 0 (contracted): the contraction's coordinate. -/
theorem rhsU_0 (j : S100000x64.Idx) (k : dot_S100000x64_S64x64_S100000x64_1_0_0_1_n_n.contr.Idx) :
    (dot_S100000x64_S64x64_S100000x64_1_0_0_1_n_n.rhsIdx j k 0).val = (k ⟨0, Nat.one_pos⟩).val :=
  DotDims.rhsIdx_val_of_single dot_S100000x64_S64x64_S100000x64_1_0_0_1_n_n rfl j k

/-- Right operand, axis 1 (kept): the result's column. -/
theorem rhsU_1 (j : S100000x64.Idx) (k : dot_S100000x64_S64x64_S100000x64_1_0_0_1_n_n.contr.Idx) :
    (dot_S100000x64_S64x64_S100000x64_1_0_0_1_n_n.rhsIdx j k 1).val = (j 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

/-- The product of a 100000 × 64 array with a 64 × 64 matrix at (r, q): the sum over k of x[r,k] · M[k,q]. -/
theorem dotU_apply (x : FVec Ideal S100000x64 .f32) (M : FVec Ideal S64x64 .f32) (r : Fin 100000) (q : Fin 64) :
    Host.dotGeneral (F := Ideal) dot_S100000x64_S64x64_S100000x64_1_0_0_1_n_n none x M (ix2 r q)
      = ∑ k : Fin 64, x (ix2 r k) * M (ix2 k q) := by
  show FloatOps.dotGeneral dot_S100000x64_S64x64_S100000x64_1_0_0_1_n_n none .single x M (ix2 r q) = _
  rw [Ideal.dotGeneral_apply,
    ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have hl : dot_S100000x64_S64x64_S100000x64_1_0_0_1_n_n.lhsIdx (ix2 r q)
      ((contrEquiv1 dot_S100000x64_S64x64_S100000x64_1_0_0_1_n_n 64 rfl rfl).symm k) = ix2 r k := by
    funext a; apply Fin.ext
    match a with
    | ⟨0, _⟩ => exact lhsU_0 _ _
    | ⟨1, _⟩ => exact (lhsU_1 _ _).trans hk
  have hr : dot_S100000x64_S64x64_S100000x64_1_0_0_1_n_n.rhsIdx (ix2 r q)
      ((contrEquiv1 dot_S100000x64_S64x64_S100000x64_1_0_0_1_n_n 64 rfl rfl).symm k) = ix2 k q := by
    funext a; apply Fin.ext
    match a with
    | ⟨0, _⟩ => exact (rhsU_0 _ _).trans hk
    | ⟨1, _⟩ => exact rhsU_1 _ _
  rw [hl, hr]

/-! ## The product at an index, 50000 rows -/

/-- Left operand, axis 0 (kept): the result's row. -/
theorem lhsV_0 (j : S50000x64.Idx) (k : dot_S50000x64_S64x64_S50000x64_1_0_0_1_n_n.contr.Idx) :
    (dot_S50000x64_S64x64_S50000x64_1_0_0_1_n_n.lhsIdx j k 0).val = (j 0).val := by
  unfold DotDims.lhsIdx
  rw [dif_neg (show ¬(0 : Fin S50000x64.rank) ∈ dot_S50000x64_S64x64_S50000x64_1_0_0_1_n_n.lhsBatch from List.not_mem_nil),
    dif_pos (show (0 : Fin S50000x64.rank) ∈ dot_S50000x64_S64x64_S50000x64_1_0_0_1_n_n.lhsNonContracting from List.mem_singleton.mpr rfl)]
  rfl

/-- Left operand, axis 1 (contracted): the contraction's coordinate. -/
theorem lhsV_1 (j : S50000x64.Idx) (k : dot_S50000x64_S64x64_S50000x64_1_0_0_1_n_n.contr.Idx) :
    (dot_S50000x64_S64x64_S50000x64_1_0_0_1_n_n.lhsIdx j k 1).val = (k ⟨0, Nat.one_pos⟩).val :=
  DotDims.lhsIdx_val_of_single dot_S50000x64_S64x64_S50000x64_1_0_0_1_n_n rfl j k

/-- Right operand, axis 0 (contracted): the contraction's coordinate. -/
theorem rhsV_0 (j : S50000x64.Idx) (k : dot_S50000x64_S64x64_S50000x64_1_0_0_1_n_n.contr.Idx) :
    (dot_S50000x64_S64x64_S50000x64_1_0_0_1_n_n.rhsIdx j k 0).val = (k ⟨0, Nat.one_pos⟩).val :=
  DotDims.rhsIdx_val_of_single dot_S50000x64_S64x64_S50000x64_1_0_0_1_n_n rfl j k

/-- Right operand, axis 1 (kept): the result's column. -/
theorem rhsV_1 (j : S50000x64.Idx) (k : dot_S50000x64_S64x64_S50000x64_1_0_0_1_n_n.contr.Idx) :
    (dot_S50000x64_S64x64_S50000x64_1_0_0_1_n_n.rhsIdx j k 1).val = (j 1).val := by
  unfold DotDims.rhsIdx
  rw [dif_neg (show ¬(1 : Fin S64x64.rank) ∈ dot_S50000x64_S64x64_S50000x64_1_0_0_1_n_n.rhsBatch from List.not_mem_nil),
    dif_pos (show (1 : Fin S64x64.rank) ∈ dot_S50000x64_S64x64_S50000x64_1_0_0_1_n_n.rhsNonContracting from List.mem_singleton.mpr rfl)]
  rfl

/-- The product of a 50000 × 64 array with a 64 × 64 matrix at (r, q): the sum over k of x[r,k] · M[k,q]. -/
theorem dotV_apply (x : FVec Ideal S50000x64 .f32) (M : FVec Ideal S64x64 .f32) (r : Fin 50000) (q : Fin 64) :
    Host.dotGeneral (F := Ideal) dot_S50000x64_S64x64_S50000x64_1_0_0_1_n_n none x M (ix2 r q)
      = ∑ k : Fin 64, x (ix2 r k) * M (ix2 k q) := by
  show FloatOps.dotGeneral dot_S50000x64_S64x64_S50000x64_1_0_0_1_n_n none .single x M (ix2 r q) = _
  rw [Ideal.dotGeneral_apply,
    ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have hl : dot_S50000x64_S64x64_S50000x64_1_0_0_1_n_n.lhsIdx (ix2 r q)
      ((contrEquiv1 dot_S50000x64_S64x64_S50000x64_1_0_0_1_n_n 64 rfl rfl).symm k) = ix2 r k := by
    funext a; apply Fin.ext
    match a with
    | ⟨0, _⟩ => exact lhsV_0 _ _
    | ⟨1, _⟩ => exact (lhsV_1 _ _).trans hk
  have hr : dot_S50000x64_S64x64_S50000x64_1_0_0_1_n_n.rhsIdx (ix2 r q)
      ((contrEquiv1 dot_S50000x64_S64x64_S50000x64_1_0_0_1_n_n 64 rfl rfl).symm k) = ix2 k q := by
    funext a; apply Fin.ext
    match a with
    | ⟨0, _⟩ => exact (rhsV_0 _ _).trans hk
    | ⟨1, _⟩ => exact rhsV_1 _ _
  rw [hl, hr]

/-! ## The selection -/

/-- The selection on the comparison with zero is the leaky rectifier. -/
theorem select_ge_zero (y : EReal) :
    Scalar.select (Ideal.cmp .oge y 0) y (Ideal.ofBits .f32 0x3F000000#32 * y) = Cert.Spec.leaky y := by
  unfold Cert.Spec.leaky Cert.Spec.slope
  by_cases h : (0 : EReal) ≤ y
  · rw [if_pos h]
    have hc : Ideal.cmp .oge y 0 = 1#1 := by simp [Ideal.cmp, h]
    rw [hc, select_one]
  · rw [if_neg h]
    have hc : Ideal.cmp .oge y 0 = 0#1 := by simp [Ideal.cmp, h]
    rw [hc, select_zero]

/-! ## One chain is the leaky projection -/

open Facts₀ Facts in
/-- One chain at 100000 rows: the product, compared with zero, selected against its half. -/
def chainU (x : FVec Ideal S100000x64 .f32) (M : FVec Ideal S64x64 .f32) : FVec Ideal S100000x64 .f32 :=
  select
    (cmpf .oge (Host.dotGeneral (F := Ideal) dot_S100000x64_S64x64_S100000x64_1_0_0_1_n_n none x M)
      (broadcastInDim S100000x64 ![] bcast_S_S100000x64 (constant (F := Ideal) S_ .f32 0x00000000#32)))
    (Host.dotGeneral (F := Ideal) dot_S100000x64_S64x64_S100000x64_1_0_0_1_n_n none x M)
    (mulf (broadcastInDim S100000x64 ![] bcast_S_S100000x64 (constant (F := Ideal) S_ .f32 0x3F000000#32))
      (Host.dotGeneral (F := Ideal) dot_S100000x64_S64x64_S100000x64_1_0_0_1_n_n none x M))

/-- The chain at 100000 rows is the leaky projection of its two arrays. -/
theorem chainU_eq (x : FVec Ideal S100000x64 .f32) (M : FVec Ideal S64x64 .f32) :
    chainU x M = Cert.Spec.projLeaky x M := by
  funext i
  obtain ⟨r, q, rfl⟩ : ∃ (r : Fin 100000) (q : Fin 64), i = ix2 r q := ⟨i 0, i 1, eq_ix2 i⟩
  unfold chainU
  rw [select_apply, cmpf_apply, mulf_apply, dotU_apply,
    broadcastInDim_apply _ _ _ _ ix0 (fun a => a.elim0),
    broadcastInDim_apply _ _ _ _ ix0 (fun a => a.elim0),
    constant_apply, constant_apply, Ideal.cmpf_def, Ideal.ofBits_zero_f32]
  exact select_ge_zero _

open Facts₀ Facts in
/-- One chain at 50000 rows: the product, compared with zero, selected against its half. -/
def chainV (x : FVec Ideal S50000x64 .f32) (M : FVec Ideal S64x64 .f32) : FVec Ideal S50000x64 .f32 :=
  select
    (cmpf .oge (Host.dotGeneral (F := Ideal) dot_S50000x64_S64x64_S50000x64_1_0_0_1_n_n none x M)
      (broadcastInDim S50000x64 ![] bcast_S_S50000x64 (constant (F := Ideal) S_ .f32 0x00000000#32)))
    (Host.dotGeneral (F := Ideal) dot_S50000x64_S64x64_S50000x64_1_0_0_1_n_n none x M)
    (mulf (broadcastInDim S50000x64 ![] bcast_S_S50000x64 (constant (F := Ideal) S_ .f32 0x3F000000#32))
      (Host.dotGeneral (F := Ideal) dot_S50000x64_S64x64_S50000x64_1_0_0_1_n_n none x M))

/-- The chain at 50000 rows is the leaky projection of its two arrays. -/
theorem chainV_eq (x : FVec Ideal S50000x64 .f32) (M : FVec Ideal S64x64 .f32) :
    chainV x M = Cert.Spec.projLeaky x M := by
  funext i
  obtain ⟨r, q, rfl⟩ : ∃ (r : Fin 50000) (q : Fin 64), i = ix2 r q := ⟨i 0, i 1, eq_ix2 i⟩
  unfold chainV
  rw [select_apply, cmpf_apply, mulf_apply, dotV_apply,
    broadcastInDim_apply _ _ _ _ ix0 (fun a => a.elim0),
    broadcastInDim_apply _ _ _ _ ix0 (fun a => a.elim0),
    constant_apply, constant_apply, Ideal.cmpf_def, Ideal.ofBits_zero_f32]
  exact select_ge_zero _

end Cert.ReferenceIdeal.RefProj

end
-- ==== Proof.SimStep2.lean ====
/-
  From the boundary before segment 2 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg2
import proofs.«103739_j26439818674747_2_alg».proof.Proof.RefProj

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e2_v1_0 (hag : Agree m ρ m' c) (h : Inv1 m ρ m' c) : Cert.KernelIdeal.GenP.W9 m ρ c (Proc.devRef .tc Cert.KernelIdeal.main_v1_0) = Cert.Sim.RB m' c (Proc.devRef .tc Cert.ReferenceIdeal.main_v54) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v1_1 (hag : Agree m ρ m' c) (h : Inv1 m ρ m' c) : Cert.KernelIdeal.GenP.W9 m ρ c (Proc.devRef .tc Cert.KernelIdeal.main_v1_1) = Cert.Sim.RB m' c (Proc.devRef .tc Cert.ReferenceIdeal.main_v60) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v3_0 (hag : Agree m ρ m' c) (h : Inv1 m ρ m' c) : Cert.KernelIdeal.GenP.W9 m ρ c (Proc.devRef .tc Cert.KernelIdeal.main_v3_0) = Cert.Sim.RB m' c (Proc.devRef .tc Cert.ReferenceIdeal.main_v57) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v3_1 (hag : Agree m ρ m' c) (h : Inv1 m ρ m' c) : Cert.KernelIdeal.GenP.W9 m ρ c (Proc.devRef .tc Cert.KernelIdeal.main_v3_1) = Cert.Sim.RB m' c (Proc.devRef .tc Cert.ReferenceIdeal.main_v63) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v29 (hag : Agree m ρ m' c) (h : Inv1 m ρ m' c) : Cert.KernelIdeal.GenP.W9 m ρ c (Proc.devRef .tc Cert.KernelIdeal.main_v29) = Cert.Sim.RB m' c (Proc.devRef .tc Cert.ReferenceIdeal.main_v89) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v55 (hag : Agree m ρ m' c) (h : Inv1 m ρ m' c) : Cert.KernelIdeal.GenP.W9 m ρ c (Proc.devRef .tc Cert.KernelIdeal.main_v55) = Cert.Sim.RB m' c (Proc.devRef .tc Cert.ReferenceIdeal.main_v115) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v56 (hag : Agree m ρ m' c) (h : Inv1 m ρ m' c) : Cert.KernelIdeal.GenP.W9 m ρ c (Proc.devRef .tc Cert.KernelIdeal.main_v56) = Cert.Sim.RB m' c (Proc.devRef .tc Cert.ReferenceIdeal.main_v116) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

theorem e2_v57 (hag : Agree m ρ m' c) (h : Inv1 m ρ m' c) : Cert.KernelIdeal.GenP.W9 m ρ c (Proc.devRef .tc Cert.KernelIdeal.main_v57) = Cert.Sim.RB m' c (Proc.devRef .tc Cert.ReferenceIdeal.main_v117) := by
  have hd := h; obtain ⟨h_v1_0, h_v1_1, h_v3_0, h_v3_1⟩ := hd
  rw [RB_def m' c]
  simp only [Cert.KernelIdeal.GenP.W5, Cert.KernelIdeal.GenP.W6, Cert.KernelIdeal.GenP.W7, Cert.KernelIdeal.GenP.W8, Cert.KernelIdeal.GenP.W9, Cert.KernelIdeal.Gen.hostOps2, Cert.KernelIdeal.Gen.hostOps2_1, Cert.KernelIdeal.Gen.hostOps2_2, Cert.KernelIdeal.Gen.hostOps2_3, Cert.KernelIdeal.Gen.hostOps2_4, cB]
  after_results_simp
  simp only [W4_arg0 m ρ c, W4_arg1 m ρ c, W4_arg2 m ρ c, W4_arg3 m ρ c, W4_arg4 m ρ c, W4_arg5 m ρ c, W4_arg6 m ρ c, W4_arg7 m ρ c, W4_arg8 m ρ c, W4_arg9 m ρ c, W4_arg10 m ρ c, W4_arg11 m ρ c, W4_arg12 m ρ c, W4_arg13 m ρ c, W4_arg14 m ρ c, W4_arg15 m ρ c, W4_arg16 m ρ c, W4_arg17 m ρ c, W4_arg18 m ρ c, W4_arg19 m ρ c, W4_arg20 m ρ c, W4_arg21 m ρ c, W4_arg22 m ρ c, RA_arg0 m' c, RA_arg1 m' c, RA_arg2 m' c, RA_arg3 m' c, RA_arg4 m' c, RA_arg5 m' c, RA_arg6 m' c, RA_arg7 m' c, RA_arg8 m' c, RA_arg9 m' c, RA_arg10 m' c, RA_arg11 m' c, RA_arg12 m' c, RA_arg13 m' c, RA_arg14 m' c, RA_arg15 m' c, RA_arg16 m' c, RA_arg17 m' c, RA_arg18 m' c, RA_arg19 m' c, RA_arg20 m' c, RA_arg21 m' c, RA_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 2. -/
theorem p2_v58_0 (hag : Agree (F := Ideal) m ρ m' c) (h : Inv1 (F := Ideal) m ρ m' c) : Cert.KernelIdeal.GenP.W10 m ρ c (Proc.devRef .tc Cert.KernelIdeal.main_v58_0) = Cert.Sim.RB m' c (Proc.devRef .tc Cert.ReferenceIdeal.main_v123) := by
  refine (Cert.KernelIdeal.GenP.W10_arr m ρ c 3).trans ?_
  rw [Cert.KernelIdeal.Reg2.arr3 (Cert.KernelIdeal.GenP.V9 m ρ) c]
  have hr : Cert.Sim.RB m' c (Proc.devRef .tc Cert.ReferenceIdeal.main_v123) = Cert.ReferenceIdeal.RefProj.chainU (Cert.Sim.RB m' c (Proc.devRef .tc Cert.ReferenceIdeal.main_v54)) (Cert.Sim.RB m' c (Proc.devRef .tc Cert.ReferenceIdeal.main_v116)) := by
    rw [RB_def m' c]; simp only [cB]; after_results_simp; rfl
  rw [hr, Cert.ReferenceIdeal.RefProj.chainU_eq]
  show Cert.Spec.projLeaky (Cert.KernelIdeal.GenP.W9 m ρ c (Proc.devRef .tc Cert.KernelIdeal.main_v1_0)) (Cert.KernelIdeal.GenP.W9 m ρ c (Proc.devRef .tc Cert.KernelIdeal.main_v56)) = _
  rw [e2_v1_0 m ρ m' c hag h, e2_v56 m ρ m' c hag h]

/-- Output 1 of region 2. -/
theorem p2_v58_1 (hag : Agree (F := Ideal) m ρ m' c) (h : Inv1 (F := Ideal) m ρ m' c) : Cert.KernelIdeal.GenP.W10 m ρ c (Proc.devRef .tc Cert.KernelIdeal.main_v58_1) = Cert.Sim.RB m' c (Proc.devRef .tc Cert.ReferenceIdeal.main_v135) := by
  refine (Cert.KernelIdeal.GenP.W10_arr m ρ c 4).trans ?_
  rw [Cert.KernelIdeal.Reg2.arr4 (Cert.KernelIdeal.GenP.V9 m ρ) c]
  have hr : Cert.Sim.RB m' c (Proc.devRef .tc Cert.ReferenceIdeal.main_v135) = Cert.ReferenceIdeal.RefProj.chainU (Cert.Sim.RB m' c (Proc.devRef .tc Cert.ReferenceIdeal.main_v60)) (Cert.Sim.RB m' c (Proc.devRef .tc Cert.ReferenceIdeal.main_v116)) := by
    rw [RB_def m' c]; simp only [cB]; after_results_simp; rfl
  rw [hr, Cert.ReferenceIdeal.RefProj.chainU_eq]
  show Cert.Spec.projLeaky (Cert.KernelIdeal.GenP.W9 m ρ c (Proc.devRef .tc Cert.KernelIdeal.main_v1_1)) (Cert.KernelIdeal.GenP.W9 m ρ c (Proc.devRef .tc Cert.KernelIdeal.main_v56)) = _
  rw [e2_v1_1 m ρ m' c hag h, e2_v56 m ρ m' c hag h]

theorem x2_v1_0 (hag : Agree (F := Ideal) m ρ m' c) (h : Inv1 (F := Ideal) m ρ m' c) : Cert.KernelIdeal.GenP.W10 m ρ c (Proc.devRef .tc Cert.KernelIdeal.main_v1_0) = Cert.Sim.RB m' c (Proc.devRef .tc Cert.ReferenceIdeal.main_v54) := by
  refine (Cert.KernelIdeal.GenP.W10_arr m ρ c 0).trans ?_
  refine ((Cert.KernelIdeal.GenP.dat2 (Cert.KernelIdeal.GenP.V9 m ρ) c).arrAt_in 0 rfl _).trans ?_
  refine (Cert.KernelIdeal.GenP.A_eq2 (Cert.KernelIdeal.GenP.V9 m ρ) c 0).trans ?_
  show Cert.KernelIdeal.GenP.W9 m ρ c (Proc.devRef .tc Cert.KernelIdeal.main_v1_0) = _
  exact e2_v1_0 m ρ m' c hag h

theorem x2_v1_1 (hag : Agree (F := Ideal) m ρ m' c) (h : Inv1 (F := Ideal) m ρ m' c) : Cert.KernelIdeal.GenP.W10 m ρ c (Proc.devRef .tc Cert.KernelIdeal.main_v1_1) = Cert.Sim.RB m' c (Proc.devRef .tc Cert.ReferenceIdeal.main_v60) := by
  refine (Cert.KernelIdeal.GenP.W10_arr m ρ c 1).trans ?_
  refine ((Cert.KernelIdeal.GenP.dat2 (Cert.KernelIdeal.GenP.V9 m ρ) c).arrAt_in 1 rfl _).trans ?_
  refine (Cert.KernelIdeal.GenP.A_eq2 (Cert.KernelIdeal.GenP.V9 m ρ) c 1).trans ?_
  show Cert.KernelIdeal.GenP.W9 m ρ c (Proc.devRef .tc Cert.KernelIdeal.main_v1_1) = _
  exact e2_v1_1 m ρ m' c hag h

theorem x2_v3_0 (hag : Agree (F := Ideal) m ρ m' c) (h : Inv1 (F := Ideal) m ρ m' c) : Cert.KernelIdeal.GenP.W10 m ρ c (Proc.devRef .tc Cert.KernelIdeal.main_v3_0) = Cert.Sim.RB m' c (Proc.devRef .tc Cert.ReferenceIdeal.main_v57) := by
  rw [Cert.KernelIdeal.GenP.W10_of_ne m ρ c Cert.KernelIdeal.main_v3_0 (by decide)]
  exact e2_v3_0 m ρ m' c hag h

theorem x2_v3_1 (hag : Agree (F := Ideal) m ρ m' c) (h : Inv1 (F := Ideal) m ρ m' c) : Cert.KernelIdeal.GenP.W10 m ρ c (Proc.devRef .tc Cert.KernelIdeal.main_v3_1) = Cert.Sim.RB m' c (Proc.devRef .tc Cert.ReferenceIdeal.main_v63) := by
  rw [Cert.KernelIdeal.GenP.W10_of_ne m ρ c Cert.KernelIdeal.main_v3_1 (by decide)]
  exact e2_v3_1 m ρ m' c hag h

theorem x2_v29 (hag : Agree (F := Ideal) m ρ m' c) (h : Inv1 (F := Ideal) m ρ m' c) : Cert.KernelIdeal.GenP.W10 m ρ c (Proc.devRef .tc Cert.KernelIdeal.main_v29) = Cert.Sim.RB m' c (Proc.devRef .tc Cert.ReferenceIdeal.main_v89) := by
  rw [Cert.KernelIdeal.GenP.W10_of_ne m ρ c Cert.KernelIdeal.main_v29 (by decide)]
  exact e2_v29 m ρ m' c hag h

theorem x2_v55 (hag : Agree (F := Ideal) m ρ m' c) (h : Inv1 (F := Ideal) m ρ m' c) : Cert.KernelIdeal.GenP.W10 m ρ c (Proc.devRef .tc Cert.KernelIdeal.main_v55) = Cert.Sim.RB m' c (Proc.devRef .tc Cert.ReferenceIdeal.main_v115) := by
  rw [Cert.KernelIdeal.GenP.W10_of_ne m ρ c Cert.KernelIdeal.main_v55 (by decide)]
  exact e2_v55 m ρ m' c hag h

theorem x2_v57 (hag : Agree (F := Ideal) m ρ m' c) (h : Inv1 (F := Ideal) m ρ m' c) : Cert.KernelIdeal.GenP.W10 m ρ c (Proc.devRef .tc Cert.KernelIdeal.main_v57) = Cert.Sim.RB m' c (Proc.devRef .tc Cert.ReferenceIdeal.main_v117) := by
  rw [Cert.KernelIdeal.GenP.W10_of_ne m ρ c Cert.KernelIdeal.main_v57 (by decide)]
  exact e2_v57 m ρ m' c hag h

/-- The boundary's agreement is kept across segment 2. -/
theorem step2 (hag : Agree (F := Ideal) m ρ m' c) (h : Inv1 (F := Ideal) m ρ m' c) : Inv2 (F := Ideal) m ρ m' c :=
  ⟨x2_v1_0 m ρ m' c hag h,
   x2_v1_1 m ρ m' c hag h,
   x2_v3_0 m ρ m' c hag h,
   x2_v3_1 m ρ m' c hag h,
   x2_v29 m ρ m' c hag h,
   x2_v55 m ρ m' c hag h,
   x2_v57 m ρ m' c hag h,
   p2_v58_0 m ρ m' c hag h,
   p2_v58_1 m ρ m' c hag h⟩

end AtIdeal

end Cert.Sim

end
-- ==== Proof.Reg3.lean ====
/-
  Region 3 (leaky projection, 50000 rows in 10 blocks of 5000): each output array after the region is the leaky
  projection of its input array through the region's 64 × 64 matrix, index by index.

  Three steps. (1) The body's payload at row p, column q of a block: the product into a zero accumulator is the sum
  over k of x[p,k] · M[k,q] (at the extended reals the format changes are the identity, and no rounding or chunk order
  is left), and the comparison against zero keeps it or halves it: the leaky rectifier. (2) Point t of the grid holds
  rows 5000·t … 5000·t + 4999 of each input array and of each output array, and the whole matrix; a row of the product
  depends on that row of the input alone, so what point t writes back is block t of the whole-array projection.
  (3) Row r lies in block r / 5000, so the 10 blocks cover the array, and the array ends holding the projection.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The body's payload at an index -/

/-- The left operand is read at the output's row … -/
theorem lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the contraction position along its columns; -/
theorem lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s

/-- the right operand at the contraction position along its rows … -/
theorem rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s

/-- … and at the output's column. -/
theorem rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator, at row p and column q: row p of the left operand against column q of the
    right, the one contracted axis re-indexed by its coordinate. -/
theorem mm_at (x : FVec Ideal S5000x64 .bf16) (M : FVec Ideal S64x64 .bf16) (p : Fin 5000) (q : Fin 64) :
    matmul dot_S5000x64_S64x64_S5000x64_1_0_0_1_n_n none x M (constant (F := Ideal) S5000x64 .f32 0x00000000#32) (ix2 p q)
      = ∑ k : Fin 64, x (ix2 p k) * M (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The rectifier as the body spells it: the comparison of y against the zero word selects y or the slope times y. -/
theorem leaky_word (y : EReal) :
    Scalar.select (Ideal.cmp .oge y (Ideal.ofBits .f32 0x00000000#32)) y (Ideal.ofBits .f32 0x3F000000#32 * y)
      = Cert.Spec.leaky y := by
  rw [Ideal.ofBits_zero_f32]
  unfold Cert.Spec.leaky
  by_cases h : (0 : EReal) ≤ y
  · have e : Ideal.cmp .oge y 0 = 1#1 := by simp [Ideal.cmp, h]
    rw [e, select_one, if_pos h]
  · have e : Ideal.cmp .oge y 0 = 0#1 := by simp [Ideal.cmp, h]
    rw [e, select_zero, if_neg h]
    rfl

/-- The first output's payload at row p, column q of a block: the rectified inner product of row p of the block with
    column q of the matrix. -/
theorem pay_first_at (M : Vec Ideal S64x64 .f32) (x : Vec Ideal S5000x64 .f32) (p : Fin 5000) (q : Fin 64) :
    k3_pay2 (F := Ideal) M x (ix2 p q) = Cert.Spec.leaky (∑ k : Fin 64, x (ix2 p k) * M (ix2 k q)) := by
  unfold k3_pay2 k3_pay1
  dsimp only
  rw [select_apply, cmpf_apply, mulf_apply, broadcast_apply, broadcast_apply, mm_at]
  simp only [truncf_apply, shapeCast_self]
  exact leaky_word _

/-- The second output's payload likewise. -/
theorem pay_second_at (M : Vec Ideal S64x64 .f32) (x : Vec Ideal S5000x64 .f32) (p : Fin 5000) (q : Fin 64) :
    k3_pay3 (F := Ideal) M x (ix2 p q) = Cert.Spec.leaky (∑ k : Fin 64, x (ix2 p k) * M (ix2 k q)) := by
  unfold k3_pay3 k3_pay1
  dsimp only
  rw [select_apply, cmpf_apply, mulf_apply, broadcast_apply, broadcast_apply, mm_at]
  simp only [truncf_apply, shapeCast_self]
  exact leaky_word _

/-- A block whose row p is row r of the array X, against a matrix that is W: the first payload at (p, q) is the
    whole-array projection at (r, q). -/
theorem pay_first_block (X : Cert.Spec.Mat 50000 64) (W : Cert.Spec.Mat 64 64) (x : Vec Ideal S5000x64 .f32)
    (M : Vec Ideal S64x64 .f32) (r : Fin 50000) (p : Fin 5000) (q : Fin 64)
    (hx : ∀ k : Fin 64, x (ix2 p k) = X (ix2 r k)) (hM : ∀ k : Fin 64, M (ix2 k q) = W (ix2 k q)) :
    k3_pay2 (F := Ideal) M x (ix2 p q) = Cert.Spec.projLeaky X W (ix2 r q) := by
  rw [pay_first_at]
  show Cert.Spec.leaky _ = Cert.Spec.leaky (∑ k : Fin 64, X (ix2 r k) * W (ix2 k q))
  exact congrArg _ (Finset.sum_congr rfl fun k _ => by rw [hx k, hM k])

/-- The same for the second payload. -/
theorem pay_second_block (X : Cert.Spec.Mat 50000 64) (W : Cert.Spec.Mat 64 64) (x : Vec Ideal S5000x64 .f32)
    (M : Vec Ideal S64x64 .f32) (r : Fin 50000) (p : Fin 5000) (q : Fin 64)
    (hx : ∀ k : Fin 64, x (ix2 p k) = X (ix2 r k)) (hM : ∀ k : Fin 64, M (ix2 k q) = W (ix2 k q)) :
    k3_pay3 (F := Ideal) M x (ix2 p q) = Cert.Spec.projLeaky X W (ix2 r q) := by
  rw [pay_second_at]
  show Cert.Spec.leaky _ = Cert.Spec.leaky (∑ k : Fin 64, X (ix2 r k) * W (ix2 k q))
  exact congrArg _ (Finset.sum_congr rfl fun k _ => by rw [hx k, hM k])

/-! ## The blocks of a point -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 10 points: the row arrays' block index is (t, 0), the matrix's is (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row p of the first input's block at point t is row 5000·t + p of its array. -/
theorem first_in_at (c : Dev nD) (t : Fin cfg3.N) (p : Fin 5000) (k : Fin 64) (r : Fin 50000)
    (hr : r.val = t.val * 5000 + p.val) : iblk3 V c 0 t (ix2 p k) = V c main_v3_0 (ix2 r k) := by
  obtain ⟨e0, e1, -, -, -, -, -, -, -, -⟩ := block_indices t
  show V c main_v3_0 (((cfg3.win 0).blk t).view.emb (ix2 p k)) = V c main_v3_0 (ix2 r k)
  refine congrArg _ ?_
  funext a; apply Fin.ext
  match a with
  | ⟨0, _⟩ => show win3_0.index t (0 : Fin 2) * 5000 + 1 * p.val = r.val; omega
  | ⟨1, _⟩ => show win3_0.index t (1 : Fin 2) * 64 + 1 * k.val = k.val; omega

/-- Row p of the second input's block at point t is row 5000·t + p of its array. -/
theorem second_in_at (c : Dev nD) (t : Fin cfg3.N) (p : Fin 5000) (k : Fin 64) (r : Fin 50000)
    (hr : r.val = t.val * 5000 + p.val) : iblk3 V c 1 t (ix2 p k) = V c main_v3_1 (ix2 r k) := by
  obtain ⟨-, -, e0, e1, -, -, -, -, -, -⟩ := block_indices t
  show V c main_v3_1 (((cfg3.win 1).blk t).view.emb (ix2 p k)) = V c main_v3_1 (ix2 r k)
  refine congrArg _ ?_
  funext a; apply Fin.ext
  match a with
  | ⟨0, _⟩ => show win3_1.index t (0 : Fin 2) * 5000 + 1 * p.val = r.val; omega
  | ⟨1, _⟩ => show win3_1.index t (1 : Fin 2) * 64 + 1 * k.val = k.val; omega

/-- The matrix's block at every point is the whole matrix. -/
theorem matrix_at (c : Dev nD) (t : Fin cfg3.N) (k : Fin 64) (q : Fin 64) :
    iblk3 V c 2 t (ix2 k q) = V c main_v57 (ix2 k q) := by
  obtain ⟨-, -, -, -, e0, e1, -, -, -, -⟩ := block_indices t
  show V c main_v57 (((cfg3.win 2).blk t).view.emb (ix2 k q)) = V c main_v57 (ix2 k q)
  refine congrArg _ ?_
  funext a; apply Fin.ext
  match a with
  | ⟨0, _⟩ => show win3_2.index t (0 : Fin 2) * 64 + 1 * k.val = k.val; omega
  | ⟨1, _⟩ => show win3_2.index t (1 : Fin 2) * 64 + 1 * q.val = q.val; omega

/-- Entry (p, q) of the first output's block at point t sits in its array at row 5000·t + p, column q. -/
theorem first_out_at (t : Fin cfg3.N) (p : Fin 5000) (q : Fin 64) (r : Fin 50000)
    (hr : r.val = t.val * 5000 + p.val) : ((cfg3.win 3).blk t).view.emb (ix2 p q) = ix2 r q := by
  obtain ⟨-, -, -, -, -, -, e0, e1, -, -⟩ := block_indices t
  funext a; apply Fin.ext
  match a with
  | ⟨0, _⟩ => show win3_3.index t (0 : Fin 2) * 5000 + 1 * p.val = r.val; omega
  | ⟨1, _⟩ => show win3_3.index t (1 : Fin 2) * 64 + 1 * q.val = q.val; omega

/-- The same for the second output's block. -/
theorem second_out_at (t : Fin cfg3.N) (p : Fin 5000) (q : Fin 64) (r : Fin 50000)
    (hr : r.val = t.val * 5000 + p.val) : ((cfg3.win 4).blk t).view.emb (ix2 p q) = ix2 r q := by
  obtain ⟨-, -, -, -, -, -, -, -, e0, e1⟩ := block_indices t
  funext a; apply Fin.ext
  match a with
  | ⟨0, _⟩ => show win3_4.index t (0 : Fin 2) * 5000 + 1 * p.val = r.val; omega
  | ⟨1, _⟩ => show win3_4.index t (1 : Fin 2) * 64 + 1 * q.val = q.val; omega

/-! ## What a point writes back -/

/-- Point t writes back block t of the first array's projection: its rows are rows of the input's block t, and a row
    of the projection reads that row of the input alone. -/
theorem first_flushed (c : Dev nD) (t : Fin cfg3.N) :
    (dat3 (F := Ideal) V c).flushed 3 t
      = ((cfg3.win 3).blk t).view.read (Elt Ideal) (Cert.Spec.projLeaky (V c main_v3_0) (V c main_v57)) := by
  show (cfg3.win 3).cut (grid3.coords t) ((dat3 V c).after 3 t) = _
  rw [after3_3]
  unfold out3_3
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg3.N = 10 := N_3
  have hr : t.val * 5000 + p.val < 50000 := by have := t.isLt; have := p.isLt; omega
  show k3_pay2 (F := Ideal) (iblk3 V c 2 t) (iblk3 V c 0 t) (ix2 p q)
    = Cert.Spec.projLeaky (V c main_v3_0) (V c main_v57) (((cfg3.win 3).blk t).view.emb (ix2 p q))
  rw [first_out_at t p q ⟨_, hr⟩ rfl]
  exact pay_first_block (V c main_v3_0) (V c main_v57) (iblk3 V c 0 t) (iblk3 V c 2 t) ⟨_, hr⟩ p q
    (fun k => first_in_at V c t p k ⟨_, hr⟩ rfl) (fun k => matrix_at V c t k q)

/-- Point t writes back block t of the second array's projection. -/
theorem second_flushed (c : Dev nD) (t : Fin cfg3.N) :
    (dat3 (F := Ideal) V c).flushed 4 t
      = ((cfg3.win 4).blk t).view.read (Elt Ideal) (Cert.Spec.projLeaky (V c main_v3_1) (V c main_v57)) := by
  show (cfg3.win 4).cut (grid3.coords t) ((dat3 V c).after 4 t) = _
  rw [after3_4]
  unfold out3_4
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg3.N = 10 := N_3
  have hr : t.val * 5000 + p.val < 50000 := by have := t.isLt; have := p.isLt; omega
  show k3_pay3 (F := Ideal) (iblk3 V c 2 t) (iblk3 V c 1 t) (ix2 p q)
    = Cert.Spec.projLeaky (V c main_v3_1) (V c main_v57) (((cfg3.win 4).blk t).view.emb (ix2 p q))
  rw [second_out_at t p q ⟨_, hr⟩ rfl]
  exact pay_second_block (V c main_v3_1) (V c main_v57) (iblk3 V c 1 t) (iblk3 V c 2 t) ⟨_, hr⟩ p q
    (fun k => second_in_at V c t p k ⟨_, hr⟩ rfl) (fun k => matrix_at V c t k q)

/-! ## The blocks cover the arrays -/

/-- An index of the first output array is in point t's block iff each coordinate is in the block's range. -/
theorem mem_first_block (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v59_0).slice (win3_3.rect t)).set ↔ _
  rw [View.set_slice_whole, Rect.mem_set_unit]
  exact Iff.rfl

/-- The same for the second output array. -/
theorem mem_second_block (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v59_1).slice (win3_4.rect t)).set ↔ _
  rw [View.set_slice_whole, Rect.mem_set_unit]
  exact Iff.rfl

/-- Row r of the first output array lies in the block of point r / 5000, which is written back. -/
theorem first_cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e0, e1, -, -⟩ := block_indices t
  refine ⟨t, flush3_3 t, ?_⟩
  rw [mem_first_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The same for the second output array. -/
theorem second_cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, e0, e1⟩ := block_indices t
  refine ⟨t, flush3_4 t, ?_⟩
  rw [mem_second_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-! ## The arrays after the region -/

/-- The first output array: the first view projected. -/
theorem arr3 (c : Dev nD) : (dat3 (F := Ideal) V c).arrAt 3 cfg3.N
    = Cert.Spec.projLeaky (V c main_v3_0) (V c main_v57) :=
  (dat3 (F := Ideal) V c).arrAt_eq_of_cover 3 (Cert.Spec.projLeaky (V c main_v3_0) (V c main_v57))
    (fun t _ => first_flushed V c t) first_cover

/-- The second output array: the second view projected. -/
theorem arr4 (c : Dev nD) : (dat3 (F := Ideal) V c).arrAt 4 cfg3.N
    = Cert.Spec.projLeaky (V c main_v3_1) (V c main_v57) :=
  (dat3 (F := Ideal) V c).arrAt_eq_of_cover 4 (Cert.Spec.projLeaky (V c main_v3_1) (V c main_v57))
    (fun t _ => second_flushed V c t) second_cover

end Cert.KernelIdeal.Reg3

end
-- ==== Proof.SimStep3.lean ====
/-
  From the boundary before segment 3 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg3
import proofs.«103739_j26439818674747_2_alg».proof.Proof.RefProj

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e3_v1_0 (hag : Agree m ρ m' c) (h : Inv2 m ρ m' c) : Cert.KernelIdeal.GenP.W10 m ρ c (Proc.devRef .tc Cert.KernelIdeal.main_v1_0) = Cert.Sim.RB m' c (Proc.devRef .tc Cert.ReferenceIdeal.main_v54) := by
  have hd := h; obtain ⟨h_v1_0, h_v1_1, h_v3_0, h_v3_1, h_v29, h_v55, h_v57, h_v58_0, h_v58_1⟩ := hd
  exact h_v1_0

theorem e3_v1_1 (hag : Agree m ρ m' c) (h : Inv2 m ρ m' c) : Cert.KernelIdeal.GenP.W10 m ρ c (Proc.devRef .tc Cert.KernelIdeal.main_v1_1) = Cert.Sim.RB m' c (Proc.devRef .tc Cert.ReferenceIdeal.main_v60) := by
  have hd := h; obtain ⟨h_v1_0, h_v1_1, h_v3_0, h_v3_1, h_v29, h_v55, h_v57, h_v58_0, h_v58_1⟩ := hd
  exact h_v1_1

theorem e3_v3_0 (hag : Agree m ρ m' c) (h : Inv2 m ρ m' c) : Cert.KernelIdeal.GenP.W10 m ρ c (Proc.devRef .tc Cert.KernelIdeal.main_v3_0) = Cert.Sim.RB m' c (Proc.devRef .tc Cert.ReferenceIdeal.main_v57) := by
  have hd := h; obtain ⟨h_v1_0, h_v1_1, h_v3_0, h_v3_1, h_v29, h_v55, h_v57, h_v58_0, h_v58_1⟩ := hd
  exact h_v3_0

theorem e3_v3_1 (hag : Agree m ρ m' c) (h : Inv2 m ρ m' c) : Cert.KernelIdeal.GenP.W10 m ρ c (Proc.devRef .tc Cert.KernelIdeal.main_v3_1) = Cert.Sim.RB m' c (Proc.devRef .tc Cert.ReferenceIdeal.main_v63) := by
  have hd := h; obtain ⟨h_v1_0, h_v1_1, h_v3_0, h_v3_1, h_v29, h_v55, h_v57, h_v58_0, h_v58_1⟩ := hd
  exact h_v3_1

theorem e3_v29 (hag : Agree m ρ m' c) (h : Inv2 m ρ m' c) : Cert.KernelIdeal.GenP.W10 m ρ c (Proc.devRef .tc Cert.KernelIdeal.main_v29) = Cert.Sim.RB m' c (Proc.devRef .tc Cert.ReferenceIdeal.main_v89) := by
  have hd := h; obtain ⟨h_v1_0, h_v1_1, h_v3_0, h_v3_1, h_v29, h_v55, h_v57, h_v58_0, h_v58_1⟩ := hd
  exact h_v29

theorem e3_v55 (hag : Agree m ρ m' c) (h : Inv2 m ρ m' c) : Cert.KernelIdeal.GenP.W10 m ρ c (Proc.devRef .tc Cert.KernelIdeal.main_v55) = Cert.Sim.RB m' c (Proc.devRef .tc Cert.ReferenceIdeal.main_v115) := by
  have hd := h; obtain ⟨h_v1_0, h_v1_1, h_v3_0, h_v3_1, h_v29, h_v55, h_v57, h_v58_0, h_v58_1⟩ := hd
  exact h_v55

theorem e3_v57 (hag : Agree m ρ m' c) (h : Inv2 m ρ m' c) : Cert.KernelIdeal.GenP.W10 m ρ c (Proc.devRef .tc Cert.KernelIdeal.main_v57) = Cert.Sim.RB m' c (Proc.devRef .tc Cert.ReferenceIdeal.main_v117) := by
  have hd := h; obtain ⟨h_v1_0, h_v1_1, h_v3_0, h_v3_1, h_v29, h_v55, h_v57, h_v58_0, h_v58_1⟩ := hd
  exact h_v57

theorem e3_v58_0 (hag : Agree m ρ m' c) (h : Inv2 m ρ m' c) : Cert.KernelIdeal.GenP.W10 m ρ c (Proc.devRef .tc Cert.KernelIdeal.main_v58_0) = Cert.Sim.RB m' c (Proc.devRef .tc Cert.ReferenceIdeal.main_v123) := by
  have hd := h; obtain ⟨h_v1_0, h_v1_1, h_v3_0, h_v3_1, h_v29, h_v55, h_v57, h_v58_0, h_v58_1⟩ := hd
  exact h_v58_0

theorem e3_v58_1 (hag : Agree m ρ m' c) (h : Inv2 m ρ m' c) : Cert.KernelIdeal.GenP.W10 m ρ c (Proc.devRef .tc Cert.KernelIdeal.main_v58_1) = Cert.Sim.RB m' c (Proc.devRef .tc Cert.ReferenceIdeal.main_v135) := by
  have hd := h; obtain ⟨h_v1_0, h_v1_1, h_v3_0, h_v3_1, h_v29, h_v55, h_v57, h_v58_0, h_v58_1⟩ := hd
  exact h_v58_1

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 3. -/
theorem p3_v59_0 (hag : Agree (F := Ideal) m ρ m' c) (h : Inv2 (F := Ideal) m ρ m' c) : Cert.KernelIdeal.GenP.W11 m ρ c (Proc.devRef .tc Cert.KernelIdeal.main_v59_0) = Cert.Sim.RB m' c (Proc.devRef .tc Cert.ReferenceIdeal.main_v129) := by
  refine (Cert.KernelIdeal.GenP.W11_arr m ρ c 3).trans ?_
  rw [Cert.KernelIdeal.Reg3.arr3 (Cert.KernelIdeal.GenP.V10 m ρ) c]
  have hr : Cert.Sim.RB m' c (Proc.devRef .tc Cert.ReferenceIdeal.main_v129) = Cert.ReferenceIdeal.RefProj.chainV (Cert.Sim.RB m' c (Proc.devRef .tc Cert.ReferenceIdeal.main_v57)) (Cert.Sim.RB m' c (Proc.devRef .tc Cert.ReferenceIdeal.main_v117)) := by
    rw [RB_def m' c]; simp only [cB]; after_results_simp; rfl
  rw [hr, Cert.ReferenceIdeal.RefProj.chainV_eq]
  show Cert.Spec.projLeaky (Cert.KernelIdeal.GenP.W10 m ρ c (Proc.devRef .tc Cert.KernelIdeal.main_v3_0)) (Cert.KernelIdeal.GenP.W10 m ρ c (Proc.devRef .tc Cert.KernelIdeal.main_v57)) = _
  rw [e3_v3_0 m ρ m' c hag h, e3_v57 m ρ m' c hag h]

/-- Output 1 of region 3. -/
theorem p3_v59_1 (hag : Agree (F := Ideal) m ρ m' c) (h : Inv2 (F := Ideal) m ρ m' c) : Cert.KernelIdeal.GenP.W11 m ρ c (Proc.devRef .tc Cert.KernelIdeal.main_v59_1) = Cert.Sim.RB m' c (Proc.devRef .tc Cert.ReferenceIdeal.main_v141) := by
  refine (Cert.KernelIdeal.GenP.W11_arr m ρ c 4).trans ?_
  rw [Cert.KernelIdeal.Reg3.arr4 (Cert.KernelIdeal.GenP.V10 m ρ) c]
  have hr : Cert.Sim.RB m' c (Proc.devRef .tc Cert.ReferenceIdeal.main_v141) = Cert.ReferenceIdeal.RefProj.chainV (Cert.Sim.RB m' c (Proc.devRef .tc Cert.ReferenceIdeal.main_v63)) (Cert.Sim.RB m' c (Proc.devRef .tc Cert.ReferenceIdeal.main_v117)) := by
    rw [RB_def m' c]; simp only [cB]; after_results_simp; rfl
  rw [hr, Cert.ReferenceIdeal.RefProj.chainV_eq]
  show Cert.Spec.projLeaky (Cert.KernelIdeal.GenP.W10 m ρ c (Proc.devRef .tc Cert.KernelIdeal.main_v3_1)) (Cert.KernelIdeal.GenP.W10 m ρ c (Proc.devRef .tc Cert.KernelIdeal.main_v57)) = _
  rw [e3_v3_1 m ρ m' c hag h, e3_v57 m ρ m' c hag h]

theorem x3_v1_0 (hag : Agree (F := Ideal) m ρ m' c) (h : Inv2 (F := Ideal) m ρ m' c) : Cert.KernelIdeal.GenP.W11 m ρ c (Proc.devRef .tc Cert.KernelIdeal.main_v1_0) = Cert.Sim.RB m' c (Proc.devRef .tc Cert.ReferenceIdeal.main_v54) := by
  rw [Cert.KernelIdeal.GenP.W11_of_ne m ρ c Cert.KernelIdeal.main_v1_0 (by decide)]
  exact e3_v1_0 m ρ m' c hag h

theorem x3_v1_1 (hag : Agree (F := Ideal) m ρ m' c) (h : Inv2 (F := Ideal) m ρ m' c) : Cert.KernelIdeal.GenP.W11 m ρ c (Proc.devRef .tc Cert.KernelIdeal.main_v1_1) = Cert.Sim.RB m' c (Proc.devRef .tc Cert.ReferenceIdeal.main_v60) := by
  rw [Cert.KernelIdeal.GenP.W11_of_ne m ρ c Cert.KernelIdeal.main_v1_1 (by decide)]
  exact e3_v1_1 m ρ m' c hag h

theorem x3_v3_0 (hag : Agree (F := Ideal) m ρ m' c) (h : Inv2 (F := Ideal) m ρ m' c) : Cert.KernelIdeal.GenP.W11 m ρ c (Proc.devRef .tc Cert.KernelIdeal.main_v3_0) = Cert.Sim.RB m' c (Proc.devRef .tc Cert.ReferenceIdeal.main_v57) := by
  refine (Cert.KernelIdeal.GenP.W11_arr m ρ c 0).trans ?_
  refine ((Cert.KernelIdeal.GenP.dat3 (Cert.KernelIdeal.GenP.V10 m ρ) c).arrAt_in 0 rfl _).trans ?_
  refine (Cert.KernelIdeal.GenP.A_eq3 (Cert.KernelIdeal.GenP.V10 m ρ) c 0).trans ?_
  show Cert.KernelIdeal.GenP.W10 m ρ c (Proc.devRef .tc Cert.KernelIdeal.main_v3_0) = _
  exact e3_v3_0 m ρ m' c hag h

theorem x3_v3_1 (hag : Agree (F := Ideal) m ρ m' c) (h : Inv2 (F := Ideal) m ρ m' c) : Cert.KernelIdeal.GenP.W11 m ρ c (Proc.devRef .tc Cert.KernelIdeal.main_v3_1) = Cert.Sim.RB m' c (Proc.devRef .tc Cert.ReferenceIdeal.main_v63) := by
  refine (Cert.KernelIdeal.GenP.W11_arr m ρ c 1).trans ?_
  refine ((Cert.KernelIdeal.GenP.dat3 (Cert.KernelIdeal.GenP.V10 m ρ) c).arrAt_in 1 rfl _).trans ?_
  refine (Cert.KernelIdeal.GenP.A_eq3 (Cert.KernelIdeal.GenP.V10 m ρ) c 1).trans ?_
  show Cert.KernelIdeal.GenP.W10 m ρ c (Proc.devRef .tc Cert.KernelIdeal.main_v3_1) = _
  exact e3_v3_1 m ρ m' c hag h

theorem x3_v29 (hag : Agree (F := Ideal) m ρ m' c) (h : Inv2 (F := Ideal) m ρ m' c) : Cert.KernelIdeal.GenP.W11 m ρ c (Proc.devRef .tc Cert.KernelIdeal.main_v29) = Cert.Sim.RB m' c (Proc.devRef .tc Cert.ReferenceIdeal.main_v89) := by
  rw [Cert.KernelIdeal.GenP.W11_of_ne m ρ c Cert.KernelIdeal.main_v29 (by decide)]
  exact e3_v29 m ρ m' c hag h

theorem x3_v55 (hag : Agree (F := Ideal) m ρ m' c) (h : Inv2 (F := Ideal) m ρ m' c) : Cert.KernelIdeal.GenP.W11 m ρ c (Proc.devRef .tc Cert.KernelIdeal.main_v55) = Cert.Sim.RB m' c (Proc.devRef .tc Cert.ReferenceIdeal.main_v115) := by
  rw [Cert.KernelIdeal.GenP.W11_of_ne m ρ c Cert.KernelIdeal.main_v55 (by decide)]
  exact e3_v55 m ρ m' c hag h

theorem x3_v58_0 (hag : Agree (F := Ideal) m ρ m' c) (h : Inv2 (F := Ideal) m ρ m' c) : Cert.KernelIdeal.GenP.W11 m ρ c (Proc.devRef .tc Cert.KernelIdeal.main_v58_0) = Cert.Sim.RB m' c (Proc.devRef .tc Cert.ReferenceIdeal.main_v123) := by
  rw [Cert.KernelIdeal.GenP.W11_of_ne m ρ c Cert.KernelIdeal.main_v58_0 (by decide)]
  exact e3_v58_0 m ρ m' c hag h

theorem x3_v58_1 (hag : Agree (F := Ideal) m ρ m' c) (h : Inv2 (F := Ideal) m ρ m' c) : Cert.KernelIdeal.GenP.W11 m ρ c (Proc.devRef .tc Cert.KernelIdeal.main_v58_1) = Cert.Sim.RB m' c (Proc.devRef .tc Cert.ReferenceIdeal.main_v135) := by
  rw [Cert.KernelIdeal.GenP.W11_of_ne m ρ c Cert.KernelIdeal.main_v58_1 (by decide)]
  exact e3_v58_1 m ρ m' c hag h

/-- The boundary's agreement is kept across segment 3. -/
theorem step3 (hag : Agree (F := Ideal) m ρ m' c) (h : Inv2 (F := Ideal) m ρ m' c) : Inv3 (F := Ideal) m ρ m' c :=
  ⟨x3_v1_0 m ρ m' c hag h,
   x3_v1_1 m ρ m' c hag h,
   x3_v3_0 m ρ m' c hag h,
   x3_v3_1 m ρ m' c hag h,
   x3_v29 m ρ m' c hag h,
   x3_v55 m ρ m' c hag h,
   x3_v58_0 m ρ m' c hag h,
   x3_v58_1 m ρ m' c hag h,
   p3_v59_0 m ρ m' c hag h,
   p3_v59_1 m ρ m' c hag h⟩

end AtIdeal

end Cert.Sim

end
-- ==== Proof.Reg4.lean ====
/-
  Region 4 (leaky projection, 100000 rows in 20 blocks of 5000): each output array after the region is the leaky
  projection of its input array through the region's 64 × 64 matrix, index by index.

  Three steps. (1) The body's payload at row p, column q of a block: the product into a zero accumulator is the sum
  over k of x[p,k] · M[k,q] (at the extended reals the format changes are the identity, and no rounding or chunk order
  is left), and the comparison against zero keeps it or halves it: the leaky rectifier. (2) Point t of the grid holds
  rows 5000·t … 5000·t + 4999 of each input array and of each output array, and the whole matrix; a row of the product
  depends on that row of the input alone, so what point t writes back is block t of the whole-array projection.
  (3) Row r lies in block r / 5000, so the 20 blocks cover the array, and the array ends holding the projection.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The body's payload at an index -/

/-- The left operand is read at the output's row … -/
theorem lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the contraction position along its columns; -/
theorem lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s

/-- the right operand at the contraction position along its rows … -/
theorem rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s

/-- … and at the output's column. -/
theorem rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator, at row p and column q: row p of the left operand against column q of the
    right, the one contracted axis re-indexed by its coordinate. -/
theorem mm_at (x : FVec Ideal S5000x64 .bf16) (M : FVec Ideal S64x64 .bf16) (p : Fin 5000) (q : Fin 64) :
    matmul dot_S5000x64_S64x64_S5000x64_1_0_0_1_n_n none x M (constant (F := Ideal) S5000x64 .f32 0x00000000#32) (ix2 p q)
      = ∑ k : Fin 64, x (ix2 p k) * M (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The rectifier as the body spells it: the comparison of y against the zero word selects y or the slope times y. -/
theorem leaky_word (y : EReal) :
    Scalar.select (Ideal.cmp .oge y (Ideal.ofBits .f32 0x00000000#32)) y (Ideal.ofBits .f32 0x3F000000#32 * y)
      = Cert.Spec.leaky y := by
  rw [Ideal.ofBits_zero_f32]
  unfold Cert.Spec.leaky
  by_cases h : (0 : EReal) ≤ y
  · have e : Ideal.cmp .oge y 0 = 1#1 := by simp [Ideal.cmp, h]
    rw [e, select_one, if_pos h]
  · have e : Ideal.cmp .oge y 0 = 0#1 := by simp [Ideal.cmp, h]
    rw [e, select_zero, if_neg h]
    rfl

/-- The first output's payload at row p, column q of a block: the rectified inner product of row p of the block with
    column q of the matrix. -/
theorem pay_first_at (M : Vec Ideal S64x64 .f32) (x : Vec Ideal S5000x64 .f32) (p : Fin 5000) (q : Fin 64) :
    k4_pay2 (F := Ideal) M x (ix2 p q) = Cert.Spec.leaky (∑ k : Fin 64, x (ix2 p k) * M (ix2 k q)) := by
  unfold k4_pay2 k4_pay1
  dsimp only
  rw [select_apply, cmpf_apply, mulf_apply, broadcast_apply, broadcast_apply, mm_at]
  simp only [truncf_apply, shapeCast_self]
  exact leaky_word _

/-- The second output's payload likewise. -/
theorem pay_second_at (M : Vec Ideal S64x64 .f32) (x : Vec Ideal S5000x64 .f32) (p : Fin 5000) (q : Fin 64) :
    k4_pay3 (F := Ideal) M x (ix2 p q) = Cert.Spec.leaky (∑ k : Fin 64, x (ix2 p k) * M (ix2 k q)) := by
  unfold k4_pay3 k4_pay1
  dsimp only
  rw [select_apply, cmpf_apply, mulf_apply, broadcast_apply, broadcast_apply, mm_at]
  simp only [truncf_apply, shapeCast_self]
  exact leaky_word _

/-- A block whose row p is row r of the array X, against a matrix that is W: the first payload at (p, q) is the
    whole-array projection at (r, q). -/
theorem pay_first_block (X : Cert.Spec.Mat 100000 64) (W : Cert.Spec.Mat 64 64) (x : Vec Ideal S5000x64 .f32)
    (M : Vec Ideal S64x64 .f32) (r : Fin 100000) (p : Fin 5000) (q : Fin 64)
    (hx : ∀ k : Fin 64, x (ix2 p k) = X (ix2 r k)) (hM : ∀ k : Fin 64, M (ix2 k q) = W (ix2 k q)) :
    k4_pay2 (F := Ideal) M x (ix2 p q) = Cert.Spec.projLeaky X W (ix2 r q) := by
  rw [pay_first_at]
  show Cert.Spec.leaky _ = Cert.Spec.leaky (∑ k : Fin 64, X (ix2 r k) * W (ix2 k q))
  exact congrArg _ (Finset.sum_congr rfl fun k _ => by rw [hx k, hM k])

/-- The same for the second payload. -/
theorem pay_second_block (X : Cert.Spec.Mat 100000 64) (W : Cert.Spec.Mat 64 64) (x : Vec Ideal S5000x64 .f32)
    (M : Vec Ideal S64x64 .f32) (r : Fin 100000) (p : Fin 5000) (q : Fin 64)
    (hx : ∀ k : Fin 64, x (ix2 p k) = X (ix2 r k)) (hM : ∀ k : Fin 64, M (ix2 k q) = W (ix2 k q)) :
    k4_pay3 (F := Ideal) M x (ix2 p q) = Cert.Spec.projLeaky X W (ix2 r q) := by
  rw [pay_second_at]
  show Cert.Spec.leaky _ = Cert.Spec.leaky (∑ k : Fin 64, X (ix2 r k) * W (ix2 k q))
  exact congrArg _ (Finset.sum_congr rfl fun k _ => by rw [hx k, hM k])

/-! ## The blocks of a point -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 20 points: the row arrays' block index is (t, 0), the matrix's is (0, 0). -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Row p of the first input's block at point t is row 5000·t + p of its array. -/
theorem first_in_at (c : Dev nD) (t : Fin cfg4.N) (p : Fin 5000) (k : Fin 64) (r : Fin 100000)
    (hr : r.val = t.val * 5000 + p.val) : iblk4 V c 0 t (ix2 p k) = V c main_v1_0 (ix2 r k) := by
  obtain ⟨e0, e1, -, -, -, -, -, -, -, -⟩ := block_indices t
  show V c main_v1_0 (((cfg4.win 0).blk t).view.emb (ix2 p k)) = V c main_v1_0 (ix2 r k)
  refine congrArg _ ?_
  funext a; apply Fin.ext
  match a with
  | ⟨0, _⟩ => show win4_0.index t (0 : Fin 2) * 5000 + 1 * p.val = r.val; omega
  | ⟨1, _⟩ => show win4_0.index t (1 : Fin 2) * 64 + 1 * k.val = k.val; omega

/-- Row p of the second input's block at point t is row 5000·t + p of its array. -/
theorem second_in_at (c : Dev nD) (t : Fin cfg4.N) (p : Fin 5000) (k : Fin 64) (r : Fin 100000)
    (hr : r.val = t.val * 5000 + p.val) : iblk4 V c 1 t (ix2 p k) = V c main_v1_1 (ix2 r k) := by
  obtain ⟨-, -, e0, e1, -, -, -, -, -, -⟩ := block_indices t
  show V c main_v1_1 (((cfg4.win 1).blk t).view.emb (ix2 p k)) = V c main_v1_1 (ix2 r k)
  refine congrArg _ ?_
  funext a; apply Fin.ext
  match a with
  | ⟨0, _⟩ => show win4_1.index t (0 : Fin 2) * 5000 + 1 * p.val = r.val; omega
  | ⟨1, _⟩ => show win4_1.index t (1 : Fin 2) * 64 + 1 * k.val = k.val; omega

/-- The matrix's block at every point is the whole matrix. -/
theorem matrix_at (c : Dev nD) (t : Fin cfg4.N) (k : Fin 64) (q : Fin 64) :
    iblk4 V c 2 t (ix2 k q) = V c main_v114 (ix2 k q) := by
  obtain ⟨-, -, -, -, e0, e1, -, -, -, -⟩ := block_indices t
  show V c main_v114 (((cfg4.win 2).blk t).view.emb (ix2 k q)) = V c main_v114 (ix2 k q)
  refine congrArg _ ?_
  funext a; apply Fin.ext
  match a with
  | ⟨0, _⟩ => show win4_2.index t (0 : Fin 2) * 64 + 1 * k.val = k.val; omega
  | ⟨1, _⟩ => show win4_2.index t (1 : Fin 2) * 64 + 1 * q.val = q.val; omega

/-- Entry (p, q) of the first output's block at point t sits in its array at row 5000·t + p, column q. -/
theorem first_out_at (t : Fin cfg4.N) (p : Fin 5000) (q : Fin 64) (r : Fin 100000)
    (hr : r.val = t.val * 5000 + p.val) : ((cfg4.win 3).blk t).view.emb (ix2 p q) = ix2 r q := by
  obtain ⟨-, -, -, -, -, -, e0, e1, -, -⟩ := block_indices t
  funext a; apply Fin.ext
  match a with
  | ⟨0, _⟩ => show win4_3.index t (0 : Fin 2) * 5000 + 1 * p.val = r.val; omega
  | ⟨1, _⟩ => show win4_3.index t (1 : Fin 2) * 64 + 1 * q.val = q.val; omega

/-- The same for the second output's block. -/
theorem second_out_at (t : Fin cfg4.N) (p : Fin 5000) (q : Fin 64) (r : Fin 100000)
    (hr : r.val = t.val * 5000 + p.val) : ((cfg4.win 4).blk t).view.emb (ix2 p q) = ix2 r q := by
  obtain ⟨-, -, -, -, -, -, -, -, e0, e1⟩ := block_indices t
  funext a; apply Fin.ext
  match a with
  | ⟨0, _⟩ => show win4_4.index t (0 : Fin 2) * 5000 + 1 * p.val = r.val; omega
  | ⟨1, _⟩ => show win4_4.index t (1 : Fin 2) * 64 + 1 * q.val = q.val; omega

/-! ## What a point writes back -/

/-- Point t writes back block t of the first array's projection: its rows are rows of the input's block t, and a row
    of the projection reads that row of the input alone. -/
theorem first_flushed (c : Dev nD) (t : Fin cfg4.N) :
    (dat4 (F := Ideal) V c).flushed 3 t
      = ((cfg4.win 3).blk t).view.read (Elt Ideal) (Cert.Spec.projLeaky (V c main_v1_0) (V c main_v114)) := by
  show (cfg4.win 3).cut (grid4.coords t) ((dat4 V c).after 3 t) = _
  rw [after4_3]
  unfold out4_3
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg4.N = 20 := N_4
  have hr : t.val * 5000 + p.val < 100000 := by have := t.isLt; have := p.isLt; omega
  show k4_pay2 (F := Ideal) (iblk4 V c 2 t) (iblk4 V c 0 t) (ix2 p q)
    = Cert.Spec.projLeaky (V c main_v1_0) (V c main_v114) (((cfg4.win 3).blk t).view.emb (ix2 p q))
  rw [first_out_at t p q ⟨_, hr⟩ rfl]
  exact pay_first_block (V c main_v1_0) (V c main_v114) (iblk4 V c 0 t) (iblk4 V c 2 t) ⟨_, hr⟩ p q
    (fun k => first_in_at V c t p k ⟨_, hr⟩ rfl) (fun k => matrix_at V c t k q)

/-- Point t writes back block t of the second array's projection. -/
theorem second_flushed (c : Dev nD) (t : Fin cfg4.N) :
    (dat4 (F := Ideal) V c).flushed 4 t
      = ((cfg4.win 4).blk t).view.read (Elt Ideal) (Cert.Spec.projLeaky (V c main_v1_1) (V c main_v114)) := by
  show (cfg4.win 4).cut (grid4.coords t) ((dat4 V c).after 4 t) = _
  rw [after4_4]
  unfold out4_4
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg4.N = 20 := N_4
  have hr : t.val * 5000 + p.val < 100000 := by have := t.isLt; have := p.isLt; omega
  show k4_pay3 (F := Ideal) (iblk4 V c 2 t) (iblk4 V c 1 t) (ix2 p q)
    = Cert.Spec.projLeaky (V c main_v1_1) (V c main_v114) (((cfg4.win 4).blk t).view.emb (ix2 p q))
  rw [second_out_at t p q ⟨_, hr⟩ rfl]
  exact pay_second_block (V c main_v1_1) (V c main_v114) (iblk4 V c 1 t) (iblk4 V c 2 t) ⟨_, hr⟩ p q
    (fun k => second_in_at V c t p k ⟨_, hr⟩ rfl) (fun k => matrix_at V c t k q)

/-! ## The blocks cover the arrays -/

/-- An index of the first output array is in point t's block iff each coordinate is in the block's range. -/
theorem mem_first_block (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v116_0).slice (win4_3.rect t)).set ↔ _
  rw [View.set_slice_whole, Rect.mem_set_unit]
  exact Iff.rfl

/-- The same for the second output array. -/
theorem mem_second_block (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v116_1).slice (win4_4.rect t)).set ↔ _
  rw [View.set_slice_whole, Rect.mem_set_unit]
  exact Iff.rfl

/-- Row r of the first output array lies in the block of point r / 5000, which is written back. -/
theorem first_cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, e0, e1, -, -⟩ := block_indices t
  refine ⟨t, flush4_3 t, ?_⟩
  rw [mem_first_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The same for the second output array. -/
theorem second_cover (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, e0, e1⟩ := block_indices t
  refine ⟨t, flush4_4 t, ?_⟩
  rw [mem_second_block]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-! ## The arrays after the region -/

/-- The first output array: the first view projected. -/
theorem arr3 (c : Dev nD) : (dat4 (F := Ideal) V c).arrAt 3 cfg4.N
    = Cert.Spec.projLeaky (V c main_v1_0) (V c main_v114) :=
  (dat4 (F := Ideal) V c).arrAt_eq_of_cover 3 (Cert.Spec.projLeaky (V c main_v1_0) (V c main_v114))
    (fun t _ => first_flushed V c t) first_cover

/-- The second output array: the second view projected. -/
theorem arr4 (c : Dev nD) : (dat4 (F := Ideal) V c).arrAt 4 cfg4.N
    = Cert.Spec.projLeaky (V c main_v1_1) (V c main_v114) :=
  (dat4 (F := Ideal) V c).arrAt_eq_of_cover 4 (Cert.Spec.projLeaky (V c main_v1_1) (V c main_v114))
    (fun t _ => second_flushed V c t) second_cover

end Cert.KernelIdeal.Reg4

end
-- ==== Proof.SimStep4.lean ====
/-
  From the boundary before segment 4 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg4
import proofs.«103739_j26439818674747_2_alg».proof.Proof.RefProj

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e4_v1_0 (hag : Agree m ρ m' c) (h : Inv3 m ρ m' c) : Cert.KernelIdeal.GenP.W16 m ρ c (Proc.devRef .tc Cert.KernelIdeal.main_v1_0) = Cert.Sim.RC m' c (Proc.devRef .tc Cert.ReferenceIdeal.main_v54) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v1_1 (hag : Agree m ρ m' c) (h : Inv3 m ρ m' c) : Cert.KernelIdeal.GenP.W16 m ρ c (Proc.devRef .tc Cert.KernelIdeal.main_v1_1) = Cert.Sim.RC m' c (Proc.devRef .tc Cert.ReferenceIdeal.main_v60) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v3_0 (hag : Agree m ρ m' c) (h : Inv3 m ρ m' c) : Cert.KernelIdeal.GenP.W16 m ρ c (Proc.devRef .tc Cert.KernelIdeal.main_v3_0) = Cert.Sim.RC m' c (Proc.devRef .tc Cert.ReferenceIdeal.main_v57) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v3_1 (hag : Agree m ρ m' c) (h : Inv3 m ρ m' c) : Cert.KernelIdeal.GenP.W16 m ρ c (Proc.devRef .tc Cert.KernelIdeal.main_v3_1) = Cert.Sim.RC m' c (Proc.devRef .tc Cert.ReferenceIdeal.main_v63) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v58_0 (hag : Agree m ρ m' c) (h : Inv3 m ρ m' c) : Cert.KernelIdeal.GenP.W16 m ρ c (Proc.devRef .tc Cert.KernelIdeal.main_v58_0) = Cert.Sim.RC m' c (Proc.devRef .tc Cert.ReferenceIdeal.main_v123) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v58_1 (hag : Agree m ρ m' c) (h : Inv3 m ρ m' c) : Cert.KernelIdeal.GenP.W16 m ρ c (Proc.devRef .tc Cert.KernelIdeal.main_v58_1) = Cert.Sim.RC m' c (Proc.devRef .tc Cert.ReferenceIdeal.main_v135) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v59_0 (hag : Agree m ρ m' c) (h : Inv3 m ρ m' c) : Cert.KernelIdeal.GenP.W16 m ρ c (Proc.devRef .tc Cert.KernelIdeal.main_v59_0) = Cert.Sim.RC m' c (Proc.devRef .tc Cert.ReferenceIdeal.main_v129) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v59_1 (hag : Agree m ρ m' c) (h : Inv3 m ρ m' c) : Cert.KernelIdeal.GenP.W16 m ρ c (Proc.devRef .tc Cert.KernelIdeal.main_v59_1) = Cert.Sim.RC m' c (Proc.devRef .tc Cert.ReferenceIdeal.main_v141) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v60 (hag : Agree m ρ m' c) (h : Inv3 m ρ m' c) : Cert.KernelIdeal.GenP.W16 m ρ c (Proc.devRef .tc Cert.KernelIdeal.main_v60) = Cert.Sim.RC m' c (Proc.devRef .tc Cert.ReferenceIdeal.main_v142) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v61 (hag : Agree m ρ m' c) (h : Inv3 m ρ m' c) : Cert.KernelIdeal.GenP.W16 m ρ c (Proc.devRef .tc Cert.KernelIdeal.main_v61) = Cert.Sim.RC m' c (Proc.devRef .tc Cert.ReferenceIdeal.main_v143) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v87 (hag : Agree m ρ m' c) (h : Inv3 m ρ m' c) : Cert.KernelIdeal.GenP.W16 m ρ c (Proc.devRef .tc Cert.KernelIdeal.main_v87) = Cert.Sim.RC m' c (Proc.devRef .tc Cert.ReferenceIdeal.main_v169) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v113 (hag : Agree m ρ m' c) (h : Inv3 m ρ m' c) : Cert.KernelIdeal.GenP.W16 m ρ c (Proc.devRef .tc Cert.KernelIdeal.main_v113) = Cert.Sim.RC m' c (Proc.devRef .tc Cert.ReferenceIdeal.main_v195) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v114 (hag : Agree m ρ m' c) (h : Inv3 m ρ m' c) : Cert.KernelIdeal.GenP.W16 m ρ c (Proc.devRef .tc Cert.KernelIdeal.main_v114) = Cert.Sim.RC m' c (Proc.devRef .tc Cert.ReferenceIdeal.main_v196) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

theorem e4_v115 (hag : Agree m ρ m' c) (h : Inv3 m ρ m' c) : Cert.KernelIdeal.GenP.W16 m ρ c (Proc.devRef .tc Cert.KernelIdeal.main_v115) = Cert.Sim.RC m' c (Proc.devRef .tc Cert.ReferenceIdeal.main_v197) := by
  have hd := h; obtain ⟨h_v1_0, h_v1_1, h_v3_0, h_v3_1, h_v29, h_v55, h_v58_0, h_v58_1, h_v59_0, h_v59_1⟩ := hd
  rw [RC_def m' c]
  simp only [Cert.KernelIdeal.GenP.W12, Cert.KernelIdeal.GenP.W13, Cert.KernelIdeal.GenP.W14, Cert.KernelIdeal.GenP.W15, Cert.KernelIdeal.GenP.W16, Cert.KernelIdeal.Gen.hostOps4, Cert.KernelIdeal.Gen.hostOps4_1, Cert.KernelIdeal.Gen.hostOps4_2, Cert.KernelIdeal.Gen.hostOps4_3, Cert.KernelIdeal.Gen.hostOps4_4, cC]
  after_results_simp
  simp only [W11_arg0 m ρ c, W11_arg1 m ρ c, W11_arg2 m ρ c, W11_arg3 m ρ c, W11_arg4 m ρ c, W11_arg5 m ρ c, W11_arg6 m ρ c, W11_arg7 m ρ c, W11_arg8 m ρ c, W11_arg9 m ρ c, W11_arg10 m ρ c, W11_arg11 m ρ c, W11_arg12 m ρ c, W11_arg13 m ρ c, W11_arg14 m ρ c, W11_arg15 m ρ c, W11_arg16 m ρ c, W11_arg17 m ρ c, W11_arg18 m ρ c, W11_arg19 m ρ c, W11_arg20 m ρ c, W11_arg21 m ρ c, W11_arg22 m ρ c, RB_arg0 m' c, RB_arg1 m' c, RB_arg2 m' c, RB_arg3 m' c, RB_arg4 m' c, RB_arg5 m' c, RB_arg6 m' c, RB_arg7 m' c, RB_arg8 m' c, RB_arg9 m' c, RB_arg10 m' c, RB_arg11 m' c, RB_arg12 m' c, RB_arg13 m' c, RB_arg14 m' c, RB_arg15 m' c, RB_arg16 m' c, RB_arg17 m' c, RB_arg18 m' c, RB_arg19 m' c, RB_arg20 m' c, RB_arg21 m' c, RB_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v1_0, h_v1_1, h_v3_0, h_v3_1, h_v29, h_v55, h_v58_0, h_v58_1, h_v59_0, h_v59_1]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 4. -/
theorem p4_v116_0 (hag : Agree (F := Ideal) m ρ m' c) (h : Inv3 (F := Ideal) m ρ m' c) : Cert.KernelIdeal.GenP.W17 m ρ c (Proc.devRef .tc Cert.KernelIdeal.main_v116_0) = Cert.Sim.RC m' c (Proc.devRef .tc Cert.ReferenceIdeal.main_v203) := by
  refine (Cert.KernelIdeal.GenP.W17_arr m ρ c 3).trans ?_
  rw [Cert.KernelIdeal.Reg4.arr3 (Cert.KernelIdeal.GenP.V16 m ρ) c]
  have hr : Cert.Sim.RC m' c (Proc.devRef .tc Cert.ReferenceIdeal.main_v203) = Cert.ReferenceIdeal.RefProj.chainU (Cert.Sim.RC m' c (Proc.devRef .tc Cert.ReferenceIdeal.main_v54)) (Cert.Sim.RC m' c (Proc.devRef .tc Cert.ReferenceIdeal.main_v196)) := by
    rw [RC_def m' c]; simp only [cC]; after_results_simp; rfl
  rw [hr, Cert.ReferenceIdeal.RefProj.chainU_eq]
  show Cert.Spec.projLeaky (Cert.KernelIdeal.GenP.W16 m ρ c (Proc.devRef .tc Cert.KernelIdeal.main_v1_0)) (Cert.KernelIdeal.GenP.W16 m ρ c (Proc.devRef .tc Cert.KernelIdeal.main_v114)) = _
  rw [e4_v1_0 m ρ m' c hag h, e4_v114 m ρ m' c hag h]

/-- Output 1 of region 4. -/
theorem p4_v116_1 (hag : Agree (F := Ideal) m ρ m' c) (h : Inv3 (F := Ideal) m ρ m' c) : Cert.KernelIdeal.GenP.W17 m ρ c (Proc.devRef .tc Cert.KernelIdeal.main_v116_1) = Cert.Sim.RC m' c (Proc.devRef .tc Cert.ReferenceIdeal.main_v215) := by
  refine (Cert.KernelIdeal.GenP.W17_arr m ρ c 4).trans ?_
  rw [Cert.KernelIdeal.Reg4.arr4 (Cert.KernelIdeal.GenP.V16 m ρ) c]
  have hr : Cert.Sim.RC m' c (Proc.devRef .tc Cert.ReferenceIdeal.main_v215) = Cert.ReferenceIdeal.RefProj.chainU (Cert.Sim.RC m' c (Proc.devRef .tc Cert.ReferenceIdeal.main_v60)) (Cert.Sim.RC m' c (Proc.devRef .tc Cert.ReferenceIdeal.main_v196)) := by
    rw [RC_def m' c]; simp only [cC]; after_results_simp; rfl
  rw [hr, Cert.ReferenceIdeal.RefProj.chainU_eq]
  show Cert.Spec.projLeaky (Cert.KernelIdeal.GenP.W16 m ρ c (Proc.devRef .tc Cert.KernelIdeal.main_v1_1)) (Cert.KernelIdeal.GenP.W16 m ρ c (Proc.devRef .tc Cert.KernelIdeal.main_v114)) = _
  rw [e4_v1_1 m ρ m' c hag h, e4_v114 m ρ m' c hag h]

theorem x4_v3_0 (hag : Agree (F := Ideal) m ρ m' c) (h : Inv3 (F := Ideal) m ρ m' c) : Cert.KernelIdeal.GenP.W17 m ρ c (Proc.devRef .tc Cert.KernelIdeal.main_v3_0) = Cert.Sim.RC m' c (Proc.devRef .tc Cert.ReferenceIdeal.main_v57) := by
  rw [Cert.KernelIdeal.GenP.W17_of_ne m ρ c Cert.KernelIdeal.main_v3_0 (by decide)]
  exact e4_v3_0 m ρ m' c hag h

theorem x4_v3_1 (hag : Agree (F := Ideal) m ρ m' c) (h : Inv3 (F := Ideal) m ρ m' c) : Cert.KernelIdeal.GenP.W17 m ρ c (Proc.devRef .tc Cert.KernelIdeal.main_v3_1) = Cert.Sim.RC m' c (Proc.devRef .tc Cert.ReferenceIdeal.main_v63) := by
  rw [Cert.KernelIdeal.GenP.W17_of_ne m ρ c Cert.KernelIdeal.main_v3_1 (by decide)]
  exact e4_v3_1 m ρ m' c hag h

theorem x4_v58_0 (hag : Agree (F := Ideal) m ρ m' c) (h : Inv3 (F := Ideal) m ρ m' c) : Cert.KernelIdeal.GenP.W17 m ρ c (Proc.devRef .tc Cert.KernelIdeal.main_v58_0) = Cert.Sim.RC m' c (Proc.devRef .tc Cert.ReferenceIdeal.main_v123) := by
  rw [Cert.KernelIdeal.GenP.W17_of_ne m ρ c Cert.KernelIdeal.main_v58_0 (by decide)]
  exact e4_v58_0 m ρ m' c hag h

theorem x4_v58_1 (hag : Agree (F := Ideal) m ρ m' c) (h : Inv3 (F := Ideal) m ρ m' c) : Cert.KernelIdeal.GenP.W17 m ρ c (Proc.devRef .tc Cert.KernelIdeal.main_v58_1) = Cert.Sim.RC m' c (Proc.devRef .tc Cert.ReferenceIdeal.main_v135) := by
  rw [Cert.KernelIdeal.GenP.W17_of_ne m ρ c Cert.KernelIdeal.main_v58_1 (by decide)]
  exact e4_v58_1 m ρ m' c hag h

theorem x4_v59_0 (hag : Agree (F := Ideal) m ρ m' c) (h : Inv3 (F := Ideal) m ρ m' c) : Cert.KernelIdeal.GenP.W17 m ρ c (Proc.devRef .tc Cert.KernelIdeal.main_v59_0) = Cert.Sim.RC m' c (Proc.devRef .tc Cert.ReferenceIdeal.main_v129) := by
  rw [Cert.KernelIdeal.GenP.W17_of_ne m ρ c Cert.KernelIdeal.main_v59_0 (by decide)]
  exact e4_v59_0 m ρ m' c hag h

theorem x4_v59_1 (hag : Agree (F := Ideal) m ρ m' c) (h : Inv3 (F := Ideal) m ρ m' c) : Cert.KernelIdeal.GenP.W17 m ρ c (Proc.devRef .tc Cert.KernelIdeal.main_v59_1) = Cert.Sim.RC m' c (Proc.devRef .tc Cert.ReferenceIdeal.main_v141) := by
  rw [Cert.KernelIdeal.GenP.W17_of_ne m ρ c Cert.KernelIdeal.main_v59_1 (by decide)]
  exact e4_v59_1 m ρ m' c hag h

theorem x4_v60 (hag : Agree (F := Ideal) m ρ m' c) (h : Inv3 (F := Ideal) m ρ m' c) : Cert.KernelIdeal.GenP.W17 m ρ c (Proc.devRef .tc Cert.KernelIdeal.main_v60) = Cert.Sim.RC m' c (Proc.devRef .tc Cert.ReferenceIdeal.main_v142) := by
  rw [Cert.KernelIdeal.GenP.W17_of_ne m ρ c Cert.KernelIdeal.main_v60 (by decide)]
  exact e4_v60 m ρ m' c hag h

theorem x4_v61 (hag : Agree (F := Ideal) m ρ m' c) (h : Inv3 (F := Ideal) m ρ m' c) : Cert.KernelIdeal.GenP.W17 m ρ c (Proc.devRef .tc Cert.KernelIdeal.main_v61) = Cert.Sim.RC m' c (Proc.devRef .tc Cert.ReferenceIdeal.main_v143) := by
  rw [Cert.KernelIdeal.GenP.W17_of_ne m ρ c Cert.KernelIdeal.main_v61 (by decide)]
  exact e4_v61 m ρ m' c hag h

theorem x4_v87 (hag : Agree (F := Ideal) m ρ m' c) (h : Inv3 (F := Ideal) m ρ m' c) : Cert.KernelIdeal.GenP.W17 m ρ c (Proc.devRef .tc Cert.KernelIdeal.main_v87) = Cert.Sim.RC m' c (Proc.devRef .tc Cert.ReferenceIdeal.main_v169) := by
  rw [Cert.KernelIdeal.GenP.W17_of_ne m ρ c Cert.KernelIdeal.main_v87 (by decide)]
  exact e4_v87 m ρ m' c hag h

theorem x4_v113 (hag : Agree (F := Ideal) m ρ m' c) (h : Inv3 (F := Ideal) m ρ m' c) : Cert.KernelIdeal.GenP.W17 m ρ c (Proc.devRef .tc Cert.KernelIdeal.main_v113) = Cert.Sim.RC m' c (Proc.devRef .tc Cert.ReferenceIdeal.main_v195) := by
  rw [Cert.KernelIdeal.GenP.W17_of_ne m ρ c Cert.KernelIdeal.main_v113 (by decide)]
  exact e4_v113 m ρ m' c hag h

theorem x4_v115 (hag : Agree (F := Ideal) m ρ m' c) (h : Inv3 (F := Ideal) m ρ m' c) : Cert.KernelIdeal.GenP.W17 m ρ c (Proc.devRef .tc Cert.KernelIdeal.main_v115) = Cert.Sim.RC m' c (Proc.devRef .tc Cert.ReferenceIdeal.main_v197) := by
  rw [Cert.KernelIdeal.GenP.W17_of_ne m ρ c Cert.KernelIdeal.main_v115 (by decide)]
  exact e4_v115 m ρ m' c hag h

/-- The boundary's agreement is kept across segment 4. -/
theorem step4 (hag : Agree (F := Ideal) m ρ m' c) (h : Inv3 (F := Ideal) m ρ m' c) : Inv4 (F := Ideal) m ρ m' c :=
  ⟨x4_v3_0 m ρ m' c hag h,
   x4_v3_1 m ρ m' c hag h,
   x4_v58_0 m ρ m' c hag h,
   x4_v58_1 m ρ m' c hag h,
   x4_v59_0 m ρ m' c hag h,
   x4_v59_1 m ρ m' c hag h,
   x4_v60 m ρ m' c hag h,
   x4_v61 m ρ m' c hag h,
   x4_v87 m ρ m' c hag h,
   x4_v113 m ρ m' c hag h,
   x4_v115 m ρ m' c hag h,
   p4_v116_0 m ρ m' c hag h,
   p4_v116_1 m ρ m' c hag h⟩

end AtIdeal

end Cert.Sim

end
-- ==== Proof.Reg5.lean ====
/-
  Region 5 (leaky projection, 50000 rows in 10 blocks of 5000): each output array after the region is the leaky
  projection of its input array through the region's 64 × 64 matrix, index by index.

  Three steps. (1) The body's payload at row p, column q of a block: the product into a zero accumulator is the sum
  over k of x[p,k] · M[k,q] (at the extended reals the format changes are the identity, and no rounding or chunk order
  is left), and the comparison against zero keeps it or halves it: the leaky rectifier. (2) Point t of the grid holds
  rows 5000·t … 5000·t + 4999 of each input array and of each output array, and the whole matrix; a row of the product
  depends on that row of the input alone, so what point t writes back is block t of the whole-array projection.
  (3) Row r lies in block r / 5000, so the 10 blocks cover the array, and the array ends holding the projection.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The body's payload at an index -/

/-- The left operand is read at the output's row … -/
theorem lhs_row (i : S5000x64.Idx) (s : dot_S5000x64_S64x64_S5000x64_1_0_0_1_n_n.contr.Idx) :
    (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the contraction position along its columns; -/
theorem lhs_col (i : S5000x64.Idx) (s : dot_S5000x64_S64x64_S5000x64_1_0_0_1_n_n.contr.Idx) :
    (dot_S5000x64_S64x64_S5000x64_1_0_0_1_n_n.lhsIdx i s 1).val = (s ⟨0, by decide⟩).val :=
  dot_S5000x64_S64x64_S5000x64_1_0_0_1_n_n.lhsIdx_val_of_single rfl i s

/-- the right operand at the contraction position along its rows … -/
theorem rhs_row (i : S5000x64.Idx) (s : dot_S5000x64_S64x64_S5000x64_1_0_0_1_n_n.contr.Idx) :
    (dot_S5000x64_S64x64_S5000x64_1_0_0_1_n_n.rhsIdx i s 0).val = (s ⟨0, by decide⟩).val :=
  dot_S5000x64_S64x64_S5000x64_1_0_0_1_n_n.rhsIdx_val_of_single rfl i s

/-- … and at the output's column. -/
theorem rhs_col (i : S5000x64.Idx) (s : dot_S5000x64_S64x64_S5000x64_1_0_0_1_n_n.contr.Idx) :
    (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator, at row p and column q: row p of the left operand against column q of the
    right, the one contracted axis re-indexed by its coordinate. -/
theorem mm_at (x : FVec Ideal S5000x64 .bf16) (M : FVec Ideal S64x64 .bf16) (p : Fin 5000) (q : Fin 64) :
    matmul dot_S5000x64_S64x64_S5000x64_1_0_0_1_n_n none x M (constant (F := Ideal) S5000x64 .f32 0x00000000#32) (ix2 p q)
      = ∑ k : Fin 64, x (ix2 p k) * M (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The rectifier as the body spells it: the comparison of y against the zero word selects y or the slope times y. -/
theorem leaky_word (y : EReal) :
    Scalar.select (Ideal.cmp .oge y (Ideal.ofBits .f32 0x00000000#32)) y (Ideal.ofBits .f32 0x3F000000#32 * y)
      = Cert.Spec.leaky y := by
  rw [Ideal.ofBits_zero_f32]
  unfold Cert.Spec.leaky
  by_cases h : (0 : EReal) ≤ y
  · have e : Ideal.cmp .oge y 0 = 1#1 := by simp [Ideal.cmp, h]
    rw [e, select_one, if_pos h]
  · have e : Ideal.cmp .oge y 0 = 0#1 := by simp [Ideal.cmp, h]
    rw [e, select_zero, if_neg h]
    rfl

/-- The first output's payload at row p, column q of a block: the rectified inner product of row p of the block with
    column q of the matrix. -/
theorem pay_first_at (M : Vec Ideal S64x64 .f32) (x : Vec Ideal S5000x64 .f32) (p : Fin 5000) (q : Fin 64) :
    k5_pay2 (F := Ideal) M x (ix2 p q) = Cert.Spec.leaky (∑ k : Fin 64, x (ix2 p k) * M (ix2 k q)) := by
  unfold k5_pay2 k5_pay1
  dsimp only
  rw [select_apply, cmpf_apply, mulf_apply, broadcast_apply, broadcast_apply, mm_at]
  simp only [truncf_apply, shapeCast_self]
  exact leaky_word _

/-- The second output's payload likewise. -/
theorem pay_second_at (M : Vec Ideal S64x64 .f32) (x : Vec Ideal S5000x64 .f32) (p : Fin 5000) (q : Fin 64) :
    k5_pay3 (F := Ideal) M x (ix2 p q) = Cert.Spec.leaky (∑ k : Fin 64, x (ix2 p k) * M (ix2 k q)) := by
  unfold k5_pay3 k5_pay1
  dsimp only
  rw [select_apply, cmpf_apply, mulf_apply, broadcast_apply, broadcast_apply, mm_at]
  simp only [truncf_apply, shapeCast_self]
  exact leaky_word _

/-- A block whose row p is row r of the array X, against a matrix that is W: the first payload at (p, q) is the
    whole-array projection at (r, q). -/
theorem pay_first_block (X : Cert.Spec.Mat 50000 64) (W : Cert.Spec.Mat 64 64) (x : Vec Ideal S5000x64 .f32)
    (M : Vec Ideal S64x64 .f32) (r : Fin 50000) (p : Fin 5000) (q : Fin 64)
    (hx : ∀ k : Fin 64, x (ix2 p k) = X (ix2 r k)) (hM : ∀ k : Fin 64, M (ix2 k q) = W (ix2 k q)) :
    k5_pay2 (F := Ideal) M x (ix2 p q) = Cert.Spec.projLeaky X W (ix2 r q) := by
  rw [pay_first_at]
  show Cert.Spec.leaky _ = Cert.Spec.leaky (∑ k : Fin 64, X (ix2 r k) * W (ix2 k q))
  exact congrArg _ (Finset.sum_congr rfl fun k _ => by rw [hx k, hM k])

/-- The same for the second payload. -/
theorem pay_second_block (X : Cert.Spec.Mat 50000 64) (W : Cert.Spec.Mat 64 64) (x : Vec Ideal S5000x64 .f32)
    (M : Vec Ideal S64x64 .f32) (r : Fin 50000) (p : Fin 5000) (q : Fin 64)
    (hx : ∀ k : Fin 64, x (ix2 p k) = X (ix2 r k)) (hM : ∀ k : Fin 64, M (ix2 k q) = W (ix2 k q)) :
    k5_pay3 (F := Ideal) M x (ix2 p q) = Cert.Spec.projLeaky X W (ix2 r q) := by
  rw [pay_second_at]
  show Cert.Spec.leaky _ = Cert.Spec.leaky (∑ k : Fin 64, X (ix2 r k) * W (ix2 k q))
  exact congrArg _ (Finset.sum_congr rfl fun k _ => by rw [hx k, hM k])

/-! ## The blocks of a point -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 10 points: the row arrays' block index is (t, 0), the matrix's is (0, 0). -/
theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row p of the first input's block at point t is row 5000·t + p of its array. -/
theorem first_in_at (c : Dev nD) (t : Fin cfg5.N) (p : Fin 5000) (k : Fin 64) (r : Fin 50000)
    (hr : r.val = t.val * 5000 + p.val) : iblk5 V c 0 t (ix2 p k) = V c main_v3_0 (ix2 r k) := by
  obtain ⟨e0, e1, -, -, -, -, -, -, -, -⟩ := block_indices t
  show V c main_v3_0 (((cfg5.win 0).blk t).view.emb (ix2 p k)) = V c main_v3_0 (ix2 r k)
  refine congrArg _ ?_
  funext a; apply Fin.ext
  match a with
  | ⟨0, _⟩ => show win5_0.index t (0 : Fin 2) * 5000 + 1 * p.val = r.val; omega
  | ⟨1, _⟩ => show win5_0.index t (1 : Fin 2) * 64 + 1 * k.val = k.val; omega

/-- Row p of the second input's block at point t is row 5000·t + p of its array. -/
theorem second_in_at (c : Dev nD) (t : Fin cfg5.N) (p : Fin 5000) (k : Fin 64) (r : Fin 50000)
    (hr : r.val = t.val * 5000 + p.val) : iblk5 V c 1 t (ix2 p k) = V c main_v3_1 (ix2 r k) := by
  obtain ⟨-, -, e0, e1, -, -, -, -, -, -⟩ := block_indices t
  show V c main_v3_1 (((cfg5.win 1).blk t).view.emb (ix2 p k)) = V c main_v3_1 (ix2 r k)
  refine congrArg _ ?_
  funext a; apply Fin.ext
  match a with
  | ⟨0, _⟩ => show win5_1.index t (0 : Fin 2) * 5000 + 1 * p.val = r.val; omega
  | ⟨1, _⟩ => show win5_1.index t (1 : Fin 2) * 64 + 1 * k.val = k.val; omega

/-- The matrix's block at every point is the whole matrix. -/
theorem matrix_at (c : Dev nD) (t : Fin cfg5.N) (k : Fin 64) (q : Fin 64) :
    iblk5 V c 2 t (ix2 k q) = V c main_v115 (ix2 k q) := by
  obtain ⟨-, -, -, -, e0, e1, -, -, -, -⟩ := block_indices t
  show V c main_v115 (((cfg5.win 2).blk t).view.emb (ix2 k q)) = V c main_v115 (ix2 k q)
  refine congrArg _ ?_
  funext a; apply Fin.ext
  match a with
  | ⟨0, _⟩ => show win5_2.index t (0 : Fin 2) * 64 + 1 * k.val = k.val; omega
  | ⟨1, _⟩ => show win5_2.index t (1 : Fin 2) * 64 + 1 * q.val = q.val; omega

/-- Entry (p, q) of the first output's block at point t sits in its array at row 5000·t + p, column q. -/
theorem first_out_at (t : Fin cfg5.N) (p : Fin 5000) (q : Fin 64) (r : Fin 50000)
    (hr : r.val = t.val * 5000 + p.val) : ((cfg5.win 3).blk t).view.emb (ix2 p q) = ix2 r q := by
  obtain ⟨-, -, -, -, -, -, e0, e1, -, -⟩ := block_indices t
  funext a; apply Fin.ext
  match a with
  | ⟨0, _⟩ => show win5_3.index t (0 : Fin 2) * 5000 + 1 * p.val = r.val; omega
  | ⟨1, _⟩ => show win5_3.index t (1 : Fin 2) * 64 + 1 * q.val = q.val; omega

/-- The same for the second output's block. -/
theorem second_out_at (t : Fin cfg5.N) (p : Fin 5000) (q : Fin 64) (r : Fin 50000)
    (hr : r.val = t.val * 5000 + p.val) : ((cfg5.win 4).blk t).view.emb (ix2 p q) = ix2 r q := by
  obtain ⟨-, -, -, -, -, -, -, -, e0, e1⟩ := block_indices t
  funext a; apply Fin.ext
  match a with
  | ⟨0, _⟩ => show win5_4.index t (0 : Fin 2) * 5000 + 1 * p.val = r.val; omega
  | ⟨1, _⟩ => show win5_4.index t (1 : Fin 2) * 64 + 1 * q.val = q.val; omega

/-! ## What a point writes back -/

/-- Point t writes back block t of the first array's projection: its rows are rows of the input's block t, and a row
    of the projection reads that row of the input alone. -/
theorem first_flushed (c : Dev nD) (t : Fin cfg5.N) :
    (dat5 (F := Ideal) V c).flushed 3 t
      = ((cfg5.win 3).blk t).view.read (Elt Ideal) (Cert.Spec.projLeaky (V c main_v3_0) (V c main_v115)) := by
  show (cfg5.win 3).cut (grid5.coords t) ((dat5 V c).after 3 t) = _
  rw [after5_3]
  unfold out5_3
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg5.N = 10 := N_5
  have hr : t.val * 5000 + p.val < 50000 := by have := t.isLt; have := p.isLt; omega
  show k5_pay2 (F := Ideal) (iblk5 V c 2 t) (iblk5 V c 0 t) (ix2 p q)
    = Cert.Spec.projLeaky (V c main_v3_0) (V c main_v115) (((cfg5.win 3).blk t).view.emb (ix2 p q))
  rw [first_out_at t p q ⟨_, hr⟩ rfl]
  exact pay_first_block (V c main_v3_0) (V c main_v115) (iblk5 V c 0 t) (iblk5 V c 2 t) ⟨_, hr⟩ p q
    (fun k => first_in_at V c t p k ⟨_, hr⟩ rfl) (fun k => matrix_at V c t k q)

/-- Point t writes back block t of the second array's projection. -/
theorem second_flushed (c : Dev nD) (t : Fin cfg5.N) :
    (dat5 (F := Ideal) V c).flushed 4 t
      = ((cfg5.win 4).blk t).view.read (Elt Ideal) (Cert.Spec.projLeaky (V c main_v3_1) (V c main_v115)) := by
  show (cfg5.win 4).cut (grid5.coords t) ((dat5 V c).after 4 t) = _
  rw [after5_4]
  unfold out5_4
  rw [View.canon_unit_zero zero_offsets]
  simp only [View.ld_unit_zero (S := S64x64) zero_offsets, View.ld_unit_zero (S := S5000x64) zero_offsets]
  funext j
  obtain ⟨p, q, rfl⟩ : ∃ (p : Fin 5000) (q : Fin 64), j = ix2 p q := ⟨j 0, j 1, eq_ix2 j⟩
  have hN : cfg5.N = 10 := N_5
  have hr : t.val * 5000 + p.val < 50000 := by have := t.isLt; have := p.isLt; omega
  show k5_pay3 (F := Ideal) (iblk5 V c 2 t) (iblk5 V c 1 t) (ix2 p q)
    = Cert.Spec.projLeaky (V c main_v3_1) (V c main_v115) (((cfg5.win 4).blk t).view.emb (ix2 p q))
  rw [second_out_at t p q ⟨_, hr⟩ rfl]
  exact pay_second_block (V c main_v3_1) (V c main_v115) (iblk5 V c 1 t) (iblk5 V c 2 t) ⟨_, hr⟩ p q
    (fun k => second_in_at V c t p k ⟨_, hr⟩ rfl) (fun k => matrix_at V c t k q)

/-! ## The blocks cover the arrays -/

/-- An index of the first output array is in point t's block iff each coordinate is in the block's range. -/
theorem mem_first_block (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v117_0).slice (win5_3.rect t)).set ↔ _
  rw [View.set_slice_whole, Rect.mem_set_unit]
  exact Iff.rfl

/-- The same for the second output array. -/
theorem mem_second_block (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v117_1).slice (win5_4.rect t)).set ↔ _
  rw [View.set_slice_whole, Rect.mem_set_unit]
  exact Iff.rfl

/-- Row r of the first output array lies in the block of point r / 5000, which is written back. -/
theorem first_cover (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e0, e1, -, -⟩ := block_indices t
  refine ⟨t, flush5_3 t, ?_⟩
  rw [mem_first_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The same for the second output array. -/
theorem second_cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, e0, e1⟩ := block_indices t
  refine ⟨t, flush5_4 t, ?_⟩
  rw [mem_second_block]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-! ## The arrays after the region -/

/-- The first output array: the first view projected. -/
theorem arr3 (c : Dev nD) : (dat5 (F := Ideal) V c).arrAt 3 cfg5.N
    = Cert.Spec.projLeaky (V c main_v3_0) (V c main_v115) :=
  (dat5 (F := Ideal) V c).arrAt_eq_of_cover 3 (Cert.Spec.projLeaky (V c main_v3_0) (V c main_v115))
    (fun t _ => first_flushed V c t) first_cover

/-- The second output array: the second view projected. -/
theorem arr4 (c : Dev nD) : (dat5 (F := Ideal) V c).arrAt 4 cfg5.N
    = Cert.Spec.projLeaky (V c main_v3_1) (V c main_v115) :=
  (dat5 (F := Ideal) V c).arrAt_eq_of_cover 4 (Cert.Spec.projLeaky (V c main_v3_1) (V c main_v115))
    (fun t _ => second_flushed V c t) second_cover

end Cert.KernelIdeal.Reg5

end
-- ==== Proof.SimStep5.lean ====
/-
  From the boundary before segment 5 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg5
import proofs.«103739_j26439818674747_2_alg».proof.Proof.RefProj

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e5_v3_0 (hag : Agree m ρ m' c) (h : Inv4 m ρ m' c) : Cert.KernelIdeal.GenP.W17 m ρ c (Proc.devRef .tc Cert.KernelIdeal.main_v3_0) = Cert.Sim.RC m' c (Proc.devRef .tc Cert.ReferenceIdeal.main_v57) := by
  have hd := h; obtain ⟨h_v3_0, h_v3_1, h_v58_0, h_v58_1, h_v59_0, h_v59_1, h_v60, h_v61, h_v87, h_v113, h_v115, h_v116_0, h_v116_1⟩ := hd
  exact h_v3_0

theorem e5_v3_1 (hag : Agree m ρ m' c) (h : Inv4 m ρ m' c) : Cert.KernelIdeal.GenP.W17 m ρ c (Proc.devRef .tc Cert.KernelIdeal.main_v3_1) = Cert.Sim.RC m' c (Proc.devRef .tc Cert.ReferenceIdeal.main_v63) := by
  have hd := h; obtain ⟨h_v3_0, h_v3_1, h_v58_0, h_v58_1, h_v59_0, h_v59_1, h_v60, h_v61, h_v87, h_v113, h_v115, h_v116_0, h_v116_1⟩ := hd
  exact h_v3_1

theorem e5_v58_0 (hag : Agree m ρ m' c) (h : Inv4 m ρ m' c) : Cert.KernelIdeal.GenP.W17 m ρ c (Proc.devRef .tc Cert.KernelIdeal.main_v58_0) = Cert.Sim.RC m' c (Proc.devRef .tc Cert.ReferenceIdeal.main_v123) := by
  have hd := h; obtain ⟨h_v3_0, h_v3_1, h_v58_0, h_v58_1, h_v59_0, h_v59_1, h_v60, h_v61, h_v87, h_v113, h_v115, h_v116_0, h_v116_1⟩ := hd
  exact h_v58_0

theorem e5_v58_1 (hag : Agree m ρ m' c) (h : Inv4 m ρ m' c) : Cert.KernelIdeal.GenP.W17 m ρ c (Proc.devRef .tc Cert.KernelIdeal.main_v58_1) = Cert.Sim.RC m' c (Proc.devRef .tc Cert.ReferenceIdeal.main_v135) := by
  have hd := h; obtain ⟨h_v3_0, h_v3_1, h_v58_0, h_v58_1, h_v59_0, h_v59_1, h_v60, h_v61, h_v87, h_v113, h_v115, h_v116_0, h_v116_1⟩ := hd
  exact h_v58_1

theorem e5_v59_0 (hag : Agree m ρ m' c) (h : Inv4 m ρ m' c) : Cert.KernelIdeal.GenP.W17 m ρ c (Proc.devRef .tc Cert.KernelIdeal.main_v59_0) = Cert.Sim.RC m' c (Proc.devRef .tc Cert.ReferenceIdeal.main_v129) := by
  have hd := h; obtain ⟨h_v3_0, h_v3_1, h_v58_0, h_v58_1, h_v59_0, h_v59_1, h_v60, h_v61, h_v87, h_v113, h_v115, h_v116_0, h_v116_1⟩ := hd
  exact h_v59_0

theorem e5_v59_1 (hag : Agree m ρ m' c) (h : Inv4 m ρ m' c) : Cert.KernelIdeal.GenP.W17 m ρ c (Proc.devRef .tc Cert.KernelIdeal.main_v59_1) = Cert.Sim.RC m' c (Proc.devRef .tc Cert.ReferenceIdeal.main_v141) := by
  have hd := h; obtain ⟨h_v3_0, h_v3_1, h_v58_0, h_v58_1, h_v59_0, h_v59_1, h_v60, h_v61, h_v87, h_v113, h_v115, h_v116_0, h_v116_1⟩ := hd
  exact h_v59_1

theorem e5_v60 (hag : Agree m ρ m' c) (h : Inv4 m ρ m' c) : Cert.KernelIdeal.GenP.W17 m ρ c (Proc.devRef .tc Cert.KernelIdeal.main_v60) = Cert.Sim.RC m' c (Proc.devRef .tc Cert.ReferenceIdeal.main_v142) := by
  have hd := h; obtain ⟨h_v3_0, h_v3_1, h_v58_0, h_v58_1, h_v59_0, h_v59_1, h_v60, h_v61, h_v87, h_v113, h_v115, h_v116_0, h_v116_1⟩ := hd
  exact h_v60

theorem e5_v61 (hag : Agree m ρ m' c) (h : Inv4 m ρ m' c) : Cert.KernelIdeal.GenP.W17 m ρ c (Proc.devRef .tc Cert.KernelIdeal.main_v61) = Cert.Sim.RC m' c (Proc.devRef .tc Cert.ReferenceIdeal.main_v143) := by
  have hd := h; obtain ⟨h_v3_0, h_v3_1, h_v58_0, h_v58_1, h_v59_0, h_v59_1, h_v60, h_v61, h_v87, h_v113, h_v115, h_v116_0, h_v116_1⟩ := hd
  exact h_v61

theorem e5_v87 (hag : Agree m ρ m' c) (h : Inv4 m ρ m' c) : Cert.KernelIdeal.GenP.W17 m ρ c (Proc.devRef .tc Cert.KernelIdeal.main_v87) = Cert.Sim.RC m' c (Proc.devRef .tc Cert.ReferenceIdeal.main_v169) := by
  have hd := h; obtain ⟨h_v3_0, h_v3_1, h_v58_0, h_v58_1, h_v59_0, h_v59_1, h_v60, h_v61, h_v87, h_v113, h_v115, h_v116_0, h_v116_1⟩ := hd
  exact h_v87

theorem e5_v113 (hag : Agree m ρ m' c) (h : Inv4 m ρ m' c) : Cert.KernelIdeal.GenP.W17 m ρ c (Proc.devRef .tc Cert.KernelIdeal.main_v113) = Cert.Sim.RC m' c (Proc.devRef .tc Cert.ReferenceIdeal.main_v195) := by
  have hd := h; obtain ⟨h_v3_0, h_v3_1, h_v58_0, h_v58_1, h_v59_0, h_v59_1, h_v60, h_v61, h_v87, h_v113, h_v115, h_v116_0, h_v116_1⟩ := hd
  exact h_v113

theorem e5_v115 (hag : Agree m ρ m' c) (h : Inv4 m ρ m' c) : Cert.KernelIdeal.GenP.W17 m ρ c (Proc.devRef .tc Cert.KernelIdeal.main_v115) = Cert.Sim.RC m' c (Proc.devRef .tc Cert.ReferenceIdeal.main_v197) := by
  have hd := h; obtain ⟨h_v3_0, h_v3_1, h_v58_0, h_v58_1, h_v59_0, h_v59_1, h_v60, h_v61, h_v87, h_v113, h_v115, h_v116_0, h_v116_1⟩ := hd
  exact h_v115

theorem e5_v116_0 (hag : Agree m ρ m' c) (h : Inv4 m ρ m' c) : Cert.KernelIdeal.GenP.W17 m ρ c (Proc.devRef .tc Cert.KernelIdeal.main_v116_0) = Cert.Sim.RC m' c (Proc.devRef .tc Cert.ReferenceIdeal.main_v203) := by
  have hd := h; obtain ⟨h_v3_0, h_v3_1, h_v58_0, h_v58_1, h_v59_0, h_v59_1, h_v60, h_v61, h_v87, h_v113, h_v115, h_v116_0, h_v116_1⟩ := hd
  exact h_v116_0

theorem e5_v116_1 (hag : Agree m ρ m' c) (h : Inv4 m ρ m' c) : Cert.KernelIdeal.GenP.W17 m ρ c (Proc.devRef .tc Cert.KernelIdeal.main_v116_1) = Cert.Sim.RC m' c (Proc.devRef .tc Cert.ReferenceIdeal.main_v215) := by
  have hd := h; obtain ⟨h_v3_0, h_v3_1, h_v58_0, h_v58_1, h_v59_0, h_v59_1, h_v60, h_v61, h_v87, h_v113, h_v115, h_v116_0, h_v116_1⟩ := hd
  exact h_v116_1

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 5. -/
theorem p5_v117_0 (hag : Agree (F := Ideal) m ρ m' c) (h : Inv4 (F := Ideal) m ρ m' c) : Cert.KernelIdeal.GenP.W18 m ρ c (Proc.devRef .tc Cert.KernelIdeal.main_v117_0) = Cert.Sim.RC m' c (Proc.devRef .tc Cert.ReferenceIdeal.main_v209) := by
  refine (Cert.KernelIdeal.GenP.W18_arr m ρ c 3).trans ?_
  rw [Cert.KernelIdeal.Reg5.arr3 (Cert.KernelIdeal.GenP.V17 m ρ) c]
  have hr : Cert.Sim.RC m' c (Proc.devRef .tc Cert.ReferenceIdeal.main_v209) = Cert.ReferenceIdeal.RefProj.chainV (Cert.Sim.RC m' c (Proc.devRef .tc Cert.ReferenceIdeal.main_v57)) (Cert.Sim.RC m' c (Proc.devRef .tc Cert.ReferenceIdeal.main_v197)) := by
    rw [RC_def m' c]; simp only [cC]; after_results_simp; rfl
  rw [hr, Cert.ReferenceIdeal.RefProj.chainV_eq]
  show Cert.Spec.projLeaky (Cert.KernelIdeal.GenP.W17 m ρ c (Proc.devRef .tc Cert.KernelIdeal.main_v3_0)) (Cert.KernelIdeal.GenP.W17 m ρ c (Proc.devRef .tc Cert.KernelIdeal.main_v115)) = _
  rw [e5_v3_0 m ρ m' c hag h, e5_v115 m ρ m' c hag h]

/-- Output 1 of region 5. -/
theorem p5_v117_1 (hag : Agree (F := Ideal) m ρ m' c) (h : Inv4 (F := Ideal) m ρ m' c) : Cert.KernelIdeal.GenP.W18 m ρ c (Proc.devRef .tc Cert.KernelIdeal.main_v117_1) = Cert.Sim.RC m' c (Proc.devRef .tc Cert.ReferenceIdeal.main_v221) := by
  refine (Cert.KernelIdeal.GenP.W18_arr m ρ c 4).trans ?_
  rw [Cert.KernelIdeal.Reg5.arr4 (Cert.KernelIdeal.GenP.V17 m ρ) c]
  have hr : Cert.Sim.RC m' c (Proc.devRef .tc Cert.ReferenceIdeal.main_v221) = Cert.ReferenceIdeal.RefProj.chainV (Cert.Sim.RC m' c (Proc.devRef .tc Cert.ReferenceIdeal.main_v63)) (Cert.Sim.RC m' c (Proc.devRef .tc Cert.ReferenceIdeal.main_v197)) := by
    rw [RC_def m' c]; simp only [cC]; after_results_simp; rfl
  rw [hr, Cert.ReferenceIdeal.RefProj.chainV_eq]
  show Cert.Spec.projLeaky (Cert.KernelIdeal.GenP.W17 m ρ c (Proc.devRef .tc Cert.KernelIdeal.main_v3_1)) (Cert.KernelIdeal.GenP.W17 m ρ c (Proc.devRef .tc Cert.KernelIdeal.main_v115)) = _
  rw [e5_v3_1 m ρ m' c hag h, e5_v115 m ρ m' c hag h]

theorem x5_v58_0 (hag : Agree (F := Ideal) m ρ m' c) (h : Inv4 (F := Ideal) m ρ m' c) : Cert.KernelIdeal.GenP.W18 m ρ c (Proc.devRef .tc Cert.KernelIdeal.main_v58_0) = Cert.Sim.RC m' c (Proc.devRef .tc Cert.ReferenceIdeal.main_v123) := by
  rw [Cert.KernelIdeal.GenP.W18_of_ne m ρ c Cert.KernelIdeal.main_v58_0 (by decide)]
  exact e5_v58_0 m ρ m' c hag h

theorem x5_v58_1 (hag : Agree (F := Ideal) m ρ m' c) (h : Inv4 (F := Ideal) m ρ m' c) : Cert.KernelIdeal.GenP.W18 m ρ c (Proc.devRef .tc Cert.KernelIdeal.main_v58_1) = Cert.Sim.RC m' c (Proc.devRef .tc Cert.ReferenceIdeal.main_v135) := by
  rw [Cert.KernelIdeal.GenP.W18_of_ne m ρ c Cert.KernelIdeal.main_v58_1 (by decide)]
  exact e5_v58_1 m ρ m' c hag h

theorem x5_v59_0 (hag : Agree (F := Ideal) m ρ m' c) (h : Inv4 (F := Ideal) m ρ m' c) : Cert.KernelIdeal.GenP.W18 m ρ c (Proc.devRef .tc Cert.KernelIdeal.main_v59_0) = Cert.Sim.RC m' c (Proc.devRef .tc Cert.ReferenceIdeal.main_v129) := by
  rw [Cert.KernelIdeal.GenP.W18_of_ne m ρ c Cert.KernelIdeal.main_v59_0 (by decide)]
  exact e5_v59_0 m ρ m' c hag h

theorem x5_v59_1 (hag : Agree (F := Ideal) m ρ m' c) (h : Inv4 (F := Ideal) m ρ m' c) : Cert.KernelIdeal.GenP.W18 m ρ c (Proc.devRef .tc Cert.KernelIdeal.main_v59_1) = Cert.Sim.RC m' c (Proc.devRef .tc Cert.ReferenceIdeal.main_v141) := by
  rw [Cert.KernelIdeal.GenP.W18_of_ne m ρ c Cert.KernelIdeal.main_v59_1 (by decide)]
  exact e5_v59_1 m ρ m' c hag h

theorem x5_v60 (hag : Agree (F := Ideal) m ρ m' c) (h : Inv4 (F := Ideal) m ρ m' c) : Cert.KernelIdeal.GenP.W18 m ρ c (Proc.devRef .tc Cert.KernelIdeal.main_v60) = Cert.Sim.RC m' c (Proc.devRef .tc Cert.ReferenceIdeal.main_v142) := by
  rw [Cert.KernelIdeal.GenP.W18_of_ne m ρ c Cert.KernelIdeal.main_v60 (by decide)]
  exact e5_v60 m ρ m' c hag h

theorem x5_v61 (hag : Agree (F := Ideal) m ρ m' c) (h : Inv4 (F := Ideal) m ρ m' c) : Cert.KernelIdeal.GenP.W18 m ρ c (Proc.devRef .tc Cert.KernelIdeal.main_v61) = Cert.Sim.RC m' c (Proc.devRef .tc Cert.ReferenceIdeal.main_v143) := by
  rw [Cert.KernelIdeal.GenP.W18_of_ne m ρ c Cert.KernelIdeal.main_v61 (by decide)]
  exact e5_v61 m ρ m' c hag h

theorem x5_v87 (hag : Agree (F := Ideal) m ρ m' c) (h : Inv4 (F := Ideal) m ρ m' c) : Cert.KernelIdeal.GenP.W18 m ρ c (Proc.devRef .tc Cert.KernelIdeal.main_v87) = Cert.Sim.RC m' c (Proc.devRef .tc Cert.ReferenceIdeal.main_v169) := by
  rw [Cert.KernelIdeal.GenP.W18_of_ne m ρ c Cert.KernelIdeal.main_v87 (by decide)]
  exact e5_v87 m ρ m' c hag h

theorem x5_v113 (hag : Agree (F := Ideal) m ρ m' c) (h : Inv4 (F := Ideal) m ρ m' c) : Cert.KernelIdeal.GenP.W18 m ρ c (Proc.devRef .tc Cert.KernelIdeal.main_v113) = Cert.Sim.RC m' c (Proc.devRef .tc Cert.ReferenceIdeal.main_v195) := by
  rw [Cert.KernelIdeal.GenP.W18_of_ne m ρ c Cert.KernelIdeal.main_v113 (by decide)]
  exact e5_v113 m ρ m' c hag h

theorem x5_v116_0 (hag : Agree (F := Ideal) m ρ m' c) (h : Inv4 (F := Ideal) m ρ m' c) : Cert.KernelIdeal.GenP.W18 m ρ c (Proc.devRef .tc Cert.KernelIdeal.main_v116_0) = Cert.Sim.RC m' c (Proc.devRef .tc Cert.ReferenceIdeal.main_v203) := by
  rw [Cert.KernelIdeal.GenP.W18_of_ne m ρ c Cert.KernelIdeal.main_v116_0 (by decide)]
  exact e5_v116_0 m ρ m' c hag h

theorem x5_v116_1 (hag : Agree (F := Ideal) m ρ m' c) (h : Inv4 (F := Ideal) m ρ m' c) : Cert.KernelIdeal.GenP.W18 m ρ c (Proc.devRef .tc Cert.KernelIdeal.main_v116_1) = Cert.Sim.RC m' c (Proc.devRef .tc Cert.ReferenceIdeal.main_v215) := by
  rw [Cert.KernelIdeal.GenP.W18_of_ne m ρ c Cert.KernelIdeal.main_v116_1 (by decide)]
  exact e5_v116_1 m ρ m' c hag h

/-- The boundary's agreement is kept across segment 5. -/
theorem step5 (hag : Agree (F := Ideal) m ρ m' c) (h : Inv4 (F := Ideal) m ρ m' c) : Inv5 (F := Ideal) m ρ m' c :=
  ⟨x5_v58_0 m ρ m' c hag h,
   x5_v58_1 m ρ m' c hag h,
   x5_v59_0 m ρ m' c hag h,
   x5_v59_1 m ρ m' c hag h,
   x5_v60 m ρ m' c hag h,
   x5_v61 m ρ m' c hag h,
   x5_v87 m ρ m' c hag h,
   x5_v113 m ρ m' c hag h,
   x5_v116_0 m ρ m' c hag h,
   x5_v116_1 m ρ m' c hag h,
   p5_v117_0 m ρ m' c hag h,
   p5_v117_1 m ρ m' c hag h⟩

end AtIdeal

end Cert.Sim

end
-- ==== Proof.Reg6.lean ====
/-
  Region 6 (contrastive scores of one batch, a single grid point): the two output columns after the region are the
  positive and the negative scores of the two normalised views through W, row by row.

  First the body's two stored values are read index by index: each product at (r, q) is a sum over the contracted axis,
  the transpose swaps coordinates, each lane sum is a sum over the row, the column cast keeps the row, every format
  change is the identity over the extended reals. Then the region's one grid point writes back each output's whole array,
  and every window's block is its whole array, so the arrays end holding those values.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg6

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The two products' operand indices, axis by axis -/

theorem lhs_proj_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_proj_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q

theorem rhs_proj_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q

theorem rhs_proj_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A row of the left operand against a column of the right one. -/
theorem proj_apply (g : FVec Ideal S2048x64 .bf16) (W : FVec Ideal S64x64 .bf16) (r : Fin 2048) (q : Fin 64) :
    matmul dot_S2048x64_S64x64_S2048x64_1_0_0_1_n_n none g W (constant (F := Ideal) S2048x64 .f32 0x00000000#32) (ix2 r q)
      = ∑ k : Fin 64, g (ix2 r k) * W (ix2 k q) := by
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q)
      ((contrEquiv1 dot_S2048x64_S64x64_S2048x64_1_0_0_1_n_n 64 rfl rfl).symm k) = ix2 r k :=
    funext fun a => Fin.ext (by
      match a with
      | ⟨0, _⟩ => exact lhs_proj_0 _ _
      | ⟨1, _⟩ => exact (lhs_proj_1 _ _).trans hk)
  have er : dot_S2048x64_S64x64_S2048x64_1_0_0_1_n_n.rhsIdx (ix2 r q)
      ((contrEquiv1 dot_S2048x64_S64x64_S2048x64_1_0_0_1_n_n 64 rfl rfl).symm k) = ix2 k q :=
    funext fun a => Fin.ext (by
      match a with
      | ⟨0, _⟩ => exact (rhs_proj_0 _ _).trans hk
      | ⟨1, _⟩ => exact rhs_proj_1 _ _)
  rw [el, er]

theorem lhs_sim_0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

theorem lhs_sim_1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q

theorem rhs_sim_0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q

theorem rhs_sim_1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- A row of the left operand against a column of the (already transposed) right one. -/
theorem sim_apply (a : FVec Ideal S2048x64 .bf16) (b : FVec Ideal S64x2048 .bf16) (r j : Fin 2048) :
    matmul dot_S2048x64_S64x2048_S2048x2048_1_0_0_1_n_n none a b (constant (F := Ideal) S2048x2048 .f32 0x00000000#32) (ix2 r j)
      = ∑ q : Fin 64, a (ix2 r q) * b (ix2 q j) := by
  simp only [matmul]
  rw [Ideal.matmul_constant_zero_apply,
    ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 r j)
      ((contrEquiv1 dot_S2048x64_S64x2048_S2048x2048_1_0_0_1_n_n 64 rfl rfl).symm k) = ix2 r k :=
    funext fun x => Fin.ext (by
      match x with
      | ⟨0, _⟩ => exact lhs_sim_0 _ _
      | ⟨1, _⟩ => exact (lhs_sim_1 _ _).trans hk)
  have er : dot_S2048x64_S64x2048_S2048x2048_1_0_0_1_n_n.rhsIdx (ix2 r j)
      ((contrEquiv1 dot_S2048x64_S64x2048_S2048x2048_1_0_0_1_n_n 64 rfl rfl).symm k) = ix2 k j :=
    funext fun x => Fin.ext (by
      match x with
      | ⟨0, _⟩ => exact (rhs_sim_0 _ _).trans hk
      | ⟨1, _⟩ => exact rhs_sim_1 _ _)
  rw [el, er]

/-! ## Lane sums and the column cast -/

/-- A sum along the rows of a 2048 × 64 array, at row r. -/
theorem lane_sum64 (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ k : Fin 64, src (ix2 r k) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A sum along the rows of a 2048 × 2048 array, at row r. -/
theorem lane_sum2048 (src : FVec Ideal S2048x2048 .f32) (h : S2048x2048.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ j : Fin 2048, src (ix2 r j) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A vector cast to a one-column array reads, at (i, u), the vector at i. -/
theorem col_of_lane {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## The body's values, index by index -/

/-- The weight as the products read it: every format change is the identity. -/
theorem pay1_apply (W : Vec Ideal S64x64 .f32) (i : S64x64.Idx) : k6_pay1 (F := Ideal) W i = W i := by
  unfold k6_pay1
  simp only [truncf_apply, shapeCast_self]

/-- The first view through the weight, at (r, q). -/
theorem pay2_apply (g : Vec Ideal S2048x64 .f32) (W : Vec Ideal S64x64 .f32) (r : Fin 2048) (q : Fin 64) :
    k6_pay2 (F := Ideal) g W (ix2 r q) = ∑ k : Fin 64, g (ix2 r k) * W (ix2 k q) := by
  unfold k6_pay2
  refine (proj_apply _ _ r q).trans ?_
  refine Finset.sum_congr rfl fun k _ => ?_
  rw [truncf_apply, shapeCast_self, pay1_apply]

/-- The second view through the weight, at (r, q). -/
theorem pay3_apply (g : Vec Ideal S2048x64 .f32) (W : Vec Ideal S64x64 .f32) (r : Fin 2048) (q : Fin 64) :
    k6_pay3 (F := Ideal) g W (ix2 r q) = ∑ k : Fin 64, g (ix2 r k) * W (ix2 k q) := by
  unfold k6_pay3
  refine (proj_apply _ _ r q).trans ?_
  refine Finset.sum_congr rfl fun k _ => ?_
  rw [truncf_apply, shapeCast_self, pay1_apply]

/-- The positive score's column, at row r. -/
theorem pay5_apply (g1 g2 : Vec Ideal S2048x64 .f32) (W : Vec Ideal S64x64 .f32) (r : Fin 2048) (u : Fin 1) :
    k6_pay5 (F := Ideal) g1 g2 W (ix2 r u)
      = Ideal.exp (Ideal.div (∑ q : Fin 64, (∑ k : Fin 64, g1 (ix2 r k) * W (ix2 k q)) * (∑ k : Fin 64, g2 (ix2 r k) * W (ix2 k q)))
          (Ideal.ofBits .f32 0x3E4CCCCD#32)) := by
  unfold k6_pay5
  show Ideal.exp (Ideal.div (shapeCast S2048x1 _ _ (ix2 r u)) (Ideal.ofBits .f32 0x3E4CCCCD#32)) = _
  rw [col_of_lane]
  refine congrArg (fun z => Ideal.exp (Ideal.div z _)) ?_
  refine (lane_sum64 _ _ _ _ r).trans ?_
  refine Finset.sum_congr rfl fun q _ => ?_
  rw [mulf_apply, pay2_apply, pay3_apply]

/-- The negative score's column, at row r. -/
theorem pay4_apply (g1 g2 : Vec Ideal S2048x64 .f32) (W : Vec Ideal S64x64 .f32) (r : Fin 2048) (u : Fin 1) :
    k6_pay4 (F := Ideal) g1 g2 W (ix2 r u)
      = ∑ j : Fin 2048, Ideal.exp (Ideal.div
          (∑ q : Fin 64, (∑ k : Fin 64, g1 (ix2 r k) * W (ix2 k q)) * (∑ k : Fin 64, g2 (ix2 j k) * W (ix2 k q)))
          (Ideal.ofBits .f32 0x3E4CCCCD#32)) := by
  unfold k6_pay4
  show shapeCast S2048x1 _ _ (ix2 r u) = _
  rw [col_of_lane]
  refine (lane_sum2048 _ _ _ _ r).trans ?_
  refine Finset.sum_congr rfl fun j _ => ?_
  show Ideal.exp (Ideal.div (matmul (F := Ideal) _ none _ _ _ (ix2 r j)) (Ideal.ofBits .f32 0x3E4CCCCD#32)) = _
  refine congrArg (fun z => Ideal.exp (Ideal.div z _)) ?_
  refine (sim_apply _ _ r j).trans ?_
  refine Finset.sum_congr rfl fun q _ => ?_
  rw [truncf_apply, pay2_apply, transpose_ix2_apply, truncf_apply, pay3_apply]

/-- The positive score at a row, from the body's loads. -/
theorem pos_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k6_pay5 (F := Ideal) x0 x1 x2 j = Cert.Spec.clPos g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay5_apply]
  rfl

/-- The negative score at a row, from the body's loads. -/
theorem neg_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k6_pay4 (F := Ideal) x0 x1 x2 j = Cert.Spec.clNeg g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay4_apply]
  rfl

/-! ## From the one grid point to the arrays -/

-- the TensorCore's buffer contents when the region is entered
variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl

/-- Every window's block index is zero on both axes at every point: each block is its whole array. -/
theorem blocks_at_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The first view's block is its array. -/
theorem blk0_eq (c : Dev nD) (t : Fin cfg6.N) : iblk6 (F := Ideal) V c 0 t = V c main_v150 := by
  obtain ⟨e0, e1, -⟩ := blocks_at_zero t
  funext y
  show V c main_v150 (((cfg6.win 0).blk t).view.emb y) = V c main_v150 y
  refine congrArg (V c main_v150) (funext fun a => Fin.ext ?_)
  match a with
  | ⟨0, _⟩ => show win6_0.index t (0 : Fin 2) * 2048 + 1 * (y 0).val = (y 0).val; omega
  | ⟨1, _⟩ => show win6_0.index t (1 : Fin 2) * 64 + 1 * (y 1).val = (y 1).val; omega

/-- The second view's block is its array. -/
theorem blk1_eq (c : Dev nD) (t : Fin cfg6.N) : iblk6 (F := Ideal) V c 1 t = V c main_v165 := by
  obtain ⟨-, -, e0, e1, -⟩ := blocks_at_zero t
  funext y
  show V c main_v165 (((cfg6.win 1).blk t).view.emb y) = V c main_v165 y
  refine congrArg (V c main_v165) (funext fun a => Fin.ext ?_)
  match a with
  | ⟨0, _⟩ => show win6_1.index t (0 : Fin 2) * 2048 + 1 * (y 0).val = (y 0).val; omega
  | ⟨1, _⟩ => show win6_1.index t (1 : Fin 2) * 64 + 1 * (y 1).val = (y 1).val; omega

/-- The weight's block is its array. -/
theorem blk2_eq (c : Dev nD) (t : Fin cfg6.N) : iblk6 (F := Ideal) V c 2 t = V c main_v129 := by
  obtain ⟨-, -, -, -, e0, e1, -⟩ := blocks_at_zero t
  funext y
  show V c main_v129 (((cfg6.win 2).blk t).view.emb y) = V c main_v129 y
  refine congrArg (V c main_v129) (funext fun a => Fin.ext ?_)
  match a with
  | ⟨0, _⟩ => show win6_2.index t (0 : Fin 2) * 64 + 1 * (y 0).val = (y 0).val; omega
  | ⟨1, _⟩ => show win6_2.index t (1 : Fin 2) * 64 + 1 * (y 1).val = (y 1).val; omega

/-- What a point writes back to the first output is its block of the positive scores. -/
theorem flushed3_eq (c : Dev nD) (t : Fin cfg6.N) :
    (dat6 (F := Ideal) V c).flushed 3 t = ((cfg6.win 3).blk t).view.read (Elt Ideal)
      (fun i => Cert.Spec.clPos (V c main_v150) (V c main_v165) (V c main_v129) (i 0)) := by
  show (cfg6.win 3).cut (grid6.coords t) ((dat6 (F := Ideal) V c).after 3 t) = _
  rw [after6_3]
  unfold out6_3
  rw [View.canon_unit_zero zeros2]
  simp only [View.ld_unit_zero (S := S2048x64) zeros2, View.ld_unit_zero (S := S64x64) zeros2]
  obtain ⟨-, -, -, -, -, -, e0, e1, -⟩ := blocks_at_zero t
  funext j
  show k6_pay5 (F := Ideal) (iblk6 V c 0 t) (iblk6 V c 1 t) (iblk6 V c 2 t) j
    = Cert.Spec.clPos (V c main_v150) (V c main_v165) (V c main_v129) ((((cfg6.win 3).blk t).view.emb j : S2048x1.Idx) 0)
  refine pos_at _ _ _ _ _ _ (blk0_eq V c t) (blk1_eq V c t) (blk2_eq V c t) j _ ?_
  show ((j : S2048x1.Idx) 0).val = win6_3.index t (0 : Fin 2) * 2048 + 1 * ((j : S2048x1.Idx) 0).val
  omega

/-- What a point writes back to the second output is its block of the negative scores. -/
theorem flushed4_eq (c : Dev nD) (t : Fin cfg6.N) :
    (dat6 (F := Ideal) V c).flushed 4 t = ((cfg6.win 4).blk t).view.read (Elt Ideal)
      (fun i => Cert.Spec.clNeg (V c main_v150) (V c main_v165) (V c main_v129) (i 0)) := by
  show (cfg6.win 4).cut (grid6.coords t) ((dat6 (F := Ideal) V c).after 4 t) = _
  rw [after6_4]
  unfold out6_4
  rw [View.canon_unit_zero zeros2]
  simp only [View.ld_unit_zero (S := S2048x64) zeros2, View.ld_unit_zero (S := S64x64) zeros2]
  obtain ⟨-, -, -, -, -, -, -, -, e0, e1⟩ := blocks_at_zero t
  funext j
  show k6_pay4 (F := Ideal) (iblk6 V c 0 t) (iblk6 V c 1 t) (iblk6 V c 2 t) j
    = Cert.Spec.clNeg (V c main_v150) (V c main_v165) (V c main_v129) ((((cfg6.win 4).blk t).view.emb j : S2048x1.Idx) 0)
  refine neg_at _ _ _ _ _ _ (blk0_eq V c t) (blk1_eq V c t) (blk2_eq V c t) j _ ?_
  show ((j : S2048x1.Idx) 0).val = win6_4.index t (0 : Fin 2) * 2048 + 1 * ((j : S2048x1.Idx) 0).val
  omega

/-- An index of the first output is in a point's block iff each coordinate is in the block's range on its axis. -/
theorem mem_blk3 (t : Fin cfg6.N) (i : S2048x1.Idx) :
    i ∈ ((cfg6.win 3).blk t).view.set ↔ ∀ a : Fin 2, win6_3.index t a * S2048x1.size a ≤ (i a).val
      ∧ (i a).val < win6_3.index t a * S2048x1.size a + S2048x1.size a := by
  show i ∈ ((View.whole main_v166_0).slice (win6_3.rect t)).set ↔ _
  rw [View.set_slice_whole, Rect.mem_set_unit]
  exact Iff.rfl

/-- The same for the second output. -/
theorem mem_blk4 (t : Fin cfg6.N) (i : S2048x1.Idx) :
    i ∈ ((cfg6.win 4).blk t).view.set ↔ ∀ a : Fin 2, win6_4.index t a * S2048x1.size a ≤ (i a).val
      ∧ (i a).val < win6_4.index t a * S2048x1.size a + S2048x1.size a := by
  show i ∈ ((View.whole main_v166_1).slice (win6_4.rect t)).set ↔ _
  rw [View.set_slice_whole, Rect.mem_set_unit]
  exact Iff.rfl

/-- The one point's block covers the first output. -/
theorem cover3 (i : S2048x1.Idx) :
    ∃ t : Fin cfg6.N, (cfg6.win 3).flush t = true ∧ i ∈ ((cfg6.win 3).blk t).view.set := by
  refine ⟨t6_0, flush6_3 _, ?_⟩
  obtain ⟨-, -, -, -, -, -, e0, e1, -⟩ := blocks_at_zero t6_0
  rw [mem_blk3]
  intro a
  have h0 : (i 0).val < 2048 := (i 0).isLt
  have h1 : (i 1).val < 1 := (i 1).isLt
  match a with
  | ⟨0, _⟩ =>
    show win6_3.index t6_0 (0 : Fin 2) * 2048 ≤ (i 0).val ∧ (i 0).val < win6_3.index t6_0 (0 : Fin 2) * 2048 + 2048
    omega
  | ⟨1, _⟩ =>
    show win6_3.index t6_0 (1 : Fin 2) * 1 ≤ (i 1).val ∧ (i 1).val < win6_3.index t6_0 (1 : Fin 2) * 1 + 1
    omega

/-- The one point's block covers the second output. -/
theorem cover4 (i : S2048x1.Idx) :
    ∃ t : Fin cfg6.N, (cfg6.win 4).flush t = true ∧ i ∈ ((cfg6.win 4).blk t).view.set := by
  refine ⟨t6_0, flush6_4 _, ?_⟩
  obtain ⟨-, -, -, -, -, -, -, -, e0, e1⟩ := blocks_at_zero t6_0
  rw [mem_blk4]
  intro a
  have h0 : (i 0).val < 2048 := (i 0).isLt
  have h1 : (i 1).val < 1 := (i 1).isLt
  match a with
  | ⟨0, _⟩ =>
    show win6_4.index t6_0 (0 : Fin 2) * 2048 ≤ (i 0).val ∧ (i 0).val < win6_4.index t6_0 (0 : Fin 2) * 2048 + 2048
    omega
  | ⟨1, _⟩ =>
    show win6_4.index t6_0 (1 : Fin 2) * 1 ≤ (i 1).val ∧ (i 1).val < win6_4.index t6_0 (1 : Fin 2) * 1 + 1
    omega

/-- The positive scores. -/
theorem arr3 (c : Dev nD) : (dat6 (F := Ideal) V c).arrAt 3 cfg6.N
    = fun i => Cert.Spec.clPos (V c main_v150) (V c main_v165) (V c main_v129) (i 0) :=
  (dat6 (F := Ideal) V c).arrAt_eq_of_cover 3 _ (fun t _ => flushed3_eq V c t) cover3

/-- The negative scores. -/
theorem arr4 (c : Dev nD) : (dat6 (F := Ideal) V c).arrAt 4 cfg6.N
    = fun i => Cert.Spec.clNeg (V c main_v150) (V c main_v165) (V c main_v129) (i 0) :=
  (dat6 (F := Ideal) V c).arrAt_eq_of_cover 4 _ (fun t _ => flushed4_eq V c t) cover4

end Cert.KernelIdeal.Reg6

end
-- ==== Proof.RefScores.lean ====
/-
  The reference's contrastive scores, read index by index over the extended reals.

  For two normalised views g1, g2 (2048 × 64) and a weight W (64 × 64) the reference projects both views,
  h = g · W, and computes
    pos[r] = exp((Σ_q h1[r,q] · h2[r,q]) / 0.2)            (the rows' inner product),
    neg[r] = Σ_j exp((Σ_q h1[r,q] · h2[j,q]) / 0.2)        (row r of h1 against every row of h2).
  The two chains of operations are transcribed here as functions of g1, g2 and W, and each is shown equal to
  the specification's closed form: a matrix product at an index is the sum over the contracted coordinate, a
  transpose swaps the coordinates, a row sum from the zero word is the sum over the columns, the temperature's
  word broadcast from a scalar reads the same word everywhere, and the pointwise operations act element by
  element. The sums over the 64 columns and the 2048 rows stay symbolic.
-/
import proofs.«103739_j26439818674747_2_alg».proof.ReferenceIdeal
import proofs.«103739_j26439818674747_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefScores

open Idealize.ShloMosaic Idealize.ShloMosaic.ValueIdx
open Cert.ReferenceIdeal Cert.ReferenceIdeal.Facts₀
open scoped BigOperators

variable [Cert.ReferenceIdeal.Facts]

/-- The positive scores: both views projected through W, the rows' inner products over the temperature, exponentiated. -/
def posChain (g1 g2 : FVec Ideal S2048x64 .f32) (W : FVec Ideal S64x64 .f32) : FVec Ideal S2048 .f32 :=
  Host.exp (Host.divf
    (Host.reduceAdd
      (mulf (Host.dotGeneral dot_S2048x64_S64x64_S2048x64_1_0_0_1_n_n none g1 W)
            (Host.dotGeneral dot_S2048x64_S64x64_S2048x64_1_0_0_1_n_n none g2 W))
      (constant (F := Ideal) S_ .f32 0x00000000#32) reducesTo_S2048x64_S2048_d1 h_S_)
    (broadcastInDim S2048 ![] bcast_S_S2048 (constant (F := Ideal) S_ .f32 0x3E4CCCCD#32)))

/-- The negative scores: every row of the first projected view against every row of the second, over the
    temperature, exponentiated, and summed over the second view's rows. -/
def negChain (g1 g2 : FVec Ideal S2048x64 .f32) (W : FVec Ideal S64x64 .f32) : FVec Ideal S2048 .f32 :=
  Host.reduceAdd
    (Host.exp (Host.divf
      (Host.dotGeneral dot_S2048x64_S64x2048_S2048x2048_1_0_0_1_n_n none
        (Host.dotGeneral dot_S2048x64_S64x64_S2048x64_1_0_0_1_n_n none g1 W)
        (transpose S64x2048 [1, 0] (Host.dotGeneral dot_S2048x64_S64x64_S2048x64_1_0_0_1_n_n none g2 W)
          transposes_S2048x64_S64x2048_1_0))
      (broadcastInDim S2048x2048 ![] bcast_S_S2048x2048 (constant (F := Ideal) S_ .f32 0x3E4CCCCD#32))))
    (constant (F := Ideal) S_ .f32 0x00000000#32) reducesTo_S2048x2048_S2048_d1 h_S_

/-! ## The projection g · W at an index -/

/-- On the row axis the projection's left operand is read at the result's row. -/
theorem projLhs_row (i : S2048x64.Idx) (c : dot_S2048x64_S64x64_S2048x64_1_0_0_1_n_n.contr.Idx) :
    (dot_S2048x64_S64x64_S2048x64_1_0_0_1_n_n.lhsIdx i c 0).val = (i 0).val := by
  unfold DotDims.lhsIdx
  rw [dif_neg (show ¬(0 : Fin S2048x64.rank) ∈ dot_S2048x64_S64x64_S2048x64_1_0_0_1_n_n.lhsBatch from List.not_mem_nil),
    dif_pos (show (0 : Fin S2048x64.rank) ∈ dot_S2048x64_S64x64_S2048x64_1_0_0_1_n_n.lhsNonContracting from List.mem_singleton.mpr rfl)]
  rfl

/-- On the column axis the projection's left operand is read at the contracted coordinate. -/
theorem projLhs_col (i : S2048x64.Idx) (c : dot_S2048x64_S64x64_S2048x64_1_0_0_1_n_n.contr.Idx) :
    (dot_S2048x64_S64x64_S2048x64_1_0_0_1_n_n.lhsIdx i c 1).val = (c ⟨0, Nat.one_pos⟩).val :=
  dot_S2048x64_S64x64_S2048x64_1_0_0_1_n_n.lhsIdx_val_of_single rfl i c

/-- On the row axis W is read at the contracted coordinate. -/
theorem projRhs_row (i : S2048x64.Idx) (c : dot_S2048x64_S64x64_S2048x64_1_0_0_1_n_n.contr.Idx) :
    (dot_S2048x64_S64x64_S2048x64_1_0_0_1_n_n.rhsIdx i c 0).val = (c ⟨0, Nat.one_pos⟩).val :=
  dot_S2048x64_S64x64_S2048x64_1_0_0_1_n_n.rhsIdx_val_of_single rfl i c

/-- On the column axis W is read at the result's column. -/
theorem projRhs_col (i : S2048x64.Idx) (c : dot_S2048x64_S64x64_S2048x64_1_0_0_1_n_n.contr.Idx) :
    (dot_S2048x64_S64x64_S2048x64_1_0_0_1_n_n.rhsIdx i c 1).val = (i 1).val := by
  unfold DotDims.rhsIdx
  rw [dif_neg (show ¬(1 : Fin S64x64.rank) ∈ dot_S2048x64_S64x64_S2048x64_1_0_0_1_n_n.rhsBatch from List.not_mem_nil),
    dif_pos (show (1 : Fin S64x64.rank) ∈ dot_S2048x64_S64x64_S2048x64_1_0_0_1_n_n.rhsNonContracting from List.mem_singleton.mpr rfl)]
  rfl

/-- The projected view at row r, column q: row r of g against column q of W. -/
theorem proj_apply (g : FVec Ideal S2048x64 .f32) (W : FVec Ideal S64x64 .f32) (r : Fin 2048) (q : Fin 64) :
    Host.dotGeneral dot_S2048x64_S64x64_S2048x64_1_0_0_1_n_n none g W (ix2 r q) = Cert.Spec.rowDot g W r q := by
  show FloatOps.dotGeneral _ none _ g W (ix2 r q) = _
  rw [Ideal.dotGeneral_apply,
    ← Equiv.sum_comp (contrEquiv1 dot_S2048x64_S64x64_S2048x64_1_0_0_1_n_n 64 rfl rfl).symm]
  unfold Cert.Spec.rowDot
  refine Finset.sum_congr rfl fun k _ => ?_
  have hk := contrEquiv1_symm_val dot_S2048x64_S64x64_S2048x64_1_0_0_1_n_n 64 rfl rfl k
  have eL : dot_S2048x64_S64x64_S2048x64_1_0_0_1_n_n.lhsIdx (ix2 r q)
      ((contrEquiv1 dot_S2048x64_S64x64_S2048x64_1_0_0_1_n_n 64 rfl rfl).symm k) = ix2 r k :=
    funext fun a => Fin.ext (by
      match a with
      | ⟨0, _⟩ => exact projLhs_row _ _
      | ⟨1, _⟩ => exact (projLhs_col _ _).trans hk)
  have eR : dot_S2048x64_S64x64_S2048x64_1_0_0_1_n_n.rhsIdx (ix2 r q)
      ((contrEquiv1 dot_S2048x64_S64x64_S2048x64_1_0_0_1_n_n 64 rfl rfl).symm k) = ix2 k q :=
    funext fun a => Fin.ext (by
      match a with
      | ⟨0, _⟩ => exact (projRhs_row _ _).trans hk
      | ⟨1, _⟩ => exact projRhs_col _ _)
  rw [eL, eR]

/-! ## All rows against all rows: h1 · h2ᵀ at an index -/

/-- On the row axis the left operand is read at the result's row. -/
theorem pairLhs_row (i : S2048x2048.Idx) (c : dot_S2048x64_S64x2048_S2048x2048_1_0_0_1_n_n.contr.Idx) :
    (dot_S2048x64_S64x2048_S2048x2048_1_0_0_1_n_n.lhsIdx i c 0).val = (i 0).val := by
  unfold DotDims.lhsIdx
  rw [dif_neg (show ¬(0 : Fin S2048x64.rank) ∈ dot_S2048x64_S64x2048_S2048x2048_1_0_0_1_n_n.lhsBatch from List.not_mem_nil),
    dif_pos (show (0 : Fin S2048x64.rank) ∈ dot_S2048x64_S64x2048_S2048x2048_1_0_0_1_n_n.lhsNonContracting from List.mem_singleton.mpr rfl)]
  rfl

/-- On the column axis the left operand is read at the contracted coordinate. -/
theorem pairLhs_col (i : S2048x2048.Idx) (c : dot_S2048x64_S64x2048_S2048x2048_1_0_0_1_n_n.contr.Idx) :
    (dot_S2048x64_S64x2048_S2048x2048_1_0_0_1_n_n.lhsIdx i c 1).val = (c ⟨0, Nat.one_pos⟩).val :=
  dot_S2048x64_S64x2048_S2048x2048_1_0_0_1_n_n.lhsIdx_val_of_single rfl i c

/-- On the row axis the right operand is read at the contracted coordinate. -/
theorem pairRhs_row (i : S2048x2048.Idx) (c : dot_S2048x64_S64x2048_S2048x2048_1_0_0_1_n_n.contr.Idx) :
    (dot_S2048x64_S64x2048_S2048x2048_1_0_0_1_n_n.rhsIdx i c 0).val = (c ⟨0, Nat.one_pos⟩).val :=
  dot_S2048x64_S64x2048_S2048x2048_1_0_0_1_n_n.rhsIdx_val_of_single rfl i c

/-- On the column axis the right operand is read at the result's column. -/
theorem pairRhs_col (i : S2048x2048.Idx) (c : dot_S2048x64_S64x2048_S2048x2048_1_0_0_1_n_n.contr.Idx) :
    (dot_S2048x64_S64x2048_S2048x2048_1_0_0_1_n_n.rhsIdx i c 1).val = (i 1).val := by
  unfold DotDims.rhsIdx
  rw [dif_neg (show ¬(1 : Fin S64x2048.rank) ∈ dot_S2048x64_S64x2048_S2048x2048_1_0_0_1_n_n.rhsBatch from List.not_mem_nil),
    dif_pos (show (1 : Fin S64x2048.rank) ∈ dot_S2048x64_S64x2048_S2048x2048_1_0_0_1_n_n.rhsNonContracting from List.mem_singleton.mpr rfl)]
  rfl

/-- The product of a 2048 × 64 array with a 64 × 2048 one at row r, column j. -/
theorem pair_apply (A : FVec Ideal S2048x64 .f32) (B : FVec Ideal S64x2048 .f32) (r j : Fin 2048) :
    Host.dotGeneral dot_S2048x64_S64x2048_S2048x2048_1_0_0_1_n_n none A B (ix2 r j)
      = ∑ q : Fin 64, A (ix2 r q) * B (ix2 q j) := by
  show FloatOps.dotGeneral _ none _ A B (ix2 r j) = _
  rw [Ideal.dotGeneral_apply,
    ← Equiv.sum_comp (contrEquiv1 dot_S2048x64_S64x2048_S2048x2048_1_0_0_1_n_n 64 rfl rfl).symm]
  refine Finset.sum_congr rfl fun q _ => ?_
  have hq := contrEquiv1_symm_val dot_S2048x64_S64x2048_S2048x2048_1_0_0_1_n_n 64 rfl rfl q
  have eL : dot_S2048x64_S64x2048_S2048x2048_1_0_0_1_n_n.lhsIdx (ix2 r j)
      ((contrEquiv1 dot_S2048x64_S64x2048_S2048x2048_1_0_0_1_n_n 64 rfl rfl).symm q) = ix2 r q :=
    funext fun a => Fin.ext (by
      match a with
      | ⟨0, _⟩ => exact pairLhs_row _ _
      | ⟨1, _⟩ => exact (pairLhs_col _ _).trans hq)
  have eR : dot_S2048x64_S64x2048_S2048x2048_1_0_0_1_n_n.rhsIdx (ix2 r j)
      ((contrEquiv1 dot_S2048x64_S64x2048_S2048x2048_1_0_0_1_n_n 64 rfl rfl).symm q) = ix2 q j :=
    funext fun a => Fin.ext (by
      match a with
      | ⟨0, _⟩ => exact (pairRhs_row _ _).trans hq
      | ⟨1, _⟩ => exact pairRhs_col _ _)
  rw [eL, eR]

/-! ## The two row sums at an index -/

/-- A 2048 × 64 array summed along its rows from the zero word: at r, the sum over the 64 columns. -/
theorem rowSum64_apply (x : FVec Ideal S2048x64 .f32) (r : Fin 2048) :
    Host.reduceAdd x (constant (F := Ideal) S_ .f32 0x00000000#32) reducesTo_S2048x64_S2048_d1 h_S_ (ix1 r)
      = ∑ q : Fin 64, x (ix2 r q) := by
  show FloatOps.hostReduceAdd _ _ _ x (Ideal.ofBits .f32 0x00000000#32) (ix1 r) = _
  rw [Ideal.hostReduceAdd_def, Ideal.hostReduceAdd_single reducesTo_S2048x64_S2048_d1 (by decide),
    Ideal.ofBits_zero_f32, zero_add]
  refine Finset.sum_congr rfl fun q _ => ?_
  exact congrArg x (funext fun a => Fin.ext (by match a with | ⟨0, _⟩ => rfl | ⟨1, _⟩ => rfl))

/-- A 2048 × 2048 array summed along its rows from the zero word: at r, the sum over the 2048 columns. -/
theorem rowSum2048_apply (x : FVec Ideal S2048x2048 .f32) (r : Fin 2048) :
    Host.reduceAdd x (constant (F := Ideal) S_ .f32 0x00000000#32) reducesTo_S2048x2048_S2048_d1 h_S_ (ix1 r)
      = ∑ j : Fin 2048, x (ix2 r j) := by
  show FloatOps.hostReduceAdd _ _ _ x (Ideal.ofBits .f32 0x00000000#32) (ix1 r) = _
  rw [Ideal.hostReduceAdd_def, Ideal.hostReduceAdd_single reducesTo_S2048x2048_S2048_d1 (by decide),
    Ideal.ofBits_zero_f32, zero_add]
  refine Finset.sum_congr rfl fun j _ => ?_
  exact congrArg x (funext fun a => Fin.ext (by match a with | ⟨0, _⟩ => rfl | ⟨1, _⟩ => rfl))

/-! ## The temperature, the pointwise operations, and the two chains -/

/-- The temperature's word broadcast from a scalar reads the temperature at every index. -/
theorem temp_apply {T : Shape} (h : S_.BroadcastsInDim T ![]) (j : T.Idx) :
    broadcastInDim T ![] h (constant (F := Ideal) S_ .f32 0x3E4CCCCD#32) j = Cert.Spec.temp :=
  broadcastInDim_apply _ h _ j ix0 fun a => a.elim0

/-- The exponential at an index is the exponential of the element. -/
theorem exp_at {s : Shape} (x : FVec Ideal s .f32) (i : s.Idx) : Host.exp x i = Ideal.exp (x i) := rfl

/-- The quotient at an index is the quotient of the elements. -/
theorem div_at {s : Shape} (x y : FVec Ideal s .f32) (i : s.Idx) : Host.divf x y i = Ideal.div (x i) (y i) := rfl

/-- The positive scores are the specification's, row by row. -/
theorem posChain_eq (g1 g2 : FVec Ideal S2048x64 .f32) (W : FVec Ideal S64x64 .f32) :
    posChain g1 g2 W = fun i => Cert.Spec.clPos g1 g2 W (i 0) := by
  funext i
  obtain ⟨r, rfl⟩ : ∃ r : Fin 2048, i = ix1 r := ⟨i 0, eq_ix1 i⟩
  show posChain g1 g2 W (ix1 r) = Cert.Spec.clPos g1 g2 W r
  unfold posChain Cert.Spec.clPos
  rw [exp_at, div_at, rowSum64_apply, temp_apply]
  refine congrArg (fun s => Ideal.exp (Ideal.div s Cert.Spec.temp)) (Finset.sum_congr rfl fun q _ => ?_)
  rw [mulf_apply, proj_apply, proj_apply]

/-- The negative scores are the specification's, row by row. -/
theorem negChain_eq (g1 g2 : FVec Ideal S2048x64 .f32) (W : FVec Ideal S64x64 .f32) :
    negChain g1 g2 W = fun i => Cert.Spec.clNeg g1 g2 W (i 0) := by
  funext i
  obtain ⟨r, rfl⟩ : ∃ r : Fin 2048, i = ix1 r := ⟨i 0, eq_ix1 i⟩
  show negChain g1 g2 W (ix1 r) = Cert.Spec.clNeg g1 g2 W r
  unfold negChain Cert.Spec.clNeg
  rw [rowSum2048_apply]
  refine Finset.sum_congr rfl fun j _ => ?_
  rw [exp_at, div_at, pair_apply, temp_apply]
  refine congrArg (fun s => Ideal.exp (Ideal.div s Cert.Spec.temp)) (Finset.sum_congr rfl fun q _ => ?_)
  rw [transpose_ix2_apply, proj_apply, proj_apply]

end Cert.ReferenceIdeal.RefScores

end
-- ==== Proof.SimStep6.lean ====
/-
  From the boundary before segment 6 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg6
import proofs.«103739_j26439818674747_2_alg».proof.Proof.RefScores

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e6_v59_0 (hag : Agree m ρ m' c) (h : Inv5 m ρ m' c) : Cert.KernelIdeal.GenP.W19 m ρ c (Proc.devRef .tc Cert.KernelIdeal.main_v59_0) = Cert.Sim.RD m' c (Proc.devRef .tc Cert.ReferenceIdeal.main_v129) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v59_1 (hag : Agree m ρ m' c) (h : Inv5 m ρ m' c) : Cert.KernelIdeal.GenP.W19 m ρ c (Proc.devRef .tc Cert.KernelIdeal.main_v59_1) = Cert.Sim.RD m' c (Proc.devRef .tc Cert.ReferenceIdeal.main_v141) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v116_0 (hag : Agree m ρ m' c) (h : Inv5 m ρ m' c) : Cert.KernelIdeal.GenP.W19 m ρ c (Proc.devRef .tc Cert.KernelIdeal.main_v116_0) = Cert.Sim.RD m' c (Proc.devRef .tc Cert.ReferenceIdeal.main_v203) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v116_1 (hag : Agree m ρ m' c) (h : Inv5 m ρ m' c) : Cert.KernelIdeal.GenP.W19 m ρ c (Proc.devRef .tc Cert.KernelIdeal.main_v116_1) = Cert.Sim.RD m' c (Proc.devRef .tc Cert.ReferenceIdeal.main_v215) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v117_0 (hag : Agree m ρ m' c) (h : Inv5 m ρ m' c) : Cert.KernelIdeal.GenP.W19 m ρ c (Proc.devRef .tc Cert.KernelIdeal.main_v117_0) = Cert.Sim.RD m' c (Proc.devRef .tc Cert.ReferenceIdeal.main_v209) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v117_1 (hag : Agree m ρ m' c) (h : Inv5 m ρ m' c) : Cert.KernelIdeal.GenP.W19 m ρ c (Proc.devRef .tc Cert.KernelIdeal.main_v117_1) = Cert.Sim.RD m' c (Proc.devRef .tc Cert.ReferenceIdeal.main_v221) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v123 (hag : Agree m ρ m' c) (h : Inv5 m ρ m' c) : Cert.KernelIdeal.GenP.W19 m ρ c (Proc.devRef .tc Cert.KernelIdeal.main_v123) = Cert.Sim.RD m' c (Proc.devRef .tc Cert.ReferenceIdeal.main_v227) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v127 (hag : Agree m ρ m' c) (h : Inv5 m ρ m' c) : Cert.KernelIdeal.GenP.W19 m ρ c (Proc.devRef .tc Cert.KernelIdeal.main_v127) = Cert.Sim.RD m' c (Proc.devRef .tc Cert.ReferenceIdeal.main_v231) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v129 (hag : Agree m ρ m' c) (h : Inv5 m ρ m' c) : Cert.KernelIdeal.GenP.W19 m ρ c (Proc.devRef .tc Cert.KernelIdeal.main_v129) = Cert.Sim.RD m' c (Proc.devRef .tc Cert.ReferenceIdeal.main_v233) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v134 (hag : Agree m ρ m' c) (h : Inv5 m ρ m' c) : Cert.KernelIdeal.GenP.W19 m ρ c (Proc.devRef .tc Cert.KernelIdeal.main_v134) = Cert.Sim.RD m' c (Proc.devRef .tc Cert.ReferenceIdeal.main_v238) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v135 (hag : Agree m ρ m' c) (h : Inv5 m ρ m' c) : Cert.KernelIdeal.GenP.W19 m ρ c (Proc.devRef .tc Cert.KernelIdeal.main_v135) = shapeCast Cert.KernelIdeal.S2048x1 (Cert.KernelIdeal.GenP.W19 m ρ c (Proc.devRef .tc Cert.KernelIdeal.main_v134)) Cert.KernelIdeal.Facts₀.shapeCasts_S2048_S2048x1 := by
  have hd := h; obtain ⟨h_v58_0, h_v58_1, h_v59_0, h_v59_1, h_v60, h_v61, h_v87, h_v113, h_v116_0, h_v116_1, h_v117_0, h_v117_1⟩ := hd
  simp only [Cert.KernelIdeal.GenP.W19, Cert.KernelIdeal.Gen.hostOps6]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v150 (hag : Agree m ρ m' c) (h : Inv5 m ρ m' c) : Cert.KernelIdeal.GenP.W19 m ρ c (Proc.devRef .tc Cert.KernelIdeal.main_v150) = Cert.Sim.RD m' c (Proc.devRef .tc Cert.ReferenceIdeal.main_v253) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

theorem e6_v165 (hag : Agree m ρ m' c) (h : Inv5 m ρ m' c) : Cert.KernelIdeal.GenP.W19 m ρ c (Proc.devRef .tc Cert.KernelIdeal.main_v165) = Cert.Sim.RD m' c (Proc.devRef .tc Cert.ReferenceIdeal.main_v269) := by
  have hd := h; obtain ⟨h_v58_0, h_v58_1, h_v59_0, h_v59_1, h_v60, h_v61, h_v87, h_v113, h_v116_0, h_v116_1, h_v117_0, h_v117_1⟩ := hd
  rw [RD_def m' c]
  simp only [Cert.KernelIdeal.GenP.W19, Cert.KernelIdeal.Gen.hostOps6, cD]
  after_results_simp
  simp only [W18_arg0 m ρ c, W18_arg1 m ρ c, W18_arg2 m ρ c, W18_arg3 m ρ c, W18_arg4 m ρ c, W18_arg5 m ρ c, W18_arg6 m ρ c, W18_arg7 m ρ c, W18_arg8 m ρ c, W18_arg9 m ρ c, W18_arg10 m ρ c, W18_arg11 m ρ c, W18_arg12 m ρ c, W18_arg13 m ρ c, W18_arg14 m ρ c, W18_arg15 m ρ c, W18_arg16 m ρ c, W18_arg17 m ρ c, W18_arg18 m ρ c, W18_arg19 m ρ c, W18_arg20 m ρ c, W18_arg21 m ρ c, W18_arg22 m ρ c, RC_arg0 m' c, RC_arg1 m' c, RC_arg2 m' c, RC_arg3 m' c, RC_arg4 m' c, RC_arg5 m' c, RC_arg6 m' c, RC_arg7 m' c, RC_arg8 m' c, RC_arg9 m' c, RC_arg10 m' c, RC_arg11 m' c, RC_arg12 m' c, RC_arg13 m' c, RC_arg14 m' c, RC_arg15 m' c, RC_arg16 m' c, RC_arg17 m' c, RC_arg18 m' c, RC_arg19 m' c, RC_arg20 m' c, RC_arg21 m' c, RC_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v58_0, h_v58_1, h_v59_0, h_v59_1, h_v60, h_v61, h_v87, h_v113, h_v116_0, h_v116_1, h_v117_0, h_v117_1]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Output 0 of region 6. -/
theorem p6_v166_0 (hag : Agree (F := Ideal) m ρ m' c) (h : Inv5 (F := Ideal) m ρ m' c) : ∀ q : Fin 2048, Cert.KernelIdeal.GenP.W20 m ρ c (Proc.devRef .tc Cert.KernelIdeal.main_v166_0) (Idealize.ShloMosaic.ValueIdx.ix2 q (0 : Fin 1)) = Cert.Sim.RD m' c (Proc.devRef .tc Cert.ReferenceIdeal.main_v275) (Idealize.ShloMosaic.ValueIdx.ix1 q) := by
  intro q
  have hk : Cert.KernelIdeal.GenP.W20 m ρ c (Proc.devRef .tc Cert.KernelIdeal.main_v166_0) = fun i => Cert.Spec.clPos (Cert.KernelIdeal.GenP.W19 m ρ c (Proc.devRef .tc Cert.KernelIdeal.main_v150)) (Cert.KernelIdeal.GenP.W19 m ρ c (Proc.devRef .tc Cert.KernelIdeal.main_v165)) (Cert.KernelIdeal.GenP.W19 m ρ c (Proc.devRef .tc Cert.KernelIdeal.main_v129)) (i 0) :=
    (Cert.KernelIdeal.GenP.W20_arr m ρ c 3).trans (Cert.KernelIdeal.Reg6.arr3 (Cert.KernelIdeal.GenP.V19 m ρ) c)
  have hr : Cert.Sim.RD m' c (Proc.devRef .tc Cert.ReferenceIdeal.main_v275) = Cert.ReferenceIdeal.RefScores.posChain (Cert.Sim.RD m' c (Proc.devRef .tc Cert.ReferenceIdeal.main_v253)) (Cert.Sim.RD m' c (Proc.devRef .tc Cert.ReferenceIdeal.main_v269)) (Cert.Sim.RD m' c (Proc.devRef .tc Cert.ReferenceIdeal.main_v233)) := by
    rw [RD_def m' c]; simp only [cD]; after_results_simp; rfl
  rw [hk, hr, Cert.ReferenceIdeal.RefScores.posChain_eq, e6_v150 m ρ m' c hag h, e6_v165 m ρ m' c hag h, e6_v129 m ρ m' c hag h]
  rfl

/-- Output 1 of region 6. -/
theorem p6_v166_1 (hag : Agree (F := Ideal) m ρ m' c) (h : Inv5 (F := Ideal) m ρ m' c) : ∀ q : Fin 2048, Cert.KernelIdeal.GenP.W20 m ρ c (Proc.devRef .tc Cert.KernelIdeal.main_v166_1) (Idealize.ShloMosaic.ValueIdx.ix2 q (0 : Fin 1)) = Cert.Sim.RD m' c (Proc.devRef .tc Cert.ReferenceIdeal.main_v281) (Idealize.ShloMosaic.ValueIdx.ix1 q) := by
  intro q
  have hk : Cert.KernelIdeal.GenP.W20 m ρ c (Proc.devRef .tc Cert.KernelIdeal.main_v166_1) = fun i => Cert.Spec.clNeg (Cert.KernelIdeal.GenP.W19 m ρ c (Proc.devRef .tc Cert.KernelIdeal.main_v150)) (Cert.KernelIdeal.GenP.W19 m ρ c (Proc.devRef .tc Cert.KernelIdeal.main_v165)) (Cert.KernelIdeal.GenP.W19 m ρ c (Proc.devRef .tc Cert.KernelIdeal.main_v129)) (i 0) :=
    (Cert.KernelIdeal.GenP.W20_arr m ρ c 4).trans (Cert.KernelIdeal.Reg6.arr4 (Cert.KernelIdeal.GenP.V19 m ρ) c)
  have hr : Cert.Sim.RD m' c (Proc.devRef .tc Cert.ReferenceIdeal.main_v281) = Cert.ReferenceIdeal.RefScores.negChain (Cert.Sim.RD m' c (Proc.devRef .tc Cert.ReferenceIdeal.main_v253)) (Cert.Sim.RD m' c (Proc.devRef .tc Cert.ReferenceIdeal.main_v269)) (Cert.Sim.RD m' c (Proc.devRef .tc Cert.ReferenceIdeal.main_v233)) := by
    rw [RD_def m' c]; simp only [cD]; after_results_simp; rfl
  rw [hk, hr, Cert.ReferenceIdeal.RefScores.negChain_eq, e6_v150 m ρ m' c hag h, e6_v165 m ρ m' c hag h, e6_v129 m ρ m' c hag h]
  rfl

theorem x6_v59_0 (hag : Agree (F := Ideal) m ρ m' c) (h : Inv5 (F := Ideal) m ρ m' c) : Cert.KernelIdeal.GenP.W20 m ρ c (Proc.devRef .tc Cert.KernelIdeal.main_v59_0) = Cert.Sim.RD m' c (Proc.devRef .tc Cert.ReferenceIdeal.main_v129) := by
  rw [Cert.KernelIdeal.GenP.W20_of_ne m ρ c Cert.KernelIdeal.main_v59_0 (by decide)]
  exact e6_v59_0 m ρ m' c hag h

theorem x6_v59_1 (hag : Agree (F := Ideal) m ρ m' c) (h : Inv5 (F := Ideal) m ρ m' c) : Cert.KernelIdeal.GenP.W20 m ρ c (Proc.devRef .tc Cert.KernelIdeal.main_v59_1) = Cert.Sim.RD m' c (Proc.devRef .tc Cert.ReferenceIdeal.main_v141) := by
  rw [Cert.KernelIdeal.GenP.W20_of_ne m ρ c Cert.KernelIdeal.main_v59_1 (by decide)]
  exact e6_v59_1 m ρ m' c hag h

theorem x6_v116_0 (hag : Agree (F := Ideal) m ρ m' c) (h : Inv5 (F := Ideal) m ρ m' c) : Cert.KernelIdeal.GenP.W20 m ρ c (Proc.devRef .tc Cert.KernelIdeal.main_v116_0) = Cert.Sim.RD m' c (Proc.devRef .tc Cert.ReferenceIdeal.main_v203) := by
  rw [Cert.KernelIdeal.GenP.W20_of_ne m ρ c Cert.KernelIdeal.main_v116_0 (by decide)]
  exact e6_v116_0 m ρ m' c hag h

theorem x6_v116_1 (hag : Agree (F := Ideal) m ρ m' c) (h : Inv5 (F := Ideal) m ρ m' c) : Cert.KernelIdeal.GenP.W20 m ρ c (Proc.devRef .tc Cert.KernelIdeal.main_v116_1) = Cert.Sim.RD m' c (Proc.devRef .tc Cert.ReferenceIdeal.main_v215) := by
  rw [Cert.KernelIdeal.GenP.W20_of_ne m ρ c Cert.KernelIdeal.main_v116_1 (by decide)]
  exact e6_v116_1 m ρ m' c hag h

theorem x6_v117_0 (hag : Agree (F := Ideal) m ρ m' c) (h : Inv5 (F := Ideal) m ρ m' c) : Cert.KernelIdeal.GenP.W20 m ρ c (Proc.devRef .tc Cert.KernelIdeal.main_v117_0) = Cert.Sim.RD m' c (Proc.devRef .tc Cert.ReferenceIdeal.main_v209) := by
  rw [Cert.KernelIdeal.GenP.W20_of_ne m ρ c Cert.KernelIdeal.main_v117_0 (by decide)]
  exact e6_v117_0 m ρ m' c hag h

theorem x6_v117_1 (hag : Agree (F := Ideal) m ρ m' c) (h : Inv5 (F := Ideal) m ρ m' c) : Cert.KernelIdeal.GenP.W20 m ρ c (Proc.devRef .tc Cert.KernelIdeal.main_v117_1) = Cert.Sim.RD m' c (Proc.devRef .tc Cert.ReferenceIdeal.main_v221) := by
  rw [Cert.KernelIdeal.GenP.W20_of_ne m ρ c Cert.KernelIdeal.main_v117_1 (by decide)]
  exact e6_v117_1 m ρ m' c hag h

theorem x6_v123 (hag : Agree (F := Ideal) m ρ m' c) (h : Inv5 (F := Ideal) m ρ m' c) : Cert.KernelIdeal.GenP.W20 m ρ c (Proc.devRef .tc Cert.KernelIdeal.main_v123) = Cert.Sim.RD m' c (Proc.devRef .tc Cert.ReferenceIdeal.main_v227) := by
  rw [Cert.KernelIdeal.GenP.W20_of_ne m ρ c Cert.KernelIdeal.main_v123 (by decide)]
  exact e6_v123 m ρ m' c hag h

theorem x6_v127 (hag : Agree (F := Ideal) m ρ m' c) (h : Inv5 (F := Ideal) m ρ m' c) : Cert.KernelIdeal.GenP.W20 m ρ c (Proc.devRef .tc Cert.KernelIdeal.main_v127) = Cert.Sim.RD m' c (Proc.devRef .tc Cert.ReferenceIdeal.main_v231) := by
  rw [Cert.KernelIdeal.GenP.W20_of_ne m ρ c Cert.KernelIdeal.main_v127 (by decide)]
  exact e6_v127 m ρ m' c hag h

theorem x6_v134 (hag : Agree (F := Ideal) m ρ m' c) (h : Inv5 (F := Ideal) m ρ m' c) : Cert.KernelIdeal.GenP.W20 m ρ c (Proc.devRef .tc Cert.KernelIdeal.main_v134) = Cert.Sim.RD m' c (Proc.devRef .tc Cert.ReferenceIdeal.main_v238) := by
  rw [Cert.KernelIdeal.GenP.W20_of_ne m ρ c Cert.KernelIdeal.main_v134 (by decide)]
  exact e6_v134 m ρ m' c hag h

theorem x6_v135 (hag : Agree (F := Ideal) m ρ m' c) (h : Inv5 (F := Ideal) m ρ m' c) : Cert.KernelIdeal.GenP.W20 m ρ c (Proc.devRef .tc Cert.KernelIdeal.main_v135) = shapeCast Cert.KernelIdeal.S2048x1 (Cert.KernelIdeal.GenP.W20 m ρ c (Proc.devRef .tc Cert.KernelIdeal.main_v134)) Cert.KernelIdeal.Facts₀.shapeCasts_S2048_S2048x1 := by
  rw [Cert.KernelIdeal.GenP.W20_of_ne m ρ c Cert.KernelIdeal.main_v135 (by decide), Cert.KernelIdeal.GenP.W20_of_ne m ρ c Cert.KernelIdeal.main_v134 (by decide)]
  exact e6_v135 m ρ m' c hag h

/-- The boundary's agreement is kept across segment 6. -/
theorem step6 (hag : Agree (F := Ideal) m ρ m' c) (h : Inv5 (F := Ideal) m ρ m' c) : Inv6 (F := Ideal) m ρ m' c :=
  ⟨x6_v59_0 m ρ m' c hag h,
   x6_v59_1 m ρ m' c hag h,
   x6_v116_0 m ρ m' c hag h,
   x6_v116_1 m ρ m' c hag h,
   x6_v117_0 m ρ m' c hag h,
   x6_v117_1 m ρ m' c hag h,
   x6_v123 m ρ m' c hag h,
   x6_v127 m ρ m' c hag h,
   x6_v134 m ρ m' c hag h,
   x6_v135 m ρ m' c hag h,
   p6_v166_0 m ρ m' c hag h,
   p6_v166_1 m ρ m' c hag h⟩

end AtIdeal

end Cert.Sim

end
-- ==== Proof.Reg7.lean ====
/-
  Region 7 (contrastive scores of one batch, a single grid point): the two output columns after the region are the
  positive and the negative scores of the two normalised views through W, row by row.

  First the body's two stored values are read index by index: each product at (r, q) is a sum over the contracted axis,
  the transpose swaps coordinates, each lane sum is a sum over the row, the column cast keeps the row, every format
  change is the identity over the extended reals. Then the region's one grid point writes back each output's whole array,
  and every window's block is its whole array, so the arrays end holding those values.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg7

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The two products' operand indices, axis by axis -/

theorem lhs_proj_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_proj_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q

theorem rhs_proj_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q

theorem rhs_proj_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A row of the left operand against a column of the right one. -/
theorem proj_apply (g : FVec Ideal S2048x64 .bf16) (W : FVec Ideal S64x64 .bf16) (r : Fin 2048) (q : Fin 64) :
    matmul dot_S2048x64_S64x64_S2048x64_1_0_0_1_n_n none g W (constant (F := Ideal) S2048x64 .f32 0x00000000#32) (ix2 r q)
      = ∑ k : Fin 64, g (ix2 r k) * W (ix2 k q) := by
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q)
      ((contrEquiv1 dot_S2048x64_S64x64_S2048x64_1_0_0_1_n_n 64 rfl rfl).symm k) = ix2 r k :=
    funext fun a => Fin.ext (by
      match a with
      | ⟨0, _⟩ => exact lhs_proj_0 _ _
      | ⟨1, _⟩ => exact (lhs_proj_1 _ _).trans hk)
  have er : dot_S2048x64_S64x64_S2048x64_1_0_0_1_n_n.rhsIdx (ix2 r q)
      ((contrEquiv1 dot_S2048x64_S64x64_S2048x64_1_0_0_1_n_n 64 rfl rfl).symm k) = ix2 k q :=
    funext fun a => Fin.ext (by
      match a with
      | ⟨0, _⟩ => exact (rhs_proj_0 _ _).trans hk
      | ⟨1, _⟩ => exact rhs_proj_1 _ _)
  rw [el, er]

theorem lhs_sim_0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

theorem lhs_sim_1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q

theorem rhs_sim_0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q

theorem rhs_sim_1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- A row of the left operand against a column of the (already transposed) right one. -/
theorem sim_apply (a : FVec Ideal S2048x64 .bf16) (b : FVec Ideal S64x2048 .bf16) (r j : Fin 2048) :
    matmul dot_S2048x64_S64x2048_S2048x2048_1_0_0_1_n_n none a b (constant (F := Ideal) S2048x2048 .f32 0x00000000#32) (ix2 r j)
      = ∑ q : Fin 64, a (ix2 r q) * b (ix2 q j) := by
  simp only [matmul]
  rw [Ideal.matmul_constant_zero_apply,
    ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 r j)
      ((contrEquiv1 dot_S2048x64_S64x2048_S2048x2048_1_0_0_1_n_n 64 rfl rfl).symm k) = ix2 r k :=
    funext fun x => Fin.ext (by
      match x with
      | ⟨0, _⟩ => exact lhs_sim_0 _ _
      | ⟨1, _⟩ => exact (lhs_sim_1 _ _).trans hk)
  have er : dot_S2048x64_S64x2048_S2048x2048_1_0_0_1_n_n.rhsIdx (ix2 r j)
      ((contrEquiv1 dot_S2048x64_S64x2048_S2048x2048_1_0_0_1_n_n 64 rfl rfl).symm k) = ix2 k j :=
    funext fun x => Fin.ext (by
      match x with
      | ⟨0, _⟩ => exact (rhs_sim_0 _ _).trans hk
      | ⟨1, _⟩ => exact rhs_sim_1 _ _)
  rw [el, er]

/-! ## Lane sums and the column cast -/

/-- A sum along the rows of a 2048 × 64 array, at row r. -/
theorem lane_sum64 (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ k : Fin 64, src (ix2 r k) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A sum along the rows of a 2048 × 2048 array, at row r. -/
theorem lane_sum2048 (src : FVec Ideal S2048x2048 .f32) (h : S2048x2048.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ j : Fin 2048, src (ix2 r j) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A vector cast to a one-column array reads, at (i, u), the vector at i. -/
theorem col_of_lane {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## The body's values, index by index -/

/-- The weight as the products read it: every format change is the identity. -/
theorem pay1_apply (W : Vec Ideal S64x64 .f32) (i : S64x64.Idx) : k7_pay1 (F := Ideal) W i = W i := by
  unfold k7_pay1
  simp only [truncf_apply, shapeCast_self]

/-- The first view through the weight, at (r, q). -/
theorem pay2_apply (g : Vec Ideal S2048x64 .f32) (W : Vec Ideal S64x64 .f32) (r : Fin 2048) (q : Fin 64) :
    k7_pay2 (F := Ideal) g W (ix2 r q) = ∑ k : Fin 64, g (ix2 r k) * W (ix2 k q) := by
  unfold k7_pay2
  refine (proj_apply _ _ r q).trans ?_
  refine Finset.sum_congr rfl fun k _ => ?_
  rw [truncf_apply, shapeCast_self, pay1_apply]

/-- The second view through the weight, at (r, q). -/
theorem pay3_apply (g : Vec Ideal S2048x64 .f32) (W : Vec Ideal S64x64 .f32) (r : Fin 2048) (q : Fin 64) :
    k7_pay3 (F := Ideal) g W (ix2 r q) = ∑ k : Fin 64, g (ix2 r k) * W (ix2 k q) := by
  unfold k7_pay3
  refine (proj_apply _ _ r q).trans ?_
  refine Finset.sum_congr rfl fun k _ => ?_
  rw [truncf_apply, shapeCast_self, pay1_apply]

/-- The positive score's column, at row r. -/
theorem pay5_apply (g1 g2 : Vec Ideal S2048x64 .f32) (W : Vec Ideal S64x64 .f32) (r : Fin 2048) (u : Fin 1) :
    k7_pay5 (F := Ideal) g1 g2 W (ix2 r u)
      = Ideal.exp (Ideal.div (∑ q : Fin 64, (∑ k : Fin 64, g1 (ix2 r k) * W (ix2 k q)) * (∑ k : Fin 64, g2 (ix2 r k) * W (ix2 k q)))
          (Ideal.ofBits .f32 0x3E4CCCCD#32)) := by
  unfold k7_pay5
  show Ideal.exp (Ideal.div (shapeCast S2048x1 _ _ (ix2 r u)) (Ideal.ofBits .f32 0x3E4CCCCD#32)) = _
  rw [col_of_lane]
  refine congrArg (fun z => Ideal.exp (Ideal.div z _)) ?_
  refine (lane_sum64 _ _ _ _ r).trans ?_
  refine Finset.sum_congr rfl fun q _ => ?_
  rw [mulf_apply, pay2_apply, pay3_apply]

/-- The negative score's column, at row r. -/
theorem pay4_apply (g1 g2 : Vec Ideal S2048x64 .f32) (W : Vec Ideal S64x64 .f32) (r : Fin 2048) (u : Fin 1) :
    k7_pay4 (F := Ideal) g1 g2 W (ix2 r u)
      = ∑ j : Fin 2048, Ideal.exp (Ideal.div
          (∑ q : Fin 64, (∑ k : Fin 64, g1 (ix2 r k) * W (ix2 k q)) * (∑ k : Fin 64, g2 (ix2 j k) * W (ix2 k q)))
          (Ideal.ofBits .f32 0x3E4CCCCD#32)) := by
  unfold k7_pay4
  show shapeCast S2048x1 _ _ (ix2 r u) = _
  rw [col_of_lane]
  refine (lane_sum2048 _ _ _ _ r).trans ?_
  refine Finset.sum_congr rfl fun j _ => ?_
  show Ideal.exp (Ideal.div (matmul (F := Ideal) _ none _ _ _ (ix2 r j)) (Ideal.ofBits .f32 0x3E4CCCCD#32)) = _
  refine congrArg (fun z => Ideal.exp (Ideal.div z _)) ?_
  refine (sim_apply _ _ r j).trans ?_
  refine Finset.sum_congr rfl fun q _ => ?_
  rw [truncf_apply, pay2_apply, transpose_ix2_apply, truncf_apply, pay3_apply]

/-- The positive score at a row, from the body's loads. -/
theorem pos_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k7_pay5 (F := Ideal) x0 x1 x2 j = Cert.Spec.clPos g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay5_apply]
  rfl

/-- The negative score at a row, from the body's loads. -/
theorem neg_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k7_pay4 (F := Ideal) x0 x1 x2 j = Cert.Spec.clNeg g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay4_apply]
  rfl

/-! ## From the one grid point to the arrays -/

-- the TensorCore's buffer contents when the region is entered
variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl

/-- Every window's block index is zero on both axes at every point: each block is its whole array. -/
theorem blocks_at_zero : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The first view's block is its array. -/
theorem blk0_eq (c : Dev nD) (t : Fin cfg7.N) : iblk7 (F := Ideal) V c 0 t = V c main_v199 := by
  obtain ⟨e0, e1, -⟩ := blocks_at_zero t
  funext y
  show V c main_v199 (((cfg7.win 0).blk t).view.emb y) = V c main_v199 y
  refine congrArg (V c main_v199) (funext fun a => Fin.ext ?_)
  match a with
  | ⟨0, _⟩ => show win7_0.index t (0 : Fin 2) * 2048 + 1 * (y 0).val = (y 0).val; omega
  | ⟨1, _⟩ => show win7_0.index t (1 : Fin 2) * 64 + 1 * (y 1).val = (y 1).val; omega

/-- The second view's block is its array. -/
theorem blk1_eq (c : Dev nD) (t : Fin cfg7.N) : iblk7 (F := Ideal) V c 1 t = V c main_v214 := by
  obtain ⟨-, -, e0, e1, -⟩ := blocks_at_zero t
  funext y
  show V c main_v214 (((cfg7.win 1).blk t).view.emb y) = V c main_v214 y
  refine congrArg (V c main_v214) (funext fun a => Fin.ext ?_)
  match a with
  | ⟨0, _⟩ => show win7_1.index t (0 : Fin 2) * 2048 + 1 * (y 0).val = (y 0).val; omega
  | ⟨1, _⟩ => show win7_1.index t (1 : Fin 2) * 64 + 1 * (y 1).val = (y 1).val; omega

/-- The weight's block is its array. -/
theorem blk2_eq (c : Dev nD) (t : Fin cfg7.N) : iblk7 (F := Ideal) V c 2 t = V c main_v178 := by
  obtain ⟨-, -, -, -, e0, e1, -⟩ := blocks_at_zero t
  funext y
  show V c main_v178 (((cfg7.win 2).blk t).view.emb y) = V c main_v178 y
  refine congrArg (V c main_v178) (funext fun a => Fin.ext ?_)
  match a with
  | ⟨0, _⟩ => show win7_2.index t (0 : Fin 2) * 64 + 1 * (y 0).val = (y 0).val; omega
  | ⟨1, _⟩ => show win7_2.index t (1 : Fin 2) * 64 + 1 * (y 1).val = (y 1).val; omega

/-- What a point writes back to the first output is its block of the positive scores. -/
theorem flushed3_eq (c : Dev nD) (t : Fin cfg7.N) :
    (dat7 (F := Ideal) V c).flushed 3 t = ((cfg7.win 3).blk t).view.read (Elt Ideal)
      (fun i => Cert.Spec.clPos (V c main_v199) (V c main_v214) (V c main_v178) (i 0)) := by
  show (cfg7.win 3).cut (grid7.coords t) ((dat7 (F := Ideal) V c).after 3 t) = _
  rw [after7_3]
  unfold out7_3
  rw [View.canon_unit_zero zeros2]
  simp only [View.ld_unit_zero (S := S2048x64) zeros2, View.ld_unit_zero (S := S64x64) zeros2]
  obtain ⟨-, -, -, -, -, -, e0, e1, -⟩ := blocks_at_zero t
  funext j
  show k7_pay5 (F := Ideal) (iblk7 V c 0 t) (iblk7 V c 1 t) (iblk7 V c 2 t) j
    = Cert.Spec.clPos (V c main_v199) (V c main_v214) (V c main_v178) ((((cfg7.win 3).blk t).view.emb j : S2048x1.Idx) 0)
  refine pos_at _ _ _ _ _ _ (blk0_eq V c t) (blk1_eq V c t) (blk2_eq V c t) j _ ?_
  show ((j : S2048x1.Idx) 0).val = win7_3.index t (0 : Fin 2) * 2048 + 1 * ((j : S2048x1.Idx) 0).val
  omega

/-- What a point writes back to the second output is its block of the negative scores. -/
theorem flushed4_eq (c : Dev nD) (t : Fin cfg7.N) :
    (dat7 (F := Ideal) V c).flushed 4 t = ((cfg7.win 4).blk t).view.read (Elt Ideal)
      (fun i => Cert.Spec.clNeg (V c main_v199) (V c main_v214) (V c main_v178) (i 0)) := by
  show (cfg7.win 4).cut (grid7.coords t) ((dat7 (F := Ideal) V c).after 4 t) = _
  rw [after7_4]
  unfold out7_4
  rw [View.canon_unit_zero zeros2]
  simp only [View.ld_unit_zero (S := S2048x64) zeros2, View.ld_unit_zero (S := S64x64) zeros2]
  obtain ⟨-, -, -, -, -, -, -, -, e0, e1⟩ := blocks_at_zero t
  funext j
  show k7_pay4 (F := Ideal) (iblk7 V c 0 t) (iblk7 V c 1 t) (iblk7 V c 2 t) j
    = Cert.Spec.clNeg (V c main_v199) (V c main_v214) (V c main_v178) ((((cfg7.win 4).blk t).view.emb j : S2048x1.Idx) 0)
  refine neg_at _ _ _ _ _ _ (blk0_eq V c t) (blk1_eq V c t) (blk2_eq V c t) j _ ?_
  show ((j : S2048x1.Idx) 0).val = win7_4.index t (0 : Fin 2) * 2048 + 1 * ((j : S2048x1.Idx) 0).val
  omega

/-- An index of the first output is in a point's block iff each coordinate is in the block's range on its axis. -/
theorem mem_blk3 (t : Fin cfg7.N) (i : S2048x1.Idx) :
    i ∈ ((cfg7.win 3).blk t).view.set ↔ ∀ a : Fin 2, win7_3.index t a * S2048x1.size a ≤ (i a).val
      ∧ (i a).val < win7_3.index t a * S2048x1.size a + S2048x1.size a := by
  show i ∈ ((View.whole main_v215_0).slice (win7_3.rect t)).set ↔ _
  rw [View.set_slice_whole, Rect.mem_set_unit]
  exact Iff.rfl

/-- The same for the second output. -/
theorem mem_blk4 (t : Fin cfg7.N) (i : S2048x1.Idx) :
    i ∈ ((cfg7.win 4).blk t).view.set ↔ ∀ a : Fin 2, win7_4.index t a * S2048x1.size a ≤ (i a).val
      ∧ (i a).val < win7_4.index t a * S2048x1.size a + S2048x1.size a := by
  show i ∈ ((View.whole main_v215_1).slice (win7_4.rect t)).set ↔ _
  rw [View.set_slice_whole, Rect.mem_set_unit]
  exact Iff.rfl

/-- The one point's block covers the first output. -/
theorem cover3 (i : S2048x1.Idx) :
    ∃ t : Fin cfg7.N, (cfg7.win 3).flush t = true ∧ i ∈ ((cfg7.win 3).blk t).view.set := by
  refine ⟨t7_0, flush7_3 _, ?_⟩
  obtain ⟨-, -, -, -, -, -, e0, e1, -⟩ := blocks_at_zero t7_0
  rw [mem_blk3]
  intro a
  have h0 : (i 0).val < 2048 := (i 0).isLt
  have h1 : (i 1).val < 1 := (i 1).isLt
  match a with
  | ⟨0, _⟩ =>
    show win7_3.index t7_0 (0 : Fin 2) * 2048 ≤ (i 0).val ∧ (i 0).val < win7_3.index t7_0 (0 : Fin 2) * 2048 + 2048
    omega
  | ⟨1, _⟩ =>
    show win7_3.index t7_0 (1 : Fin 2) * 1 ≤ (i 1).val ∧ (i 1).val < win7_3.index t7_0 (1 : Fin 2) * 1 + 1
    omega

/-- The one point's block covers the second output. -/
theorem cover4 (i : S2048x1.Idx) :
    ∃ t : Fin cfg7.N, (cfg7.win 4).flush t = true ∧ i ∈ ((cfg7.win 4).blk t).view.set := by
  refine ⟨t7_0, flush7_4 _, ?_⟩
  obtain ⟨-, -, -, -, -, -, -, -, e0, e1⟩ := blocks_at_zero t7_0
  rw [mem_blk4]
  intro a
  have h0 : (i 0).val < 2048 := (i 0).isLt
  have h1 : (i 1).val < 1 := (i 1).isLt
  match a with
  | ⟨0, _⟩ =>
    show win7_4.index t7_0 (0 : Fin 2) * 2048 ≤ (i 0).val ∧ (i 0).val < win7_4.index t7_0 (0 : Fin 2) * 2048 + 2048
    omega
  | ⟨1, _⟩ =>
    show win7_4.index t7_0 (1 : Fin 2) * 1 ≤ (i 1).val ∧ (i 1).val < win7_4.index t7_0 (1 : Fin 2) * 1 + 1
    omega

/-- The positive scores. -/
theorem arr3 (c : Dev nD) : (dat7 (F := Ideal) V c).arrAt 3 cfg7.N
    = fun i => Cert.Spec.clPos (V c main_v199) (V c main_v214) (V c main_v178) (i 0) :=
  (dat7 (F := Ideal) V c).arrAt_eq_of_cover 3 _ (fun t _ => flushed3_eq V c t) cover3

/-- The negative scores. -/
theorem arr4 (c : Dev nD) : (dat7 (F := Ideal) V c).arrAt 4 cfg7.N
    = fun i => Cert.Spec.clNeg (V c main_v199) (V c main_v214) (V c main_v178) (i 0) :=
  (dat7 (F := Ideal) V c).arrAt_eq_of_cover 4 _ (fun t _ => flushed4_eq V c t) cover4

end Cert.KernelIdeal.Reg7

end
-- ==== Proof.LossTail.lean ====
import proofs.«103739_j26439818674747_2_alg».proof.KernelIdeal
import proofs.«103739_j26439818674747_2_alg».proof.ReferenceIdeal
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

/-!
  The end of a contrastive block: the masked sum over the rows of −log(pos / (neg + ε) + ε).

  The kernel program keeps the two scores as columns [2048, 1] and reshapes the mask to a column; the reference keeps
  all three as vectors [2048]. Both end in a sum over every index of the source, so each is the initial value plus
  the sum over the rows of one row's term, and where the scores and the mask agree row by row the two sums agree.
-/

noncomputable section

namespace Cert.LossTail

open Idealize.ShloMosaic Idealize.ShloMosaic.ValueIdx
open scoped BigOperators

/-- The kernel program's last operations of a contrastive block: the masked sum of −log(pos / (neg + ε) + ε) over the
    rows, the scores kept as columns and the mask reshaped to a column. -/
def kTail [Cert.KernelIdeal.Facts] (P N : FVec Ideal Cert.KernelIdeal.S2048x1 .f32) (M : FVec Ideal Cert.KernelIdeal.S2048 .f32) :
    FVec Ideal Cert.KernelIdeal.S_ .f32 :=
  Host.reduceAdd
    (mulf
      (Host.negf (Host.log (addf
        (Host.divf P (addf N
          (broadcastInDim Cert.KernelIdeal.S2048x1 ![] Cert.KernelIdeal.Facts₀.bcast_S_S2048x1
            (constant Cert.KernelIdeal.S_ .f32 0x322BCC77#32))))
        (broadcastInDim Cert.KernelIdeal.S2048x1 ![] Cert.KernelIdeal.Facts₀.bcast_S_S2048x1
          (constant Cert.KernelIdeal.S_ .f32 0x322BCC77#32)))))
      (shapeCast Cert.KernelIdeal.S2048x1 M Cert.KernelIdeal.Facts₀.shapeCasts_S2048_S2048x1))
    (constant Cert.KernelIdeal.S_ .f32 0x00000000#32)
    Cert.KernelIdeal.Facts₀.reducesTo_S2048x1_S_d0_1 Cert.KernelIdeal.Facts₀.h_S_

/-- The reference program's same operations, all three operands vectors over the rows. -/
def rTail [Cert.ReferenceIdeal.Facts] (P N M : FVec Ideal Cert.ReferenceIdeal.S2048 .f32) :
    FVec Ideal Cert.ReferenceIdeal.S_ .f32 :=
  Host.reduceAdd
    (mulf
      (Host.negf (Host.log (addf
        (Host.divf P (addf N
          (broadcastInDim Cert.ReferenceIdeal.S2048 ![] Cert.ReferenceIdeal.Facts₀.bcast_S_S2048
            (constant Cert.ReferenceIdeal.S_ .f32 0x322BCC77#32))))
        (broadcastInDim Cert.ReferenceIdeal.S2048 ![] Cert.ReferenceIdeal.Facts₀.bcast_S_S2048
          (constant Cert.ReferenceIdeal.S_ .f32 0x322BCC77#32)))))
      M)
    (constant Cert.ReferenceIdeal.S_ .f32 0x00000000#32)
    Cert.ReferenceIdeal.Facts₀.reducesTo_S2048_S_d0 Cert.ReferenceIdeal.Facts₀.h_S_

/-- One row's term of the loss: −log(p / (n + ε) + ε) · m, with ε the f32 word both programs print. -/
def term (p n m : EReal) : EReal :=
  -(Ideal.log (Ideal.div p (n + Ideal.ofBits .f32 0x322BCC77#32) + Ideal.ofBits .f32 0x322BCC77#32)) * m

/-- A sum over a rank-1 index set is the sum over its coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- The mask reshaped to a column reads, at row r of the column, the mask at r. -/
theorem maskColumn_apply [Cert.KernelIdeal.Facts] (M : FVec Ideal Cert.KernelIdeal.S2048 .f32) (r : Fin 2048) :
    shapeCast Cert.KernelIdeal.S2048x1 M Cert.KernelIdeal.Facts₀.shapeCasts_S2048_S2048x1 (ix2 r (0 : Fin 1)) = M (ix1 r) :=
  shapeCast_apply M _ (ix2 r (0 : Fin 1)) (ix1 r) (by
    rw [Shape.rowMajor_val_one, Shape.rowMajor_val_two]
    show (r : ℕ) = (r : ℕ) * 1 + 0
    omega)

/-- The kernel program's sum: the initial value plus the rows' terms. -/
theorem kTail_apply [Cert.KernelIdeal.Facts] (P N : FVec Ideal Cert.KernelIdeal.S2048x1 .f32)
    (M : FVec Ideal Cert.KernelIdeal.S2048 .f32) (j : Cert.KernelIdeal.S_.Idx) :
    kTail P N M j = Ideal.ofBits .f32 0x00000000#32
      + ∑ r : Fin 2048, term (P (ix2 r (0 : Fin 1))) (N (ix2 r (0 : Fin 1))) (M (ix1 r)) := by
  unfold kTail
  rw [hostReduceAdd_apply, Ideal.hostReduceAdd_total _ (fun b => b.elim0), sum_idx2]
  refine congrArg (Ideal.ofBits .f32 0x00000000#32 + ·) (Finset.sum_congr rfl fun r _ => ?_)
  rw [Fin.sum_univ_one]
  show term (P (ix2 r (0 : Fin 1))) (N (ix2 r (0 : Fin 1)))
    (shapeCast Cert.KernelIdeal.S2048x1 M Cert.KernelIdeal.Facts₀.shapeCasts_S2048_S2048x1 (ix2 r (0 : Fin 1))) = _
  rw [maskColumn_apply]

/-- The reference's sum: the initial value plus the rows' terms. -/
theorem rTail_apply [Cert.ReferenceIdeal.Facts] (P N M : FVec Ideal Cert.ReferenceIdeal.S2048 .f32)
    (j : Cert.ReferenceIdeal.S_.Idx) :
    rTail P N M j = Ideal.ofBits .f32 0x00000000#32
      + ∑ r : Fin 2048, term (P (ix1 r)) (N (ix1 r)) (M (ix1 r)) := by
  unfold rTail
  rw [hostReduceAdd_apply, Ideal.hostReduceAdd_total _ (fun b => b.elim0), sum_idx1]
  rfl

/-- Scores and mask equal row by row, the two programs' sums are equal. -/
theorem tail_eq [Cert.KernelIdeal.Facts] [Cert.ReferenceIdeal.Facts]
    (P N : FVec Ideal Cert.KernelIdeal.S2048x1 .f32) (M : FVec Ideal Cert.KernelIdeal.S2048 .f32)
    (P' N' M' : FVec Ideal Cert.ReferenceIdeal.S2048 .f32)
    (hP : ∀ r : Fin 2048, P (ix2 r (0 : Fin 1)) = P' (ix1 r))
    (hN : ∀ r, N (ix2 r 0) = N' (ix1 r))
    (hM : ∀ r, M (ix1 r) = M' (ix1 r)) :
    kTail P N M = rTail P' N' M' := by
  funext j
  rw [kTail_apply, rTail_apply]
  exact congrArg (Ideal.ofBits .f32 0x00000000#32 + ·) (Finset.sum_congr rfl fun r _ => by rw [hP r, hN r, hM r])

end Cert.LossTail

end
-- ==== Proof.SimStep7.lean ====
/-
  From the boundary before segment 7 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg7
import proofs.«103739_j26439818674747_2_alg».proof.Proof.RefScores
import proofs.«103739_j26439818674747_2_alg».proof.Proof.LossTail

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e7_v116_0 (hag : Agree m ρ m' c) (h : Inv6 m ρ m' c) : Cert.KernelIdeal.GenP.W21 m ρ c (Proc.devRef .tc Cert.KernelIdeal.main_v116_0) = Cert.Sim.RE m' c (Proc.devRef .tc Cert.ReferenceIdeal.main_v203) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v116_1 (hag : Agree m ρ m' c) (h : Inv6 m ρ m' c) : Cert.KernelIdeal.GenP.W21 m ρ c (Proc.devRef .tc Cert.KernelIdeal.main_v116_1) = Cert.Sim.RE m' c (Proc.devRef .tc Cert.ReferenceIdeal.main_v215) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v117_0 (hag : Agree m ρ m' c) (h : Inv6 m ρ m' c) : Cert.KernelIdeal.GenP.W21 m ρ c (Proc.devRef .tc Cert.KernelIdeal.main_v117_0) = Cert.Sim.RE m' c (Proc.devRef .tc Cert.ReferenceIdeal.main_v209) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v117_1 (hag : Agree m ρ m' c) (h : Inv6 m ρ m' c) : Cert.KernelIdeal.GenP.W21 m ρ c (Proc.devRef .tc Cert.KernelIdeal.main_v117_1) = Cert.Sim.RE m' c (Proc.devRef .tc Cert.ReferenceIdeal.main_v221) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v123 (hag : Agree m ρ m' c) (h : Inv6 m ρ m' c) : Cert.KernelIdeal.GenP.W21 m ρ c (Proc.devRef .tc Cert.KernelIdeal.main_v123) = Cert.Sim.RE m' c (Proc.devRef .tc Cert.ReferenceIdeal.main_v227) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v127 (hag : Agree m ρ m' c) (h : Inv6 m ρ m' c) : Cert.KernelIdeal.GenP.W21 m ρ c (Proc.devRef .tc Cert.KernelIdeal.main_v127) = Cert.Sim.RE m' c (Proc.devRef .tc Cert.ReferenceIdeal.main_v231) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v178 (hag : Agree m ρ m' c) (h : Inv6 m ρ m' c) : Cert.KernelIdeal.GenP.W21 m ρ c (Proc.devRef .tc Cert.KernelIdeal.main_v178) = Cert.Sim.RE m' c (Proc.devRef .tc Cert.ReferenceIdeal.main_v293) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v183 (hag : Agree m ρ m' c) (h : Inv6 m ρ m' c) : Cert.KernelIdeal.GenP.W21 m ρ c (Proc.devRef .tc Cert.KernelIdeal.main_v183) = Cert.Sim.RE m' c (Proc.devRef .tc Cert.ReferenceIdeal.main_v298) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v184 (hag : Agree m ρ m' c) (h : Inv6 m ρ m' c) : Cert.KernelIdeal.GenP.W21 m ρ c (Proc.devRef .tc Cert.KernelIdeal.main_v184) = shapeCast Cert.KernelIdeal.S2048x1 (Cert.KernelIdeal.GenP.W21 m ρ c (Proc.devRef .tc Cert.KernelIdeal.main_v183)) Cert.KernelIdeal.Facts₀.shapeCasts_S2048_S2048x1 := by
  have hd := h; obtain ⟨h_v59_0, h_v59_1, h_v116_0, h_v116_1, h_v117_0, h_v117_1, h_v123, h_v127, h_v134, h_v135, h_v166_0, h_v166_1⟩ := hd
  simp only [Cert.KernelIdeal.GenP.W21, Cert.KernelIdeal.Gen.hostOps7]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v199 (hag : Agree m ρ m' c) (h : Inv6 m ρ m' c) : Cert.KernelIdeal.GenP.W21 m ρ c (Proc.devRef .tc Cert.KernelIdeal.main_v199) = Cert.Sim.RE m' c (Proc.devRef .tc Cert.ReferenceIdeal.main_v313) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

theorem e7_v214 (hag : Agree m ρ m' c) (h : Inv6 m ρ m' c) : Cert.KernelIdeal.GenP.W21 m ρ c (Proc.devRef .tc Cert.KernelIdeal.main_v214) = Cert.Sim.RE m' c (Proc.devRef .tc Cert.ReferenceIdeal.main_v329) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  simp only [W20_arg0 m ρ c, W20_arg1 m ρ c, W20_arg2 m ρ c, W20_arg3 m ρ c, W20_arg4 m ρ c, W20_arg5 m ρ c, W20_arg6 m ρ c, W20_arg7 m ρ c, W20_arg8 m ρ c, W20_arg9 m ρ c, W20_arg10 m ρ c, W20_arg11 m ρ c, W20_arg12 m ρ c, W20_arg13 m ρ c, W20_arg14 m ρ c, W20_arg15 m ρ c, W20_arg16 m ρ c, W20_arg17 m ρ c, W20_arg18 m ρ c, W20_arg19 m ρ c, W20_arg20 m ρ c, W20_arg21 m ρ c, W20_arg22 m ρ c, RD_arg0 m' c, RD_arg1 m' c, RD_arg2 m' c, RD_arg3 m' c, RD_arg4 m' c, RD_arg5 m' c, RD_arg6 m' c, RD_arg7 m' c, RD_arg8 m' c, RD_arg9 m' c, RD_arg10 m' c, RD_arg11 m' c, RD_arg12 m' c, RD_arg13 m' c, RD_arg14 m' c, RD_arg15 m' c, RD_arg16 m' c, RD_arg17 m' c, RD_arg18 m' c, RD_arg19 m' c, RD_arg20 m' c, RD_arg21 m' c, RD_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v59_0, h_v59_1, h_v116_0, h_v116_1, h_v117_0, h_v117_1, h_v123, h_v127, h_v134, h_v135]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The running contrastive loss after this block: the block's masked sum of −log(pos/(neg + ε) + ε), the same total on both sides
    though the kernel's program keeps the columns [2048,1] and the reference [2048]. -/
theorem e7_v176 (hag : Agree (F := Ideal) m ρ m' c) (h : Inv6 (F := Ideal) m ρ m' c) : Cert.KernelIdeal.GenP.W21 m ρ c (Proc.devRef .tc Cert.KernelIdeal.main_v176) = Cert.Sim.RE m' c (Proc.devRef .tc Cert.ReferenceIdeal.main_v291) := by
  have hd := h; obtain ⟨h_v59_0, h_v59_1, h_v116_0, h_v116_1, h_v117_0, h_v117_1, h_v123, h_v127, h_v134, h_v135, h_v166_0, h_v166_1⟩ := hd
  rw [RE_def m' c]
  simp only [Cert.KernelIdeal.GenP.W21, Cert.KernelIdeal.Gen.hostOps7, cE]
  after_results_simp
  rw [h_v135]
  exact congrArg (addf _) (Cert.LossTail.tail_eq _ _ _ _ _ _ h_v166_0 h_v166_1 (fun q => congrFun h_v134 (ix1 q)))

/-- Output 0 of region 7. -/
theorem p7_v215_0 (hag : Agree (F := Ideal) m ρ m' c) (h : Inv6 (F := Ideal) m ρ m' c) : ∀ q : Fin 2048, Cert.KernelIdeal.GenP.W22 m ρ c (Proc.devRef .tc Cert.KernelIdeal.main_v215_0) (Idealize.ShloMosaic.ValueIdx.ix2 q (0 : Fin 1)) = Cert.Sim.RE m' c (Proc.devRef .tc Cert.ReferenceIdeal.main_v335) (Idealize.ShloMosaic.ValueIdx.ix1 q) := by
  intro q
  have hk : Cert.KernelIdeal.GenP.W22 m ρ c (Proc.devRef .tc Cert.KernelIdeal.main_v215_0) = fun i => Cert.Spec.clPos (Cert.KernelIdeal.GenP.W21 m ρ c (Proc.devRef .tc Cert.KernelIdeal.main_v199)) (Cert.KernelIdeal.GenP.W21 m ρ c (Proc.devRef .tc Cert.KernelIdeal.main_v214)) (Cert.KernelIdeal.GenP.W21 m ρ c (Proc.devRef .tc Cert.KernelIdeal.main_v178)) (i 0) :=
    (Cert.KernelIdeal.GenP.W22_arr m ρ c 3).trans (Cert.KernelIdeal.Reg7.arr3 (Cert.KernelIdeal.GenP.V21 m ρ) c)
  have hr : Cert.Sim.RE m' c (Proc.devRef .tc Cert.ReferenceIdeal.main_v335) = Cert.ReferenceIdeal.RefScores.posChain (Cert.Sim.RE m' c (Proc.devRef .tc Cert.ReferenceIdeal.main_v313)) (Cert.Sim.RE m' c (Proc.devRef .tc Cert.ReferenceIdeal.main_v329)) (Cert.Sim.RE m' c (Proc.devRef .tc Cert.ReferenceIdeal.main_v293)) := by
    rw [RE_def m' c]; simp only [cE]; after_results_simp; rfl
  rw [hk, hr, Cert.ReferenceIdeal.RefScores.posChain_eq, e7_v199 m ρ m' c hag h, e7_v214 m ρ m' c hag h, e7_v178 m ρ m' c hag h]
  rfl

/-- Output 1 of region 7. -/
theorem p7_v215_1 (hag : Agree (F := Ideal) m ρ m' c) (h : Inv6 (F := Ideal) m ρ m' c) : ∀ q : Fin 2048, Cert.KernelIdeal.GenP.W22 m ρ c (Proc.devRef .tc Cert.KernelIdeal.main_v215_1) (Idealize.ShloMosaic.ValueIdx.ix2 q (0 : Fin 1)) = Cert.Sim.RE m' c (Proc.devRef .tc Cert.ReferenceIdeal.main_v341) (Idealize.ShloMosaic.ValueIdx.ix1 q) := by
  intro q
  have hk : Cert.KernelIdeal.GenP.W22 m ρ c (Proc.devRef .tc Cert.KernelIdeal.main_v215_1) = fun i => Cert.Spec.clNeg (Cert.KernelIdeal.GenP.W21 m ρ c (Proc.devRef .tc Cert.KernelIdeal.main_v199)) (Cert.KernelIdeal.GenP.W21 m ρ c (Proc.devRef .tc Cert.KernelIdeal.main_v214)) (Cert.KernelIdeal.GenP.W21 m ρ c (Proc.devRef .tc Cert.KernelIdeal.main_v178)) (i 0) :=
    (Cert.KernelIdeal.GenP.W22_arr m ρ c 4).trans (Cert.KernelIdeal.Reg7.arr4 (Cert.KernelIdeal.GenP.V21 m ρ) c)
  have hr : Cert.Sim.RE m' c (Proc.devRef .tc Cert.ReferenceIdeal.main_v341) = Cert.ReferenceIdeal.RefScores.negChain (Cert.Sim.RE m' c (Proc.devRef .tc Cert.ReferenceIdeal.main_v313)) (Cert.Sim.RE m' c (Proc.devRef .tc Cert.ReferenceIdeal.main_v329)) (Cert.Sim.RE m' c (Proc.devRef .tc Cert.ReferenceIdeal.main_v293)) := by
    rw [RE_def m' c]; simp only [cE]; after_results_simp; rfl
  rw [hk, hr, Cert.ReferenceIdeal.RefScores.negChain_eq, e7_v199 m ρ m' c hag h, e7_v214 m ρ m' c hag h, e7_v178 m ρ m' c hag h]
  rfl

theorem x7_v116_0 (hag : Agree (F := Ideal) m ρ m' c) (h : Inv6 (F := Ideal) m ρ m' c) : Cert.KernelIdeal.GenP.W22 m ρ c (Proc.devRef .tc Cert.KernelIdeal.main_v116_0) = Cert.Sim.RE m' c (Proc.devRef .tc Cert.ReferenceIdeal.main_v203) := by
  rw [Cert.KernelIdeal.GenP.W22_of_ne m ρ c Cert.KernelIdeal.main_v116_0 (by decide)]
  exact e7_v116_0 m ρ m' c hag h

theorem x7_v116_1 (hag : Agree (F := Ideal) m ρ m' c) (h : Inv6 (F := Ideal) m ρ m' c) : Cert.KernelIdeal.GenP.W22 m ρ c (Proc.devRef .tc Cert.KernelIdeal.main_v116_1) = Cert.Sim.RE m' c (Proc.devRef .tc Cert.ReferenceIdeal.main_v215) := by
  rw [Cert.KernelIdeal.GenP.W22_of_ne m ρ c Cert.KernelIdeal.main_v116_1 (by decide)]
  exact e7_v116_1 m ρ m' c hag h

theorem x7_v117_0 (hag : Agree (F := Ideal) m ρ m' c) (h : Inv6 (F := Ideal) m ρ m' c) : Cert.KernelIdeal.GenP.W22 m ρ c (Proc.devRef .tc Cert.KernelIdeal.main_v117_0) = Cert.Sim.RE m' c (Proc.devRef .tc Cert.ReferenceIdeal.main_v209) := by
  rw [Cert.KernelIdeal.GenP.W22_of_ne m ρ c Cert.KernelIdeal.main_v117_0 (by decide)]
  exact e7_v117_0 m ρ m' c hag h

theorem x7_v117_1 (hag : Agree (F := Ideal) m ρ m' c) (h : Inv6 (F := Ideal) m ρ m' c) : Cert.KernelIdeal.GenP.W22 m ρ c (Proc.devRef .tc Cert.KernelIdeal.main_v117_1) = Cert.Sim.RE m' c (Proc.devRef .tc Cert.ReferenceIdeal.main_v221) := by
  rw [Cert.KernelIdeal.GenP.W22_of_ne m ρ c Cert.KernelIdeal.main_v117_1 (by decide)]
  exact e7_v117_1 m ρ m' c hag h

theorem x7_v123 (hag : Agree (F := Ideal) m ρ m' c) (h : Inv6 (F := Ideal) m ρ m' c) : Cert.KernelIdeal.GenP.W22 m ρ c (Proc.devRef .tc Cert.KernelIdeal.main_v123) = Cert.Sim.RE m' c (Proc.devRef .tc Cert.ReferenceIdeal.main_v227) := by
  rw [Cert.KernelIdeal.GenP.W22_of_ne m ρ c Cert.KernelIdeal.main_v123 (by decide)]
  exact e7_v123 m ρ m' c hag h

theorem x7_v127 (hag : Agree (F := Ideal) m ρ m' c) (h : Inv6 (F := Ideal) m ρ m' c) : Cert.KernelIdeal.GenP.W22 m ρ c (Proc.devRef .tc Cert.KernelIdeal.main_v127) = Cert.Sim.RE m' c (Proc.devRef .tc Cert.ReferenceIdeal.main_v231) := by
  rw [Cert.KernelIdeal.GenP.W22_of_ne m ρ c Cert.KernelIdeal.main_v127 (by decide)]
  exact e7_v127 m ρ m' c hag h

theorem x7_v176 (hag : Agree (F := Ideal) m ρ m' c) (h : Inv6 (F := Ideal) m ρ m' c) : Cert.KernelIdeal.GenP.W22 m ρ c (Proc.devRef .tc Cert.KernelIdeal.main_v176) = Cert.Sim.RE m' c (Proc.devRef .tc Cert.ReferenceIdeal.main_v291) := by
  rw [Cert.KernelIdeal.GenP.W22_of_ne m ρ c Cert.KernelIdeal.main_v176 (by decide)]
  exact e7_v176 m ρ m' c hag h

theorem x7_v183 (hag : Agree (F := Ideal) m ρ m' c) (h : Inv6 (F := Ideal) m ρ m' c) : Cert.KernelIdeal.GenP.W22 m ρ c (Proc.devRef .tc Cert.KernelIdeal.main_v183) = Cert.Sim.RE m' c (Proc.devRef .tc Cert.ReferenceIdeal.main_v298) := by
  rw [Cert.KernelIdeal.GenP.W22_of_ne m ρ c Cert.KernelIdeal.main_v183 (by decide)]
  exact e7_v183 m ρ m' c hag h

theorem x7_v184 (hag : Agree (F := Ideal) m ρ m' c) (h : Inv6 (F := Ideal) m ρ m' c) : Cert.KernelIdeal.GenP.W22 m ρ c (Proc.devRef .tc Cert.KernelIdeal.main_v184) = shapeCast Cert.KernelIdeal.S2048x1 (Cert.KernelIdeal.GenP.W22 m ρ c (Proc.devRef .tc Cert.KernelIdeal.main_v183)) Cert.KernelIdeal.Facts₀.shapeCasts_S2048_S2048x1 := by
  rw [Cert.KernelIdeal.GenP.W22_of_ne m ρ c Cert.KernelIdeal.main_v184 (by decide), Cert.KernelIdeal.GenP.W22_of_ne m ρ c Cert.KernelIdeal.main_v183 (by decide)]
  exact e7_v184 m ρ m' c hag h

/-- The boundary's agreement is kept across segment 7. -/
theorem step7 (hag : Agree (F := Ideal) m ρ m' c) (h : Inv6 (F := Ideal) m ρ m' c) : Inv7 (F := Ideal) m ρ m' c :=
  ⟨x7_v116_0 m ρ m' c hag h,
   x7_v116_1 m ρ m' c hag h,
   x7_v117_0 m ρ m' c hag h,
   x7_v117_1 m ρ m' c hag h,
   x7_v123 m ρ m' c hag h,
   x7_v127 m ρ m' c hag h,
   x7_v176 m ρ m' c hag h,
   x7_v183 m ρ m' c hag h,
   x7_v184 m ρ m' c hag h,
   p7_v215_0 m ρ m' c hag h,
   p7_v215_1 m ρ m' c hag h⟩

end AtIdeal

end Cert.Sim

end
-- ==== Proof.Reg8.lean ====
/-
  Region 8 (contrastive scores of one batch, a single grid point): the two output columns after the region are the
  positive and the negative scores of the two normalised views through W, row by row.

  First the body's two stored values are read index by index: each product at (r, q) is a sum over the contracted axis,
  the transpose swaps coordinates, each lane sum is a sum over the row, the column cast keeps the row, every format
  change is the identity over the extended reals. Then the region's one grid point writes back each output's whole array,
  and every window's block is its whole array, so the arrays end holding those values.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg8

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The two products' operand indices, axis by axis -/

theorem lhs_proj_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_proj_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q

theorem rhs_proj_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q

theorem rhs_proj_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A row of the left operand against a column of the right one. -/
theorem proj_apply (g : FVec Ideal S2048x64 .bf16) (W : FVec Ideal S64x64 .bf16) (r : Fin 2048) (q : Fin 64) :
    matmul dot_S2048x64_S64x64_S2048x64_1_0_0_1_n_n none g W (constant (F := Ideal) S2048x64 .f32 0x00000000#32) (ix2 r q)
      = ∑ k : Fin 64, g (ix2 r k) * W (ix2 k q) := by
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q)
      ((contrEquiv1 dot_S2048x64_S64x64_S2048x64_1_0_0_1_n_n 64 rfl rfl).symm k) = ix2 r k :=
    funext fun a => Fin.ext (by
      match a with
      | ⟨0, _⟩ => exact lhs_proj_0 _ _
      | ⟨1, _⟩ => exact (lhs_proj_1 _ _).trans hk)
  have er : dot_S2048x64_S64x64_S2048x64_1_0_0_1_n_n.rhsIdx (ix2 r q)
      ((contrEquiv1 dot_S2048x64_S64x64_S2048x64_1_0_0_1_n_n 64 rfl rfl).symm k) = ix2 k q :=
    funext fun a => Fin.ext (by
      match a with
      | ⟨0, _⟩ => exact (rhs_proj_0 _ _).trans hk
      | ⟨1, _⟩ => exact rhs_proj_1 _ _)
  rw [el, er]

theorem lhs_sim_0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

theorem lhs_sim_1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q

theorem rhs_sim_0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q

theorem rhs_sim_1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- A row of the left operand against a column of the (already transposed) right one. -/
theorem sim_apply (a : FVec Ideal S2048x64 .bf16) (b : FVec Ideal S64x2048 .bf16) (r j : Fin 2048) :
    matmul dot_S2048x64_S64x2048_S2048x2048_1_0_0_1_n_n none a b (constant (F := Ideal) S2048x2048 .f32 0x00000000#32) (ix2 r j)
      = ∑ q : Fin 64, a (ix2 r q) * b (ix2 q j) := by
  simp only [matmul]
  rw [Ideal.matmul_constant_zero_apply,
    ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 r j)
      ((contrEquiv1 dot_S2048x64_S64x2048_S2048x2048_1_0_0_1_n_n 64 rfl rfl).symm k) = ix2 r k :=
    funext fun x => Fin.ext (by
      match x with
      | ⟨0, _⟩ => exact lhs_sim_0 _ _
      | ⟨1, _⟩ => exact (lhs_sim_1 _ _).trans hk)
  have er : dot_S2048x64_S64x2048_S2048x2048_1_0_0_1_n_n.rhsIdx (ix2 r j)
      ((contrEquiv1 dot_S2048x64_S64x2048_S2048x2048_1_0_0_1_n_n 64 rfl rfl).symm k) = ix2 k j :=
    funext fun x => Fin.ext (by
      match x with
      | ⟨0, _⟩ => exact (rhs_sim_0 _ _).trans hk
      | ⟨1, _⟩ => exact rhs_sim_1 _ _)
  rw [el, er]

/-! ## Lane sums and the column cast -/

/-- A sum along the rows of a 2048 × 64 array, at row r. -/
theorem lane_sum64 (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ k : Fin 64, src (ix2 r k) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A sum along the rows of a 2048 × 2048 array, at row r. -/
theorem lane_sum2048 (src : FVec Ideal S2048x2048 .f32) (h : S2048x2048.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ j : Fin 2048, src (ix2 r j) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A vector cast to a one-column array reads, at (i, u), the vector at i. -/
theorem col_of_lane {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## The body's values, index by index -/

/-- The weight as the products read it: every format change is the identity. -/
theorem pay1_apply (W : Vec Ideal S64x64 .f32) (i : S64x64.Idx) : k8_pay1 (F := Ideal) W i = W i := by
  unfold k8_pay1
  simp only [truncf_apply, shapeCast_self]

/-- The first view through the weight, at (r, q). -/
theorem pay2_apply (g : Vec Ideal S2048x64 .f32) (W : Vec Ideal S64x64 .f32) (r : Fin 2048) (q : Fin 64) :
    k8_pay2 (F := Ideal) g W (ix2 r q) = ∑ k : Fin 64, g (ix2 r k) * W (ix2 k q) := by
  unfold k8_pay2
  refine (proj_apply _ _ r q).trans ?_
  refine Finset.sum_congr rfl fun k _ => ?_
  rw [truncf_apply, shapeCast_self, pay1_apply]

/-- The second view through the weight, at (r, q). -/
theorem pay3_apply (g : Vec Ideal S2048x64 .f32) (W : Vec Ideal S64x64 .f32) (r : Fin 2048) (q : Fin 64) :
    k8_pay3 (F := Ideal) g W (ix2 r q) = ∑ k : Fin 64, g (ix2 r k) * W (ix2 k q) := by
  unfold k8_pay3
  refine (proj_apply _ _ r q).trans ?_
  refine Finset.sum_congr rfl fun k _ => ?_
  rw [truncf_apply, shapeCast_self, pay1_apply]

/-- The positive score's column, at row r. -/
theorem pay5_apply (g1 g2 : Vec Ideal S2048x64 .f32) (W : Vec Ideal S64x64 .f32) (r : Fin 2048) (u : Fin 1) :
    k8_pay5 (F := Ideal) g1 g2 W (ix2 r u)
      = Ideal.exp (Ideal.div (∑ q : Fin 64, (∑ k : Fin 64, g1 (ix2 r k) * W (ix2 k q)) * (∑ k : Fin 64, g2 (ix2 r k) * W (ix2 k q)))
          (Ideal.ofBits .f32 0x3E4CCCCD#32)) := by
  unfold k8_pay5
  show Ideal.exp (Ideal.div (shapeCast S2048x1 _ _ (ix2 r u)) (Ideal.ofBits .f32 0x3E4CCCCD#32)) = _
  rw [col_of_lane]
  refine congrArg (fun z => Ideal.exp (Ideal.div z _)) ?_
  refine (lane_sum64 _ _ _ _ r).trans ?_
  refine Finset.sum_congr rfl fun q _ => ?_
  rw [mulf_apply, pay2_apply, pay3_apply]

/-- The negative score's column, at row r. -/
theorem pay4_apply (g1 g2 : Vec Ideal S2048x64 .f32) (W : Vec Ideal S64x64 .f32) (r : Fin 2048) (u : Fin 1) :
    k8_pay4 (F := Ideal) g1 g2 W (ix2 r u)
      = ∑ j : Fin 2048, Ideal.exp (Ideal.div
          (∑ q : Fin 64, (∑ k : Fin 64, g1 (ix2 r k) * W (ix2 k q)) * (∑ k : Fin 64, g2 (ix2 j k) * W (ix2 k q)))
          (Ideal.ofBits .f32 0x3E4CCCCD#32)) := by
  unfold k8_pay4
  show shapeCast S2048x1 _ _ (ix2 r u) = _
  rw [col_of_lane]
  refine (lane_sum2048 _ _ _ _ r).trans ?_
  refine Finset.sum_congr rfl fun j _ => ?_
  show Ideal.exp (Ideal.div (matmul (F := Ideal) _ none _ _ _ (ix2 r j)) (Ideal.ofBits .f32 0x3E4CCCCD#32)) = _
  refine congrArg (fun z => Ideal.exp (Ideal.div z _)) ?_
  refine (sim_apply _ _ r j).trans ?_
  refine Finset.sum_congr rfl fun q _ => ?_
  rw [truncf_apply, pay2_apply, transpose_ix2_apply, truncf_apply, pay3_apply]

/-- The positive score at a row, from the body's loads. -/
theorem pos_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k8_pay5 (F := Ideal) x0 x1 x2 j = Cert.Spec.clPos g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay5_apply]
  rfl

/-- The negative score at a row, from the body's loads. -/
theorem neg_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k8_pay4 (F := Ideal) x0 x1 x2 j = Cert.Spec.clNeg g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay4_apply]
  rfl

/-! ## From the one grid point to the arrays -/

-- the TensorCore's buffer contents when the region is entered
variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl

/-- Every window's block index is zero on both axes at every point: each block is its whole array. -/
theorem blocks_at_zero : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The first view's block is its array. -/
theorem blk0_eq (c : Dev nD) (t : Fin cfg8.N) : iblk8 (F := Ideal) V c 0 t = V c main_v248 := by
  obtain ⟨e0, e1, -⟩ := blocks_at_zero t
  funext y
  show V c main_v248 (((cfg8.win 0).blk t).view.emb y) = V c main_v248 y
  refine congrArg (V c main_v248) (funext fun a => Fin.ext ?_)
  match a with
  | ⟨0, _⟩ => show win8_0.index t (0 : Fin 2) * 2048 + 1 * (y 0).val = (y 0).val; omega
  | ⟨1, _⟩ => show win8_0.index t (1 : Fin 2) * 64 + 1 * (y 1).val = (y 1).val; omega

/-- The second view's block is its array. -/
theorem blk1_eq (c : Dev nD) (t : Fin cfg8.N) : iblk8 (F := Ideal) V c 1 t = V c main_v263 := by
  obtain ⟨-, -, e0, e1, -⟩ := blocks_at_zero t
  funext y
  show V c main_v263 (((cfg8.win 1).blk t).view.emb y) = V c main_v263 y
  refine congrArg (V c main_v263) (funext fun a => Fin.ext ?_)
  match a with
  | ⟨0, _⟩ => show win8_1.index t (0 : Fin 2) * 2048 + 1 * (y 0).val = (y 0).val; omega
  | ⟨1, _⟩ => show win8_1.index t (1 : Fin 2) * 64 + 1 * (y 1).val = (y 1).val; omega

/-- The weight's block is its array. -/
theorem blk2_eq (c : Dev nD) (t : Fin cfg8.N) : iblk8 (F := Ideal) V c 2 t = V c main_v227 := by
  obtain ⟨-, -, -, -, e0, e1, -⟩ := blocks_at_zero t
  funext y
  show V c main_v227 (((cfg8.win 2).blk t).view.emb y) = V c main_v227 y
  refine congrArg (V c main_v227) (funext fun a => Fin.ext ?_)
  match a with
  | ⟨0, _⟩ => show win8_2.index t (0 : Fin 2) * 64 + 1 * (y 0).val = (y 0).val; omega
  | ⟨1, _⟩ => show win8_2.index t (1 : Fin 2) * 64 + 1 * (y 1).val = (y 1).val; omega

/-- What a point writes back to the first output is its block of the positive scores. -/
theorem flushed3_eq (c : Dev nD) (t : Fin cfg8.N) :
    (dat8 (F := Ideal) V c).flushed 3 t = ((cfg8.win 3).blk t).view.read (Elt Ideal)
      (fun i => Cert.Spec.clPos (V c main_v248) (V c main_v263) (V c main_v227) (i 0)) := by
  show (cfg8.win 3).cut (grid8.coords t) ((dat8 (F := Ideal) V c).after 3 t) = _
  rw [after8_3]
  unfold out8_3
  rw [View.canon_unit_zero zeros2]
  simp only [View.ld_unit_zero (S := S2048x64) zeros2, View.ld_unit_zero (S := S64x64) zeros2]
  obtain ⟨-, -, -, -, -, -, e0, e1, -⟩ := blocks_at_zero t
  funext j
  show k8_pay5 (F := Ideal) (iblk8 V c 0 t) (iblk8 V c 1 t) (iblk8 V c 2 t) j
    = Cert.Spec.clPos (V c main_v248) (V c main_v263) (V c main_v227) ((((cfg8.win 3).blk t).view.emb j : S2048x1.Idx) 0)
  refine pos_at _ _ _ _ _ _ (blk0_eq V c t) (blk1_eq V c t) (blk2_eq V c t) j _ ?_
  show ((j : S2048x1.Idx) 0).val = win8_3.index t (0 : Fin 2) * 2048 + 1 * ((j : S2048x1.Idx) 0).val
  omega

/-- What a point writes back to the second output is its block of the negative scores. -/
theorem flushed4_eq (c : Dev nD) (t : Fin cfg8.N) :
    (dat8 (F := Ideal) V c).flushed 4 t = ((cfg8.win 4).blk t).view.read (Elt Ideal)
      (fun i => Cert.Spec.clNeg (V c main_v248) (V c main_v263) (V c main_v227) (i 0)) := by
  show (cfg8.win 4).cut (grid8.coords t) ((dat8 (F := Ideal) V c).after 4 t) = _
  rw [after8_4]
  unfold out8_4
  rw [View.canon_unit_zero zeros2]
  simp only [View.ld_unit_zero (S := S2048x64) zeros2, View.ld_unit_zero (S := S64x64) zeros2]
  obtain ⟨-, -, -, -, -, -, -, -, e0, e1⟩ := blocks_at_zero t
  funext j
  show k8_pay4 (F := Ideal) (iblk8 V c 0 t) (iblk8 V c 1 t) (iblk8 V c 2 t) j
    = Cert.Spec.clNeg (V c main_v248) (V c main_v263) (V c main_v227) ((((cfg8.win 4).blk t).view.emb j : S2048x1.Idx) 0)
  refine neg_at _ _ _ _ _ _ (blk0_eq V c t) (blk1_eq V c t) (blk2_eq V c t) j _ ?_
  show ((j : S2048x1.Idx) 0).val = win8_4.index t (0 : Fin 2) * 2048 + 1 * ((j : S2048x1.Idx) 0).val
  omega

/-- An index of the first output is in a point's block iff each coordinate is in the block's range on its axis. -/
theorem mem_blk3 (t : Fin cfg8.N) (i : S2048x1.Idx) :
    i ∈ ((cfg8.win 3).blk t).view.set ↔ ∀ a : Fin 2, win8_3.index t a * S2048x1.size a ≤ (i a).val
      ∧ (i a).val < win8_3.index t a * S2048x1.size a + S2048x1.size a := by
  show i ∈ ((View.whole main_v264_0).slice (win8_3.rect t)).set ↔ _
  rw [View.set_slice_whole, Rect.mem_set_unit]
  exact Iff.rfl

/-- The same for the second output. -/
theorem mem_blk4 (t : Fin cfg8.N) (i : S2048x1.Idx) :
    i ∈ ((cfg8.win 4).blk t).view.set ↔ ∀ a : Fin 2, win8_4.index t a * S2048x1.size a ≤ (i a).val
      ∧ (i a).val < win8_4.index t a * S2048x1.size a + S2048x1.size a := by
  show i ∈ ((View.whole main_v264_1).slice (win8_4.rect t)).set ↔ _
  rw [View.set_slice_whole, Rect.mem_set_unit]
  exact Iff.rfl

/-- The one point's block covers the first output. -/
theorem cover3 (i : S2048x1.Idx) :
    ∃ t : Fin cfg8.N, (cfg8.win 3).flush t = true ∧ i ∈ ((cfg8.win 3).blk t).view.set := by
  refine ⟨t8_0, flush8_3 _, ?_⟩
  obtain ⟨-, -, -, -, -, -, e0, e1, -⟩ := blocks_at_zero t8_0
  rw [mem_blk3]
  intro a
  have h0 : (i 0).val < 2048 := (i 0).isLt
  have h1 : (i 1).val < 1 := (i 1).isLt
  match a with
  | ⟨0, _⟩ =>
    show win8_3.index t8_0 (0 : Fin 2) * 2048 ≤ (i 0).val ∧ (i 0).val < win8_3.index t8_0 (0 : Fin 2) * 2048 + 2048
    omega
  | ⟨1, _⟩ =>
    show win8_3.index t8_0 (1 : Fin 2) * 1 ≤ (i 1).val ∧ (i 1).val < win8_3.index t8_0 (1 : Fin 2) * 1 + 1
    omega

/-- The one point's block covers the second output. -/
theorem cover4 (i : S2048x1.Idx) :
    ∃ t : Fin cfg8.N, (cfg8.win 4).flush t = true ∧ i ∈ ((cfg8.win 4).blk t).view.set := by
  refine ⟨t8_0, flush8_4 _, ?_⟩
  obtain ⟨-, -, -, -, -, -, -, -, e0, e1⟩ := blocks_at_zero t8_0
  rw [mem_blk4]
  intro a
  have h0 : (i 0).val < 2048 := (i 0).isLt
  have h1 : (i 1).val < 1 := (i 1).isLt
  match a with
  | ⟨0, _⟩ =>
    show win8_4.index t8_0 (0 : Fin 2) * 2048 ≤ (i 0).val ∧ (i 0).val < win8_4.index t8_0 (0 : Fin 2) * 2048 + 2048
    omega
  | ⟨1, _⟩ =>
    show win8_4.index t8_0 (1 : Fin 2) * 1 ≤ (i 1).val ∧ (i 1).val < win8_4.index t8_0 (1 : Fin 2) * 1 + 1
    omega

/-- The positive scores. -/
theorem arr3 (c : Dev nD) : (dat8 (F := Ideal) V c).arrAt 3 cfg8.N
    = fun i => Cert.Spec.clPos (V c main_v248) (V c main_v263) (V c main_v227) (i 0) :=
  (dat8 (F := Ideal) V c).arrAt_eq_of_cover 3 _ (fun t _ => flushed3_eq V c t) cover3

/-- The negative scores. -/
theorem arr4 (c : Dev nD) : (dat8 (F := Ideal) V c).arrAt 4 cfg8.N
    = fun i => Cert.Spec.clNeg (V c main_v248) (V c main_v263) (V c main_v227) (i 0) :=
  (dat8 (F := Ideal) V c).arrAt_eq_of_cover 4 _ (fun t _ => flushed4_eq V c t) cover4

end Cert.KernelIdeal.Reg8

end
-- ==== Proof.SimStep8.lean ====
/-
  From the boundary before segment 8 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg8
import proofs.«103739_j26439818674747_2_alg».proof.Proof.RefScores
import proofs.«103739_j26439818674747_2_alg».proof.Proof.LossTail

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e8_v117_0 (hag : Agree m ρ m' c) (h : Inv7 m ρ m' c) : Cert.KernelIdeal.GenP.W23 m ρ c (Proc.devRef .tc Cert.KernelIdeal.main_v117_0) = Cert.Sim.RF m' c (Proc.devRef .tc Cert.ReferenceIdeal.main_v209) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v117_1 (hag : Agree m ρ m' c) (h : Inv7 m ρ m' c) : Cert.KernelIdeal.GenP.W23 m ρ c (Proc.devRef .tc Cert.KernelIdeal.main_v117_1) = Cert.Sim.RF m' c (Proc.devRef .tc Cert.ReferenceIdeal.main_v221) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v123 (hag : Agree m ρ m' c) (h : Inv7 m ρ m' c) : Cert.KernelIdeal.GenP.W23 m ρ c (Proc.devRef .tc Cert.KernelIdeal.main_v123) = Cert.Sim.RF m' c (Proc.devRef .tc Cert.ReferenceIdeal.main_v227) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v127 (hag : Agree m ρ m' c) (h : Inv7 m ρ m' c) : Cert.KernelIdeal.GenP.W23 m ρ c (Proc.devRef .tc Cert.KernelIdeal.main_v127) = Cert.Sim.RF m' c (Proc.devRef .tc Cert.ReferenceIdeal.main_v231) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v227 (hag : Agree m ρ m' c) (h : Inv7 m ρ m' c) : Cert.KernelIdeal.GenP.W23 m ρ c (Proc.devRef .tc Cert.KernelIdeal.main_v227) = Cert.Sim.RF m' c (Proc.devRef .tc Cert.ReferenceIdeal.main_v353) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v232 (hag : Agree m ρ m' c) (h : Inv7 m ρ m' c) : Cert.KernelIdeal.GenP.W23 m ρ c (Proc.devRef .tc Cert.KernelIdeal.main_v232) = Cert.Sim.RF m' c (Proc.devRef .tc Cert.ReferenceIdeal.main_v358) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v233 (hag : Agree m ρ m' c) (h : Inv7 m ρ m' c) : Cert.KernelIdeal.GenP.W23 m ρ c (Proc.devRef .tc Cert.KernelIdeal.main_v233) = shapeCast Cert.KernelIdeal.S2048x1 (Cert.KernelIdeal.GenP.W23 m ρ c (Proc.devRef .tc Cert.KernelIdeal.main_v232)) Cert.KernelIdeal.Facts₀.shapeCasts_S2048_S2048x1 := by
  have hd := h; obtain ⟨h_v116_0, h_v116_1, h_v117_0, h_v117_1, h_v123, h_v127, h_v176, h_v183, h_v184, h_v215_0, h_v215_1⟩ := hd
  simp only [Cert.KernelIdeal.GenP.W23, Cert.KernelIdeal.Gen.hostOps8]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v248 (hag : Agree m ρ m' c) (h : Inv7 m ρ m' c) : Cert.KernelIdeal.GenP.W23 m ρ c (Proc.devRef .tc Cert.KernelIdeal.main_v248) = Cert.Sim.RF m' c (Proc.devRef .tc Cert.ReferenceIdeal.main_v373) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

theorem e8_v263 (hag : Agree m ρ m' c) (h : Inv7 m ρ m' c) : Cert.KernelIdeal.GenP.W23 m ρ c (Proc.devRef .tc Cert.KernelIdeal.main_v263) = Cert.Sim.RF m' c (Proc.devRef .tc Cert.ReferenceIdeal.main_v389) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  simp only [W22_arg0 m ρ c, W22_arg1 m ρ c, W22_arg2 m ρ c, W22_arg3 m ρ c, W22_arg4 m ρ c, W22_arg5 m ρ c, W22_arg6 m ρ c, W22_arg7 m ρ c, W22_arg8 m ρ c, W22_arg9 m ρ c, W22_arg10 m ρ c, W22_arg11 m ρ c, W22_arg12 m ρ c, W22_arg13 m ρ c, W22_arg14 m ρ c, W22_arg15 m ρ c, W22_arg16 m ρ c, W22_arg17 m ρ c, W22_arg18 m ρ c, W22_arg19 m ρ c, W22_arg20 m ρ c, W22_arg21 m ρ c, W22_arg22 m ρ c, RE_arg0 m' c, RE_arg1 m' c, RE_arg2 m' c, RE_arg3 m' c, RE_arg4 m' c, RE_arg5 m' c, RE_arg6 m' c, RE_arg7 m' c, RE_arg8 m' c, RE_arg9 m' c, RE_arg10 m' c, RE_arg11 m' c, RE_arg12 m' c, RE_arg13 m' c, RE_arg14 m' c, RE_arg15 m' c, RE_arg16 m' c, RE_arg17 m' c, RE_arg18 m' c, RE_arg19 m' c, RE_arg20 m' c, RE_arg21 m' c, RE_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v116_0, h_v116_1, h_v117_0, h_v117_1, h_v123, h_v127, h_v176, h_v183, h_v184]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The running contrastive loss after this block: the block's masked sum of −log(pos/(neg + ε) + ε), the same total on both sides
    though the kernel's program keeps the columns [2048,1] and the reference [2048]. -/
theorem e8_v225 (hag : Agree (F := Ideal) m ρ m' c) (h : Inv7 (F := Ideal) m ρ m' c) : Cert.KernelIdeal.GenP.W23 m ρ c (Proc.devRef .tc Cert.KernelIdeal.main_v225) = Cert.Sim.RF m' c (Proc.devRef .tc Cert.ReferenceIdeal.main_v351) := by
  have hd := h; obtain ⟨h_v116_0, h_v116_1, h_v117_0, h_v117_1, h_v123, h_v127, h_v176, h_v183, h_v184, h_v215_0, h_v215_1⟩ := hd
  rw [RF_def m' c]
  simp only [Cert.KernelIdeal.GenP.W23, Cert.KernelIdeal.Gen.hostOps8, cF]
  after_results_simp
  rw [h_v184, h_v176]
  exact congrArg (addf _) (Cert.LossTail.tail_eq _ _ _ _ _ _ h_v215_0 h_v215_1 (fun q => congrFun h_v183 (ix1 q)))

/-- Output 0 of region 8. -/
theorem p8_v264_0 (hag : Agree (F := Ideal) m ρ m' c) (h : Inv7 (F := Ideal) m ρ m' c) : ∀ q : Fin 2048, Cert.KernelIdeal.GenP.W24 m ρ c (Proc.devRef .tc Cert.KernelIdeal.main_v264_0) (Idealize.ShloMosaic.ValueIdx.ix2 q (0 : Fin 1)) = Cert.Sim.RF m' c (Proc.devRef .tc Cert.ReferenceIdeal.main_v395) (Idealize.ShloMosaic.ValueIdx.ix1 q) := by
  intro q
  have hk : Cert.KernelIdeal.GenP.W24 m ρ c (Proc.devRef .tc Cert.KernelIdeal.main_v264_0) = fun i => Cert.Spec.clPos (Cert.KernelIdeal.GenP.W23 m ρ c (Proc.devRef .tc Cert.KernelIdeal.main_v248)) (Cert.KernelIdeal.GenP.W23 m ρ c (Proc.devRef .tc Cert.KernelIdeal.main_v263)) (Cert.KernelIdeal.GenP.W23 m ρ c (Proc.devRef .tc Cert.KernelIdeal.main_v227)) (i 0) :=
    (Cert.KernelIdeal.GenP.W24_arr m ρ c 3).trans (Cert.KernelIdeal.Reg8.arr3 (Cert.KernelIdeal.GenP.V23 m ρ) c)
  have hr : Cert.Sim.RF m' c (Proc.devRef .tc Cert.ReferenceIdeal.main_v395) = Cert.ReferenceIdeal.RefScores.posChain (Cert.Sim.RF m' c (Proc.devRef .tc Cert.ReferenceIdeal.main_v373)) (Cert.Sim.RF m' c (Proc.devRef .tc Cert.ReferenceIdeal.main_v389)) (Cert.Sim.RF m' c (Proc.devRef .tc Cert.ReferenceIdeal.main_v353)) := by
    rw [RF_def m' c]; simp only [cF]; after_results_simp; rfl
  rw [hk, hr, Cert.ReferenceIdeal.RefScores.posChain_eq, e8_v248 m ρ m' c hag h, e8_v263 m ρ m' c hag h, e8_v227 m ρ m' c hag h]
  rfl

/-- Output 1 of region 8. -/
theorem p8_v264_1 (hag : Agree (F := Ideal) m ρ m' c) (h : Inv7 (F := Ideal) m ρ m' c) : ∀ q : Fin 2048, Cert.KernelIdeal.GenP.W24 m ρ c (Proc.devRef .tc Cert.KernelIdeal.main_v264_1) (Idealize.ShloMosaic.ValueIdx.ix2 q (0 : Fin 1)) = Cert.Sim.RF m' c (Proc.devRef .tc Cert.ReferenceIdeal.main_v401) (Idealize.ShloMosaic.ValueIdx.ix1 q) := by
  intro q
  have hk : Cert.KernelIdeal.GenP.W24 m ρ c (Proc.devRef .tc Cert.KernelIdeal.main_v264_1) = fun i => Cert.Spec.clNeg (Cert.KernelIdeal.GenP.W23 m ρ c (Proc.devRef .tc Cert.KernelIdeal.main_v248)) (Cert.KernelIdeal.GenP.W23 m ρ c (Proc.devRef .tc Cert.KernelIdeal.main_v263)) (Cert.KernelIdeal.GenP.W23 m ρ c (Proc.devRef .tc Cert.KernelIdeal.main_v227)) (i 0) :=
    (Cert.KernelIdeal.GenP.W24_arr m ρ c 4).trans (Cert.KernelIdeal.Reg8.arr4 (Cert.KernelIdeal.GenP.V23 m ρ) c)
  have hr : Cert.Sim.RF m' c (Proc.devRef .tc Cert.ReferenceIdeal.main_v401) = Cert.ReferenceIdeal.RefScores.negChain (Cert.Sim.RF m' c (Proc.devRef .tc Cert.ReferenceIdeal.main_v373)) (Cert.Sim.RF m' c (Proc.devRef .tc Cert.ReferenceIdeal.main_v389)) (Cert.Sim.RF m' c (Proc.devRef .tc Cert.ReferenceIdeal.main_v353)) := by
    rw [RF_def m' c]; simp only [cF]; after_results_simp; rfl
  rw [hk, hr, Cert.ReferenceIdeal.RefScores.negChain_eq, e8_v248 m ρ m' c hag h, e8_v263 m ρ m' c hag h, e8_v227 m ρ m' c hag h]
  rfl

theorem x8_v117_0 (hag : Agree (F := Ideal) m ρ m' c) (h : Inv7 (F := Ideal) m ρ m' c) : Cert.KernelIdeal.GenP.W24 m ρ c (Proc.devRef .tc Cert.KernelIdeal.main_v117_0) = Cert.Sim.RF m' c (Proc.devRef .tc Cert.ReferenceIdeal.main_v209) := by
  rw [Cert.KernelIdeal.GenP.W24_of_ne m ρ c Cert.KernelIdeal.main_v117_0 (by decide)]
  exact e8_v117_0 m ρ m' c hag h

theorem x8_v117_1 (hag : Agree (F := Ideal) m ρ m' c) (h : Inv7 (F := Ideal) m ρ m' c) : Cert.KernelIdeal.GenP.W24 m ρ c (Proc.devRef .tc Cert.KernelIdeal.main_v117_1) = Cert.Sim.RF m' c (Proc.devRef .tc Cert.ReferenceIdeal.main_v221) := by
  rw [Cert.KernelIdeal.GenP.W24_of_ne m ρ c Cert.KernelIdeal.main_v117_1 (by decide)]
  exact e8_v117_1 m ρ m' c hag h

theorem x8_v123 (hag : Agree (F := Ideal) m ρ m' c) (h : Inv7 (F := Ideal) m ρ m' c) : Cert.KernelIdeal.GenP.W24 m ρ c (Proc.devRef .tc Cert.KernelIdeal.main_v123) = Cert.Sim.RF m' c (Proc.devRef .tc Cert.ReferenceIdeal.main_v227) := by
  rw [Cert.KernelIdeal.GenP.W24_of_ne m ρ c Cert.KernelIdeal.main_v123 (by decide)]
  exact e8_v123 m ρ m' c hag h

theorem x8_v127 (hag : Agree (F := Ideal) m ρ m' c) (h : Inv7 (F := Ideal) m ρ m' c) : Cert.KernelIdeal.GenP.W24 m ρ c (Proc.devRef .tc Cert.KernelIdeal.main_v127) = Cert.Sim.RF m' c (Proc.devRef .tc Cert.ReferenceIdeal.main_v231) := by
  rw [Cert.KernelIdeal.GenP.W24_of_ne m ρ c Cert.KernelIdeal.main_v127 (by decide)]
  exact e8_v127 m ρ m' c hag h

theorem x8_v225 (hag : Agree (F := Ideal) m ρ m' c) (h : Inv7 (F := Ideal) m ρ m' c) : Cert.KernelIdeal.GenP.W24 m ρ c (Proc.devRef .tc Cert.KernelIdeal.main_v225) = Cert.Sim.RF m' c (Proc.devRef .tc Cert.ReferenceIdeal.main_v351) := by
  rw [Cert.KernelIdeal.GenP.W24_of_ne m ρ c Cert.KernelIdeal.main_v225 (by decide)]
  exact e8_v225 m ρ m' c hag h

theorem x8_v232 (hag : Agree (F := Ideal) m ρ m' c) (h : Inv7 (F := Ideal) m ρ m' c) : Cert.KernelIdeal.GenP.W24 m ρ c (Proc.devRef .tc Cert.KernelIdeal.main_v232) = Cert.Sim.RF m' c (Proc.devRef .tc Cert.ReferenceIdeal.main_v358) := by
  rw [Cert.KernelIdeal.GenP.W24_of_ne m ρ c Cert.KernelIdeal.main_v232 (by decide)]
  exact e8_v232 m ρ m' c hag h

theorem x8_v233 (hag : Agree (F := Ideal) m ρ m' c) (h : Inv7 (F := Ideal) m ρ m' c) : Cert.KernelIdeal.GenP.W24 m ρ c (Proc.devRef .tc Cert.KernelIdeal.main_v233) = shapeCast Cert.KernelIdeal.S2048x1 (Cert.KernelIdeal.GenP.W24 m ρ c (Proc.devRef .tc Cert.KernelIdeal.main_v232)) Cert.KernelIdeal.Facts₀.shapeCasts_S2048_S2048x1 := by
  rw [Cert.KernelIdeal.GenP.W24_of_ne m ρ c Cert.KernelIdeal.main_v233 (by decide), Cert.KernelIdeal.GenP.W24_of_ne m ρ c Cert.KernelIdeal.main_v232 (by decide)]
  exact e8_v233 m ρ m' c hag h

/-- The boundary's agreement is kept across segment 8. -/
theorem step8 (hag : Agree (F := Ideal) m ρ m' c) (h : Inv7 (F := Ideal) m ρ m' c) : Inv8 (F := Ideal) m ρ m' c :=
  ⟨x8_v117_0 m ρ m' c hag h,
   x8_v117_1 m ρ m' c hag h,
   x8_v123 m ρ m' c hag h,
   x8_v127 m ρ m' c hag h,
   x8_v225 m ρ m' c hag h,
   x8_v232 m ρ m' c hag h,
   x8_v233 m ρ m' c hag h,
   p8_v264_0 m ρ m' c hag h,
   p8_v264_1 m ρ m' c hag h⟩

end AtIdeal

end Cert.Sim

end
-- ==== Proof.Reg9.lean ====
/-
  Region 9 (contrastive scores of one batch, a single grid point): the two output columns after the region are the
  positive and the negative scores of the two normalised views through W, row by row.

  First the body's two stored values are read index by index: each product at (r, q) is a sum over the contracted axis,
  the transpose swaps coordinates, each lane sum is a sum over the row, the column cast keeps the row, every format
  change is the identity over the extended reals. Then the region's one grid point writes back each output's whole array,
  and every window's block is its whole array, so the arrays end holding those values.
-/
import proofs.«103739_j26439818674747_2_alg».proof.Proof.FrameKI
import proofs.«103739_j26439818674747_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg9

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The two products' operand indices, axis by axis -/

theorem lhs_proj_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_proj_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q

theorem rhs_proj_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q

theorem rhs_proj_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A row of the left operand against a column of the right one. -/
theorem proj_apply (g : FVec Ideal S2048x64 .bf16) (W : FVec Ideal S64x64 .bf16) (r : Fin 2048) (q : Fin 64) :
    matmul dot_S2048x64_S64x64_S2048x64_1_0_0_1_n_n none g W (constant (F := Ideal) S2048x64 .f32 0x00000000#32) (ix2 r q)
      = ∑ k : Fin 64, g (ix2 r k) * W (ix2 k q) := by
  simp only [matmul]
  rw [Ideal.matmul_constant_zero_apply,
    ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q)
      ((contrEquiv1 dot_S2048x64_S64x64_S2048x64_1_0_0_1_n_n 64 rfl rfl).symm k) = ix2 r k :=
    funext fun a => Fin.ext (by
      match a with
      | ⟨0, _⟩ => exact lhs_proj_0 _ _
      | ⟨1, _⟩ => exact (lhs_proj_1 _ _).trans hk)
  have er : dot_S2048x64_S64x64_S2048x64_1_0_0_1_n_n.rhsIdx (ix2 r q)
      ((contrEquiv1 dot_S2048x64_S64x64_S2048x64_1_0_0_1_n_n 64 rfl rfl).symm k) = ix2 k q :=
    funext fun a => Fin.ext (by
      match a with
      | ⟨0, _⟩ => exact (rhs_proj_0 _ _).trans hk
      | ⟨1, _⟩ => exact rhs_proj_1 _ _)
  rw [el, er]

theorem lhs_sim_0 (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide),
    dif_pos (show (0 : Fin S2048x64.rank) ∈ dot_S2048x64_S64x2048_S2048x2048_1_0_0_1_n_n.lhsNonContracting by decide)]
  rfl

theorem lhs_sim_1 (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q

theorem rhs_sim_0 (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q

theorem rhs_sim_1 (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide),
    dif_pos (show (1 : Fin S64x2048.rank) ∈ dot_S2048x64_S64x2048_S2048x2048_1_0_0_1_n_n.rhsNonContracting by decide)]
  rfl

/-- A row of the left operand against a column of the (already transposed) right one. -/
theorem sim_apply (a : FVec Ideal S2048x64 .bf16) (b : FVec Ideal S64x2048 .bf16) (r j : Fin 2048) :
    matmul dot_S2048x64_S64x2048_S2048x2048_1_0_0_1_n_n none a b (constant (F := Ideal) S2048x2048 .f32 0x00000000#32) (ix2 r j)
      = ∑ q : Fin 64, a (ix2 r q) * b (ix2 q j) := by
  simp only [matmul]
  rw [Ideal.matmul_constant_zero_apply,
    ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 r j)
      ((contrEquiv1 dot_S2048x64_S64x2048_S2048x2048_1_0_0_1_n_n 64 rfl rfl).symm k) = ix2 r k :=
    funext fun x => Fin.ext (by
      match x with
      | ⟨0, _⟩ => exact lhs_sim_0 _ _
      | ⟨1, _⟩ => exact (lhs_sim_1 _ _).trans hk)
  have er : dot_S2048x64_S64x2048_S2048x2048_1_0_0_1_n_n.rhsIdx (ix2 r j)
      ((contrEquiv1 dot_S2048x64_S64x2048_S2048x2048_1_0_0_1_n_n 64 rfl rfl).symm k) = ix2 k j :=
    funext fun x => Fin.ext (by
      match x with
      | ⟨0, _⟩ => exact (rhs_sim_0 _ _).trans hk
      | ⟨1, _⟩ => exact rhs_sim_1 _ _)
  rw [el, er]

/-! ## Lane sums and the column cast -/

/-- A sum along the rows of a 2048 × 64 array, at row r. -/
theorem lane_sum64 (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ k : Fin 64, src (ix2 r k) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A sum along the rows of a 2048 × 2048 array, at row r. -/
theorem lane_sum2048 (src : FVec Ideal S2048x2048 .f32) (h : S2048x2048.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ j : Fin 2048, src (ix2 r j) := by
  refine (Ideal.multiReduction_add_single src _ h hφ hacc (ix1 r)).trans ?_
  refine Finset.sum_congr rfl fun k _ => congrArg src ?_
  funext x
  match x with
  | ⟨0, _⟩ => rfl
  | ⟨1, _⟩ => rfl

/-- A vector cast to a one-column array reads, at (i, u), the vector at i. -/
theorem col_of_lane {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## The body's values, index by index -/

/-- The weight as the products read it: every format change is the identity. -/
theorem pay1_apply (W : Vec Ideal S64x64 .f32) (i : S64x64.Idx) : k9_pay1 (F := Ideal) W i = W i := by
  unfold k9_pay1
  simp only [truncf_apply, shapeCast_self]

/-- The first view through the weight, at (r, q). -/
theorem pay2_apply (g : Vec Ideal S2048x64 .f32) (W : Vec Ideal S64x64 .f32) (r : Fin 2048) (q : Fin 64) :
    k9_pay2 (F := Ideal) g W (ix2 r q) = ∑ k : Fin 64, g (ix2 r k) * W (ix2 k q) := by
  unfold k9_pay2
  refine (proj_apply _ _ r q).trans ?_
  refine Finset.sum_congr rfl fun k _ => ?_
  rw [truncf_apply, shapeCast_self, pay1_apply]

/-- The second view through the weight, at (r, q). -/
theorem pay3_apply (g : Vec Ideal S2048x64 .f32) (W : Vec Ideal S64x64 .f32) (r : Fin 2048) (q : Fin 64) :
    k9_pay3 (F := Ideal) g W (ix2 r q) = ∑ k : Fin 64, g (ix2 r k) * W (ix2 k q) := by
  unfold k9_pay3
  refine (proj_apply _ _ r q).trans ?_
  refine Finset.sum_congr rfl fun k _ => ?_
  rw [truncf_apply, shapeCast_self, pay1_apply]

/-- The positive score's column, at row r. -/
theorem pay5_apply (g1 g2 : Vec Ideal S2048x64 .f32) (W : Vec Ideal S64x64 .f32) (r : Fin 2048) (u : Fin 1) :
    k9_pay5 (F := Ideal) g1 g2 W (ix2 r u)
      = Ideal.exp (Ideal.div (∑ q : Fin 64, (∑ k : Fin 64, g1 (ix2 r k) * W (ix2 k q)) * (∑ k : Fin 64, g2 (ix2 r k) * W (ix2 k q)))
          (Ideal.ofBits .f32 0x3E4CCCCD#32)) := by
  unfold k9_pay5
  show Ideal.exp (Ideal.div (shapeCast S2048x1 _ _ (ix2 r u)) (Ideal.ofBits .f32 0x3E4CCCCD#32)) = _
  rw [col_of_lane]
  refine congrArg (fun z => Ideal.exp (Ideal.div z _)) ?_
  refine (lane_sum64 _ _ _ _ r).trans ?_
  refine Finset.sum_congr rfl fun q _ => ?_
  rw [mulf_apply, pay2_apply, pay3_apply]

/-- The negative score's column, at row r. -/
theorem pay4_apply (g1 g2 : Vec Ideal S2048x64 .f32) (W : Vec Ideal S64x64 .f32) (r : Fin 2048) (u : Fin 1) :
    k9_pay4 (F := Ideal) g1 g2 W (ix2 r u)
      = ∑ j : Fin 2048, Ideal.exp (Ideal.div
          (∑ q : Fin 64, (∑ k : Fin 64, g1 (ix2 r k) * W (ix2 k q)) * (∑ k : Fin 64, g2 (ix2 j k) * W (ix2 k q)))
          (Ideal.ofBits .f32 0x3E4CCCCD#32)) := by
  unfold k9_pay4
  show shapeCast S2048x1 _ _ (ix2 r u) = _
  rw [col_of_lane]
  refine (lane_sum2048 _ _ _ _ r).trans ?_
  refine Finset.sum_congr rfl fun j _ => ?_
  show Ideal.exp (Ideal.div (matmul (F := Ideal) _ none _ _ _ (ix2 r j)) (Ideal.ofBits .f32 0x3E4CCCCD#32)) = _
  refine congrArg (fun z => Ideal.exp (Ideal.div z _)) ?_
  refine (sim_apply _ _ r j).trans ?_
  refine Finset.sum_congr rfl fun q _ => ?_
  rw [truncf_apply, pay2_apply, transpose_ix2_apply, truncf_apply, pay3_apply]

/-- The positive score at a row, from the body's loads. -/
theorem pos_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k9_pay5 (F := Ideal) x0 x1 x2 j = Cert.Spec.clPos g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay5_apply]
  rfl

/-- The negative score at a row, from the body's loads. -/
theorem neg_at (x0 x1 : Vec Ideal S2048x64 .f32) (x2 : Vec Ideal S64x64 .f32)
    (g1 g2 : Vec Ideal S2048x64 .f32) (W : Vec Ideal S64x64 .f32) (h0 : x0 = g1) (h1 : x1 = g2) (h2 : x2 = W)
    (j : S2048x1.Idx) (r : Fin 2048) (hr : (j 0).val = r.val) :
    k9_pay4 (F := Ideal) x0 x1 x2 j = Cert.Spec.clNeg g1 g2 W r := by
  subst h0 h1 h2
  obtain ⟨p, u, rfl⟩ : ∃ (p : Fin 2048) (u : Fin 1), j = ix2 p u := ⟨j 0, j 1, eq_ix2 j⟩
  have hp : p = r := Fin.ext hr
  subst hp
  rw [pay4_apply]
  rfl

/-! ## From the one grid point to the arrays -/

-- the TensorCore's buffer contents when the region is entered
variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl

/-- Every window's block index is zero on both axes at every point: each block is its whole array. -/
theorem blocks_at_zero : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- The first view's block is its array. -/
theorem blk0_eq (c : Dev nD) (t : Fin cfg9.N) : iblk9 (F := Ideal) V c 0 t = V c main_v297 := by
  obtain ⟨e0, e1, -⟩ := blocks_at_zero t
  funext y
  show V c main_v297 (((cfg9.win 0).blk t).view.emb y) = V c main_v297 y
  refine congrArg (V c main_v297) (funext fun a => Fin.ext ?_)
  match a with
  | ⟨0, _⟩ => show win9_0.index t (0 : Fin 2) * 2048 + 1 * (y 0).val = (y 0).val; omega
  | ⟨1, _⟩ => show win9_0.index t (1 : Fin 2) * 64 + 1 * (y 1).val = (y 1).val; omega

/-- The second view's block is its array. -/
theorem blk1_eq (c : Dev nD) (t : Fin cfg9.N) : iblk9 (F := Ideal) V c 1 t = V c main_v312 := by
  obtain ⟨-, -, e0, e1, -⟩ := blocks_at_zero t
  funext y
  show V c main_v312 (((cfg9.win 1).blk t).view.emb y) = V c main_v312 y
  refine congrArg (V c main_v312) (funext fun a => Fin.ext ?_)
  match a with
  | ⟨0, _⟩ => show win9_1.index t (0 : Fin 2) * 2048 + 1 * (y 0).val = (y 0).val; omega
  | ⟨1, _⟩ => show win9_1.index t (1 : Fin 2) * 64 + 1 * (y 1).val = (y 1).val; omega

/-- The weight's block is its array. -/
theorem blk2_eq (c : Dev nD) (t : Fin cfg9.N) : iblk9 (F := Ideal) V c 2 t = V c main_v276 := by
  obtain ⟨-, -, -, -, e0, e1, -⟩ := blocks_at_zero t
  funext y
  show V c main_v276 (((cfg9.win 2).blk t).view.emb y) = V c main_v276 y
  refine congrArg (V c main_v276) (funext fun a => Fin.ext ?_)
  match a with
  | ⟨0, _⟩ => show win9_2.index t (0 : Fin 2) * 64 + 1 * (y 0).val = (y 0).val; omega
  | ⟨1, _⟩ => show win9_2.index t (1 : Fin 2) * 64 + 1 * (y 1).val = (y 1).val; omega

/-- What a point writes back to the first output is its block of the positive scores. -/
theorem flushed3_eq (c : Dev nD) (t : Fin cfg9.N) :
    (dat9 (F := Ideal) V c).flushed 3 t = ((cfg9.win 3).blk t).view.read (Elt Ideal)
      (fun i => Cert.Spec.clPos (V c main_v297) (V c main_v312) (V c main_v276) (i 0)) := by
  show (cfg9.win 3).cut (grid9.coords t) ((dat9 (F := Ideal) V c).after 3 t) = _
  rw [after9_3]
  unfold out9_3
  rw [View.canon_unit_zero zeros2]
  simp only [View.ld_unit_zero (S := S2048x64) zeros2, View.ld_unit_zero (S := S64x64) zeros2]
  obtain ⟨-, -, -, -, -, -, e0, e1, -⟩ := blocks_at_zero t
  funext j
  show k9_pay5 (F := Ideal) (iblk9 V c 0 t) (iblk9 V c 1 t) (iblk9 V c 2 t) j
    = Cert.Spec.clPos (V c main_v297) (V c main_v312) (V c main_v276) ((((cfg9.win 3).blk t).view.emb j : S2048x1.Idx) 0)
  refine pos_at _ _ _ _ _ _ (blk0_eq V c t) (blk1_eq V c t) (blk2_eq V c t) j _ ?_
  show ((j : S2048x1.Idx) 0).val = win9_3.index t (0 : Fin 2) * 2048 + 1 * ((j : S2048x1.Idx) 0).val
  omega

/-- What a point writes back to the second output is its block of the negative scores. -/
theorem flushed4_eq (c : Dev nD) (t : Fin cfg9.N) :
    (dat9 (F := Ideal) V c).flushed 4 t = ((cfg9.win 4).blk t).view.read (Elt Ideal)
      (fun i => Cert.Spec.clNeg (V c main_v297) (V c main_v312) (V c main_v276) (i 0)) := by
  show (cfg9.win 4).cut (grid9.coords t) ((dat9 (F := Ideal) V c).after 4 t) = _
  rw [after9_4]
  unfold out9_4
  rw [View.canon_unit_zero zeros2]
  simp only [View.ld_unit_zero (S := S2048x64) zeros2, View.ld_unit_zero (S := S64x64) zeros2]
  obtain ⟨-, -, -, -, -, -, -, -, e0, e1⟩ := blocks_at_zero t
  funext j
  show k9_pay4 (F := Ideal) (iblk9 V c 0 t) (iblk9 V c 1 t) (iblk9 V c 2 t) j
    = Cert.Spec.clNeg (V c main_v297) (V c main_v312) (V c main_v276) ((((cfg9.win 4).blk t).view.emb j : S2048x1.Idx) 0)
  refine neg_at _ _ _ _ _ _ (blk0_eq V c t) (blk1_eq V c t) (blk2_eq V c t) j _ ?_
  show ((j : S2048x1.Idx) 0).val = win9_4.index t (0 : Fin 2) * 2048 + 1 * ((j : S2048x1.Idx) 0).val
  omega

/-- An index of the first output is in a point's block iff each coordinate is in the block's range on its axis. -/
theorem mem_blk3 (t : Fin cfg9.N) (i : S2048x1.Idx) :
    i ∈ ((cfg9.win 3).blk t).view.set ↔ ∀ a : Fin 2, win9_3.index t a * S2048x1.size a ≤ (i a).val
      ∧ (i a).val < win9_3.index t a * S2048x1.size a + S2048x1.size a := by
  show i ∈ ((View.whole main_v313_0).slice (win9_3.rect t)).set ↔ _
  rw [View.set_slice_whole, Rect.mem_set_unit]
  exact Iff.rfl

/-- The same for the second output. -/
theorem mem_blk4 (t : Fin cfg9.N) (i : S2048x1.Idx) :
    i ∈ ((cfg9.win 4).blk t).view.set ↔ ∀ a : Fin 2, win9_4.index t a * S2048x1.size a ≤ (i a).val
      ∧ (i a).val < win9_4.index t a * S2048x1.size a + S2048x1.size a := by
  show i ∈ ((View.whole main_v313_1).slice (win9_4.rect t)).set ↔ _
  rw [View.set_slice_whole, Rect.mem_set_unit]
  exact Iff.rfl

/-- The one point's block covers the first output. -/
theorem cover3 (i : S2048x1.Idx) :
    ∃ t : Fin cfg9.N, (cfg9.win 3).flush t = true ∧ i ∈ ((cfg9.win 3).blk t).view.set := by
  refine ⟨t9_0, flush9_3 _, ?_⟩
  obtain ⟨-, -, -, -, -, -, e0, e1, -⟩ := blocks_at_zero t9_0
  rw [mem_blk3]
  intro a
  have h0 : (i 0).val < 2048 := (i 0).isLt
  have h1 : (i 1).val < 1 := (i 1).isLt
  match a with
  | ⟨0, _⟩ =>
    show win9_3.index t9_0 (0 : Fin 2) * 2048 ≤ (i 0).val ∧ (i 0).val < win9_3.index t9_0 (0 : Fin 2) * 2048 + 2048
    omega
  | ⟨1, _⟩ =>
    show win9_3.index t9_0 (1 : Fin 2) * 1 ≤ (i 1).val ∧ (i 1).val < win9_3.index t9_0 (1 : Fin 2) * 1 + 1
    omega

/-- The one point's block covers the second output. -/
theorem cover4 (i : S2048x1.Idx) :
    ∃ t : Fin cfg9.N, (cfg9.win 4).flush t = true ∧ i ∈ ((cfg9.win 4).blk t).view.set := by
  refine ⟨t9_0, flush9_4 _, ?_⟩
  obtain ⟨-, -, -, -, -, -, -, -, e0, e1⟩ := blocks_at_zero t9_0
  rw [mem_blk4]
  intro a
  have h0 : (i 0).val < 2048 := (i 0).isLt
  have h1 : (i 1).val < 1 := (i 1).isLt
  match a with
  | ⟨0, _⟩ =>
    show win9_4.index t9_0 (0 : Fin 2) * 2048 ≤ (i 0).val ∧ (i 0).val < win9_4.index t9_0 (0 : Fin 2) * 2048 + 2048
    omega
  | ⟨1, _⟩ =>
    show win9_4.index t9_0 (1 : Fin 2) * 1 ≤ (i 1).val ∧ (i 1).val < win9_4.index t9_0 (1 : Fin 2) * 1 + 1
    omega

/-- The positive scores. -/
theorem arr3 (c : Dev nD) : (dat9 (F := Ideal) V c).arrAt 3 cfg9.N
    = fun i => Cert.Spec.clPos (V c main_v297) (V c main_v312) (V c main_v276) (i 0) :=
  (dat9 (F := Ideal) V c).arrAt_eq_of_cover 3 _ (fun t _ => flushed3_eq V c t) cover3

/-- The negative scores. -/
theorem arr4 (c : Dev nD) : (dat9 (F := Ideal) V c).arrAt 4 cfg9.N
    = fun i => Cert.Spec.clNeg (V c main_v297) (V c main_v312) (V c main_v276) (i 0) :=
  (dat9 (F := Ideal) V c).arrAt_eq_of_cover 4 _ (fun t _ => flushed4_eq V c t) cover4

end Cert.KernelIdeal.Reg9

end
-- ==== Proof.SimStep9.lean ====
/-
  From the boundary before segment 9 of the kernel's program to the boundary after it: every buffer read later keeps its
  agreement with the reference's. A buffer the segment only passes on is unchanged on both sides; one its host operations
  compute is the same composition of the same operations of agreeing operands on both sides; the region's outputs are the
  region's function of its entry arrays on the kernel's side and the reference's chain of host operations, which is the same function, on the other.
-/
import proofs.«103739_j26439818674747_2_alg».proof.Proof.SimInv
import Idealize.ShloMosaic.Lib.ValueIdx
import proofs.«103739_j26439818674747_2_alg».proof.Proof.Reg9
import proofs.«103739_j26439818674747_2_alg».proof.Proof.RefScores
import proofs.«103739_j26439818674747_2_alg».proof.Proof.LossTail

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e9_v123 (hag : Agree m ρ m' c) (h : Inv8 m ρ m' c) : Cert.KernelIdeal.GenP.W25 m ρ c (Proc.devRef .tc Cert.KernelIdeal.main_v123) = Cert.Sim.RG m' c (Proc.devRef .tc Cert.ReferenceIdeal.main_v227) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v127 (hag : Agree m ρ m' c) (h : Inv8 m ρ m' c) : Cert.KernelIdeal.GenP.W25 m ρ c (Proc.devRef .tc Cert.KernelIdeal.main_v127) = Cert.Sim.RG m' c (Proc.devRef .tc Cert.ReferenceIdeal.main_v231) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v276 (hag : Agree m ρ m' c) (h : Inv8 m ρ m' c) : Cert.KernelIdeal.GenP.W25 m ρ c (Proc.devRef .tc Cert.KernelIdeal.main_v276) = Cert.Sim.RG m' c (Proc.devRef .tc Cert.ReferenceIdeal.main_v413) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v281 (hag : Agree m ρ m' c) (h : Inv8 m ρ m' c) : Cert.KernelIdeal.GenP.W25 m ρ c (Proc.devRef .tc Cert.KernelIdeal.main_v281) = Cert.Sim.RG m' c (Proc.devRef .tc Cert.ReferenceIdeal.main_v418) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v282 (hag : Agree m ρ m' c) (h : Inv8 m ρ m' c) : Cert.KernelIdeal.GenP.W25 m ρ c (Proc.devRef .tc Cert.KernelIdeal.main_v282) = shapeCast Cert.KernelIdeal.S2048x1 (Cert.KernelIdeal.GenP.W25 m ρ c (Proc.devRef .tc Cert.KernelIdeal.main_v281)) Cert.KernelIdeal.Facts₀.shapeCasts_S2048_S2048x1 := by
  have hd := h; obtain ⟨h_v117_0, h_v117_1, h_v123, h_v127, h_v225, h_v232, h_v233, h_v264_0, h_v264_1⟩ := hd
  simp only [Cert.KernelIdeal.GenP.W25, Cert.KernelIdeal.Gen.hostOps9]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v297 (hag : Agree m ρ m' c) (h : Inv8 m ρ m' c) : Cert.KernelIdeal.GenP.W25 m ρ c (Proc.devRef .tc Cert.KernelIdeal.main_v297) = Cert.Sim.RG m' c (Proc.devRef .tc Cert.ReferenceIdeal.main_v433) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

theorem e9_v312 (hag : Agree m ρ m' c) (h : Inv8 m ρ m' c) : Cert.KernelIdeal.GenP.W25 m ρ c (Proc.devRef .tc Cert.KernelIdeal.main_v312) = Cert.Sim.RG m' c (Proc.devRef .tc Cert.ReferenceIdeal.main_v449) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  simp only [W24_arg0 m ρ c, W24_arg1 m ρ c, W24_arg2 m ρ c, W24_arg3 m ρ c, W24_arg4 m ρ c, W24_arg5 m ρ c, W24_arg6 m ρ c, W24_arg7 m ρ c, W24_arg8 m ρ c, W24_arg9 m ρ c, W24_arg10 m ρ c, W24_arg11 m ρ c, W24_arg12 m ρ c, W24_arg13 m ρ c, W24_arg14 m ρ c, W24_arg15 m ρ c, W24_arg16 m ρ c, W24_arg17 m ρ c, W24_arg18 m ρ c, W24_arg19 m ρ c, W24_arg20 m ρ c, W24_arg21 m ρ c, W24_arg22 m ρ c, RF_arg0 m' c, RF_arg1 m' c, RF_arg2 m' c, RF_arg3 m' c, RF_arg4 m' c, RF_arg5 m' c, RF_arg6 m' c, RF_arg7 m' c, RF_arg8 m' c, RF_arg9 m' c, RF_arg10 m' c, RF_arg11 m' c, RF_arg12 m' c, RF_arg13 m' c, RF_arg14 m' c, RF_arg15 m' c, RF_arg16 m' c, RF_arg17 m' c, RF_arg18 m' c, RF_arg19 m' c, RF_arg20 m' c, RF_arg21 m' c, RF_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v117_0, h_v117_1, h_v123, h_v127, h_v225, h_v232, h_v233]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The running contrastive loss after this block: the block's masked sum of −log(pos/(neg + ε) + ε), the same total on both sides
    though the kernel's program keeps the columns [2048,1] and the reference [2048]. -/
theorem e9_v274 (hag : Agree (F := Ideal) m ρ m' c) (h : Inv8 (F := Ideal) m ρ m' c) : Cert.KernelIdeal.GenP.W25 m ρ c (Proc.devRef .tc Cert.KernelIdeal.main_v274) = Cert.Sim.RG m' c (Proc.devRef .tc Cert.ReferenceIdeal.main_v411) := by
  have hd := h; obtain ⟨h_v117_0, h_v117_1, h_v123, h_v127, h_v225, h_v232, h_v233, h_v264_0, h_v264_1⟩ := hd
  rw [RG_def m' c]
  simp only [Cert.KernelIdeal.GenP.W25, Cert.KernelIdeal.Gen.hostOps9, cG]
  after_results_simp
  rw [h_v233, h_v225]
  exact congrArg (addf _) (Cert.LossTail.tail_eq _ _ _ _ _ _ h_v264_0 h_v264_1 (fun q => congrFun h_v232 (ix1 q)))

/-- Output 0 of region 9. -/
theorem p9_v313_0 (hag : Agree (F := Ideal) m ρ m' c) (h : Inv8 (F := Ideal) m ρ m' c) : ∀ q : Fin 2048, Cert.KernelIdeal.GenP.W26 m ρ c (Proc.devRef .tc Cert.KernelIdeal.main_v313_0) (Idealize.ShloMosaic.ValueIdx.ix2 q (0 : Fin 1)) = Cert.Sim.RG m' c (Proc.devRef .tc Cert.ReferenceIdeal.main_v455) (Idealize.ShloMosaic.ValueIdx.ix1 q) := by
  intro q
  have hk : Cert.KernelIdeal.GenP.W26 m ρ c (Proc.devRef .tc Cert.KernelIdeal.main_v313_0) = fun i => Cert.Spec.clPos (Cert.KernelIdeal.GenP.W25 m ρ c (Proc.devRef .tc Cert.KernelIdeal.main_v297)) (Cert.KernelIdeal.GenP.W25 m ρ c (Proc.devRef .tc Cert.KernelIdeal.main_v312)) (Cert.KernelIdeal.GenP.W25 m ρ c (Proc.devRef .tc Cert.KernelIdeal.main_v276)) (i 0) :=
    (Cert.KernelIdeal.GenP.W26_arr m ρ c 3).trans (Cert.KernelIdeal.Reg9.arr3 (Cert.KernelIdeal.GenP.V25 m ρ) c)
  have hr : Cert.Sim.RG m' c (Proc.devRef .tc Cert.ReferenceIdeal.main_v455) = Cert.ReferenceIdeal.RefScores.posChain (Cert.Sim.RG m' c (Proc.devRef .tc Cert.ReferenceIdeal.main_v433)) (Cert.Sim.RG m' c (Proc.devRef .tc Cert.ReferenceIdeal.main_v449)) (Cert.Sim.RG m' c (Proc.devRef .tc Cert.ReferenceIdeal.main_v413)) := by
    rw [RG_def m' c]; simp only [cG]; after_results_simp; rfl
  rw [hk, hr, Cert.ReferenceIdeal.RefScores.posChain_eq, e9_v297 m ρ m' c hag h, e9_v312 m ρ m' c hag h, e9_v276 m ρ m' c hag h]
  rfl

/-- Output 1 of region 9. -/
theorem p9_v313_1 (hag : Agree (F := Ideal) m ρ m' c) (h : Inv8 (F := Ideal) m ρ m' c) : ∀ q : Fin 2048, Cert.KernelIdeal.GenP.W26 m ρ c (Proc.devRef .tc Cert.KernelIdeal.main_v313_1) (Idealize.ShloMosaic.ValueIdx.ix2 q (0 : Fin 1)) = Cert.Sim.RG m' c (Proc.devRef .tc Cert.ReferenceIdeal.main_v461) (Idealize.ShloMosaic.ValueIdx.ix1 q) := by
  intro q
  have hk : Cert.KernelIdeal.GenP.W26 m ρ c (Proc.devRef .tc Cert.KernelIdeal.main_v313_1) = fun i => Cert.Spec.clNeg (Cert.KernelIdeal.GenP.W25 m ρ c (Proc.devRef .tc Cert.KernelIdeal.main_v297)) (Cert.KernelIdeal.GenP.W25 m ρ c (Proc.devRef .tc Cert.KernelIdeal.main_v312)) (Cert.KernelIdeal.GenP.W25 m ρ c (Proc.devRef .tc Cert.KernelIdeal.main_v276)) (i 0) :=
    (Cert.KernelIdeal.GenP.W26_arr m ρ c 4).trans (Cert.KernelIdeal.Reg9.arr4 (Cert.KernelIdeal.GenP.V25 m ρ) c)
  have hr : Cert.Sim.RG m' c (Proc.devRef .tc Cert.ReferenceIdeal.main_v461) = Cert.ReferenceIdeal.RefScores.negChain (Cert.Sim.RG m' c (Proc.devRef .tc Cert.ReferenceIdeal.main_v433)) (Cert.Sim.RG m' c (Proc.devRef .tc Cert.ReferenceIdeal.main_v449)) (Cert.Sim.RG m' c (Proc.devRef .tc Cert.ReferenceIdeal.main_v413)) := by
    rw [RG_def m' c]; simp only [cG]; after_results_simp; rfl
  rw [hk, hr, Cert.ReferenceIdeal.RefScores.negChain_eq, e9_v297 m ρ m' c hag h, e9_v312 m ρ m' c hag h, e9_v276 m ρ m' c hag h]
  rfl

theorem x9_v123 (hag : Agree (F := Ideal) m ρ m' c) (h : Inv8 (F := Ideal) m ρ m' c) : Cert.KernelIdeal.GenP.W26 m ρ c (Proc.devRef .tc Cert.KernelIdeal.main_v123) = Cert.Sim.RG m' c (Proc.devRef .tc Cert.ReferenceIdeal.main_v227) := by
  rw [Cert.KernelIdeal.GenP.W26_of_ne m ρ c Cert.KernelIdeal.main_v123 (by decide)]
  exact e9_v123 m ρ m' c hag h

theorem x9_v127 (hag : Agree (F := Ideal) m ρ m' c) (h : Inv8 (F := Ideal) m ρ m' c) : Cert.KernelIdeal.GenP.W26 m ρ c (Proc.devRef .tc Cert.KernelIdeal.main_v127) = Cert.Sim.RG m' c (Proc.devRef .tc Cert.ReferenceIdeal.main_v231) := by
  rw [Cert.KernelIdeal.GenP.W26_of_ne m ρ c Cert.KernelIdeal.main_v127 (by decide)]
  exact e9_v127 m ρ m' c hag h

theorem x9_v274 (hag : Agree (F := Ideal) m ρ m' c) (h : Inv8 (F := Ideal) m ρ m' c) : Cert.KernelIdeal.GenP.W26 m ρ c (Proc.devRef .tc Cert.KernelIdeal.main_v274) = Cert.Sim.RG m' c (Proc.devRef .tc Cert.ReferenceIdeal.main_v411) := by
  rw [Cert.KernelIdeal.GenP.W26_of_ne m ρ c Cert.KernelIdeal.main_v274 (by decide)]
  exact e9_v274 m ρ m' c hag h

theorem x9_v281 (hag : Agree (F := Ideal) m ρ m' c) (h : Inv8 (F := Ideal) m ρ m' c) : Cert.KernelIdeal.GenP.W26 m ρ c (Proc.devRef .tc Cert.KernelIdeal.main_v281) = Cert.Sim.RG m' c (Proc.devRef .tc Cert.ReferenceIdeal.main_v418) := by
  rw [Cert.KernelIdeal.GenP.W26_of_ne m ρ c Cert.KernelIdeal.main_v281 (by decide)]
  exact e9_v281 m ρ m' c hag h

theorem x9_v282 (hag : Agree (F := Ideal) m ρ m' c) (h : Inv8 (F := Ideal) m ρ m' c) : Cert.KernelIdeal.GenP.W26 m ρ c (Proc.devRef .tc Cert.KernelIdeal.main_v282) = shapeCast Cert.KernelIdeal.S2048x1 (Cert.KernelIdeal.GenP.W26 m ρ c (Proc.devRef .tc Cert.KernelIdeal.main_v281)) Cert.KernelIdeal.Facts₀.shapeCasts_S2048_S2048x1 := by
  rw [Cert.KernelIdeal.GenP.W26_of_ne m ρ c Cert.KernelIdeal.main_v282 (by decide), Cert.KernelIdeal.GenP.W26_of_ne m ρ c Cert.KernelIdeal.main_v281 (by decide)]
  exact e9_v282 m ρ m' c hag h

/-- The boundary's agreement is kept across segment 9. -/
theorem step9 (hag : Agree (F := Ideal) m ρ m' c) (h : Inv8 (F := Ideal) m ρ m' c) : Inv9 (F := Ideal) m ρ m' c :=
  ⟨x9_v123 m ρ m' c hag h,
   x9_v127 m ρ m' c hag h,
   x9_v274 m ρ m' c hag h,
   x9_v281 m ρ m' c hag h,
   x9_v282 m ρ m' c hag h,
   p9_v313_0 m ρ m' c hag h,
   p9_v313_1 m ρ m' c hag h⟩

end AtIdeal

end Cert.Sim

end
-- ==== Proof.SimStep10.lean ====
/-
  From the boundary before segment 10 of the kernel's program to the boundary after it: every buffer read later keeps its
  agreement with the reference's. A buffer the segment only passes on is unchanged on both sides; one its host operations
  compute is the same composition of the same operations of agreeing operands on both sides.
-/
import proofs.«103739_j26439818674747_2_alg».proof.Proof.SimInv
import Idealize.ShloMosaic.Lib.ValueIdx
import proofs.«103739_j26439818674747_2_alg».proof.Proof.LossTail

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e10_v351 (hag : Agree m ρ m' c) (h : Inv9 m ρ m' c) : Cert.Sim.KW27 m ρ c (Proc.devRef .tc Cert.KernelIdeal.main_v351) = Cert.Sim.RH m' c (Proc.devRef .tc Cert.ReferenceIdeal.main_v499) := by
  have hd := h; obtain ⟨h_v123, h_v127, h_v274, h_v281, h_v282, h_v313_0, h_v313_1⟩ := hd
  rw [KW27_eq m ρ c]
  rw [RH_def m' c]
  simp only [Cert.KernelIdeal.Gen.hostOps10, cH]
  after_results_simp
  simp only [W26_arg0 m ρ c, W26_arg1 m ρ c, W26_arg2 m ρ c, W26_arg3 m ρ c, W26_arg4 m ρ c, W26_arg5 m ρ c, W26_arg6 m ρ c, W26_arg7 m ρ c, W26_arg8 m ρ c, W26_arg9 m ρ c, W26_arg10 m ρ c, W26_arg11 m ρ c, W26_arg12 m ρ c, W26_arg13 m ρ c, W26_arg14 m ρ c, W26_arg15 m ρ c, W26_arg16 m ρ c, W26_arg17 m ρ c, W26_arg18 m ρ c, W26_arg19 m ρ c, W26_arg20 m ρ c, W26_arg21 m ρ c, W26_arg22 m ρ c, RG_arg0 m' c, RG_arg1 m' c, RG_arg2 m' c, RG_arg3 m' c, RG_arg4 m' c, RG_arg5 m' c, RG_arg6 m' c, RG_arg7 m' c, RG_arg8 m' c, RG_arg9 m' c, RG_arg10 m' c, RG_arg11 m' c, RG_arg12 m' c, RG_arg13 m' c, RG_arg14 m' c, RG_arg15 m' c, RG_arg16 m' c, RG_arg17 m' c, RG_arg18 m' c, RG_arg19 m' c, RG_arg20 m' c, RG_arg21 m' c, RG_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v123, h_v127, h_v274, h_v281, h_v282]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The running contrastive loss after this block: the block's masked sum of −log(pos/(neg + ε) + ε), the same total on both sides
    though the kernel's program keeps the columns [2048,1] and the reference [2048]. -/
theorem e10_v323 (hag : Agree (F := Ideal) m ρ m' c) (h : Inv9 (F := Ideal) m ρ m' c) : Cert.Sim.KW27 m ρ c (Proc.devRef .tc Cert.KernelIdeal.main_v323) = Cert.Sim.RH m' c (Proc.devRef .tc Cert.ReferenceIdeal.main_v471) := by
  have hd := h; obtain ⟨h_v123, h_v127, h_v274, h_v281, h_v282, h_v313_0, h_v313_1⟩ := hd
  rw [KW27_eq m ρ c]
  rw [RH_def m' c]
  simp only [Cert.KernelIdeal.Gen.hostOps10, cH]
  after_results_simp
  rw [h_v282, h_v274]
  exact congrArg (addf _) (Cert.LossTail.tail_eq _ _ _ _ _ _ h_v313_0 h_v313_1 (fun q => congrFun h_v281 (ix1 q)))

/-- The boundary's agreement is kept across segment 10. -/
theorem step10 (hag : Agree (F := Ideal) m ρ m' c) (h : Inv9 (F := Ideal) m ρ m' c) : Inv10 (F := Ideal) m ρ m' c :=
  ⟨e10_v323 m ρ m' c hag h,
   e10_v351 m ρ m' c hag h⟩

end AtIdeal

end Cert.Sim

end
-- ==== Proof.SimStep11.lean ====
/-
  From the boundary before segment 11 of the kernel's program to the boundary after it: every buffer read later keeps its
  agreement with the reference's. A buffer the segment only passes on is unchanged on both sides; one its host operations
  compute is the same composition of the same operations of agreeing operands on both sides.
-/
import proofs.«103739_j26439818674747_2_alg».proof.Proof.SimInv
import Idealize.ShloMosaic.Lib.ValueIdx

set_option maxRecDepth 16384
set_option maxHeartbeats 4000000

noncomputable section

namespace Cert.Sim

open Idealize.ShloMosaic Idealize.ShloMosaic.TcCoe Idealize.SL.Sem Idealize.ShloMosaic.StableHlo
open Cert.ReferenceIdeal.Chunks

open Idealize.ShloMosaic.ValueIdx

section Host
variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ) (c : Dev Cert.KernelIdeal.nD)

theorem e11_v323 (hag : Agree m ρ m' c) (h : Inv10 m ρ m' c) : Cert.KernelIdeal.GenP.W29 m ρ c (Proc.devRef .tc Cert.KernelIdeal.main_v323) = Cert.Sim.RI m' c (Proc.devRef .tc Cert.ReferenceIdeal.main_v471) := by
  have hd := h; obtain ⟨h_v323, h_v351⟩ := hd
  rw [W29_eq m ρ c]
  rw [RI_def m' c]
  simp only [Cert.KernelIdeal.Gen.hostOps10_1, Cert.KernelIdeal.Gen.hostOps10_2, cI]
  after_results_simp
  simp only [KW27_arg0 m ρ c, KW27_arg1 m ρ c, KW27_arg2 m ρ c, KW27_arg3 m ρ c, KW27_arg4 m ρ c, KW27_arg5 m ρ c, KW27_arg6 m ρ c, KW27_arg7 m ρ c, KW27_arg8 m ρ c, KW27_arg9 m ρ c, KW27_arg10 m ρ c, KW27_arg11 m ρ c, KW27_arg12 m ρ c, KW27_arg13 m ρ c, KW27_arg14 m ρ c, KW27_arg15 m ρ c, KW27_arg16 m ρ c, KW27_arg17 m ρ c, KW27_arg18 m ρ c, KW27_arg19 m ρ c, KW27_arg20 m ρ c, KW27_arg21 m ρ c, KW27_arg22 m ρ c, RH_arg0 m' c, RH_arg1 m' c, RH_arg2 m' c, RH_arg3 m' c, RH_arg4 m' c, RH_arg5 m' c, RH_arg6 m' c, RH_arg7 m' c, RH_arg8 m' c, RH_arg9 m' c, RH_arg10 m' c, RH_arg11 m' c, RH_arg12 m' c, RH_arg13 m' c, RH_arg14 m' c, RH_arg15 m' c, RH_arg16 m' c, RH_arg17 m' c, RH_arg18 m' c, RH_arg19 m' c, RH_arg20 m' c, RH_arg21 m' c, RH_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v323, h_v351]
  first | done | rfl

theorem e11_v354 (hag : Agree m ρ m' c) (h : Inv10 m ρ m' c) : Cert.KernelIdeal.GenP.W29 m ρ c (Proc.devRef .tc Cert.KernelIdeal.main_v354) = Cert.Sim.RI m' c (Proc.devRef .tc Cert.ReferenceIdeal.main_v502) := by
  have hd := h; obtain ⟨h_v323, h_v351⟩ := hd
  rw [W29_eq m ρ c]
  rw [RI_def m' c]
  simp only [Cert.KernelIdeal.Gen.hostOps10_1, Cert.KernelIdeal.Gen.hostOps10_2, cI]
  after_results_simp
  simp only [KW27_arg0 m ρ c, KW27_arg1 m ρ c, KW27_arg2 m ρ c, KW27_arg3 m ρ c, KW27_arg4 m ρ c, KW27_arg5 m ρ c, KW27_arg6 m ρ c, KW27_arg7 m ρ c, KW27_arg8 m ρ c, KW27_arg9 m ρ c, KW27_arg10 m ρ c, KW27_arg11 m ρ c, KW27_arg12 m ρ c, KW27_arg13 m ρ c, KW27_arg14 m ρ c, KW27_arg15 m ρ c, KW27_arg16 m ρ c, KW27_arg17 m ρ c, KW27_arg18 m ρ c, KW27_arg19 m ρ c, KW27_arg20 m ρ c, KW27_arg21 m ρ c, KW27_arg22 m ρ c, RH_arg0 m' c, RH_arg1 m' c, RH_arg2 m' c, RH_arg3 m' c, RH_arg4 m' c, RH_arg5 m' c, RH_arg6 m' c, RH_arg7 m' c, RH_arg8 m' c, RH_arg9 m' c, RH_arg10 m' c, RH_arg11 m' c, RH_arg12 m' c, RH_arg13 m' c, RH_arg14 m' c, RH_arg15 m' c, RH_arg16 m' c, RH_arg17 m' c, RH_arg18 m' c, RH_arg19 m' c, RH_arg20 m' c, RH_arg21 m' c, RH_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v323, h_v351]
  first | done | rfl

theorem e11_v356 (hag : Agree m ρ m' c) (h : Inv10 m ρ m' c) : Cert.KernelIdeal.GenP.W29 m ρ c (Proc.devRef .tc Cert.KernelIdeal.main_v356) = Cert.Sim.RI m' c (Proc.devRef .tc Cert.ReferenceIdeal.main_v504) := by
  have hd := h; obtain ⟨h_v323, h_v351⟩ := hd
  rw [W29_eq m ρ c]
  rw [RI_def m' c]
  simp only [Cert.KernelIdeal.Gen.hostOps10_1, Cert.KernelIdeal.Gen.hostOps10_2, cI]
  after_results_simp
  simp only [KW27_arg0 m ρ c, KW27_arg1 m ρ c, KW27_arg2 m ρ c, KW27_arg3 m ρ c, KW27_arg4 m ρ c, KW27_arg5 m ρ c, KW27_arg6 m ρ c, KW27_arg7 m ρ c, KW27_arg8 m ρ c, KW27_arg9 m ρ c, KW27_arg10 m ρ c, KW27_arg11 m ρ c, KW27_arg12 m ρ c, KW27_arg13 m ρ c, KW27_arg14 m ρ c, KW27_arg15 m ρ c, KW27_arg16 m ρ c, KW27_arg17 m ρ c, KW27_arg18 m ρ c, KW27_arg19 m ρ c, KW27_arg20 m ρ c, KW27_arg21 m ρ c, KW27_arg22 m ρ c, RH_arg0 m' c, RH_arg1 m' c, RH_arg2 m' c, RH_arg3 m' c, RH_arg4 m' c, RH_arg5 m' c, RH_arg6 m' c, RH_arg7 m' c, RH_arg8 m' c, RH_arg9 m' c, RH_arg10 m' c, RH_arg11 m' c, RH_arg12 m' c, RH_arg13 m' c, RH_arg14 m' c, RH_arg15 m' c, RH_arg16 m' c, RH_arg17 m' c, RH_arg18 m' c, RH_arg19 m' c, RH_arg20 m' c, RH_arg21 m' c, RH_arg22 m' c, ag_arg0 m ρ m' c hag, ag_arg1 m ρ m' c hag, ag_arg2 m ρ m' c hag, ag_arg3 m ρ m' c hag, ag_arg4 m ρ m' c hag, ag_arg5 m ρ m' c hag, ag_arg6 m ρ m' c hag, ag_arg7 m ρ m' c hag, ag_arg8 m ρ m' c hag, ag_arg9 m ρ m' c hag, ag_arg10 m ρ m' c hag, ag_arg11 m ρ m' c hag, ag_arg12 m ρ m' c hag, ag_arg13 m ρ m' c hag, ag_arg14 m ρ m' c hag, ag_arg15 m ρ m' c hag, ag_arg16 m ρ m' c hag, ag_arg17 m ρ m' c hag, ag_arg18 m ρ m' c hag, ag_arg19 m ρ m' c hag, ag_arg20 m ρ m' c hag, ag_arg21 m ρ m' c hag, ag_arg22 m ρ m' c hag, h_v323, h_v351]
  first | done | rfl

end Host

section AtIdeal
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The boundary's agreement is kept across segment 11. -/
theorem step11 (hag : Agree (F := Ideal) m ρ m' c) (h : Inv10 (F := Ideal) m ρ m' c) : Inv11 (F := Ideal) m ρ m' c :=
  ⟨e11_v323 m ρ m' c hag h,
   e11_v354 m ρ m' c hag h,
   e11_v356 m ρ m' c hag h⟩

end AtIdeal

end Cert.Sim

end
-- ==== Proof.lean ====
/-
  The kernel computes LightGCL's forward pass with ten pallas regions among host operations: two perturb-and-scale
  regions (the SVD factors with sign-aligned unit-norm noise, scaled by the singular values), four leaky projections
  (two per propagation layer) and four contrastive-score regions; the sparse message passing, the normalisations, the
  log-ratio sums and the ranking loss are host operations shared with the reference, operation for operation.

    frames — both kernel programs run to the end with their arguments unchanged (the launch theorem over the
      program's segments); the reference's run is the fold of its host operations, none of which writes an argument.
    preserves — the idealization rewrote one thing, twice: the sign read through the float's top bit, which at the
      extended reals is "below zero".
    algebraic — walk the two programs side by side. At the launch they agree on the arguments. Across every segment
      of the kernel's program each buffer still needed agrees with the reference's buffer computed by the same
      operations: a host operation is the same function of agreeing operands on both sides; a perturb-and-scale
      region and the reference's chain sign · ν/max(‖ν‖, ε) · 0.05 added and scaled are one function of the row; a
      projection region and leaky(x·M) are one function, a sum over the 64 contracted columns in either order; a
      score region and exp(⟨h₁,h₂⟩/τ), Σⱼ exp(⟨h₁,h₂ⱼ⟩/τ) are one function; the masked log-ratio sum over a [2048,1]
      column is the sum over the [2048] vector. At the return the three losses agree.
-/
import proofs.«103739_j26439818674747_2_alg».proof.Defs
import proofs.«103739_j26439818674747_2_alg».proof.Proof.Gen.Kernel
import proofs.«103739_j26439818674747_2_alg».proof.Proof.Gen.KernelIdeal
import proofs.«103739_j26439818674747_2_alg».proof.Proof.Gen.ReferenceIdeal
import proofs.«103739_j26439818674747_2_alg».proof.Proof.Gen.Pre_finite_inputs
import proofs.«103739_j26439818674747_2_alg».proof.Proof.FrameK
import proofs.«103739_j26439818674747_2_alg».proof.Proof.FrameKI
import proofs.«103739_j26439818674747_2_alg».proof.Proof.KRun
import proofs.«103739_j26439818674747_2_alg».proof.Proof.RefChunks
import proofs.«103739_j26439818674747_2_alg».proof.Proof.RefArgs
import proofs.«103739_j26439818674747_2_alg».proof.Proof.RefBounds
import proofs.«103739_j26439818674747_2_alg».proof.Proof.SimInv
import proofs.«103739_j26439818674747_2_alg».proof.Proof.SimStep0
import proofs.«103739_j26439818674747_2_alg».proof.Proof.SimStep1
import proofs.«103739_j26439818674747_2_alg».proof.Proof.SimStep2
import proofs.«103739_j26439818674747_2_alg».proof.Proof.SimStep3
import proofs.«103739_j26439818674747_2_alg».proof.Proof.SimStep4
import proofs.«103739_j26439818674747_2_alg».proof.Proof.SimStep5
import proofs.«103739_j26439818674747_2_alg».proof.Proof.SimStep6
import proofs.«103739_j26439818674747_2_alg».proof.Proof.SimStep7
import proofs.«103739_j26439818674747_2_alg».proof.Proof.SimStep8
import proofs.«103739_j26439818674747_2_alg».proof.Proof.SimStep9
import proofs.«103739_j26439818674747_2_alg».proof.Proof.SimStep10
import proofs.«103739_j26439818674747_2_alg».proof.Proof.SimStep11
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs: every buffer ends at the fold of its operations, and no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Chunks.allops_arg0 _),
     (h c Cert.ReferenceIdeal.main_arg1).trans (Cert.ReferenceIdeal.Chunks.allops_arg1 _),
     (h c Cert.ReferenceIdeal.main_arg2).trans (Cert.ReferenceIdeal.Chunks.allops_arg2 _),
     (h c Cert.ReferenceIdeal.main_arg3).trans (Cert.ReferenceIdeal.Chunks.allops_arg3 _),
     (h c Cert.ReferenceIdeal.main_arg4).trans (Cert.ReferenceIdeal.Chunks.allops_arg4 _),
     (h c Cert.ReferenceIdeal.main_arg5).trans (Cert.ReferenceIdeal.Chunks.allops_arg5 _),
     (h c Cert.ReferenceIdeal.main_arg6).trans (Cert.ReferenceIdeal.Chunks.allops_arg6 _),
     (h c Cert.ReferenceIdeal.main_arg7).trans (Cert.ReferenceIdeal.Chunks.allops_arg7 _),
     (h c Cert.ReferenceIdeal.main_arg8).trans (Cert.ReferenceIdeal.Chunks.allops_arg8 _),
     (h c Cert.ReferenceIdeal.main_arg9).trans (Cert.ReferenceIdeal.Chunks.allops_arg9 _),
     (h c Cert.ReferenceIdeal.main_arg10).trans (Cert.ReferenceIdeal.Chunks.allops_arg10 _),
     (h c Cert.ReferenceIdeal.main_arg11).trans (Cert.ReferenceIdeal.Chunks.allops_arg11 _),
     (h c Cert.ReferenceIdeal.main_arg12).trans (Cert.ReferenceIdeal.Chunks.allops_arg12 _),
     (h c Cert.ReferenceIdeal.main_arg13).trans (Cert.ReferenceIdeal.Chunks.allops_arg13 _),
     (h c Cert.ReferenceIdeal.main_arg14).trans (Cert.ReferenceIdeal.Chunks.allops_arg14 _),
     (h c Cert.ReferenceIdeal.main_arg15).trans (Cert.ReferenceIdeal.Chunks.allops_arg15 _),
     (h c Cert.ReferenceIdeal.main_arg16).trans (Cert.ReferenceIdeal.Chunks.allops_arg16 _),
     (h c Cert.ReferenceIdeal.main_arg17).trans (Cert.ReferenceIdeal.Chunks.allops_arg17 _),
     (h c Cert.ReferenceIdeal.main_arg18).trans (Cert.ReferenceIdeal.Chunks.allops_arg18 _),
     (h c Cert.ReferenceIdeal.main_arg19).trans (Cert.ReferenceIdeal.Chunks.allops_arg19 _),
     (h c Cert.ReferenceIdeal.main_arg20).trans (Cert.ReferenceIdeal.Chunks.allops_arg20 _),
     (h c Cert.ReferenceIdeal.main_arg21).trans (Cert.ReferenceIdeal.Chunks.allops_arg21 _),
     (h c Cert.ReferenceIdeal.main_arg22).trans (Cert.ReferenceIdeal.Chunks.allops_arg22 _)⟩)
    (Cert.ReferenceIdeal.Chunks.run_all (F := Ideal) m ρ)

/-- The two places the idealization rewrote: the sign bit read as "below zero", at the perturb kernel's block shape. -/
theorem preserves : Cert.preserves_Kernel_KernelIdeal :=
  ⟨IdealRules.sign_bit.statement Cert.KernelIdeal.S5000x64 .f32, IdealRules.sign_bit.statement Cert.KernelIdeal.S5000x64 .f32⟩

/-- The two idealized programs, from memories agreeing on the arguments, end with the same three losses. -/
theorem algebraic : Cert.algebraic_KernelIdeal_ReferenceIdeal := by
  intro m ρ m' ρ' _ hagree
  have hAg : ∀ c, Cert.Sim.Agree (F := Ideal) m ρ m' c := fun c =>
    ⟨(Cert.Sim.W0m_arg0 m ρ c).trans ((hagree c).1).symm,
     (Cert.Sim.W0m_arg1 m ρ c).trans ((hagree c).2.1).symm,
     (Cert.Sim.W0m_arg2 m ρ c).trans ((hagree c).2.2.1).symm,
     (Cert.Sim.W0m_arg3 m ρ c).trans ((hagree c).2.2.2.1).symm,
     (Cert.Sim.W0m_arg4 m ρ c).trans ((hagree c).2.2.2.2.1).symm,
     (Cert.Sim.W0m_arg5 m ρ c).trans ((hagree c).2.2.2.2.2.1).symm,
     (Cert.Sim.W0m_arg6 m ρ c).trans ((hagree c).2.2.2.2.2.2.1).symm,
     (Cert.Sim.W0m_arg7 m ρ c).trans ((hagree c).2.2.2.2.2.2.2.1).symm,
     (Cert.Sim.W0m_arg8 m ρ c).trans ((hagree c).2.2.2.2.2.2.2.2.1).symm,
     (Cert.Sim.W0m_arg9 m ρ c).trans ((hagree c).2.2.2.2.2.2.2.2.2.1).symm,
     (Cert.Sim.W0m_arg10 m ρ c).trans ((hagree c).2.2.2.2.2.2.2.2.2.2.1).symm,
     (Cert.Sim.W0m_arg11 m ρ c).trans ((hagree c).2.2.2.2.2.2.2.2.2.2.2.1).symm,
     (Cert.Sim.W0m_arg12 m ρ c).trans ((hagree c).2.2.2.2.2.2.2.2.2.2.2.2.1).symm,
     (Cert.Sim.W0m_arg13 m ρ c).trans ((hagree c).2.2.2.2.2.2.2.2.2.2.2.2.2.1).symm,
     (Cert.Sim.W0m_arg14 m ρ c).trans ((hagree c).2.2.2.2.2.2.2.2.2.2.2.2.2.2.1).symm,
     (Cert.Sim.W0m_arg15 m ρ c).trans ((hagree c).2.2.2.2.2.2.2.2.2.2.2.2.2.2.2.1).symm,
     (Cert.Sim.W0m_arg16 m ρ c).trans ((hagree c).2.2.2.2.2.2.2.2.2.2.2.2.2.2.2.2.1).symm,
     (Cert.Sim.W0m_arg17 m ρ c).trans ((hagree c).2.2.2.2.2.2.2.2.2.2.2.2.2.2.2.2.2.1).symm,
     (Cert.Sim.W0m_arg18 m ρ c).trans ((hagree c).2.2.2.2.2.2.2.2.2.2.2.2.2.2.2.2.2.2.1).symm,
     (Cert.Sim.W0m_arg19 m ρ c).trans ((hagree c).2.2.2.2.2.2.2.2.2.2.2.2.2.2.2.2.2.2.2.1).symm,
     (Cert.Sim.W0m_arg20 m ρ c).trans ((hagree c).2.2.2.2.2.2.2.2.2.2.2.2.2.2.2.2.2.2.2.2.1).symm,
     (Cert.Sim.W0m_arg21 m ρ c).trans ((hagree c).2.2.2.2.2.2.2.2.2.2.2.2.2.2.2.2.2.2.2.2.2.1).symm,
     (Cert.Sim.W0m_arg22 m ρ c).trans ((hagree c).2.2.2.2.2.2.2.2.2.2.2.2.2.2.2.2.2.2.2.2.2.2).symm⟩
  have hE : ∀ c, Cert.Sim.Inv11 (F := Ideal) m ρ m' c := fun c =>
    Cert.Sim.step11 m ρ m' c (hAg c) (Cert.Sim.step10 m ρ m' c (hAg c) (Cert.Sim.step9 m ρ m' c (hAg c) (Cert.Sim.step8 m ρ m' c (hAg c)
      (Cert.Sim.step7 m ρ m' c (hAg c) (Cert.Sim.step6 m ρ m' c (hAg c) (Cert.Sim.step5 m ρ m' c (hAg c) (Cert.Sim.step4 m ρ m' c (hAg c)
        (Cert.Sim.step3 m ρ m' c (hAg c) (Cert.Sim.step2 m ρ m' c (hAg c) (Cert.Sim.step1 m ρ m' c (hAg c) (Cert.Sim.step0 m ρ m' c (hAg c) trivial)))))))))))
  refine ⟨fun c => Cert.KernelIdeal.GenP.W29 m ρ c (Proc.devRef .tc Cert.KernelIdeal.main_v356),
    fun c => Cert.KernelIdeal.GenP.W29 m ρ c (Proc.devRef .tc Cert.KernelIdeal.main_v354),
    fun c => Cert.KernelIdeal.GenP.W29 m ρ c (Proc.devRef .tc Cert.KernelIdeal.main_v323), ?_, ?_⟩
  · exact (θ_run Cert.KernelIdeal.defs _ _).mono (fun _ h c =>
      ⟨h c Cert.KernelIdeal.main_v356 (by decide), h c Cert.KernelIdeal.main_v354 (by decide), h c Cert.KernelIdeal.main_v323 (by decide),
       (h c Cert.KernelIdeal.main_arg0 (by decide)).trans (Cert.KernelIdeal.GenP.W29_main_arg0 m ρ c),
       (h c Cert.KernelIdeal.main_arg1 (by decide)).trans (Cert.KernelIdeal.GenP.W29_main_arg1 m ρ c),
       (h c Cert.KernelIdeal.main_arg2 (by decide)).trans (Cert.KernelIdeal.GenP.W29_main_arg2 m ρ c),
       (h c Cert.KernelIdeal.main_arg3 (by decide)).trans (Cert.KernelIdeal.GenP.W29_main_arg3 m ρ c),
       (h c Cert.KernelIdeal.main_arg4 (by decide)).trans (Cert.KernelIdeal.GenP.W29_main_arg4 m ρ c),
       (h c Cert.KernelIdeal.main_arg5 (by decide)).trans (Cert.KernelIdeal.GenP.W29_main_arg5 m ρ c),
       (h c Cert.KernelIdeal.main_arg6 (by decide)).trans (Cert.KernelIdeal.GenP.W29_main_arg6 m ρ c),
       (h c Cert.KernelIdeal.main_arg7 (by decide)).trans (Cert.KernelIdeal.GenP.W29_main_arg7 m ρ c),
       (h c Cert.KernelIdeal.main_arg8 (by decide)).trans (Cert.KernelIdeal.GenP.W29_main_arg8 m ρ c),
       (h c Cert.KernelIdeal.main_arg9 (by decide)).trans (Cert.KernelIdeal.GenP.W29_main_arg9 m ρ c),
       (h c Cert.KernelIdeal.main_arg10 (by decide)).trans (Cert.KernelIdeal.GenP.W29_main_arg10 m ρ c),
       (h c Cert.KernelIdeal.main_arg11 (by decide)).trans (Cert.KernelIdeal.GenP.W29_main_arg11 m ρ c),
       (h c Cert.KernelIdeal.main_arg12 (by decide)).trans (Cert.KernelIdeal.GenP.W29_main_arg12 m ρ c),
       (h c Cert.KernelIdeal.main_arg13 (by decide)).trans (Cert.KernelIdeal.GenP.W29_main_arg13 m ρ c),
       (h c Cert.KernelIdeal.main_arg14 (by decide)).trans (Cert.KernelIdeal.GenP.W29_main_arg14 m ρ c),
       (h c Cert.KernelIdeal.main_arg15 (by decide)).trans (Cert.KernelIdeal.GenP.W29_main_arg15 m ρ c),
       (h c Cert.KernelIdeal.main_arg16 (by decide)).trans (Cert.KernelIdeal.GenP.W29_main_arg16 m ρ c),
       (h c Cert.KernelIdeal.main_arg17 (by decide)).trans (Cert.KernelIdeal.GenP.W29_main_arg17 m ρ c),
       (h c Cert.KernelIdeal.main_arg18 (by decide)).trans (Cert.KernelIdeal.GenP.W29_main_arg18 m ρ c),
       (h c Cert.KernelIdeal.main_arg19 (by decide)).trans (Cert.KernelIdeal.GenP.W29_main_arg19 m ρ c),
       (h c Cert.KernelIdeal.main_arg20 (by decide)).trans (Cert.KernelIdeal.GenP.W29_main_arg20 m ρ c),
       (h c Cert.KernelIdeal.main_arg21 (by decide)).trans (Cert.KernelIdeal.GenP.W29_main_arg21 m ρ c),
       (h c Cert.KernelIdeal.main_arg22 (by decide)).trans (Cert.KernelIdeal.GenP.W29_main_arg22 m ρ c)⟩)
      (Cert.KernelIdeal.RunAll.run_all (F := Ideal) m ρ)
  · exact (θ_run Cert.ReferenceIdeal.defs _ _).mono (fun _ h c =>
      ⟨((h c Cert.ReferenceIdeal.main_v504).trans (congrFun (Cert.Sim.RI_eq m' c).symm _)).trans ((hE c).2.2).symm,
       ((h c Cert.ReferenceIdeal.main_v502).trans (congrFun (Cert.Sim.RI_eq m' c).symm _)).trans ((hE c).2.1).symm,
       ((h c Cert.ReferenceIdeal.main_v471).trans (congrFun (Cert.Sim.RI_eq m' c).symm _)).trans ((hE c).1).symm,
       (h c Cert.ReferenceIdeal.main_arg0).trans (Cert.ReferenceIdeal.Chunks.allops_arg0 _),
       (h c Cert.ReferenceIdeal.main_arg1).trans (Cert.ReferenceIdeal.Chunks.allops_arg1 _),
       (h c Cert.ReferenceIdeal.main_arg2).trans (Cert.ReferenceIdeal.Chunks.allops_arg2 _),
       (h c Cert.ReferenceIdeal.main_arg3).trans (Cert.ReferenceIdeal.Chunks.allops_arg3 _),
       (h c Cert.ReferenceIdeal.main_arg4).trans (Cert.ReferenceIdeal.Chunks.allops_arg4 _),
       (h c Cert.ReferenceIdeal.main_arg5).trans (Cert.ReferenceIdeal.Chunks.allops_arg5 _),
       (h c Cert.ReferenceIdeal.main_arg6).trans (Cert.ReferenceIdeal.Chunks.allops_arg6 _),
       (h c Cert.ReferenceIdeal.main_arg7).trans (Cert.ReferenceIdeal.Chunks.allops_arg7 _),
       (h c Cert.ReferenceIdeal.main_arg8).trans (Cert.ReferenceIdeal.Chunks.allops_arg8 _),
       (h c Cert.ReferenceIdeal.main_arg9).trans (Cert.ReferenceIdeal.Chunks.allops_arg9 _),
       (h c Cert.ReferenceIdeal.main_arg10).trans (Cert.ReferenceIdeal.Chunks.allops_arg10 _),
       (h c Cert.ReferenceIdeal.main_arg11).trans (Cert.ReferenceIdeal.Chunks.allops_arg11 _),
       (h c Cert.ReferenceIdeal.main_arg12).trans (Cert.ReferenceIdeal.Chunks.allops_arg12 _),
       (h c Cert.ReferenceIdeal.main_arg13).trans (Cert.ReferenceIdeal.Chunks.allops_arg13 _),
       (h c Cert.ReferenceIdeal.main_arg14).trans (Cert.ReferenceIdeal.Chunks.allops_arg14 _),
       (h c Cert.ReferenceIdeal.main_arg15).trans (Cert.ReferenceIdeal.Chunks.allops_arg15 _),
       (h c Cert.ReferenceIdeal.main_arg16).trans (Cert.ReferenceIdeal.Chunks.allops_arg16 _),
       (h c Cert.ReferenceIdeal.main_arg17).trans (Cert.ReferenceIdeal.Chunks.allops_arg17 _),
       (h c Cert.ReferenceIdeal.main_arg18).trans (Cert.ReferenceIdeal.Chunks.allops_arg18 _),
       (h c Cert.ReferenceIdeal.main_arg19).trans (Cert.ReferenceIdeal.Chunks.allops_arg19 _),
       (h c Cert.ReferenceIdeal.main_arg20).trans (Cert.ReferenceIdeal.Chunks.allops_arg20 _),
       (h c Cert.ReferenceIdeal.main_arg21).trans (Cert.ReferenceIdeal.Chunks.allops_arg21 _),
       (h c Cert.ReferenceIdeal.main_arg22).trans (Cert.ReferenceIdeal.Chunks.allops_arg22 _)⟩)
      (Cert.ReferenceIdeal.Chunks.run_all (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
